-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![4, 512, 256]⟩ ⟨3, ![4, 512, 8192]⟩ 2 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4, 256]⟩ ⟨2, ![4, 8192]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 256]⟩ ⟨2, ![8192, 256]⟩ 0 32 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v36) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S4x512x256 : Shape := ⟨3, ![4, 512, 256]⟩
abbrev S4x256 : Shape := ⟨2, ![4, 256]⟩
abbrev S256x256 : Shape := ⟨2, ![256, 256]⟩
abbrev S_ : Shape := ⟨0, ![]⟩

class Facts : Prop where
  bcast_S_S4x512x256 : S_.BroadcastsInDim S4x512x256 (![] : Fin 0 → Fin S4x512x256.rank)
  reducesTo_S4x512x256_S_d0_1_2 : S4x512x256.ReducesTo [0, 1, 2] S_
  h_S_ : 0 < S_.numel
  bcast_S_S4x256 : S_.BroadcastsInDim S4x256 (![] : Fin 0 → Fin S4x256.rank)
  reducesTo_S4x256_S_d0_1 : S4x256.ReducesTo [0, 1] S_
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S4x512x256 .f32) (main_arg1 : FVec F S4x256 .f32) (main_arg2 : FVec F S256x256 .f32) : IVec S_ 1 :=
  let main_v0 : FVec F S4x512x256 .f32 := Host.absf main_arg0
  let main_cst : FVec F S_ .f32 := constant S_ .f32 0x7F800000#32
  let main_v1 : FVec F S4x512x256 .f32 := broadcastInDim S4x512x256 ![] bcast_S_S4x512x256 main_cst
  let main_v2 : IVec S4x512x256 1 := cmpf .olt main_v0 main_v1
  let main_c : IVec S_ 1 := constantI S_ 1 1#1
  let main_v3 : IVec S_ 1 := (fun x v => Host.reduce IntOp.andi x v reducesTo_S4x512x256_S_d0_1_2 h_S_) main_v2 main_c
  let main_v4 : FVec F S4x256 .f32 := Host.absf main_arg1
  let main_cst_0 : FVec F S_ .f32 := constant S_ .f32 0x7F800000#32
  let main_v5 : FVec F S4x256 .f32 := broadcastInDim S4x256 ![] bcast_S_S4x256 main_cst_0
  let main_v6 : IVec S4x256 1 := cmpf .olt main_v4 main_v5
  let main_c_1 : IVec S_ 1 := constantI S_ 1 1#1
  let main_v7 : IVec S_ 1 := (fun x v => Host.reduce IntOp.andi x v reducesTo_S4x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  main_v13
-- ==== Pre_finite_inputs_ReferenceIdeal.lean ====
abbrev S4x512x8192 : Shape := ⟨3, ![4, 512, 8192]⟩
abbrev S4x8192 : Shape := ⟨2, ![4, 8192]⟩
abbrev S8192x256 : Shape := ⟨2, ![8192, 256]⟩
abbrev S_ : Shape := ⟨0, ![]⟩

class Facts : Prop where
  bcast_S_S4x512x8192 : S_.BroadcastsInDim S4x512x8192 (![] : Fin 0 → Fin S4x512x8192.rank)
  reducesTo_S4x512x8192_S_d0_1_2 : S4x512x8192.ReducesTo [0, 1, 2] S_
  h_S_ : 0 < S_.numel
  bcast_S_S4x8192 : S_.BroadcastsInDim S4x8192 (![] : Fin 0 → Fin S4x8192.rank)
  reducesTo_S4x8192_S_d0_1 : S4x8192.ReducesTo [0, 1] S_
  bcast_S_S8192x256 : S_.BroadcastsInDim S8192x256 (![] : Fin 0 → Fin S8192x256.rank)
  reducesTo_S8192x256_S_d0_1 : S8192x256.ReducesTo [0, 1] S_

variable [Facts]

def fn {F : FTy → Type} [FloatOps F] (main_arg0 : FVec F S4x512x8192 .f32) (main_arg1 : FVec F S4x8192 .f32) (main_arg2 : FVec F S8192x256 .f32) : IVec S_ 1 :=
  let main_v0 : FVec F S4x512x8192 .f32 := Host.absf main_arg0
  let main_cst : FVec F S_ .f32 := constant S_ .f32 0x7F800000#32
  let main_v1 : FVec F S4x512x8192 .f32 := broadcastInDim S4x512x8192 ![] bcast_S_S4x512x8192 main_cst
  let main_v2 : IVec S4x512x8192 1 := cmpf .olt main_v0 main_v1
  let main_c : IVec S_ 1 := constantI S_ 1 1#1
  let main_v3 : IVec S_ 1 := (fun x v => Host.reduce IntOp.andi x v reducesTo_S4x512x8192_S_d0_1_2 h_S_) main_v2 main_c
  let main_v4 : FVec F S4x8192 .f32 := Host.absf main_arg1
  let main_cst_0 : FVec F S_ .f32 := constant S_ .f32 0x7F800000#32
  let main_v5 : FVec F S4x8192 .f32 := broadcastInDim S4x8192 ![] bcast_S_S4x8192 main_cst_0
  let main_v6 : IVec S4x8192 1 := cmpf .olt main_v4 main_v5
  let main_c_1 : IVec S_ 1 := constantI S_ 1 1#1
  let main_v7 : IVec S_ 1 := (fun x v => Host.reduce IntOp.andi x v reducesTo_S4x8192_S_d0_1 h_S_) main_v6 main_c_1
  let main_v8 : IVec S_ 1 := andi main_v3 main_v7
  let main_v9 : FVec F S8192x256 .f32 := Host.absf main_arg2
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  let main_c_3 : IVec S_ 1 := constantI S_ 1 1#1
  let main_v12 : IVec S_ 1 := (fun x v => Host.reduce IntOp.andi x v reducesTo_S8192x256_S_d0_1 h_S_) main_v11 main_c_3
  let main_v13 : IVec S_ 1 := andi main_v8 main_v12
  main_v13
-- ==== Kernel.lean ====
abbrev S4x512x256 : Shape := ⟨3, ![4, 512, 256]⟩
abbrev S4x256 : Shape := ⟨2, ![4, 256]⟩
abbrev S256x256 : Shape := ⟨2, ![256, 256]⟩
abbrev S32x64x256 : Shape := ⟨3, ![32, 64, 256]⟩
abbrev S32 : Shape := ⟨1, ![32]⟩
abbrev S_ : Shape := ⟨0, ![]⟩
abbrev S1x256 : Shape := ⟨2, ![1, 256]⟩
abbrev S256 : Shape := ⟨1, ![256]⟩
abbrev S1x1x256 : Shape := ⟨3, ![1, 1, 256]⟩
abbrev S4x3x256 : Shape := ⟨3, ![4, 3, 256]⟩
abbrev S4x509x256 : Shape := ⟨3, ![4, 509, 256]⟩
abbrev S4x2x256 : Shape := ⟨3, ![4, 2, 256]⟩
abbrev S4x510x256 : Shape := ⟨3, ![4, 510, 256]⟩
abbrev S4x1x256 : Shape := ⟨3, ![4, 1, 256]⟩
abbrev S4x511x256 : Shape := ⟨3, ![4, 511, 256]⟩
abbrev S2048x256 : Shape := ⟨2, ![2048, 256]⟩
abbrev S1x64x256 : Shape := ⟨3, ![1, 64, 256]⟩
abbrev S64x256 : Shape := ⟨2, ![64, 256]⟩
abbrev S1 : Shape := ⟨1, ![1]⟩

abbrev nBuf : Space → Nat
  | .hbm => 4
  | .vmem => 7
  | .smem => 0
  | _ => 0

abbrev bufTy : (tb : Table) → Fin (tcTables nBuf tb) → BufTy
  | .hbm, ⟨0, _⟩ => ⟨S4x512x256, .f32⟩
  | .hbm, ⟨1, _⟩ => ⟨S4x256, .f32⟩
  | .hbm, ⟨2, _⟩ => ⟨S256x256, .f32⟩
  | .hbm, ⟨3, _⟩ => ⟨S4x512x256, .f32⟩
  | .local _ .vmem, ⟨0, _⟩ => ⟨S4x512x256, .f32⟩
  | .local _ .vmem, ⟨1, _⟩ => ⟨S4x256, .f32⟩
  | .local _ .vmem, ⟨2, _⟩ => ⟨S256x256, .f32⟩
  | .local _ .vmem, ⟨3, _⟩ => ⟨S4x512x256, .f32⟩
  | .local _ .vmem, ⟨4, _⟩ => ⟨S32x64x256, .bf16⟩
  | .local _ .vmem, ⟨5, _⟩ => ⟨S32x64x256, .bf16⟩
  | .local _ .vmem, ⟨6, _⟩ => ⟨S32x64x256, .bf16⟩
  | _, _ => ⟨S4x512x256, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 132 → Bool
  | ⟨i, _⟩ => dmaSemScopedAt i

abbrev sig : RefSig :=
  (ofTc nBuf bufTy 1 132 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v177 : Index := Scalar.indexCast v2
  let c0_136 : Index := 0#32
  let c0_137 : Index := 0#32
  ![v177.toNat, 0, 0]
def k0_off2 (d0 : Dev nD) (c1_i32_142 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v183 : BitVec 32 := Scalar.addi v2 c1_i32_142
  let c32_i32_143 : BitVec 32 := 32#32
  let v184 : BitVec 32 := Scalar.remsi v183 c32_i32_143
  let c0_i32_151 : BitVec 32 := 0#32
  let c0_i32_152 : BitVec 32 := 0#32
  ![v184.toNat, 0, 0]
def k0_dev32 (d0 : Dev nD) : Nat :=
  let c0_i32_148 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_142 : BitVec 32 := 1#32
  let v183 : BitVec 32 := Scalar.addi v2 c1_i32_142
  let c32_i32_143 : BitVec 32 := 32#32
  let v184 : BitVec 32 := Scalar.remsi v183 c32_i32_143
  let c1_i32_147 : BitVec 32 := 1#32
  let v185 : BitVec 32 := Scalar.muli v184 c1_i32_147
  let v186 : BitVec 32 := Scalar.addi c0_i32_148 v185
  v186.toNat
def k0_dev33 (d0 : Dev nD) : Nat :=
  let c0_i32_159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_153 : BitVec 32 := 2#32
  let v195 : BitVec 32 := Scalar.addi v2 c2_i32_153
  let c32_i32_154 : BitVec 32 := 32#32
  let v196 : BitVec 32 := Scalar.remsi v195 c32_i32_154
  let c1_i32_158 : BitVec 32 := 1#32
  let v197 : BitVec 32 := Scalar.muli v196 c1_i32_158
  let v198 : BitVec 32 := Scalar.addi c0_i32_159 v197
  v198.toNat
def k0_dev34 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_164 : BitVec 32 := 3#32
  let v207 : BitVec 32 := Scalar.addi v2 c3_i32_164
  let c32_i32_165 : BitVec 32 := 32#32
  let v208 : BitVec 32 := Scalar.remsi v207 c32_i32_165
  let c1_i32_169 : BitVec 32 := 1#32
  let v209 : BitVec 32 := Scalar.muli v208 c1_i32_169
  let v210 : BitVec 32 := Scalar.addi c0_i32_170 v209
  v210.toNat
def k0_dev35 (d0 : Dev nD) : Nat :=
  let c0_i32_181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_175 : BitVec 32 := 4#32
  let v219 : BitVec 32 := Scalar.addi v2 c4_i32_175
  let c32_i32_176 : BitVec 32 := 32#32
  let v220 : BitVec 32 := Scalar.remsi v219 c32_i32_176
  let c1_i32_180 : BitVec 32 := 1#32
  let v221 : BitVec 32 := Scalar.muli v220 c1_i32_180
  let v222 : BitVec 32 := Scalar.addi c0_i32_181 v221
  v222.toNat
def k0_dev36 (d0 : Dev nD) : Nat :=
  let c0_i32_192 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_186 : BitVec 32 := 5#32
  let v231 : BitVec 32 := Scalar.addi v2 c5_i32_186
  let c32_i32_187 : BitVec 32 := 32#32
  let v232 : BitVec 32 := Scalar.remsi v231 c32_i32_187
  let c1_i32_191 : BitVec 32 := 1#32
  let v233 : BitVec 32 := Scalar.muli v232 c1_i32_191
  let v234 : BitVec 32 := Scalar.addi c0_i32_192 v233
  v234.toNat
def k0_dev37 (d0 : Dev nD) : Nat :=
  let c0_i32_203 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_197 : BitVec 32 := 6#32
  let v243 : BitVec 32 := Scalar.addi v2 c6_i32_197
  let c32_i32_198 : BitVec 32 := 32#32
  let v244 : BitVec 32 := Scalar.remsi v243 c32_i32_198
  let c1_i32_202 : BitVec 32 := 1#32
  let v245 : BitVec 32 := Scalar.muli v244 c1_i32_202
  let v246 : BitVec 32 := Scalar.addi c0_i32_203 v245
  v246.toNat
def k0_dev38 (d0 : Dev nD) : Nat :=
  let c0_i32_214 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_208 : BitVec 32 := 7#32
  let v255 : BitVec 32 := Scalar.addi v2 c7_i32_208
  let c32_i32_209 : BitVec 32 := 32#32
  let v256 : BitVec 32 := Scalar.remsi v255 c32_i32_209
  let c1_i32_213 : BitVec 32 := 1#32
  let v257 : BitVec 32 := Scalar.muli v256 c1_i32_213
  let v258 : BitVec 32 := Scalar.addi c0_i32_214 v257
  v258.toNat
def k0_dev39 (d0 : Dev nD) : Nat :=
  let c0_i32_225 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_219 : BitVec 32 := 8#32
  let v267 : BitVec 32 := Scalar.addi v2 c8_i32_219
  let c32_i32_220 : BitVec 32 := 32#32
  let v268 : BitVec 32 := Scalar.remsi v267 c32_i32_220
  let c1_i32_224 : BitVec 32 := 1#32
  let v269 : BitVec 32 := Scalar.muli v268 c1_i32_224
  let v270 : BitVec 32 := Scalar.addi c0_i32_225 v269
  v270.toNat
def k0_dev40 (d0 : Dev nD) : Nat :=
  let c0_i32_236 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_230 : BitVec 32 := 9#32
  let v279 : BitVec 32 := Scalar.addi v2 c9_i32_230
  let c32_i32_231 : BitVec 32 := 32#32
  let v280 : BitVec 32 := Scalar.remsi v279 c32_i32_231
  let c1_i32_235 : BitVec 32 := 1#32
  let v281 : BitVec 32 := Scalar.muli v280 c1_i32_235
  let v282 : BitVec 32 := Scalar.addi c0_i32_236 v281
  v282.toNat
def k0_dev41 (d0 : Dev nD) : Nat :=
  let c0_i32_247 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_241 : BitVec 32 := 10#32
  let v291 : BitVec 32 := Scalar.addi v2 c10_i32_241
  let c32_i32_242 : BitVec 32 := 32#32
  let v292 : BitVec 32 := Scalar.remsi v291 c32_i32_242
  let c1_i32_246 : BitVec 32 := 1#32
  let v293 : BitVec 32 := Scalar.muli v292 c1_i32_246
  let v294 : BitVec 32 := Scalar.addi c0_i32_247 v293
  v294.toNat
def k0_dev42 (d0 : Dev nD) : Nat :=
  let c0_i32_258 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_252 : BitVec 32 := 11#32
  let v303 : BitVec 32 := Scalar.addi v2 c11_i32_252
  let c32_i32_253 : BitVec 32 := 32#32
  let v304 : BitVec 32 := Scalar.remsi v303 c32_i32_253
  let c1_i32_257 : BitVec 32 := 1#32
  let v305 : BitVec 32 := Scalar.muli v304 c1_i32_257
  let v306 : BitVec 32 := Scalar.addi c0_i32_258 v305
  v306.toNat
def k0_dev43 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_263 : BitVec 32 := 12#32
  let v315 : BitVec 32 := Scalar.addi v2 c12_i32_263
  let c32_i32_264 : BitVec 32 := 32#32
  let v316 : BitVec 32 := Scalar.remsi v315 c32_i32_264
  let c1_i32_268 : BitVec 32 := 1#32
  let v317 : BitVec 32 := Scalar.muli v316 c1_i32_268
  let v318 : BitVec 32 := Scalar.addi c0_i32_269 v317
  v318.toNat
def k0_dev44 (d0 : Dev nD) : Nat :=
  let c0_i32_280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_274 : BitVec 32 := 13#32
  let v327 : BitVec 32 := Scalar.addi v2 c13_i32_274
  let c32_i32_275 : BitVec 32 := 32#32
  let v328 : BitVec 32 := Scalar.remsi v327 c32_i32_275
  let c1_i32_279 : BitVec 32 := 1#32
  let v329 : BitVec 32 := Scalar.muli v328 c1_i32_279
  let v330 : BitVec 32 := Scalar.addi c0_i32_280 v329
  v330.toNat
def k0_dev45 (d0 : Dev nD) : Nat :=
  let c0_i32_291 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_285 : BitVec 32 := 14#32
  let v339 : BitVec 32 := Scalar.addi v2 c14_i32_285
  let c32_i32_286 : BitVec 32 := 32#32
  let v340 : BitVec 32 := Scalar.remsi v339 c32_i32_286
  let c1_i32_290 : BitVec 32 := 1#32
  let v341 : BitVec 32 := Scalar.muli v340 c1_i32_290
  let v342 : BitVec 32 := Scalar.addi c0_i32_291 v341
  v342.toNat
def k0_dev46 (d0 : Dev nD) : Nat :=
  let c0_i32_302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_296 : BitVec 32 := 15#32
  let v351 : BitVec 32 := Scalar.addi v2 c15_i32_296
  let c32_i32_297 : BitVec 32 := 32#32
  let v352 : BitVec 32 := Scalar.remsi v351 c32_i32_297
  let c1_i32_301 : BitVec 32 := 1#32
  let v353 : BitVec 32 := Scalar.muli v352 c1_i32_301
  let v354 : BitVec 32 := Scalar.addi c0_i32_302 v353
  v354.toNat
def k0_dev47 (d0 : Dev nD) : Nat :=
  let c0_i32_313 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_307 : BitVec 32 := 16#32
  let v363 : BitVec 32 := Scalar.addi v2 c16_i32_307
  let c32_i32_308 : BitVec 32 := 32#32
  let v364 : BitVec 32 := Scalar.remsi v363 c32_i32_308
  let c1_i32_312 : BitVec 32 := 1#32
  let v365 : BitVec 32 := Scalar.muli v364 c1_i32_312
  let v366 : BitVec 32 := Scalar.addi c0_i32_313 v365
  v366.toNat
def k0_dev48 (d0 : Dev nD) : Nat :=
  let c0_i32_324 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_318 : BitVec 32 := 17#32
  let v375 : BitVec 32 := Scalar.addi v2 c17_i32_318
  let c32_i32_319 : BitVec 32 := 32#32
  let v376 : BitVec 32 := Scalar.remsi v375 c32_i32_319
  let c1_i32_323 : BitVec 32 := 1#32
  let v377 : BitVec 32 := Scalar.muli v376 c1_i32_323
  let v378 : BitVec 32 := Scalar.addi c0_i32_324 v377
  v378.toNat
def k0_dev49 (d0 : Dev nD) : Nat :=
  let c0_i32_335 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_329 : BitVec 32 := 18#32
  let v387 : BitVec 32 := Scalar.addi v2 c18_i32_329
  let c32_i32_330 : BitVec 32 := 32#32
  let v388 : BitVec 32 := Scalar.remsi v387 c32_i32_330
  let c1_i32_334 : BitVec 32 := 1#32
  let v389 : BitVec 32 := Scalar.muli v388 c1_i32_334
  let v390 : BitVec 32 := Scalar.addi c0_i32_335 v389
  v390.toNat
def k0_dev50 (d0 : Dev nD) : Nat :=
  let c0_i32_346 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_340 : BitVec 32 := 19#32
  let v399 : BitVec 32 := Scalar.addi v2 c19_i32_340
  let c32_i32_341 : BitVec 32 := 32#32
  let v400 : BitVec 32 := Scalar.remsi v399 c32_i32_341
  let c1_i32_345 : BitVec 32 := 1#32
  let v401 : BitVec 32 := Scalar.muli v400 c1_i32_345
  let v402 : BitVec 32 := Scalar.addi c0_i32_346 v401
  v402.toNat
def k0_dev51 (d0 : Dev nD) : Nat :=
  let c0_i32_357 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_351 : BitVec 32 := 20#32
  let v411 : BitVec 32 := Scalar.addi v2 c20_i32_351
  let c32_i32_352 : BitVec 32 := 32#32
  let v412 : BitVec 32 := Scalar.remsi v411 c32_i32_352
  let c1_i32_356 : BitVec 32 := 1#32
  let v413 : BitVec 32 := Scalar.muli v412 c1_i32_356
  let v414 : BitVec 32 := Scalar.addi c0_i32_357 v413
  v414.toNat
def k0_dev52 (d0 : Dev nD) : Nat :=
  let c0_i32_368 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_362 : BitVec 32 := 21#32
  let v423 : BitVec 32 := Scalar.addi v2 c21_i32_362
  let c32_i32_363 : BitVec 32 := 32#32
  let v424 : BitVec 32 := Scalar.remsi v423 c32_i32_363
  let c1_i32_367 : BitVec 32 := 1#32
  let v425 : BitVec 32 := Scalar.muli v424 c1_i32_367
  let v426 : BitVec 32 := Scalar.addi c0_i32_368 v425
  v426.toNat
def k0_dev53 (d0 : Dev nD) : Nat :=
  let c0_i32_379 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_373 : BitVec 32 := 22#32
  let v435 : BitVec 32 := Scalar.addi v2 c22_i32_373
  let c32_i32_374 : BitVec 32 := 32#32
  let v436 : BitVec 32 := Scalar.remsi v435 c32_i32_374
  let c1_i32_378 : BitVec 32 := 1#32
  let v437 : BitVec 32 := Scalar.muli v436 c1_i32_378
  let v438 : BitVec 32 := Scalar.addi c0_i32_379 v437
  v438.toNat
def k0_dev54 (d0 : Dev nD) : Nat :=
  let c0_i32_390 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_384 : BitVec 32 := 23#32
  let v447 : BitVec 32 := Scalar.addi v2 c23_i32_384
  let c32_i32_385 : BitVec 32 := 32#32
  let v448 : BitVec 32 := Scalar.remsi v447 c32_i32_385
  let c1_i32_389 : BitVec 32 := 1#32
  let v449 : BitVec 32 := Scalar.muli v448 c1_i32_389
  let v450 : BitVec 32 := Scalar.addi c0_i32_390 v449
  v450.toNat
def k0_dev55 (d0 : Dev nD) : Nat :=
  let c0_i32_401 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_395 : BitVec 32 := 24#32
  let v459 : BitVec 32 := Scalar.addi v2 c24_i32_395
  let c32_i32_396 : BitVec 32 := 32#32
  let v460 : BitVec 32 := Scalar.remsi v459 c32_i32_396
  let c1_i32_400 : BitVec 32 := 1#32
  let v461 : BitVec 32 := Scalar.muli v460 c1_i32_400
  let v462 : BitVec 32 := Scalar.addi c0_i32_401 v461
  v462.toNat
def k0_dev56 (d0 : Dev nD) : Nat :=
  let c0_i32_412 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_406 : BitVec 32 := 25#32
  let v471 : BitVec 32 := Scalar.addi v2 c25_i32_406
  let c32_i32_407 : BitVec 32 := 32#32
  let v472 : BitVec 32 := Scalar.remsi v471 c32_i32_407
  let c1_i32_411 : BitVec 32 := 1#32
  let v473 : BitVec 32 := Scalar.muli v472 c1_i32_411
  let v474 : BitVec 32 := Scalar.addi c0_i32_412 v473
  v474.toNat
def k0_dev57 (d0 : Dev nD) : Nat :=
  let c0_i32_423 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_417 : BitVec 32 := 26#32
  let v483 : BitVec 32 := Scalar.addi v2 c26_i32_417
  let c32_i32_418 : BitVec 32 := 32#32
  let v484 : BitVec 32 := Scalar.remsi v483 c32_i32_418
  let c1_i32_422 : BitVec 32 := 1#32
  let v485 : BitVec 32 := Scalar.muli v484 c1_i32_422
  let v486 : BitVec 32 := Scalar.addi c0_i32_423 v485
  v486.toNat
def k0_dev58 (d0 : Dev nD) : Nat :=
  let c0_i32_434 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_428 : BitVec 32 := 27#32
  let v495 : BitVec 32 := Scalar.addi v2 c27_i32_428
  let c32_i32_429 : BitVec 32 := 32#32
  let v496 : BitVec 32 := Scalar.remsi v495 c32_i32_429
  let c1_i32_433 : BitVec 32 := 1#32
  let v497 : BitVec 32 := Scalar.muli v496 c1_i32_433
  let v498 : BitVec 32 := Scalar.addi c0_i32_434 v497
  v498.toNat
def k0_dev59 (d0 : Dev nD) : Nat :=
  let c0_i32_445 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_439 : BitVec 32 := 28#32
  let v507 : BitVec 32 := Scalar.addi v2 c28_i32_439
  let c32_i32_440 : BitVec 32 := 32#32
  let v508 : BitVec 32 := Scalar.remsi v507 c32_i32_440
  let c1_i32_444 : BitVec 32 := 1#32
  let v509 : BitVec 32 := Scalar.muli v508 c1_i32_444
  let v510 : BitVec 32 := Scalar.addi c0_i32_445 v509
  v510.toNat
def k0_dev60 (d0 : Dev nD) : Nat :=
  let c0_i32_456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_450 : BitVec 32 := 29#32
  let v519 : BitVec 32 := Scalar.addi v2 c29_i32_450
  let c32_i32_451 : BitVec 32 := 32#32
  let v520 : BitVec 32 := Scalar.remsi v519 c32_i32_451
  let c1_i32_455 : BitVec 32 := 1#32
  let v521 : BitVec 32 := Scalar.muli v520 c1_i32_455
  let v522 : BitVec 32 := Scalar.addi c0_i32_456 v521
  v522.toNat
def k0_dev61 (d0 : Dev nD) : Nat :=
  let c0_i32_467 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_461 : BitVec 32 := 30#32
  let v531 : BitVec 32 := Scalar.addi v2 c30_i32_461
  let c32_i32_462 : BitVec 32 := 32#32
  let v532 : BitVec 32 := Scalar.remsi v531 c32_i32_462
  let c1_i32_466 : BitVec 32 := 1#32
  let v533 : BitVec 32 := Scalar.muli v532 c1_i32_466
  let v534 : BitVec 32 := Scalar.addi c0_i32_467 v533
  v534.toNat
def k0_dev62 (d0 : Dev nD) : Nat :=
  let c0_i32_478 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_472 : BitVec 32 := 31#32
  let v543 : BitVec 32 := Scalar.addi v2 c31_i32_472
  let c32_i32_473 : BitVec 32 := 32#32
  let v544 : BitVec 32 := Scalar.remsi v543 c32_i32_473
  let c1_i32_477 : BitVec 32 := 1#32
  let v545 : BitVec 32 := Scalar.muli v544 c1_i32_477
  let v546 : BitVec 32 := Scalar.addi c0_i32_478 v545
  v546.toNat
def k0_off3 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_774 : BitVec 32 := 0#32
  let c0_i32_775 : BitVec 32 := 0#32
  ![v2.toNat, 0, 0]
def k0_dev63 (d0 : Dev nD) : Nat :=
  let c0_i32_773 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_768 : BitVec 32 := 1#32
  let v811 : BitVec 32 := Scalar.addi v2 c1_i32_768
  let c32_i32_769 : BitVec 32 := 32#32
  let v812 : BitVec 32 := Scalar.remsi v811 c32_i32_769
  let c1_i32_772 : BitVec 32 := 1#32
  let v813 : BitVec 32 := Scalar.muli v812 c1_i32_772
  let v814 : BitVec 32 := Scalar.addi c0_i32_773 v813
  v814.toNat
def k0_dev64 (d0 : Dev nD) : Nat :=
  let c0_i32_783 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_778 : BitVec 32 := 2#32
  let v823 : BitVec 32 := Scalar.addi v2 c2_i32_778
  let c32_i32_779 : BitVec 32 := 32#32
  let v824 : BitVec 32 := Scalar.remsi v823 c32_i32_779
  let c1_i32_782 : BitVec 32 := 1#32
  let v825 : BitVec 32 := Scalar.muli v824 c1_i32_782
  let v826 : BitVec 32 := Scalar.addi c0_i32_783 v825
  v826.toNat
def k0_dev65 (d0 : Dev nD) : Nat :=
  let c0_i32_793 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_788 : BitVec 32 := 3#32
  let v835 : BitVec 32 := Scalar.addi v2 c3_i32_788
  let c32_i32_789 : BitVec 32 := 32#32
  let v836 : BitVec 32 := Scalar.remsi v835 c32_i32_789
  let c1_i32_792 : BitVec 32 := 1#32
  let v837 : BitVec 32 := Scalar.muli v836 c1_i32_792
  let v838 : BitVec 32 := Scalar.addi c0_i32_793 v837
  v838.toNat
def k0_dev66 (d0 : Dev nD) : Nat :=
  let c0_i32_803 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_798 : BitVec 32 := 4#32
  let v847 : BitVec 32 := Scalar.addi v2 c4_i32_798
  let c32_i32_799 : BitVec 32 := 32#32
  let v848 : BitVec 32 := Scalar.remsi v847 c32_i32_799
  let c1_i32_802 : BitVec 32 := 1#32
  let v849 : BitVec 32 := Scalar.muli v848 c1_i32_802
  let v850 : BitVec 32 := Scalar.addi c0_i32_803 v849
  v850.toNat
def k0_dev67 (d0 : Dev nD) : Nat :=
  let c0_i32_813 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_808 : BitVec 32 := 5#32
  let v859 : BitVec 32 := Scalar.addi v2 c5_i32_808
  let c32_i32_809 : BitVec 32 := 32#32
  let v860 : BitVec 32 := Scalar.remsi v859 c32_i32_809
  let c1_i32_812 : BitVec 32 := 1#32
  let v861 : BitVec 32 := Scalar.muli v860 c1_i32_812
  let v862 : BitVec 32 := Scalar.addi c0_i32_813 v861
  v862.toNat
def k0_dev68 (d0 : Dev nD) : Nat :=
  let c0_i32_823 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_818 : BitVec 32 := 6#32
  let v871 : BitVec 32 := Scalar.addi v2 c6_i32_818
  let c32_i32_819 : BitVec 32 := 32#32
  let v872 : BitVec 32 := Scalar.remsi v871 c32_i32_819
  let c1_i32_822 : BitVec 32 := 1#32
  let v873 : BitVec 32 := Scalar.muli v872 c1_i32_822
  let v874 : BitVec 32 := Scalar.addi c0_i32_823 v873
  v874.toNat
def k0_dev69 (d0 : Dev nD) : Nat :=
  let c0_i32_833 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_828 : BitVec 32 := 7#32
  let v883 : BitVec 32 := Scalar.addi v2 c7_i32_828
  let c32_i32_829 : BitVec 32 := 32#32
  let v884 : BitVec 32 := Scalar.remsi v883 c32_i32_829
  let c1_i32_832 : BitVec 32 := 1#32
  let v885 : BitVec 32 := Scalar.muli v884 c1_i32_832
  let v886 : BitVec 32 := Scalar.addi c0_i32_833 v885
  v886.toNat
def k0_dev70 (d0 : Dev nD) : Nat :=
  let c0_i32_843 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_838 : BitVec 32 := 8#32
  let v895 : BitVec 32 := Scalar.addi v2 c8_i32_838
  let c32_i32_839 : BitVec 32 := 32#32
  let v896 : BitVec 32 := Scalar.remsi v895 c32_i32_839
  let c1_i32_842 : BitVec 32 := 1#32
  let v897 : BitVec 32 := Scalar.muli v896 c1_i32_842
  let v898 : BitVec 32 := Scalar.addi c0_i32_843 v897
  v898.toNat
def k0_dev71 (d0 : Dev nD) : Nat :=
  let c0_i32_853 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_848 : BitVec 32 := 9#32
  let v907 : BitVec 32 := Scalar.addi v2 c9_i32_848
  let c32_i32_849 : BitVec 32 := 32#32
  let v908 : BitVec 32 := Scalar.remsi v907 c32_i32_849
  let c1_i32_852 : BitVec 32 := 1#32
  let v909 : BitVec 32 := Scalar.muli v908 c1_i32_852
  let v910 : BitVec 32 := Scalar.addi c0_i32_853 v909
  v910.toNat
def k0_dev72 (d0 : Dev nD) : Nat :=
  let c0_i32_863 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_858 : BitVec 32 := 10#32
  let v919 : BitVec 32 := Scalar.addi v2 c10_i32_858
  let c32_i32_859 : BitVec 32 := 32#32
  let v920 : BitVec 32 := Scalar.remsi v919 c32_i32_859
  let c1_i32_862 : BitVec 32 := 1#32
  let v921 : BitVec 32 := Scalar.muli v920 c1_i32_862
  let v922 : BitVec 32 := Scalar.addi c0_i32_863 v921
  v922.toNat
def k0_dev73 (d0 : Dev nD) : Nat :=
  let c0_i32_873 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_868 : BitVec 32 := 11#32
  let v931 : BitVec 32 := Scalar.addi v2 c11_i32_868
  let c32_i32_869 : BitVec 32 := 32#32
  let v932 : BitVec 32 := Scalar.remsi v931 c32_i32_869
  let c1_i32_872 : BitVec 32 := 1#32
  let v933 : BitVec 32 := Scalar.muli v932 c1_i32_872
  let v934 : BitVec 32 := Scalar.addi c0_i32_873 v933
  v934.toNat
def k0_dev74 (d0 : Dev nD) : Nat :=
  let c0_i32_883 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_878 : BitVec 32 := 12#32
  let v943 : BitVec 32 := Scalar.addi v2 c12_i32_878
  let c32_i32_879 : BitVec 32 := 32#32
  let v944 : BitVec 32 := Scalar.remsi v943 c32_i32_879
  let c1_i32_882 : BitVec 32 := 1#32
  let v945 : BitVec 32 := Scalar.muli v944 c1_i32_882
  let v946 : BitVec 32 := Scalar.addi c0_i32_883 v945
  v946.toNat
def k0_dev75 (d0 : Dev nD) : Nat :=
  let c0_i32_893 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_888 : BitVec 32 := 13#32
  let v955 : BitVec 32 := Scalar.addi v2 c13_i32_888
  let c32_i32_889 : BitVec 32 := 32#32
  let v956 : BitVec 32 := Scalar.remsi v955 c32_i32_889
  let c1_i32_892 : BitVec 32 := 1#32
  let v957 : BitVec 32 := Scalar.muli v956 c1_i32_892
  let v958 : BitVec 32 := Scalar.addi c0_i32_893 v957
  v958.toNat
def k0_dev76 (d0 : Dev nD) : Nat :=
  let c0_i32_903 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_898 : BitVec 32 := 14#32
  let v967 : BitVec 32 := Scalar.addi v2 c14_i32_898
  let c32_i32_899 : BitVec 32 := 32#32
  let v968 : BitVec 32 := Scalar.remsi v967 c32_i32_899
  let c1_i32_902 : BitVec 32 := 1#32
  let v969 : BitVec 32 := Scalar.muli v968 c1_i32_902
  let v970 : BitVec 32 := Scalar.addi c0_i32_903 v969
  v970.toNat
def k0_dev77 (d0 : Dev nD) : Nat :=
  let c0_i32_913 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_908 : BitVec 32 := 15#32
  let v979 : BitVec 32 := Scalar.addi v2 c15_i32_908
  let c32_i32_909 : BitVec 32 := 32#32
  let v980 : BitVec 32 := Scalar.remsi v979 c32_i32_909
  let c1_i32_912 : BitVec 32 := 1#32
  let v981 : BitVec 32 := Scalar.muli v980 c1_i32_912
  let v982 : BitVec 32 := Scalar.addi c0_i32_913 v981
  v982.toNat
def k0_dev78 (d0 : Dev nD) : Nat :=
  let c0_i32_923 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_918 : BitVec 32 := 16#32
  let v991 : BitVec 32 := Scalar.addi v2 c16_i32_918
  let c32_i32_919 : BitVec 32 := 32#32
  let v992 : BitVec 32 := Scalar.remsi v991 c32_i32_919
  let c1_i32_922 : BitVec 32 := 1#32
  let v993 : BitVec 32 := Scalar.muli v992 c1_i32_922
  let v994 : BitVec 32 := Scalar.addi c0_i32_923 v993
  v994.toNat
def k0_dev79 (d0 : Dev nD) : Nat :=
  let c0_i32_933 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_928 : BitVec 32 := 17#32
  let v1003 : BitVec 32 := Scalar.addi v2 c17_i32_928
  let c32_i32_929 : BitVec 32 := 32#32
  let v1004 : BitVec 32 := Scalar.remsi v1003 c32_i32_929
  let c1_i32_932 : BitVec 32 := 1#32
  let v1005 : BitVec 32 := Scalar.muli v1004 c1_i32_932
  let v1006 : BitVec 32 := Scalar.addi c0_i32_933 v1005
  v1006.toNat
def k0_dev80 (d0 : Dev nD) : Nat :=
  let c0_i32_943 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_938 : BitVec 32 := 18#32
  let v1015 : BitVec 32 := Scalar.addi v2 c18_i32_938
  let c32_i32_939 : BitVec 32 := 32#32
  let v1016 : BitVec 32 := Scalar.remsi v1015 c32_i32_939
  let c1_i32_942 : BitVec 32 := 1#32
  let v1017 : BitVec 32 := Scalar.muli v1016 c1_i32_942
  let v1018 : BitVec 32 := Scalar.addi c0_i32_943 v1017
  v1018.toNat
def k0_dev81 (d0 : Dev nD) : Nat :=
  let c0_i32_953 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_948 : BitVec 32 := 19#32
  let v1027 : BitVec 32 := Scalar.addi v2 c19_i32_948
  let c32_i32_949 : BitVec 32 := 32#32
  let v1028 : BitVec 32 := Scalar.remsi v1027 c32_i32_949
  let c1_i32_952 : BitVec 32 := 1#32
  let v1029 : BitVec 32 := Scalar.muli v1028 c1_i32_952
  let v1030 : BitVec 32 := Scalar.addi c0_i32_953 v1029
  v1030.toNat
def k0_dev82 (d0 : Dev nD) : Nat :=
  let c0_i32_963 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_958 : BitVec 32 := 20#32
  let v1039 : BitVec 32 := Scalar.addi v2 c20_i32_958
  let c32_i32_959 : BitVec 32 := 32#32
  let v1040 : BitVec 32 := Scalar.remsi v1039 c32_i32_959
  let c1_i32_962 : BitVec 32 := 1#32
  let v1041 : BitVec 32 := Scalar.muli v1040 c1_i32_962
  let v1042 : BitVec 32 := Scalar.addi c0_i32_963 v1041
  v1042.toNat
def k0_dev83 (d0 : Dev nD) : Nat :=
  let c0_i32_973 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_968 : BitVec 32 := 21#32
  let v1051 : BitVec 32 := Scalar.addi v2 c21_i32_968
  let c32_i32_969 : BitVec 32 := 32#32
  let v1052 : BitVec 32 := Scalar.remsi v1051 c32_i32_969
  let c1_i32_972 : BitVec 32 := 1#32
  let v1053 : BitVec 32 := Scalar.muli v1052 c1_i32_972
  let v1054 : BitVec 32 := Scalar.addi c0_i32_973 v1053
  v1054.toNat
def k0_dev84 (d0 : Dev nD) : Nat :=
  let c0_i32_983 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_978 : BitVec 32 := 22#32
  let v1063 : BitVec 32 := Scalar.addi v2 c22_i32_978
  let c32_i32_979 : BitVec 32 := 32#32
  let v1064 : BitVec 32 := Scalar.remsi v1063 c32_i32_979
  let c1_i32_982 : BitVec 32 := 1#32
  let v1065 : BitVec 32 := Scalar.muli v1064 c1_i32_982
  let v1066 : BitVec 32 := Scalar.addi c0_i32_983 v1065
  v1066.toNat
def k0_dev85 (d0 : Dev nD) : Nat :=
  let c0_i32_993 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_988 : BitVec 32 := 23#32
  let v1075 : BitVec 32 := Scalar.addi v2 c23_i32_988
  let c32_i32_989 : BitVec 32 := 32#32
  let v1076 : BitVec 32 := Scalar.remsi v1075 c32_i32_989
  let c1_i32_992 : BitVec 32 := 1#32
  let v1077 : BitVec 32 := Scalar.muli v1076 c1_i32_992
  let v1078 : BitVec 32 := Scalar.addi c0_i32_993 v1077
  v1078.toNat
def k0_dev86 (d0 : Dev nD) : Nat :=
  let c0_i32_1003 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_998 : BitVec 32 := 24#32
  let v1087 : BitVec 32 := Scalar.addi v2 c24_i32_998
  let c32_i32_999 : BitVec 32 := 32#32
  let v1088 : BitVec 32 := Scalar.remsi v1087 c32_i32_999
  let c1_i32_1002 : BitVec 32 := 1#32
  let v1089 : BitVec 32 := Scalar.muli v1088 c1_i32_1002
  let v1090 : BitVec 32 := Scalar.addi c0_i32_1003 v1089
  v1090.toNat
def k0_dev87 (d0 : Dev nD) : Nat :=
  let c0_i32_1013 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1008 : BitVec 32 := 25#32
  let v1099 : BitVec 32 := Scalar.addi v2 c25_i32_1008
  let c32_i32_1009 : BitVec 32 := 32#32
  let v1100 : BitVec 32 := Scalar.remsi v1099 c32_i32_1009
  let c1_i32_1012 : BitVec 32 := 1#32
  let v1101 : BitVec 32 := Scalar.muli v1100 c1_i32_1012
  let v1102 : BitVec 32 := Scalar.addi c0_i32_1013 v1101
  v1102.toNat
def k0_dev88 (d0 : Dev nD) : Nat :=
  let c0_i32_1023 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1018 : BitVec 32 := 26#32
  let v1111 : BitVec 32 := Scalar.addi v2 c26_i32_1018
  let c32_i32_1019 : BitVec 32 := 32#32
  let v1112 : BitVec 32 := Scalar.remsi v1111 c32_i32_1019
  let c1_i32_1022 : BitVec 32 := 1#32
  let v1113 : BitVec 32 := Scalar.muli v1112 c1_i32_1022
  let v1114 : BitVec 32 := Scalar.addi c0_i32_1023 v1113
  v1114.toNat
def k0_dev89 (d0 : Dev nD) : Nat :=
  let c0_i32_1033 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1028 : BitVec 32 := 27#32
  let v1123 : BitVec 32 := Scalar.addi v2 c27_i32_1028
  let c32_i32_1029 : BitVec 32 := 32#32
  let v1124 : BitVec 32 := Scalar.remsi v1123 c32_i32_1029
  let c1_i32_1032 : BitVec 32 := 1#32
  let v1125 : BitVec 32 := Scalar.muli v1124 c1_i32_1032
  let v1126 : BitVec 32 := Scalar.addi c0_i32_1033 v1125
  v1126.toNat
def k0_dev90 (d0 : Dev nD) : Nat :=
  let c0_i32_1043 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1038 : BitVec 32 := 28#32
  let v1135 : BitVec 32 := Scalar.addi v2 c28_i32_1038
  let c32_i32_1039 : BitVec 32 := 32#32
  let v1136 : BitVec 32 := Scalar.remsi v1135 c32_i32_1039
  let c1_i32_1042 : BitVec 32 := 1#32
  let v1137 : BitVec 32 := Scalar.muli v1136 c1_i32_1042
  let v1138 : BitVec 32 := Scalar.addi c0_i32_1043 v1137
  v1138.toNat
def k0_dev91 (d0 : Dev nD) : Nat :=
  let c0_i32_1053 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1048 : BitVec 32 := 29#32
  let v1147 : BitVec 32 := Scalar.addi v2 c29_i32_1048
  let c32_i32_1049 : BitVec 32 := 32#32
  let v1148 : BitVec 32 := Scalar.remsi v1147 c32_i32_1049
  let c1_i32_1052 : BitVec 32 := 1#32
  let v1149 : BitVec 32 := Scalar.muli v1148 c1_i32_1052
  let v1150 : BitVec 32 := Scalar.addi c0_i32_1053 v1149
  v1150.toNat
def k0_dev92 (d0 : Dev nD) : Nat :=
  let c0_i32_1063 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1058 : BitVec 32 := 30#32
  let v1159 : BitVec 32 := Scalar.addi v2 c30_i32_1058
  let c32_i32_1059 : BitVec 32 := 32#32
  let v1160 : BitVec 32 := Scalar.remsi v1159 c32_i32_1059
  let c1_i32_1062 : BitVec 32 := 1#32
  let v1161 : BitVec 32 := Scalar.muli v1160 c1_i32_1062
  let v1162 : BitVec 32 := Scalar.addi c0_i32_1063 v1161
  v1162.toNat
def k0_dev93 (d0 : Dev nD) : Nat :=
  let c0_i32_1073 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1068 : BitVec 32 := 31#32
  let v1171 : BitVec 32 := Scalar.addi v2 c31_i32_1068
  let c32_i32_1069 : BitVec 32 := 32#32
  let v1172 : BitVec 32 := Scalar.remsi v1171 c32_i32_1069
  let c1_i32_1072 : BitVec 32 := 1#32
  let v1173 : BitVec 32 := Scalar.muli v1172 c1_i32_1072
  let v1174 : BitVec 32 := Scalar.addi c0_i32_1073 v1173
  v1174.toNat
abbrev stage0_0 : Fin 1 → Memref sig .tc .vmem S4x512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

class Facts₀ : Prop where
  hamt_1 : (1#32 : BitVec 32).msb = false
  inb_S4x512x256_S4x512x256_0_0_0 : ∀ a, (![0, 0, 0] : Fin 3 → Nat) a + S4x512x256.size a ≤ S4x512x256.size a
  h_S4x512x256 : 0 < S4x512x256.numel
  shapeCasts_S4x512x256_S4x512x256 : S4x512x256.ShapeCasts S4x512x256
  inb_S4x256_S4x256_0_0 : ∀ a, (![0, 0] : Fin 2 → Nat) a + S4x256.size a ≤ S4x256.size a
  h_S4x256 : 0 < S4x256.numel
  shapeCasts_S4x256_S4x256 : S4x256.ShapeCasts S4x256
  slices_S4x256_o3_0_S1x256 : S4x256.Slices ![3, 0] S1x256
  shapeCasts_S1x256_S256 : S1x256.ShapeCasts S256
  shapeCasts_S256_S1x1x256 : S256.ShapeCasts S1x1x256
  broadcasts_S1x1x256_S4x512x256 : S1x1x256.Broadcasts S4x512x256
  slices_S4x512x256_o0_0_0_S4x509x256 : S4x512x256.Slices ![0, 0, 0] S4x509x256
  concatenates_S4x3x256_S4x509x256_S4x512x256_d1 : Shape.Concatenates [S4x3x256, S4x509x256] S4x512x256 1
  slices_S4x256_o0_0_S1x256 : S4x256.Slices ![0, 0] S1x256
  slices_S4x512x256_o0_0_0_S4x510x256 : S4x512x256.Slices ![0, 0, 0] S4x510x256
  concatenates_S4x2x256_S4x510x256_S4x512x256_d1 : Shape.Concatenates [S4x2x256, S4x510x256] S4x512x256 1
  slices_S4x256_o1_0_S1x256 : S4x256.Slices ![1, 0] S1x256
  slices_S4x512x256_o0_0_0_S4x511x256 : S4x512x256.Slices ![0, 0, 0] S4x511x256
  concatenates_S4x1x256_S4x511x256_S4x512x256_d1 : Shape.Concatenates [S4x1x256, S4x511x256] S4x512x256 1
  slices_S4x256_o2_0_S1x256 : S4x256.Slices ![2, 0] S1x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S4x512x256_S2048x256 : S4x512x256.ShapeCasts S2048x256
  shapeCasts_S2048x256_S32x64x256 : S2048x256.ShapeCasts S32x64x256
  inb_S32x64x256_S32x64x256_0_0_0 : ∀ a, (![0, 0, 0] : Fin 3 → Nat) a + S32x64x256.size a ≤ S32x64x256.size a
  h_S32x64x256 : 0 < S32x64x256.numel
  shapeCasts_S32x64x256_S32x64x256 : S32x64x256.ShapeCasts S32x64x256
  packedbf16_S32x64x256_S32x64x256_0_0_0 : (Rect.unit (s := S32x64x256) ![0, 0, 0] S32x64x256.size inb_S32x64x256_S32x64x256_0_0_0).PackedRows (EltTy.packing .bf16)
  h_S1x64x256 : 0 < S1x64x256.numel
  shapeCasts_S1x64x256_S64x256 : S1x64x256.ShapeCasts S64x256
  inb_S32x64x256_S1x64x256_0_0_0 : ∀ a, (![0, 0, 0] : Fin 3 → Nat) a + S1x64x256.size a ≤ S32x64x256.size a
  shapeCasts_S64x256_S1x64x256 : S64x256.ShapeCasts S1x64x256
  packedbf16_S32x64x256_S1x64x256_0_0_0 : (Rect.unit (s := S32x64x256) ![0, 0, 0] S1x64x256.size inb_S32x64x256_S1x64x256_0_0_0).PackedRows (EltTy.packing .bf16)
  hamt_31 : (31#32 : BitVec 32).msb = false
  inb_S32_S1_1 : ∀ a, (![1] : Fin 1 → Nat) a + S1.size a ≤ S32.size a
  squeezes_S1_S_ : S1.Squeezes S_
  inb_S32_S1_31 : ∀ a, (![31] : Fin 1 → Nat) a + S1.size a ≤ S32.size a
  inb_S32x64x256_S1x64x256_31_0_0 : ∀ a, (![31, 0, 0] : Fin 3 → Nat) a + S1x64x256.size a ≤ S32x64x256.size a
  squeezes_S1x64x256_S64x256 : S1x64x256.Squeezes S64x256
  wordsbf16_S32x64x256_S1x64x256_31_0_0 : (Rect.unit (s := S32x64x256) ![31, 0, 0] S1x64x256.size inb_S32x64x256_S1x64x256_31_0_0).WholeWords (EltTy.packing .bf16)
  inb_S32_S1_2 : ∀ a, (![2] : Fin 1 → Nat) a + S1.size a ≤ S32.size a
  inb_S32_S1_30 : ∀ a, (![30] : Fin 1 → Nat) a + S1.size a ≤ S32.size a
  inb_S32x64x256_S1x64x256_30_0_0 : ∀ a, (![30, 0, 0] : Fin 3 → Nat) a + S1x64x256.size a ≤ S32x64x256.size a
  wordsbf16_S32x64x256_S1x64x256_30_0_0 : (Rect.unit (s := S32x64x256) ![30, 0, 0] S1x64x256.size inb_S32x64x256_S1x64x256_30_0_0).WholeWords (EltTy.packing .bf16)
  inb_S32_S1_3 : ∀ a, (![3] : Fin 1 → Nat) a + S1.size a ≤ S32.size a
  inb_S32_S1_29 : ∀ a, (![29] : Fin 1 → Nat) a + S1.size a ≤ S32.size a
  inb_S32x64x256_S1x64x256_29_0_0 : ∀ a, (![29, 0, 0] : Fin 3 → Nat) a + S1x64x256.size a ≤ S32x64x256.size a
  wordsbf16_S32x64x256_S1x64x256_29_0_0 : (Rect.unit (s := S32x64x256) ![29, 0, 0] S1x64x256.size inb_S32x64x256_S1x64x256_29_0_0).WholeWords (EltTy.packing .bf16)
  inb_S32_S1_4 : ∀ a, (![4] : Fin 1 → Nat) a + S1.size a ≤ S32.size a
  inb_S32_S1_28 : ∀ a, (![28] : Fin 1 → Nat) a + S1.size a ≤ S32.size a
  inb_S32x64x256_S1x64x256_28_0_0 : ∀ a, (![28, 0, 0] : Fin 3 → Nat) a + S1x64x256.size a ≤ S32x64x256.size a
  wordsbf16_S32x64x256_S1x64x256_28_0_0 : (Rect.unit (s := S32x64x256) ![28, 0, 0] S1x64x256.size inb_S32x64x256_S1x64x256_28_0_0).WholeWords (EltTy.packing .bf16)
  inb_S32_S1_5 : ∀ a, (![5] : Fin 1 → Nat) a + S1.size a ≤ S32.size a
  inb_S32_S1_27 : ∀ a, (![27] : Fin 1 → Nat) a + S1.size a ≤ S32.size a
  inb_S32x64x256_S1x64x256_27_0_0 : ∀ a, (![27, 0, 0] : Fin 3 → Nat) a + S1x64x256.size a ≤ S32x64x256.size a
  wordsbf16_S32x64x256_S1x64x256_27_0_0 : (Rect.unit (s := S32x64x256) ![27, 0, 0] S1x64x256.size inb_S32x64x256_S1x64x256_27_0_0).WholeWords (EltTy.packing .bf16)
  inb_S32_S1_6 : ∀ a, (![6] : Fin 1 → Nat) a + S1.size a ≤ S32.size a
  inb_S32_S1_26 : ∀ a, (![26] : Fin 1 → Nat) a + S1.size a ≤ S32.size a
  inb_S32x64x256_S1x64x256_26_0_0 : ∀ a, (![26, 0, 0] : Fin 3 → Nat) a + S1x64x256.size a ≤ S32x64x256.size a
  wordsbf16_S32x64x256_S1x64x256_26_0_0 : (Rect.unit (s := S32x64x256) ![26, 0, 0] S1x64x256.size inb_S32x64x256_S1x64x256_26_0_0).WholeWords (EltTy.packing .bf16)
  inb_S32_S1_7 : ∀ a, (![7] : Fin 1 → Nat) a + S1.size a ≤ S32.size a
  inb_S32_S1_25 : ∀ a, (![25] : Fin 1 → Nat) a + S1.size a ≤ S32.size a
  inb_S32x64x256_S1x64x256_25_0_0 : ∀ a, (![25, 0, 0] : Fin 3 → Nat) a + S1x64x256.size a ≤ S32x64x256.size a
  wordsbf16_S32x64x256_S1x64x256_25_0_0 : (Rect.unit (s := S32x64x256) ![25, 0, 0] S1x64x256.size inb_S32x64x256_S1x64x256_25_0_0).WholeWords (EltTy.packing .bf16)
  inb_S32_S1_8 : ∀ a, (![8] : Fin 1 → Nat) a + S1.size a ≤ S32.size a
  inb_S32_S1_24 : ∀ a, (![24] : Fin 1 → Nat) a + S1.size a ≤ S32.size a
  inb_S32x64x256_S1x64x256_24_0_0 : ∀ a, (![24, 0, 0] : Fin 3 → Nat) a + S1x64x256.size a ≤ S32x64x256.size a
  wordsbf16_S32x64x256_S1x64x256_24_0_0 : (Rect.unit (s := S32x64x256) ![24, 0, 0] S1x64x256.size inb_S32x64x256_S1x64x256_24_0_0).WholeWords (EltTy.packing .bf16)
  inb_S32_S1_9 : ∀ a, (![9] : Fin 1 → Nat) a + S1.size a ≤ S32.size a
  inb_S32_S1_23 : ∀ a, (![23] : Fin 1 → Nat) a + S1.size a ≤ S32.size a
  inb_S32x64x256_S1x64x256_23_0_0 : ∀ a, (![23, 0, 0] : Fin 3 → Nat) a + S1x64x256.size a ≤ S32x64x256.size a
  wordsbf16_S32x64x256_S1x64x256_23_0_0 : (Rect.unit (s := S32x64x256) ![23, 0, 0] S1x64x256.size inb_S32x64x256_S1x64x256_23_0_0).WholeWords (EltTy.packing .bf16)
  inb_S32_S1_10 : ∀ a, (![10] : Fin 1 → Nat) a + S1.size a ≤ S32.size a
  inb_S32_S1_22 : ∀ a, (![22] : Fin 1 → Nat) a + S1.size a ≤ S32.size a
  inb_S32x64x256_S1x64x256_22_0_0 : ∀ a, (![22, 0, 0] : Fin 3 → Nat) a + S1x64x256.size a ≤ S32x64x256.size a
  wordsbf16_S32x64x256_S1x64x256_22_0_0 : (Rect.unit (s := S32x64x256) ![22, 0, 0] S1x64x256.size inb_S32x64x256_S1x64x256_22_0_0).WholeWords (EltTy.packing .bf16)
  inb_S32_S1_11 : ∀ a, (![11] : Fin 1 → Nat) a + S1.size a ≤ S32.size a
  inb_S32_S1_21 : ∀ a, (![21] : Fin 1 → Nat) a + S1.size a ≤ S32.size a
  inb_S32x64x256_S1x64x256_21_0_0 : ∀ a, (![21, 0, 0] : Fin 3 → Nat) a + S1x64x256.size a ≤ S32x64x256.size a
  wordsbf16_S32x64x256_S1x64x256_21_0_0 : (Rect.unit (s := S32x64x256) ![21, 0, 0] S1x64x256.size inb_S32x64x256_S1x64x256_21_0_0).WholeWords (EltTy.packing .bf16)
  inb_S32_S1_12 : ∀ a, (![12] : Fin 1 → Nat) a + S1.size a ≤ S32.size a
  inb_S32_S1_20 : ∀ a, (![20] : Fin 1 → Nat) a + S1.size a ≤ S32.size a
  inb_S32x64x256_S1x64x256_20_0_0 : ∀ a, (![20, 0, 0] : Fin 3 → Nat) a + S1x64x256.size a ≤ S32x64x256.size a
  wordsbf16_S32x64x256_S1x64x256_20_0_0 : (Rect.unit (s := S32x64x256) ![20, 0, 0] S1x64x256.size inb_S32x64x256_S1x64x256_20_0_0).WholeWords (EltTy.packing .bf16)
  inb_S32_S1_13 : ∀ a, (![13] : Fin 1 → Nat) a + S1.size a ≤ S32.size a
  inb_S32_S1_19 : ∀ a, (![19] : Fin 1 → Nat) a + S1.size a ≤ S32.size a
  inb_S32x64x256_S1x64x256_19_0_0 : ∀ a, (![19, 0, 0] : Fin 3 → Nat) a + S1x64x256.size a ≤ S32x64x256.size a
  wordsbf16_S32x64x256_S1x64x256_19_0_0 : (Rect.unit (s := S32x64x256) ![19, 0, 0] S1x64x256.size inb_S32x64x256_S1x64x256_19_0_0).WholeWords (EltTy.packing .bf16)
  inb_S32_S1_14 : ∀ a, (![14] : Fin 1 → Nat) a + S1.size a ≤ S32.size a
  inb_S32_S1_18 : ∀ a, (![18] : Fin 1 → Nat) a + S1.size a ≤ S32.size a
  inb_S32x64x256_S1x64x256_18_0_0 : ∀ a, (![18, 0, 0] : Fin 3 → Nat) a + S1x64x256.size a ≤ S32x64x256.size a
  wordsbf16_S32x64x256_S1x64x256_18_0_0 : (Rect.unit (s := S32x64x256) ![18, 0, 0] S1x64x256.size inb_S32x64x256_S1x64x256_18_0_0).WholeWords (EltTy.packing .bf16)
  inb_S32_S1_15 : ∀ a, (![15] : Fin 1 → Nat) a + S1.size a ≤ S32.size a
  inb_S32_S1_17 : ∀ a, (![17] : Fin 1 → Nat) a + S1.size a ≤ S32.size a
  inb_S32x64x256_S1x64x256_17_0_0 : ∀ a, (![17, 0, 0] : Fin 3 → Nat) a + S1x64x256.size a ≤ S32x64x256.size a
  wordsbf16_S32x64x256_S1x64x256_17_0_0 : (Rect.unit (s := S32x64x256) ![17, 0, 0] S1x64x256.size inb_S32x64x256_S1x64x256_17_0_0).WholeWords (EltTy.packing .bf16)
  inb_S32_S1_16 : ∀ a, (![16] : Fin 1 → Nat) a + S1.size a ≤ S32.size a
  inb_S32x64x256_S1x64x256_16_0_0 : ∀ a, (![16, 0, 0] : Fin 3 → Nat) a + S1x64x256.size a ≤ S32x64x256.size a
  wordsbf16_S32x64x256_S1x64x256_16_0_0 : (Rect.unit (s := S32x64x256) ![16, 0, 0] S1x64x256.size inb_S32x64x256_S1x64x256_16_0_0).WholeWords (EltTy.packing .bf16)
  inb_S32x64x256_S1x64x256_15_0_0 : ∀ a, (![15, 0, 0] : Fin 3 → Nat) a + S1x64x256.size a ≤ S32x64x256.size a
  wordsbf16_S32x64x256_S1x64x256_15_0_0 : (Rect.unit (s := S32x64x256) ![15, 0, 0] S1x64x256.size inb_S32x64x256_S1x64x256_15_0_0).WholeWords (EltTy.packing .bf16)
  inb_S32x64x256_S1x64x256_14_0_0 : ∀ a, (![14, 0, 0] : Fin 3 → Nat) a + S1x64x256.size a ≤ S32x64x256.size a
  wordsbf16_S32x64x256_S1x64x256_14_0_0 : (Rect.unit (s := S32x64x256) ![14, 0, 0] S1x64x256.size inb_S32x64x256_S1x64x256_14_0_0).WholeWords (EltTy.packing .bf16)
  inb_S32x64x256_S1x64x256_13_0_0 : ∀ a, (![13, 0, 0] : Fin 3 → Nat) a + S1x64x256.size a ≤ S32x64x256.size a
  wordsbf16_S32x64x256_S1x64x256_13_0_0 : (Rect.unit (s := S32x64x256) ![13, 0, 0] S1x64x256.size inb_S32x64x256_S1x64x256_13_0_0).WholeWords (EltTy.packing .bf16)
  inb_S32x64x256_S1x64x256_12_0_0 : ∀ a, (![12, 0, 0] : Fin 3 → Nat) a + S1x64x256.size a ≤ S32x64x256.size a
  wordsbf16_S32x64x256_S1x64x256_12_0_0 : (Rect.unit (s := S32x64x256) ![12, 0, 0] S1x64x256.size inb_S32x64x256_S1x64x256_12_0_0).WholeWords (EltTy.packing .bf16)
  inb_S32x64x256_S1x64x256_11_0_0 : ∀ a, (![11, 0, 0] : Fin 3 → Nat) a + S1x64x256.size a ≤ S32x64x256.size a
  wordsbf16_S32x64x256_S1x64x256_11_0_0 : (Rect.unit (s := S32x64x256) ![11, 0, 0] S1x64x256.size inb_S32x64x256_S1x64x256_11_0_0).WholeWords (EltTy.packing .bf16)
  inb_S32x64x256_S1x64x256_10_0_0 : ∀ a, (![10, 0, 0] : Fin 3 → Nat) a + S1x64x256.size a ≤ S32x64x256.size a
  wordsbf16_S32x64x256_S1x64x256_10_0_0 : (Rect.unit (s := S32x64x256) ![10, 0, 0] S1x64x256.size inb_S32x64x256_S1x64x256_10_0_0).WholeWords (EltTy.packing .bf16)
  inb_S32x64x256_S1x64x256_9_0_0 : ∀ a, (![9, 0, 0] : Fin 3 → Nat) a + S1x64x256.size a ≤ S32x64x256.size a
  wordsbf16_S32x64x256_S1x64x256_9_0_0 : (Rect.unit (s := S32x64x256) ![9, 0, 0] S1x64x256.size inb_S32x64x256_S1x64x256_9_0_0).WholeWords (EltTy.packing .bf16)
  inb_S32x64x256_S1x64x256_8_0_0 : ∀ a, (![8, 0, 0] : Fin 3 → Nat) a + S1x64x256.size a ≤ S32x64x256.size a
  wordsbf16_S32x64x256_S1x64x256_8_0_0 : (Rect.unit (s := S32x64x256) ![8, 0, 0] S1x64x256.size inb_S32x64x256_S1x64x256_8_0_0).WholeWords (EltTy.packing .bf16)
  inb_S32x64x256_S1x64x256_7_0_0 : ∀ a, (![7, 0, 0] : Fin 3 → Nat) a + S1x64x256.size a ≤ S32x64x256.size a
  wordsbf16_S32x64x256_S1x64x256_7_0_0 : (Rect.unit (s := S32x64x256) ![7, 0, 0] S1x64x256.size inb_S32x64x256_S1x64x256_7_0_0).WholeWords (EltTy.packing .bf16)
  inb_S32x64x256_S1x64x256_6_0_0 : ∀ a, (![6, 0, 0] : Fin 3 → Nat) a + S1x64x256.size a ≤ S32x64x256.size a
  wordsbf16_S32x64x256_S1x64x256_6_0_0 : (Rect.unit (s := S32x64x256) ![6, 0, 0] S1x64x256.size inb_S32x64x256_S1x64x256_6_0_0).WholeWords (EltTy.packing .bf16)
  inb_S32x64x256_S1x64x256_5_0_0 : ∀ a, (![5, 0, 0] : Fin 3 → Nat) a + S1x64x256.size a ≤ S32x64x256.size a
  wordsbf16_S32x64x256_S1x64x256_5_0_0 : (Rect.unit (s := S32x64x256) ![5, 0, 0] S1x64x256.size inb_S32x64x256_S1x64x256_5_0_0).WholeWords (EltTy.packing .bf16)
  inb_S32x64x256_S1x64x256_4_0_0 : ∀ a, (![4, 0, 0] : Fin 3 → Nat) a + S1x64x256.size a ≤ S32x64x256.size a
  wordsbf16_S32x64x256_S1x64x256_4_0_0 : (Rect.unit (s := S32x64x256) ![4, 0, 0] S1x64x256.size inb_S32x64x256_S1x64x256_4_0_0).WholeWords (EltTy.packing .bf16)
  inb_S32x64x256_S1x64x256_3_0_0 : ∀ a, (![3, 0, 0] : Fin 3 → Nat) a + S1x64x256.size a ≤ S32x64x256.size a
  wordsbf16_S32x64x256_S1x64x256_3_0_0 : (Rect.unit (s := S32x64x256) ![3, 0, 0] S1x64x256.size inb_S32x64x256_S1x64x256_3_0_0).WholeWords (EltTy.packing .bf16)
  inb_S32x64x256_S1x64x256_2_0_0 : ∀ a, (![2, 0, 0] : Fin 3 → Nat) a + S1x64x256.size a ≤ S32x64x256.size a
  wordsbf16_S32x64x256_S1x64x256_2_0_0 : (Rect.unit (s := S32x64x256) ![2, 0, 0] S1x64x256.size inb_S32x64x256_S1x64x256_2_0_0).WholeWords (EltTy.packing .bf16)
  inb_S32x64x256_S1x64x256_1_0_0 : ∀ a, (![1, 0, 0] : Fin 3 → Nat) a + S1x64x256.size a ≤ S32x64x256.size a
  wordsbf16_S32x64x256_S1x64x256_1_0_0 : (Rect.unit (s := S32x64x256) ![1, 0, 0] S1x64x256.size inb_S32x64x256_S1x64x256_1_0_0).WholeWords (EltTy.packing .bf16)
  reduces_S32x64x256_S64x256 : S32x64x256.Reduces [0] S64x256
  shapeCasts_S32x64x256_S4x512x256 : S32x64x256.ShapeCasts S4x512x256
  dot_S2048x256_S256x256_S2048x256_1_0_0_1_n_n_wf : DotDims.WF S2048x256 S256x256 S2048x256 [1] [0] [0] [1] [] []
  hcc0_scratch3 : 4 + S32.numel ≤ 132
  hcc0_scratch4 : 36 + S32.numel ≤ 132
  hcc0_scratch5 : 68 + S32.numel ≤ 132
  hcc0_scratch6 : 100 + S32.numel ≤ 132
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_off1_inb : ∀ d0 : Dev nD, ∀ a, (k0_off1 d0) a + S1x64x256.size a ≤ S32x64x256.size a
  k0_off2_inb : ∀ d0 : Dev nD, ∀ (r : Fin 31), ∀ a, (k0_off2 d0 (BitVec.ofNat 32 (1 + r.val))) a + S1x64x256.size a ≤ S32x64x256.size a
  k0_off2_wordsbf16 : ∀ d0 : Dev nD, ∀ (r : Fin 31), (Rect.unit (s := S32x64x256) (k0_off2 d0 (BitVec.ofNat 32 (1 + r.val))) S1x64x256.size (k0_off2_inb d0 r)).WholeWords (EltTy.packing .bf16)
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_dev61_lt : ∀ d0 : Dev nD, (k0_dev61 d0) < nD
  k0_dev62_lt : ∀ d0 : Dev nD, (k0_dev62 d0) < nD
  k0_off1_packedbf16 : ∀ d0 : Dev nD, (Rect.unit (s := S32x64x256) (k0_off1 d0) S1x64x256.size (k0_off1_inb d0)).PackedRows (EltTy.packing .bf16)
  k0_off3_inb : ∀ d0 : Dev nD, ∀ a, (k0_off3 d0) a + S1x64x256.size a ≤ S32x64x256.size a
  k0_off3_wordsbf16 : ∀ d0 : Dev nD, (Rect.unit (s := S32x64x256) (k0_off3 d0) S1x64x256.size (k0_off3_inb d0)).WholeWords (EltTy.packing .bf16)
  k0_dev63_lt : ∀ d0 : Dev nD, (k0_dev63 d0) < nD
  k0_dev64_lt : ∀ d0 : Dev nD, (k0_dev64 d0) < nD
  k0_dev65_lt : ∀ d0 : Dev nD, (k0_dev65 d0) < nD
  k0_dev66_lt : ∀ d0 : Dev nD, (k0_dev66 d0) < nD
  k0_dev67_lt : ∀ d0 : Dev nD, (k0_dev67 d0) < nD
  k0_dev68_lt : ∀ d0 : Dev nD, (k0_dev68 d0) < nD
  k0_dev69_lt : ∀ d0 : Dev nD, (k0_dev69 d0) < nD
  k0_dev70_lt : ∀ d0 : Dev nD, (k0_dev70 d0) < nD
  k0_dev71_lt : ∀ d0 : Dev nD, (k0_dev71 d0) < nD
  k0_dev72_lt : ∀ d0 : Dev nD, (k0_dev72 d0) < nD
  k0_dev73_lt : ∀ d0 : Dev nD, (k0_dev73 d0) < nD
  k0_dev74_lt : ∀ d0 : Dev nD, (k0_dev74 d0) < nD
  k0_dev75_lt : ∀ d0 : Dev nD, (k0_dev75 d0) < nD
  k0_dev76_lt : ∀ d0 : Dev nD, (k0_dev76 d0) < nD
  k0_dev77_lt : ∀ d0 : Dev nD, (k0_dev77 d0) < nD
  k0_dev78_lt : ∀ d0 : Dev nD, (k0_dev78 d0) < nD
  k0_dev79_lt : ∀ d0 : Dev nD, (k0_dev79 d0) < nD
  k0_dev80_lt : ∀ d0 : Dev nD, (k0_dev80 d0) < nD
  k0_dev81_lt : ∀ d0 : Dev nD, (k0_dev81 d0) < nD
  k0_dev82_lt : ∀ d0 : Dev nD, (k0_dev82 d0) < nD
  k0_dev83_lt : ∀ d0 : Dev nD, (k0_dev83 d0) < nD
  k0_dev84_lt : ∀ d0 : Dev nD, (k0_dev84 d0) < nD
  k0_dev85_lt : ∀ d0 : Dev nD, (k0_dev85 d0) < nD
  k0_dev86_lt : ∀ d0 : Dev nD, (k0_dev86 d0) < nD
  k0_dev87_lt : ∀ d0 : Dev nD, (k0_dev87 d0) < nD
  k0_dev88_lt : ∀ d0 : Dev nD, (k0_dev88 d0) < nD
  k0_dev89_lt : ∀ d0 : Dev nD, (k0_dev89 d0) < nD
  k0_dev90_lt : ∀ d0 : Dev nD, (k0_dev90 d0) < nD
  k0_dev91_lt : ∀ d0 : Dev nD, (k0_dev91 d0) < nD
  k0_dev92_lt : ∀ d0 : Dev nD, (k0_dev92 d0) < nD
  k0_dev93_lt : ∀ d0 : Dev nD, (k0_dev93 d0) < nD
  hstage0_0 : ∀ j, (stage0_0 j).IsWhole
  hstage0_1 : ∀ j, (stage0_1 j).IsWhole
  hstage0_2 : ∀ j, (stage0_2 j).IsWhole
  hstage0_3 : ∀ j, (stage0_3 j).IsWhole

variable [Facts₀]

abbrev cc0_scratch3 : DmaSems sig S32 := SemArray.consecutive 4 S32 hcc0_scratch3
abbrev cc0_scratch4 : DmaSems sig S32 := SemArray.consecutive 36 S32 hcc0_scratch4
abbrev cc0_scratch5 : DmaSems sig S32 := SemArray.consecutive 68 S32 hcc0_scratch5
abbrev cc0_scratch6 : DmaSems sig S32 := SemArray.consecutive 100 S32 hcc0_scratch6
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_v1) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x512x8192 : Shape := ⟨3, ![4, 512, 8192]⟩
abbrev S4x8192 : Shape := ⟨2, ![4, 8192]⟩
abbrev S8192x256 : Shape := ⟨2, ![8192, 256]⟩
abbrev S_ : Shape := ⟨0, ![]⟩
abbrev S4x3x8192 : Shape := ⟨3, ![4, 3, 8192]⟩
abbrev S4x515x8192 : Shape := ⟨3, ![4, 515, 8192]⟩
abbrev S1x8192 : Shape := ⟨2, ![1, 8192]⟩
abbrev S8192 : Shape := ⟨1, ![8192]⟩
abbrev S1x1x8192 : Shape := ⟨3, ![1, 1, 8192]⟩
abbrev S4x512x256 : Shape := ⟨3, ![4, 512, 256]⟩

abbrev nBuf : Space → Nat
  | .hbm => 43
  | .vmem => 0
  | .smem => 0
  | _ => 0

abbrev bufTy : (tb : Table) → Fin (tcTables nBuf tb) → BufTy
  | .hbm, ⟨0, _⟩ => ⟨S4x512x8192, .f32⟩
  | .hbm, ⟨1, _⟩ => ⟨S4x8192, .f32⟩
  | .hbm, ⟨2, _⟩ => ⟨S8192x256, .f32⟩
  | .hbm, ⟨3, _⟩ => ⟨S_, .f32⟩
  | .hbm, ⟨4, _⟩ => ⟨S4x3x8192, .f32⟩
  | .hbm, ⟨5, _⟩ => ⟨S4x515x8192, .f32⟩
  | .hbm, ⟨6, _⟩ => ⟨S_, .f32⟩
  | .hbm, ⟨7, _⟩ => ⟨S4x512x8192, .f32⟩
  | .hbm, ⟨8, _⟩ => ⟨S4x512x8192, .f32⟩
  | .hbm, ⟨9, _⟩ => ⟨S1x8192, .f32⟩
  | .hbm, ⟨10, _⟩ => ⟨S8192, .f32⟩
  | .hbm, ⟨11, _⟩ => ⟨S1x1x8192, .f32⟩
  | .hbm, ⟨12, _⟩ => ⟨S4x512x8192, .f32⟩
  | .hbm, ⟨13, _⟩ => ⟨S4x512x8192, .f32⟩
  | .hbm, ⟨14, _⟩ => ⟨S4x512x8192, .f32⟩
  | .hbm, ⟨15, _⟩ => ⟨S4x512x8192, .f32⟩
  | .hbm, ⟨16, _⟩ => ⟨S1x8192, .f32⟩
  | .hbm, ⟨17, _⟩ => ⟨S8192, .f32⟩
  | .hbm, ⟨18, _⟩ => ⟨S1x1x8192, .f32⟩
  | .hbm, ⟨19, _⟩ => ⟨S4x512x8192, .f32⟩
  | .hbm, ⟨20, _⟩ => ⟨S4x512x8192, .f32⟩
  | .hbm, ⟨21, _⟩ => ⟨S4x512x8192, .f32⟩
  | .hbm, ⟨22, _⟩ => ⟨S4x512x8192, .f32⟩
  | .hbm, ⟨23, _⟩ => ⟨S1x8192, .f32⟩
  | .hbm, ⟨24, _⟩ => ⟨S8192, .f32⟩
  | .hbm, ⟨25, _⟩ => ⟨S1x1x8192, .f32⟩
  | .hbm, ⟨26, _⟩ => ⟨S4x512x8192, .f32⟩
  | .hbm, ⟨27, _⟩ => ⟨S4x512x8192, .f32⟩
  | .hbm, ⟨28, _⟩ => ⟨S4x512x8192, .f32⟩
  | .hbm, ⟨29, _⟩ => ⟨S4x512x8192, .f32⟩
  | .hbm, ⟨30, _⟩ => ⟨S1x8192, .f32⟩
  | .hbm, ⟨31, _⟩ => ⟨S8192, .f32⟩
  | .hbm, ⟨32, _⟩ => ⟨S1x1x8192, .f32⟩
  | .hbm, ⟨33, _⟩ => ⟨S4x512x8192, .f32⟩
  | .hbm, ⟨34, _⟩ => ⟨S4x512x8192, .f32⟩
  | .hbm, ⟨35, _⟩ => ⟨S4x512x8192, .f32⟩
  | .hbm, ⟨36, _⟩ => ⟨S4x512x8192, .f32⟩
  | .hbm, ⟨37, _⟩ => ⟨S4x512x8192, .f32⟩
  | .hbm, ⟨38, _⟩ => ⟨S_, .f32⟩
  | .hbm, ⟨39, _⟩ => ⟨S4x512x8192, .f32⟩
  | .hbm, ⟨40, _⟩ => ⟨S4x512x8192, .f32⟩
  | .hbm, ⟨41, _⟩ => ⟨S4x512x8192, .f32⟩
  | .hbm, ⟨42, _⟩ => ⟨S4x512x256, .f32⟩
  | _, _ => ⟨S4x512x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_1 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩

abbrev nD : Nat := 1
abbrev τ : Topo := Topo.v7x

variable {F : FTy → Type} [FloatOps F]

class Facts₀ : Prop where
  bcast_S_S4x3x8192 : S_.BroadcastsInDim S4x3x8192 (![] : Fin 0 → Fin S4x3x8192.rank)
  concatenates_S4x3x8192_S4x512x8192_S4x515x8192_d1 : Shape.Concatenates [S4x3x8192, S4x512x8192] S4x515x8192 1
  bcast_S_S4x512x8192 : S_.BroadcastsInDim S4x512x8192 (![] : Fin 0 → Fin S4x512x8192.rank)
  slices_S4x515x8192_S4x512x8192_0_0_0 : S4x515x8192.Slices ![0, 0, 0] S4x512x8192
  slices_S4x8192_S1x8192_0_0 : S4x8192.Slices ![0, 0] S1x8192
  shapeCasts_S1x8192_S8192 : S1x8192.ShapeCasts S8192
  bcast_S8192_S1x1x8192_2 : S8192.BroadcastsInDim S1x1x8192 (![2] : Fin 1 → Fin S1x1x8192.rank)
  bcast_S1x1x8192_S4x512x8192_0_1_2 : S1x1x8192.BroadcastsInDim S4x512x8192 (![0, 1, 2] : Fin 3 → Fin S4x512x8192.rank)
  slices_S4x515x8192_S4x512x8192_0_1_0 : S4x515x8192.Slices ![0, 1, 0] S4x512x8192
  slices_S4x8192_S1x8192_1_0 : S4x8192.Slices ![1, 0] S1x8192
  slices_S4x515x8192_S4x512x8192_0_2_0 : S4x515x8192.Slices ![0, 2, 0] S4x512x8192
  slices_S4x8192_S1x8192_2_0 : S4x8192.Slices ![2, 0] S1x8192
  slices_S4x515x8192_S4x512x8192_0_3_0 : S4x515x8192.Slices ![0, 3, 0] S4x512x8192
  slices_S4x8192_S1x8192_3_0 : S4x8192.Slices ![3, 0] S1x8192
  dot_S4x512x8192_S8192x256_S4x512x256_2_0_01_1_n_n_wf : DotDims.WF S4x512x8192 S8192x256 S4x512x256 [2] [0] [0, 1] [1] [] []

variable [Facts₀]

def dot_S4x512x8192_S8192x256_S4x512x256_2_0_01_1_n_n : DotDims S4x512x8192 S8192x256 S4x512x256 where
  lhsContracting := [2]
  rhsContracting := [0]
  lhsNonContracting := [0, 1]
  rhsNonContracting := [1]
  lhsBatch := []
  rhsBatch := []
  wf := dot_S4x512x8192_S8192x256_S4x512x256_2_0_01_1_n_n_wf

class Facts : Prop extends Facts₀ where

variable [Facts]
-- ==== Proof.Contents.lean ====
/-
The contents the kernel's buffers hold at each stage, as pure functions of every device's three argument
blocks: a device's partial product over its own 256 channels, cut into 32 chunks of 64 rows; the
reduce-scatter's receive buffer once every slot has landed (slot j holds chunk d of device d + j's partial
product, slot 0 the device's own); the chunk a device contributes to the all-gather (the sum of its 32
slots); the all-gather buffer (slot j is device j's chunk, the same on every device); the result.
-/
import proofs.«900791_g7700000000000792_dist_gconv1d_cshard_i_b4_s512_c256_v7x_i32_bf16_1_alg».proof.Proof.Gen.KernelIdeal.Skeleton
import Idealize.ShloMosaic.Lib.ValueIdx

noncomputable section

namespace Cert.KernelIdeal.Contents

open Idealize.ShloMosaic Idealize.ShloMosaic.ValueIdx Cert.KernelIdeal Cert.KernelIdeal.Gen

variable {F : FTy → Type} [FloatOps F]

/-- Device `d + j` around the mesh of 32. -/
def rot (d : Dev nD) (j : Fin 32) : Dev nD := ⟨(d.val + j.val) % 32, Nat.mod_lt _ (by decide)⟩

/-- A device's partial product: its block of the input convolved and gated, times its 256 rows of the projection,
    as 32 chunks of 64 rows. -/
def part (x : Vec F S4x512x256 .f32) (k : Vec F S4x256 .f32) (w : Vec F S256x256 .f32) : Vec F S32x64x256 .bf16 :=
  k0_pay5 (k0_pay3 x k) (k0_pay4 x k) w

/-- The reduce-scatter's receive buffer on device `d` with every slot landed: slot `j` holds chunk `d` of device
    `d + j`'s partial product (slot 0 the device's own chunk `d`). -/
def rsAll (P : Dev nD → Vec F S32x64x256 .bf16) (d : Dev nD) : Vec F S32x64x256 .bf16 :=
  fun i => P (rot d (i 0)) (ix3 d (i 1) (i 2))

/-- The chunk device `d` contributes to the all-gather: the sum of its 32 received slots. -/
def acc (P : Dev nD → Vec F S32x64x256 .bf16) (d : Dev nD) : Vec F S1x64x256 .bf16 :=
  k0_pay7 (rsAll P d)

/-- The all-gather buffer with every slot landed, the same on every device: slot `j` is device `j`'s chunk. -/
def agAll (P : Dev nD → Vec F S32x64x256 .bf16) : Vec F S32x64x256 .bf16 :=
  fun i => acc P (i 0) (ix3 (0 : Fin 1) (i 1) (i 2))

/-- The result every device ends with. -/
def outAll (P : Dev nD → Vec F S32x64x256 .bf16) : Vec F S4x512x256 .f32 :=
  k0_pay8 (agAll P)

end Cert.KernelIdeal.Contents

end
-- ==== Proof.Proto.lean ====
/-
The protocol of the thirty-two-device kernel, as data: the ring of devices; the semaphore cells (the
barrier cell and four pools of thirty-one transfer cells on every device); the three scratch buffers and
their sixty-four-row slots; the schedule of duties, one round on every cell; what every device owes at
launch; the level assignment; and the pipeline's proof data.

A device's operation number r (0 ≤ r < 31) addresses the device r + 1 places ahead of it around the ring.
The reduce-scatter's operation r sends chunk (c + r + 1) of the sender's partial product into slot 31 - r
of the receiver; the all-gather's operation r sends the sender's own chunk into the receiver's slot of the
sender's number.
-/
import proofs.«900791_g7700000000000792_dist_gconv1d_cshard_i_b4_s512_c256_v7x_i32_bf16_1_alg».proof.Proof.Contents
import proofs.«900791_g7700000000000792_dist_gconv1d_cshard_i_b4_s512_c256_v7x_i32_bf16_1_alg».proof.Proof.Gen.KernelIdeal.Frame
import Idealize.ShloMosaic.Lib.Pipeline.Launch
import Idealize.ShloMosaic.Lib.Pipeline.Kit
import Idealize.ShloMosaic.Lib.Transfers
import Idealize.ShloMosaic.Lib.Tactic

noncomputable section

namespace Cert.KernelIdeal.Proto

open Cert.KernelIdeal Cert.KernelIdeal.Gen Cert.KernelIdeal.Contents
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy (duties `Unit`) and the protocol's (duties `Fin 31`) -/

abbrev UB : Type := URounds (GSem nD τ sig) (Fin 31)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- A memory: contents for every buffer of every thread. -/
abbrev Mem (F : FTy → Type) : Type := (ℓ : Loc nD τ sig) → Buf (Elt F) ℓ

/-! ## The ring -/

/-- Operation `r` seen from the receiving side: the sender's operation `rev r` addresses whoever addresses the
    sender with its operation `r`. -/
def rev (r : Fin 31) : Fin 31 := ⟨30 - r.val, by omega⟩
/-- The device operation `r` of device `c` addresses: `r + 1` places ahead. -/
def nb (c : Dev nD) (r : Fin 31) : Dev nD := ⟨(c.val + r.val + 1) % 32, Nat.mod_lt _ (by decide)⟩
/-- The device whose operation `r` addresses `c`: `r + 1` places behind. -/
def pb (c : Dev nD) (r : Fin 31) : Dev nD := ⟨(c.val + 31 - r.val) % 32, Nat.mod_lt _ (by decide)⟩

theorem rev_rev (r : Fin 31) : rev (rev r) = r := by
  apply Fin.ext; have h := r.isLt; simp only [rev]; omega
theorem pb_nb (c : Dev nD) (r : Fin 31) : pb (nb c r) r = c := by
  apply Fin.ext; have hc : c.val < 32 := c.isLt; have h := r.isLt; simp only [pb, nb]; omega
theorem nb_pb (c : Dev nD) (r : Fin 31) : nb (pb c r) r = c := by
  apply Fin.ext; have hc : c.val < 32 := c.isLt; have h := r.isLt; simp only [pb, nb]; omega
theorem pb_eq_nb_rev (c : Dev nD) (r : Fin 31) : pb c r = nb c (rev r) := by
  apply Fin.ext; have hc : c.val < 32 := c.isLt; have h := r.isLt; simp only [pb, nb, rev]; omega
theorem nb_rev_eq_pb (c : Dev nD) (r : Fin 31) : nb c (rev r) = pb c r := (pb_eq_nb_rev c r).symm
theorem nb_ne_self (c : Dev nD) (r : Fin 31) : nb c r ≠ c := by
  intro h; have hv := congrArg Fin.val h; have hc : c.val < 32 := c.isLt; have hr := r.isLt; simp only [nb] at hv; omega
theorem nb_inj_op (c : Dev nD) {r r' : Fin 31} (h : nb c r = nb c r') : r = r' := by
  apply Fin.ext; have hv := congrArg Fin.val h; have hc : c.val < 32 := c.isLt; have hr := r.isLt; have hr' := r'.isLt
  simp only [nb] at hv; omega
/-- The slot of operation `r`: `r + 1`. -/
def sl (r : Fin 31) : Fin 32 := ⟨r.val + 1, by omega⟩
/-- A device's number as a slot. -/
def dv (c : Dev nD) : Fin 32 := ⟨c.val, c.isLt⟩
theorem nb_eq_rot (c : Dev nD) (r : Fin 31) : nb c r = rot c (sl r) := by
  apply Fin.ext; simp only [nb, rot, sl]; rw [Nat.add_assoc]

/-! ## The cells -/

/-- The barrier semaphore of collective id 0, as the body spells it. -/
abbrev barS : Sem sig := (SemArray.scalar (sig.barrier 0 rfl) : Sems sig S_).sem

/-- Semaphore `r + 1` of pool `p`: the pools are the reduce-scatter's send (0) and receive (1) arrays and the
    all-gather's send (2) and receive (3) arrays, thirty-two consecutive DMA semaphores each from index 4. -/
abbrev dsem (p : Fin 4) (r : Fin 31) : DmaSem sig :=
  (⟨4 + 32 * p.val + (r.val + 1), by have hp := p.isLt; have hr := r.isLt; omega⟩ : Fin 132)

/-- A device's own transfer cells, pool by pool. -/
abbrev osem : Fin 4 × Fin 31 → SemLoc sig := fun k => .dma (dsem k.1 k.2)
/-- All of a device's cells: the barrier cell and its own. -/
abbrev csem : Option (Fin 4 × Fin 31) → SemLoc sig
  | none => .reg barS
  | some k => osem k
abbrev kcell (ck : Dev nD × Option (Fin 4 × Fin 31)) : GSem nD τ sig := ((ck.1 : Thread nD τ), csem ck.2)

abbrev bar (c : Dev nD) : GSem nD τ sig := kcell (c, none)
abbrev rsS (c : Dev nD) (r : Fin 31) : GSem nD τ sig := kcell (c, some (0, r))
abbrev rsR (c : Dev nD) (r : Fin 31) : GSem nD τ sig := kcell (c, some (1, r))
abbrev agS (c : Dev nD) (r : Fin 31) : GSem nD τ sig := kcell (c, some (2, r))
abbrev agR (c : Dev nD) (r : Fin 31) : GSem nD τ sig := kcell (c, some (3, r))

/-- A DMA semaphore's pool, index within the pool, and operation, read back off its number. -/
def poolOf (s : DmaSem sig) : ℕ := (s.val - 4) / 32
def ixOf (s : DmaSem sig) : ℕ := (s.val - 4) % 32
def opOf (s : DmaSem sig) : Fin 31 := ⟨(ixOf s - 1) % 31, Nat.mod_lt _ (by decide)⟩
/-- The semaphore is one of the protocol's: past the four staging semaphores and not the unused index 0 of its pool. -/
def IsOwn (s : DmaSem sig) : Prop := 4 ≤ s.val ∧ 1 ≤ ixOf s
instance (s : DmaSem sig) : Decidable (IsOwn s) := by unfold IsOwn; infer_instance

theorem poolOf_dsem (p : Fin 4) (r : Fin 31) : poolOf (dsem p r) = p.val := by
  have hp := p.isLt; have hr := r.isLt; simp only [poolOf, dsem]; omega
theorem ixOf_dsem (p : Fin 4) (r : Fin 31) : ixOf (dsem p r) = r.val + 1 := by
  have hp := p.isLt; have hr := r.isLt; simp only [ixOf, dsem]; omega
theorem opOf_dsem (p : Fin 4) (r : Fin 31) : opOf (dsem p r) = r := by
  apply Fin.ext; have hr := r.isLt; simp only [opOf, ixOf_dsem]; omega
theorem isOwn_dsem (p : Fin 4) (r : Fin 31) : IsOwn (dsem p r) := by
  refine ⟨?_, ?_⟩
  · simp only [dsem]; omega
  · rw [ixOf_dsem]; omega
theorem dsem_inj {p p' : Fin 4} {r r' : Fin 31} (h : dsem p r = dsem p' r') : p = p' ∧ r = r' := by
  have hv := congrArg Fin.val h
  have hp := p.isLt; have hp' := p'.isLt; have hr := r.isLt; have hr' := r'.isLt
  simp only [dsem] at hv
  exact ⟨Fin.ext (by omega), Fin.ext (by omega)⟩
theorem csem_inj : Function.Injective csem := by
  intro a b h
  cases a with
  | none => cases b with
    | none => rfl
    | some k => cases h
  | some k => cases b with
    | none => cases h
    | some k' =>
      have h' : dsem k.1 k.2 = dsem k'.1 k'.2 := SemLoc.dma.inj h
      obtain ⟨h1, h2⟩ := dsem_inj h'
      exact congrArg some (Prod.ext h1 h2)
theorem kcell_inj : Function.Injective kcell := by
  intro a b h
  have h1 : a.1 = b.1 := congrArg (fun g : GSem nD τ sig => g.1.1) h
  have h2 : csem a.2 = csem b.2 := congrArg (fun g : GSem nD τ sig => g.2) h
  exact Prod.ext h1 (csem_inj h2)

/-! ## The buffers and their slots -/

/-- The partial product (32 chunks), the reduce-scatter's receive slots, the all-gather's slots. -/
abbrev srcB : Memref sig .tc .vmem S32x64x256 .bf16 := Memref.whole cc0_scratch0
abbrev rsB : Memref sig .tc .vmem S32x64x256 .bf16 := Memref.whole cc0_scratch1
abbrev agB : Memref sig .tc .vmem S32x64x256 .bf16 := Memref.whole cc0_scratch2

theorem slot_inb (j : Fin 32) : ∀ a, (![j.val, 0, 0] : Fin 3 → Nat) a + S1x64x256.size a ≤ S32x64x256.size a := by
  revert j; decide

/-- Slot `j` of a 32-slot buffer, as the body addresses it: the slice at `[j, 0, 0]`, its unit axis dropped. -/
abbrev slotM (B : Memref sig .tc .vmem S32x64x256 .bf16) (j : Fin 32) : Memref sig .tc .vmem S64x256 .bf16 :=
  (B.slice (Rect.unit (s := S32x64x256) ![j.val, 0, 0] S1x64x256.size (slot_inb j)) (fun _ => rfl)).squeeze S64x256 squeezes_S1x64x256_S64x256

/-- The units a transfer into a slot credits. -/
abbrev N : ℕ := (slotM rsB 0).view.dmaCredit
theorem N_pos : 0 < N := View.dmaCredit_pos _ (by decide)
theorem dmaCredit_slot_rs (j : Fin 32) : (slotM rsB j).view.dmaCredit = N := rfl
theorem dmaCredit_slot_ag (j : Fin 32) : (slotM agB j).view.dmaCredit = N := rfl

/-- Slot `j` of buffer `B` on device `c` at share `q`, the buffer's contents being `f` there. -/
abbrev slotPts (B : Memref sig .tc .vmem S32x64x256 .bf16) (c : Dev nD) (j : Fin 32) (q : PosShare TreeShare)
    (f : Buf (Elt F) ((slotM B j).view.loc (c : Thread nD τ))) : sProp 𝕄 :=
  ((slotM B j).view.loc (c : Thread nD τ)) ↦[(slotM B j).view.set]{q} f

/-- The share of its all-gather slot a device lends operation `r`'s transfer, and the share it keeps. -/
abbrev sh (r : Fin 31) : PosShare TreeShare := Transfers.shareTok fullShare 31 r
abbrev shLast : PosShare TreeShare := Transfers.shareDrop fullShare 31

/-! ## Contents -/

/-- Device `c`'s partial product, from its three argument blocks as launched. -/
def P (m : Mem F) (c : Dev nD) : Vec F S32x64x256 .bf16 :=
  part (iblk m c 0 t0_0) (iblk m c 1 t0_0) (iblk m c 2 t0_0)

/-! ## The schedule -/

/-- Duty `r` of device `t`'s barrier cell, paid by `c = pb t r` with its signal `r`: what lets `t` write into `c` —
    `c`'s reduce-scatter slot `r + 1` and all-gather slot `t`, and that `c` has opened the two cells `t`'s transfers
    credit there. -/
def barPay (t : Dev nD) (r : Fin 31) : sProp 𝕄 :=
  iprop((∃ f, slotPts rsB (pb t r) (sl r) fullShare f) ∗ (∃ f, slotPts agB (pb t r) (dv t) fullShare f)
    ∗ reached ER (rsR (pb t r) r) 0 ∗ reached ER (agR (pb t r) (rev r)) 0)
/-- The chunk sent comes back to the sender. -/
def rsSPay (m : Mem F) (c : Dev nD) (r : Fin 31) : sProp 𝕄 := slotPts srcB c (dv (nb c r)) fullShare (P m c)
/-- Slot `r + 1` of `d` holds chunk `d` of `nb d r`'s partial product. -/
def rsRPay (m : Mem F) (d : Dev nD) (r : Fin 31) : sProp 𝕄 := slotPts rsB d (sl r) fullShare (rsAll (P m) d)
/-- The share of the device's own all-gather slot lent to operation `r` comes back. -/
def agSPay (m : Mem F) (c : Dev nD) (r : Fin 31) : sProp 𝕄 := slotPts agB c (dv c) (sh r) (agAll (P m))
/-- Slot `pb d r` of `d` holds that device's chunk. -/
def agRPay (m : Mem F) (d : Dev nD) (r : Fin 31) : sProp 𝕄 := slotPts agB d (dv (pb d r)) fullShare (agAll (P m))

/-- One round, round 0, on every cell of a TensorCore: the barrier cell has the 31 unit duties of the devices that
    signal it; each transfer cell of the protocol one duty, `0`, of a slot's credit. -/
def sched (m : Mem F) : Rounds.Schedule (GSem nD τ sig) (Fin 31) 𝕄 where
  duties g r := if r = 0 ∧ g.1.2 = .tc then
      (match g.2 with
        | .reg _ => Finset.univ
        | .dma s => if IsOwn s then {0} else ∅)
    else ∅
  unitless _ := False
  amount g _ _ := match g.2 with
    | .reg _ => 1
    | .dma _ => N
  payload g _ d := match g.2 with
    | .reg _ => barPay g.1.1 d
    | .dma s => match poolOf s with
      | 0 => rsSPay m g.1.1 (opOf s)
      | 1 => rsRPay m g.1.1 (opOf s)
      | 2 => agSPay m g.1.1 (opOf s)
      | _ => agRPay m g.1.1 (opOf s)
  amount_pos g _ _ _ := by
    split
    · exact Nat.one_pos
    · exact N_pos

instance sched_payload_storable (m : Mem F) (g : GSem nD τ sig) (r : ℕ) (d : Fin 31) :
    BI.Storable (upEmb : UEmb _ 𝕄) ((sched (F := F) m).payload g r d) := by
  dsimp only [sched]
  split
  · unfold barPay
    set_option synthInstance.maxHeartbeats 400000 in
    infer_instance
  · split
    · unfold rsSPay; infer_instance
    · unfold rsRPay; infer_instance
    · unfold agSPay; infer_instance
    · unfold agRPay; infer_instance

/-! ## What each device owes at launch; the levels -/

/-- The operation paid when `n + 1` are left: operations are paid in order 0, 1, …, 30, each peeling the LAST summand. -/
def opAt (n : ℕ) : Fin 31 := ⟨(30 - n) % 31, Nat.mod_lt _ (by decide)⟩

/-- The barrier units device `c` still owes with `n` signals left. -/
def owedSig (c : Dev nD) : ℕ → CellTallies nD τ sig Unit
  | 0 => 0
  | n + 1 => owedSig c n + tallyAt (bar (nb c (opAt n))) () 1
/-- The reduce-scatter receive credits it still owes with `n` transfers left. -/
def owedRs (c : Dev nD) : ℕ → CellTallies nD τ sig Unit
  | 0 => 0
  | n + 1 => owedRs c n + tallyAt (rsR (nb c (opAt n)) (rev (opAt n))) () N
/-- The all-gather receive credits it still owes with `n` transfers left. -/
def owedAg (c : Dev nD) : ℕ → CellTallies nD τ sig Unit
  | 0 => 0
  | n + 1 => owedAg c n + tallyAt (agR (nb c (opAt n)) (opAt n)) () N

theorem owedSig_succ (c : Dev nD) (n : ℕ) : owedSig c (n + 1) = owedSig c n + tallyAt (bar (nb c (opAt n))) () 1 := rfl
theorem owedRs_succ (c : Dev nD) (n : ℕ) : owedRs c (n + 1) = owedRs c n + tallyAt (rsR (nb c (opAt n)) (rev (opAt n))) () N := rfl
theorem owedAg_succ (c : Dev nD) (n : ℕ) : owedAg c (n + 1) = owedAg c n + tallyAt (agR (nb c (opAt n)) (opAt n)) () N := rfl

/-- What device `c` owes at launch, in the order it pays: the signals first (the last bracket), then the reduce-scatter's
    transfers, then the all-gather's. -/
def O₀ (c : Dev nD) : CellTallies nD τ sig Unit := owedAg c 31 + owedRs c 31 + owedSig c 31

def L (g : GSem nD τ sig) : Finset Unit := if g.1.2 = .tc then {()} else ∅
/-- Barrier cells at 1, reduce-scatter receive cells at 2, all-gather receive cells at 3, everything else (staging,
    send cells) at 0. -/
def lv (g : GSem nD τ sig) (_ : Unit) : ℕ := match g.2 with
  | .reg _ => 1
  | .dma s => if IsOwn s then (if poolOf s = 1 then 2 else if poolOf s = 3 then 3 else 0) else 0

/-! ## The pipeline's proof data -/

/-- Every cell's invariant, under the names `K` the launch allocated them at, and that every cell's round 0 is
    reached. Persistent. -/
def records (m : Mem F) (K : Dev nD × Option (Fin 4 × Fin 31) → ℕ) : sProp 𝕄 :=
  iprop((bigSep Finset.univ fun ck : Dev nD × Option (Fin 4 × Fin 31) => cellInv ER (sched m) (K ck) (kcell ck))
    ∗ bigSep Finset.univ fun ck : Dev nD × Option (Fin 4 × Fin 31) => reached ER (kcell ck) 0)

/-- The duty tokens device `c` pays with. -/
def payToks (c : Dev nD) : sProp 𝕄 :=
  bigSep Finset.univ fun r : Fin 31 =>
    iprop(dutyTok ER (bar (nb c r)) 0 r ∗ dutyTok ER (rsR (nb c r) (rev r)) 0 0 ∗ dutyTok ER (rsS c r) 0 0
      ∗ dutyTok ER (agR (nb c r) r) 0 0 ∗ dutyTok ER (agS c r) 0 0)

/-- Device `c`'s positions at round 0 of its 125 cells, and its tokens. -/
def linear (c : Dev nD) : sProp 𝕄 :=
  iprop((bigSep Finset.univ fun j : Option (Fin 4 × Fin 31) => atPos ER (kcell (c, j)) 0 ∅ 0) ∗ payToks c)

def ghost (m : Mem F) (K : Dev nD × Option (Fin 4 × Fin 31) → ℕ) (c : Dev nD) : sProp 𝕄 :=
  iprop(records m K ∗ linear c)

/-- What device `c`'s body starts from: the ghost state at some names, the credit tokens of the cells other devices
    pay (its barrier cell's 31 units, its 31 + 31 receive cells' credits) and the level facts. -/
def start (m : Mem F) (c : Dev nD) : sProp 𝕄 :=
  iprop((∃ K, ghost m K c) ∗ cred (tallyAt (bar c) () 31)
    ∗ (bigSep Finset.univ fun r : Fin 31 => cred (tallyAt (rsR c r) () N))
    ∗ (bigSep Finset.univ fun r : Fin 31 => cred (tallyAt (agR c r) () N))
    ∗ levAts L lv)

/-- A scratch buffer whole, at some contents. -/
def scr (c : Dev nD) (b : Ref sig .tc) : sProp 𝕄 :=
  iprop(∃ f : Buf (Elt F) ((c : Thread nD τ).loc b), ((c : Thread nD τ).loc b) ↦{fullShare} f)

def Φ₀ (m : Mem F) (c : Dev nD) : sProp 𝕄 :=
  iprop(start m c ∗ scr c cc0_scratch0 ∗ scr c cc0_scratch1 ∗ scr c cc0_scratch2)
/-- After the point: the three scratch buffers back, the 124 own cells at zero, closed (the barrier cell is the
    runtime's: nothing to hand back). -/
def Φ₁ (c : Dev nD) : sProp 𝕄 :=
  iprop(scr c cc0_scratch0 ∗ scr c cc0_scratch1 ∗ scr c cc0_scratch2
    ∗ bigSep Finset.univ fun k : Fin 4 × Fin 31 => semVal ((c : Thread nD τ), osem k) 0)

def dats (m : Mem F) (_ : Fin 1) (c : Dev nD) : Dat τ (Elt F) Unit ℕ UU ℕ cfg0 c where
  A w := m ((cfg0.win w).arr.view.loc (c : Thread nD τ))
  after w _ := match w with
    | ⟨0, _⟩ => iblk m c 0 t0_0
    | ⟨1, _⟩ => iblk m c 1 t0_0
    | ⟨2, _⟩ => iblk m c 2 t0_0
    | ⟨3, _⟩ => outAll (P m)
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

/-- info: 'Cert.KernelIdeal.Proto.kcell_inj' depends on axioms: [propext, Classical.choice, Quot.sound] -/
#guard_msgs in #print axioms kcell_inj

end Cert.KernelIdeal.Proto

end
-- ==== Proof.CredGen.lean ====
/-
Launch credit for protocols made of rounds of one-cell dues. In round `r` every device `d` owes a fixed number of
units to one fixed semaphore of the device `f r d`, where `f r` permutes the devices: then every device is dealt,
at launch, exactly one credit a round on its own semaphores. Also: a tally built by adding one summand a step is a
finite sum, and credits of one cell add up.
-/
import Idealize.ShloMosaic.Lib.Pipeline.Launch

noncomputable section

namespace Cert.CredGen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-- A sequence that starts at zero and adds `f n` at step `n` is the sum of the `f k` below. -/
theorem rec_sum {M : Type} [AddCommMonoid M] (a f : ℕ → M) (h0 : a 0 = 0) (hs : ∀ n, a (n + 1) = a n + f n) :
    ∀ n, a n = ∑ k : Fin n, f k.val
  | 0 => by rw [h0, Finset.univ_eq_empty, Finset.sum_empty]
  | n + 1 => by rw [hs, rec_sum a f h0 hs n, Fin.sum_univ_castSucc]; rfl

/-- Rounds of one-cell dues: in round `r` every device `d` owes `n r` units to semaphore `sm r` of device `f r d`,
    each `f r` a bijection of the devices. The launch then deals device `c` one credit a round, on its own semaphores. -/
theorem launchCred_rounds {nD : Nat} {τ : Topo} {sig : RefSig} {Val : EltTy → Type} {Ix : Type} [DecidableEq Ix]
    {Name : Type} [DecidableEq Name] {U : Type} [URA U] {Lvl : Type}
    {α : Type} (s : Finset α) (sm : α → SemLoc sig) (f finv : α → Dev nD → Dev nD)
    (h1 : ∀ r c, f r (finv r c) = c) (h2 : ∀ r d, finv r (f r d) = d) (ι : Ix) (n : α → ℕ) (c : Dev nD) :
    (Pipeline.launchCred (fun d => ∑ r ∈ s, tallyAt (((f r d).tc : Thread nD τ), sm r) ι (n r)) c : sProp (MT nD τ sig Ix Val Name U Lvl))
      ⊢ bigSep s fun r => cred (tallyAt ((c.tc : Thread nD τ), sm r) ι (n r)) := by
  rw [Pipeline.launchCred_sum]
  exact bigSep_mono fun r _ => Pipeline.launchCred_tallyAt (sm r) (f r) (finv r) (h1 r) (h2 r) ι (n r) c

/-- Credits of one cell, `k` units a round over `s`, are the cell's credit of `s.card * k` units. -/
theorem cred_units {nD : Nat} {τ : Topo} {sig : RefSig} {Val : EltTy → Type} {Ix : Type} [DecidableEq Ix]
    {Name : Type} [DecidableEq Name] {U : Type} [URA U] {Lvl : Type}
    {α : Type} [DecidableEq α] (s : Finset α) (g : GSem nD τ sig) (ι : Ix) (k : ℕ) :
    (bigSep s fun _ : α => (cred (tallyAt g ι k) : sProp (MT nD τ sig Ix Val Name U Lvl))) = cred (tallyAt g ι (s.card * k)) := by
  rw [← Pipeline.cred_finsetSum]
  refine congrArg _ ?_
  induction s using Finset.induction_on with
  | empty => rw [Finset.sum_empty, Finset.card_empty, Nat.zero_mul]; unfold tallyAt; rw [Finsupp.single_zero, tallyOn_zero]
  | insert a s ha ih => rw [Finset.sum_insert ha, ih, tallyAt_add, Finset.card_insert_of_notMem ha, Nat.succ_mul, Nat.add_comm]

/-- info: 'Cert.CredGen.rec_sum' depends on axioms: [propext, Classical.choice, Quot.sound] -/
#guard_msgs in #print axioms rec_sum

/-- info: 'Cert.CredGen.launchCred_rounds' depends on axioms: [propext, Classical.choice, Quot.sound] -/
#guard_msgs in #print axioms launchCred_rounds

/-- info: 'Cert.CredGen.cred_units' depends on axioms: [propext, Classical.choice, Quot.sound] -/
#guard_msgs in #print axioms cred_units

end Cert.CredGen

end
-- ==== Proof.LaunchCred.lean ====
/-
What the launch deals each device, and the launch theorem's side conditions that speak only of the protocol's data.
Every device owes, at launch, one barrier unit and two receive credits to each of the 31 devices ahead of it; summed
over the payers, each device is dealt its barrier cell's 31 units and one credit on each of its 31 + 31 receive
cells. From these: how the launch's holdings become the region invariant at its first point, what the invariant at
the last point gives back, that the pipeline's own waits sit below everything a device owes, and the result
array's final contents.
-/
import proofs.«900791_g7700000000000792_dist_gconv1d_cshard_i_b4_s512_c256_v7x_i32_bf16_1_alg».proof.Proof.Proto
import proofs.«900791_g7700000000000792_dist_gconv1d_cshard_i_b4_s512_c256_v7x_i32_bf16_1_alg».proof.Proof.CredGen
import Idealize.ShloMosaic.Lib.Pipeline.Value

noncomputable section

namespace Cert.KernelIdeal.LaunchCred

open Cert.KernelIdeal Cert.KernelIdeal.Gen Cert.KernelIdeal.Contents Cert.KernelIdeal.Proto
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## What is owed, as finite sums over the operations -/

/-- With `k + 1` operations left the one paid next is operation `30 - k`. -/
theorem opAt_val (k : Fin 31) : opAt k.val = rev k := by
  apply Fin.ext; have h := k.isLt; simp only [opAt, rev]; omega

/-- Reversal of the operations, as a bijection. -/
def revE : Fin 31 ≃ Fin 31 := ⟨rev, rev, rev_rev, rev_rev⟩

/-- A device owes one barrier unit to each of the 31 devices ahead of it. -/
theorem owedSig_eq (c : Dev nD) : owedSig c 31 = ∑ r : Fin 31, tallyAt (bar (nb c r)) () 1 := by
  rw [CredGen.rec_sum (owedSig c) (fun n => tallyAt (bar (nb c (opAt n))) () 1) rfl (owedSig_succ c) 31,
    Finset.sum_congr rfl fun (k : Fin 31) _ => show tallyAt (bar (nb c (opAt k.val))) () 1 = tallyAt (bar (nb c (revE k))) () 1 by rw [opAt_val k]; rfl]
  exact Equiv.sum_comp revE fun r => (tallyAt (bar (nb c r)) () 1 : CellTallies nD τ sig Unit)

/-- A device owes a slot's credit to receive cell `k` of the device its operation `30 - k` addresses. -/
theorem owedRs_eq (c : Dev nD) : owedRs c 31 = ∑ k : Fin 31, tallyAt (rsR (nb c (rev k)) k) () N := by
  rw [CredGen.rec_sum (owedRs c) (fun n => tallyAt (rsR (nb c (opAt n)) (rev (opAt n))) () N) rfl (owedRs_succ c) 31]
  exact Finset.sum_congr rfl fun (k : Fin 31) _ =>
    show tallyAt (rsR (nb c (opAt k.val)) (rev (opAt k.val))) () N = tallyAt (rsR (nb c (rev k)) k) () N by rw [opAt_val k, rev_rev]

/-- A device owes a slot's credit to all-gather receive cell `r` of the device its operation `r` addresses. -/
theorem owedAg_eq (c : Dev nD) : owedAg c 31 = ∑ r : Fin 31, tallyAt (agR (nb c r) r) () N := by
  rw [CredGen.rec_sum (owedAg c) (fun n => tallyAt (agR (nb c (opAt n)) (opAt n)) () N) rfl (owedAg_succ c) 31,
    Finset.sum_congr rfl fun (k : Fin 31) _ => show tallyAt (agR (nb c (opAt k.val)) (opAt k.val)) () N = tallyAt (agR (nb c (revE k)) (revE k)) () N by rw [opAt_val k]; rfl]
  exact Equiv.sum_comp revE fun r => (tallyAt (agR (nb c r) r) () N : CellTallies nD τ sig Unit)

/-! ## The launch credit -/

omit [FloatOps F] in
/-- The barrier cell's 31 units: one from each device behind. -/
theorem cred_sig (c : Dev nD) : (Pipeline.launchCred (fun d => owedSig d 31) c : sProp 𝕄) ⊢ cred (tallyAt (bar c) () 31) := by
  rw [show (fun d : Dev nD => owedSig d 31) = fun d => ∑ r : Fin 31, tallyAt (((nb d r).tc : Thread nD τ), SemLoc.reg barS) () 1 from
    funext fun d => owedSig_eq d]
  refine (CredGen.launchCred_rounds Finset.univ (fun _ : Fin 31 => SemLoc.reg barS) (fun r d => nb d r) (fun r c => pb c r)
    (fun r c => nb_pb c r) (fun r d => pb_nb d r) () (fun _ => 1) c).trans ?_
  rw [CredGen.cred_units, Finset.card_univ, Fintype.card_fin]

omit [FloatOps F] in
/-- One credit on every reduce-scatter receive cell. -/
theorem cred_rs (c : Dev nD) :
    (Pipeline.launchCred (fun d => owedRs d 31) c : sProp 𝕄) ⊢ bigSep Finset.univ fun r : Fin 31 => cred (tallyAt (rsR c r) () N) := by
  rw [show (fun d : Dev nD => owedRs d 31) = fun d => ∑ k : Fin 31, tallyAt (((nb d (rev k)).tc : Thread nD τ), SemLoc.dma (dsem 1 k)) () N from
    funext fun d => owedRs_eq d]
  exact CredGen.launchCred_rounds Finset.univ (fun k : Fin 31 => SemLoc.dma (dsem 1 k)) (fun k d => nb d (rev k)) (fun k c => pb c (rev k))
    (fun k c => nb_pb c (rev k)) (fun k d => pb_nb d (rev k)) () (fun _ => N) c

omit [FloatOps F] in
/-- One credit on every all-gather receive cell. -/
theorem cred_ag (c : Dev nD) :
    (Pipeline.launchCred (fun d => owedAg d 31) c : sProp 𝕄) ⊢ bigSep Finset.univ fun r : Fin 31 => cred (tallyAt (agR c r) () N) := by
  rw [show (fun d : Dev nD => owedAg d 31) = fun d => ∑ r : Fin 31, tallyAt (((nb d r).tc : Thread nD τ), SemLoc.dma (dsem 3 r)) () N from
    funext fun d => owedAg_eq d]
  exact CredGen.launchCred_rounds Finset.univ (fun r : Fin 31 => SemLoc.dma (dsem 3 r)) (fun r d => nb d r) (fun r c => pb c r)
    (fun r c => nb_pb c r) (fun r d => pb_nb d r) () (fun _ => N) c

omit [FloatOps F] in
/-- What the launch deals device `c`: its barrier cell's 31 units and a credit on each of its 62 receive cells. -/
theorem creds (c : Dev nD) :
    (Pipeline.launchCred O₀ c : sProp 𝕄) ⊢ iprop(cred (tallyAt (bar c) () 31)
      ∗ (bigSep Finset.univ fun r : Fin 31 => cred (tallyAt (rsR c r) () N))
      ∗ (bigSep Finset.univ fun r : Fin 31 => cred (tallyAt (agR c r) () N))) := by
  have h1 : (Pipeline.launchCred O₀ c : sProp 𝕄)
      = iprop(Pipeline.launchCred (fun d => owedAg d 31 + owedRs d 31) c ∗ Pipeline.launchCred (fun d => owedSig d 31) c) :=
    Pipeline.launchCred_add (fun d => owedAg d 31 + owedRs d 31) (fun d => owedSig d 31) c
  have h2 : (Pipeline.launchCred (fun d => owedAg d 31 + owedRs d 31) c : sProp 𝕄)
      = iprop(Pipeline.launchCred (fun d => owedAg d 31) c ∗ Pipeline.launchCred (fun d => owedRs d 31) c) :=
    Pipeline.launchCred_add (fun d => owedAg d 31) (fun d => owedRs d 31) c
  rw [h1, h2]
  iintro ⟨⟨Hag, Hrs⟩, Hsig⟩
  isplitl [Hsig]; · iapply (cred_sig (F := F) c); iexact Hsig
  isplitl [Hrs]; · iapply (cred_rs (F := F) c); iexact Hrs
  iapply (cred_ag (F := F) c); iexact Hag

/-! ## Where a device owes: only at barrier and receive cells of TensorCores, all above level 0 -/

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (bar c) () = 1 := rfl
theorem lv_rsR (c : Dev nD) (r : Fin 31) : lv (rsR c r) () = 2 := by
  show (if IsOwn (dsem 1 r) then (if poolOf (dsem 1 r) = 1 then 2 else if poolOf (dsem 1 r) = 3 then 3 else 0) else 0) = 2
  rw [if_pos (isOwn_dsem 1 r), poolOf_dsem]; rfl
theorem lv_agR (c : Dev nD) (r : Fin 31) : lv (agR c r) () = 3 := by
  show (if IsOwn (dsem 3 r) then (if poolOf (dsem 3 r) = 1 then 2 else if poolOf (dsem 3 r) = 3 then 3 else 0) else 0) = 3
  rw [if_pos (isOwn_dsem 3 r), poolOf_dsem]; rfl

/-- A cell a device owes to at launch is a barrier or a receive cell of some device. -/
theorem O₀_pos {c : Dev nD} {g : GSem nD τ sig} {u : Unit} (h : 0 < O₀ c g u) :
    (∃ d, g = bar d) ∨ (∃ d r, g = rsR d r) ∨ (∃ d r, g = agR d r) := by
  unfold O₀ at h
  rcases Pipeline.add_pos_cases h with h | h
  · rcases Pipeline.add_pos_cases h with h | h
    · rw [owedAg_eq] at h
      obtain ⟨r, -, hr⟩ := Pipeline.sum_pos_exists h
      exact Or.inr (Or.inr ⟨_, _, (Pipeline.tallyAt_pos hr).1⟩)
    · rw [owedRs_eq] at h
      obtain ⟨r, -, hr⟩ := Pipeline.sum_pos_exists h
      exact Or.inr (Or.inl ⟨_, _, (Pipeline.tallyAt_pos hr).1⟩)
  · rw [owedSig_eq] at h
    obtain ⟨r, -, hr⟩ := Pipeline.sum_pos_exists h
    exact Or.inl ⟨_, (Pipeline.tallyAt_pos hr).1⟩

/-- Everything owed at launch sits in the level table, above level 0. -/
theorem O₀_lv {c : Dev nD} {g : GSem nD τ sig} {u : Unit} (h : 0 < O₀ c g u) : u ∈ L g ∧ 0 < lv g u := by
  rcases O₀_pos h with ⟨d, rfl⟩ | ⟨d, r, rfl⟩ | ⟨d, r, rfl⟩
  · exact ⟨by rw [L_tc]; exact Finset.mem_singleton_self _, by rw [lv_bar]; decide⟩
  · exact ⟨by rw [L_tc]; exact Finset.mem_singleton_self _, by rw [lv_rsR]; decide⟩
  · exact ⟨by rw [L_tc]; exact Finset.mem_singleton_self _, by rw [lv_agR]; decide⟩

omit [FloatOps F] in
/-- The pipeline's staging cells sit at level 0: a device may wait on them whatever it owes of the protocol. -/
theorem mayWait_stage (c : Dev nD) (q : DmaSem sig) (hq : ¬ IsOwn q) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g i hg => ⟨(O₀_lv hg).1, ?_⟩
    have h0 : lv ((c : Thread nD τ), SemLoc.dma q) () = 0 := by
      show (if IsOwn q then _ else 0) = 0
      rw [if_neg hq]
    rw [h0]; exact (O₀_lv hg).2
  · rw [MayWait_zero]; iintro -; iempintro

/-- The pipeline's own waits, before and after the point. -/
theorem waits (m : Mem F) (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The launch theorem's side conditions on the region invariant -/

theorem share_eq (m : Mem F) (c : Dev nD) (w : Fin cfg0.W) : (dats m 0 c).share w = fullShare := by unfold Dat.share; split <;> rfl

/-- From what the launch hands a device to what its body starts from. -/
theorem start_intro (m : Mem F) (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ (∃ K, ghost m K c))
      ⊢ |={Set.univ}=> iprop(start m c ∗ emp) := by
  iintro ⟨-, Hlev, Hcr, -, HG⟩
  ihave Hc := (creds (F := F) c) $$ Hcr
  icases Hc with ⟨Hb, Hrs, Hag⟩
  imodintro
  unfold start
  isplitl
  · isplitl [HG]; · iexact HG
    isplitl [Hb]; · iexact Hb
    isplitl [Hrs]; · iexact Hrs
    isplitl [Hag]; · iexact Hag
    iexact Hlev
  · iempintro

/-- With the three scratch buffers, that is the region invariant at the first point. -/
theorem phi0_intro (m : Mem F) (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scr
  iintro ⟨Hs, -, H0, H1, H2⟩
  isplitl [Hs]; · iexact Hs
  isplitl [H0]; · iexact H0
  isplitl [H1]; · iexact H1
  iexact H2

/-- The invariant at the last point gives back the own semaphores at zero and the scratch buffers. -/
theorem phi1_exit (m : Mem F) (c : Dev nD) :
    (dats m 0 c).Φ (Fin.last cfg0.N)
      ⊢ iprop(emp ∗ Pipeline.ownSems0 (Ix := Unit) (Name := ℕ) (U := UU) (Lvl := ℕ) (Val := Elt F) (τ := τ) osem c ∗ Pipeline.scopedRest cfg0.spec c) := by
  rw [show (dats m 0 c).Φ (Fin.last cfg0.N) = Φ₁ c from rfl, scopedRest0_eq]
  unfold Φ₁ scr Pipeline.ownSems0
  iintro ⟨H0, H1, H2, Hs⟩
  isplitr; · iempintro
  isplitl [Hs]; · iexact Hs
  isplitl [H0]; · iexact H0
  isplitl [H1]; · iexact H1
  iexact H2

/-! ## The arrays after the run -/

/-- The result array ends holding what the body left in its staging buffer: the one point writes the whole array. -/
theorem arrAt_out {c : Dev nD} (dat : Dat τ (Elt F) Unit ℕ UU ℕ cfg0 c) : dat.arrAt 3 cfg0.N = dat.after 3 t0_0 := by
  rw [show cfg0.N = (t0_0 : Fin cfg0.N).val + 1 from rfl, dat.arrAt_succ 3 t0_0, if_pos (flush0_3 t0_0)]
  funext i
  have hemb : ((cfg0.win 3).blk t0_0).view.emb i = i := by
    funext a; apply Fin.ext
    rw [View.emb_slice, Function.Embedding.trans_apply]
    show 0 * _ + 1 * (i a).val = (i a).val
    omega
  have key := View.write_emb_of_mem (v := ((cfg0.win 3).blk t0_0).view) (dat.arrAt 3 ↑t0_0) (dat.flushed 3 t0_0) (M := Finset.univ) (x := i) (Finset.mem_univ _)
  rw [hemb] at key
  rw [key, cast_eq]

/-- Device `c`'s result array after the run: the gathered result. -/
theorem final_out (m : Mem F) (c : Dev nD) : (dats m 0 c).arrAt 3 cfg0.N = outAll (P m) := arrAt_out (dats m 0 c)

/-- Its argument arrays after the run: as launched. -/
theorem final_in0 (m : Mem F) (c : Dev nD) : (dats m 0 c).arrAt 0 cfg0.N = m ((c.tc : Thread nD τ).loc main_arg0) := (dats m 0 c).arrAt_in 0 rfl _
theorem final_in1 (m : Mem F) (c : Dev nD) : (dats m 0 c).arrAt 1 cfg0.N = m ((c.tc : Thread nD τ).loc main_arg1) := (dats m 0 c).arrAt_in 1 rfl _
theorem final_in2 (m : Mem F) (c : Dev nD) : (dats m 0 c).arrAt 2 cfg0.N = m ((c.tc : Thread nD τ).loc main_arg2) := (dats m 0 c).arrAt_in 2 rfl _

/-- info: 'Cert.KernelIdeal.LaunchCred.creds' depends on axioms: [propext, Classical.choice, Quot.sound] -/
#guard_msgs in #print axioms creds

/-- info: 'Cert.KernelIdeal.LaunchCred.waits' depends on axioms: [propext, Classical.choice, Quot.sound] -/
#guard_msgs in #print axioms waits

/-- info: 'Cert.KernelIdeal.LaunchCred.start_intro' depends on axioms: [propext, Classical.choice, Quot.sound] -/
#guard_msgs in #print axioms start_intro

/-- info: 'Cert.KernelIdeal.LaunchCred.phi0_intro' depends on axioms: [propext, Classical.choice, Quot.sound] -/
#guard_msgs in #print axioms phi0_intro

/-- info: 'Cert.KernelIdeal.LaunchCred.phi1_exit' depends on axioms: [propext, Classical.choice, Quot.sound] -/
#guard_msgs in #print axioms phi1_exit

/-- info: 'Cert.KernelIdeal.LaunchCred.final_out' depends on axioms: [propext, Classical.choice, Quot.sound] -/
#guard_msgs in #print axioms final_out

end Cert.KernelIdeal.LaunchCred

end
-- ==== Proof.Run.lean ====
/-
The launch: from the body obligation of every device and the ghost state's set-up to the run of the whole program on
the mesh. The post names each device's result array as a function of all devices' argument arrays — the gathered
result — and says the argument arrays are unchanged.
-/
import proofs.«900791_g7700000000000792_dist_gconv1d_cshard_i_b4_s512_c256_v7x_i32_bf16_1_alg».proof.Proof.LaunchCred

noncomputable section

namespace Cert.KernelIdeal.Run

open Cert.KernelIdeal Cert.KernelIdeal.Gen Cert.KernelIdeal.Contents Cert.KernelIdeal.Proto Cert.KernelIdeal.LaunchCred
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The staged blocks are the argument arrays -/

/-- An input window's block at the one point, read off its array, is the array: the block is the whole array. -/
theorem iblk0_eq (m : Mem F) (c : Dev nD) : iblk m c 0 t0_0 = m ((c.tc : Thread nD τ).loc main_arg0) := by
  unfold iblk
  funext i
  have hemb : ((cfg0.win 0).blk t0_0).view.emb i = i := by
    funext a; apply Fin.ext
    rw [View.emb_slice, Function.Embedding.trans_apply]
    show 0 * _ + 1 * (i a).val = (i a).val
    omega
  rw [View.read_apply, hemb, cast_eq]
theorem iblk1_eq (m : Mem F) (c : Dev nD) : iblk m c 1 t0_0 = m ((c.tc : Thread nD τ).loc main_arg1) := by
  unfold iblk
  funext i
  have hemb : ((cfg0.win 1).blk t0_0).view.emb i = i := by
    funext a; apply Fin.ext
    rw [View.emb_slice, Function.Embedding.trans_apply]
    show 0 * _ + 1 * (i a).val = (i a).val
    omega
  rw [View.read_apply, hemb, cast_eq]
theorem iblk2_eq (m : Mem F) (c : Dev nD) : iblk m c 2 t0_0 = m ((c.tc : Thread nD τ).loc main_arg2) := by
  unfold iblk
  funext i
  have hemb : ((cfg0.win 2).blk t0_0).view.emb i = i := by
    funext a; apply Fin.ext
    rw [View.emb_slice, Function.Embedding.trans_apply]
    show 0 * _ + 1 * (i a).val = (i a).val
    omega
  rw [View.read_apply, hemb, cast_eq]

/-- A device's partial product, over its argument arrays as launched. -/
def PA (m : Mem F) (e : Dev nD) : Vec F S32x64x256 .bf16 :=
  part (m ((e.tc : Thread nD τ).loc main_arg0)) (m ((e.tc : Thread nD τ).loc main_arg1)) (m ((e.tc : Thread nD τ).loc main_arg2))

theorem P_eq (m : Mem F) : P m = PA m := by
  funext e
  unfold P PA
  rw [iblk0_eq m e, iblk1_eq m e, iblk2_eq m e]

/-! ## The run -/

/-- The post: every device's result array holds the gathered result, a function of all devices' argument arrays,
    and its three argument arrays are as launched. -/
def QC (m : Mem F) : PUnit × MemSt nD τ sig (Elt F) → Prop := fun r => ∀ c : Dev nD,
  r.2.mem ((c.tc : Thread nD τ).loc main_v1) = outAll (PA m)
  ∧ r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)

set_option maxRecDepth 65536 in
/-- The launch, from the body obligation and the ghost state's set-up: at the compiled mesh of 32 devices, from any memory
    with zero counters, every weakly fair execution of @main terminates without fault, and every final state has each
    device's result array at the gathered result and its argument arrays unchanged. -/
theorem run_of (m : Mem F) (ρ : Dev nD → PrngReg)
    (hbody : ∀ c, BodyObligation (dats m 0 c) (defs₀ (F := F)) 𝒱₀ () Set.univ)
    (ho : Pipeline.OwnSemFacts cfg0.spec osem)
    (G : Dev nD → sProp 𝕄) (u₀ : UU)
    (hu₀ : (ownU u₀ : sProp 𝕄)
      ⊢ |={Set.univ}=> iprop(BI.own (EP (F := F) (initOf (Pipeline.cells cfgs cellOf_inj) (Pipeline.launchToks cfgs cellOf_inj))) ∗ bigSep Finset.univ G))
    (hglob : (bigSep Finset.univ fun c => iprop(Pipeline.ownSems0 (Ix := Unit) (Name := ℕ) (U := UU) (Lvl := ℕ) (Val := Elt F) (τ := τ) osem c ∗ unscopedSems0 c ∗ G c) : sProp 𝕄)
      ⊢ |={Set.univ}=> bigSep Finset.univ fun c => iprop(∃ K, ghost m K c)) :
    θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ho (Pipeline.PreFacts.none _) EP defs₀ 𝒱₀ m ρ main
    (hmain := fun _ => rfl)
    (hbody := hbody) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G) (G' := fun c => iprop(∃ K, ghost m K c)) (u₀ := u₀)
    (hu₀ := hu₀)
    (hglob := hglob)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun s h c => ⟨((h c).1 3).trans ((final_out m c).trans (congrArg outAll (P_eq m))),
      ((h c).1 0).trans (final_in0 m c), ((h c).1 1).trans (final_in1 m c), ((h c).1 2).trans (final_in2 m c)⟩)

/-- info: 'Cert.KernelIdeal.Run.P_eq' depends on axioms: [propext, Classical.choice, Quot.sound] -/
#guard_msgs in #print axioms P_eq

/-- info: 'Cert.KernelIdeal.Run.run_of' depends on axioms: [propext, Classical.choice, Quot.sound] -/
#guard_msgs in #print axioms run_of

end Cert.KernelIdeal.Run

end
-- ==== Proof.Cut.lean ====
/-
The kernel's body cut at one point of its printed sequence: the part of the first sixty parts' sequence from the
twenty-ninth part on (the last receive wait of the reduce-scatter, the sum of the received slots, the all-gather and the
waits that follow), and the body's last four parts with its two closing waits. Both are the printed text's own suffixes,
so the body is the first followed by the second by unfolding.
-/
import proofs.«900791_g7700000000000792_dist_gconv1d_cshard_i_b4_s512_c256_v7x_i32_bf16_1_alg».proof.Proof.Gen.KernelIdeal.Skeleton

set_option synthInstance.maxSize 4096

noncomputable section

namespace Cert.KernelIdeal.Cut

open Idealize.ShloMosaic Idealize.SL.Sem Cert.KernelIdeal

variable {F : FTy → Type} [FloatOps F] [Facts]
open Facts₀ Facts

set_option maxRecDepth 774 in
/-- The sequence of the body's first sixty parts from the twenty-ninth on, over the three values the earlier parts
    leave for it: the device and two words. -/
def tail65 (arg0 : Memref sig .tc .vmem S4x512x256 .f32) (harg0 : arg0.IsWhole) (arg1 : Memref sig .tc .vmem S4x256 .f32) (harg1 : arg1.IsWhole) (arg2 : Memref sig .tc .vmem S256x256 .f32) (harg2 : arg2.IsWhole) (arg3 : Memref sig .tc .vmem S4x512x256 .f32) (harg3 : arg3.IsWhole) (arg4 : Memref sig .tc .vmem S32x64x256 .bf16) (harg4 : arg4.IsWhole) (arg5 : Memref sig .tc .vmem S32x64x256 .bf16) (harg5 : arg5.IsWhole) (arg6 : Memref sig .tc .vmem S32x64x256 .bf16) (harg6 : arg6.IsWhole) (arg7 : DmaSems sig S32) (arg8 : DmaSems sig S32) (arg9 : DmaSems sig S32) (arg10 : DmaSems sig S32) (d0 : Dev nD) (v2 : BitVec 32) (v544 : BitVec 32) :
    Prog (TpuEff nD τ sig (Elt F) Λ₀ .tc) (Dev nD) := do
  let ⟨v812, v824⟩ : Σ' (v812 : BitVec 32), BitVec 32 ← k0_part29 arg0 harg0 arg1 harg1 arg2 harg2 arg3 harg3 arg4 harg4 arg5 harg5 arg6 harg6 arg7 arg8 arg9 arg10 d0 v2 v544
  let ⟨v836, v848⟩ : Σ' (v836 : BitVec 32), BitVec 32 ← k0_part30 arg0 harg0 arg1 harg1 arg2 harg2 arg3 harg3 arg4 harg4 arg5 harg5 arg6 harg6 arg7 arg8 arg9 arg10 d0 v2 v824
  let ⟨v860, v872, v884, v885, c0_i32_833⟩ : Σ' (v860 : BitVec 32) (v872 : BitVec 32) (v884 : BitVec 32) (v885 : BitVec 32), BitVec 32 ← k0_part31 arg0 harg0 arg1 harg1 arg2 harg2 arg3 harg3 arg4 harg4 arg5 harg5 arg6 harg6 arg7 arg8 arg9 arg10 d0 v2
  let ⟨v896, v908⟩ : Σ' (v896 : BitVec 32), BitVec 32 ← k0_part32 arg0 harg0 arg1 harg1 arg2 harg2 arg3 harg3 arg4 harg4 arg5 harg5 arg6 harg6 arg7 arg8 arg9 arg10 d0 v2 v885 c0_i32_833
  let ⟨v920, v932, v944⟩ : Σ' (v920 : BitVec 32) (v932 : BitVec 32), BitVec 32 ← k0_part33 arg0 harg0 arg1 harg1 arg2 harg2 arg3 harg3 arg4 harg4 arg5 harg5 arg6 harg6 arg7 arg8 arg9 arg10 d0 v2
  let ⟨v956, v968, v980⟩ : Σ' (v956 : BitVec 32) (v968 : BitVec 32), BitVec 32 ← k0_part34 arg0 harg0 arg1 harg1 arg2 harg2 arg3 harg3 arg4 harg4 arg5 harg5 arg6 harg6 arg7 arg8 arg9 arg10 d0 v2
  let ⟨v992, v1004⟩ : Σ' (v992 : BitVec 32), BitVec 32 ← k0_part35 arg0 harg0 arg1 harg1 arg2 harg2 arg3 harg3 arg4 harg4 arg5 harg5 arg6 harg6 arg7 arg8 arg9 arg10 d0 v2 v980
  let ⟨v1016, v1028, v1040⟩ : Σ' (v1016 : BitVec 32) (v1028 : BitVec 32), BitVec 32 ← k0_part36 arg0 harg0 arg1 harg1 arg2 harg2 arg3 harg3 arg4 harg4 arg5 harg5 arg6 harg6 arg7 arg8 arg9 arg10 d0 v2
  let ⟨v1052, v1064, c23_i32_988⟩ : Σ' (v1052 : BitVec 32) (v1064 : BitVec 32), BitVec 32 ← k0_part37 arg0 harg0 arg1 harg1 arg2 harg2 arg3 harg3 arg4 harg4 arg5 harg5 arg6 harg6 arg7 arg8 arg9 arg10 d0 v2
  let ⟨v1076, v1088, v1100⟩ : Σ' (v1076 : BitVec 32) (v1088 : BitVec 32), BitVec 32 ← k0_part38 arg0 harg0 arg1 harg1 arg2 harg2 arg3 harg3 arg4 harg4 arg5 harg5 arg6 harg6 arg7 arg8 arg9 arg10 d0 v2 c23_i32_988
  let ⟨v1112, v1124, v1136⟩ : Σ' (v1112 : BitVec 32) (v1124 : BitVec 32), BitVec 32 ← k0_part39 arg0 harg0 arg1 harg1 arg2 harg2 arg3 harg3 arg4 harg4 arg5 harg5 arg6 harg6 arg7 arg8 arg9 arg10 d0 v2
  let ⟨v1148, v1160⟩ : Σ' (v1148 : BitVec 32), BitVec 32 ← k0_part40 arg0 harg0 arg1 harg1 arg2 harg2 arg3 harg3 arg4 harg4 arg5 harg5 arg6 harg6 arg7 arg8 arg9 arg10 d0 v2 v1136
  let v1172 : BitVec 32 ← k0_part41 arg0 harg0 arg1 harg1 arg2 harg2 arg3 harg3 arg4 harg4 arg5 harg5 arg6 harg6 arg7 arg8 arg9 arg10 d0 v2
  k0_part42 arg0 harg0 arg1 harg1 arg2 harg2 arg3 harg3 arg4 harg4 arg5 harg5 arg6 harg6 arg7 arg8 arg9 arg10 d0
  k0_part43 arg0 harg0 arg1 harg1 arg2 harg2 arg3 harg3 arg4 harg4 arg5 harg5 arg6 harg6 arg7 arg8 arg9 arg10 d0
  k0_part44 arg0 harg0 arg1 harg1 arg2 harg2 arg3 harg3 arg4 harg4 arg5 harg5 arg6 harg6 arg7 arg8 arg9 arg10 d0
  k0_part45 arg0 harg0 arg1 harg1 arg2 harg2 arg3 harg3 arg4 harg4 arg5 harg5 arg6 harg6 arg7 arg8 arg9 arg10 d0
  k0_part46 arg0 harg0 arg1 harg1 arg2 harg2 arg3 harg3 arg4 harg4 arg5 harg5 arg6 harg6 arg7 arg8 arg9 arg10 d0
  k0_part47 arg0 harg0 arg1 harg1 arg2 harg2 arg3 harg3 arg4 harg4 arg5 harg5 arg6 harg6 arg7 arg8 arg9 arg10 d0
  k0_part48 arg0 harg0 arg1 harg1 arg2 harg2 arg3 harg3 arg4 harg4 arg5 harg5 arg6 harg6 arg7 arg8 arg9 arg10 d0
  k0_part49 arg0 harg0 arg1 harg1 arg2 harg2 arg3 harg3 arg4 harg4 arg5 harg5 arg6 harg6 arg7 arg8 arg9 arg10 d0 v812 v824 v836
  k0_part50 arg0 harg0 arg1 harg1 arg2 harg2 arg3 harg3 arg4 harg4 arg5 harg5 arg6 harg6 arg7 arg8 arg9 arg10 d0 v848 v860 v872 v884
  k0_part51 arg0 harg0 arg1 harg1 arg2 harg2 arg3 harg3 arg4 harg4 arg5 harg5 arg6 harg6 arg7 arg8 arg9 arg10 d0 v896 v908 v920
  k0_part52 arg0 harg0 arg1 harg1 arg2 harg2 arg3 harg3 arg4 harg4 arg5 harg5 arg6 harg6 arg7 arg8 arg9 arg10 d0 v932 v944 v956 v968
  k0_part53 arg0 harg0 arg1 harg1 arg2 harg2 arg3 harg3 arg4 harg4 arg5 harg5 arg6 harg6 arg7 arg8 arg9 arg10 d0 v980 v992 v1004
  k0_part54 arg0 harg0 arg1 harg1 arg2 harg2 arg3 harg3 arg4 harg4 arg5 harg5 arg6 harg6 arg7 arg8 arg9 arg10 d0 v1016 v1028 v1040 v1052
  k0_part55 arg0 harg0 arg1 harg1 arg2 harg2 arg3 harg3 arg4 harg4 arg5 harg5 arg6 harg6 arg7 arg8 arg9 arg10 d0 v1064 v1076 v1088
  k0_part56 arg0 harg0 arg1 harg1 arg2 harg2 arg3 harg3 arg4 harg4 arg5 harg5 arg6 harg6 arg7 arg8 arg9 arg10 d0 v1100 v1112 v1124 v1136
  k0_part57 arg0 harg0 arg1 harg1 arg2 harg2 arg3 harg3 arg4 harg4 arg5 harg5 arg6 harg6 arg7 arg8 arg9 arg10 d0 v1148 v1160 v1172
  k0_part58 arg0 harg0 arg1 harg1 arg2 harg2 arg3 harg3 arg4 harg4 arg5 harg5 arg6 harg6 arg7 arg8 arg9 arg10 d0
  k0_part59 arg0 harg0 arg1 harg1 arg2 harg2 arg3 harg3 arg4 harg4 arg5 harg5 arg6 harg6 arg7 arg8 arg9 arg10 d0
  k0_part60 arg0 harg0 arg1 harg1 arg2 harg2 arg3 harg3 arg4 harg4 arg5 harg5 arg6 harg6 arg7 arg8 arg9 arg10 d0
  pure d0

set_option maxRecDepth 774 in
/-- What the body does after its first sixty parts: the last four parts and the two closing waits. -/
def tailC (arg0 : Memref sig .tc .vmem S4x512x256 .f32) (harg0 : arg0.IsWhole) (arg1 : Memref sig .tc .vmem S4x256 .f32) (harg1 : arg1.IsWhole) (arg2 : Memref sig .tc .vmem S256x256 .f32) (harg2 : arg2.IsWhole) (arg3 : Memref sig .tc .vmem S4x512x256 .f32) (harg3 : arg3.IsWhole) (arg4 : Memref sig .tc .vmem S32x64x256 .bf16) (harg4 : arg4.IsWhole) (arg5 : Memref sig .tc .vmem S32x64x256 .bf16) (harg5 : arg5.IsWhole) (arg6 : Memref sig .tc .vmem S32x64x256 .bf16) (harg6 : arg6.IsWhole) (arg7 : DmaSems sig S32) (arg8 : DmaSems sig S32) (arg9 : DmaSems sig S32) (arg10 : DmaSems sig S32) (d0 : Dev nD) :
    Prog (TpuEff nD τ sig (Elt F) Λ₀ .tc) PUnit := do
  k0_part61 arg0 harg0 arg1 harg1 arg2 harg2 arg3 harg3 arg4 harg4 arg5 harg5 arg6 harg6 arg7 arg8 arg9 arg10 d0
  k0_part62 arg0 harg0 arg1 harg1 arg2 harg2 arg3 harg3 arg4 harg4 arg5 harg5 arg6 harg6 arg7 arg8 arg9 arg10 d0
  k0_part63 arg0 harg0 arg1 harg1 arg2 harg2 arg3 harg3 arg4 harg4 arg5 harg5 arg6 harg6 arg7 arg8 arg9 arg10 d0
  k0_part64 arg0 harg0 arg1 harg1 arg2 harg2 arg3 harg3 arg4 harg4 arg5 harg5 arg6 harg6 arg7 arg8 arg9 arg10 d0
  let c0_i32_1786 : BitVec 32 := 0#32
  let c0_i32_1787 : BitVec 32 := 0#32
  let v1797 : Memref sig .tc .vmem S1x64x256 .bf16 := arg6.slice (Rect.unit (s := S32x64x256) (k0_off3 d0) S1x64x256.size (k0_off3_inb d0)) (fun _ => rfl)
  let v1798 : Memref sig .tc .vmem S64x256 .bf16 := v1797.squeeze S64x256 squeezes_S1x64x256_S64x256
  let c0_i32_1788 : BitVec 32 := 0#32
  let c0_i32_1789 : BitVec 32 := 0#32
  let v1799 : Memref sig .tc .vmem S1x64x256 .bf16 := arg6.slice (Rect.unit (s := S32x64x256) (k0_off3 d0) S1x64x256.size (k0_off3_inb d0)) (fun _ => rfl)
  let v1800 : Memref sig .tc .vmem S64x256 .bf16 := v1799.squeeze S64x256 squeezes_S1x64x256_S64x256
  let v1795 : DmaSems sig S1 := arg9.slice (Rect.unit (s := S32) ![30] S1.size inb_S32_S1_30)
  let v1796 : DmaSems sig S_ := v1795.squeeze S_ squeezes_S1_S_
  Prog.lift (.waitDma2 v1796.sem v1800 v1798 ((harg6.wordExact_slice rfl _ (k0_off3_wordsbf16 d0)).reshape _ _) ((harg6.wordExact_slice rfl _ (k0_off3_wordsbf16 d0)).reshape _ _))
  let c31_i32_1790 : BitVec 32 := 31#32
  let c31_i32_1791 : BitVec 32 := 31#32
  let c0_i32_1792 : BitVec 32 := 0#32
  let v1801 : DmaSems sig S1 := arg9.slice (Rect.unit (s := S32) ![31] S1.size inb_S32_S1_31)
  let v1802 : DmaSems sig S_ := v1801.squeeze S_ squeezes_S1_S_
  let c0_i32_1793 : BitVec 32 := 0#32
  let c0_i32_1794 : BitVec 32 := 0#32
  let v1803 : Memref sig .tc .vmem S1x64x256 .bf16 := arg6.slice (Rect.unit (s := S32x64x256) (k0_off3 d0) S1x64x256.size (k0_off3_inb d0)) (fun _ => rfl)
  let v1804 : Memref sig .tc .vmem S64x256 .bf16 := v1803.squeeze S64x256 squeezes_S1x64x256_S64x256
  let c0_i32_1795 : BitVec 32 := 0#32
  let c0_i32_1796 : BitVec 32 := 0#32
  let v1805 : Memref sig .tc .vmem S1x64x256 .bf16 := arg6.slice (Rect.unit (s := S32x64x256) (k0_off3 d0) S1x64x256.size (k0_off3_inb d0)) (fun _ => rfl)
  let v1806 : Memref sig .tc .vmem S64x256 .bf16 := v1805.squeeze S64x256 squeezes_S1x64x256_S64x256
  Prog.lift (.waitDma2 v1802.sem v1806 v1804 ((harg6.wordExact_slice rfl _ (k0_off3_wordsbf16 d0)).reshape _ _) ((harg6.wordExact_slice rfl _ (k0_off3_wordsbf16 d0)).reshape _ _))
  pure ⟨⟩

set_option maxRecDepth 4096 in
/-- The body is its first sixty parts followed by the rest. -/
theorem cc0_body_eq (arg0 : Memref sig .tc .vmem S4x512x256 .f32) (harg0 : arg0.IsWhole) (arg1 : Memref sig .tc .vmem S4x256 .f32) (harg1 : arg1.IsWhole) (arg2 : Memref sig .tc .vmem S256x256 .f32) (harg2 : arg2.IsWhole) (arg3 : Memref sig .tc .vmem S4x512x256 .f32) (harg3 : arg3.IsWhole) (arg4 : Memref sig .tc .vmem S32x64x256 .bf16) (harg4 : arg4.IsWhole) (arg5 : Memref sig .tc .vmem S32x64x256 .bf16) (harg5 : arg5.IsWhole) (arg6 : Memref sig .tc .vmem S32x64x256 .bf16) (harg6 : arg6.IsWhole) (arg7 : DmaSems sig S32) (arg8 : DmaSems sig S32) (arg9 : DmaSems sig S32) (arg10 : DmaSems sig S32) :
    cc0_body (F := F) arg0 harg0 arg1 harg1 arg2 harg2 arg3 harg3 arg4 harg4 arg5 harg5 arg6 harg6 arg7 arg8 arg9 arg10 = (k0_part65 arg0 harg0 arg1 harg1 arg2 harg2 arg3 harg3 arg4 harg4 arg5 harg5 arg6 harg6 arg7 arg8 arg9 arg10 >>= fun d0 => tailC arg0 harg0 arg1 harg1 arg2 harg2 arg3 harg3 arg4 harg4 arg5 harg5 arg6 harg6 arg7 arg8 arg9 arg10 d0) := rfl

end Cert.KernelIdeal.Cut

end
-- ==== Proof.CutA.lean ====
/-
The sequence of the body's first twenty-eight parts cut once more, after the nineteenth: the signals, the product, the
barrier wait and the reduce-scatter's 31 copies first; then the thirty receive waits of parts twenty to twenty-eight. The
31 words the copies' parts compute (the devices they name, which the waits only pass along) travel as one vector.
-/
import proofs.«900791_g7700000000000792_dist_gconv1d_cshard_i_b4_s512_c256_v7x_i32_bf16_1_alg».proof.Proof.Cut

set_option synthInstance.maxSize 4096

noncomputable section

namespace Cert.KernelIdeal.CutA

open Idealize.ShloMosaic Idealize.SL.Sem Cert.KernelIdeal

variable {F : FTy → Type} [FloatOps F] [Facts]
open Facts₀ Facts

set_option maxRecDepth 4096 in
/-- Parts one to twenty-eight, then a continuation over the device and the two words the later parts read. -/
def progA {α : Type} (arg0 : Memref sig .tc .vmem S4x512x256 .f32) (harg0 : arg0.IsWhole) (arg1 : Memref sig .tc .vmem S4x256 .f32) (harg1 : arg1.IsWhole) (arg2 : Memref sig .tc .vmem S256x256 .f32) (harg2 : arg2.IsWhole) (arg3 : Memref sig .tc .vmem S4x512x256 .f32) (harg3 : arg3.IsWhole) (arg4 : Memref sig .tc .vmem S32x64x256 .bf16) (harg4 : arg4.IsWhole) (arg5 : Memref sig .tc .vmem S32x64x256 .bf16) (harg5 : arg5.IsWhole) (arg6 : Memref sig .tc .vmem S32x64x256 .bf16) (harg6 : arg6.IsWhole) (arg7 : DmaSems sig S32) (arg8 : DmaSems sig S32) (arg9 : DmaSems sig S32) (arg10 : DmaSems sig S32)
    (k : Dev nD → BitVec 32 → BitVec 32 → Prog (TpuEff nD τ sig (Elt F) Λ₀ .tc) α) : Prog (TpuEff nD τ sig (Elt F) Λ₀ .tc) α := do
  let ⟨d0, v2, v3, v24, c32_i32_20⟩ : Σ' (d0 : Dev nD) (v2 : BitVec 32) (v3 : Sems sig S_) (v24 : BitVec 32), BitVec 32 ← k0_part1 arg0 harg0 arg1 harg1 arg2 harg2 arg3 harg3 arg4 harg4 arg5 harg5 arg6 harg6 arg7 arg8 arg9 arg10
  let ⟨v48, c32_i32_44⟩ : Σ' (v48 : BitVec 32), BitVec 32 ← k0_part2 arg0 harg0 arg1 harg1 arg2 harg2 arg3 harg3 arg4 harg4 arg5 harg5 arg6 harg6 arg7 arg8 arg9 arg10 d0 v2 v3 v24 c32_i32_20
  let ⟨v72, c32_i32_68⟩ : Σ' (v72 : BitVec 32), BitVec 32 ← k0_part3 arg0 harg0 arg1 harg1 arg2 harg2 arg3 harg3 arg4 harg4 arg5 harg5 arg6 harg6 arg7 arg8 arg9 arg10 d0 v2 v3 v48 c32_i32_44
  let ⟨v96, c32_i32_92⟩ : Σ' (v96 : BitVec 32), BitVec 32 ← k0_part4 arg0 harg0 arg1 harg1 arg2 harg2 arg3 harg3 arg4 harg4 arg5 harg5 arg6 harg6 arg7 arg8 arg9 arg10 d0 v2 v3 v72 c32_i32_68
  let ⟨v120, c32_i32_116⟩ : Σ' (v120 : BitVec 32), BitVec 32 ← k0_part5 arg0 harg0 arg1 harg1 arg2 harg2 arg3 harg3 arg4 harg4 arg5 harg5 arg6 harg6 arg7 arg8 arg9 arg10 d0 v2 v3 v96 c32_i32_92
  let ⟨v154, v162⟩ : Σ' (v154 : FVec F S4x512x256 .f32), FVec F S4x512x256 .f32 ← k0_part6 arg0 harg0 arg1 harg1 arg2 harg2 arg3 harg3 arg4 harg4 arg5 harg5 arg6 harg6 arg7 arg8 arg9 arg10 d0 v2 v3 v120 c32_i32_116
  let v184 : BitVec 32 ← k0_part7 arg0 harg0 arg1 harg1 arg2 harg2 arg3 harg3 arg4 harg4 arg5 harg5 arg6 harg6 arg7 arg8 arg9 arg10 d0 v2 v3 v154 v162
  let ⟨v196, v208, v220⟩ : Σ' (v196 : BitVec 32) (v208 : BitVec 32), BitVec 32 ← k0_part8 arg0 harg0 arg1 harg1 arg2 harg2 arg3 harg3 arg4 harg4 arg5 harg5 arg6 harg6 arg7 arg8 arg9 arg10 d0 v2
  let ⟨v232, v244⟩ : Σ' (v232 : BitVec 32), BitVec 32 ← k0_part9 arg0 harg0 arg1 harg1 arg2 harg2 arg3 harg3 arg4 harg4 arg5 harg5 arg6 harg6 arg7 arg8 arg9 arg10 d0 v2
  let ⟨v256, v268, v280⟩ : Σ' (v256 : BitVec 32) (v268 : BitVec 32), BitVec 32 ← k0_part10 arg0 harg0 arg1 harg1 arg2 harg2 arg3 harg3 arg4 harg4 arg5 harg5 arg6 harg6 arg7 arg8 arg9 arg10 d0 v2
  let ⟨v292, v304⟩ : Σ' (v292 : BitVec 32), BitVec 32 ← k0_part11 arg0 harg0 arg1 harg1 arg2 harg2 arg3 harg3 arg4 harg4 arg5 harg5 arg6 harg6 arg7 arg8 arg9 arg10 d0 v2
  let ⟨v316, v328, v340⟩ : Σ' (v316 : BitVec 32) (v328 : BitVec 32), BitVec 32 ← k0_part12 arg0 harg0 arg1 harg1 arg2 harg2 arg3 harg3 arg4 harg4 arg5 harg5 arg6 harg6 arg7 arg8 arg9 arg10 d0 v2
  let ⟨v352, v364⟩ : Σ' (v352 : BitVec 32), BitVec 32 ← k0_part13 arg0 harg0 arg1 harg1 arg2 harg2 arg3 harg3 arg4 harg4 arg5 harg5 arg6 harg6 arg7 arg8 arg9 arg10 d0 v2
  let ⟨v376, v388, v400⟩ : Σ' (v376 : BitVec 32) (v388 : BitVec 32), BitVec 32 ← k0_part14 arg0 harg0 arg1 harg1 arg2 harg2 arg3 harg3 arg4 harg4 arg5 harg5 arg6 harg6 arg7 arg8 arg9 arg10 d0 v2
  let ⟨v412, v424⟩ : Σ' (v412 : BitVec 32), BitVec 32 ← k0_part15 arg0 harg0 arg1 harg1 arg2 harg2 arg3 harg3 arg4 harg4 arg5 harg5 arg6 harg6 arg7 arg8 arg9 arg10 d0 v2
  let ⟨v436, v448, v460⟩ : Σ' (v436 : BitVec 32) (v448 : BitVec 32), BitVec 32 ← k0_part16 arg0 harg0 arg1 harg1 arg2 harg2 arg3 harg3 arg4 harg4 arg5 harg5 arg6 harg6 arg7 arg8 arg9 arg10 d0 v2
  let ⟨v472, v484⟩ : Σ' (v472 : BitVec 32), BitVec 32 ← k0_part17 arg0 harg0 arg1 harg1 arg2 harg2 arg3 harg3 arg4 harg4 arg5 harg5 arg6 harg6 arg7 arg8 arg9 arg10 d0 v2
  let ⟨v496, v508, v520⟩ : Σ' (v496 : BitVec 32) (v508 : BitVec 32), BitVec 32 ← k0_part18 arg0 harg0 arg1 harg1 arg2 harg2 arg3 harg3 arg4 harg4 arg5 harg5 arg6 harg6 arg7 arg8 arg9 arg10 d0 v2
  let ⟨v532, v544⟩ : Σ' (v532 : BitVec 32), BitVec 32 ← k0_part19 arg0 harg0 arg1 harg1 arg2 harg2 arg3 harg3 arg4 harg4 arg5 harg5 arg6 harg6 arg7 arg8 arg9 arg10 d0 v2
  let ⟨v579, c0_i32_514⟩ : Σ' (v579 : BitVec 32), BitVec 32 ← k0_part20 arg0 harg0 arg1 harg1 arg2 harg2 arg3 harg3 arg4 harg4 arg5 harg5 arg6 harg6 arg7 arg8 arg9 arg10 d0 v184 v196 v208 v220
  k0_part21 arg0 harg0 arg1 harg1 arg2 harg2 arg3 harg3 arg4 harg4 arg5 harg5 arg6 harg6 arg7 arg8 arg9 arg10 d0 v232 v244 v256 v579 c0_i32_514
  k0_part22 arg0 harg0 arg1 harg1 arg2 harg2 arg3 harg3 arg4 harg4 arg5 harg5 arg6 harg6 arg7 arg8 arg9 arg10 d0 v268 v280 v292
  let ⟨v659, c0_i32_604⟩ : Σ' (v659 : BitVec 32), BitVec 32 ← k0_part23 arg0 harg0 arg1 harg1 arg2 harg2 arg3 harg3 arg4 harg4 arg5 harg5 arg6 harg6 arg7 arg8 arg9 arg10 d0 v304 v316 v328 v340
  k0_part24 arg0 harg0 arg1 harg1 arg2 harg2 arg3 harg3 arg4 harg4 arg5 harg5 arg6 harg6 arg7 arg8 arg9 arg10 d0 v352 v364 v376 v659 c0_i32_604
  k0_part25 arg0 harg0 arg1 harg1 arg2 harg2 arg3 harg3 arg4 harg4 arg5 harg5 arg6 harg6 arg7 arg8 arg9 arg10 d0 v388 v400 v412
  let ⟨v739, c0_i32_694⟩ : Σ' (v739 : BitVec 32), BitVec 32 ← k0_part26 arg0 harg0 arg1 harg1 arg2 harg2 arg3 harg3 arg4 harg4 arg5 harg5 arg6 harg6 arg7 arg8 arg9 arg10 d0 v424 v436 v448 v460
  k0_part27 arg0 harg0 arg1 harg1 arg2 harg2 arg3 harg3 arg4 harg4 arg5 harg5 arg6 harg6 arg7 arg8 arg9 arg10 d0 v472 v484 v496 v739 c0_i32_694
  k0_part28 arg0 harg0 arg1 harg1 arg2 harg2 arg3 harg3 arg4 harg4 arg5 harg5 arg6 harg6 arg7 arg8 arg9 arg10 d0 v508 v520 v532
  k d0 v2 v544

set_option maxRecDepth 4096 in
/-- Parts one to nineteen, then a continuation over the device, the word of its position and the copies' 31 words. -/
def progS {α : Type} (arg0 : Memref sig .tc .vmem S4x512x256 .f32) (harg0 : arg0.IsWhole) (arg1 : Memref sig .tc .vmem S4x256 .f32) (harg1 : arg1.IsWhole) (arg2 : Memref sig .tc .vmem S256x256 .f32) (harg2 : arg2.IsWhole) (arg3 : Memref sig .tc .vmem S4x512x256 .f32) (harg3 : arg3.IsWhole) (arg4 : Memref sig .tc .vmem S32x64x256 .bf16) (harg4 : arg4.IsWhole) (arg5 : Memref sig .tc .vmem S32x64x256 .bf16) (harg5 : arg5.IsWhole) (arg6 : Memref sig .tc .vmem S32x64x256 .bf16) (harg6 : arg6.IsWhole) (arg7 : DmaSems sig S32) (arg8 : DmaSems sig S32) (arg9 : DmaSems sig S32) (arg10 : DmaSems sig S32)
    (k : Dev nD → BitVec 32 → (Fin 31 → BitVec 32) → Prog (TpuEff nD τ sig (Elt F) Λ₀ .tc) α) : Prog (TpuEff nD τ sig (Elt F) Λ₀ .tc) α := do
  let ⟨d0, v2, v3, v24, c32_i32_20⟩ : Σ' (d0 : Dev nD) (v2 : BitVec 32) (v3 : Sems sig S_) (v24 : BitVec 32), BitVec 32 ← k0_part1 arg0 harg0 arg1 harg1 arg2 harg2 arg3 harg3 arg4 harg4 arg5 harg5 arg6 harg6 arg7 arg8 arg9 arg10
  let ⟨v48, c32_i32_44⟩ : Σ' (v48 : BitVec 32), BitVec 32 ← k0_part2 arg0 harg0 arg1 harg1 arg2 harg2 arg3 harg3 arg4 harg4 arg5 harg5 arg6 harg6 arg7 arg8 arg9 arg10 d0 v2 v3 v24 c32_i32_20
  let ⟨v72, c32_i32_68⟩ : Σ' (v72 : BitVec 32), BitVec 32 ← k0_part3 arg0 harg0 arg1 harg1 arg2 harg2 arg3 harg3 arg4 harg4 arg5 harg5 arg6 harg6 arg7 arg8 arg9 arg10 d0 v2 v3 v48 c32_i32_44
  let ⟨v96, c32_i32_92⟩ : Σ' (v96 : BitVec 32), BitVec 32 ← k0_part4 arg0 harg0 arg1 harg1 arg2 harg2 arg3 harg3 arg4 harg4 arg5 harg5 arg6 harg6 arg7 arg8 arg9 arg10 d0 v2 v3 v72 c32_i32_68
  let ⟨v120, c32_i32_116⟩ : Σ' (v120 : BitVec 32), BitVec 32 ← k0_part5 arg0 harg0 arg1 harg1 arg2 harg2 arg3 harg3 arg4 harg4 arg5 harg5 arg6 harg6 arg7 arg8 arg9 arg10 d0 v2 v3 v96 c32_i32_92
  let ⟨v154, v162⟩ : Σ' (v154 : FVec F S4x512x256 .f32), FVec F S4x512x256 .f32 ← k0_part6 arg0 harg0 arg1 harg1 arg2 harg2 arg3 harg3 arg4 harg4 arg5 harg5 arg6 harg6 arg7 arg8 arg9 arg10 d0 v2 v3 v120 c32_i32_116
  let v184 : BitVec 32 ← k0_part7 arg0 harg0 arg1 harg1 arg2 harg2 arg3 harg3 arg4 harg4 arg5 harg5 arg6 harg6 arg7 arg8 arg9 arg10 d0 v2 v3 v154 v162
  let ⟨v196, v208, v220⟩ : Σ' (v196 : BitVec 32) (v208 : BitVec 32), BitVec 32 ← k0_part8 arg0 harg0 arg1 harg1 arg2 harg2 arg3 harg3 arg4 harg4 arg5 harg5 arg6 harg6 arg7 arg8 arg9 arg10 d0 v2
  let ⟨v232, v244⟩ : Σ' (v232 : BitVec 32), BitVec 32 ← k0_part9 arg0 harg0 arg1 harg1 arg2 harg2 arg3 harg3 arg4 harg4 arg5 harg5 arg6 harg6 arg7 arg8 arg9 arg10 d0 v2
  let ⟨v256, v268, v280⟩ : Σ' (v256 : BitVec 32) (v268 : BitVec 32), BitVec 32 ← k0_part10 arg0 harg0 arg1 harg1 arg2 harg2 arg3 harg3 arg4 harg4 arg5 harg5 arg6 harg6 arg7 arg8 arg9 arg10 d0 v2
  let ⟨v292, v304⟩ : Σ' (v292 : BitVec 32), BitVec 32 ← k0_part11 arg0 harg0 arg1 harg1 arg2 harg2 arg3 harg3 arg4 harg4 arg5 harg5 arg6 harg6 arg7 arg8 arg9 arg10 d0 v2
  let ⟨v316, v328, v340⟩ : Σ' (v316 : BitVec 32) (v328 : BitVec 32), BitVec 32 ← k0_part12 arg0 harg0 arg1 harg1 arg2 harg2 arg3 harg3 arg4 harg4 arg5 harg5 arg6 harg6 arg7 arg8 arg9 arg10 d0 v2
  let ⟨v352, v364⟩ : Σ' (v352 : BitVec 32), BitVec 32 ← k0_part13 arg0 harg0 arg1 harg1 arg2 harg2 arg3 harg3 arg4 harg4 arg5 harg5 arg6 harg6 arg7 arg8 arg9 arg10 d0 v2
  let ⟨v376, v388, v400⟩ : Σ' (v376 : BitVec 32) (v388 : BitVec 32), BitVec 32 ← k0_part14 arg0 harg0 arg1 harg1 arg2 harg2 arg3 harg3 arg4 harg4 arg5 harg5 arg6 harg6 arg7 arg8 arg9 arg10 d0 v2
  let ⟨v412, v424⟩ : Σ' (v412 : BitVec 32), BitVec 32 ← k0_part15 arg0 harg0 arg1 harg1 arg2 harg2 arg3 harg3 arg4 harg4 arg5 harg5 arg6 harg6 arg7 arg8 arg9 arg10 d0 v2
  let ⟨v436, v448, v460⟩ : Σ' (v436 : BitVec 32) (v448 : BitVec 32), BitVec 32 ← k0_part16 arg0 harg0 arg1 harg1 arg2 harg2 arg3 harg3 arg4 harg4 arg5 harg5 arg6 harg6 arg7 arg8 arg9 arg10 d0 v2
  let ⟨v472, v484⟩ : Σ' (v472 : BitVec 32), BitVec 32 ← k0_part17 arg0 harg0 arg1 harg1 arg2 harg2 arg3 harg3 arg4 harg4 arg5 harg5 arg6 harg6 arg7 arg8 arg9 arg10 d0 v2
  let ⟨v496, v508, v520⟩ : Σ' (v496 : BitVec 32) (v508 : BitVec 32), BitVec 32 ← k0_part18 arg0 harg0 arg1 harg1 arg2 harg2 arg3 harg3 arg4 harg4 arg5 harg5 arg6 harg6 arg7 arg8 arg9 arg10 d0 v2
  let ⟨v532, v544⟩ : Σ' (v532 : BitVec 32), BitVec 32 ← k0_part19 arg0 harg0 arg1 harg1 arg2 harg2 arg3 harg3 arg4 harg4 arg5 harg5 arg6 harg6 arg7 arg8 arg9 arg10 d0 v2
  k d0 v2 ![v184, v196, v208, v220, v232, v244, v256, v268, v280, v292, v304, v316, v328, v340, v352, v364, v376, v388, v400, v412, v424, v436, v448, v460, v472, v484, v496, v508, v520, v532, v544]

set_option maxRecDepth 4096 in
/-- Parts twenty to twenty-eight (the receive waits but the last), then a continuation. -/
def progW {α : Type} (arg0 : Memref sig .tc .vmem S4x512x256 .f32) (harg0 : arg0.IsWhole) (arg1 : Memref sig .tc .vmem S4x256 .f32) (harg1 : arg1.IsWhole) (arg2 : Memref sig .tc .vmem S256x256 .f32) (harg2 : arg2.IsWhole) (arg3 : Memref sig .tc .vmem S4x512x256 .f32) (harg3 : arg3.IsWhole) (arg4 : Memref sig .tc .vmem S32x64x256 .bf16) (harg4 : arg4.IsWhole) (arg5 : Memref sig .tc .vmem S32x64x256 .bf16) (harg5 : arg5.IsWhole) (arg6 : Memref sig .tc .vmem S32x64x256 .bf16) (harg6 : arg6.IsWhole) (arg7 : DmaSems sig S32) (arg8 : DmaSems sig S32) (arg9 : DmaSems sig S32) (arg10 : DmaSems sig S32) (d0 : Dev nD) (w : Fin 31 → BitVec 32)
    (k : Prog (TpuEff nD τ sig (Elt F) Λ₀ .tc) α) : Prog (TpuEff nD τ sig (Elt F) Λ₀ .tc) α := do
  let ⟨v579, c0_i32_514⟩ : Σ' (v579 : BitVec 32), BitVec 32 ← k0_part20 arg0 harg0 arg1 harg1 arg2 harg2 arg3 harg3 arg4 harg4 arg5 harg5 arg6 harg6 arg7 arg8 arg9 arg10 d0 (w 0) (w 1) (w 2) (w 3)
  k0_part21 arg0 harg0 arg1 harg1 arg2 harg2 arg3 harg3 arg4 harg4 arg5 harg5 arg6 harg6 arg7 arg8 arg9 arg10 d0 (w 4) (w 5) (w 6) v579 c0_i32_514
  k0_part22 arg0 harg0 arg1 harg1 arg2 harg2 arg3 harg3 arg4 harg4 arg5 harg5 arg6 harg6 arg7 arg8 arg9 arg10 d0 (w 7) (w 8) (w 9)
  let ⟨v659, c0_i32_604⟩ : Σ' (v659 : BitVec 32), BitVec 32 ← k0_part23 arg0 harg0 arg1 harg1 arg2 harg2 arg3 harg3 arg4 harg4 arg5 harg5 arg6 harg6 arg7 arg8 arg9 arg10 d0 (w 10) (w 11) (w 12) (w 13)
  k0_part24 arg0 harg0 arg1 harg1 arg2 harg2 arg3 harg3 arg4 harg4 arg5 harg5 arg6 harg6 arg7 arg8 arg9 arg10 d0 (w 14) (w 15) (w 16) v659 c0_i32_604
  k0_part25 arg0 harg0 arg1 harg1 arg2 harg2 arg3 harg3 arg4 harg4 arg5 harg5 arg6 harg6 arg7 arg8 arg9 arg10 d0 (w 17) (w 18) (w 19)
  let ⟨v739, c0_i32_694⟩ : Σ' (v739 : BitVec 32), BitVec 32 ← k0_part26 arg0 harg0 arg1 harg1 arg2 harg2 arg3 harg3 arg4 harg4 arg5 harg5 arg6 harg6 arg7 arg8 arg9 arg10 d0 (w 20) (w 21) (w 22) (w 23)
  k0_part27 arg0 harg0 arg1 harg1 arg2 harg2 arg3 harg3 arg4 harg4 arg5 harg5 arg6 harg6 arg7 arg8 arg9 arg10 d0 (w 24) (w 25) (w 26) v739 c0_i32_694
  k0_part28 arg0 harg0 arg1 harg1 arg2 harg2 arg3 harg3 arg4 harg4 arg5 harg5 arg6 harg6 arg7 arg8 arg9 arg10 d0 (w 27) (w 28) (w 29)
  k

set_option maxRecDepth 65536 in
/-- The first sixty parts' sequence is the first twenty-eight followed by its own suffix from the twenty-ninth part on. -/
theorem k0_part65_eq (arg0 : Memref sig .tc .vmem S4x512x256 .f32) (harg0 : arg0.IsWhole) (arg1 : Memref sig .tc .vmem S4x256 .f32) (harg1 : arg1.IsWhole) (arg2 : Memref sig .tc .vmem S256x256 .f32) (harg2 : arg2.IsWhole) (arg3 : Memref sig .tc .vmem S4x512x256 .f32) (harg3 : arg3.IsWhole) (arg4 : Memref sig .tc .vmem S32x64x256 .bf16) (harg4 : arg4.IsWhole) (arg5 : Memref sig .tc .vmem S32x64x256 .bf16) (harg5 : arg5.IsWhole) (arg6 : Memref sig .tc .vmem S32x64x256 .bf16) (harg6 : arg6.IsWhole) (arg7 : DmaSems sig S32) (arg8 : DmaSems sig S32) (arg9 : DmaSems sig S32) (arg10 : DmaSems sig S32) :
    k0_part65 (F := F) arg0 harg0 arg1 harg1 arg2 harg2 arg3 harg3 arg4 harg4 arg5 harg5 arg6 harg6 arg7 arg8 arg9 arg10 = progA arg0 harg0 arg1 harg1 arg2 harg2 arg3 harg3 arg4 harg4 arg5 harg5 arg6 harg6 arg7 arg8 arg9 arg10 (fun d0 v2 v544 => Cut.tail65 arg0 harg0 arg1 harg1 arg2 harg2 arg3 harg3 arg4 harg4 arg5 harg5 arg6 harg6 arg7 arg8 arg9 arg10 d0 v2 v544) := rfl

set_option maxRecDepth 65536 in
/-- The first twenty-eight parts are the first nineteen followed by the next nine. -/
theorem progA_eq {α : Type} (arg0 : Memref sig .tc .vmem S4x512x256 .f32) (harg0 : arg0.IsWhole) (arg1 : Memref sig .tc .vmem S4x256 .f32) (harg1 : arg1.IsWhole) (arg2 : Memref sig .tc .vmem S256x256 .f32) (harg2 : arg2.IsWhole) (arg3 : Memref sig .tc .vmem S4x512x256 .f32) (harg3 : arg3.IsWhole) (arg4 : Memref sig .tc .vmem S32x64x256 .bf16) (harg4 : arg4.IsWhole) (arg5 : Memref sig .tc .vmem S32x64x256 .bf16) (harg5 : arg5.IsWhole) (arg6 : Memref sig .tc .vmem S32x64x256 .bf16) (harg6 : arg6.IsWhole) (arg7 : DmaSems sig S32) (arg8 : DmaSems sig S32) (arg9 : DmaSems sig S32) (arg10 : DmaSems sig S32) (k : Dev nD → BitVec 32 → BitVec 32 → Prog (TpuEff nD τ sig (Elt F) Λ₀ .tc) α) :
    progA arg0 harg0 arg1 harg1 arg2 harg2 arg3 harg3 arg4 harg4 arg5 harg5 arg6 harg6 arg7 arg8 arg9 arg10 k = progS arg0 harg0 arg1 harg1 arg2 harg2 arg3 harg3 arg4 harg4 arg5 harg5 arg6 harg6 arg7 arg8 arg9 arg10 (fun d0 v2 w => progW arg0 harg0 arg1 harg1 arg2 harg2 arg3 harg3 arg4 harg4 arg5 harg5 arg6 harg6 arg7 arg8 arg9 arg10 d0 w (k d0 v2 (w 30))) := rfl

end Cert.KernelIdeal.CutA
-- ==== Proof.Mid.lean ====
/-
The assertion a device's thread holds between the two halves of the kernel's body — after the reduce-scatter's copies have
been issued and all but one of its receive slots have landed — and the same before any receive slot has landed. Both
share everything that is not about the receive side.
-/
import proofs.«900791_g7700000000000792_dist_gconv1d_cshard_i_b4_s512_c256_v7x_i32_bf16_1_alg».proof.Proof.Proto

noncomputable section

namespace Cert.KernelIdeal.Mid

open Cert.KernelIdeal Cert.KernelIdeal.Gen Cert.KernelIdeal.Contents Cert.KernelIdeal.Proto
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The four staging buffers: the three argument blocks as fetched, the result's at contents `s`. -/
def staging (m : Mem F) (c : Dev nD) (s : Buf (Elt F) ((c : Thread nD τ).loc cc0_stg3_0)) : sProp 𝕄 :=
  iprop((((c : Thread nD τ).loc cc0_stg0_0) ↦{fullShare} iblk m c 0 t0_0)
    ∗ (((c : Thread nD τ).loc cc0_stg1_0) ↦{fullShare} iblk m c 1 t0_0)
    ∗ (((c : Thread nD τ).loc cc0_stg2_0) ↦{fullShare} iblk m c 2 t0_0)
    ∗ (((c : Thread nD τ).loc cc0_stg3_0) ↦{fullShare} s))

/-- Everything the thread holds at either point that is not about the reduce-scatter's receive side: the records of every
    cell; its own chunk of the partial product (the other 31 are lent to the copies in flight); its own all-gather slot and
    the 31 peers' slots its all-gather copies will land in; the staging buffers; the all-gather credits it still owes;
    its positions at round 0 of the cells it has not waited on and past the barrier's round; the departure credits of the
    31 reduce-scatter copies and the credits of its all-gather receive cells; the tokens its all-gather copies pay with;
    the levels. -/
def MidRest (m : Mem F) (K : Dev nD × Option (Fin 4 × Fin 31) → ℕ) (c : Dev nD)
    (s : Buf (Elt F) ((c : Thread nD τ).loc cc0_stg3_0)) (W : Waits sig Unit) : sProp 𝕄 :=
  iprop(records m K
    ∗ slotPts srcB c (dv c) fullShare (P m c)
    ∗ (∃ f, slotPts agB c (dv c) fullShare f)
    ∗ (bigSep Finset.univ fun r : Fin 31 => iprop(∃ f, slotPts agB (nb c r) (dv c) fullShare f))
    ∗ staging m c s
    ∗ owes c (owedAg c 31) W
    ∗ (bigSep Finset.univ fun r : Fin 31 => iprop(atPos ER (rsS c r) 0 ∅ 0 ∗ atPos ER (agS c r) 0 ∅ 0 ∗ atPos ER (agR c r) 0 ∅ 0))
    ∗ atPos ER (bar c) 1 ∅ 0
    ∗ (bigSep Finset.univ fun r : Fin 31 => cred (tallyAt (rsS c r) () N))
    ∗ (bigSep Finset.univ fun r : Fin 31 => cred (tallyAt (agR c r) () N))
    ∗ (bigSep Finset.univ fun r : Fin 31 => iprop(dutyTok ER (agS c r) 0 0 ∗ dutyTok ER (agR (nb c r) r) 0 0))
    ∗ levAts L lv)

/-- Between the halves: every receive slot but slot 1 has landed (slot 0 is the device's own chunk); slot 1's cell is
    still at round 0, with its credit. -/
def Mid (m : Mem F) (K : Dev nD × Option (Fin 4 × Fin 31) → ℕ) (c : Dev nD)
    (s : Buf (Elt F) ((c : Thread nD τ).loc cc0_stg3_0)) (W : Waits sig Unit) : sProp 𝕄 :=
  iprop(MidRest m K c s W
    ∗ (bigSep (Finset.univ.erase (1 : Fin 32)) fun j => slotPts rsB c j fullShare (rsAll (P m) c))
    ∗ (atPos ER (rsR c 0) 0 ∅ 0 ∗ bigSep (Finset.univ.erase (0 : Fin 31)) fun r => atPos ER (rsR c r) 1 ∅ 0)
    ∗ cred (tallyAt (rsR c 0) () N))

/-- Before any receive slot has landed: only slot 0 is held; every receive cell at round 0, with its credit. -/
def MidS (m : Mem F) (K : Dev nD × Option (Fin 4 × Fin 31) → ℕ) (c : Dev nD)
    (s : Buf (Elt F) ((c : Thread nD τ).loc cc0_stg3_0)) (W : Waits sig Unit) : sProp 𝕄 :=
  iprop(MidRest m K c s W
    ∗ slotPts rsB c 0 fullShare (rsAll (P m) c)
    ∗ (bigSep Finset.univ fun r : Fin 31 => atPos ER (rsR c r) 0 ∅ 0)
    ∗ (bigSep Finset.univ fun r : Fin 31 => cred (tallyAt (rsR c r) () N)))

end Cert.KernelIdeal.Mid

end
-- ==== Proof.PreA.lean ====
/-
What a device's thread holds when the body starts, laid out for the run through its first nineteen parts: the families the
run takes one member at a time (the tokens, facts and slots of each of the 31 operations) as chains of 31, the families
it only carries along as they stand.
-/
import proofs.«900791_g7700000000000792_dist_gconv1d_cshard_i_b4_s512_c256_v7x_i32_bf16_1_alg».proof.Proof.Mid
import Idealize.ShloMosaic.Lib.Pipeline.Kit

noncomputable section

namespace Cert.KernelIdeal.PreA

open Cert.KernelIdeal Cert.KernelIdeal.Gen Cert.KernelIdeal.Contents Cert.KernelIdeal.Proto Cert.KernelIdeal.Mid
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A family over the 31 operations, one member after the other. -/
def chain31 (Φ : Fin 31 → sProp 𝕄) : sProp 𝕄 :=
  iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20
    ∗ Φ 21 ∗ Φ 22 ∗ Φ 23 ∗ Φ 24 ∗ Φ 25 ∗ Φ 26 ∗ Φ 27 ∗ Φ 28 ∗ Φ 29 ∗ Φ 30)

/-- It is the family's separating conjunction over all 31. -/
theorem chain31_eq (Φ : Fin 31 → sProp 𝕄) : bigSep Finset.univ Φ = chain31 Φ :=
  bigSep_univ_eq_bigSepL [0, 1, 2, 3, 4, 5, 6, 7, 8, 9, 10, 11, 12, 13, 14, 15, 16, 17, 18, 19, 20, 21, 22, 23, 24, 25, 26, 27, 28, 29, 30]
    (by decide) (by decide) Φ

/-- The persistent facts about the cells operation `r` of device `c` touches: the barrier cell of the neighbour it signals,
    its own send cell and the neighbour's receive cell its copy credits, each with its invariant and round 0 reached;
    and that round 0 of the two cells of `c` that the neighbour's copies credit is reached (the signal's payload says so). -/
def cellsOf (m : Mem F) (K : Dev nD × Option (Fin 4 × Fin 31) → ℕ) (c : Dev nD) (r : Fin 31) : sProp 𝕄 :=
  iprop(cellInv ER (sched m) (K (nb c r, none)) (bar (nb c r)) ∗ reached ER (bar (nb c r)) 0
    ∗ cellInv ER (sched m) (K (c, some (0, r))) (rsS c r) ∗ reached ER (rsS c r) 0
    ∗ cellInv ER (sched m) (K (nb c r, some (1, rev r))) (rsR (nb c r) (rev r)) ∗ reached ER (rsR (nb c r) (rev r)) 0
    ∗ reached ER (rsR c r) 0 ∗ reached ER (agR c (rev r)) 0)

/-- The thread's state at the start of the body. `f0 f1 f2` are what the three scratch buffers hold. The slots the signals
    hand over stand before the slot of the same buffer the thread keeps: the order in which they are taken. -/
def PreA (m : Mem F) (K : Dev nD × Option (Fin 4 × Fin 31) → ℕ) (c : Dev nD)
    (s : Buf (Elt F) ((c : Thread nD τ).loc cc0_stg3_0)) (W : Waits sig Unit)
    (f0 : Buf (Elt F) (srcB.view.loc (c : Thread nD τ))) (f1 : Buf (Elt F) (rsB.view.loc (c : Thread nD τ)))
    (f2 : Buf (Elt F) (agB.view.loc (c : Thread nD τ))) : sProp 𝕄 :=
  iprop(records m K ∗ levAts L lv
    ∗ cellInv ER (sched m) (K (c, none)) (bar c)
    ∗ chain31 (cellsOf m K c)
    ∗ chain31 (fun r => dutyTok ER (bar (nb c r)) 0 r)
    ∗ chain31 (fun r => iprop(dutyTok ER (rsS c r) 0 0 ∗ dutyTok ER (rsR (nb c r) (rev r)) 0 0))
    ∗ (bigSep Finset.univ fun r : Fin 31 => iprop(dutyTok ER (agS c r) 0 0 ∗ dutyTok ER (agR (nb c r) r) 0 0))
    ∗ atPos ER (bar c) 0 ∅ 0
    ∗ (bigSep Finset.univ fun r : Fin 31 => atPos ER (rsR c r) 0 ∅ 0)
    ∗ (bigSep Finset.univ fun r : Fin 31 => iprop(atPos ER (rsS c r) 0 ∅ 0 ∗ atPos ER (agS c r) 0 ∅ 0 ∗ atPos ER (agR c r) 0 ∅ 0))
    ∗ cred (tallyAt (bar c) () 31)
    ∗ (bigSep Finset.univ fun r : Fin 31 => cred (tallyAt (rsR c r) () N))
    ∗ (bigSep Finset.univ fun r : Fin 31 => cred (tallyAt (agR c r) () N))
    ∗ (srcB.view.loc (c : Thread nD τ) ↦{fullShare} f0)
    ∗ chain31 (fun r => slotPts rsB c (sl r) fullShare f1)
    ∗ slotPts rsB c 0 fullShare f1
    ∗ chain31 (fun r => slotPts agB c (dv (nb c r)) fullShare f2)
    ∗ slotPts agB c (dv c) fullShare f2
    ∗ owes c (O₀ c) W
    ∗ staging m c s)

end Cert.KernelIdeal.PreA

end
-- ==== Proof.MidX.lean ====
/-
The assertion a device's thread holds before the body's fifty-eighth part — every all-gather copy issued, every send of the
reduce-scatter and every receive of the all-gather waited for — and what the body leaves.
-/
import proofs.«900791_g7700000000000792_dist_gconv1d_cshard_i_b4_s512_c256_v7x_i32_bf16_1_alg».proof.Proof.Mid

noncomputable section

namespace Cert.KernelIdeal.Mid

open Cert.KernelIdeal Cert.KernelIdeal.Gen Cert.KernelIdeal.Contents Cert.KernelIdeal.Proto
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Before the result is stored: the partial product's 32 chunks are all back (the device's own, and the 31 the send waits
    returned); the receive buffer is whole; the all-gather buffer's own slot is held at the share kept from the 31 copies
    in flight and the 31 other slots have landed, all at the buffer's final contents; nothing is owed; the positions of
    the send cells of the all-gather are still at round 0, with the departure credits of the 31 copies; every other own
    transfer cell is past its round. -/
def MidX (m : Mem F) (K : Dev nD × Option (Fin 4 × Fin 31) → ℕ) (c : Dev nD)
    (s : Buf (Elt F) ((c : Thread nD τ).loc cc0_stg3_0)) (W : Waits sig Unit) : sProp 𝕄 :=
  iprop(records m K
    ∗ slotPts srcB c (dv c) fullShare (P m c)
    ∗ (bigSep Finset.univ fun r : Fin 31 => slotPts srcB c (dv (nb c r)) fullShare (P m c))
    ∗ (rsB.view.loc (c : Thread nD τ) ↦[rsB.view.set]{fullShare} rsAll (P m) c)
    ∗ slotPts agB c (dv c) shLast (agAll (P m))
    ∗ (bigSep Finset.univ fun r : Fin 31 => slotPts agB c (dv (pb c r)) fullShare (agAll (P m)))
    ∗ staging m c s
    ∗ owes c 0 W
    ∗ (bigSep Finset.univ fun r : Fin 31 => atPos ER (rsS c r) 1 ∅ 0)
    ∗ (bigSep Finset.univ fun r : Fin 31 => atPos ER (rsR c r) 1 ∅ 0)
    ∗ (bigSep Finset.univ fun r : Fin 31 => atPos ER (agS c r) 0 ∅ 0)
    ∗ (bigSep Finset.univ fun r : Fin 31 => atPos ER (agR c r) 1 ∅ 0)
    ∗ (bigSep Finset.univ fun r : Fin 31 => cred (tallyAt (agS c r) () N))
    ∗ levAts L lv)

/-- What the body leaves: the three scratch buffers whole and the 124 own cells closed at zero, nothing owed, the argument
    staging buffers unchanged and the result's at the all-gathered result. -/
def PostB (m : Mem F) (c : Dev nD) : sProp 𝕄 :=
  iprop(Φ₁ c ∗ (∃ W' : Waits sig Unit, owes c 0 W')
    ∗ (((c : Thread nD τ).loc cc0_stg0_0) ↦{fullShare} iblk m c 0 t0_0)
    ∗ (((c : Thread nD τ).loc cc0_stg1_0) ↦{fullShare} iblk m c 1 t0_0)
    ∗ (((c : Thread nD τ).loc cc0_stg2_0) ↦{fullShare} iblk m c 2 t0_0)
    ∗ (((c : Thread nD τ).loc cc0_stg3_0) ↦{fullShare} outAll (P m)))

end Cert.KernelIdeal.Mid

end
-- ==== Proof.Slots.lean ====
/-
A [32, 64, 256] buffer as its 32 slots: the rectangle of slot j, the memref of slot j as the program names it (the unit
slice with its leading axis squeezed), and the whole buffer's points-to as the separating conjunction of its slots', at any
share and over any contents. A slice at an offset equal to ![j, 0, 0] has slot j's elements.
-/
import proofs.«900791_g7700000000000792_dist_gconv1d_cshard_i_b4_s512_c256_v7x_i32_bf16_1_alg».proof.Proof.Proto

noncomputable section

namespace Cert.KernelIdeal.Slots

open Idealize.ShloMosaic Idealize.SL.Sem Cert.KernelIdeal Cert.KernelIdeal.Proto
open Idealize.SL Idealize.SL.RA Idealize.SL.BI
open scoped Idealize.SL.BI
open Idealize.SL.BI.BIBase Idealize.SL.BI.Laws Idealize.SL.ProofMode

variable [Facts]
open Facts₀ Facts

/-- The rectangle of slot j of a [32, 64, 256] buffer. -/
abbrev slotRect (j : Fin 32) : Rect S32x64x256 :=
  Rect.unit ![j.val, 0, 0] S1x64x256.size (slot_inb j)

theorem mem_slotRect {j : Fin 32} {i : S32x64x256.Idx} : i ∈ (slotRect j).set ↔ (i 0).val = j.val := by
  rw [Rect.mem_set_unit]
  constructor
  · intro h; have := h 0; simp [S1x64x256, Shape.size] at this; omega
  · intro h a; fin_cases a
    · simp [S1x64x256, Shape.size]; omega
    · simp [S1x64x256, S32x64x256, Shape.size]; exact (i 1).isLt
    · simp [S1x64x256, S32x64x256, Shape.size]; exact (i 2).isLt

theorem slotRect_disjoint {j j' : Fin 32} (h : j ≠ j') : Disjoint (slotRect j).set (slotRect j').set := by
  rw [Finset.disjoint_left]; intro i hi hi'
  rw [mem_slotRect] at hi hi'; exact h (Fin.ext (hi.symm.trans hi'))

theorem slotRect_cover : (Finset.univ : Finset S32x64x256.Idx) = Finset.univ.biUnion (fun j : Fin 32 => (slotRect j).set) := by
  ext i; simp only [Finset.mem_univ, Finset.mem_biUnion, true_and, true_iff]
  exact ⟨⟨(i 0).val, (i 0).isLt⟩, mem_slotRect.2 rfl⟩

variable {Ix : Type} [DecidableEq Ix] {Val : EltTy → Type} {Name : Type} [DecidableEq Name] {U : Type} [URA U] {Lvl : Type}
local notation "𝕄" => MT nD τ sig Ix Val Name U Lvl

theorem set_slotM (M : Memref sig .tc .vmem S32x64x256 .bf16) (j : Fin 32) :
    (slotM M j).view.set = M.view.setOn (slotRect j).set := by
  show ((M.view.slice (slotRect j)).reshape _ _).set = _
  rw [View.set_reshape, View.set_slice]; rfl

theorem pointsTo_slots (M : Memref sig .tc .vmem S32x64x256 .bf16) (c : Dev nD) (q : PosShare TreeShare) (f : Buf Val (M.view.loc (c.tc : Thread nD τ))) :
    (M.view.loc (c.tc : Thread nD τ) ↦[M.view.set]{q} f : sProp 𝕄)
      = bigSep Finset.univ (fun j : Fin 32 => (M.view.loc (c.tc : Thread nD τ) ↦[(slotM M j).view.set]{q} f : sProp 𝕄)) := by
  have hcov : M.view.set = Finset.univ.biUnion (fun j : Fin 32 => (slotM M j).view.set) := by
    ext i
    simp only [Finset.mem_biUnion, Finset.mem_univ, true_and]
    constructor
    · intro hi
      have hi' : i ∈ Finset.univ.map M.view.emb := hi
      obtain ⟨x, -, rfl⟩ := Finset.mem_map.1 hi'
      refine ⟨⟨(x 0).val, (x 0).isLt⟩, ?_⟩
      rw [set_slotM]; exact (M.view.mem_setOn).2 (mem_slotRect.2 rfl)
    · rintro ⟨j, hj⟩; rw [set_slotM] at hj; exact M.view.setOn_subset_set _ hj
  rw [hcov]
  refine pointsTo_biUnion Finset.univ _ ?_
  intro j _ j' _ h
  rw [set_slotM, set_slotM]
  exact (Finset.disjoint_map _).2 (slotRect_disjoint h)

/-- A unit slice at an offset that is ![j, 0, 0] has slot j's elements: as the squeezed memref of a transfer, -/
theorem set_sliceSq_eq_slot (M : Memref sig .tc .vmem S32x64x256 .bf16) {off : Fin 3 → ℕ}
    {inb : ∀ a, off a + S1x64x256.size a ≤ S32x64x256.size a} (j : Fin 32) (h : off = ![j.val, 0, 0]) :
    ((M.slice (Rect.unit (s := S32x64x256) off S1x64x256.size inb) (fun _ => rfl)).squeeze S64x256 squeezes_S1x64x256_S64x256).view.set
      = (slotM M j).view.set := by
  subst h; rfl

/-- and as the view a load or a store goes through. -/
theorem set_access_eq_slot (M : Memref sig .tc .vmem S32x64x256 .bf16) {off : Fin 3 → ℕ}
    {inb : ∀ a, off a + S1x64x256.size a ≤ S32x64x256.size a} (j : Fin 32) (h : off = ![j.val, 0, 0]) :
    (M.access (Rect.unit (s := S32x64x256) off S1x64x256.size inb)).set = (slotM M j).view.set := by
  subst h
  exact (View.set_reshape _ _).symm

/-- info: 'Cert.KernelIdeal.Slots.pointsTo_slots' depends on axioms: [propext, Classical.choice, Quot.sound] -/
#guard_msgs in #print axioms pointsTo_slots

end Cert.KernelIdeal.Slots

end
-- ==== Proof.Tables.lean ====
/-
The schedule's tables, cell kind by cell kind: the duties, amounts, expected units and payloads of round 0 of a
barrier cell and of each of the four kinds of transfer cell, the payloads of a whole round, and that no later round
has a duty. Each table equation has the table's entry on the left.
-/
import proofs.«900791_g7700000000000792_dist_gconv1d_cshard_i_b4_s512_c256_v7x_i32_bf16_1_alg».proof.Proof.Proto

noncomputable section

namespace Cert.KernelIdeal.Tables

open Cert.KernelIdeal Cert.KernelIdeal.Gen Cert.KernelIdeal.Contents Cert.KernelIdeal.Proto
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The schedule at a cell given by its semaphore -/

theorem duties_reg (m : Mem F) (c : Dev nD) (s : Sem sig) : (sched (F := F) m).duties ((c : Thread nD τ), .reg s) 0 = Finset.univ := by
  dsimp only [sched]; exact if_pos ⟨rfl, rfl⟩
theorem duties_dma (m : Mem F) (c : Dev nD) (s : DmaSem sig) :
    (sched (F := F) m).duties ((c : Thread nD τ), .dma s) 0 = if IsOwn s then {0} else ∅ := by
  dsimp only [sched]; exact if_pos ⟨rfl, rfl⟩
theorem duties_later (m : Mem F) (g : GSem nD τ sig) (r : ℕ) (hr : 1 ≤ r) : (sched (F := F) m).duties g r = ∅ := by
  dsimp only [sched]; exact if_neg fun h => by omega
theorem payload_dma (m : Mem F) (c : Dev nD) (s : DmaSem sig) (k : ℕ) (d : Fin 31) :
    (sched (F := F) m).payload ((c : Thread nD τ), .dma s) k d
      = match poolOf s with
        | 0 => rsSPay m c (opOf s)
        | 1 => rsRPay m c (opOf s)
        | 2 => agSPay m c (opOf s)
        | _ => agRPay m c (opOf s) := rfl

/-! ## Duties -/

theorem univ31 : (Finset.univ : Finset (Fin 31)) = {0, 1, 2, 3, 4, 5, 6, 7, 8, 9, 10, 11, 12, 13, 14, 15, 16, 17, 18, 19, 20, 21, 22, 23, 24, 25, 26, 27, 28, 29, 30} := by decide

theorem duties_bar (m : Mem F) (c : Dev nD) : (sched (F := F) m).duties (bar c) 0 = Finset.univ := duties_reg m c barS
/-- The barrier cell's duties listed: the form in which a round's payloads unfold to a chain. -/
theorem duties_bar_lit (m : Mem F) (c : Dev nD) : (sched (F := F) m).duties (bar c) 0 = {0, 1, 2, 3, 4, 5, 6, 7, 8, 9, 10, 11, 12, 13, 14, 15, 16, 17, 18, 19, 20, 21, 22, 23, 24, 25, 26, 27, 28, 29, 30} :=
  (duties_bar m c).trans univ31
theorem duties_own (m : Mem F) (c : Dev nD) (p : Fin 4) (r : Fin 31) : (sched (F := F) m).duties (kcell (c, some (p, r))) 0 = {0} :=
  (duties_dma m c (dsem p r)).trans (if_pos (isOwn_dsem p r))
theorem duties_rsS (m : Mem F) (c : Dev nD) (r : Fin 31) : (sched (F := F) m).duties (rsS c r) 0 = {0} := duties_own m c 0 r
theorem duties_rsR (m : Mem F) (c : Dev nD) (r : Fin 31) : (sched (F := F) m).duties (rsR c r) 0 = {0} := duties_own m c 1 r
theorem duties_agS (m : Mem F) (c : Dev nD) (r : Fin 31) : (sched (F := F) m).duties (agS c r) 0 = {0} := duties_own m c 2 r
theorem duties_agR (m : Mem F) (c : Dev nD) (r : Fin 31) : (sched (F := F) m).duties (agR c r) 0 = {0} := duties_own m c 3 r

theorem mem_duties_bar (m : Mem F) (c : Dev nD) (r : Fin 31) : r ∈ (sched (F := F) m).duties (bar c) 0 := by
  rw [duties_bar]; exact Finset.mem_univ r
theorem mem_duties_own (m : Mem F) (c : Dev nD) (p : Fin 4) (r : Fin 31) : (0 : Fin 31) ∈ (sched (F := F) m).duties (kcell (c, some (p, r))) 0 := by
  rw [duties_own]; exact Finset.mem_singleton_self _

/-! ## Amounts and expected units -/

theorem amount_bar (m : Mem F) (c : Dev nD) (k : ℕ) (d : Fin 31) : (sched (F := F) m).amount (bar c) k d = 1 := rfl
theorem amount_own (m : Mem F) (c : Dev nD) (p : Fin 4) (r : Fin 31) (k : ℕ) (d : Fin 31) :
    (sched (F := F) m).amount (kcell (c, some (p, r))) k d = N := rfl
theorem amount_rsS (m : Mem F) (c : Dev nD) (r : Fin 31) (k : ℕ) (d : Fin 31) : (sched (F := F) m).amount (rsS c r) k d = N := rfl
theorem amount_rsR (m : Mem F) (c : Dev nD) (r : Fin 31) (k : ℕ) (d : Fin 31) : (sched (F := F) m).amount (rsR c r) k d = N := rfl
theorem amount_agS (m : Mem F) (c : Dev nD) (r : Fin 31) (k : ℕ) (d : Fin 31) : (sched (F := F) m).amount (agS c r) k d = N := rfl
theorem amount_agR (m : Mem F) (c : Dev nD) (r : Fin 31) (k : ℕ) (d : Fin 31) : (sched (F := F) m).amount (agR c r) k d = N := rfl

theorem expect_bar (m : Mem F) (c : Dev nD) : (sched (F := F) m).expect (bar c) 0 = 31 := by
  unfold Schedule.expect Schedule.amountOf
  rw [duties_bar, Finset.sum_congr rfl fun d _ => amount_bar m c 0 d, Finset.sum_const, Finset.card_univ, Fintype.card_fin, smul_eq_mul]
theorem expect_own (m : Mem F) (c : Dev nD) (p : Fin 4) (r : Fin 31) : (sched (F := F) m).expect (kcell (c, some (p, r))) 0 = N := by
  unfold Schedule.expect Schedule.amountOf; rw [duties_own, Finset.sum_singleton, amount_own]
theorem expect_rsS (m : Mem F) (c : Dev nD) (r : Fin 31) : (sched (F := F) m).expect (rsS c r) 0 = N := expect_own m c 0 r
theorem expect_rsR (m : Mem F) (c : Dev nD) (r : Fin 31) : (sched (F := F) m).expect (rsR c r) 0 = N := expect_own m c 1 r
theorem expect_agS (m : Mem F) (c : Dev nD) (r : Fin 31) : (sched (F := F) m).expect (agS c r) 0 = N := expect_own m c 2 r
theorem expect_agR (m : Mem F) (c : Dev nD) (r : Fin 31) : (sched (F := F) m).expect (agR c r) 0 = N := expect_own m c 3 r

/-! ## Payloads, each spelt as the assertion itself -/

/-- Duty `r` of `t`'s barrier cell: the two slots of `pb t r` that `t`'s transfers land in, and that `pb t r` has opened
    the two cells they credit. -/
theorem payload_bar (m : Mem F) (t : Dev nD) (k : ℕ) (r : Fin 31) :
    (sched (F := F) m).payload (bar t) k r
      = iprop((∃ f, ((slotM rsB (sl r)).view.loc ((pb t r : Dev nD) : Thread nD τ)) ↦[(slotM rsB (sl r)).view.set]{fullShare} f)
          ∗ (∃ f, ((slotM agB (dv t)).view.loc ((pb t r : Dev nD) : Thread nD τ)) ↦[(slotM agB (dv t)).view.set]{fullShare} f)
          ∗ reached ER (rsR (pb t r) r) 0 ∗ reached ER (agR (pb t r) (rev r)) 0) := rfl

theorem payload_rsS (m : Mem F) (c : Dev nD) (r : Fin 31) (k : ℕ) (d : Fin 31) :
    (sched (F := F) m).payload (rsS c r) k d
      = (((slotM srcB (dv (nb c r))).view.loc (c : Thread nD τ)) ↦[(slotM srcB (dv (nb c r))).view.set]{fullShare} (P m c) : sProp 𝕄) := by
  rw [show rsS c r = ((c : Thread nD τ), SemLoc.dma (dsem 0 r)) from rfl, payload_dma, poolOf_dsem, opOf_dsem]; rfl
theorem payload_rsR (m : Mem F) (c : Dev nD) (r : Fin 31) (k : ℕ) (d : Fin 31) :
    (sched (F := F) m).payload (rsR c r) k d
      = (((slotM rsB (sl r)).view.loc (c : Thread nD τ)) ↦[(slotM rsB (sl r)).view.set]{fullShare} (rsAll (P m) c) : sProp 𝕄) := by
  rw [show rsR c r = ((c : Thread nD τ), SemLoc.dma (dsem 1 r)) from rfl, payload_dma, poolOf_dsem, opOf_dsem]; rfl
theorem payload_agS (m : Mem F) (c : Dev nD) (r : Fin 31) (k : ℕ) (d : Fin 31) :
    (sched (F := F) m).payload (agS c r) k d
      = (((slotM agB (dv c)).view.loc (c : Thread nD τ)) ↦[(slotM agB (dv c)).view.set]{sh r} (agAll (P m)) : sProp 𝕄) := by
  rw [show agS c r = ((c : Thread nD τ), SemLoc.dma (dsem 2 r)) from rfl, payload_dma, poolOf_dsem, opOf_dsem]; rfl
theorem payload_agR (m : Mem F) (c : Dev nD) (r : Fin 31) (k : ℕ) (d : Fin 31) :
    (sched (F := F) m).payload (agR c r) k d
      = (((slotM agB (dv (pb c r))).view.loc (c : Thread nD τ)) ↦[(slotM agB (dv (pb c r))).view.set]{fullShare} (agAll (P m)) : sProp 𝕄) := by
  rw [show agR c r = ((c : Thread nD τ), SemLoc.dma (dsem 3 r)) from rfl, payload_dma, poolOf_dsem, opOf_dsem]; rfl

/-! ## Payloads at the cells a device pays, the payer named

The duties device `c` pays on other devices' cells, with whatever the general equations spell through the payer of the
cell's device resolved to `c` itself. -/

/-- Duty `r` of the barrier cell of `nb c r`, which `c` pays: `c`'s own two slots and cells. -/
theorem payload_bar_nb (m : Mem F) (c : Dev nD) (k : ℕ) (r : Fin 31) :
    (sched (F := F) m).payload (bar (nb c r)) k r
      = iprop((∃ f, ((slotM rsB (sl r)).view.loc ((c : Dev nD) : Thread nD τ)) ↦[(slotM rsB (sl r)).view.set]{fullShare} f)
          ∗ (∃ f, ((slotM agB (dv (nb c r))).view.loc ((c : Dev nD) : Thread nD τ)) ↦[(slotM agB (dv (nb c r))).view.set]{fullShare} f)
          ∗ reached ER (rsR c r) 0 ∗ reached ER (agR c (rev r)) 0) := by
  rw [payload_bar]
  have h := pb_nb c r
  generalize pb (nb c r) r = x at h
  subst h
  rfl

/-- The duty of cell `r` of the all-gather's receive pool on `nb c r`, which `c` pays: slot `c` there. -/
theorem payload_agR_nb (m : Mem F) (c : Dev nD) (r : Fin 31) (k : ℕ) (d : Fin 31) :
    (sched (F := F) m).payload (agR (nb c r) r) k d
      = (((slotM agB (dv c)).view.loc ((nb c r : Dev nD) : Thread nD τ)) ↦[(slotM agB (dv c)).view.set]{fullShare} (agAll (P m)) : sProp 𝕄) := by
  rw [payload_agR]
  have h := pb_nb c r
  generalize pb (nb c r) r = x at h
  subst h
  rfl

/-! ## A whole round's payloads -/

theorem rest_bar (m : Mem F) (c : Dev nD) :
    bigSep ((sched (F := F) m).duties (bar c) 0 \ ∅) (fun d => (sched (F := F) m).payload (bar c) 0 d)
      = bigSep Finset.univ (fun r : Fin 31 => barPay (F := F) c r) := by
  rw [Finset.sdiff_empty, duties_bar]; rfl
theorem rest_rsS (m : Mem F) (c : Dev nD) (r : Fin 31) :
    bigSep ((sched (F := F) m).duties (rsS c r) 0 \ ∅) (fun d => (sched (F := F) m).payload (rsS c r) 0 d) = rsSPay m c r := by
  rw [Finset.sdiff_empty, duties_rsS, bigSep_singleton, payload_rsS]; rfl
theorem rest_rsR (m : Mem F) (c : Dev nD) (r : Fin 31) :
    bigSep ((sched (F := F) m).duties (rsR c r) 0 \ ∅) (fun d => (sched (F := F) m).payload (rsR c r) 0 d) = rsRPay m c r := by
  rw [Finset.sdiff_empty, duties_rsR, bigSep_singleton, payload_rsR]; rfl
theorem rest_agS (m : Mem F) (c : Dev nD) (r : Fin 31) :
    bigSep ((sched (F := F) m).duties (agS c r) 0 \ ∅) (fun d => (sched (F := F) m).payload (agS c r) 0 d) = agSPay m c r := by
  rw [Finset.sdiff_empty, duties_agS, bigSep_singleton, payload_agS]; rfl
theorem rest_agR (m : Mem F) (c : Dev nD) (r : Fin 31) :
    bigSep ((sched (F := F) m).duties (agR c r) 0 \ ∅) (fun d => (sched (F := F) m).payload (agR c r) 0 d) = agRPay m c r := by
  rw [Finset.sdiff_empty, duties_agR, bigSep_singleton, payload_agR]; rfl

/-! ## The tables as the executor's rewrites -/

attribute [sl_rounds] duties_bar_lit duties_rsS duties_rsR duties_agS duties_agR
  amount_bar amount_rsS amount_rsR amount_agS amount_agR
  expect_bar expect_rsS expect_rsR expect_agS expect_agR
  payload_bar payload_rsS payload_rsR payload_agS payload_agR

/- The two equations that name the payer are tried before the general ones they are instances of. -/
open Lean Meta in
run_meta do
  for n in [``payload_bar_nb, ``payload_agR_nb] do
    addSimpTheorem Idealize.ShloMosaic.Tactic.Exec.slRoundsExt n (post := true) (inv := false) AttributeKind.global 2000

/-- info: 'Cert.KernelIdeal.Tables.rest_bar' depends on axioms: [propext, Classical.choice, Quot.sound] -/
#guard_msgs in #print axioms rest_bar

end Cert.KernelIdeal.Tables

end
-- ==== Proof.CloseCells.lean ====
/-
Closing a device's own cells. Every cell's invariant and reached round are read off the launch's records; a
device that has consumed round 0 of each of its 124 transfer cells, no later round having a duty, closes them all and
takes their counters out at zero.
-/
import proofs.«900791_g7700000000000792_dist_gconv1d_cshard_i_b4_s512_c256_v7x_i32_bf16_1_alg».proof.Proof.Tables

noncomputable section

namespace Cert.KernelIdeal.CloseCells

open Cert.KernelIdeal Cert.KernelIdeal.Gen Cert.KernelIdeal.Contents Cert.KernelIdeal.Proto Cert.KernelIdeal.Tables
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

instance records_persistent (m : Mem F) (K : Dev nD × Option (Fin 4 × Fin 31) → ℕ) : BI.Persistent (records (F := F) m K) := by
  unfold records; infer_instance

/-- One cell's invariant out of the records. -/
theorem recInv (m : Mem F) (K : Dev nD × Option (Fin 4 × Fin 31) → ℕ) (ck : Dev nD × Option (Fin 4 × Fin 31)) :
    (records (F := F) m K : sProp 𝕄) ⊢ cellInv ER (sched m) (K ck) (kcell ck) := by
  have h : (bigSep Finset.univ (fun ck : Dev nD × Option (Fin 4 × Fin 31) => (cellInv ER (sched (F := F) m) (K ck) (kcell ck) : sProp 𝕄)))
      ⊢ cellInv ER (sched (F := F) m) (K ck) (kcell ck) := BI.bigSep_elim (Finset.mem_univ ck)
  unfold records
  iintro ⟨H, -⟩
  iapply h; iexact H

/-- That one cell's round 0 is reached, out of the records. -/
theorem recReached (m : Mem F) (K : Dev nD × Option (Fin 4 × Fin 31) → ℕ) (ck : Dev nD × Option (Fin 4 × Fin 31)) :
    (records (F := F) m K : sProp 𝕄) ⊢ reached ER (kcell ck) 0 := by
  have h : (bigSep Finset.univ (fun ck : Dev nD × Option (Fin 4 × Fin 31) => (reached ER (kcell ck) 0 : sProp 𝕄)))
      ⊢ reached ER (kcell ck) 0 := BI.bigSep_elim (Finset.mem_univ ck)
  unfold records
  iintro ⟨-, H⟩
  iapply h; iexact H

/-- One own cell closed: its round 0 consumed, no later round has a duty. -/
theorem closeOne (m : Mem F) (K : Dev nD × Option (Fin 4 × Fin 31) → ℕ) (c : Dev nD) (k : Fin 4 × Fin 31) :
    iprop(records (F := F) m K ∗ atPos ER (kcell (c, some k)) 1 ∅ 0)
      ⊢ (iprop(|={Set.univ}=> semVal ((c : Thread nD τ), osem k) 0) : sProp 𝕄) :=
  (sep_mono_left (recInv m K (c, some k))).trans
    (Rounds.cell_close ER (sched m) (Set.mem_univ _) (fun h => h) (R := 1) (fun r hr => duties_later m _ r hr))

/-- All 124 own cells closed. -/
theorem closeOwn (m : Mem F) (K : Dev nD × Option (Fin 4 × Fin 31) → ℕ) (c : Dev nD) :
    iprop(records (F := F) m K ∗ bigSep Finset.univ (fun k : Fin 4 × Fin 31 => atPos ER (kcell (c, some k)) 1 ∅ 0))
      ⊢ (iprop(|={Set.univ}=> bigSep Finset.univ (fun k : Fin 4 × Fin 31 => semVal ((c : Thread nD τ), osem k) 0)) : sProp 𝕄) := by
  refine (sep_mono_left (BI.bigSep_of_persistent (Finset.univ : Finset (Fin 4 × Fin 31)) (records (F := F) m K))).trans ?_
  rw [← BI.bigSep_sep']
  exact (BI.bigSep_mono fun k _ => closeOne m K c k).trans (BI.bigSep_fupd _ _)

/-- info: 'Cert.KernelIdeal.CloseCells.closeOwn' depends on axioms: [propext, Classical.choice, Quot.sound] -/
#guard_msgs in #print axioms closeOwn

end Cert.KernelIdeal.CloseCells

end
-- ==== Proof.OpenPre.lean ====
/-
From what the launch hands a device's thread to the layout its run starts from. Purely structural: the records are
persistent and are read once per cell the run touches; the positions over all of a device's cells are split by kind of
cell; the tokens a device pays with are split by kind of duty; each of the two slotted scratch buffers is cut into its 32
slots, one named and the other 31 indexed by the operation that uses them.
-/
import proofs.«900791_g7700000000000792_dist_gconv1d_cshard_i_b4_s512_c256_v7x_i32_bf16_1_alg».proof.Proof.PreA
import proofs.«900791_g7700000000000792_dist_gconv1d_cshard_i_b4_s512_c256_v7x_i32_bf16_1_alg».proof.Proof.Slots
import proofs.«900791_g7700000000000792_dist_gconv1d_cshard_i_b4_s512_c256_v7x_i32_bf16_1_alg».proof.Proof.CloseCells

noncomputable section

namespace Cert.KernelIdeal.OpenPre

open Cert.KernelIdeal Cert.KernelIdeal.Gen Cert.KernelIdeal.Contents Cert.KernelIdeal.Proto Cert.KernelIdeal.Mid
open Cert.KernelIdeal.PreA Cert.KernelIdeal.CloseCells
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The 32 slots: one named, 31 by operation -/

theorem sl_injOn : Set.InjOn sl (Finset.univ : Finset (Fin 31)) := fun a _ b _ h =>
  Fin.ext (by have hv := congrArg Fin.val h; simp only [sl] at hv; omega)

theorem erase_zero_eq_image_sl : (Finset.univ.erase (0 : Fin 32)) = Finset.univ.image sl := by
  ext j
  simp only [Finset.mem_erase, Finset.mem_univ, and_true, Finset.mem_image, true_and]
  constructor
  · intro hne
    have hj : j.val ≠ 0 := fun h => hne (Fin.ext h)
    exact ⟨⟨j.val - 1, by have := j.isLt; omega⟩, Fin.ext (by simp only [sl]; omega)⟩
  · rintro ⟨r, rfl⟩ h
    have hv := congrArg Fin.val h
    simp only [sl] at hv
    exact absurd hv (by simp)

/-- Slot 0 and the slots `r + 1`. -/
theorem bigSep_slots_sl (Φ : Fin 32 → sProp 𝕄) :
    bigSep Finset.univ Φ = iprop(Φ 0 ∗ bigSep Finset.univ (fun r : Fin 31 => Φ (sl r))) := by
  rw [bigSep_univ_at Φ 0, erase_zero_eq_image_sl, bigSep_image_of_injOn sl_injOn]

theorem dvnb_injOn (c : Dev nD) : Set.InjOn (fun r : Fin 31 => dv (nb c r)) (Finset.univ : Finset (Fin 31)) := fun a _ b _ h =>
  nb_inj_op c (Fin.ext (by have hv := congrArg Fin.val h; simpa only [dv] using hv))

theorem erase_dv_eq_image_nb (c : Dev nD) : (Finset.univ.erase (dv c)) = Finset.univ.image (fun r : Fin 31 => dv (nb c r)) := by
  ext j
  simp only [Finset.mem_erase, Finset.mem_univ, and_true, Finset.mem_image, true_and]
  have hc : c.val < 32 := c.isLt
  have hj := j.isLt
  constructor
  · intro hne
    have hjc : j.val ≠ c.val := fun h => hne (Fin.ext h)
    refine ⟨⟨(j.val + 31 - c.val) % 32, by omega⟩, Fin.ext ?_⟩
    simp only [dv, nb]; omega
  · rintro ⟨r, rfl⟩ h
    have hv := congrArg Fin.val h
    have hr := r.isLt
    simp only [dv, nb] at hv
    omega

/-- The device's own slot and the slots of the devices its operations address. -/
theorem bigSep_slots_nb (c : Dev nD) (Φ : Fin 32 → sProp 𝕄) :
    bigSep Finset.univ Φ = iprop(Φ (dv c) ∗ bigSep Finset.univ (fun r : Fin 31 => Φ (dv (nb c r)))) := by
  rw [bigSep_univ_at Φ (dv c), erase_dv_eq_image_nb, bigSep_image_of_injOn (dvnb_injOn c)]

/-! ## A device's cells, by kind -/

theorem erase_none_eq_map_some : (Finset.univ.erase (none : Option (Fin 4 × Fin 31))) = Finset.univ.map Function.Embedding.some := by
  ext x
  cases x with
  | none => simp
  | some k => simp

/-- The barrier cell, then the four pools. -/
theorem bigSep_cells (Φ : Option (Fin 4 × Fin 31) → sProp 𝕄) :
    bigSep Finset.univ Φ = iprop(Φ none ∗ (bigSep Finset.univ fun r : Fin 31 => Φ (some (0, r))) ∗ (bigSep Finset.univ fun r : Fin 31 => Φ (some (1, r)))
      ∗ (bigSep Finset.univ fun r : Fin 31 => Φ (some (2, r))) ∗ (bigSep Finset.univ fun r : Fin 31 => Φ (some (3, r)))) := by
  rw [bigSep_univ_at Φ none, erase_none_eq_map_some, bigSep_map, bigSep_univ_prod,
    bigSep_univ_eq_bigSepL [(0 : Fin 4), (1 : Fin 4), (2 : Fin 4), (3 : Fin 4)] (by decide) (by decide)]
  rfl

theorem bigSep_sep3 (A B C : Fin 31 → sProp 𝕄) :
    bigSep Finset.univ (fun r => iprop(A r ∗ B r ∗ C r)) = iprop(bigSep Finset.univ A ∗ bigSep Finset.univ B ∗ bigSep Finset.univ C) := by
  rw [bigSep_sep', bigSep_sep']

theorem bigSep_sep5 (A B C D E : Fin 31 → sProp 𝕄) :
    bigSep Finset.univ (fun r => iprop(A r ∗ B r ∗ C r ∗ D r ∗ E r))
      = iprop(bigSep Finset.univ A ∗ bigSep Finset.univ B ∗ bigSep Finset.univ C ∗ bigSep Finset.univ D ∗ bigSep Finset.univ E) := by
  rw [bigSep_sep', bigSep_sep', bigSep_sep', bigSep_sep']

/-! ## The facts about the cells an operation touches, off the records -/

instance cellsOf_persistent (m : Mem F) (K : Dev nD × Option (Fin 4 × Fin 31) → ℕ) (c : Dev nD) (r : Fin 31) :
    BI.Persistent (cellsOf (F := F) m K c r) := by unfold cellsOf; infer_instance

theorem recCells (m : Mem F) (K : Dev nD × Option (Fin 4 × Fin 31) → ℕ) (c : Dev nD) (r : Fin 31) :
    (records (F := F) m K : sProp 𝕄) ⊢ cellsOf m K c r := by
  unfold cellsOf
  iintro #H
  isplitr; · iapply (recInv m K (nb c r, none)); iexact H
  isplitr; · iapply (recReached m K (nb c r, none)); iexact H
  isplitr; · iapply (recInv m K (c, some (0, r))); iexact H
  isplitr; · iapply (recReached m K (c, some (0, r))); iexact H
  isplitr; · iapply (recInv m K (nb c r, some (1, rev r))); iexact H
  isplitr; · iapply (recReached m K (nb c r, some (1, rev r))); iexact H
  isplitr; · iapply (recReached m K (c, some (1, r))); iexact H
  iapply (recReached m K (c, some (3, rev r))); iexact H

theorem recCellsAll (m : Mem F) (K : Dev nD × Option (Fin 4 × Fin 31) → ℕ) (c : Dev nD) :
    (records (F := F) m K : sProp 𝕄) ⊢ chain31 (cellsOf m K c) := by
  rw [← chain31_eq]
  exact bigSep_intro_persistent fun r _ => recCells m K c r

/-! ## A scratch buffer as its slots -/

/-- A whole 32-slot buffer at contents `f`, as its 32 slots. -/
theorem whole_slots (B : Memref sig .tc .vmem S32x64x256 .bf16) (hB : B.view.set = Finset.univ) (c : Dev nD) (f : Buf (Elt F) (B.view.loc (c : Thread nD τ))) :
    ((B.view.loc (c : Thread nD τ)) ↦{fullShare} f : sProp 𝕄) = bigSep Finset.univ (fun j : Fin 32 => slotPts B c j fullShare f) := by
  have h := Slots.pointsTo_slots (Ix := Unit) (Val := Elt F) (Name := ℕ) (U := UU) (Lvl := ℕ) B c fullShare f
  rw [hB] at h
  exact h

/-! ## Joining families -/

theorem toChain (A : Fin 31 → sProp 𝕄) : bigSep Finset.univ A ⊢ chain31 A := Entails.of_eq (chain31_eq A)
theorem join2 (A B : Fin 31 → sProp 𝕄) :
    iprop(bigSep Finset.univ A ∗ bigSep Finset.univ B) ⊢ bigSep Finset.univ (fun r => iprop(A r ∗ B r)) :=
  Entails.of_eq (bigSep_sep' _ A B).symm
theorem join2c (A B : Fin 31 → sProp 𝕄) :
    iprop(bigSep Finset.univ A ∗ bigSep Finset.univ B) ⊢ chain31 (fun r => iprop(A r ∗ B r)) :=
  (join2 A B).trans (toChain _)
theorem join3 (A B C : Fin 31 → sProp 𝕄) :
    iprop(bigSep Finset.univ A ∗ bigSep Finset.univ B ∗ bigSep Finset.univ C) ⊢ bigSep Finset.univ (fun r => iprop(A r ∗ B r ∗ C r)) :=
  Entails.of_eq (bigSep_sep3 A B C).symm

/-! ## The layout -/

/-- What the launch hands device `c`'s thread, what it owes, and the staging buffers: laid out for the run. -/
theorem openPre (m : Mem F) (c : Dev nD) (s : Buf (Elt F) ((c : Thread nD τ).loc cc0_stg3_0)) (W : Waits sig Unit) :
    iprop(Φ₀ (F := F) m c ∗ owes (c : Thread nD τ) (O₀ c) W ∗ staging m c s)
      ⊢ (iprop(∃ K f0 f1 f2, PreA (F := F) m K c s W f0 f1 f2) : sProp 𝕄) := by
  unfold Φ₀ start ghost linear payToks scr
  iintro ⟨⟨⟨⟨%K, #Hrec, Hpos, Htok⟩, Hcb, Hcr, Hca, #Hlev⟩, ⟨%f0, H0⟩, ⟨%f1, H1⟩, ⟨%f2, H2⟩⟩, HO, Hst⟩
  ihave Hpos' := (Entails.of_eq (bigSep_cells fun j : Option (Fin 4 × Fin 31) => (atPos ER (kcell (c, j)) 0 ∅ 0 : sProp 𝕄))) $$ Hpos
  icases Hpos' with ⟨Hpb, Hp0, Hp1, Hp2, Hp3⟩
  ihave Htok' := (Entails.of_eq (bigSep_sep5 (fun r : Fin 31 => (dutyTok ER (bar (nb c r)) 0 r : sProp 𝕄))
    (fun r : Fin 31 => (dutyTok ER (rsR (nb c r) (rev r)) 0 0 : sProp 𝕄)) (fun r : Fin 31 => (dutyTok ER (rsS c r) 0 0 : sProp 𝕄))
    (fun r : Fin 31 => (dutyTok ER (agR (nb c r) r) 0 0 : sProp 𝕄)) (fun r : Fin 31 => (dutyTok ER (agS c r) 0 0 : sProp 𝕄)))) $$ Htok
  icases Htok' with ⟨Ht1, Ht2, Ht3, Ht4, Ht5⟩
  ihave H1a := (Entails.of_eq (whole_slots rsB (View.set_whole _) c f1)) $$ H1
  ihave H1b := (Entails.of_eq (bigSep_slots_sl fun j : Fin 32 => slotPts (F := F) rsB c j fullShare f1)) $$ H1a
  icases H1b with ⟨H10, H1r⟩
  ihave H2a := (Entails.of_eq (whole_slots agB (View.set_whole _) c f2)) $$ H2
  ihave H2b := (Entails.of_eq (bigSep_slots_nb c fun j : Fin 32 => slotPts (F := F) agB c j fullShare f2)) $$ H2a
  icases H2b with ⟨H2c, H2r⟩
  iexists K, f0, f1, f2
  unfold PreA
  isplitr; · iexact Hrec
  isplitr; · iexact Hlev
  isplitr; · iapply (recInv m K (c, none)); iexact Hrec
  isplitr; · iapply (recCellsAll m K c); iexact Hrec
  isplitl [Ht1]; · iapply (toChain _); iexact Ht1
  isplitl [Ht3 Ht2]
  · iapply (join2c (fun r : Fin 31 => (dutyTok ER (rsS c r) 0 0 : sProp 𝕄)) (fun r : Fin 31 => (dutyTok ER (rsR (nb c r) (rev r)) 0 0 : sProp 𝕄)))
    isplitl [Ht3]; · iexact Ht3
    iexact Ht2
  isplitl [Ht5 Ht4]
  · iapply (join2 (fun r : Fin 31 => (dutyTok ER (agS c r) 0 0 : sProp 𝕄)) (fun r : Fin 31 => (dutyTok ER (agR (nb c r) r) 0 0 : sProp 𝕄)))
    isplitl [Ht5]; · iexact Ht5
    iexact Ht4
  isplitl [Hpb]; · iexact Hpb
  isplitl [Hp1]; · iexact Hp1
  isplitl [Hp0 Hp2 Hp3]
  · iapply (join3 (fun r : Fin 31 => (atPos ER (rsS c r) 0 ∅ 0 : sProp 𝕄)) (fun r : Fin 31 => (atPos ER (agS c r) 0 ∅ 0 : sProp 𝕄))
      (fun r : Fin 31 => (atPos ER (agR c r) 0 ∅ 0 : sProp 𝕄)))
    isplitl [Hp0]; · iexact Hp0
    isplitl [Hp2]; · iexact Hp2
    iexact Hp3
  isplitl [Hcb]; · iexact Hcb
  isplitl [Hcr]; · iexact Hcr
  isplitl [Hca]; · iexact Hca
  isplitl [H0]; · iexact H0
  isplitl [H1r]; · iapply (toChain _); iexact H1r
  isplitl [H10]; · iexact H10
  isplitl [H2r]; · iapply (toChain _); iexact H2r
  isplitl [H2c]; · iexact H2c
  isplitl [HO]; · iexact HO
  iexact Hst

/-- info: 'Cert.KernelIdeal.OpenPre.openPre' depends on axioms: [propext, Classical.choice, Quot.sound] -/
#guard_msgs in #print axioms openPre

end Cert.KernelIdeal.OpenPre

end
-- ==== Proof.DevEqs.lean ====
/-
The devices and slots the body's unrolled chains name, in closed form. Each of the body's 93 device chains adds
((N - 1) mod 31) + 1 to the device's own position modulo 32: it is the forward neighbour at that distance. Each of the
31 source slices of the reduce-scatter's copies is the slot at that neighbour's position, and the all-gather's source
slice is the slot at the device's own position.
-/
import proofs.«900791_g7700000000000792_dist_gconv1d_cshard_i_b4_s512_c256_v7x_i32_bf16_1_alg».proof.Proof.Proto

namespace Cert.KernelIdeal.DevEqs

open Idealize.ShloMosaic Cert.KernelIdeal Cert.KernelIdeal.Gen Cert.KernelIdeal.Proto

open Lean Elab Command in
/-- Declares, for N = 1 … 93, the equation between the device the N-th chain names and the forward neighbour it is. -/
elab "declare_dev_eqs" : command => do
  for N in [1:94] do
    let r := (N - 1) % 31
    let nm := mkIdent (Name.mkSimple s!"dev{N}_eq")
    let dv := mkIdent (Name.mkSimple s!"k0_dev{N}")
    let lt := mkIdent (Name.mkSimple s!"k0_dev{N}_lt")
    let eq := mkIdent (Name.mkSimple s!"k0_dev{N}_eq")
    let rlit := Syntax.mkNumLit (toString r)
    elabCommand (← `(command| @[sl_canon] theorem $nm (c : Dev nD) : (⟨$dv c, $lt c⟩ : Dev nD) = nb c ⟨$rlit, by decide⟩ := Fin.ext ($eq c)))

declare_dev_eqs

/-- The source slice of the reduce-scatter's copy `r` is the slot at the position of the neighbour it goes to. -/
theorem slot_off2 (B : Memref sig .tc .vmem S32x64x256 .bf16) (c : Dev nD) (r : Fin 31)
    (h : ∀ a, (k0_off2 c (BitVec.ofNat 32 (1 + r.val))) a + S1x64x256.size a ≤ S32x64x256.size a)
    (hs : ∀ a, (Rect.unit (s := S32x64x256) (k0_off2 c (BitVec.ofNat 32 (1 + r.val))) S1x64x256.size h).stride a = 1) :
    (B.slice (Rect.unit (s := S32x64x256) (k0_off2 c (BitVec.ofNat 32 (1 + r.val))) S1x64x256.size h) hs).squeeze S64x256 squeezes_S1x64x256_S64x256
      = slotM B (dv (nb c r)) := by
  have e : k0_off2 c (BitVec.ofNat 32 (1 + r.val)) = ![(dv (nb c r)).val, 0, 0] := k0_off2_eq c r
  exact congrArg (fun m => Memref.squeeze m S64x256 squeezes_S1x64x256_S64x256) (Memref.slice_unit_congr B e h (slot_inb _) hs (fun _ => rfl))

/-- The all-gather's source slice is the slot at the device's own position. -/
theorem slot_off3 (B : Memref sig .tc .vmem S32x64x256 .bf16) (c : Dev nD)
    (h : ∀ a, (k0_off3 c) a + S1x64x256.size a ≤ S32x64x256.size a)
    (hs : ∀ a, (Rect.unit (s := S32x64x256) (k0_off3 c) S1x64x256.size h).stride a = 1) :
    (B.slice (Rect.unit (s := S32x64x256) (k0_off3 c) S1x64x256.size h) hs).squeeze S64x256 squeezes_S1x64x256_S64x256
      = slotM B (dv c) := by
  have e : k0_off3 c = ![(dv c).val, 0, 0] := k0_off3_eq c
  exact congrArg (fun m => Memref.squeeze m S64x256 squeezes_S1x64x256_S64x256) (Memref.slice_unit_congr B e h (slot_inb _) hs (fun _ => rfl))

attribute [sl_canon] slot_off3

open Lean Elab Command in
/-- Declares, for r = 0 … 30, `slot_off2` at the literal word r + 1 the body passes the chain. -/
elab "declare_slot_eqs" : command => do
  for r in [0:31] do
    let nm := mkIdent (Name.mkSimple s!"srcSlot{r}_eq")
    let rlit := Syntax.mkNumLit (toString r)
    let wlit := Syntax.mkNumLit (toString (r + 1))
    elabCommand (← `(command| @[sl_canon] theorem $nm (B : Memref sig .tc .vmem S32x64x256 .bf16) (c : Dev nD)
        (h : ∀ a, (k0_off2 c (BitVec.ofNat 32 $wlit)) a + S1x64x256.size a ≤ S32x64x256.size a)
        (hs : ∀ a, (Rect.unit (s := S32x64x256) (k0_off2 c (BitVec.ofNat 32 $wlit)) S1x64x256.size h).stride a = 1) :
        (B.slice (Rect.unit (s := S32x64x256) (k0_off2 c (BitVec.ofNat 32 $wlit)) S1x64x256.size h) hs).squeeze S64x256 squeezes_S1x64x256_S64x256
          = slotM B (dv (nb c ⟨$rlit, by decide⟩)) := slot_off2 B c ⟨$rlit, by decide⟩ h hs))

declare_slot_eqs

/-- info: 'Cert.KernelIdeal.DevEqs.srcSlot30_eq' depends on axioms: [propext, Classical.choice, Quot.sound] -/
#guard_msgs in #print axioms srcSlot30_eq

end Cert.KernelIdeal.DevEqs
-- ==== Proof.Levels.lean ====
/-
The deadlock argument of the thirty-two-device kernel: the level of every cell, that everything a device
owes lies at the level its kind has (barrier units at 1, reduce-scatter receive credits at 2, all-gather
receive credits at 3), and from these the evidence each wait of the body presents: a wait is allowed
at a cell whose level is below everything the waiting device still owes. Staging and send cells sit at
level 0, below every unit owed; the barrier wait comes when only receive credits are owed; a
reduce-scatter receive wait when only all-gather credits are; every later wait when nothing is.
-/
import proofs.«900791_g7700000000000792_dist_gconv1d_cshard_i_b4_s512_c256_v7x_i32_bf16_1_alg».proof.Proof.Proto
import Idealize.ShloMosaic.Lib.Pipeline.Launch

noncomputable section

namespace Cert.KernelIdeal.Levels

open Cert.KernelIdeal Cert.KernelIdeal.Gen Cert.KernelIdeal.Contents Cert.KernelIdeal.Proto
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Which cells have a level, and which -/

/-- Every cell of a TensorCore thread has a level at its one index. -/
theorem L_tc (c : Dev nD) (sm : SemLoc sig) : L ((c : Thread nD τ), sm) = {()} := if_pos rfl
theorem mem_L_tc (c : Dev nD) (sm : SemLoc sig) (u : Unit) : u ∈ L ((c : Thread nD τ), sm) := by
  rw [L_tc]; exact Finset.mem_singleton.mpr rfl

/-- A regular semaphore's cell — the barrier cell is the only one — sits at level 1. -/
theorem lv_reg (t : Thread nD τ) (s : Sem sig) (u : Unit) : lv (t, .reg s) u = 1 := rfl
theorem lv_bar (c : Dev nD) (u : Unit) : lv (bar c) u = 1 := rfl

/-- A transfer cell of the protocol sits at the level of its pool: receive pools at 2 and 3, send pools at 0. -/
theorem lv_own (t : Thread nD τ) (p : Fin 4) (r : Fin 31) (u : Unit) :
    lv (t, .dma (dsem p r)) u = if p.val = 1 then 2 else if p.val = 3 then 3 else 0 := by
  dsimp only [lv]
  rw [if_pos (isOwn_dsem p r), poolOf_dsem]
theorem lv_rsS (c : Dev nD) (r : Fin 31) (u : Unit) : lv (rsS c r) u = 0 := lv_own _ 0 r u
theorem lv_rsR (c : Dev nD) (r : Fin 31) (u : Unit) : lv (rsR c r) u = 2 := lv_own _ 1 r u
theorem lv_agS (c : Dev nD) (r : Fin 31) (u : Unit) : lv (agS c r) u = 0 := lv_own _ 2 r u
theorem lv_agR (c : Dev nD) (r : Fin 31) (u : Unit) : lv (agR c r) u = 3 := lv_own _ 3 r u

/-- The four staging cells, and any transfer cell outside the protocol's, sit at level 0. -/
theorem lv_not_own (t : Thread nD τ) (q : DmaSem sig) (hq : ¬IsOwn q) (u : Unit) : lv (t, .dma q) u = 0 := by
  dsimp only [lv]
  rw [if_neg hq]
theorem lv_stage (t : Thread nD τ) (q : DmaSem sig) (hq : q.val < 4) (u : Unit) : lv (t, .dma q) u = 0 :=
  lv_not_own t q (fun h => by have := h.1; omega) u

/-! ## Everything owed lies above a level -/

/-- Every unit of `O` is owed at a cell that has a level, above `b`. -/
def Above (b : ℕ) (O : CellTallies nD τ sig Unit) : Prop :=
  ∀ (g : GSem nD τ sig) (u : Unit), 0 < O g u → u ∈ L g ∧ b < lv g u

theorem Above.zero (b : ℕ) : Above b (0 : CellTallies nD τ sig Unit) := fun g u h => by
  rw [Pi.zero_apply, Finsupp.zero_apply] at h; exact absurd h (Nat.lt_irrefl 0)

theorem Above.add {b : ℕ} {O₁ O₂ : CellTallies nD τ sig Unit} (h₁ : Above b O₁) (h₂ : Above b O₂) : Above b (O₁ + O₂) :=
  fun g u h => (Pipeline.add_pos_cases h).elim (h₁ g u) (h₂ g u)

theorem Above.mono {b b' : ℕ} {O : CellTallies nD τ sig Unit} (hb : b' ≤ b) (h : Above b O) : Above b' O :=
  fun g u hg => ⟨(h g u hg).1, Nat.lt_of_le_of_lt hb (h g u hg).2⟩

/-- Units at one cell of a TensorCore thread. -/
theorem Above.tallyAt {b : ℕ} (c : Dev nD) (sm : SemLoc sig) (k : ℕ) (hb : b < lv ((c : Thread nD τ), sm) ()) :
    Above b (tallyAt ((c : Thread nD τ), sm) () k) := fun g u h => by
  obtain ⟨rfl, rfl⟩ := Pipeline.tallyAt_pos h
  exact ⟨mem_L_tc c sm (), hb⟩

/-- The barrier units a device owes are above level 0. -/
theorem above_owedSig (c : Dev nD) (n : ℕ) : Above 0 (owedSig c n) := by
  induction n with
  | zero => exact Above.zero 0
  | succ n ih =>
    rw [owedSig_succ]
    exact ih.add (Above.tallyAt (nb c (opAt n)) _ 1 (by rw [lv_reg]; decide))

/-- The reduce-scatter receive credits it owes are above level 1. -/
theorem above_owedRs (c : Dev nD) (n : ℕ) : Above 1 (owedRs c n) := by
  induction n with
  | zero => exact Above.zero 1
  | succ n ih =>
    rw [owedRs_succ]
    exact ih.add (Above.tallyAt (nb c (opAt n)) _ N (by rw [lv_rsR (nb c (opAt n)) (rev (opAt n)) ()]; decide))

/-- The all-gather receive credits it owes are above level 2. -/
theorem above_owedAg (c : Dev nD) (n : ℕ) : Above 2 (owedAg c n) := by
  induction n with
  | zero => exact Above.zero 2
  | succ n ih =>
    rw [owedAg_succ]
    exact ih.add (Above.tallyAt (nb c (opAt n)) _ N (by rw [lv_agR (nb c (opAt n)) (opAt n) ()]; decide))

/-- What a device owes at launch is above level 0. -/
theorem above_O₀ (c : Dev nD) : Above 0 (O₀ c) :=
  (((above_owedAg c 31).mono (by decide)).add ((above_owedRs c 31).mono (by decide))).add (above_owedSig c 31)

/-- Once the signals are sent, what is left is above level 1 … -/
theorem above_afterSig (c : Dev nD) (a b : ℕ) : Above 1 (owedAg c a + owedRs c b) :=
  ((above_owedAg c a).mono (by decide)).add (above_owedRs c b)

/-! ## The waits -/

/-- A wait on a cell at or below level `b`, by a device all of whose owed units are above `b`. -/
theorem mayWait_of_above (c : Dev nD) (s : SemLoc sig) (b : ℕ) (hs : lv ((c : Thread nD τ), s) () ≤ b)
    {O : CellTallies nD τ sig Unit} (hO : Above b O) :
    (levAts L lv : sProp 𝕄) ⊢ MayWait (c : Thread nD τ) s () O :=
  MayOwe.of_cut (L := L) (lev := lv) b
    (fun p hp => by rw [Finset.mem_singleton.mp hp]; exact mem_L_tc c s ())
    (fun g u hg => (hO g u hg).1)
    (fun p hp => by rw [Finset.mem_singleton.mp hp]; exact hs)
    (fun g u hg => (hO g u hg).2)

/-- A device that owes nothing may wait anywhere. -/
theorem mayWait_zero (c : Dev nD) (s : SemLoc sig) :
    (levAts L lv : sProp 𝕄) ⊢ MayWait (c : Thread nD τ) s () 0 := by
  rw [MayWait_zero]; iintro -; iempintro

/-- A staging cell's wait, before the point (everything still owed) or after it (nothing owed). -/
theorem mayWait_stage (c : Dev nD) (q : DmaSem sig) (hq : q.val < 4) (O : CellTallies nD τ sig Unit) (hO : O = O₀ c ∨ O = 0) :
    (levAts L lv : sProp 𝕄) ⊢ MayWait (c : Thread nD τ) (.dma q) () O := by
  rcases hO with rfl | rfl
  · exact mayWait_of_above c _ 0 (Nat.le_of_eq (lv_stage _ q hq ())) (above_O₀ c)
  · exact mayWait_zero c _

/-- The staging cells' waits, for every window, buffer and point. -/
theorem waits (m : Mem F) (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-- The barrier wait: the signals are sent, only receive credits are owed. -/
theorem mayWait_bar (c : Dev nD) (a b : ℕ) :
    (levAts L lv : sProp 𝕄) ⊢ MayWait (c : Thread nD τ) (.reg barS) () (owedAg c a + owedRs c b) :=
  mayWait_of_above c _ 1 (Nat.le_of_eq (lv_reg _ _ ())) (above_afterSig c a b)

/-- The same with the exhausted signals' bracket still standing in the sum. -/
theorem mayWait_bar' (c : Dev nD) (a b : ℕ) :
    (levAts L lv : sProp 𝕄) ⊢ MayWait (c : Thread nD τ) (.reg barS) () (owedAg c a + owedRs c b + owedSig c 0) :=
  mayWait_of_above c _ 1 (Nat.le_of_eq (lv_reg _ _ ())) ((above_afterSig c a b).add (Above.zero 1))

/-- A reduce-scatter receive wait: the reduce-scatter's transfers are sent, only all-gather credits are owed. -/
theorem mayWait_rsR (c : Dev nD) (r : Fin 31) (a : ℕ) :
    (levAts L lv : sProp 𝕄) ⊢ MayWait (c : Thread nD τ) (osem (1, r)) () (owedAg c a) :=
  mayWait_of_above c _ 2 (Nat.le_of_eq (lv_own _ 1 r ())) (above_owedAg c a)

/-- The same with the exhausted brackets still standing in the sum. -/
theorem mayWait_rsR' (c : Dev nD) (r : Fin 31) (a : ℕ) :
    (levAts L lv : sProp 𝕄) ⊢ MayWait (c : Thread nD τ) (osem (1, r)) () (owedAg c a + owedRs c 0) :=
  mayWait_of_above c _ 2 (Nat.le_of_eq (lv_own _ 1 r ())) ((above_owedAg c a).add (Above.zero 2))
theorem mayWait_rsR'' (c : Dev nD) (r : Fin 31) (a : ℕ) :
    (levAts L lv : sProp 𝕄) ⊢ MayWait (c : Thread nD τ) (osem (1, r)) () (owedAg c a + owedRs c 0 + owedSig c 0) :=
  mayWait_of_above c _ 2 (Nat.le_of_eq (lv_own _ 1 r ())) (((above_owedAg c a).add (Above.zero 2)).add (Above.zero 2))

/-- The barrier wait as the body meets it: all thirty-one transfers of each kind still owed. -/
theorem mayWait_bar31 (c : Dev nD) :
    (levAts L lv : sProp 𝕄) ⊢ MayWait (c : Thread nD τ) (.reg barS) () (owedAg c 31 + owedRs c 31) :=
  mayWait_bar c 31 31

/-- A reduce-scatter receive wait as the body meets it, the cell spelt by its semaphore's number. -/
theorem mayWait_rsR31 (c : Dev nD) (r : Fin 31) :
    (levAts L lv : sProp 𝕄) ⊢ MayWait (c : Thread nD τ) (.dma (dsem 1 r)) () (owedAg c 31) :=
  mayWait_rsR c r 31

/-- info: 'Cert.KernelIdeal.Levels.waits' depends on axioms: [propext, Classical.choice, Quot.sound] -/
#guard_msgs in #print axioms waits

/-- info: 'Cert.KernelIdeal.Levels.mayWait_bar' depends on axioms: [propext, Classical.choice, Quot.sound] -/
#guard_msgs in #print axioms mayWait_bar

/-- info: 'Cert.KernelIdeal.Levels.mayWait_rsR' depends on axioms: [propext, Classical.choice, Quot.sound] -/
#guard_msgs in #print axioms mayWait_rsR

end Cert.KernelIdeal.Levels

end
-- ==== Proof.Landing.lean ====
/-
What a transfer into a slot leaves there. Slot `j` of a 32-slot buffer is the unit rectangle at [j, 0, 0] with its
unit axis dropped, so its view places (row, column) at element (j, row, column) of the buffer. A transfer from slot
`s` of a buffer holding `fs` into slot `j` therefore leaves, on slot `j`, the contents `(j, row, column) ↦
fs (s, row, column)`. The reduce-scatter's operation `r` of device `c` lands chunk `c + r + 1` of `c`'s partial
product in slot `31 - r` of device `c + r + 1`, which is where the receive buffer of that device, every slot landed,
holds it (`(c + r + 1) + (31 - r) = c` around the mesh of 32). The all-gather's lands the sender's own slot in the
same slot of the receiver.
-/
import proofs.«900791_g7700000000000792_dist_gconv1d_cshard_i_b4_s512_c256_v7x_i32_bf16_1_alg».proof.Proof.Proto
import Idealize.ShloMosaic.Lib.Pipeline.Value
import Idealize.ShloMosaic.Lib.ValueIdx

noncomputable section

namespace Cert.KernelIdeal.Landing

open Cert.KernelIdeal Cert.KernelIdeal.Gen Cert.KernelIdeal.Contents Cert.KernelIdeal.Proto
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Where a slot's view places its indices -/

/-- [64, 256] read as [1, 64, 256]: (row, column) is (0, row, column). -/
theorem unsqueeze_apply (r : Fin 64) (n : Fin 256) :
    Shape.reshapeEquiv (s := S1x64x256) (s' := S64x256) squeezes_S1x64x256_S64x256.numel_eq (ix2 r n)
      = ix3 (0 : Fin 1) r n :=
  Shape.reshapeEquiv_eq_of_rowMajor _ (by
    show ((⟨3, ![1, 64, 256]⟩ : Shape).rowMajor (ix3 (0 : Fin 1) r n)).val
      = ((⟨2, ![64, 256]⟩ : Shape).rowMajor (ix2 r n)).val
    rw [Shape.rowMajor_val_three, Shape.rowMajor_val_two]
    show (0 * 64 + r.val) * 256 + n.val = r.val * 256 + n.val
    omega)

/-- Slot `j`'s rectangle places (0, row, column) at (j, row, column). -/
theorem slotRect_emb (j : Fin 32) (r : Fin 64) (n : Fin 256) :
    (Rect.unit (s := S32x64x256) ![j.val, 0, 0] S1x64x256.size (slot_inb j)).emb (ix3 (0 : Fin 1) r n) = ix3 j r n := by
  funext a
  apply Fin.ext
  match a with
  | ⟨0, _⟩ => show j.val + 1 * 0 = j.val; omega
  | ⟨1, _⟩ => show 0 + 1 * r.val = r.val; omega
  | ⟨2, _⟩ => show 0 + 1 * n.val = n.val; omega

/-- Slot `j`'s view places (row, column) at element (j, row, column) of the buffer's view. -/
theorem emb_slot (B : Memref sig .tc .vmem S32x64x256 .bf16) (j : Fin 32) (r : Fin 64) (n : Fin 256) :
    (slotM B j).view.emb (ix2 r n) = B.view.emb (ix3 j r n) := by
  show B.view.emb ((Rect.unit (s := S32x64x256) ![j.val, 0, 0] S1x64x256.size (slot_inb j)).emb
      (Shape.reshapeEquiv (s := S1x64x256) (s' := S64x256) squeezes_S1x64x256_S64x256.numel_eq (ix2 r n))) = _
  rw [unsqueeze_apply, slotRect_emb]

/-- Every element under a slot's view is the image of a (row, column). -/
theorem exists_rc_of_mem (B : Memref sig .tc .vmem S32x64x256 .bf16) (j : Fin 32) {i : (slotM B j).view.ty.Idx}
    (hi : i ∈ (slotM B j).view.set) : ∃ (r : Fin 64) (n : Fin 256), (slotM B j).view.emb (ix2 r n) = i := by
  obtain ⟨y, rfl⟩ := View.exists_emb_of_mem_set _ hi
  exact ⟨y 0, y 1, congrArg _ (eq_ix2 y).symm⟩

/-- Around the mesh: `(c + r + 1) + (31 - r) = c`. -/
theorem rot_nb_sl_rev (c : Dev nD) (r : Fin 31) : rot (nb c r) (sl (rev r)) = c := by
  apply Fin.ext
  have hc : c.val < 32 := c.isLt
  have hr := r.isLt
  show ((c.val + r.val + 1) % 32 + (30 - r.val + 1)) % 32 = c.val
  omega

/-! ## What a transfer leaves on a slot -/

/-- A transfer into slot `j` from the same slot of a buffer holding `fs` leaves `fs` on the slot. -/
theorem write_read_same (B : Memref sig .tc .vmem S32x64x256 .bf16) (j : Fin 32)
    (fd fs : (slotM B j).view.ty.Contents (Elt F)) (i : (slotM B j).view.ty.Idx) (hi : i ∈ (slotM B j).view.set) :
    (slotM B j).view.write (Elt F) fd ((slotM B j).view.read (Elt F) fs) Finset.univ i = fs i := by
  obtain ⟨y, rfl⟩ := View.exists_emb_of_mem_set _ hi
  rw [View.write_emb_of_mem _ _ (Finset.mem_univ y), View.read_apply, cast_cast, cast_eq]

/-- The reduce-scatter's operation `r` of device `c`, landed on device `c + r + 1`: the slot holds what that device's
    receive buffer, every slot landed, holds there. -/
theorem rs_landed_apply (m : Mem F) (c : Dev nD) (r : Fin 31) (fd : (slotM rsB (sl (rev r))).view.ty.Contents (Elt F))
    (i : (slotM rsB (sl (rev r))).view.ty.Idx) (hi : i ∈ (slotM rsB (sl (rev r))).view.set) :
    (slotM rsB (sl (rev r))).view.write (Elt F) fd ((slotM srcB (dv (nb c r))).view.read (Elt F) (P m c)) Finset.univ i
      = rsAll (P m) (nb c r) i := by
  obtain ⟨ro, n, rfl⟩ := exists_rc_of_mem rsB (sl (rev r)) hi
  rw [View.write_emb_of_mem _ _ (Finset.mem_univ _), View.read_apply, cast_cast, cast_eq, emb_slot, emb_slot]
  show P m c (ix3 (dv (nb c r)) ro n) = P m (rot (nb c r) (sl (rev r))) (ix3 (nb c r) ro n)
  rw [rot_nb_sl_rev]
  rfl

theorem rs_landed (m : Mem F) (c : Dev nD) (r : Fin 31) (fd : (slotM rsB (sl (rev r))).view.ty.Contents (Elt F)) :
    ((slotM rsB (sl (rev r))).view.loc ((nb c r : Dev nD) : Thread nD τ) ↦[(slotM rsB (sl (rev r))).view.set]{fullShare}
        ((slotM rsB (sl (rev r))).view.write (Elt F) fd ((slotM srcB (dv (nb c r))).view.read (Elt F) (P m c))
          Finset.univ) : sProp 𝕄)
      ⊢ rsRPay m (nb c r) (rev r) := by
  unfold rsRPay
  exact Entails.of_eq (pointsTo_congr fun i hi => rs_landed_apply m c r fd i hi)

/-- The all-gather's operation `r` of device `c`, landed on device `c + r + 1`: slot `c` there holds device `c`'s chunk. -/
theorem ag_landed (m : Mem F) (c : Dev nD) (r : Fin 31) (fd : (slotM agB (dv c)).view.ty.Contents (Elt F)) :
    ((slotM agB (dv c)).view.loc ((nb c r : Dev nD) : Thread nD τ) ↦[(slotM agB (dv c)).view.set]{fullShare}
        ((slotM agB (dv c)).view.write (Elt F) fd ((slotM agB (dv c)).view.read (Elt F) (agAll (P m))) Finset.univ) :
          sProp 𝕄)
      ⊢ agRPay m (nb c r) r := by
  unfold agRPay
  rw [pb_nb]
  exact Entails.of_eq (pointsTo_congr fun i hi => write_read_same agB (dv c) fd (agAll (P m)) i hi)

/-- info: 'Cert.KernelIdeal.Landing.rs_landed' depends on axioms: [propext, Classical.choice, Quot.sound] -/
#guard_msgs in #print axioms rs_landed

/-- info: 'Cert.KernelIdeal.Landing.ag_landed' depends on axioms: [propext, Classical.choice, Quot.sound] -/
#guard_msgs in #print axioms ag_landed

end Cert.KernelIdeal.Landing

end
-- ==== Proof.RsSend.lean ====
/-
The reduce-scatter's send, as one step of a device's program: operation `r` of device `c` copies chunk `c + r + 1` of its
partial product into slot `31 - r` of device `c + r + 1`. The step pays the one duty of the sender's send cell (the chunk
comes back to the sender once it has been read) and the one duty of the receiver's receive cell (the slot, holding what the
receiver's buffer holds there once every slot has landed), takes the receive cell's credit off what the sender owes, and
hands the sender the send cell's credit.
-/
import proofs.«900791_g7700000000000792_dist_gconv1d_cshard_i_b4_s512_c256_v7x_i32_bf16_1_alg».proof.Proof.Proto
import proofs.«900791_g7700000000000792_dist_gconv1d_cshard_i_b4_s512_c256_v7x_i32_bf16_1_alg».proof.Proof.Tables
import proofs.«900791_g7700000000000792_dist_gconv1d_cshard_i_b4_s512_c256_v7x_i32_bf16_1_alg».proof.Proof.Landing
import Idealize.ShloMosaic.Lib.Rounds

noncomputable section

namespace Cert.KernelIdeal.RsSend

open Cert.KernelIdeal Cert.KernelIdeal.Gen Cert.KernelIdeal.Contents Cert.KernelIdeal.Proto
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The chunk sent makes the send cell's payload: it is that payload. -/
theorem pay_rsS (m : Mem F) (c : Dev nD) (r : Fin 31) :
    (((slotM srcB (dv (nb c r))).view.loc (c : Thread nD τ)) ↦[(slotM srcB (dv (nb c r))).view.set]{fullShare} (P m c) : sProp 𝕄)
      ⊢ (sched (F := F) m).payload (rsS c r) 0 0 :=
  Entails.of_eq (Tables.payload_rsS m c r 0 0).symm

/-- The slot as the transfer leaves it makes the receive cell's payload. -/
theorem pay_rsR (m : Mem F) (c : Dev nD) (r : Fin 31)
    (fd : Buf (Elt F) ((slotM rsB (sl (rev r))).view.loc ((nb c r : Dev nD) : Thread nD τ))) :
    (((slotM rsB (sl (rev r))).view.loc ((nb c r : Dev nD) : Thread nD τ)) ↦[(slotM rsB (sl (rev r))).view.set]{fullShare}
        ((slotM rsB (sl (rev r))).view.write (Elt F) fd ((slotM srcB (dv (nb c r))).view.read (Elt F) (P m c)) Finset.univ) : sProp 𝕄)
      ⊢ (sched (F := F) m).payload (rsR (nb c r) (rev r)) 0 0 :=
  (Landing.rs_landed m c r fd).trans (Entails.of_eq (Tables.payload_rsR m (nb c r) (rev r) 0 0).symm)

/-- The send step. -/
theorem rs_send (m : Mem F) (c : Dev nD) (r : Fin 31)
    (fd : Buf (Elt F) ((slotM rsB (sl (rev r))).view.loc ((nb c r : Dev nD) : Thread nD τ)))
    {α : Type} (k : PUnit → Prog (TpuEff nD τ sig (Elt F) Λ₀ .tc) α) (Q : α → sProp 𝕄)
    (O : CellTallies nD τ sig Unit) (W : Waits sig Unit) (κ₁ κ₂ : ℕ)
    (hsc : (slotM rsB (sl (rev r))).view.ref.isScScratch = false)
    (hsrc : (slotM srcB (dv (nb c r))).view.WordExact) (hdst : (slotM rsB (sl (rev r))).view.WordExact)
    (hsem : DmaTarget.Typed .vmem (SemLoc.dma (dsem 1 (rev r)))
      (.remote ((nb c r : Dev nD) : Thread nD τ) (slotM rsB (sl (rev r))) (SemLoc.dma (dsem 0 r)) hsc)) :
    iprop(cellInv ER (sched (F := F) m) κ₁ (rsS c r) ∗ cellInv ER (sched (F := F) m) κ₂ (rsR (nb c r) (rev r))
        ∗ slotPts (F := F) srcB c (dv (nb c r)) fullShare (P m c) ∗ slotPts (F := F) rsB (nb c r) (sl (rev r)) fullShare fd
        ∗ owes (c : Thread nD τ) (O + tallyAt (rsR (nb c r) (rev r)) () N) W
        ∗ dutyTok ER (rsS c r) 0 (0 : Fin 31) ∗ reached ER (rsS c r) 0
        ∗ dutyTok ER (rsR (nb c r) (rev r)) 0 (0 : Fin 31) ∗ reached ER (rsR (nb c r) (rev r)) 0)
      ⊢ iprop(((cred (tallyAt (rsS c r) () N) ∗ owes (c : Thread nD τ) O W)
            -∗ wp frame (wpE defs₀ 𝒱₀ (c : Thread nD τ) none) Set.univ (k ⟨⟩) Q)
          -∗ wp frame (wpE defs₀ 𝒱₀ (c : Thread nD τ) none) Set.univ
              (.op (.enqueueDma (slotM srcB (dv (nb c r)))
                (.remote ((nb c r : Dev nD) : Thread nD τ) (slotM rsB (sl (rev r))) (SemLoc.dma (dsem 0 r)) hsc)
                (SemLoc.dma (dsem 1 (rev r))) hsrc hdst hsem) k) Q) :=
  Rounds.wp_send_pointsTo 𝒱₀ ER (sched (F := F) m) (c : Thread nD τ) none
    (c' := ((nb c r : Dev nD) : Thread nD τ)) (src := slotM srcB (dv (nb c r))) (dst := slotM rsB (sl (rev r)))
    (sS := SemLoc.dma (dsem 0 r)) (sem := SemLoc.dma (dsem 1 (rev r)))
    (q := fullShare) (fs := P m c) (fd := fd) (r₁ := 0) (r₂ := 0) (d₁ := (0 : Fin 31)) (d₂ := (0 : Fin 31)) (κ₁ := κ₁) (κ₂ := κ₂)
    (Tables.mem_duties_own m c 0 r) (Tables.mem_duties_own m (nb c r) 1 (rev r)) () () N (dmaCredit_slot_rs (sl (rev r)))
    (Tables.amount_rsS m c r 0 0) (Tables.amount_rsR m (nb c r) (rev r) 0 0) O rfl
    (pay_rsS m c r) (pay_rsR m c r fd)

/-- info: 'Cert.KernelIdeal.RsSend.rs_send' depends on axioms: [propext, Classical.choice, Quot.sound] -/
#guard_msgs in #print axioms rs_send

end Cert.KernelIdeal.RsSend

end
-- ==== Proof.Steps.lean ====
/-
The two steps a device takes once per operation before it waits: the barrier signal to the neighbour the operation
addresses, and the reduce-scatter's transfer to it. Each is stated once at a symbolic operation, with what the device
owes counted down by the operation's number, and in the curried form in which one line applies it.
-/
import proofs.«900791_g7700000000000792_dist_gconv1d_cshard_i_b4_s512_c256_v7x_i32_bf16_1_alg».proof.Proof.PreA
import proofs.«900791_g7700000000000792_dist_gconv1d_cshard_i_b4_s512_c256_v7x_i32_bf16_1_alg».proof.Proof.Tables
import proofs.«900791_g7700000000000792_dist_gconv1d_cshard_i_b4_s512_c256_v7x_i32_bf16_1_alg».proof.Proof.RsSend

set_option synthInstance.maxSize 4096

noncomputable section

namespace Cert.KernelIdeal.Steps

open Cert.KernelIdeal Cert.KernelIdeal.Gen Cert.KernelIdeal.Contents Cert.KernelIdeal.Proto Cert.KernelIdeal.Tables
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What is owed, counted down -/

/-- With `30 - r` operations left after it, the operation being paid is `r`. -/
theorem opAt_sub (r : Fin 31) : opAt (30 - r.val) = r := Fin.ext (by have := r.isLt; simp only [opAt]; omega)

/-- Before signal `r` the device owes the barrier unit of the neighbour the signal goes to, on top of what it owes after. -/
theorem owed_sig (c : Dev nD) (r : Fin 31) :
    owedAg c 31 + owedRs c 31 + owedSig c (31 - r.val)
      = (owedAg c 31 + owedRs c 31 + owedSig c (30 - r.val)) + tallyAt (bar (nb c r)) () 1 := by
  have h : 31 - r.val = (30 - r.val) + 1 := by have := r.isLt; omega
  rw [h, owedSig_succ, opAt_sub, ← add_assoc]

/-- Before transfer `r` of the reduce-scatter the device owes the receive credit of the cell the transfer credits, on top of
    what it owes after. -/
theorem owed_rs (c : Dev nD) (r : Fin 31) :
    owedAg c 31 + owedRs c (31 - r.val)
      = (owedAg c 31 + owedRs c (30 - r.val)) + tallyAt (rsR (nb c r) (rev r)) () N := by
  have h : 31 - r.val = (30 - r.val) + 1 := by have := r.isLt; omega
  rw [h, owedRs_succ, opAt_sub, ← add_assoc]

/-- With no signal left the signals' bracket is nothing. -/
theorem owes_sig0 (c : Dev nD) (A : CellTallies nD τ sig Unit) (W : Waits sig Unit) :
    (owes (c : Thread nD τ) (A + owedSig c 0) W : sProp 𝕄) ⊢ owes (c : Thread nD τ) A W :=
  Entails.of_eq (by rw [show owedSig c 0 = 0 from rfl, add_zero])
/-- With no transfer of the reduce-scatter left its bracket is nothing. -/
theorem owes_rs0 (c : Dev nD) (A : CellTallies nD τ sig Unit) (W : Waits sig Unit) :
    (owes (c : Thread nD τ) (A + owedRs c 0) W : sProp 𝕄) ⊢ owes (c : Thread nD τ) A W :=
  Entails.of_eq (by rw [show owedRs c 0 = 0 from rfl, add_zero])

/-! ## The barrier signal -/

/-- One barrier signal, operation `r`: the device pays duty `r` of its neighbour's barrier cell with the two slots of its
    own that the neighbour's copies will land in, and owes one unit less. -/
theorem sig_step (m : Mem F) (c : Dev nD) (r : Fin 31) (κ : ℕ)
    (f : Buf (Elt F) ((slotM rsB (sl r)).view.loc (c : Thread nD τ))) (g : Buf (Elt F) ((slotM agB (dv (nb c r))).view.loc (c : Thread nD τ)))
    {α : Type} (k : PUnit → Prog (TpuEff nD τ sig (Elt F) Λ₀ .tc) α) (Q : α → sProp 𝕄)
    (O : CellTallies nD τ sig Unit) (W : Waits sig Unit) :
    iprop(cellInv ER (sched (F := F) m) κ (bar (nb c r)) ∗ owes (c : Thread nD τ) (O + tallyAt (bar (nb c r)) () 1) W
        ∗ dutyTok ER (bar (nb c r)) 0 r
        ∗ slotPts (F := F) rsB c (sl r) fullShare f ∗ slotPts (F := F) agB c (dv (nb c r)) fullShare g
        ∗ reached ER (rsR c r) 0 ∗ reached ER (agR c (rev r)) 0
        ∗ reached ER (bar (nb c r)) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal ((nb c r : Dev nD) : Thread nD τ) barS 1) k) Q) := by
  iintro ⟨#HI, HO, Htok, Hs, Hg, #Hr1, #Hr2, #Hr⟩
  iapply (Rounds.wp_signal 𝒱₀ ER (sched (F := F) m) (c : Thread nD τ) none (dst := ((nb c r : Dev nD) : Thread nD τ)) (sem := barS) (r := 0) (d := r) (k' := 1)
    (mem_duties_bar m (nb c r) r) (amount_bar m (nb c r) 0 r) () O rfl) $$ [HO Htok Hs Hg]
  isplitr; · iexact HI
  isplitl [HO]; · iexact HO
  isplitl [Htok]; · iexact Htok
  isplitl [Hs Hg]
  · rw [payload_bar_nb]
    isplitl [Hs]; · iexists f; iexact Hs
    isplitl [Hg]; · iexists g; iexact Hg
    isplitr; · iexact Hr1
    iexact Hr2
  iexact Hr

/-- The same, curried, with what is owed counted down by the operation's number. -/
theorem sig_step' (m : Mem F) (c : Dev nD) (r : Fin 31) (κ : ℕ)
    (f : Buf (Elt F) ((slotM rsB (sl r)).view.loc (c : Thread nD τ))) (g : Buf (Elt F) ((slotM agB (dv (nb c r))).view.loc (c : Thread nD τ)))
    {α : Type} (k : PUnit → Prog (TpuEff nD τ sig (Elt F) Λ₀ .tc) α) (Q : α → sProp 𝕄) (W : Waits sig Unit) :
    ⊢ (iprop(cellInv ER (sched (F := F) m) κ (bar (nb c r))
        -∗ owes (c : Thread nD τ) (owedAg c 31 + owedRs c 31 + owedSig c (31 - r.val)) W
        -∗ dutyTok ER (bar (nb c r)) 0 r
        -∗ slotPts (F := F) rsB c (sl r) fullShare f -∗ slotPts (F := F) agB c (dv (nb c r)) fullShare g
        -∗ reached ER (rsR c r) 0 -∗ reached ER (agR c (rev r)) 0 -∗ reached ER (bar (nb c r)) 0
        -∗ (owes (c : Thread nD τ) (owedAg c 31 + owedRs c 31 + owedSig c (30 - r.val)) W -∗ wp frame (wpE (defs₀ (F := F)) 𝒱₀ (c : Thread nD τ) none) Set.univ (k ⟨⟩) Q)
        -∗ wp frame (wpE (defs₀ (F := F)) 𝒱₀ (c : Thread nD τ) none) Set.univ (.op (.semSignal ((nb c r : Dev nD) : Thread nD τ) barS 1) k) Q) : sProp 𝕄) := by
  rw [owed_sig c r]
  iintro HI HO Htok Hs Hg Hr1 Hr2 Hr Hk
  iapply (sig_step m c r κ f g k Q (owedAg c 31 + owedRs c 31 + owedSig c (30 - r.val)) W) $$ [HI HO Htok Hs Hg Hr1 Hr2 Hr] [Hk]
  · isplitl [HI]; · iexact HI
    isplitl [HO]; · iexact HO
    isplitl [Htok]; · iexact Htok
    isplitl [Hs]; · iexact Hs
    isplitl [Hg]; · iexact Hg
    isplitl [Hr1]; · iexact Hr1
    isplitl [Hr2]; · iexact Hr2
    iexact Hr
  · iexact Hk

/-! ## The reduce-scatter's transfer -/

/-- Transfer `r` of the reduce-scatter, curried, with what is owed counted down by the operation's number; the slot of the
    neighbour it lands in is held at whatever it contains. -/
theorem rs_send' (m : Mem F) (c : Dev nD) (r : Fin 31)
    {α : Type} (k : PUnit → Prog (TpuEff nD τ sig (Elt F) Λ₀ .tc) α) (Q : α → sProp 𝕄) (W : Waits sig Unit) (κ₁ κ₂ : ℕ)
    (hsc : (slotM rsB (sl (rev r))).view.ref.isScScratch = false)
    (hsrc : (slotM srcB (dv (nb c r))).view.WordExact) (hdst : (slotM rsB (sl (rev r))).view.WordExact)
    (hsem : DmaTarget.Typed .vmem (SemLoc.dma (dsem 1 (rev r)))
      (.remote ((nb c r : Dev nD) : Thread nD τ) (slotM rsB (sl (rev r))) (SemLoc.dma (dsem 0 r)) hsc)) :
    ⊢ (iprop(cellInv ER (sched (F := F) m) κ₁ (rsS c r) -∗ cellInv ER (sched (F := F) m) κ₂ (rsR (nb c r) (rev r))
        -∗ slotPts (F := F) srcB c (dv (nb c r)) fullShare (P m c)
        -∗ (∃ fd, slotPts (F := F) rsB (nb c r) (sl (rev r)) fullShare fd)
        -∗ owes (c : Thread nD τ) (owedAg c 31 + owedRs c (31 - r.val)) W
        -∗ dutyTok ER (rsS c r) 0 (0 : Fin 31) -∗ reached ER (rsS c r) 0
        -∗ dutyTok ER (rsR (nb c r) (rev r)) 0 (0 : Fin 31) -∗ reached ER (rsR (nb c r) (rev r)) 0
        -∗ ((cred (tallyAt (rsS c r) () N) ∗ owes (c : Thread nD τ) (owedAg c 31 + owedRs c (30 - r.val)) W) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (slotM srcB (dv (nb c r)))
              (.remote ((nb c r : Dev nD) : Thread nD τ) (slotM rsB (sl (rev r))) (SemLoc.dma (dsem 0 r)) hsc)
              (SemLoc.dma (dsem 1 (rev r))) hsrc hdst hsem) k) Q) : sProp 𝕄) := by
  rw [owed_rs c r]
  iintro I1 I2 Hsrc ⟨%fd, Hdst⟩ HO T1 R1 T2 R2 Hk
  iapply (RsSend.rs_send m c r fd k Q (owedAg c 31 + owedRs c (30 - r.val)) W κ₁ κ₂ hsc hsrc hdst hsem) $$ [I1 I2 Hsrc Hdst HO T1 R1 T2 R2] [Hk]
  · isplitl [I1]; · iexact I1
    isplitl [I2]; · iexact I2
    isplitl [Hsrc]; · iexact Hsrc
    isplitl [Hdst]; · iexact Hdst
    isplitl [HO]; · iexact HO
    isplitl [T1]; · iexact T1
    isplitl [R1]; · iexact R1
    isplitl [T2]; · iexact T2
    iexact R2
  · iexact Hk

/-- info: 'Cert.KernelIdeal.Steps.sig_step'' depends on axioms: [propext, Classical.choice, Quot.sound] -/
#guard_msgs in #print axioms sig_step'

/-- info: 'Cert.KernelIdeal.Steps.rs_send'' depends on axioms: [propext, Classical.choice, Quot.sound] -/
#guard_msgs in #print axioms rs_send'

end Cert.KernelIdeal.Steps

end
-- ==== Proof.BarWait.lean ====
/-
The barrier wait. A device waits for the 31 units the other devices signalled; it consumes round 0 of its barrier cell
whole and takes the 31 payloads: of each device it will write into, the reduce-scatter slot and the all-gather slot its two
transfers land in. The payload of duty r comes from the device r + 1 places behind, which is the device the waiter's
operation 30 - r addresses: the payloads are re-indexed by the waiter's own operations.
-/
import proofs.«900791_g7700000000000792_dist_gconv1d_cshard_i_b4_s512_c256_v7x_i32_bf16_1_alg».proof.Proof.Tables
import proofs.«900791_g7700000000000792_dist_gconv1d_cshard_i_b4_s512_c256_v7x_i32_bf16_1_alg».proof.Proof.Levels
import proofs.«900791_g7700000000000792_dist_gconv1d_cshard_i_b4_s512_c256_v7x_i32_bf16_1_alg».proof.Proof.PreA

noncomputable section

namespace Cert.KernelIdeal.BarWait

open Cert.KernelIdeal Cert.KernelIdeal.Gen Cert.KernelIdeal.Contents Cert.KernelIdeal.Proto Cert.KernelIdeal.Tables
open Cert.KernelIdeal.Levels Cert.KernelIdeal.PreA
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The device whose operation `30 - r` addresses `c` is the device `c`'s operation `r` addresses. -/
theorem pb_rev (c : Dev nD) (r : Fin 31) : pb c (rev r) = nb c r := by rw [pb_eq_nb_rev, rev_rev]

/-- A family over the operations may be read in the opposite order. -/
theorem bigSep_rev (Φ : Fin 31 → sProp 𝕄) : bigSep Finset.univ Φ = bigSep Finset.univ (fun r => Φ (rev r)) :=
  bigSep_univ_equiv ⟨rev, rev, rev_rev, rev_rev⟩ Φ

theorem fam_rs (c : Dev nD) :
    (fun r : Fin 31 => (iprop(∃ f, slotPts (F := F) rsB (pb c (rev r)) (sl (rev r)) fullShare f) : sProp 𝕄))
      = fun r : Fin 31 => iprop(∃ f, slotPts (F := F) rsB (nb c r) (sl (rev r)) fullShare f) := by
  funext r; rw [pb_rev]

theorem fam_ag (c : Dev nD) :
    (fun r : Fin 31 => (iprop(∃ f, slotPts (F := F) agB (pb c (rev r)) (dv c) fullShare f) : sProp 𝕄))
      = fun r : Fin 31 => iprop(∃ f, slotPts (F := F) agB (nb c r) (dv c) fullShare f) := by
  funext r; rw [pb_rev]

/-- The 31 payloads of the barrier round, by the waiter's own operations: the slot of `nb c r` its reduce-scatter
    transfer `r` lands in, and the slot of `nb c r` its all-gather transfer lands in. -/
theorem barPay_split (c : Dev nD) :
    bigSep Finset.univ (fun r : Fin 31 => barPay (F := F) c r)
      ⊢ (iprop(chain31 (fun r : Fin 31 => iprop(∃ f, slotPts (F := F) rsB (nb c r) (sl (rev r)) fullShare f))
          ∗ bigSep Finset.univ (fun r : Fin 31 => iprop(∃ f, slotPts (F := F) agB (nb c r) (dv c) fullShare f))) : sProp 𝕄) := by
  unfold barPay
  rw [bigSep_sep', bigSep_sep', bigSep_sep']
  iintro ⟨HA, HB, -, -⟩
  isplitl [HA]
  · rw [← chain31_eq, ← fam_rs c]
    iapply (Entails.of_eq (bigSep_rev (fun r : Fin 31 => (iprop(∃ f, slotPts (F := F) rsB (pb c r) (sl r) fullShare f) : sProp 𝕄))))
    iexact HA
  · rw [← fam_ag c]
    iapply (Entails.of_eq (bigSep_rev (fun r : Fin 31 => (iprop(∃ f, slotPts (F := F) agB (pb c r) (dv c) fullShare f) : sProp 𝕄))))
    iexact HB

/-- The barrier wait of 31 units, while the device still owes all its transfers' receive credits. -/
theorem bar_wait (m : Mem F) (c : Dev nD) (κ : ℕ) (W : Waits sig Unit) {α : Type}
    (k : PUnit → Prog (TpuEff nD τ sig (Elt F) Λ₀ .tc) α) (Q : α → sProp 𝕄) :
    iprop(cellInv ER (sched (F := F) m) κ (bar c) ∗ cred (tallyAt (bar c) () 31)
        ∗ owes (c : Thread nD τ) (owedAg c 31 + owedRs c 31) W ∗ levAts L lv ∗ atPos ER (bar c) 0 ∅ 0)
      ⊢ (iprop(((owes (c : Thread nD τ) (owedAg c 31 + owedRs c 31) (insert (SemLoc.reg barS, ()) W)
              ∗ atPos ER (bar c) 1 ∅ 0 ∗ reached ER (bar c) 1
              ∗ chain31 (fun r : Fin 31 => iprop(∃ f, slotPts (F := F) rsB (nb c r) (sl (rev r)) fullShare f))
              ∗ bigSep Finset.univ (fun r : Fin 31 => iprop(∃ f, slotPts (F := F) agB (nb c r) (dv c) fullShare f)))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 31) k) Q) : sProp 𝕄) := by
  iintro ⟨#HI, Hc, HO, #Hlev, Hat⟩ Hk
  iapply (Rounds.wp_wait_rest_token 𝒱₀ ER (sched (F := F) m) (c : Thread nD τ) none (wpE_semWait_eq 𝒱₀ (c : Thread nD τ) none Set.univ)
    (Set.mem_univ κ) () ((Nat.zero_add 31).trans (expect_bar m c).symm)) $$ [Hc HO Hat]
  · isplitr; · iexact HI
    isplitl [Hc]; · iexact Hc
    isplitl [HO]; · iexact HO
    isplitr; · iapply (mayWait_bar31 c); iexact Hlev
    iexact Hat
  iintro ⟨HO, Hat, Hr, Hpay⟩
  iapply Hk
  isplitl [HO]; · iexact HO
  isplitl [Hat]; · iexact Hat
  isplitl [Hr]; · iexact Hr
  iapply (barPay_split c)
  iapply (Entails.of_eq (rest_bar m c))
  iexact Hpay

/-- The same with the amount as the program spells it, a word's value equal to 31. -/
theorem bar_wait_of_eq (m : Mem F) (c : Dev nD) (κ : ℕ) (W : Waits sig Unit) {α : Type}
    (k : PUnit → Prog (TpuEff nD τ sig (Elt F) Λ₀ .tc) α) (Q : α → sProp 𝕄) (n : ℕ) (hn : n = 31) :
    iprop(cellInv ER (sched (F := F) m) κ (bar c) ∗ cred (tallyAt (bar c) () 31)
        ∗ owes (c : Thread nD τ) (owedAg c 31 + owedRs c 31) W ∗ levAts L lv ∗ atPos ER (bar c) 0 ∅ 0)
      ⊢ (iprop(((owes (c : Thread nD τ) (owedAg c 31 + owedRs c 31) (insert (SemLoc.reg barS, ()) W)
              ∗ atPos ER (bar c) 1 ∅ 0 ∗ reached ER (bar c) 1
              ∗ chain31 (fun r : Fin 31 => iprop(∃ f, slotPts (F := F) rsB (nb c r) (sl (rev r)) fullShare f))
              ∗ bigSep Finset.univ (fun r : Fin 31 => iprop(∃ f, slotPts (F := F) agB (nb c r) (dv c) fullShare f)))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS n) k) Q) : sProp 𝕄) := by
  subst hn; exact bar_wait m c κ W k Q

/-- info: 'Cert.KernelIdeal.BarWait.bar_wait' depends on axioms: [propext, Classical.choice, Quot.sound] -/
#guard_msgs in #print axioms bar_wait

end Cert.KernelIdeal.BarWait

end
-- ==== Proof.Rot.lean ====
/-
The thirty-two positions of the ring seen from one device: the device's own position, and the thirty-one others,
listed by the operation that addresses them. The others are the positions of the devices the device's operations
address, or of the devices whose operations address it; and, for the slots of a receive buffer, slot 0 and the
slots of the thirty-one operations. Each listing runs over every position but the first-named exactly once, so a
separating conjunction over all thirty-two positions is that position's conjunct and the thirty-one others'.
-/
import proofs.«900791_g7700000000000792_dist_gconv1d_cshard_i_b4_s512_c256_v7x_i32_bf16_1_alg».proof.Proof.Proto

noncomputable section

namespace Cert.KernelIdeal.Rot

open Idealize.ShloMosaic Cert.KernelIdeal Cert.KernelIdeal.Proto
open Idealize.SL Idealize.SL.RA Idealize.SL.BI
open scoped Idealize.SL.BI
open Idealize.SL.BI.BIBase Idealize.SL.BI.Laws Idealize.SL.ProofMode

/-! ## The listings of the other positions -/

theorem dv_inj {c c' : Dev nD} (h : dv c = dv c') : c = c' := Fin.ext (congrArg Fin.val h)

/-- The positions of the devices that device `c`'s operations address. -/
def nbSlot (c : Dev nD) : Fin 31 ↪ Fin 32 :=
  ⟨fun r => dv (nb c r), fun r r' h => nb_inj_op c (dv_inj h)⟩
/-- The positions of the devices whose operations address device `c`. -/
def pbSlot (c : Dev nD) : Fin 31 ↪ Fin 32 :=
  ⟨fun r => dv (pb c r), fun r r' h => by
    have h' : nb c (rev r) = nb c (rev r') := by rw [nb_rev_eq_pb, nb_rev_eq_pb]; exact dv_inj h
    have := congrArg rev (nb_inj_op c h')
    rwa [rev_rev, rev_rev] at this⟩
/-- The slots of the thirty-one operations: every slot but slot 0. -/
def slSlot : Fin 31 ↪ Fin 32 :=
  ⟨sl, fun r r' h => Fin.ext (by have := congrArg Fin.val h; simp only [sl] at this; omega)⟩

theorem nbSlot_apply (c : Dev nD) (r : Fin 31) : nbSlot c r = dv (nb c r) := rfl
theorem pbSlot_apply (c : Dev nD) (r : Fin 31) : pbSlot c r = dv (pb c r) := rfl
theorem slSlot_apply (r : Fin 31) : slSlot r = sl r := rfl

theorem nbSlot_ne (c : Dev nD) (r : Fin 31) : nbSlot c r ≠ dv c := fun h => nb_ne_self c r (dv_inj h)
theorem pbSlot_ne (c : Dev nD) (r : Fin 31) : pbSlot c r ≠ dv c := fun h => by
  have h' : pb c r = c := dv_inj h
  rw [pb_eq_nb_rev] at h'
  exact nb_ne_self c (rev r) h'
theorem slSlot_ne (r : Fin 31) : slSlot r ≠ (0 : Fin 32) := fun h => by
  have := congrArg Fin.val h; simp only [slSlot_apply, sl] at this; omega

/-- Thirty-one distinct positions, none of them `j`, are all the positions but `j`. -/
theorem erase_eq_map (j : Fin 32) (σ : Fin 31 ↪ Fin 32) (hne : ∀ r, σ r ≠ j) :
    (Finset.univ : Finset (Fin 32)).erase j = Finset.univ.map σ := by
  symm
  apply Finset.eq_of_subset_of_card_le
  · intro i hi
    obtain ⟨r, -, rfl⟩ := Finset.mem_map.mp hi
    exact Finset.mem_erase.mpr ⟨hne r, Finset.mem_univ _⟩
  · rw [Finset.card_map, Finset.card_erase_of_mem (Finset.mem_univ _), Finset.card_univ, Finset.card_univ,
      Fintype.card_fin, Fintype.card_fin]

/-! ## A conjunction over the thirty-two positions, from one of them -/

variable {M : Type} [URA M]

/-- The conjunct at `j` and those at thirty-one distinct other positions. -/
theorem bigSep_around (j : Fin 32) (σ : Fin 31 ↪ Fin 32) (hne : ∀ r, σ r ≠ j) (Φ : Fin 32 → sProp M) :
    bigSep Finset.univ Φ = iprop(Φ j ∗ bigSep Finset.univ (fun r : Fin 31 => Φ (σ r))) := by
  rw [bigSep_univ_split j, erase_eq_map j σ hne, bigSep_map]
  rfl

/-- From device `c`: its own position, and the positions of the devices its operations address. -/
theorem bigSep_rot (c : Dev nD) (Φ : Fin 32 → sProp M) :
    bigSep Finset.univ Φ = iprop(Φ (dv c) ∗ bigSep Finset.univ (fun r : Fin 31 => Φ (dv (nb c r)))) :=
  bigSep_around (dv c) (nbSlot c) (nbSlot_ne c) Φ

/-- From device `c`: its own position, and the positions of the devices whose operations address it. -/
theorem bigSep_pb (c : Dev nD) (Φ : Fin 32 → sProp M) :
    bigSep Finset.univ Φ = iprop(Φ (dv c) ∗ bigSep Finset.univ (fun r : Fin 31 => Φ (dv (pb c r)))) :=
  bigSep_around (dv c) (pbSlot c) (pbSlot_ne c) Φ

/-- Slot 0 and the slots of the thirty-one operations. -/
theorem bigSep_sl (Φ : Fin 32 → sProp M) :
    bigSep Finset.univ Φ = iprop(Φ 0 ∗ bigSep Finset.univ (fun r : Fin 31 => Φ (sl r))) :=
  bigSep_around 0 slSlot slSlot_ne Φ

/-- info: 'Cert.KernelIdeal.Rot.bigSep_rot' depends on axioms: [propext, Classical.choice, Quot.sound] -/
#guard_msgs in #print axioms bigSep_rot

/-- info: 'Cert.KernelIdeal.Rot.bigSep_pb' depends on axioms: [propext, Classical.choice, Quot.sound] -/
#guard_msgs in #print axioms bigSep_pb

/-- info: 'Cert.KernelIdeal.Rot.bigSep_sl' depends on axioms: [propext, Classical.choice, Quot.sound] -/
#guard_msgs in #print axioms bigSep_sl

end Cert.KernelIdeal.Rot

end
-- ==== Proof.SrcSplit.lean ====
/-
The partial-product buffer before the reduce-scatter's sends: held whole, it is the slot at the device's own position
and the thirty-one slots at the positions of the devices its operations address, one after the other in the order the
operations take them.
-/
import proofs.«900791_g7700000000000792_dist_gconv1d_cshard_i_b4_s512_c256_v7x_i32_bf16_1_alg».proof.Proof.PreA
import proofs.«900791_g7700000000000792_dist_gconv1d_cshard_i_b4_s512_c256_v7x_i32_bf16_1_alg».proof.Proof.Slots
import proofs.«900791_g7700000000000792_dist_gconv1d_cshard_i_b4_s512_c256_v7x_i32_bf16_1_alg».proof.Proof.Rot

noncomputable section

namespace Cert.KernelIdeal.SrcSplit

open Cert.KernelIdeal Cert.KernelIdeal.Gen Cert.KernelIdeal.Contents Cert.KernelIdeal.Proto
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The whole buffer is its own slot and the slots of the devices its operations address, in the operations' order. -/
theorem src_split (c : Dev nD) (f : Buf (Elt F) (srcB.view.loc (c : Thread nD τ))) :
    (srcB.view.loc (c : Thread nD τ) ↦{fullShare} f : sProp 𝕄)
      ⊢ iprop(slotPts srcB c (dv c) fullShare f ∗ PreA.chain31 (fun r => slotPts srcB c (dv (nb c r)) fullShare f)) := by
  have e : (srcB.view.loc (c : Thread nD τ) ↦{fullShare} f : sProp 𝕄)
      = (srcB.view.loc (c : Thread nD τ) ↦[srcB.view.set]{fullShare} f) := by
    rw [show srcB.view.set = Finset.univ from View.set_whole _]
  rw [e, Slots.pointsTo_slots srcB c fullShare f, Rot.bigSep_rot c, PreA.chain31_eq]

/-- info: 'Cert.KernelIdeal.SrcSplit.src_split' depends on axioms: [propext, Classical.choice, Quot.sound] -/
#guard_msgs in #print axioms src_split

end Cert.KernelIdeal.SrcSplit

end
-- ==== Proof.Stores.lean ====
/-
What the body's two stores before the barrier wait leave. The first writes the device's partial product over the whole
of its buffer, through the rectangle of the buffer's own extents at zero offsets: the buffer then holds that vector. The
second copies the device's own chunk (slot `c` of the partial product, loaded as [1, 64, 256] and stored back through two
shape casts that change nothing) into slot 0 of the reduce-scatter's receive buffer: slot 0 then holds chunk `c` of the
device's own partial product, which is what the receive buffer with every slot landed holds there (`c + 0 = c`).
-/
import proofs.«900791_g7700000000000792_dist_gconv1d_cshard_i_b4_s512_c256_v7x_i32_bf16_1_alg».proof.Proof.Proto
import proofs.«900791_g7700000000000792_dist_gconv1d_cshard_i_b4_s512_c256_v7x_i32_bf16_1_alg».proof.Proof.Landing
import Idealize.ShloMosaic.Lib.Pipeline.Value
import Idealize.ShloMosaic.Lib.ValueIdx

noncomputable section

namespace Cert.KernelIdeal.Stores

open Cert.KernelIdeal Cert.KernelIdeal.Gen Cert.KernelIdeal.Contents Cert.KernelIdeal.Proto Cert.KernelIdeal.Landing
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Accesses at zero offsets -/

theorem zeros3 : (![0, 0, 0] : Fin 3 → Nat) = fun _ => 0 := by
  funext a
  match a with
  | ⟨0, _⟩ => rfl
  | ⟨1, _⟩ => rfl
  | ⟨2, _⟩ => rfl

theorem zeros2 : (![0, 0] : Fin 2 → Nat) = fun _ => 0 := by
  funext a
  match a with
  | ⟨0, _⟩ => rfl
  | ⟨1, _⟩ => rfl

/-- A load of the whole input staging buffer reads its contents; likewise the taps' and the projection's. -/
theorem load_stg0 (f : cc0_stg0_0.ty.Contents (Elt F)) :
    (Memref.whole cc0_stg0_0).view.readAt (Elt F)
      (Rect.unit (s := S4x512x256) ![0, 0, 0] S4x512x256.size inb_S4x512x256_S4x512x256_0_0_0).toLoadRect f = f :=
  Memref.readAt_unit_zero (Elt F) cc0_stg0_0 zeros3 _ f
theorem load_stg1 (f : cc0_stg1_0.ty.Contents (Elt F)) :
    (Memref.whole cc0_stg1_0).view.readAt (Elt F)
      (Rect.unit (s := S4x256) ![0, 0] S4x256.size inb_S4x256_S4x256_0_0).toLoadRect f = f :=
  Memref.readAt_unit_zero (Elt F) cc0_stg1_0 zeros2 _ f
theorem load_stg2 (f : cc0_stg2_0.ty.Contents (Elt F)) :
    (Memref.whole cc0_stg2_0).view.readAt (Elt F)
      (Rect.unit (s := S256x256) ![0, 0] S256x256.size inb_S256x256_S256x256_0_0).toLoadRect f = f :=
  Memref.readAt_unit_zero (Elt F) cc0_stg2_0 zeros2 _ f

/-- A store over the whole of the partial product's buffer leaves the vector stored, whatever was there. -/
theorem store_src (f0 v : cc0_scratch0.ty.Contents (Elt F)) :
    (srcB.access (Rect.unit (s := S32x64x256) ![0, 0, 0] S32x64x256.size inb_S32x64x256_S32x64x256_0_0_0)).write (Elt F) f0 v
      Finset.univ = v :=
  Memref.write_access_unit_zero_univ (Elt F) cc0_scratch0 zeros3 _ f0 v

/-- The first store, of the product computed from the three staged blocks: the buffer holds the device's partial product. -/
theorem src_stored (m : Mem F) (c : Dev nD) (f0 : cc0_scratch0.ty.Contents (Elt F)) :
    (srcB.view.loc (c : Thread nD τ) ↦{fullShare}
        ((srcB.access (Rect.unit (s := S32x64x256) ![0, 0, 0] S32x64x256.size inb_S32x64x256_S32x64x256_0_0_0)).write (Elt F) f0
          (k0_pay5 (k0_pay3 (iblk m c 0 t0_0) (iblk m c 1 t0_0)) (k0_pay4 (iblk m c 0 t0_0) (iblk m c 1 t0_0)) (iblk m c 2 t0_0))
          Finset.univ) : sProp 𝕄)
      ⊢ srcB.view.loc (c : Thread nD τ) ↦{fullShare} P m c := by
  rw [store_src]
  exact .rfl

/-! ## The device's own chunk into slot 0 -/

/-- The two shape casts between the load and the store change nothing: [1, 64, 256] → [64, 256] → [1, 64, 256]. -/
theorem pay6_apply (v : Vec F S1x64x256 .bf16) (r : Fin 64) (n : Fin 256) :
    k0_pay6 v (ix3 (0 : Fin 1) r n) = v (ix3 (0 : Fin 1) r n) := by
  unfold k0_pay6
  refine (shapeCast_apply _ _ (ix3 (0 : Fin 1) r n) (ix2 r n) ?_).trans ?_
  · show ((⟨2, ![64, 256]⟩ : Shape).rowMajor (ix2 r n)).val = ((⟨3, ![1, 64, 256]⟩ : Shape).rowMajor (ix3 (0 : Fin 1) r n)).val
    rw [Shape.rowMajor_val_three, Shape.rowMajor_val_two]
    show r.val * 256 + n.val = (0 * 64 + r.val) * 256 + n.val
    omega
  · refine shapeCast_apply _ _ (ix2 r n) (ix3 (0 : Fin 1) r n) ?_
    show ((⟨3, ![1, 64, 256]⟩ : Shape).rowMajor (ix3 (0 : Fin 1) r n)).val = ((⟨2, ![64, 256]⟩ : Shape).rowMajor (ix2 r n)).val
    rw [Shape.rowMajor_val_three, Shape.rowMajor_val_two]
    show (0 * 64 + r.val) * 256 + n.val = r.val * 256 + n.val
    omega

/-- The load of slot `c` of the partial product's buffer, at (0, row, column): element (c, row, column). -/
theorem load_own_apply (c : Dev nD) (f : cc0_scratch0.ty.Contents (Elt F)) (r : Fin 64) (n : Fin 256) :
    srcB.view.readAt (Elt F) (Rect.unit (s := S32x64x256) (k0_off1 c) S1x64x256.size (k0_off1_inb c)).toLoadRect f
        (ix3 (0 : Fin 1) r n) = f (ix3 c r n) := by
  show f ((Rect.unit (s := S32x64x256) (k0_off1 c) S1x64x256.size (k0_off1_inb c)).idx (ix3 (0 : Fin 1) r n)) = _
  congr 1
  funext a
  apply Fin.ext
  show k0_off1 c a + 1 * (ix3 (0 : Fin 1) r n a).val = (ix3 c r n a).val
  rw [k0_off1_eq]
  match a with
  | ⟨0, _⟩ => show c.val + 1 * 0 = c.val; omega
  | ⟨1, _⟩ => show 0 + 1 * r.val = r.val; omega
  | ⟨2, _⟩ => show 0 + 1 * n.val = n.val; omega

/-- Slot 0's view and the store's access at [0, 0, 0] place (row, column) at the same element. -/
theorem access0_emb (r : Fin 64) (n : Fin 256) :
    (rsB.access (Rect.unit (s := S32x64x256) ![0, 0, 0] S1x64x256.size inb_S32x64x256_S1x64x256_0_0_0)).emb (ix3 (0 : Fin 1) r n)
      = (slotM rsB 0).view.emb (ix2 r n) := by
  rw [emb_slot]
  exact slotRect_emb 0 r n

/-- The second store: on slot 0 it leaves what the receive buffer, every slot landed, holds there. -/
theorem rs0_store_apply (m : Mem F) (c : Dev nD) (f1 : cc0_scratch1.ty.Contents (Elt F)) (i : (slotM rsB 0).view.ty.Idx)
    (hi : i ∈ (slotM rsB 0).view.set) :
    (rsB.access (Rect.unit (s := S32x64x256) ![0, 0, 0] S1x64x256.size inb_S32x64x256_S1x64x256_0_0_0)).write (Elt F) f1
        (k0_pay6 (srcB.view.readAt (Elt F) (Rect.unit (s := S32x64x256) (k0_off1 c) S1x64x256.size (k0_off1_inb c)).toLoadRect
          (P m c))) Finset.univ i
      = rsAll (P m) c i := by
  obtain ⟨r, n, rfl⟩ := exists_rc_of_mem rsB 0 hi
  rw [← access0_emb, View.write_emb_of_mem _ _ (Finset.mem_univ _), pay6_apply, load_own_apply, access0_emb, emb_slot]
  show P m c (ix3 c r n) = P m (rot c 0) (ix3 c r n)
  have h0 : rot c (0 : Fin 32) = c := Fin.ext (by show (c.val + 0) % 32 = c.val; have hc : c.val < 32 := c.isLt; omega)
  rw [h0]

theorem rs0_stored (m : Mem F) (c : Dev nD) (f1 : cc0_scratch1.ty.Contents (Elt F)) :
    (slotPts rsB c 0 fullShare
        ((rsB.access (Rect.unit (s := S32x64x256) ![0, 0, 0] S1x64x256.size inb_S32x64x256_S1x64x256_0_0_0)).write (Elt F) f1
          (k0_pay6 (srcB.view.readAt (Elt F) (Rect.unit (s := S32x64x256) (k0_off1 c) S1x64x256.size (k0_off1_inb c)).toLoadRect
            (P m c))) Finset.univ) : sProp 𝕄)
      ⊢ slotPts rsB c 0 fullShare (rsAll (P m) c) :=
  Entails.of_eq (pointsTo_congr fun i hi => rs0_store_apply m c f1 i hi)

/-! ## The first store as the run lists it -/

/-- One listed store over the whole buffer leaves the vector stored, whatever the base contents. -/
theorem writes_whole (f0 : cc0_scratch0.ty.Contents (Elt F)) (v : Vec F S32x64x256 .bf16) :
    srcB.view.writes (Elt F) f0
      [⟨Rect.unit (s := S32x64x256) ![0, 0, 0] S32x64x256.size inb_S32x64x256_S32x64x256_0_0_0, v⟩] = v :=
  (View.writes_singleton _ _ _ _).trans (store_src f0 v)

/-- The partial product's buffer after the first store, as listed: the product of what the three whole loads of the
    staging buffers read is the device's partial product. -/
theorem src_listed_eq (m : Mem F) (c : Dev nD) (f0 : cc0_scratch0.ty.Contents (Elt F)) :
    srcB.view.writes (Elt F) f0
      [⟨Rect.unit (s := S32x64x256) ![0, 0, 0] S32x64x256.size inb_S32x64x256_S32x64x256_0_0_0,
        k0_pay5
          (k0_pay3
            ((Memref.whole cc0_stg0_0).view.readAt (Elt F)
              (Rect.unit (s := S4x512x256) ![0, 0, 0] S4x512x256.size inb_S4x512x256_S4x512x256_0_0_0).toLoadRect (iblk m c 0 t0_0))
            ((Memref.whole cc0_stg1_0).view.readAt (Elt F)
              (Rect.unit (s := S4x256) ![0, 0] S4x256.size inb_S4x256_S4x256_0_0).toLoadRect (iblk m c 1 t0_0)))
          (k0_pay4
            ((Memref.whole cc0_stg0_0).view.readAt (Elt F)
              (Rect.unit (s := S4x512x256) ![0, 0, 0] S4x512x256.size inb_S4x512x256_S4x512x256_0_0_0).toLoadRect (iblk m c 0 t0_0))
            ((Memref.whole cc0_stg1_0).view.readAt (Elt F)
              (Rect.unit (s := S4x256) ![0, 0] S4x256.size inb_S4x256_S4x256_0_0).toLoadRect (iblk m c 1 t0_0)))
          ((Memref.whole cc0_stg2_0).view.readAt (Elt F)
            (Rect.unit (s := S256x256) ![0, 0] S256x256.size inb_S256x256_S256x256_0_0).toLoadRect (iblk m c 2 t0_0))⟩]
      = P m c := by
  rw [writes_whole, load_stg0, load_stg1, load_stg2]
  rfl

/-- info: 'Cert.KernelIdeal.Stores.src_stored' depends on axioms: [propext, Classical.choice, Quot.sound] -/
#guard_msgs in #print axioms src_stored

/-- info: 'Cert.KernelIdeal.Stores.rs0_stored' depends on axioms: [propext, Classical.choice, Quot.sound] -/
#guard_msgs in #print axioms rs0_stored

/-- info: 'Cert.KernelIdeal.Stores.src_listed_eq' depends on axioms: [propext, Classical.choice, Quot.sound] -/
#guard_msgs in #print axioms src_listed_eq

end Cert.KernelIdeal.Stores

end
-- ==== Proof.CutS.lean ====
/-
The sequence of the body's first nineteen parts cut once more, after the seventh: the signals, the product, the barrier
wait and the reduce-scatter's first copy first; then the reduce-scatter's other thirty copies, parts eight to nineteen.
The first copy's word travels to the second stretch, which hands the 31 words on as one vector.
-/
import proofs.«900791_g7700000000000792_dist_gconv1d_cshard_i_b4_s512_c256_v7x_i32_bf16_1_alg».proof.Proof.CutA

set_option synthInstance.maxSize 4096

noncomputable section

namespace Cert.KernelIdeal.CutS

open Idealize.ShloMosaic Idealize.SL.Sem Cert.KernelIdeal

variable {F : FTy → Type} [FloatOps F] [Facts]
open Facts₀ Facts

set_option maxRecDepth 4096 in
/-- Parts one to seven, then a continuation over the device, the word of its position and the first copy's word. -/
def progS7 {α : Type} (arg0 : Memref sig .tc .vmem S4x512x256 .f32) (harg0 : arg0.IsWhole) (arg1 : Memref sig .tc .vmem S4x256 .f32) (harg1 : arg1.IsWhole) (arg2 : Memref sig .tc .vmem S256x256 .f32) (harg2 : arg2.IsWhole) (arg3 : Memref sig .tc .vmem S4x512x256 .f32) (harg3 : arg3.IsWhole) (arg4 : Memref sig .tc .vmem S32x64x256 .bf16) (harg4 : arg4.IsWhole) (arg5 : Memref sig .tc .vmem S32x64x256 .bf16) (harg5 : arg5.IsWhole) (arg6 : Memref sig .tc .vmem S32x64x256 .bf16) (harg6 : arg6.IsWhole) (arg7 : DmaSems sig S32) (arg8 : DmaSems sig S32) (arg9 : DmaSems sig S32) (arg10 : DmaSems sig S32)
    (k : Dev nD → BitVec 32 → BitVec 32 → Prog (TpuEff nD τ sig (Elt F) Λ₀ .tc) α) : Prog (TpuEff nD τ sig (Elt F) Λ₀ .tc) α := do
  let ⟨d0, v2, v3, v24, c32_i32_20⟩ : Σ' (d0 : Dev nD) (v2 : BitVec 32) (v3 : Sems sig S_) (v24 : BitVec 32), BitVec 32 ← k0_part1 arg0 harg0 arg1 harg1 arg2 harg2 arg3 harg3 arg4 harg4 arg5 harg5 arg6 harg6 arg7 arg8 arg9 arg10
  let ⟨v48, c32_i32_44⟩ : Σ' (v48 : BitVec 32), BitVec 32 ← k0_part2 arg0 harg0 arg1 harg1 arg2 harg2 arg3 harg3 arg4 harg4 arg5 harg5 arg6 harg6 arg7 arg8 arg9 arg10 d0 v2 v3 v24 c32_i32_20
  let ⟨v72, c32_i32_68⟩ : Σ' (v72 : BitVec 32), BitVec 32 ← k0_part3 arg0 harg0 arg1 harg1 arg2 harg2 arg3 harg3 arg4 harg4 arg5 harg5 arg6 harg6 arg7 arg8 arg9 arg10 d0 v2 v3 v48 c32_i32_44
  let ⟨v96, c32_i32_92⟩ : Σ' (v96 : BitVec 32), BitVec 32 ← k0_part4 arg0 harg0 arg1 harg1 arg2 harg2 arg3 harg3 arg4 harg4 arg5 harg5 arg6 harg6 arg7 arg8 arg9 arg10 d0 v2 v3 v72 c32_i32_68
  let ⟨v120, c32_i32_116⟩ : Σ' (v120 : BitVec 32), BitVec 32 ← k0_part5 arg0 harg0 arg1 harg1 arg2 harg2 arg3 harg3 arg4 harg4 arg5 harg5 arg6 harg6 arg7 arg8 arg9 arg10 d0 v2 v3 v96 c32_i32_92
  let ⟨v154, v162⟩ : Σ' (v154 : FVec F S4x512x256 .f32), FVec F S4x512x256 .f32 ← k0_part6 arg0 harg0 arg1 harg1 arg2 harg2 arg3 harg3 arg4 harg4 arg5 harg5 arg6 harg6 arg7 arg8 arg9 arg10 d0 v2 v3 v120 c32_i32_116
  let v184 : BitVec 32 ← k0_part7 arg0 harg0 arg1 harg1 arg2 harg2 arg3 harg3 arg4 harg4 arg5 harg5 arg6 harg6 arg7 arg8 arg9 arg10 d0 v2 v3 v154 v162
  k d0 v2 v184

set_option maxRecDepth 4096 in
/-- Parts eight to nineteen, then a continuation over the device, the word of its position and the copies' 31 words. -/
def progSends {α : Type} (arg0 : Memref sig .tc .vmem S4x512x256 .f32) (harg0 : arg0.IsWhole) (arg1 : Memref sig .tc .vmem S4x256 .f32) (harg1 : arg1.IsWhole) (arg2 : Memref sig .tc .vmem S256x256 .f32) (harg2 : arg2.IsWhole) (arg3 : Memref sig .tc .vmem S4x512x256 .f32) (harg3 : arg3.IsWhole) (arg4 : Memref sig .tc .vmem S32x64x256 .bf16) (harg4 : arg4.IsWhole) (arg5 : Memref sig .tc .vmem S32x64x256 .bf16) (harg5 : arg5.IsWhole) (arg6 : Memref sig .tc .vmem S32x64x256 .bf16) (harg6 : arg6.IsWhole) (arg7 : DmaSems sig S32) (arg8 : DmaSems sig S32) (arg9 : DmaSems sig S32) (arg10 : DmaSems sig S32) (d0 : Dev nD) (v2 v184 : BitVec 32)
    (k : Dev nD → BitVec 32 → (Fin 31 → BitVec 32) → Prog (TpuEff nD τ sig (Elt F) Λ₀ .tc) α) : Prog (TpuEff nD τ sig (Elt F) Λ₀ .tc) α := do
  let ⟨v196, v208, v220⟩ : Σ' (v196 : BitVec 32) (v208 : BitVec 32), BitVec 32 ← k0_part8 arg0 harg0 arg1 harg1 arg2 harg2 arg3 harg3 arg4 harg4 arg5 harg5 arg6 harg6 arg7 arg8 arg9 arg10 d0 v2
  let ⟨v232, v244⟩ : Σ' (v232 : BitVec 32), BitVec 32 ← k0_part9 arg0 harg0 arg1 harg1 arg2 harg2 arg3 harg3 arg4 harg4 arg5 harg5 arg6 harg6 arg7 arg8 arg9 arg10 d0 v2
  let ⟨v256, v268, v280⟩ : Σ' (v256 : BitVec 32) (v268 : BitVec 32), BitVec 32 ← k0_part10 arg0 harg0 arg1 harg1 arg2 harg2 arg3 harg3 arg4 harg4 arg5 harg5 arg6 harg6 arg7 arg8 arg9 arg10 d0 v2
  let ⟨v292, v304⟩ : Σ' (v292 : BitVec 32), BitVec 32 ← k0_part11 arg0 harg0 arg1 harg1 arg2 harg2 arg3 harg3 arg4 harg4 arg5 harg5 arg6 harg6 arg7 arg8 arg9 arg10 d0 v2
  let ⟨v316, v328, v340⟩ : Σ' (v316 : BitVec 32) (v328 : BitVec 32), BitVec 32 ← k0_part12 arg0 harg0 arg1 harg1 arg2 harg2 arg3 harg3 arg4 harg4 arg5 harg5 arg6 harg6 arg7 arg8 arg9 arg10 d0 v2
  let ⟨v352, v364⟩ : Σ' (v352 : BitVec 32), BitVec 32 ← k0_part13 arg0 harg0 arg1 harg1 arg2 harg2 arg3 harg3 arg4 harg4 arg5 harg5 arg6 harg6 arg7 arg8 arg9 arg10 d0 v2
  let ⟨v376, v388, v400⟩ : Σ' (v376 : BitVec 32) (v388 : BitVec 32), BitVec 32 ← k0_part14 arg0 harg0 arg1 harg1 arg2 harg2 arg3 harg3 arg4 harg4 arg5 harg5 arg6 harg6 arg7 arg8 arg9 arg10 d0 v2
  let ⟨v412, v424⟩ : Σ' (v412 : BitVec 32), BitVec 32 ← k0_part15 arg0 harg0 arg1 harg1 arg2 harg2 arg3 harg3 arg4 harg4 arg5 harg5 arg6 harg6 arg7 arg8 arg9 arg10 d0 v2
  let ⟨v436, v448, v460⟩ : Σ' (v436 : BitVec 32) (v448 : BitVec 32), BitVec 32 ← k0_part16 arg0 harg0 arg1 harg1 arg2 harg2 arg3 harg3 arg4 harg4 arg5 harg5 arg6 harg6 arg7 arg8 arg9 arg10 d0 v2
  let ⟨v472, v484⟩ : Σ' (v472 : BitVec 32), BitVec 32 ← k0_part17 arg0 harg0 arg1 harg1 arg2 harg2 arg3 harg3 arg4 harg4 arg5 harg5 arg6 harg6 arg7 arg8 arg9 arg10 d0 v2
  let ⟨v496, v508, v520⟩ : Σ' (v496 : BitVec 32) (v508 : BitVec 32), BitVec 32 ← k0_part18 arg0 harg0 arg1 harg1 arg2 harg2 arg3 harg3 arg4 harg4 arg5 harg5 arg6 harg6 arg7 arg8 arg9 arg10 d0 v2
  let ⟨v532, v544⟩ : Σ' (v532 : BitVec 32), BitVec 32 ← k0_part19 arg0 harg0 arg1 harg1 arg2 harg2 arg3 harg3 arg4 harg4 arg5 harg5 arg6 harg6 arg7 arg8 arg9 arg10 d0 v2
  k d0 v2 ![v184, v196, v208, v220, v232, v244, v256, v268, v280, v292, v304, v316, v328, v340, v352, v364, v376, v388, v400, v412, v424, v436, v448, v460, v472, v484, v496, v508, v520, v532, v544]

set_option maxRecDepth 65536 in
/-- The first nineteen parts are the first seven followed by the next twelve. -/
theorem progS_eq {α : Type} (arg0 : Memref sig .tc .vmem S4x512x256 .f32) (harg0 : arg0.IsWhole) (arg1 : Memref sig .tc .vmem S4x256 .f32) (harg1 : arg1.IsWhole) (arg2 : Memref sig .tc .vmem S256x256 .f32) (harg2 : arg2.IsWhole) (arg3 : Memref sig .tc .vmem S4x512x256 .f32) (harg3 : arg3.IsWhole) (arg4 : Memref sig .tc .vmem S32x64x256 .bf16) (harg4 : arg4.IsWhole) (arg5 : Memref sig .tc .vmem S32x64x256 .bf16) (harg5 : arg5.IsWhole) (arg6 : Memref sig .tc .vmem S32x64x256 .bf16) (harg6 : arg6.IsWhole) (arg7 : DmaSems sig S32) (arg8 : DmaSems sig S32) (arg9 : DmaSems sig S32) (arg10 : DmaSems sig S32) (k : Dev nD → BitVec 32 → (Fin 31 → BitVec 32) → Prog (TpuEff nD τ sig (Elt F) Λ₀ .tc) α) :
    CutA.progS arg0 harg0 arg1 harg1 arg2 harg2 arg3 harg3 arg4 harg4 arg5 harg5 arg6 harg6 arg7 arg8 arg9 arg10 k = progS7 arg0 harg0 arg1 harg1 arg2 harg2 arg3 harg3 arg4 harg4 arg5 harg5 arg6 harg6 arg7 arg8 arg9 arg10 (fun d0 v2 v184 => progSends arg0 harg0 arg1 harg1 arg2 harg2 arg3 harg3 arg4 harg4 arg5 harg5 arg6 harg6 arg7 arg8 arg9 arg10 d0 v2 v184 k) := rfl

end Cert.KernelIdeal.CutS
-- ==== Proof.PostA.lean ====
/-
What a device's thread holds after its last reduce-scatter transfer is issued, put together as the assertion the
second stretch of the body starts from: everything that is not about the reduce-scatter's receive side, slot 0 of
the receive buffer at the device's own chunk, and every receive cell at round 0 with its credit.
-/
import proofs.«900791_g7700000000000792_dist_gconv1d_cshard_i_b4_s512_c256_v7x_i32_bf16_1_alg».proof.Proof.PreA
import proofs.«900791_g7700000000000792_dist_gconv1d_cshard_i_b4_s512_c256_v7x_i32_bf16_1_alg».proof.Proof.Mid

noncomputable section

namespace Cert.KernelIdeal.PostA

open Cert.KernelIdeal Cert.KernelIdeal.Gen Cert.KernelIdeal.Contents Cert.KernelIdeal.Proto Cert.KernelIdeal.Mid
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The pieces held after the last transfer of the reduce-scatter make up the assertion before any receive slot has landed. -/
theorem toMidS (m : Mem F) (K : Dev nD × Option (Fin 4 × Fin 31) → ℕ) (c : Dev nD)
    (s : Buf (Elt F) ((c : Thread nD τ).loc cc0_stg3_0)) (W : Waits sig Unit)
    (f2 : Buf (Elt F) (agB.view.loc (c : Thread nD τ))) :
    iprop(records m K ∗ levAts L lv
        ∗ slotPts srcB c (dv c) fullShare (P m c)
        ∗ slotPts agB c (dv c) fullShare f2
        ∗ (bigSep Finset.univ fun r : Fin 31 => iprop(∃ f, slotPts agB (nb c r) (dv c) fullShare f))
        ∗ Mid.staging m c s
        ∗ owes c (owedAg c 31) W
        ∗ (bigSep Finset.univ fun r : Fin 31 => iprop(atPos ER (rsS c r) 0 ∅ 0 ∗ atPos ER (agS c r) 0 ∅ 0 ∗ atPos ER (agR c r) 0 ∅ 0))
        ∗ atPos ER (bar c) 1 ∅ 0
        ∗ PreA.chain31 (fun r => cred (tallyAt (rsS c r) () N))
        ∗ (bigSep Finset.univ fun r : Fin 31 => cred (tallyAt (agR c r) () N))
        ∗ (bigSep Finset.univ fun r : Fin 31 => iprop(dutyTok ER (agS c r) 0 0 ∗ dutyTok ER (agR (nb c r) r) 0 0))
        ∗ slotPts rsB c 0 fullShare (rsAll (P m) c)
        ∗ (bigSep Finset.univ fun r : Fin 31 => atPos ER (rsR c r) 0 ∅ 0)
        ∗ (bigSep Finset.univ fun r : Fin 31 => cred (tallyAt (rsR c r) () N)))
      ⊢ (Mid.MidS m K c s W : sProp 𝕄) := by
  unfold MidS MidRest
  rw [← PreA.chain31_eq]
  iintro ⟨H1, H2, H3, H4, H5, H6, H7, H8, H9, H10, H11, H12, H13, H14, H15⟩
  isplitl [H1 H2 H3 H4 H5 H6 H7 H8 H9 H10 H11 H12]
  · isplitl [H1]; · iexact H1
    isplitl [H3]; · iexact H3
    isplitl [H4]; · iexists f2; iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H2
  · isplitl [H13]; · iexact H13
    isplitl [H14]; · iexact H14
    iexact H15

/-- info: 'Cert.KernelIdeal.PostA.toMidS' depends on axioms: [propext, Classical.choice, Quot.sound] -/
#guard_msgs in #print axioms toMidS

end Cert.KernelIdeal.PostA

end
-- ==== Proof.BodyW.lean ====
/-
The reduce-scatter's first thirty receive waits (parts twenty to twenty-eight of the body's printed sequence). A device
waits on its receive cells 30, 29, …, 1 in turn; each cell has one round of one duty, a slot's credit, paid by the
device whose copy lands in that slot, so each wait is for the rest of the cell's round and hands back the slot at the
landed contents. Before the waits the device holds only its own slot 0 of the receive buffer and is at round 0 of every
receive cell with the cell's credit; after them it holds every slot but slot 1 and is past the round of every receive
cell but cell 0. What it owes (the all-gather's credits, all above the receive cells' level) does not change.
-/
import proofs.«900791_g7700000000000792_dist_gconv1d_cshard_i_b4_s512_c256_v7x_i32_bf16_1_alg».proof.Proof.CutA
import proofs.«900791_g7700000000000792_dist_gconv1d_cshard_i_b4_s512_c256_v7x_i32_bf16_1_alg».proof.Proof.Mid
import proofs.«900791_g7700000000000792_dist_gconv1d_cshard_i_b4_s512_c256_v7x_i32_bf16_1_alg».proof.Proof.Tables
import proofs.«900791_g7700000000000792_dist_gconv1d_cshard_i_b4_s512_c256_v7x_i32_bf16_1_alg».proof.Proof.Levels
import Idealize.ShloMosaic.Lib.Tactic

set_option synthInstance.maxSize 4096

noncomputable section
namespace Cert.KernelIdeal.BodyW

open Cert.KernelIdeal Cert.KernelIdeal.Gen Cert.KernelIdeal.CutA Cert.KernelIdeal.Contents Cert.KernelIdeal.Proto Cert.KernelIdeal.Tables Cert.KernelIdeal.Levels Cert.KernelIdeal.Mid
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig Unit (Elt F) ℕ UU ℕ

/-! ## One wait -/

/-- `bigSep_insert`, stated with the proof mode's `∗`. -/
theorem bigSep_insert' {M : Type} [URA M] {I : Type} [DecidableEq I] {s : Finset I} {i : I} (hi : i ∉ s) (Φ : I → sProp M) :
    bigSep (insert i s) Φ = iprop(Φ i ∗ bigSep s Φ) := bigSep_insert hi

/-- One receive wait of the reduce-scatter: the owner of cell `r` of the receive pool, at the start of the cell's one
    round, waits for a slot's credit and comes back with the slot at the landed contents. -/
theorem recv_wait (m : Mem F) (c : Dev nD) (r : Fin 31) (κ : ℕ) (W : Waits sig Unit) {α : Type}
    {sp' : Space} {s' : Shape} {e' : EltTy} (src : Memref sig .tc sp' s' e') (dst : Memref sig .tc .vmem S64x256 .bf16)
    (hsrc : src.view.WordExact) (hdst : dst.view.WordExact) (hd : dst.view.dmaCredit = N)
    (k : PUnit → Prog (TpuEff nD τ sig (Elt F) Λ₀ .tc) α) (Q : α → sProp 𝕄) :
    iprop(cellInv ER (sched m) κ (rsR c r) ∗ cred (tallyAt (rsR c r) () N) ∗ owes (c : Thread nD τ) (owedAg c 31) W
        ∗ levAts L lv ∗ atPos ER (rsR c r) 0 ∅ 0)
      ⊢ iprop(((owes (c : Thread nD τ) (owedAg c 31) (insert (SemLoc.dma (dsem 1 r), ()) W) ∗ atPos ER (rsR c r) 1 ∅ 0 ∗ reached ER (rsR c r) 1
              ∗ rsRPay m c r)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (dsem 1 r) src dst hsrc hdst) k) Q) := by
  iintro ⟨#HI, Hc, HO, #Hlev, Hat⟩ Hk
  have hMW : ∀ r : Fin 31, (levAts L lv : sProp 𝕄) ⊢ MayWait (c : Thread nD τ) (osem (1, r)) () (owedAg c 31) := fun r => mayWait_rsR c r 31
  sl_exec
  iapply Hk
  isplitl [HO]; · iexact HO
  isplitl [Hat]; · iexact Hat
  isplitl [Hat_reached]; · iexact Hat_reached
  unfold rsRPay
  iexact Hat_pay1

/-! ## The waits one after another -/

/-- The thread's holdings with the receive cells `S` waited: those cells past their round with their slots landed, the
    others at round 0 with their credits. -/
def WSt (m : Mem F) (K : Dev nD × Option (Fin 4 × Fin 31) → ℕ) (c : Dev nD)
    (s : Buf (Elt F) ((c : Thread nD τ).loc cc0_stg3_0)) (W : Waits sig Unit) (S : Finset (Fin 31)) : sProp 𝕄 :=
  iprop(MidRest m K c s W
    ∗ slotPts rsB c 0 fullShare (rsAll (P m) c)
    ∗ (bigSep S fun r => iprop(atPos ER (rsR c r) 1 ∅ 0 ∗ rsRPay m c r))
    ∗ (bigSep (Finset.univ \ S) fun r => iprop(atPos ER (rsR c r) 0 ∅ 0 ∗ cred (tallyAt (rsR c r) () N))))

theorem sdiff_insert_split {r : Fin 31} {S : Finset (Fin 31)} (hr : r ∉ S) :
    Finset.univ \ S = insert r (Finset.univ \ insert r S) := by
  ext x
  simp only [Finset.mem_sdiff, Finset.mem_univ, true_and, Finset.mem_insert, not_or]
  constructor
  · intro h
    by_cases hx : x = r
    · exact Or.inl hx
    · exact Or.inr ⟨hx, h⟩
  · rintro (rfl | ⟨_, h⟩)
    · exact hr
    · exact h

theorem not_mem_sdiff_insert (r : Fin 31) (S : Finset (Fin 31)) : r ∉ Finset.univ \ insert r S := by
  simp only [Finset.mem_sdiff, Finset.mem_univ, true_and, Finset.mem_insert, true_or, not_true_eq_false, not_false_eq_true]

/-- The wait on receive cell `r`, not yet waited: afterwards it is among the waited ones. -/
theorem step (m : Mem F) (K : Dev nD × Option (Fin 4 × Fin 31) → ℕ) (c : Dev nD)
    (s : Buf (Elt F) ((c : Thread nD τ).loc cc0_stg3_0)) (W : Waits sig Unit) (r : Fin 31) (S : Finset (Fin 31)) (hr : r ∉ S) {α : Type}
    {sp' : Space} {s' : Shape} {e' : EltTy} (src : Memref sig .tc sp' s' e') (dst : Memref sig .tc .vmem S64x256 .bf16)
    (hsrc : src.view.WordExact) (hdst : dst.view.WordExact) (sem : DmaSem sig) (hsem : sem = dsem 1 r) (hd : dst.view.dmaCredit = N)
    (k : PUnit → Prog (TpuEff nD τ sig (Elt F) Λ₀ .tc) α) (Q : α → sProp 𝕄)
    (hk : WSt m K c s (insert (SemLoc.dma (dsem 1 r), ()) W) (insert r S) ⊢ wp frame (wpE (defs₀ (F := F)) 𝒱₀ (c : Thread nD τ) none) Set.univ (k ⟨⟩) Q) :
    WSt m K c s W S ⊢ wp frame (wpE (defs₀ (F := F)) 𝒱₀ (c : Thread nD τ) none) Set.univ (.op (.waitDma2 sem src dst hsrc hdst) k) Q := by
  subst hsem
  have hk' := hk
  unfold WSt MidRest records at hk'
  rw [bigSep_insert' hr] at hk'
  unfold WSt MidRest records
  rw [sdiff_insert_split hr, bigSep_insert' (not_mem_sdiff_insert r S)]
  have hI : (bigSep Finset.univ fun ck : Dev nD × Option (Fin 4 × Fin 31) => (cellInv ER (sched m) (K ck) (kcell ck) : sProp 𝕄))
      ⊢ cellInv ER (sched m) (K (c, some (1, r))) (rsR c r) := bigSep_elim (Finset.mem_univ _)
  iintro ⟨⟨⟨#HI, #HR⟩, Hsrc, Hag, Hags, Hstg, HO, Hpos, Hbar, Hcs, Hca, Htok, #Hlev⟩, H0, HS, ⟨Hat, Hc⟩, Hrest⟩
  iapply (recv_wait m c r (K (c, some (1, r))) W src dst hsrc hdst hd k Q) $$ [Hc HO Hat]
  · isplitr
    · iapply hI; iexact HI
    isplitl [Hc]; · iexact Hc
    isplitl [HO]; · iexact HO
    isplitr; · iexact Hlev
    iexact Hat
  iintro ⟨HO, Hat, -, Hp⟩
  iapply hk'
  isplitl [Hsrc Hag Hags Hstg HO Hpos Hbar Hcs Hca Htok]
  · isplitr
    · isplitr; · iexact HI
      iexact HR
    isplitl [Hsrc]; · iexact Hsrc
    isplitl [Hag]; · iexact Hag
    isplitl [Hags]; · iexact Hags
    isplitl [Hstg]; · iexact Hstg
    isplitl [HO]; · iexact HO
    isplitl [Hpos]; · iexact Hpos
    isplitl [Hbar]; · iexact Hbar
    isplitl [Hcs]; · iexact Hcs
    isplitl [Hca]; · iexact Hca
    isplitl [Htok]; · iexact Htok
    iexact Hlev
  isplitl [H0]; · iexact H0
  isplitl [Hat Hp HS]
  · isplitl [Hat Hp]
    · isplitl [Hat] <;> iassumption
    iexact HS
  iexact Hrest

/-- Before any wait. -/
theorem start_eq (m : Mem F) (K : Dev nD × Option (Fin 4 × Fin 31) → ℕ) (c : Dev nD)
    (s : Buf (Elt F) ((c : Thread nD τ).loc cc0_stg3_0)) (W : Waits sig Unit) : MidS m K c s W ⊢ WSt m K c s W ∅ := by
  unfold MidS WSt
  rw [Finset.sdiff_empty, bigSep_empty, bigSep_sep']
  iintro ⟨HM, H0, Hat, Hc⟩
  isplitl [HM]; · iexact HM
  isplitl [H0]; · iexact H0
  isplitr; · iempintro
  isplitl [Hat] <;> iassumption

theorem sl_injective : Function.Injective sl := fun a b h => Fin.ext (by have := congrArg Fin.val h; simp only [sl] at this; omega)

/-- After the thirty waits: every receive cell but cell 0 is past its round, its slot landed. -/
theorem finish (m : Mem F) (K : Dev nD × Option (Fin 4 × Fin 31) → ℕ) (c : Dev nD)
    (s : Buf (Elt F) ((c : Thread nD τ).loc cc0_stg3_0)) (W : Waits sig Unit) :
    WSt m K c s W (Finset.univ.erase 0) ⊢ Mid.Mid m K c s W := by
  have h1 : (Finset.univ : Finset (Fin 31)) \ Finset.univ.erase 0 = {0} := by decide
  have h2 : (Finset.univ.erase (1 : Fin 32)) = insert 0 ((Finset.univ.erase (0 : Fin 31)).map ⟨sl, sl_injective⟩) := by decide
  have h3 : (0 : Fin 32) ∉ (Finset.univ.erase (0 : Fin 31)).map ⟨sl, sl_injective⟩ := by decide
  unfold WSt Mid.Mid
  rw [h1, bigSep_singleton, bigSep_sep', h2, bigSep_insert' h3, bigSep_map]
  iintro ⟨HM, H0, ⟨Hat1, Hp⟩, Hat0, Hc0⟩
  isplitl [HM]; · iexact HM
  isplitl [H0 Hp]
  · isplitl [H0]; · iexact H0
    iexact Hp
  isplitl [Hat0 Hat1]
  · isplitl [Hat0] <;> iassumption
  iexact Hc0

set_option maxRecDepth 8192 in
set_option maxHeartbeats 1000000 in
/-- The thirty receive waits of parts twenty to twenty-eight: from every receive cell at round 0 to all but cell 0 past
    their round, their slots landed. -/
theorem recvWaits (m : Mem F) (K : Dev nD × Option (Fin 4 × Fin 31) → ℕ) (c : Dev nD)
    (s : Buf (Elt F) ((c : Thread nD τ).loc cc0_stg3_0)) (W : Waits sig Unit)
    (arg0 : Memref sig .tc .vmem S4x512x256 .f32) (harg0 : arg0.IsWhole) (arg1 : Memref sig .tc .vmem S4x256 .f32) (harg1 : arg1.IsWhole) (arg2 : Memref sig .tc .vmem S256x256 .f32) (harg2 : arg2.IsWhole) (arg3 : Memref sig .tc .vmem S4x512x256 .f32) (harg3 : arg3.IsWhole) (arg4 : Memref sig .tc .vmem S32x64x256 .bf16) (harg4 : arg4.IsWhole) (harg5 : (rsB : Memref sig .tc .vmem S32x64x256 .bf16).IsWhole) (arg6 : Memref sig .tc .vmem S32x64x256 .bf16) (harg6 : arg6.IsWhole) (arg7 : DmaSems sig S32) (arg9 : DmaSems sig S32) (arg10 : DmaSems sig S32)
    (w : Fin 31 → BitVec 32) {α : Type} (kont : Prog (TpuEff nD τ sig (Elt F) Λ₀ .tc) α) (Q : α → sProp 𝕄)
    (hk : ∀ W' : Waits sig Unit, Mid.Mid m K c s W' ⊢ wp frame (wpE (defs₀ (F := F)) 𝒱₀ (c : Thread nD τ) none) Set.univ kont Q) :
    MidS m K c s W ⊢ wp frame (wpE (defs₀ (F := F)) 𝒱₀ (c : Thread nD τ) none) Set.univ
      (progW arg0 harg0 arg1 harg1 arg2 harg2 arg3 harg3 arg4 harg4 rsB harg5 arg6 harg6 arg7 cc0_scratch4 arg9 arg10 c w kont) Q := by
  refine (start_eq m K c s W).trans ?_
  refine step m K c s _ ⟨30, by decide⟩ _ (by decide) _ _ _ _ _ (by rfl) (by rfl) _ Q ?_
  refine step m K c s _ ⟨29, by decide⟩ _ (by decide) _ _ _ _ _ (by rfl) (by rfl) _ Q ?_
  refine step m K c s _ ⟨28, by decide⟩ _ (by decide) _ _ _ _ _ (by rfl) (by rfl) _ Q ?_
  refine step m K c s _ ⟨27, by decide⟩ _ (by decide) _ _ _ _ _ (by rfl) (by rfl) _ Q ?_
  refine step m K c s _ ⟨26, by decide⟩ _ (by decide) _ _ _ _ _ (by rfl) (by rfl) _ Q ?_
  refine step m K c s _ ⟨25, by decide⟩ _ (by decide) _ _ _ _ _ (by rfl) (by rfl) _ Q ?_
  refine step m K c s _ ⟨24, by decide⟩ _ (by decide) _ _ _ _ _ (by rfl) (by rfl) _ Q ?_
  refine step m K c s _ ⟨23, by decide⟩ _ (by decide) _ _ _ _ _ (by rfl) (by rfl) _ Q ?_
  refine step m K c s _ ⟨22, by decide⟩ _ (by decide) _ _ _ _ _ (by rfl) (by rfl) _ Q ?_
  refine step m K c s _ ⟨21, by decide⟩ _ (by decide) _ _ _ _ _ (by rfl) (by rfl) _ Q ?_
  refine step m K c s _ ⟨20, by decide⟩ _ (by decide) _ _ _ _ _ (by rfl) (by rfl) _ Q ?_
  refine step m K c s _ ⟨19, by decide⟩ _ (by decide) _ _ _ _ _ (by rfl) (by rfl) _ Q ?_
  refine step m K c s _ ⟨18, by decide⟩ _ (by decide) _ _ _ _ _ (by rfl) (by rfl) _ Q ?_
  refine step m K c s _ ⟨17, by decide⟩ _ (by decide) _ _ _ _ _ (by rfl) (by rfl) _ Q ?_
  refine step m K c s _ ⟨16, by decide⟩ _ (by decide) _ _ _ _ _ (by rfl) (by rfl) _ Q ?_
  refine step m K c s _ ⟨15, by decide⟩ _ (by decide) _ _ _ _ _ (by rfl) (by rfl) _ Q ?_
  refine step m K c s _ ⟨14, by decide⟩ _ (by decide) _ _ _ _ _ (by rfl) (by rfl) _ Q ?_
  refine step m K c s _ ⟨13, by decide⟩ _ (by decide) _ _ _ _ _ (by rfl) (by rfl) _ Q ?_
  refine step m K c s _ ⟨12, by decide⟩ _ (by decide) _ _ _ _ _ (by rfl) (by rfl) _ Q ?_
  refine step m K c s _ ⟨11, by decide⟩ _ (by decide) _ _ _ _ _ (by rfl) (by rfl) _ Q ?_
  refine step m K c s _ ⟨10, by decide⟩ _ (by decide) _ _ _ _ _ (by rfl) (by rfl) _ Q ?_
  refine step m K c s _ ⟨9, by decide⟩ _ (by decide) _ _ _ _ _ (by rfl) (by rfl) _ Q ?_
  refine step m K c s _ ⟨8, by decide⟩ _ (by decide) _ _ _ _ _ (by rfl) (by rfl) _ Q ?_
  refine step m K c s _ ⟨7, by decide⟩ _ (by decide) _ _ _ _ _ (by rfl) (by rfl) _ Q ?_
  refine step m K c s _ ⟨6, by decide⟩ _ (by decide) _ _ _ _ _ (by rfl) (by rfl) _ Q ?_
  refine step m K c s _ ⟨5, by decide⟩ _ (by decide) _ _ _ _ _ (by rfl) (by rfl) _ Q ?_
  refine step m K c s _ ⟨4, by decide⟩ _ (by decide) _ _ _ _ _ (by rfl) (by rfl) _ Q ?_
  refine step m K c s _ ⟨3, by decide⟩ _ (by decide) _ _ _ _ _ (by rfl) (by rfl) _ Q ?_
  refine step m K c s _ ⟨2, by decide⟩ _ (by decide) _ _ _ _ _ (by rfl) (by rfl) _ Q ?_
  refine step m K c s _ ⟨1, by decide⟩ _ (by decide) _ _ _ _ _ (by rfl) (by rfl) _ Q ?_
  refine (Entails.of_eq (congrArg (WSt m K c s _) (show _ = Finset.univ.erase (0 : Fin 31) from by decide))).trans ?_
  exact (finish m K c s _).trans (hk _)

/-- info: 'Cert.KernelIdeal.BodyW.recvWaits' depends on axioms: [propext, Classical.choice, Quot.sound] -/
#guard_msgs in #print axioms recvWaits

end Cert.KernelIdeal.BodyW
end
-- ==== Proof.BodySends.lean ====
/-
The reduce-scatter's transfers one after another. With the transfers of the operations in S issued, a device's thread
holds: the credit each of them left on its send cell; for every other operation the chunk it will send, the slot of the
neighbour it will land in, and the two tokens it pays with; what it owes, the receive credits of the transfers not yet
issued among it; and everything the transfers do not touch. One transfer moves its operation into S. When all are
issued this is the assertion the receive waits start from.
-/
import proofs.«900791_g7700000000000792_dist_gconv1d_cshard_i_b4_s512_c256_v7x_i32_bf16_1_alg».proof.Proof.CutS
import proofs.«900791_g7700000000000792_dist_gconv1d_cshard_i_b4_s512_c256_v7x_i32_bf16_1_alg».proof.Proof.Steps
import proofs.«900791_g7700000000000792_dist_gconv1d_cshard_i_b4_s512_c256_v7x_i32_bf16_1_alg».proof.Proof.PostA
import proofs.«900791_g7700000000000792_dist_gconv1d_cshard_i_b4_s512_c256_v7x_i32_bf16_1_alg».proof.Proof.DevEqs
import proofs.«900791_g7700000000000792_dist_gconv1d_cshard_i_b4_s512_c256_v7x_i32_bf16_1_alg».proof.Proof.BodyW

set_option synthInstance.maxSize 4096

noncomputable section

namespace Cert.KernelIdeal.BodySends

open Cert.KernelIdeal Cert.KernelIdeal.Gen Cert.KernelIdeal.Contents Cert.KernelIdeal.Proto Cert.KernelIdeal.Mid Cert.KernelIdeal.PreA
open Cert.KernelIdeal.DevEqs Cert.KernelIdeal.Tables
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- What the transfers do not touch. -/
def Carry (m : Mem F) (c : Dev nD) (s : Buf (Elt F) ((c : Thread nD τ).loc cc0_stg3_0))
    (f2 : Buf (Elt F) (agB.view.loc (c : Thread nD τ))) : sProp 𝕄 :=
  iprop(levAts L lv
    ∗ slotPts srcB c (dv c) fullShare (P m c)
    ∗ slotPts agB c (dv c) fullShare f2
    ∗ (bigSep Finset.univ fun r : Fin 31 => iprop(∃ f, slotPts agB (nb c r) (dv c) fullShare f))
    ∗ Mid.staging m c s
    ∗ (bigSep Finset.univ fun r : Fin 31 => iprop(atPos ER (rsS c r) 0 ∅ 0 ∗ atPos ER (agS c r) 0 ∅ 0 ∗ atPos ER (agR c r) 0 ∅ 0))
    ∗ atPos ER (bar c) 1 ∅ 0
    ∗ (bigSep Finset.univ fun r : Fin 31 => cred (tallyAt (agR c r) () N))
    ∗ (bigSep Finset.univ fun r : Fin 31 => iprop(dutyTok ER (agS c r) 0 0 ∗ dutyTok ER (agR (nb c r) r) 0 0))
    ∗ slotPts rsB c 0 fullShare (rsAll (P m) c)
    ∗ (bigSep Finset.univ fun r : Fin 31 => atPos ER (rsR c r) 0 ∅ 0)
    ∗ (bigSep Finset.univ fun r : Fin 31 => cred (tallyAt (rsR c r) () N)))

/-- What transfer `r` takes: the chunk it sends, the neighbour's slot it lands in, and the two tokens it pays with. -/
def sendRes (m : Mem F) (c : Dev nD) (r : Fin 31) : sProp 𝕄 :=
  iprop(slotPts srcB c (dv (nb c r)) fullShare (P m c)
    ∗ (∃ fd, slotPts rsB (nb c r) (sl (rev r)) fullShare fd)
    ∗ dutyTok ER (rsS c r) 0 (0 : Fin 31) ∗ dutyTok ER (rsR (nb c r) (rev r)) 0 (0 : Fin 31))

/-- The thread's holdings with the transfers of the operations in `S` issued and `n` receive credits still owed. -/
def SSt (m : Mem F) (K : Dev nD × Option (Fin 4 × Fin 31) → ℕ) (c : Dev nD)
    (s : Buf (Elt F) ((c : Thread nD τ).loc cc0_stg3_0)) (W : Waits sig Unit)
    (f2 : Buf (Elt F) (agB.view.loc (c : Thread nD τ))) (S : Finset (Fin 31)) (n : ℕ) : sProp 𝕄 :=
  iprop(records m K ∗ Carry m c s f2
    ∗ owes (c : Thread nD τ) (owedAg c 31 + owedRs c n) W
    ∗ (bigSep S fun r => cred (tallyAt (rsS c r) () N))
    ∗ (bigSep (Finset.univ \ S) fun r => sendRes m c r))

/-- One transfer: operation `r`, not yet issued, with `n` left after it; the rest of the program is run from the holdings
    with `r` issued. -/
theorem step' (m : Mem F) (K : Dev nD × Option (Fin 4 × Fin 31) → ℕ) (c : Dev nD)
    (s : Buf (Elt F) ((c : Thread nD τ).loc cc0_stg3_0)) (W : Waits sig Unit)
    (f2 : Buf (Elt F) (agB.view.loc (c : Thread nD τ))) (r : Fin 31) (n : ℕ) (hn : n + r.val = 30)
    (S : Finset (Fin 31)) (hr : r ∉ S) {α : Type}
    (t : Dev nD) (ht : t = nb c r)
    (src dst : Memref sig .tc .vmem S64x256 .bf16) (hsrcE : src = slotM srcB (dv (nb c r))) (hdstE : dst = slotM rsB (sl (rev r)))
    (sS sR : DmaSem sig) (hS : sS = dsem 0 r) (hR : sR = dsem 1 (rev r))
    (hsc : dst.view.ref.isScScratch = false) (hsrc : src.view.WordExact) (hdst : dst.view.WordExact)
    (hsem : DmaTarget.Typed .vmem (SemLoc.dma sR) (.remote ((t : Dev nD) : Thread nD τ) dst (SemLoc.dma sS) hsc))
    (k : PUnit → Prog (TpuEff nD τ sig (Elt F) Λ₀ .tc) α) (Q : α → sProp 𝕄) :
    ⊢ (iprop(SSt m K c s W f2 S (n + 1)
        -∗ (SSt m K c s W f2 (insert r S) n -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma src (.remote ((t : Dev nD) : Thread nD τ) dst (SemLoc.dma sS) hsc) (SemLoc.dma sR) hsrc hdst hsem) k) Q) : sProp 𝕄) := by
  subst ht hsrcE hdstE hS hR
  have h1 : 31 - r.val = n + 1 := by omega
  have h2 : 30 - r.val = n := by omega
  have hs := Steps.rs_send' m c r k Q W (K (c, some (0, r))) (K (nb c r, some (1, rev r))) hsc hsrc hdst hsem
  rw [h1, h2] at hs
  unfold SSt records
  rw [BodyW.bigSep_insert' hr, BodyW.sdiff_insert_split hr, BodyW.bigSep_insert' (BodyW.not_mem_sdiff_insert r S)]
  have hI1 : (bigSep Finset.univ fun ck : Dev nD × Option (Fin 4 × Fin 31) => (cellInv ER (sched m) (K ck) (kcell ck) : sProp 𝕄))
      ⊢ cellInv ER (sched m) (K (c, some (0, r))) (rsS c r) := bigSep_elim (Finset.mem_univ _)
  have hI2 : (bigSep Finset.univ fun ck : Dev nD × Option (Fin 4 × Fin 31) => (cellInv ER (sched m) (K ck) (kcell ck) : sProp 𝕄))
      ⊢ cellInv ER (sched m) (K (nb c r, some (1, rev r))) (rsR (nb c r) (rev r)) := bigSep_elim (Finset.mem_univ _)
  have hR1 : (bigSep Finset.univ fun ck : Dev nD × Option (Fin 4 × Fin 31) => (reached ER (kcell ck) 0 : sProp 𝕄))
      ⊢ reached ER (rsS c r) 0 := bigSep_elim (Finset.mem_univ (c, some (0, r)))
  have hR2 : (bigSep Finset.univ fun ck : Dev nD × Option (Fin 4 × Fin 31) => (reached ER (kcell ck) 0 : sProp 𝕄))
      ⊢ reached ER (rsR (nb c r) (rev r)) 0 := bigSep_elim (Finset.mem_univ (nb c r, some (1, rev r)))
  unfold sendRes
  iintro ⟨⟨#HI, #HR⟩, HC, HO, Hcr, ⟨X, D, T1, T2⟩, Hrest⟩ Hk
  ihave I1 := hI1 $$ HI
  ihave I2 := hI2 $$ HI
  ihave R1 := hR1 $$ HR
  ihave R2 := hR2 $$ HR
  iapply hs $$ I1 I2 X D HO T1 R1 T2 R2
  iintro ⟨Hc, HO⟩
  iapply Hk
  isplitr
  · isplitr; · iexact HI
    iexact HR
  isplitl [HC]; · iexact HC
  isplitl [HO]; · iexact HO
  isplitl [Hc Hcr]
  · isplitl [Hc]; · iexact Hc
    iexact Hcr
  iexact Hrest

/-- The same with the rest of the program's run given outright. -/
theorem step (m : Mem F) (K : Dev nD × Option (Fin 4 × Fin 31) → ℕ) (c : Dev nD)
    (s : Buf (Elt F) ((c : Thread nD τ).loc cc0_stg3_0)) (W : Waits sig Unit)
    (f2 : Buf (Elt F) (agB.view.loc (c : Thread nD τ))) (r : Fin 31) (n : ℕ) (hn : n + r.val = 30)
    (S : Finset (Fin 31)) (hr : r ∉ S) {α : Type}
    (t : Dev nD) (ht : t = nb c r)
    (src dst : Memref sig .tc .vmem S64x256 .bf16) (hsrcE : src = slotM srcB (dv (nb c r))) (hdstE : dst = slotM rsB (sl (rev r)))
    (sS sR : DmaSem sig) (hS : sS = dsem 0 r) (hR : sR = dsem 1 (rev r))
    (hsc : dst.view.ref.isScScratch = false) (hsrc : src.view.WordExact) (hdst : dst.view.WordExact)
    (hsem : DmaTarget.Typed .vmem (SemLoc.dma sR) (.remote ((t : Dev nD) : Thread nD τ) dst (SemLoc.dma sS) hsc))
    (k : PUnit → Prog (TpuEff nD τ sig (Elt F) Λ₀ .tc) α) (Q : α → sProp 𝕄)
    (hk : SSt m K c s W f2 (insert r S) n ⊢ wp frame (wpE (defs₀ (F := F)) 𝒱₀ (c : Thread nD τ) none) Set.univ (k ⟨⟩) Q) :
    SSt m K c s W f2 S (n + 1) ⊢ wp frame (wpE (defs₀ (F := F)) 𝒱₀ (c : Thread nD τ) none) Set.univ
      (.op (.enqueueDma src (.remote ((t : Dev nD) : Thread nD τ) dst (SemLoc.dma sS) hsc) (SemLoc.dma sR) hsrc hdst hsem) k) Q := by
  iintro HS
  iapply (step' m K c s W f2 r n hn S hr t ht src dst hsrcE hdstE sS sR hS hR hsc hsrc hdst hsem k Q) $$ HS
  iintro HS'
  iapply hk
  iexact HS'

/-- With every transfer issued: the assertion before any receive slot has landed. -/
theorem finish (m : Mem F) (K : Dev nD × Option (Fin 4 × Fin 31) → ℕ) (c : Dev nD)
    (s : Buf (Elt F) ((c : Thread nD τ).loc cc0_stg3_0)) (W : Waits sig Unit)
    (f2 : Buf (Elt F) (agB.view.loc (c : Thread nD τ))) :
    SSt m K c s W f2 Finset.univ 0 ⊢ Mid.MidS m K c s W := by
  refine BIBase.Entails.trans ?_ (PostA.toMidS m K c s W f2)
  unfold SSt Carry
  rw [Finset.sdiff_self, bigSep_empty, ← PreA.chain31_eq]
  iintro ⟨Hrec, ⟨Hlev, H3, H4, H5, H6, H8, H9, H11, H12, H13, H14, H15⟩, HO, Hcr, -⟩
  ihave HO := (Steps.owes_rs0 c (owedAg c 31) W) $$ HO
  isplitl [Hrec]; · iexact Hrec
  isplitl [Hlev]; · iexact Hlev
  isplitl [H3]; · iexact H3
  isplitl [H4]; · iexact H4
  isplitl [H5]; · iexact H5
  isplitl [H6]; · iexact H6
  isplitl [HO]; · iexact HO
  isplitl [H8]; · iexact H8
  isplitl [H9]; · iexact H9
  isplitl [Hcr]; · iexact Hcr
  isplitl [H11]; · iexact H11
  isplitl [H12]; · iexact H12
  isplitl [H13]; · iexact H13
  isplitl [H14]; · iexact H14
  iexact H15

/-- The pieces held before the first transfer, the families of the 31 operations as chains, make up the holdings with no
    transfer issued. -/
theorem pack (m : Mem F) (K : Dev nD × Option (Fin 4 × Fin 31) → ℕ) (c : Dev nD)
    (s : Buf (Elt F) ((c : Thread nD τ).loc cc0_stg3_0)) (W : Waits sig Unit)
    (f2 : Buf (Elt F) (agB.view.loc (c : Thread nD τ))) :
    iprop(records m K ∗ levAts L lv
        ∗ slotPts srcB c (dv c) fullShare (P m c)
        ∗ PreA.chain31 (fun r => slotPts srcB c (dv (nb c r)) fullShare (P m c))
        ∗ PreA.chain31 (fun r => iprop(∃ f, slotPts rsB (nb c r) (sl (rev r)) fullShare f))
        ∗ PreA.chain31 (fun r => iprop(dutyTok ER (rsS c r) 0 (0 : Fin 31) ∗ dutyTok ER (rsR (nb c r) (rev r)) 0 (0 : Fin 31)))
        ∗ slotPts agB c (dv c) fullShare f2
        ∗ (bigSep Finset.univ fun r : Fin 31 => iprop(∃ f, slotPts agB (nb c r) (dv c) fullShare f))
        ∗ Mid.staging m c s
        ∗ owes (c : Thread nD τ) (owedAg c 31 + owedRs c 31) W
        ∗ (bigSep Finset.univ fun r : Fin 31 => iprop(atPos ER (rsS c r) 0 ∅ 0 ∗ atPos ER (agS c r) 0 ∅ 0 ∗ atPos ER (agR c r) 0 ∅ 0))
        ∗ atPos ER (bar c) 1 ∅ 0
        ∗ (bigSep Finset.univ fun r : Fin 31 => cred (tallyAt (agR c r) () N))
        ∗ (bigSep Finset.univ fun r : Fin 31 => iprop(dutyTok ER (agS c r) 0 0 ∗ dutyTok ER (agR (nb c r) r) 0 0))
        ∗ slotPts rsB c 0 fullShare (rsAll (P m) c)
        ∗ (bigSep Finset.univ fun r : Fin 31 => atPos ER (rsR c r) 0 ∅ 0)
        ∗ (bigSep Finset.univ fun r : Fin 31 => cred (tallyAt (rsR c r) () N)))
      ⊢ (SSt m K c s W f2 ∅ 31 : sProp 𝕄) := by
  have hsr : iprop((bigSep Finset.univ fun r : Fin 31 => (slotPts srcB c (dv (nb c r)) fullShare (P m c) : sProp 𝕄))
        ∗ (bigSep Finset.univ fun r : Fin 31 => (iprop(∃ f, slotPts rsB (nb c r) (sl (rev r)) fullShare f) : sProp 𝕄))
        ∗ (bigSep Finset.univ fun r : Fin 31 => (iprop(dutyTok ER (rsS c r) 0 (0 : Fin 31) ∗ dutyTok ER (rsR (nb c r) (rev r)) 0 (0 : Fin 31)) : sProp 𝕄)))
      ⊢ bigSep Finset.univ (fun r : Fin 31 => sendRes m c r) := by
    unfold sendRes
    simp only [bigSep_sep']
    exact BIBase.Entails.rfl
  unfold SSt Carry
  rw [Finset.sdiff_empty, bigSep_empty, ← PreA.chain31_eq, ← PreA.chain31_eq, ← PreA.chain31_eq]
  iintro ⟨H1, H2, H3, HX, HD, HT, H7, H8, H9, HO, H11, H12, H13, H14, H15, H16, H17⟩
  isplitl [H1]; · iexact H1
  isplitl [H2 H3 H7 H8 H9 H11 H12 H13 H14 H15 H16 H17]
  · isplitl [H2]; · iexact H2
    isplitl [H3]; · iexact H3
    isplitl [H7]; · iexact H7
    isplitl [H8]; · iexact H8
    isplitl [H9]; · iexact H9
    isplitl [H11]; · iexact H11
    isplitl [H12]; · iexact H12
    isplitl [H13]; · iexact H13
    isplitl [H14]; · iexact H14
    isplitl [H15]; · iexact H15
    isplitl [H16]; · iexact H16
    iexact H17
  isplitl [HO]; · iexact HO
  isplitr; · iempintro
  iapply hsr
  isplitl [HX]; · iexact HX
  isplitl [HD]; · iexact HD
  iexact HT

set_option maxRecDepth 8192 in
set_option maxHeartbeats 4000000 in
/-- The reduce-scatter's transfers of operations 1 to 30, parts eight to nineteen: from the first transfer issued to all of
    them, which is the assertion the receive waits start from. -/
theorem sends (m : Mem F) (K : Dev nD × Option (Fin 4 × Fin 31) → ℕ) (c : Dev nD)
    (s : Buf (Elt F) ((c : Thread nD τ).loc cc0_stg3_0)) (W : Waits sig Unit)
    (f2 : Buf (Elt F) (agB.view.loc (c : Thread nD τ))) (v2 v184 : BitVec 32) {α : Type}
    (kont : Dev nD → BitVec 32 → (Fin 31 → BitVec 32) → Prog (TpuEff nD τ sig (Elt F) Λ₀ .tc) α) (Q : α → sProp 𝕄)
    (hk : ∀ w : Fin 31 → BitVec 32, Mid.MidS m K c s W ⊢ wp frame (wpE (defs₀ (F := F)) 𝒱₀ (c : Thread nD τ) none) Set.univ (kont c v2 w) Q) :
    SSt m K c s W f2 {0} 30 ⊢ wp frame (wpE (defs₀ (F := F)) 𝒱₀ (c : Thread nD τ) none) Set.univ
      (CutS.progSends (Memref.whole cc0_stg0_0) (Memref.isWhole_whole _) (Memref.whole cc0_stg1_0) (Memref.isWhole_whole _) (Memref.whole cc0_stg2_0) (Memref.isWhole_whole _) (Memref.whole cc0_stg3_0) (Memref.isWhole_whole _) srcB (Memref.isWhole_whole _) rsB (Memref.isWhole_whole _) agB (Memref.isWhole_whole _) cc0_scratch3 cc0_scratch4 cc0_scratch5 cc0_scratch6 c v2 v184 kont) Q := by
  refine step m K c s W f2 ⟨1, by decide⟩ 29 rfl _ (by decide) _ (dev33_eq c) _ _ (srcSlot1_eq srcB c _ _) (by rfl) _ _ (by rfl) (by rfl) _ _ _ _ _ Q ?_
  refine step m K c s W f2 ⟨2, by decide⟩ 28 rfl _ (by decide) _ (dev34_eq c) _ _ (srcSlot2_eq srcB c _ _) (by rfl) _ _ (by rfl) (by rfl) _ _ _ _ _ Q ?_
  refine step m K c s W f2 ⟨3, by decide⟩ 27 rfl _ (by decide) _ (dev35_eq c) _ _ (srcSlot3_eq srcB c _ _) (by rfl) _ _ (by rfl) (by rfl) _ _ _ _ _ Q ?_
  refine step m K c s W f2 ⟨4, by decide⟩ 26 rfl _ (by decide) _ (dev36_eq c) _ _ (srcSlot4_eq srcB c _ _) (by rfl) _ _ (by rfl) (by rfl) _ _ _ _ _ Q ?_
  refine step m K c s W f2 ⟨5, by decide⟩ 25 rfl _ (by decide) _ (dev37_eq c) _ _ (srcSlot5_eq srcB c _ _) (by rfl) _ _ (by rfl) (by rfl) _ _ _ _ _ Q ?_
  refine step m K c s W f2 ⟨6, by decide⟩ 24 rfl _ (by decide) _ (dev38_eq c) _ _ (srcSlot6_eq srcB c _ _) (by rfl) _ _ (by rfl) (by rfl) _ _ _ _ _ Q ?_
  refine step m K c s W f2 ⟨7, by decide⟩ 23 rfl _ (by decide) _ (dev39_eq c) _ _ (srcSlot7_eq srcB c _ _) (by rfl) _ _ (by rfl) (by rfl) _ _ _ _ _ Q ?_
  refine step m K c s W f2 ⟨8, by decide⟩ 22 rfl _ (by decide) _ (dev40_eq c) _ _ (srcSlot8_eq srcB c _ _) (by rfl) _ _ (by rfl) (by rfl) _ _ _ _ _ Q ?_
  refine step m K c s W f2 ⟨9, by decide⟩ 21 rfl _ (by decide) _ (dev41_eq c) _ _ (srcSlot9_eq srcB c _ _) (by rfl) _ _ (by rfl) (by rfl) _ _ _ _ _ Q ?_
  refine step m K c s W f2 ⟨10, by decide⟩ 20 rfl _ (by decide) _ (dev42_eq c) _ _ (srcSlot10_eq srcB c _ _) (by rfl) _ _ (by rfl) (by rfl) _ _ _ _ _ Q ?_
  refine step m K c s W f2 ⟨11, by decide⟩ 19 rfl _ (by decide) _ (dev43_eq c) _ _ (srcSlot11_eq srcB c _ _) (by rfl) _ _ (by rfl) (by rfl) _ _ _ _ _ Q ?_
  refine step m K c s W f2 ⟨12, by decide⟩ 18 rfl _ (by decide) _ (dev44_eq c) _ _ (srcSlot12_eq srcB c _ _) (by rfl) _ _ (by rfl) (by rfl) _ _ _ _ _ Q ?_
  refine step m K c s W f2 ⟨13, by decide⟩ 17 rfl _ (by decide) _ (dev45_eq c) _ _ (srcSlot13_eq srcB c _ _) (by rfl) _ _ (by rfl) (by rfl) _ _ _ _ _ Q ?_
  refine step m K c s W f2 ⟨14, by decide⟩ 16 rfl _ (by decide) _ (dev46_eq c) _ _ (srcSlot14_eq srcB c _ _) (by rfl) _ _ (by rfl) (by rfl) _ _ _ _ _ Q ?_
  refine step m K c s W f2 ⟨15, by decide⟩ 15 rfl _ (by decide) _ (dev47_eq c) _ _ (srcSlot15_eq srcB c _ _) (by rfl) _ _ (by rfl) (by rfl) _ _ _ _ _ Q ?_
  refine step m K c s W f2 ⟨16, by decide⟩ 14 rfl _ (by decide) _ (dev48_eq c) _ _ (srcSlot16_eq srcB c _ _) (by rfl) _ _ (by rfl) (by rfl) _ _ _ _ _ Q ?_
  refine step m K c s W f2 ⟨17, by decide⟩ 13 rfl _ (by decide) _ (dev49_eq c) _ _ (srcSlot17_eq srcB c _ _) (by rfl) _ _ (by rfl) (by rfl) _ _ _ _ _ Q ?_
  refine step m K c s W f2 ⟨18, by decide⟩ 12 rfl _ (by decide) _ (dev50_eq c) _ _ (srcSlot18_eq srcB c _ _) (by rfl) _ _ (by rfl) (by rfl) _ _ _ _ _ Q ?_
  refine step m K c s W f2 ⟨19, by decide⟩ 11 rfl _ (by decide) _ (dev51_eq c) _ _ (srcSlot19_eq srcB c _ _) (by rfl) _ _ (by rfl) (by rfl) _ _ _ _ _ Q ?_
  refine step m K c s W f2 ⟨20, by decide⟩ 10 rfl _ (by decide) _ (dev52_eq c) _ _ (srcSlot20_eq srcB c _ _) (by rfl) _ _ (by rfl) (by rfl) _ _ _ _ _ Q ?_
  refine step m K c s W f2 ⟨21, by decide⟩ 9 rfl _ (by decide) _ (dev53_eq c) _ _ (srcSlot21_eq srcB c _ _) (by rfl) _ _ (by rfl) (by rfl) _ _ _ _ _ Q ?_
  refine step m K c s W f2 ⟨22, by decide⟩ 8 rfl _ (by decide) _ (dev54_eq c) _ _ (srcSlot22_eq srcB c _ _) (by rfl) _ _ (by rfl) (by rfl) _ _ _ _ _ Q ?_
  refine step m K c s W f2 ⟨23, by decide⟩ 7 rfl _ (by decide) _ (dev55_eq c) _ _ (srcSlot23_eq srcB c _ _) (by rfl) _ _ (by rfl) (by rfl) _ _ _ _ _ Q ?_
  refine step m K c s W f2 ⟨24, by decide⟩ 6 rfl _ (by decide) _ (dev56_eq c) _ _ (srcSlot24_eq srcB c _ _) (by rfl) _ _ (by rfl) (by rfl) _ _ _ _ _ Q ?_
  refine step m K c s W f2 ⟨25, by decide⟩ 5 rfl _ (by decide) _ (dev57_eq c) _ _ (srcSlot25_eq srcB c _ _) (by rfl) _ _ (by rfl) (by rfl) _ _ _ _ _ Q ?_
  refine step m K c s W f2 ⟨26, by decide⟩ 4 rfl _ (by decide) _ (dev58_eq c) _ _ (srcSlot26_eq srcB c _ _) (by rfl) _ _ (by rfl) (by rfl) _ _ _ _ _ Q ?_
  refine step m K c s W f2 ⟨27, by decide⟩ 3 rfl _ (by decide) _ (dev59_eq c) _ _ (srcSlot27_eq srcB c _ _) (by rfl) _ _ (by rfl) (by rfl) _ _ _ _ _ Q ?_
  refine step m K c s W f2 ⟨28, by decide⟩ 2 rfl _ (by decide) _ (dev60_eq c) _ _ (srcSlot28_eq srcB c _ _) (by rfl) _ _ (by rfl) (by rfl) _ _ _ _ _ Q ?_
  refine step m K c s W f2 ⟨29, by decide⟩ 1 rfl _ (by decide) _ (dev61_eq c) _ _ (srcSlot29_eq srcB c _ _) (by rfl) _ _ (by rfl) (by rfl) _ _ _ _ _ Q ?_
  refine step m K c s W f2 ⟨30, by decide⟩ 0 rfl _ (by decide) _ (dev62_eq c) _ _ (srcSlot30_eq srcB c _ _) (by rfl) _ _ (by rfl) (by rfl) _ _ _ _ _ Q ?_
  refine (Entails.of_eq (congrArg (fun S => SSt m K c s W f2 S 0) (show _ = (Finset.univ : Finset (Fin 31)) from by decide))).trans ?_
  exact (finish m K c s W f2).trans (hk _)

/-- info: 'Cert.KernelIdeal.BodySends.sends' depends on axioms: [propext, Classical.choice, Quot.sound] -/
#guard_msgs in #print axioms sends

/-- info: 'Cert.KernelIdeal.BodySends.pack' depends on axioms: [propext, Classical.choice, Quot.sound] -/
#guard_msgs in #print axioms pack

/-- info: 'Cert.KernelIdeal.BodySends.step'' depends on axioms: [propext, Classical.choice, Quot.sound] -/
#guard_msgs in #print axioms step'

end Cert.KernelIdeal.BodySends

end
-- ==== Proof.BodyA.lean ====
/-
One thread's body at a symbolic device `c`, from its start to the point where the reduce-scatter's 31 copies have been
issued. In order: the device signals the barrier cell of each of its 31 forward neighbours, paying each signal's duty
with the two slots of its own that the neighbour's copies will land in (slot `r + 1` of its receive buffer and the
neighbour's slot of its all-gather buffer); it loads its three argument blocks, stores its partial product `P m c` whole,
and copies its own chunk into slot 0 of its receive buffer, which then holds `rsAll (P m) c` there; it waits for the 31
units of its own barrier cell and receives, from each neighbour, the slot of that neighbour its copy will write; its
partial product is cut into its own chunk and the 31 chunks by neighbour; the first copy goes to the next device, and
the thirty that remain run from one packed state. What is owed shrinks by one unit a signal and one slot's credit a copy.
The precondition is `PreA`; the continuation is entered at `MidS`.
-/
import proofs.«900791_g7700000000000792_dist_gconv1d_cshard_i_b4_s512_c256_v7x_i32_bf16_1_alg».proof.Proof.PreA
import proofs.«900791_g7700000000000792_dist_gconv1d_cshard_i_b4_s512_c256_v7x_i32_bf16_1_alg».proof.Proof.CutA
import proofs.«900791_g7700000000000792_dist_gconv1d_cshard_i_b4_s512_c256_v7x_i32_bf16_1_alg».proof.Proof.DevEqs
import proofs.«900791_g7700000000000792_dist_gconv1d_cshard_i_b4_s512_c256_v7x_i32_bf16_1_alg».proof.Proof.Tables
import proofs.«900791_g7700000000000792_dist_gconv1d_cshard_i_b4_s512_c256_v7x_i32_bf16_1_alg».proof.Proof.Levels
import proofs.«900791_g7700000000000792_dist_gconv1d_cshard_i_b4_s512_c256_v7x_i32_bf16_1_alg».proof.Proof.Landing
import proofs.«900791_g7700000000000792_dist_gconv1d_cshard_i_b4_s512_c256_v7x_i32_bf16_1_alg».proof.Proof.Steps
import proofs.«900791_g7700000000000792_dist_gconv1d_cshard_i_b4_s512_c256_v7x_i32_bf16_1_alg».proof.Proof.BarWait
import proofs.«900791_g7700000000000792_dist_gconv1d_cshard_i_b4_s512_c256_v7x_i32_bf16_1_alg».proof.Proof.SrcSplit
import proofs.«900791_g7700000000000792_dist_gconv1d_cshard_i_b4_s512_c256_v7x_i32_bf16_1_alg».proof.Proof.Stores
import proofs.«900791_g7700000000000792_dist_gconv1d_cshard_i_b4_s512_c256_v7x_i32_bf16_1_alg».proof.Proof.Slots
import proofs.«900791_g7700000000000792_dist_gconv1d_cshard_i_b4_s512_c256_v7x_i32_bf16_1_alg».proof.Proof.BodySends

set_option synthInstance.maxSize 4096

noncomputable section

namespace Cert.KernelIdeal.BodyA

open Cert.KernelIdeal Cert.KernelIdeal.Gen Cert.KernelIdeal.Contents Cert.KernelIdeal.Proto Cert.KernelIdeal.Mid Cert.KernelIdeal.PreA
open Cert.KernelIdeal.DevEqs Cert.KernelIdeal.Tables Cert.KernelIdeal.Levels
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig Unit (Elt F) ℕ UU ℕ

/-- `Steps.sig_step'` with what is still owed counted by a numeral: `n` signals are left after operation `r`. -/
theorem sigN (m : Mem F) (c : Dev nD) (r : Fin 31) (n : ℕ) (hn : n + r.val = 30) (κ : ℕ)
    (f : Buf (Elt F) ((slotM rsB (sl r)).view.loc (c : Thread nD τ))) (g : Buf (Elt F) ((slotM agB (dv (nb c r))).view.loc (c : Thread nD τ)))
    {α : Type} (k : PUnit → Prog (TpuEff nD τ sig (Elt F) Λ₀ .tc) α) (Q : α → sProp 𝕄) (W : Waits sig Unit) :
    ⊢ (iprop(cellInv ER (sched (F := F) m) κ (bar (nb c r)) -∗ owes (c : Thread nD τ) (owedAg c 31 + owedRs c 31 + owedSig c (n + 1)) W
        -∗ dutyTok ER (bar (nb c r)) 0 r -∗ slotPts (F := F) rsB c (sl r) fullShare f -∗ slotPts (F := F) agB c (dv (nb c r)) fullShare g
        -∗ reached ER (rsR c r) 0 -∗ reached ER (agR c (rev r)) 0 -∗ reached ER (bar (nb c r)) 0
        -∗ (owes (c : Thread nD τ) (owedAg c 31 + owedRs c 31 + owedSig c n) W -∗ wp frame (wpE (defs₀ (F := F)) 𝒱₀ (c : Thread nD τ) none) Set.univ (k ⟨⟩) Q)
        -∗ wp frame (wpE (defs₀ (F := F)) 𝒱₀ (c : Thread nD τ) none) Set.univ (.op (.semSignal ((nb c r : Dev nD) : Thread nD τ) barS 1) k) Q) : sProp 𝕄) := by
  have h1 : 31 - r.val = n + 1 := by omega
  have h2 : 30 - r.val = n := by omega
  have h := Steps.sig_step' m c r κ f g k Q W
  rw [h1, h2] at h
  exact h

set_option maxHeartbeats 16000000 in
/-- The body's first nineteen parts at device `c`: from `PreA` they run to the continuation, which is entered at `MidS`
    (every copy of the reduce-scatter issued, no receive slot yet waited for) with the device itself, the word of its
    position and the 31 words the copies' parts compute. -/
theorem sends (m : Mem F) (K : Dev nD × Option (Fin 4 × Fin 31) → ℕ) (c : Dev nD)
    (s : Buf (Elt F) ((c : Thread nD τ).loc cc0_stg3_0)) (W : Waits sig Unit)
    (f0 : Buf (Elt F) (srcB.view.loc (c : Thread nD τ))) (f1 : Buf (Elt F) (rsB.view.loc (c : Thread nD τ)))
    (f2 : Buf (Elt F) (agB.view.loc (c : Thread nD τ))) {α : Type}
    (kont : Dev nD → BitVec 32 → (Fin 31 → BitVec 32) → Prog (TpuEff nD τ sig (Elt F) Λ₀ .tc) α) (Q : α → sProp 𝕄)
    (hk : ∀ (v2 : BitVec 32) (w : Fin 31 → BitVec 32) (W' : Waits sig Unit),
      MidS m K c s W' ⊢ wp frame (wpE (defs₀ (F := F)) 𝒱₀ (c : Thread nD τ) none) Set.univ (kont c v2 w) Q) :
    PreA m K c s W f0 f1 f2 ⊢ wp frame (wpE (defs₀ (F := F)) 𝒱₀ (c : Thread nD τ) none) Set.univ
      (CutA.progS (Memref.whole cc0_stg0_0) (Memref.isWhole_whole _) (Memref.whole cc0_stg1_0) (Memref.isWhole_whole _) (Memref.whole cc0_stg2_0) (Memref.isWhole_whole _) (Memref.whole cc0_stg3_0) (Memref.isWhole_whole _) srcB (Memref.isWhole_whole _) rsB (Memref.isWhole_whole _) agB (Memref.isWhole_whole _) cc0_scratch3 cc0_scratch4 cc0_scratch5 cc0_scratch6 kont) Q := by
  unfold PreA chain31 cellsOf staging O₀
  beta_reduce
  iintro ⟨HK, #Hlev, #IBc,
    ⟨⟨#IB0, #RB0, #IS0, #RS0, #IR0, #RR0, #Qr0, #Qa0⟩, ⟨#IB1, #RB1, #IS1, #RS1, #IR1, #RR1, #Qr1, #Qa1⟩, ⟨#IB2, #RB2, #IS2, #RS2, #IR2, #RR2, #Qr2, #Qa2⟩,
     ⟨#IB3, #RB3, #IS3, #RS3, #IR3, #RR3, #Qr3, #Qa3⟩, ⟨#IB4, #RB4, #IS4, #RS4, #IR4, #RR4, #Qr4, #Qa4⟩, ⟨#IB5, #RB5, #IS5, #RS5, #IR5, #RR5, #Qr5, #Qa5⟩,
     ⟨#IB6, #RB6, #IS6, #RS6, #IR6, #RR6, #Qr6, #Qa6⟩, ⟨#IB7, #RB7, #IS7, #RS7, #IR7, #RR7, #Qr7, #Qa7⟩, ⟨#IB8, #RB8, #IS8, #RS8, #IR8, #RR8, #Qr8, #Qa8⟩,
     ⟨#IB9, #RB9, #IS9, #RS9, #IR9, #RR9, #Qr9, #Qa9⟩, ⟨#IB10, #RB10, #IS10, #RS10, #IR10, #RR10, #Qr10, #Qa10⟩, ⟨#IB11, #RB11, #IS11, #RS11, #IR11, #RR11, #Qr11, #Qa11⟩,
     ⟨#IB12, #RB12, #IS12, #RS12, #IR12, #RR12, #Qr12, #Qa12⟩, ⟨#IB13, #RB13, #IS13, #RS13, #IR13, #RR13, #Qr13, #Qa13⟩, ⟨#IB14, #RB14, #IS14, #RS14, #IR14, #RR14, #Qr14, #Qa14⟩,
     ⟨#IB15, #RB15, #IS15, #RS15, #IR15, #RR15, #Qr15, #Qa15⟩, ⟨#IB16, #RB16, #IS16, #RS16, #IR16, #RR16, #Qr16, #Qa16⟩, ⟨#IB17, #RB17, #IS17, #RS17, #IR17, #RR17, #Qr17, #Qa17⟩,
     ⟨#IB18, #RB18, #IS18, #RS18, #IR18, #RR18, #Qr18, #Qa18⟩, ⟨#IB19, #RB19, #IS19, #RS19, #IR19, #RR19, #Qr19, #Qa19⟩, ⟨#IB20, #RB20, #IS20, #RS20, #IR20, #RR20, #Qr20, #Qa20⟩,
     ⟨#IB21, #RB21, #IS21, #RS21, #IR21, #RR21, #Qr21, #Qa21⟩, ⟨#IB22, #RB22, #IS22, #RS22, #IR22, #RR22, #Qr22, #Qa22⟩, ⟨#IB23, #RB23, #IS23, #RS23, #IR23, #RR23, #Qr23, #Qa23⟩,
     ⟨#IB24, #RB24, #IS24, #RS24, #IR24, #RR24, #Qr24, #Qa24⟩, ⟨#IB25, #RB25, #IS25, #RS25, #IR25, #RR25, #Qr25, #Qa25⟩, ⟨#IB26, #RB26, #IS26, #RS26, #IR26, #RR26, #Qr26, #Qa26⟩,
     ⟨#IB27, #RB27, #IS27, #RS27, #IR27, #RR27, #Qr27, #Qa27⟩, ⟨#IB28, #RB28, #IS28, #RS28, #IR28, #RR28, #Qr28, #Qa28⟩, ⟨#IB29, #RB29, #IS29, #RS29, #IR29, #RR29, #Qr29, #Qa29⟩,
     ⟨#IB30, #RB30, #IS30, #RS30, #IR30, #RR30, #Qr30, #Qa30⟩⟩,
    ⟨TB0, TB1, TB2, TB3, TB4, TB5, TB6, TB7, TB8, TB9, TB10, TB11, TB12, TB13, TB14, TB15, TB16, TB17, TB18, TB19, TB20, TB21, TB22, TB23, TB24, TB25, TB26, TB27, TB28, TB29, TB30⟩,
    Htoks,
    Hagt, Hpbar, HprsR, Hprest, Hcbar, HcrsR, HcagR, Hsrc,
    ⟨S0, S1, S2, S3, S4, S5, S6, S7, S8, S9, S10, S11, S12, S13, S14, S15, S16, S17, S18, S19, S20, S21, S22, S23, S24, S25, S26, S27, S28, S29, S30⟩,
    Hrs0,
    ⟨G0, G1, G2, G3, G4, G5, G6, G7, G8, G9, G10, G11, G12, G13, G14, G15, G16, G17, G18, G19, G20, G21, G22, G23, G24, G25, G26, G27, G28, G29, G30⟩,
    Hagc,
    HO, Hst0, Hst1, Hst2, Hst3⟩
  ihave Hst0 := (show ((((c : Thread nD τ).loc cc0_stg0_0) ↦{fullShare} iblk m c 0 t0_0 : sProp 𝕄)) ⊢ ((Memref.whole cc0_stg0_0).view.loc (c : Thread nD τ) ↦{fullShare} iblk m c 0 t0_0) from BIBase.Entails.rfl) $$ Hst0
  ihave Hst1 := (show ((((c : Thread nD τ).loc cc0_stg1_0) ↦{fullShare} iblk m c 1 t0_0 : sProp 𝕄)) ⊢ ((Memref.whole cc0_stg1_0).view.loc (c : Thread nD τ) ↦{fullShare} iblk m c 1 t0_0) from BIBase.Entails.rfl) $$ Hst1
  ihave Hst2 := (show ((((c : Thread nD τ).loc cc0_stg2_0) ↦{fullShare} iblk m c 2 t0_0 : sProp 𝕄)) ⊢ ((Memref.whole cc0_stg2_0).view.loc (c : Thread nD τ) ↦{fullShare} iblk m c 2 t0_0) from BIBase.Entails.rfl) $$ Hst2
  ihave Hst3 := (show ((((c : Thread nD τ).loc cc0_stg3_0) ↦{fullShare} s : sProp 𝕄)) ⊢ ((Memref.whole cc0_stg3_0).view.loc (c : Thread nD τ) ↦{fullShare} s) from BIBase.Entails.rfl) $$ Hst3
  unfold CutA.progS
  sl_exec_parts
  iapply (sigN m c 0 30 rfl _ _ _ _ _ _) $$ IB0 HO TB0 S0 G0 Qr0 Qa0 RB0
  iintro HO
  sl_exec_parts
  iapply (sigN m c 1 29 rfl _ _ _ _ _ _) $$ IB1 HO TB1 S1 G1 Qr1 Qa1 RB1
  iintro HO
  sl_exec_parts
  iapply (sigN m c 2 28 rfl _ _ _ _ _ _) $$ IB2 HO TB2 S2 G2 Qr2 Qa2 RB2
  iintro HO
  sl_exec_parts
  iapply (sigN m c 3 27 rfl _ _ _ _ _ _) $$ IB3 HO TB3 S3 G3 Qr3 Qa3 RB3
  iintro HO
  sl_exec_parts
  iapply (sigN m c 4 26 rfl _ _ _ _ _ _) $$ IB4 HO TB4 S4 G4 Qr4 Qa4 RB4
  iintro HO
  sl_exec_parts
  iapply (sigN m c 5 25 rfl _ _ _ _ _ _) $$ IB5 HO TB5 S5 G5 Qr5 Qa5 RB5
  iintro HO
  sl_exec_parts
  iapply (sigN m c 6 24 rfl _ _ _ _ _ _) $$ IB6 HO TB6 S6 G6 Qr6 Qa6 RB6
  iintro HO
  sl_exec_parts
  iapply (sigN m c 7 23 rfl _ _ _ _ _ _) $$ IB7 HO TB7 S7 G7 Qr7 Qa7 RB7
  iintro HO
  sl_exec_parts
  iapply (sigN m c 8 22 rfl _ _ _ _ _ _) $$ IB8 HO TB8 S8 G8 Qr8 Qa8 RB8
  iintro HO
  sl_exec_parts
  iapply (sigN m c 9 21 rfl _ _ _ _ _ _) $$ IB9 HO TB9 S9 G9 Qr9 Qa9 RB9
  iintro HO
  sl_exec_parts
  iapply (sigN m c 10 20 rfl _ _ _ _ _ _) $$ IB10 HO TB10 S10 G10 Qr10 Qa10 RB10
  iintro HO
  sl_exec_parts
  iapply (sigN m c 11 19 rfl _ _ _ _ _ _) $$ IB11 HO TB11 S11 G11 Qr11 Qa11 RB11
  iintro HO
  sl_exec_parts
  iapply (sigN m c 12 18 rfl _ _ _ _ _ _) $$ IB12 HO TB12 S12 G12 Qr12 Qa12 RB12
  iintro HO
  sl_exec_parts
  iapply (sigN m c 13 17 rfl _ _ _ _ _ _) $$ IB13 HO TB13 S13 G13 Qr13 Qa13 RB13
  iintro HO
  sl_exec_parts
  iapply (sigN m c 14 16 rfl _ _ _ _ _ _) $$ IB14 HO TB14 S14 G14 Qr14 Qa14 RB14
  iintro HO
  sl_exec_parts
  iapply (sigN m c 15 15 rfl _ _ _ _ _ _) $$ IB15 HO TB15 S15 G15 Qr15 Qa15 RB15
  iintro HO
  sl_exec_parts
  iapply (sigN m c 16 14 rfl _ _ _ _ _ _) $$ IB16 HO TB16 S16 G16 Qr16 Qa16 RB16
  iintro HO
  sl_exec_parts
  iapply (sigN m c 17 13 rfl _ _ _ _ _ _) $$ IB17 HO TB17 S17 G17 Qr17 Qa17 RB17
  iintro HO
  sl_exec_parts
  iapply (sigN m c 18 12 rfl _ _ _ _ _ _) $$ IB18 HO TB18 S18 G18 Qr18 Qa18 RB18
  iintro HO
  sl_exec_parts
  iapply (sigN m c 19 11 rfl _ _ _ _ _ _) $$ IB19 HO TB19 S19 G19 Qr19 Qa19 RB19
  iintro HO
  sl_exec_parts
  iapply (sigN m c 20 10 rfl _ _ _ _ _ _) $$ IB20 HO TB20 S20 G20 Qr20 Qa20 RB20
  iintro HO
  sl_exec_parts
  iapply (sigN m c 21 9 rfl _ _ _ _ _ _) $$ IB21 HO TB21 S21 G21 Qr21 Qa21 RB21
  iintro HO
  sl_exec_parts
  iapply (sigN m c 22 8 rfl _ _ _ _ _ _) $$ IB22 HO TB22 S22 G22 Qr22 Qa22 RB22
  iintro HO
  sl_exec_parts
  iapply (sigN m c 23 7 rfl _ _ _ _ _ _) $$ IB23 HO TB23 S23 G23 Qr23 Qa23 RB23
  iintro HO
  sl_exec_parts
  iapply (sigN m c 24 6 rfl _ _ _ _ _ _) $$ IB24 HO TB24 S24 G24 Qr24 Qa24 RB24
  iintro HO
  sl_exec_parts
  iapply (sigN m c 25 5 rfl _ _ _ _ _ _) $$ IB25 HO TB25 S25 G25 Qr25 Qa25 RB25
  iintro HO
  sl_exec_parts
  iapply (sigN m c 26 4 rfl _ _ _ _ _ _) $$ IB26 HO TB26 S26 G26 Qr26 Qa26 RB26
  iintro HO
  sl_exec_parts
  iapply (sigN m c 27 3 rfl _ _ _ _ _ _) $$ IB27 HO TB27 S27 G27 Qr27 Qa27 RB27
  iintro HO
  sl_exec_parts
  iapply (sigN m c 28 2 rfl _ _ _ _ _ _) $$ IB28 HO TB28 S28 G28 Qr28 Qa28 RB28
  iintro HO
  sl_exec_parts
  iapply (sigN m c 29 1 rfl _ _ _ _ _ _) $$ IB29 HO TB29 S29 G29 Qr29 Qa29 RB29
  iintro HO
  sl_exec_parts
  iapply (sigN m c 30 0 rfl _ _ _ _ _ _) $$ IB30 HO TB30 S30 G30 Qr30 Qa30 RB30
  iintro HO
  have hacc0 : (rsB.access (Rect.unit (s := S32x64x256) ![0, 0, 0] S1x64x256.size inb_S32x64x256_S1x64x256_0_0_0)).set ⊆ (slotM rsB 0).view.set :=
    (Slots.set_access_eq_slot rsB 0 rfl).le
  ihave Hrs0 := (show (slotPts (F := F) rsB c 0 fullShare f1 : sProp 𝕄) ⊢ ((slotM rsB 0).view.loc (c : Thread nD τ) ↦[(slotM rsB 0).view.set]{fullShare} f1) from BIBase.Entails.rfl) $$ Hrs0
  sl_exec_parts
  ihave HO := (Steps.owes_sig0 c _ _) $$ HO
  iapply (BarWait.bar_wait_of_eq m c _ _ _ _ _ (by decide)) $$ [Hcbar HO Hpbar]
  · isplitr; · iexact IBc
    isplitl [Hcbar]; · iexact Hcbar
    isplitl [HO]; · iexact HO
    isplitr; · iexact Hlev
    iexact Hpbar
  iintro ⟨HO, Hpbar, #Rbar1, Hd, Hagp⟩
  sl_exec_parts
  -- what the product's buffer holds is the device's partial product
  have hP : srcB.view.writes (Elt F) srcB.view.junk (sends.sl.Hsrc_1 m c) = P m c := by
    unfold sends.sl.Hsrc_1 sends.sl.r sends.sl.r_1
    exact Stores.src_listed_eq m c _
  unfold sends.sl.Hrs0_w1
  rw [hP]
  ihave Hrs0 := (Stores.rs0_stored m c f1) $$ Hrs0
  ihave Hsl := (SrcSplit.src_split c (P m c)) $$ Hsrc
  icases Hsl with ⟨Hown, Hxs⟩
  -- everything the copies' part needs, as the one state it runs from
  ihave HS := (BodySends.pack m K c s _ f2) $$ [HK Hown Hxs Hd Htoks Hagc Hagp Hst0 Hst1 Hst2 Hst3 HO Hprest Hpbar HcagR Hagt Hrs0 HprsR HcrsR]
  · isplitl [HK]; · iexact HK
    isplitr; · iexact Hlev
    isplitl [Hown]; · iexact Hown
    isplitl [Hxs]; · iexact Hxs
    isplitl [Hd]; · iexact Hd
    isplitl [Htoks]
    · unfold chain31
      beta_reduce
      iexact Htoks
    isplitl [Hagc]; · iexact Hagc
    isplitl [Hagp]; · iexact Hagp
    isplitl [Hst0 Hst1 Hst2 Hst3]
    · unfold staging
      isplitl [Hst0]; · iexact Hst0
      isplitl [Hst1]; · iexact Hst1
      isplitl [Hst2]; · iexact Hst2
      iexact Hst3
    isplitl [HO]; · iexact HO
    isplitl [Hprest]; · iexact Hprest
    isplitl [Hpbar]; · iexact Hpbar
    isplitl [HcagR]; · iexact HcagR
    isplitl [Hagt]; · iexact Hagt
    isplitl [Hrs0]; · iexact Hrs0
    isplitl [HprsR]; · iexact HprsR
    iexact HcrsR
  -- the first copy: to the next device, named by its chain
  iapply (BodySends.step' m K c s _ f2 ⟨0, by decide⟩ 30 rfl ∅ (by decide) _ (dev32_eq c) _ _ (by rfl) (by rfl) _ _ (by rfl) (by rfl) _ _ _ _ _ _) $$ HS
  iintro HS
  -- the copy's part returns its word; the thirty copies that remain run from the packed state
  iapply (le_wp_ret _ _ _ _ _)
  have hS0 : ∀ h : 0 < 31, (BodySends.SSt m K c s (insert (SemLoc.reg barS, ()) W) f2 (insert (⟨0, h⟩ : Fin 31) ∅) 30 : sProp 𝕄)
      ⊢ BodySends.SSt m K c s (insert (SemLoc.reg barS, ()) W) f2 {0} 30 := fun _ => BIBase.Entails.rfl
  ihave HS := (hS0 _) $$ HS
  iapply (BodySends.sends m K c s _ f2 _ _ kont Q (fun w => hk _ w _)) $$ HS

/-- info: 'Cert.KernelIdeal.BodyA.sends' depends on axioms: [propext, Classical.choice, Quot.sound] -/
#guard_msgs in #print axioms sends

end Cert.KernelIdeal.BodyA
-- ==== Proof.ValB.lean ====
/-
What the body's store of a device's contribution leaves in the all-gather buffer. The contribution of device c
is the sum of its thirty-two received slots; the body stores it through the unit slice of the all-gather buffer
at the device's own position. On the elements of that slot the buffer then holds the all-gather's final contents:
there the final contents are, by definition, the contribution of the device whose number the slot has.
-/
import proofs.«900791_g7700000000000792_dist_gconv1d_cshard_i_b4_s512_c256_v7x_i32_bf16_1_alg».proof.Proof.Proto
import proofs.«900791_g7700000000000792_dist_gconv1d_cshard_i_b4_s512_c256_v7x_i32_bf16_1_alg».proof.Proof.Slots
import Idealize.ShloMosaic.Lib.Pipeline.Value

noncomputable section

namespace Cert.KernelIdeal.ValB

open Cert.KernelIdeal Cert.KernelIdeal.Gen Cert.KernelIdeal.Contents Cert.KernelIdeal.Proto Cert.KernelIdeal.Slots
open Idealize.ShloMosaic Idealize.ShloMosaic.ValueIdx
open Idealize.ShloMosaic.TcCoe

variable {F : FTy → Type} [FloatOps F]

/-- On the slot of device `c`'s number the all-gather buffer's final contents are `c`'s contribution: the sum of
    its thirty-two received slots. -/
theorem agAll_slot (Q : Dev nD → Vec F S32x64x256 .bf16) (c : Dev nD) (i : S32x64x256.Idx) (hi : (i 0).val = c.val) :
    agAll Q i = k0_pay7 (rsAll Q c) (ix3 (0 : Fin 1) (i 1) (i 2)) := by
  have e : i 0 = c := Fin.ext hi
  unfold agAll acc
  rw [e]

/-- The view the body stores its contribution through: the unit slice of the all-gather buffer at the device's own slot. -/
abbrev agStV (c : Dev nD) : View sig .tc .vmem S1x64x256 .bf16 :=
  agB.access (Rect.unit (s := S32x64x256) (k0_off1 c) S1x64x256.size (k0_off1_inb c))

/-- After the body stores device `c`'s contribution through that view, into whatever the buffer held, the buffer agrees
    on slot `c` with the all-gather's final contents. -/
theorem agStore_eq (m : Mem F) (c : Dev nD) (f0 : Buf (Elt F) (agB.view.loc (c : Thread nD τ))) :
    ∀ i ∈ (slotM agB (dv c)).view.set,
      (agStV c).write (Elt F) f0 (k0_pay7 (rsAll (P m) c)) Finset.univ i = agAll (P m) i := by
  intro i hi
  have hi' : i ∈ (agStV c).set := by
    rw [set_access_eq_slot agB (dv c) (k0_off1_eq c)]; exact hi
  obtain ⟨y, rfl⟩ := View.exists_emb_of_mem_set (agStV c) hi'
  rw [View.write_emb_of_mem _ _ (Finset.mem_univ y)]
  have hy0 : (y 0).val < 1 := (y 0).isLt
  have e0 : (((agStV c).emb y) 0 : ℕ) = c.val := by
    show (k0_off1 c) 0 + 1 * (y 0).val = c.val
    rw [k0_off1_eq c]
    show c.val + 1 * (y 0).val = c.val
    omega
  have e1 : ((agStV c).emb y) 1 = y 1 := Fin.ext (by
    show (k0_off1 c) 1 + 1 * (y 1).val = (y 1).val
    rw [k0_off1_eq c]
    show 0 + 1 * (y 1).val = (y 1).val
    omega)
  have e2 : ((agStV c).emb y) 2 = y 2 := Fin.ext (by
    show (k0_off1 c) 2 + 1 * (y 2).val = (y 2).val
    rw [k0_off1_eq c]
    show 0 + 1 * (y 2).val = (y 2).val
    omega)
  have ey : ix3 (0 : Fin 1) (y 1) (y 2) = y := by
    funext a
    match a with
    | ⟨0, _⟩ => exact Fin.ext (by show 0 = (y 0).val; omega)
    | ⟨1, _⟩ => rfl
    | ⟨2, _⟩ => rfl
  rw [agAll_slot (P m) c _ e0, e1, e2]
  exact (cast_eq _ _).trans (congrArg (k0_pay7 (rsAll (P m) c)) ey).symm

/-- info: 'Cert.KernelIdeal.ValB.agStore_eq' depends on axioms: [propext, Classical.choice, Quot.sound] -/
#guard_msgs in #print axioms agStore_eq

end Cert.KernelIdeal.ValB

end
-- ==== Proof.AgSend.lean ====
/-
The all-gather's send step. Device `c`'s operation `r` copies its own slot of the all-gather buffer into the same slot
of device `c + r + 1`. The thread lends the transfer share `sh r` of its slot, which is the send cell's payload and comes
back at the send wait; it owns the destination slot outright (from the barrier's payloads), and the landed contents are
the receive cell's payload. The thread owed the receive cell's units and no longer does.
-/
import proofs.«900791_g7700000000000792_dist_gconv1d_cshard_i_b4_s512_c256_v7x_i32_bf16_1_alg».proof.Proof.Tables
import proofs.«900791_g7700000000000792_dist_gconv1d_cshard_i_b4_s512_c256_v7x_i32_bf16_1_alg».proof.Proof.Landing

noncomputable section

namespace Cert.KernelIdeal.AgSend

open Cert.KernelIdeal Cert.KernelIdeal.Gen Cert.KernelIdeal.Contents Cert.KernelIdeal.Proto Cert.KernelIdeal.Tables
open Cert.KernelIdeal.Landing
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- One cell's invariant, out of the records of all of them. -/
theorem inv_of_records (m : Mem F) (K : Dev nD × Option (Fin 4 × Fin 31) → ℕ) (ck : Dev nD × Option (Fin 4 × Fin 31)) :
    (records (F := F) m K : sProp 𝕄) ⊢ cellInv ER (sched m) (K ck) (kcell ck) := by
  unfold records
  exact (BI.sep_and.trans BI.and_elimL).trans (BI.bigSep_elim (Finset.mem_univ ck))

/-- That one cell's round 0 is reached, out of the records. -/
theorem reached_of_records (m : Mem F) (K : Dev nD × Option (Fin 4 × Fin 31) → ℕ) (ck : Dev nD × Option (Fin 4 × Fin 31)) :
    (records (F := F) m K : sProp 𝕄) ⊢ reached ER (kcell ck) 0 := by
  unfold records
  exact (BI.sep_and.trans BI.and_elimR).trans (BI.bigSep_elim (Finset.mem_univ ck))

instance records_persistent' (m : Mem F) (K : Dev nD × Option (Fin 4 × Fin 31) → ℕ) :
    BI.Persistent (records (F := F) m K) := by
  unfold records; infer_instance

/-- The share lent is the send cell's payload. -/
theorem pay_agS (m : Mem F) (c : Dev nD) (r : Fin 31) :
    (((slotM agB (dv c)).view.loc (c : Thread nD τ)) ↦[(slotM agB (dv c)).view.set]{sh r} (agAll (P m)) : sProp 𝕄)
      ⊢ (sched (F := F) m).payload (agS c r) 0 0 :=
  Entails.of_eq (payload_agS m c r 0 0).symm

/-- The landed slot is the receive cell's payload. -/
theorem pay_agR (m : Mem F) (c : Dev nD) (r : Fin 31) (fd : (slotM agB (dv c)).view.ty.Contents (Elt F)) :
    (((slotM agB (dv c)).view.loc ((nb c r : Dev nD) : Thread nD τ)) ↦[(slotM agB (dv c)).view.set]{fullShare}
        ((slotM agB (dv c)).view.write (Elt F) fd ((slotM agB (dv c)).view.read (Elt F) (agAll (P m))) Finset.univ) : sProp 𝕄)
      ⊢ (sched (F := F) m).payload (agR (nb c r) r) 0 0 := by
  rw [payload_agR_nb]
  exact Entails.of_eq (pointsTo_congr fun i hi => write_read_same agB (dv c) fd (agAll (P m)) i hi)

theorem agSend (m : Mem F) (K : Dev nD × Option (Fin 4 × Fin 31) → ℕ) (c : Dev nD) (r : Fin 31)
    (fd : (slotM agB (dv c)).view.ty.Contents (Elt F)) (O : CellTallies nD τ sig Unit) (W : Waits sig Unit)
    {hsc : (slotM agB (dv c)).view.ref.isScScratch = false}
    {hsrc : (slotM agB (dv c)).view.WordExact} {hdst : (slotM agB (dv c)).view.WordExact}
    {hsem : DmaTarget.Typed .vmem (.dma (dsem 3 r))
      (.remote ((nb c r : Dev nD) : Thread nD τ) (slotM agB (dv c)) (.dma (dsem 2 r)) hsc)}
    {α : Type} {k : PUnit → Prog (TpuEff nD τ sig (Elt F) Λ₀ ((c : Thread nD τ)).2) α} {Q : α → sProp 𝕄} :
    iprop(records m K
        ∗ (((slotM agB (dv c)).view.loc (c : Thread nD τ)) ↦[(slotM agB (dv c)).view.set]{sh r} (agAll (P m)))
        ∗ (((slotM agB (dv c)).view.loc ((nb c r : Dev nD) : Thread nD τ)) ↦[(slotM agB (dv c)).view.set]{fullShare} fd)
        ∗ owes (c : Thread nD τ) (O + tallyAt (agR (nb c r) r) () N) W
        ∗ dutyTok ER (agS c r) 0 0 ∗ dutyTok ER (agR (nb c r) r) 0 0)
      ⊢ iprop(((cred (tallyAt (agS c r) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM agB (dv c))
                (.remote ((nb c r : Dev nD) : Thread nD τ) (slotM agB (dv c)) (.dma (dsem 2 r)) hsc) (.dma (dsem 3 r))
                hsrc hdst hsem) k) Q) := by
  iintro ⟨#HK, Hsrc, Hdst, HO, Ht1, Ht2⟩
  ihave #HI1 := (inv_of_records m K (c, some (2, r))) $$ HK
  ihave #HI2 := (inv_of_records m K (nb c r, some (3, r))) $$ HK
  ihave #HR1 := (reached_of_records m K (c, some (2, r))) $$ HK
  ihave #HR2 := (reached_of_records m K (nb c r, some (3, r))) $$ HK
  iapply (Rounds.wp_send_pointsTo 𝒱₀ ER (sched m) (c : Thread nD τ) none
    (mem_duties_own m c 2 r) (mem_duties_own m (nb c r) 3 r) () () N (dmaCredit_slot_ag (dv c))
    (amount_agS m c r 0 0) (amount_agR m (nb c r) r 0 0) O rfl (pay_agS m c r) (pay_agR m c r fd))
  isplitl []; · iexact HI1
  isplitl []; · iexact HI2
  isplitl [Hsrc]; · iexact Hsrc
  isplitl [Hdst]; · iexact Hdst
  isplitl [HO]; · iexact HO
  isplitl [Ht1]; · iexact Ht1
  isplitl []; · iexact HR1
  isplitl [Ht2]; · iexact Ht2
  iexact HR2

/-- info: 'Cert.KernelIdeal.AgSend.agSend' depends on axioms: [propext, Classical.choice, Quot.sound] -/
#guard_msgs in #print axioms agSend

end Cert.KernelIdeal.AgSend

end
-- ==== Proof.CutB.lean ====
/-
The second half of the body's first sixty parts cut once more: from the twenty-ninth part through the fifty-seventh (the
last receive wait of the reduce-scatter, the sum, the all-gather's copies, the reduce-scatter's send waits and the
all-gather's receive waits) followed by a continuation; and the last three (the result's store and the first of the
all-gather's send waits) with the return. The half is the first continued by the second, by unfolding.
-/
import proofs.«900791_g7700000000000792_dist_gconv1d_cshard_i_b4_s512_c256_v7x_i32_bf16_1_alg».proof.Proof.Cut

set_option synthInstance.maxSize 4096

noncomputable section

namespace Cert.KernelIdeal.CutB

open Idealize.ShloMosaic Idealize.SL.Sem Cert.KernelIdeal Cert.KernelIdeal.Cut

variable {F : FTy → Type} [FloatOps F] [Facts]
open Facts₀ Facts

set_option maxRecDepth 774 in
/-- Parts twenty-nine through fifty-seven, then a continuation. -/
def progM {α : Type} (arg0 : Memref sig .tc .vmem S4x512x256 .f32) (harg0 : arg0.IsWhole) (arg1 : Memref sig .tc .vmem S4x256 .f32) (harg1 : arg1.IsWhole) (arg2 : Memref sig .tc .vmem S256x256 .f32) (harg2 : arg2.IsWhole) (arg3 : Memref sig .tc .vmem S4x512x256 .f32) (harg3 : arg3.IsWhole) (arg4 : Memref sig .tc .vmem S32x64x256 .bf16) (harg4 : arg4.IsWhole) (arg5 : Memref sig .tc .vmem S32x64x256 .bf16) (harg5 : arg5.IsWhole) (arg6 : Memref sig .tc .vmem S32x64x256 .bf16) (harg6 : arg6.IsWhole) (arg7 : DmaSems sig S32) (arg8 : DmaSems sig S32) (arg9 : DmaSems sig S32) (arg10 : DmaSems sig S32) (d0 : Dev nD) (v2 : BitVec 32) (v544 : BitVec 32)
    (kont : Prog (TpuEff nD τ sig (Elt F) Λ₀ .tc) α) :
    Prog (TpuEff nD τ sig (Elt F) Λ₀ .tc) α := do
  let ⟨v812, v824⟩ : Σ' (v812 : BitVec 32), BitVec 32 ← k0_part29 arg0 harg0 arg1 harg1 arg2 harg2 arg3 harg3 arg4 harg4 arg5 harg5 arg6 harg6 arg7 arg8 arg9 arg10 d0 v2 v544
  let ⟨v836, v848⟩ : Σ' (v836 : BitVec 32), BitVec 32 ← k0_part30 arg0 harg0 arg1 harg1 arg2 harg2 arg3 harg3 arg4 harg4 arg5 harg5 arg6 harg6 arg7 arg8 arg9 arg10 d0 v2 v824
  let ⟨v860, v872, v884, v885, c0_i32_833⟩ : Σ' (v860 : BitVec 32) (v872 : BitVec 32) (v884 : BitVec 32) (v885 : BitVec 32), BitVec 32 ← k0_part31 arg0 harg0 arg1 harg1 arg2 harg2 arg3 harg3 arg4 harg4 arg5 harg5 arg6 harg6 arg7 arg8 arg9 arg10 d0 v2
  let ⟨v896, v908⟩ : Σ' (v896 : BitVec 32), BitVec 32 ← k0_part32 arg0 harg0 arg1 harg1 arg2 harg2 arg3 harg3 arg4 harg4 arg5 harg5 arg6 harg6 arg7 arg8 arg9 arg10 d0 v2 v885 c0_i32_833
  let ⟨v920, v932, v944⟩ : Σ' (v920 : BitVec 32) (v932 : BitVec 32), BitVec 32 ← k0_part33 arg0 harg0 arg1 harg1 arg2 harg2 arg3 harg3 arg4 harg4 arg5 harg5 arg6 harg6 arg7 arg8 arg9 arg10 d0 v2
  let ⟨v956, v968, v980⟩ : Σ' (v956 : BitVec 32) (v968 : BitVec 32), BitVec 32 ← k0_part34 arg0 harg0 arg1 harg1 arg2 harg2 arg3 harg3 arg4 harg4 arg5 harg5 arg6 harg6 arg7 arg8 arg9 arg10 d0 v2
  let ⟨v992, v1004⟩ : Σ' (v992 : BitVec 32), BitVec 32 ← k0_part35 arg0 harg0 arg1 harg1 arg2 harg2 arg3 harg3 arg4 harg4 arg5 harg5 arg6 harg6 arg7 arg8 arg9 arg10 d0 v2 v980
  let ⟨v1016, v1028, v1040⟩ : Σ' (v1016 : BitVec 32) (v1028 : BitVec 32), BitVec 32 ← k0_part36 arg0 harg0 arg1 harg1 arg2 harg2 arg3 harg3 arg4 harg4 arg5 harg5 arg6 harg6 arg7 arg8 arg9 arg10 d0 v2
  let ⟨v1052, v1064, c23_i32_988⟩ : Σ' (v1052 : BitVec 32) (v1064 : BitVec 32), BitVec 32 ← k0_part37 arg0 harg0 arg1 harg1 arg2 harg2 arg3 harg3 arg4 harg4 arg5 harg5 arg6 harg6 arg7 arg8 arg9 arg10 d0 v2
  let ⟨v1076, v1088, v1100⟩ : Σ' (v1076 : BitVec 32) (v1088 : BitVec 32), BitVec 32 ← k0_part38 arg0 harg0 arg1 harg1 arg2 harg2 arg3 harg3 arg4 harg4 arg5 harg5 arg6 harg6 arg7 arg8 arg9 arg10 d0 v2 c23_i32_988
  let ⟨v1112, v1124, v1136⟩ : Σ' (v1112 : BitVec 32) (v1124 : BitVec 32), BitVec 32 ← k0_part39 arg0 harg0 arg1 harg1 arg2 harg2 arg3 harg3 arg4 harg4 arg5 harg5 arg6 harg6 arg7 arg8 arg9 arg10 d0 v2
  let ⟨v1148, v1160⟩ : Σ' (v1148 : BitVec 32), BitVec 32 ← k0_part40 arg0 harg0 arg1 harg1 arg2 harg2 arg3 harg3 arg4 harg4 arg5 harg5 arg6 harg6 arg7 arg8 arg9 arg10 d0 v2 v1136
  let v1172 : BitVec 32 ← k0_part41 arg0 harg0 arg1 harg1 arg2 harg2 arg3 harg3 arg4 harg4 arg5 harg5 arg6 harg6 arg7 arg8 arg9 arg10 d0 v2
  k0_part42 arg0 harg0 arg1 harg1 arg2 harg2 arg3 harg3 arg4 harg4 arg5 harg5 arg6 harg6 arg7 arg8 arg9 arg10 d0
  k0_part43 arg0 harg0 arg1 harg1 arg2 harg2 arg3 harg3 arg4 harg4 arg5 harg5 arg6 harg6 arg7 arg8 arg9 arg10 d0
  k0_part44 arg0 harg0 arg1 harg1 arg2 harg2 arg3 harg3 arg4 harg4 arg5 harg5 arg6 harg6 arg7 arg8 arg9 arg10 d0
  k0_part45 arg0 harg0 arg1 harg1 arg2 harg2 arg3 harg3 arg4 harg4 arg5 harg5 arg6 harg6 arg7 arg8 arg9 arg10 d0
  k0_part46 arg0 harg0 arg1 harg1 arg2 harg2 arg3 harg3 arg4 harg4 arg5 harg5 arg6 harg6 arg7 arg8 arg9 arg10 d0
  k0_part47 arg0 harg0 arg1 harg1 arg2 harg2 arg3 harg3 arg4 harg4 arg5 harg5 arg6 harg6 arg7 arg8 arg9 arg10 d0
  k0_part48 arg0 harg0 arg1 harg1 arg2 harg2 arg3 harg3 arg4 harg4 arg5 harg5 arg6 harg6 arg7 arg8 arg9 arg10 d0
  k0_part49 arg0 harg0 arg1 harg1 arg2 harg2 arg3 harg3 arg4 harg4 arg5 harg5 arg6 harg6 arg7 arg8 arg9 arg10 d0 v812 v824 v836
  k0_part50 arg0 harg0 arg1 harg1 arg2 harg2 arg3 harg3 arg4 harg4 arg5 harg5 arg6 harg6 arg7 arg8 arg9 arg10 d0 v848 v860 v872 v884
  k0_part51 arg0 harg0 arg1 harg1 arg2 harg2 arg3 harg3 arg4 harg4 arg5 harg5 arg6 harg6 arg7 arg8 arg9 arg10 d0 v896 v908 v920
  k0_part52 arg0 harg0 arg1 harg1 arg2 harg2 arg3 harg3 arg4 harg4 arg5 harg5 arg6 harg6 arg7 arg8 arg9 arg10 d0 v932 v944 v956 v968
  k0_part53 arg0 harg0 arg1 harg1 arg2 harg2 arg3 harg3 arg4 harg4 arg5 harg5 arg6 harg6 arg7 arg8 arg9 arg10 d0 v980 v992 v1004
  k0_part54 arg0 harg0 arg1 harg1 arg2 harg2 arg3 harg3 arg4 harg4 arg5 harg5 arg6 harg6 arg7 arg8 arg9 arg10 d0 v1016 v1028 v1040 v1052
  k0_part55 arg0 harg0 arg1 harg1 arg2 harg2 arg3 harg3 arg4 harg4 arg5 harg5 arg6 harg6 arg7 arg8 arg9 arg10 d0 v1064 v1076 v1088
  k0_part56 arg0 harg0 arg1 harg1 arg2 harg2 arg3 harg3 arg4 harg4 arg5 harg5 arg6 harg6 arg7 arg8 arg9 arg10 d0 v1100 v1112 v1124 v1136
  k0_part57 arg0 harg0 arg1 harg1 arg2 harg2 arg3 harg3 arg4 harg4 arg5 harg5 arg6 harg6 arg7 arg8 arg9 arg10 d0 v1148 v1160 v1172
  kont

set_option maxRecDepth 774 in
/-- Parts fifty-eight through sixty and the return. -/
def tail58 (arg0 : Memref sig .tc .vmem S4x512x256 .f32) (harg0 : arg0.IsWhole) (arg1 : Memref sig .tc .vmem S4x256 .f32) (harg1 : arg1.IsWhole) (arg2 : Memref sig .tc .vmem S256x256 .f32) (harg2 : arg2.IsWhole) (arg3 : Memref sig .tc .vmem S4x512x256 .f32) (harg3 : arg3.IsWhole) (arg4 : Memref sig .tc .vmem S32x64x256 .bf16) (harg4 : arg4.IsWhole) (arg5 : Memref sig .tc .vmem S32x64x256 .bf16) (harg5 : arg5.IsWhole) (arg6 : Memref sig .tc .vmem S32x64x256 .bf16) (harg6 : arg6.IsWhole) (arg7 : DmaSems sig S32) (arg8 : DmaSems sig S32) (arg9 : DmaSems sig S32) (arg10 : DmaSems sig S32) (d0 : Dev nD) :
    Prog (TpuEff nD τ sig (Elt F) Λ₀ .tc) (Dev nD) := do
  k0_part58 arg0 harg0 arg1 harg1 arg2 harg2 arg3 harg3 arg4 harg4 arg5 harg5 arg6 harg6 arg7 arg8 arg9 arg10 d0
  k0_part59 arg0 harg0 arg1 harg1 arg2 harg2 arg3 harg3 arg4 harg4 arg5 harg5 arg6 harg6 arg7 arg8 arg9 arg10 d0
  k0_part60 arg0 harg0 arg1 harg1 arg2 harg2 arg3 harg3 arg4 harg4 arg5 harg5 arg6 harg6 arg7 arg8 arg9 arg10 d0
  pure d0

set_option maxRecDepth 4096 in
/-- The half is its first twenty-nine parts continued by its last three. -/
theorem tail65_eq (arg0 : Memref sig .tc .vmem S4x512x256 .f32) (harg0 : arg0.IsWhole) (arg1 : Memref sig .tc .vmem S4x256 .f32) (harg1 : arg1.IsWhole) (arg2 : Memref sig .tc .vmem S256x256 .f32) (harg2 : arg2.IsWhole) (arg3 : Memref sig .tc .vmem S4x512x256 .f32) (harg3 : arg3.IsWhole) (arg4 : Memref sig .tc .vmem S32x64x256 .bf16) (harg4 : arg4.IsWhole) (arg5 : Memref sig .tc .vmem S32x64x256 .bf16) (harg5 : arg5.IsWhole) (arg6 : Memref sig .tc .vmem S32x64x256 .bf16) (harg6 : arg6.IsWhole) (arg7 : DmaSems sig S32) (arg8 : DmaSems sig S32) (arg9 : DmaSems sig S32) (arg10 : DmaSems sig S32) (d0 : Dev nD) (v2 : BitVec 32) (v544 : BitVec 32) :
    tail65 (F := F) arg0 harg0 arg1 harg1 arg2 harg2 arg3 harg3 arg4 harg4 arg5 harg5 arg6 harg6 arg7 arg8 arg9 arg10 d0 v2 v544 = progM arg0 harg0 arg1 harg1 arg2 harg2 arg3 harg3 arg4 harg4 arg5 harg5 arg6 harg6 arg7 arg8 arg9 arg10 d0 v2 v544 (tail58 arg0 harg0 arg1 harg1 arg2 harg2 arg3 harg3 arg4 harg4 arg5 harg5 arg6 harg6 arg7 arg8 arg9 arg10 d0) := rfl

end Cert.KernelIdeal.CutB

end
-- ==== Proof.Fin31.lean ====
/-
A separating conjunction over the 31 operation numbers (and over the 32 slots, and over either with one index removed),
written out as the chain of its members: what lets a proof name each member.
-/
import Idealize.SL.BI.BigOp
import Idealize.SL.ProofMode.BigOp

namespace Cert.Fin31

open Idealize.SL Idealize.SL.RA Idealize.SL.BI
open scoped Idealize.SL.BI
open Idealize.SL.BI.BIBase Idealize.SL.BI.Laws

theorem bigSep_fin31 {M : Type} [URA M] (Φ : Fin 31 → sProp M) :
    bigSep (Finset.univ : Finset (Fin 31)) Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30) := by
  rw [show (Finset.univ : Finset (Fin 31)) = {0, 1, 2, 3, 4, 5, 6, 7, 8, 9, 10, 11, 12, 13, 14, 15, 16, 17, 18, 19, 20, 21, 22, 23, 24, 25, 26, 27, 28, 29, 30} from by decide,
    bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_singleton]
  rfl

theorem bigSep_fin32 {M : Type} [URA M] (Φ : Fin 32 → sProp M) :
    bigSep (Finset.univ : Finset (Fin 32)) Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31) := by
  rw [show (Finset.univ : Finset (Fin 32)) = {0, 1, 2, 3, 4, 5, 6, 7, 8, 9, 10, 11, 12, 13, 14, 15, 16, 17, 18, 19, 20, 21, 22, 23, 24, 25, 26, 27, 28, 29, 30, 31} from by decide,
    bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_singleton]
  rfl

theorem bigSep_erase1_32 {M : Type} [URA M] (Φ : Fin 32 → sProp M) :
    bigSep (Finset.univ.erase 1 : Finset (Fin 32)) Φ = iprop(Φ 0 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31) := by
  rw [show (Finset.univ.erase 1 : Finset (Fin 32)) = {0, 2, 3, 4, 5, 6, 7, 8, 9, 10, 11, 12, 13, 14, 15, 16, 17, 18, 19, 20, 21, 22, 23, 24, 25, 26, 27, 28, 29, 30, 31} from by decide,
    bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_singleton]
  rfl

theorem bigSep_erase0_31 {M : Type} [URA M] (Φ : Fin 31 → sProp M) :
    bigSep (Finset.univ.erase 0 : Finset (Fin 31)) Φ = iprop(Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30) := by
  rw [show (Finset.univ.erase 0 : Finset (Fin 31)) = {1, 2, 3, 4, 5, 6, 7, 8, 9, 10, 11, 12, 13, 14, 15, 16, 17, 18, 19, 20, 21, 22, 23, 24, 25, 26, 27, 28, 29, 30} from by decide,
    bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_singleton]
  rfl

/-- The chain packed back. -/
theorem pack31 {M : Type} [URA M] (Φ : Fin 31 → sProp M) :
    iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30) ⊢ bigSep (Finset.univ : Finset (Fin 31)) Φ :=
  Entails.of_eq (bigSep_fin31 Φ).symm

/-- info: 'Cert.Fin31.pack31' depends on axioms: [propext, Classical.choice, Quot.sound] -/
#guard_msgs in #print axioms pack31

end Cert.Fin31
-- ==== Proof.BodyEarly.lean ====
/-
The body's second half up to its fifty-eighth part, at a symbolic device: from the assertion between the halves — the
reduce-scatter's copies issued, all but one of its receive slots landed — through the last receive wait, the sum of the 32
received slots, the store of the device's own all-gather slot, the 31 all-gather copies (each the library's send rule for a
slot the receiver handed over at the barrier, the source share one of 31 tokens of the own slot), the 31 send waits of the
reduce-scatter and the 31 receive waits of the all-gather, to the assertion before the result is stored; the rest of the
body is a continuation.
-/
import proofs.«900791_g7700000000000792_dist_gconv1d_cshard_i_b4_s512_c256_v7x_i32_bf16_1_alg».proof.Proof.Cut
import proofs.«900791_g7700000000000792_dist_gconv1d_cshard_i_b4_s512_c256_v7x_i32_bf16_1_alg».proof.Proof.Tables
import proofs.«900791_g7700000000000792_dist_gconv1d_cshard_i_b4_s512_c256_v7x_i32_bf16_1_alg».proof.Proof.DevEqs
import proofs.«900791_g7700000000000792_dist_gconv1d_cshard_i_b4_s512_c256_v7x_i32_bf16_1_alg».proof.Proof.Slots
import proofs.«900791_g7700000000000792_dist_gconv1d_cshard_i_b4_s512_c256_v7x_i32_bf16_1_alg».proof.Proof.Mid
import proofs.«900791_g7700000000000792_dist_gconv1d_cshard_i_b4_s512_c256_v7x_i32_bf16_1_alg».proof.Proof.Levels
import proofs.«900791_g7700000000000792_dist_gconv1d_cshard_i_b4_s512_c256_v7x_i32_bf16_1_alg».proof.Proof.Landing
import proofs.«900791_g7700000000000792_dist_gconv1d_cshard_i_b4_s512_c256_v7x_i32_bf16_1_alg».proof.Proof.ValB
import proofs.«900791_g7700000000000792_dist_gconv1d_cshard_i_b4_s512_c256_v7x_i32_bf16_1_alg».proof.Proof.CloseCells
import proofs.«900791_g7700000000000792_dist_gconv1d_cshard_i_b4_s512_c256_v7x_i32_bf16_1_alg».proof.Proof.AgSend
import proofs.«900791_g7700000000000792_dist_gconv1d_cshard_i_b4_s512_c256_v7x_i32_bf16_1_alg».proof.Proof.CutB
import proofs.«900791_g7700000000000792_dist_gconv1d_cshard_i_b4_s512_c256_v7x_i32_bf16_1_alg».proof.Proof.MidX
import proofs.«900791_g7700000000000792_dist_gconv1d_cshard_i_b4_s512_c256_v7x_i32_bf16_1_alg».proof.Proof.Fin31

set_option synthInstance.maxSize 4096

noncomputable section

namespace Cert.KernelIdeal.BodyEarly

open Cert.KernelIdeal Cert.KernelIdeal.Gen Cert.KernelIdeal.Contents Cert.KernelIdeal.Proto Cert.KernelIdeal.Tables
open Cert.KernelIdeal.Cut Cert.KernelIdeal.DevEqs Cert.KernelIdeal.Slots
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal.Mid Cert.KernelIdeal.Levels Cert.KernelIdeal.Landing Cert.KernelIdeal.ValB Cert.KernelIdeal.CloseCells Cert.KernelIdeal.AgSend
open Cert.KernelIdeal.CutB Cert.Fin31

variable {F : FTy → Type} [FloatOps F]

local notation "𝕄" => MT nD τ sig Unit (Elt F) ℕ UU ℕ

theorem zero3 : (![0, 0, 0] : Fin 3 → ℕ) = fun _ => 0 := by funext a; fin_cases a <;> rfl

/-- The device's own all-gather slot after the store of its chunk: the slot of the all-gather buffer's final contents. -/
theorem own_after_store (m : Mem F) (c : Dev nD) (f0 : Buf (Elt F) (agB.view.loc (c : Thread nD τ))) :
    ((slotM agB (dv c)).view.loc (c : Thread nD τ) ↦[(slotM agB (dv c)).view.set]{fullShare}
        ((agB.access (Rect.unit (s := S32x64x256) (k0_off1 c) S1x64x256.size (k0_off1_inb c))).write (Elt F) f0
          (k0_pay7 (View.readAt (Elt F) rsB.view (Rect.unit (s := S32x64x256) ![0, 0, 0] S32x64x256.size inb_S32x64x256_S32x64x256_0_0_0).toLoadRect (rsAll (P m) c)))
          Finset.univ) : sProp 𝕄)
      ⊢ ((slotM agB (dv c)).view.loc (c : Thread nD τ) ↦[(slotM agB (dv c)).view.set]{fullShare} agAll (P m)) := by
  rw [show View.readAt (Elt F) rsB.view (Rect.unit (s := S32x64x256) ![0, 0, 0] S32x64x256.size inb_S32x64x256_S32x64x256_0_0_0).toLoadRect (rsAll (P m) c) = rsAll (P m) c
    from Memref.readAt_unit_zero (Elt F) cc0_scratch1 zero3 _ _]
  exact Entails.of_eq (pointsTo_congr (agStore_eq m c f0))

/-- The same, the stored contents under a name. -/
theorem own_after_store' (m : Mem F) (c : Dev nD) (f0 g : Buf (Elt F) (agB.view.loc (c : Thread nD τ)))
    (hg : g = (agB.access (Rect.unit (s := S32x64x256) (k0_off1 c) S1x64x256.size (k0_off1_inb c))).write (Elt F) f0
          (k0_pay7 (View.readAt (Elt F) rsB.view (Rect.unit (s := S32x64x256) ![0, 0, 0] S32x64x256.size inb_S32x64x256_S32x64x256_0_0_0).toLoadRect (rsAll (P m) c)))
          Finset.univ) :
    ((slotM agB (dv c)).view.loc (c : Thread nD τ) ↦[(slotM agB (dv c)).view.set]{fullShare} g : sProp 𝕄)
      ⊢ ((slotM agB (dv c)).view.loc (c : Thread nD τ) ↦[(slotM agB (dv c)).view.set]{fullShare} agAll (P m)) := by
  subst hg; exact own_after_store m c f0

/-- The receive buffer whole from its slots. -/
theorem rs_join (c : Dev nD) (f : Buf (Elt F) (rsB.view.loc (c : Thread nD τ))) :
    iprop((bigSep (Finset.univ.erase (1 : Fin 32)) fun j => slotPts (F := F) rsB c j fullShare f) ∗ slotPts rsB c 1 fullShare f)
      ⊢ (rsB.view.loc (c : Thread nD τ) ↦[rsB.view.set]{fullShare} f : sProp 𝕄) := by
  rw [pointsTo_slots rsB c fullShare f, bigSep_univ_split (1 : Fin 32)]
  exact sep_comm.1

/-- The positions of the 31 receive cells from the first one's and the others'. -/
theorem pack_erase0 {M : Type} [URA M] (Φ : Fin 31 → sProp M) :
    iprop(Φ 0 ∗ bigSep (Finset.univ.erase (0 : Fin 31)) Φ) ⊢ bigSep (Finset.univ : Finset (Fin 31)) Φ :=
  Entails.of_eq (bigSep_univ_split (0 : Fin 31)).symm

set_option maxHeartbeats 12800000 in
theorem bodyEarly (m : Mem F) (K : Dev nD × Option (Fin 4 × Fin 31) → ℕ) (c : Dev nD) (v2 v544 : BitVec 32)
    (s : Buf (Elt F) ((c : Thread nD τ).loc cc0_stg3_0)) (W : Waits sig Unit) {α : Type}
    (kont : Prog (TpuEff nD τ sig (Elt F) Λ₀ .tc) α) (Q : α → sProp 𝕄)
    (hk : ∀ W' : Waits sig Unit, MidX m K c s W' ⊢ wp frame (wpE (defs₀ (F := F)) 𝒱₀ c none) Set.univ kont Q) :
    Mid m K c s W
      ⊢ wp frame (wpE (defs₀ (F := F)) 𝒱₀ c none) Set.univ (progM (Memref.whole cc0_stg0_0) (Memref.isWhole_whole _) (Memref.whole cc0_stg1_0) (Memref.isWhole_whole _) (Memref.whole cc0_stg2_0) (Memref.isWhole_whole _) (Memref.whole cc0_stg3_0) (Memref.isWhole_whole _) srcB (Memref.isWhole_whole _) rsB (Memref.isWhole_whole _) agB (Memref.isWhole_whole _) cc0_scratch3 cc0_scratch4 cc0_scratch5 cc0_scratch6 c v2 v544 kont) Q := by
  unfold Mid MidRest staging slotPts
  iintro ⟨⟨#HK, Hsrc, ⟨%fown, Hown⟩, Hpeers, ⟨Hs0, Hs1, Hs2, Hs3⟩, HO, Hpos, HatBar, HcrS, HcrR, Htok, #Hlev⟩, Hrs, ⟨HatR0, HatRs⟩, HcrR0⟩
  ihave Hpeers' := (Entails.of_eq (bigSep_fin31 _)) $$ Hpeers
  icases Hpeers' with ⟨⟨%fd0, Hd0⟩, ⟨%fd1, Hd1⟩, ⟨%fd2, Hd2⟩, ⟨%fd3, Hd3⟩, ⟨%fd4, Hd4⟩, ⟨%fd5, Hd5⟩, ⟨%fd6, Hd6⟩, ⟨%fd7, Hd7⟩, ⟨%fd8, Hd8⟩, ⟨%fd9, Hd9⟩, ⟨%fd10, Hd10⟩, ⟨%fd11, Hd11⟩, ⟨%fd12, Hd12⟩, ⟨%fd13, Hd13⟩, ⟨%fd14, Hd14⟩, ⟨%fd15, Hd15⟩, ⟨%fd16, Hd16⟩, ⟨%fd17, Hd17⟩, ⟨%fd18, Hd18⟩, ⟨%fd19, Hd19⟩, ⟨%fd20, Hd20⟩, ⟨%fd21, Hd21⟩, ⟨%fd22, Hd22⟩, ⟨%fd23, Hd23⟩, ⟨%fd24, Hd24⟩, ⟨%fd25, Hd25⟩, ⟨%fd26, Hd26⟩, ⟨%fd27, Hd27⟩, ⟨%fd28, Hd28⟩, ⟨%fd29, Hd29⟩, ⟨%fd30, Hd30⟩⟩
  ihave Hpos' := (Entails.of_eq (bigSep_fin31 _)) $$ Hpos
  icases Hpos' with ⟨⟨HatS0, HatA0, HatG0⟩, ⟨HatS1, HatA1, HatG1⟩, ⟨HatS2, HatA2, HatG2⟩, ⟨HatS3, HatA3, HatG3⟩, ⟨HatS4, HatA4, HatG4⟩, ⟨HatS5, HatA5, HatG5⟩, ⟨HatS6, HatA6, HatG6⟩, ⟨HatS7, HatA7, HatG7⟩, ⟨HatS8, HatA8, HatG8⟩, ⟨HatS9, HatA9, HatG9⟩, ⟨HatS10, HatA10, HatG10⟩, ⟨HatS11, HatA11, HatG11⟩, ⟨HatS12, HatA12, HatG12⟩, ⟨HatS13, HatA13, HatG13⟩, ⟨HatS14, HatA14, HatG14⟩, ⟨HatS15, HatA15, HatG15⟩, ⟨HatS16, HatA16, HatG16⟩, ⟨HatS17, HatA17, HatG17⟩, ⟨HatS18, HatA18, HatG18⟩, ⟨HatS19, HatA19, HatG19⟩, ⟨HatS20, HatA20, HatG20⟩, ⟨HatS21, HatA21, HatG21⟩, ⟨HatS22, HatA22, HatG22⟩, ⟨HatS23, HatA23, HatG23⟩, ⟨HatS24, HatA24, HatG24⟩, ⟨HatS25, HatA25, HatG25⟩, ⟨HatS26, HatA26, HatG26⟩, ⟨HatS27, HatA27, HatG27⟩, ⟨HatS28, HatA28, HatG28⟩, ⟨HatS29, HatA29, HatG29⟩, ⟨HatS30, HatA30, HatG30⟩⟩
  ihave HcrS' := (Entails.of_eq (bigSep_fin31 _)) $$ HcrS
  icases HcrS' with ⟨HcS0, HcS1, HcS2, HcS3, HcS4, HcS5, HcS6, HcS7, HcS8, HcS9, HcS10, HcS11, HcS12, HcS13, HcS14, HcS15, HcS16, HcS17, HcS18, HcS19, HcS20, HcS21, HcS22, HcS23, HcS24, HcS25, HcS26, HcS27, HcS28, HcS29, HcS30⟩
  ihave HcrR' := (Entails.of_eq (bigSep_fin31 _)) $$ HcrR
  icases HcrR' with ⟨HcG0, HcG1, HcG2, HcG3, HcG4, HcG5, HcG6, HcG7, HcG8, HcG9, HcG10, HcG11, HcG12, HcG13, HcG14, HcG15, HcG16, HcG17, HcG18, HcG19, HcG20, HcG21, HcG22, HcG23, HcG24, HcG25, HcG26, HcG27, HcG28, HcG29, HcG30⟩
  ihave Htok' := (Entails.of_eq (bigSep_fin31 _)) $$ Htok
  icases Htok' with ⟨⟨HtA0, HtG0⟩, ⟨HtA1, HtG1⟩, ⟨HtA2, HtG2⟩, ⟨HtA3, HtG3⟩, ⟨HtA4, HtG4⟩, ⟨HtA5, HtG5⟩, ⟨HtA6, HtG6⟩, ⟨HtA7, HtG7⟩, ⟨HtA8, HtG8⟩, ⟨HtA9, HtG9⟩, ⟨HtA10, HtG10⟩, ⟨HtA11, HtG11⟩, ⟨HtA12, HtG12⟩, ⟨HtA13, HtG13⟩, ⟨HtA14, HtG14⟩, ⟨HtA15, HtG15⟩, ⟨HtA16, HtG16⟩, ⟨HtA17, HtG17⟩, ⟨HtA18, HtG18⟩, ⟨HtA19, HtG19⟩, ⟨HtA20, HtG20⟩, ⟨HtA21, HtG21⟩, ⟨HtA22, HtG22⟩, ⟨HtA23, HtG23⟩, ⟨HtA24, HtG24⟩, ⟨HtA25, HtG25⟩, ⟨HtA26, HtG26⟩, ⟨HtA27, HtG27⟩, ⟨HtA28, HtG28⟩, ⟨HtA29, HtG29⟩, ⟨HtA30, HtG30⟩⟩
  ihave #HIrsR0 := (recInv m K (c, some (1, 0))) $$ HK
  ihave #HIagS0 := (recInv m K (c, some (2, 0))) $$ HK
  ihave #HIagP0 := (recInv m K (nb c 0, some (3, 0))) $$ HK
  ihave #HIagS1 := (recInv m K (c, some (2, 1))) $$ HK
  ihave #HIagP1 := (recInv m K (nb c 1, some (3, 1))) $$ HK
  ihave #HIagS2 := (recInv m K (c, some (2, 2))) $$ HK
  ihave #HIagP2 := (recInv m K (nb c 2, some (3, 2))) $$ HK
  ihave #HIagS3 := (recInv m K (c, some (2, 3))) $$ HK
  ihave #HIagP3 := (recInv m K (nb c 3, some (3, 3))) $$ HK
  ihave #HIagS4 := (recInv m K (c, some (2, 4))) $$ HK
  ihave #HIagP4 := (recInv m K (nb c 4, some (3, 4))) $$ HK
  ihave #HIagS5 := (recInv m K (c, some (2, 5))) $$ HK
  ihave #HIagP5 := (recInv m K (nb c 5, some (3, 5))) $$ HK
  ihave #HIagS6 := (recInv m K (c, some (2, 6))) $$ HK
  ihave #HIagP6 := (recInv m K (nb c 6, some (3, 6))) $$ HK
  ihave #HIagS7 := (recInv m K (c, some (2, 7))) $$ HK
  ihave #HIagP7 := (recInv m K (nb c 7, some (3, 7))) $$ HK
  ihave #HIagS8 := (recInv m K (c, some (2, 8))) $$ HK
  ihave #HIagP8 := (recInv m K (nb c 8, some (3, 8))) $$ HK
  ihave #HIagS9 := (recInv m K (c, some (2, 9))) $$ HK
  ihave #HIagP9 := (recInv m K (nb c 9, some (3, 9))) $$ HK
  ihave #HIagS10 := (recInv m K (c, some (2, 10))) $$ HK
  ihave #HIagP10 := (recInv m K (nb c 10, some (3, 10))) $$ HK
  ihave #HIagS11 := (recInv m K (c, some (2, 11))) $$ HK
  ihave #HIagP11 := (recInv m K (nb c 11, some (3, 11))) $$ HK
  ihave #HIagS12 := (recInv m K (c, some (2, 12))) $$ HK
  ihave #HIagP12 := (recInv m K (nb c 12, some (3, 12))) $$ HK
  ihave #HIagS13 := (recInv m K (c, some (2, 13))) $$ HK
  ihave #HIagP13 := (recInv m K (nb c 13, some (3, 13))) $$ HK
  ihave #HIagS14 := (recInv m K (c, some (2, 14))) $$ HK
  ihave #HIagP14 := (recInv m K (nb c 14, some (3, 14))) $$ HK
  ihave #HIagS15 := (recInv m K (c, some (2, 15))) $$ HK
  ihave #HIagP15 := (recInv m K (nb c 15, some (3, 15))) $$ HK
  ihave #HIagS16 := (recInv m K (c, some (2, 16))) $$ HK
  ihave #HIagP16 := (recInv m K (nb c 16, some (3, 16))) $$ HK
  ihave #HIagS17 := (recInv m K (c, some (2, 17))) $$ HK
  ihave #HIagP17 := (recInv m K (nb c 17, some (3, 17))) $$ HK
  ihave #HIagS18 := (recInv m K (c, some (2, 18))) $$ HK
  ihave #HIagP18 := (recInv m K (nb c 18, some (3, 18))) $$ HK
  ihave #HIagS19 := (recInv m K (c, some (2, 19))) $$ HK
  ihave #HIagP19 := (recInv m K (nb c 19, some (3, 19))) $$ HK
  ihave #HIagS20 := (recInv m K (c, some (2, 20))) $$ HK
  ihave #HIagP20 := (recInv m K (nb c 20, some (3, 20))) $$ HK
  ihave #HIagS21 := (recInv m K (c, some (2, 21))) $$ HK
  ihave #HIagP21 := (recInv m K (nb c 21, some (3, 21))) $$ HK
  ihave #HIagS22 := (recInv m K (c, some (2, 22))) $$ HK
  ihave #HIagP22 := (recInv m K (nb c 22, some (3, 22))) $$ HK
  ihave #HIagS23 := (recInv m K (c, some (2, 23))) $$ HK
  ihave #HIagP23 := (recInv m K (nb c 23, some (3, 23))) $$ HK
  ihave #HIagS24 := (recInv m K (c, some (2, 24))) $$ HK
  ihave #HIagP24 := (recInv m K (nb c 24, some (3, 24))) $$ HK
  ihave #HIagS25 := (recInv m K (c, some (2, 25))) $$ HK
  ihave #HIagP25 := (recInv m K (nb c 25, some (3, 25))) $$ HK
  ihave #HIagS26 := (recInv m K (c, some (2, 26))) $$ HK
  ihave #HIagP26 := (recInv m K (nb c 26, some (3, 26))) $$ HK
  ihave #HIagS27 := (recInv m K (c, some (2, 27))) $$ HK
  ihave #HIagP27 := (recInv m K (nb c 27, some (3, 27))) $$ HK
  ihave #HIagS28 := (recInv m K (c, some (2, 28))) $$ HK
  ihave #HIagP28 := (recInv m K (nb c 28, some (3, 28))) $$ HK
  ihave #HIagS29 := (recInv m K (c, some (2, 29))) $$ HK
  ihave #HIagP29 := (recInv m K (nb c 29, some (3, 29))) $$ HK
  ihave #HIagS30 := (recInv m K (c, some (2, 30))) $$ HK
  ihave #HIagP30 := (recInv m K (nb c 30, some (3, 30))) $$ HK
  have hmw := mayWait_rsR31 (F := F) c 0
  unfold progM
  sl_exec_parts
  ihave Hrsall := (rs_join c (rsAll (P m) c)) $$ [Hrs HatR0_pay1]
  · isplitl [Hrs]; · iexact Hrs
    iexact HatR0_pay1
  have hinc : (agB.access (Rect.unit (s := S32x64x256) (k0_off1 c) S1x64x256.size (k0_off1_inb c))).set ⊆ (slotM agB (dv c)).view.set :=
    (set_access_eq_slot agB (dv c) (k0_off1_eq c)).subset
  have hincS : (agB.access (Rect.unit (s := S32x64x256) (k0_off1 c) S1x64x256.size (k0_off1_inb c))).setOn Finset.univ ⊆ (slotM agB (dv c)).view.set := hinc
  have hdev0 : (⟨k0_dev63 c, k0_dev63_lt c⟩ : Dev nD) = nb c 0 := dev63_eq c
  sl_exec_parts
  -- the own slot at the all-gather buffer's final contents, its share cut in 31 tokens and a rest
  ihave Hown2 := (own_after_store' m c fown (bodyEarly.sl.Hown_w1 m c fown) rfl) $$ Hown
  ihave Hsp := (Transfers.pointsTo_toks_split fullShare 31) $$ Hown2
  icases Hsp with ⟨Hrest, Htoks⟩
  ihave Htoks' := (Entails.of_eq (bigSep_fin31 _)) $$ Htoks
  icases Htoks' with ⟨Hag0, Hag1, Hag2, Hag3, Hag4, Hag5, Hag6, Hag7, Hag8, Hag9, Hag10, Hag11, Hag12, Hag13, Hag14, Hag15, Hag16, Hag17, Hag18, Hag19, Hag20, Hag21, Hag22, Hag23, Hag24, Hag25, Hag26, Hag27, Hag28, Hag29, Hag30⟩
  iapply (agSend m K c 0 fd0 (owedAg c 30) _) $$ [Hag0 Hd0 HO HtA0 HtG0]
  · isplitr; · iexact HK
    isplitl [Hag0]; · iexact Hag0
    isplitl [Hd0]; · iexact Hd0
    isplitl [HO]; · iexact HO
    isplitl [HtA0] <;> iassumption
  iintro ⟨HcA0, HO⟩
  clear hdev0
  have hdev1 : (⟨k0_dev64 c, k0_dev64_lt c⟩ : Dev nD) = nb c 1 := dev64_eq c
  sl_exec_parts
  iapply (agSend m K c 1 fd1 (owedAg c 29) _) $$ [Hag1 Hd1 HO HtA1 HtG1]
  · isplitr; · iexact HK
    isplitl [Hag1]; · iexact Hag1
    isplitl [Hd1]; · iexact Hd1
    isplitl [HO]; · iexact HO
    isplitl [HtA1] <;> iassumption
  iintro ⟨HcA1, HO⟩
  clear hdev1
  have hdev2 : (⟨k0_dev65 c, k0_dev65_lt c⟩ : Dev nD) = nb c 2 := dev65_eq c
  sl_exec_parts
  iapply (agSend m K c 2 fd2 (owedAg c 28) _) $$ [Hag2 Hd2 HO HtA2 HtG2]
  · isplitr; · iexact HK
    isplitl [Hag2]; · iexact Hag2
    isplitl [Hd2]; · iexact Hd2
    isplitl [HO]; · iexact HO
    isplitl [HtA2] <;> iassumption
  iintro ⟨HcA2, HO⟩
  clear hdev2
  have hdev3 : (⟨k0_dev66 c, k0_dev66_lt c⟩ : Dev nD) = nb c 3 := dev66_eq c
  sl_exec_parts
  iapply (agSend m K c 3 fd3 (owedAg c 27) _) $$ [Hag3 Hd3 HO HtA3 HtG3]
  · isplitr; · iexact HK
    isplitl [Hag3]; · iexact Hag3
    isplitl [Hd3]; · iexact Hd3
    isplitl [HO]; · iexact HO
    isplitl [HtA3] <;> iassumption
  iintro ⟨HcA3, HO⟩
  clear hdev3
  have hdev4 : (⟨k0_dev67 c, k0_dev67_lt c⟩ : Dev nD) = nb c 4 := dev67_eq c
  sl_exec_parts
  iapply (agSend m K c 4 fd4 (owedAg c 26) _) $$ [Hag4 Hd4 HO HtA4 HtG4]
  · isplitr; · iexact HK
    isplitl [Hag4]; · iexact Hag4
    isplitl [Hd4]; · iexact Hd4
    isplitl [HO]; · iexact HO
    isplitl [HtA4] <;> iassumption
  iintro ⟨HcA4, HO⟩
  clear hdev4
  have hdev5 : (⟨k0_dev68 c, k0_dev68_lt c⟩ : Dev nD) = nb c 5 := dev68_eq c
  sl_exec_parts
  iapply (agSend m K c 5 fd5 (owedAg c 25) _) $$ [Hag5 Hd5 HO HtA5 HtG5]
  · isplitr; · iexact HK
    isplitl [Hag5]; · iexact Hag5
    isplitl [Hd5]; · iexact Hd5
    isplitl [HO]; · iexact HO
    isplitl [HtA5] <;> iassumption
  iintro ⟨HcA5, HO⟩
  clear hdev5
  have hdev6 : (⟨k0_dev69 c, k0_dev69_lt c⟩ : Dev nD) = nb c 6 := dev69_eq c
  sl_exec_parts
  iapply (agSend m K c 6 fd6 (owedAg c 24) _) $$ [Hag6 Hd6 HO HtA6 HtG6]
  · isplitr; · iexact HK
    isplitl [Hag6]; · iexact Hag6
    isplitl [Hd6]; · iexact Hd6
    isplitl [HO]; · iexact HO
    isplitl [HtA6] <;> iassumption
  iintro ⟨HcA6, HO⟩
  clear hdev6
  have hdev7 : (⟨k0_dev70 c, k0_dev70_lt c⟩ : Dev nD) = nb c 7 := dev70_eq c
  sl_exec_parts
  iapply (agSend m K c 7 fd7 (owedAg c 23) _) $$ [Hag7 Hd7 HO HtA7 HtG7]
  · isplitr; · iexact HK
    isplitl [Hag7]; · iexact Hag7
    isplitl [Hd7]; · iexact Hd7
    isplitl [HO]; · iexact HO
    isplitl [HtA7] <;> iassumption
  iintro ⟨HcA7, HO⟩
  clear hdev7
  have hdev8 : (⟨k0_dev71 c, k0_dev71_lt c⟩ : Dev nD) = nb c 8 := dev71_eq c
  sl_exec_parts
  iapply (agSend m K c 8 fd8 (owedAg c 22) _) $$ [Hag8 Hd8 HO HtA8 HtG8]
  · isplitr; · iexact HK
    isplitl [Hag8]; · iexact Hag8
    isplitl [Hd8]; · iexact Hd8
    isplitl [HO]; · iexact HO
    isplitl [HtA8] <;> iassumption
  iintro ⟨HcA8, HO⟩
  clear hdev8
  have hdev9 : (⟨k0_dev72 c, k0_dev72_lt c⟩ : Dev nD) = nb c 9 := dev72_eq c
  sl_exec_parts
  iapply (agSend m K c 9 fd9 (owedAg c 21) _) $$ [Hag9 Hd9 HO HtA9 HtG9]
  · isplitr; · iexact HK
    isplitl [Hag9]; · iexact Hag9
    isplitl [Hd9]; · iexact Hd9
    isplitl [HO]; · iexact HO
    isplitl [HtA9] <;> iassumption
  iintro ⟨HcA9, HO⟩
  clear hdev9
  have hdev10 : (⟨k0_dev73 c, k0_dev73_lt c⟩ : Dev nD) = nb c 10 := dev73_eq c
  sl_exec_parts
  iapply (agSend m K c 10 fd10 (owedAg c 20) _) $$ [Hag10 Hd10 HO HtA10 HtG10]
  · isplitr; · iexact HK
    isplitl [Hag10]; · iexact Hag10
    isplitl [Hd10]; · iexact Hd10
    isplitl [HO]; · iexact HO
    isplitl [HtA10] <;> iassumption
  iintro ⟨HcA10, HO⟩
  clear hdev10
  have hdev11 : (⟨k0_dev74 c, k0_dev74_lt c⟩ : Dev nD) = nb c 11 := dev74_eq c
  sl_exec_parts
  iapply (agSend m K c 11 fd11 (owedAg c 19) _) $$ [Hag11 Hd11 HO HtA11 HtG11]
  · isplitr; · iexact HK
    isplitl [Hag11]; · iexact Hag11
    isplitl [Hd11]; · iexact Hd11
    isplitl [HO]; · iexact HO
    isplitl [HtA11] <;> iassumption
  iintro ⟨HcA11, HO⟩
  clear hdev11
  have hdev12 : (⟨k0_dev75 c, k0_dev75_lt c⟩ : Dev nD) = nb c 12 := dev75_eq c
  sl_exec_parts
  iapply (agSend m K c 12 fd12 (owedAg c 18) _) $$ [Hag12 Hd12 HO HtA12 HtG12]
  · isplitr; · iexact HK
    isplitl [Hag12]; · iexact Hag12
    isplitl [Hd12]; · iexact Hd12
    isplitl [HO]; · iexact HO
    isplitl [HtA12] <;> iassumption
  iintro ⟨HcA12, HO⟩
  clear hdev12
  have hdev13 : (⟨k0_dev76 c, k0_dev76_lt c⟩ : Dev nD) = nb c 13 := dev76_eq c
  sl_exec_parts
  iapply (agSend m K c 13 fd13 (owedAg c 17) _) $$ [Hag13 Hd13 HO HtA13 HtG13]
  · isplitr; · iexact HK
    isplitl [Hag13]; · iexact Hag13
    isplitl [Hd13]; · iexact Hd13
    isplitl [HO]; · iexact HO
    isplitl [HtA13] <;> iassumption
  iintro ⟨HcA13, HO⟩
  clear hdev13
  have hdev14 : (⟨k0_dev77 c, k0_dev77_lt c⟩ : Dev nD) = nb c 14 := dev77_eq c
  sl_exec_parts
  iapply (agSend m K c 14 fd14 (owedAg c 16) _) $$ [Hag14 Hd14 HO HtA14 HtG14]
  · isplitr; · iexact HK
    isplitl [Hag14]; · iexact Hag14
    isplitl [Hd14]; · iexact Hd14
    isplitl [HO]; · iexact HO
    isplitl [HtA14] <;> iassumption
  iintro ⟨HcA14, HO⟩
  clear hdev14
  have hdev15 : (⟨k0_dev78 c, k0_dev78_lt c⟩ : Dev nD) = nb c 15 := dev78_eq c
  sl_exec_parts
  iapply (agSend m K c 15 fd15 (owedAg c 15) _) $$ [Hag15 Hd15 HO HtA15 HtG15]
  · isplitr; · iexact HK
    isplitl [Hag15]; · iexact Hag15
    isplitl [Hd15]; · iexact Hd15
    isplitl [HO]; · iexact HO
    isplitl [HtA15] <;> iassumption
  iintro ⟨HcA15, HO⟩
  clear hdev15
  have hdev16 : (⟨k0_dev79 c, k0_dev79_lt c⟩ : Dev nD) = nb c 16 := dev79_eq c
  sl_exec_parts
  iapply (agSend m K c 16 fd16 (owedAg c 14) _) $$ [Hag16 Hd16 HO HtA16 HtG16]
  · isplitr; · iexact HK
    isplitl [Hag16]; · iexact Hag16
    isplitl [Hd16]; · iexact Hd16
    isplitl [HO]; · iexact HO
    isplitl [HtA16] <;> iassumption
  iintro ⟨HcA16, HO⟩
  clear hdev16
  have hdev17 : (⟨k0_dev80 c, k0_dev80_lt c⟩ : Dev nD) = nb c 17 := dev80_eq c
  sl_exec_parts
  iapply (agSend m K c 17 fd17 (owedAg c 13) _) $$ [Hag17 Hd17 HO HtA17 HtG17]
  · isplitr; · iexact HK
    isplitl [Hag17]; · iexact Hag17
    isplitl [Hd17]; · iexact Hd17
    isplitl [HO]; · iexact HO
    isplitl [HtA17] <;> iassumption
  iintro ⟨HcA17, HO⟩
  clear hdev17
  have hdev18 : (⟨k0_dev81 c, k0_dev81_lt c⟩ : Dev nD) = nb c 18 := dev81_eq c
  sl_exec_parts
  iapply (agSend m K c 18 fd18 (owedAg c 12) _) $$ [Hag18 Hd18 HO HtA18 HtG18]
  · isplitr; · iexact HK
    isplitl [Hag18]; · iexact Hag18
    isplitl [Hd18]; · iexact Hd18
    isplitl [HO]; · iexact HO
    isplitl [HtA18] <;> iassumption
  iintro ⟨HcA18, HO⟩
  clear hdev18
  have hdev19 : (⟨k0_dev82 c, k0_dev82_lt c⟩ : Dev nD) = nb c 19 := dev82_eq c
  sl_exec_parts
  iapply (agSend m K c 19 fd19 (owedAg c 11) _) $$ [Hag19 Hd19 HO HtA19 HtG19]
  · isplitr; · iexact HK
    isplitl [Hag19]; · iexact Hag19
    isplitl [Hd19]; · iexact Hd19
    isplitl [HO]; · iexact HO
    isplitl [HtA19] <;> iassumption
  iintro ⟨HcA19, HO⟩
  clear hdev19
  have hdev20 : (⟨k0_dev83 c, k0_dev83_lt c⟩ : Dev nD) = nb c 20 := dev83_eq c
  sl_exec_parts
  iapply (agSend m K c 20 fd20 (owedAg c 10) _) $$ [Hag20 Hd20 HO HtA20 HtG20]
  · isplitr; · iexact HK
    isplitl [Hag20]; · iexact Hag20
    isplitl [Hd20]; · iexact Hd20
    isplitl [HO]; · iexact HO
    isplitl [HtA20] <;> iassumption
  iintro ⟨HcA20, HO⟩
  clear hdev20
  have hdev21 : (⟨k0_dev84 c, k0_dev84_lt c⟩ : Dev nD) = nb c 21 := dev84_eq c
  sl_exec_parts
  iapply (agSend m K c 21 fd21 (owedAg c 9) _) $$ [Hag21 Hd21 HO HtA21 HtG21]
  · isplitr; · iexact HK
    isplitl [Hag21]; · iexact Hag21
    isplitl [Hd21]; · iexact Hd21
    isplitl [HO]; · iexact HO
    isplitl [HtA21] <;> iassumption
  iintro ⟨HcA21, HO⟩
  clear hdev21
  have hdev22 : (⟨k0_dev85 c, k0_dev85_lt c⟩ : Dev nD) = nb c 22 := dev85_eq c
  sl_exec_parts
  iapply (agSend m K c 22 fd22 (owedAg c 8) _) $$ [Hag22 Hd22 HO HtA22 HtG22]
  · isplitr; · iexact HK
    isplitl [Hag22]; · iexact Hag22
    isplitl [Hd22]; · iexact Hd22
    isplitl [HO]; · iexact HO
    isplitl [HtA22] <;> iassumption
  iintro ⟨HcA22, HO⟩
  clear hdev22
  have hdev23 : (⟨k0_dev86 c, k0_dev86_lt c⟩ : Dev nD) = nb c 23 := dev86_eq c
  sl_exec_parts
  iapply (agSend m K c 23 fd23 (owedAg c 7) _) $$ [Hag23 Hd23 HO HtA23 HtG23]
  · isplitr; · iexact HK
    isplitl [Hag23]; · iexact Hag23
    isplitl [Hd23]; · iexact Hd23
    isplitl [HO]; · iexact HO
    isplitl [HtA23] <;> iassumption
  iintro ⟨HcA23, HO⟩
  clear hdev23
  have hdev24 : (⟨k0_dev87 c, k0_dev87_lt c⟩ : Dev nD) = nb c 24 := dev87_eq c
  sl_exec_parts
  iapply (agSend m K c 24 fd24 (owedAg c 6) _) $$ [Hag24 Hd24 HO HtA24 HtG24]
  · isplitr; · iexact HK
    isplitl [Hag24]; · iexact Hag24
    isplitl [Hd24]; · iexact Hd24
    isplitl [HO]; · iexact HO
    isplitl [HtA24] <;> iassumption
  iintro ⟨HcA24, HO⟩
  clear hdev24
  have hdev25 : (⟨k0_dev88 c, k0_dev88_lt c⟩ : Dev nD) = nb c 25 := dev88_eq c
  sl_exec_parts
  iapply (agSend m K c 25 fd25 (owedAg c 5) _) $$ [Hag25 Hd25 HO HtA25 HtG25]
  · isplitr; · iexact HK
    isplitl [Hag25]; · iexact Hag25
    isplitl [Hd25]; · iexact Hd25
    isplitl [HO]; · iexact HO
    isplitl [HtA25] <;> iassumption
  iintro ⟨HcA25, HO⟩
  clear hdev25
  have hdev26 : (⟨k0_dev89 c, k0_dev89_lt c⟩ : Dev nD) = nb c 26 := dev89_eq c
  sl_exec_parts
  iapply (agSend m K c 26 fd26 (owedAg c 4) _) $$ [Hag26 Hd26 HO HtA26 HtG26]
  · isplitr; · iexact HK
    isplitl [Hag26]; · iexact Hag26
    isplitl [Hd26]; · iexact Hd26
    isplitl [HO]; · iexact HO
    isplitl [HtA26] <;> iassumption
  iintro ⟨HcA26, HO⟩
  clear hdev26
  have hdev27 : (⟨k0_dev90 c, k0_dev90_lt c⟩ : Dev nD) = nb c 27 := dev90_eq c
  sl_exec_parts
  iapply (agSend m K c 27 fd27 (owedAg c 3) _) $$ [Hag27 Hd27 HO HtA27 HtG27]
  · isplitr; · iexact HK
    isplitl [Hag27]; · iexact Hag27
    isplitl [Hd27]; · iexact Hd27
    isplitl [HO]; · iexact HO
    isplitl [HtA27] <;> iassumption
  iintro ⟨HcA27, HO⟩
  clear hdev27
  have hdev28 : (⟨k0_dev91 c, k0_dev91_lt c⟩ : Dev nD) = nb c 28 := dev91_eq c
  sl_exec_parts
  iapply (agSend m K c 28 fd28 (owedAg c 2) _) $$ [Hag28 Hd28 HO HtA28 HtG28]
  · isplitr; · iexact HK
    isplitl [Hag28]; · iexact Hag28
    isplitl [Hd28]; · iexact Hd28
    isplitl [HO]; · iexact HO
    isplitl [HtA28] <;> iassumption
  iintro ⟨HcA28, HO⟩
  clear hdev28
  have hdev29 : (⟨k0_dev92 c, k0_dev92_lt c⟩ : Dev nD) = nb c 29 := dev92_eq c
  sl_exec_parts
  iapply (agSend m K c 29 fd29 (owedAg c 1) _) $$ [Hag29 Hd29 HO HtA29 HtG29]
  · isplitr; · iexact HK
    isplitl [Hag29]; · iexact Hag29
    isplitl [Hd29]; · iexact Hd29
    isplitl [HO]; · iexact HO
    isplitl [HtA29] <;> iassumption
  iintro ⟨HcA29, HO⟩
  clear hdev29
  have hdev30 : (⟨k0_dev93 c, k0_dev93_lt c⟩ : Dev nD) = nb c 30 := dev93_eq c
  sl_exec_parts
  iapply (agSend m K c 30 fd30 0 _) $$ [Hag30 Hd30 HO HtA30 HtG30]
  · isplitr; · iexact HK
    isplitl [Hag30]; · iexact Hag30
    isplitl [Hd30]; · iexact Hd30
    isplitl [HO]; · iexact HO
    isplitl [HtA30] <;> iassumption
  iintro ⟨HcA30, HO⟩
  clear hdev30
  ihave #HIrsS0 := (recInv m K (c, some (0, 0))) $$ HK
  ihave #HIagR0 := (recInv m K (c, some (3, 0))) $$ HK
  ihave #HIrsS1 := (recInv m K (c, some (0, 1))) $$ HK
  ihave #HIagR1 := (recInv m K (c, some (3, 1))) $$ HK
  ihave #HIrsS2 := (recInv m K (c, some (0, 2))) $$ HK
  ihave #HIagR2 := (recInv m K (c, some (3, 2))) $$ HK
  ihave #HIrsS3 := (recInv m K (c, some (0, 3))) $$ HK
  ihave #HIagR3 := (recInv m K (c, some (3, 3))) $$ HK
  ihave #HIrsS4 := (recInv m K (c, some (0, 4))) $$ HK
  ihave #HIagR4 := (recInv m K (c, some (3, 4))) $$ HK
  ihave #HIrsS5 := (recInv m K (c, some (0, 5))) $$ HK
  ihave #HIagR5 := (recInv m K (c, some (3, 5))) $$ HK
  ihave #HIrsS6 := (recInv m K (c, some (0, 6))) $$ HK
  ihave #HIagR6 := (recInv m K (c, some (3, 6))) $$ HK
  ihave #HIrsS7 := (recInv m K (c, some (0, 7))) $$ HK
  ihave #HIagR7 := (recInv m K (c, some (3, 7))) $$ HK
  ihave #HIrsS8 := (recInv m K (c, some (0, 8))) $$ HK
  ihave #HIagR8 := (recInv m K (c, some (3, 8))) $$ HK
  ihave #HIrsS9 := (recInv m K (c, some (0, 9))) $$ HK
  ihave #HIagR9 := (recInv m K (c, some (3, 9))) $$ HK
  ihave #HIrsS10 := (recInv m K (c, some (0, 10))) $$ HK
  ihave #HIagR10 := (recInv m K (c, some (3, 10))) $$ HK
  ihave #HIrsS11 := (recInv m K (c, some (0, 11))) $$ HK
  ihave #HIagR11 := (recInv m K (c, some (3, 11))) $$ HK
  ihave #HIrsS12 := (recInv m K (c, some (0, 12))) $$ HK
  ihave #HIagR12 := (recInv m K (c, some (3, 12))) $$ HK
  ihave #HIrsS13 := (recInv m K (c, some (0, 13))) $$ HK
  ihave #HIagR13 := (recInv m K (c, some (3, 13))) $$ HK
  ihave #HIrsS14 := (recInv m K (c, some (0, 14))) $$ HK
  ihave #HIagR14 := (recInv m K (c, some (3, 14))) $$ HK
  ihave #HIrsS15 := (recInv m K (c, some (0, 15))) $$ HK
  ihave #HIagR15 := (recInv m K (c, some (3, 15))) $$ HK
  ihave #HIrsS16 := (recInv m K (c, some (0, 16))) $$ HK
  ihave #HIagR16 := (recInv m K (c, some (3, 16))) $$ HK
  ihave #HIrsS17 := (recInv m K (c, some (0, 17))) $$ HK
  ihave #HIagR17 := (recInv m K (c, some (3, 17))) $$ HK
  ihave #HIrsS18 := (recInv m K (c, some (0, 18))) $$ HK
  ihave #HIagR18 := (recInv m K (c, some (3, 18))) $$ HK
  ihave #HIrsS19 := (recInv m K (c, some (0, 19))) $$ HK
  ihave #HIagR19 := (recInv m K (c, some (3, 19))) $$ HK
  ihave #HIrsS20 := (recInv m K (c, some (0, 20))) $$ HK
  ihave #HIagR20 := (recInv m K (c, some (3, 20))) $$ HK
  ihave #HIrsS21 := (recInv m K (c, some (0, 21))) $$ HK
  ihave #HIagR21 := (recInv m K (c, some (3, 21))) $$ HK
  ihave #HIrsS22 := (recInv m K (c, some (0, 22))) $$ HK
  ihave #HIagR22 := (recInv m K (c, some (3, 22))) $$ HK
  ihave #HIrsS23 := (recInv m K (c, some (0, 23))) $$ HK
  ihave #HIagR23 := (recInv m K (c, some (3, 23))) $$ HK
  ihave #HIrsS24 := (recInv m K (c, some (0, 24))) $$ HK
  ihave #HIagR24 := (recInv m K (c, some (3, 24))) $$ HK
  ihave #HIrsS25 := (recInv m K (c, some (0, 25))) $$ HK
  ihave #HIagR25 := (recInv m K (c, some (3, 25))) $$ HK
  ihave #HIrsS26 := (recInv m K (c, some (0, 26))) $$ HK
  ihave #HIagR26 := (recInv m K (c, some (3, 26))) $$ HK
  ihave #HIrsS27 := (recInv m K (c, some (0, 27))) $$ HK
  ihave #HIagR27 := (recInv m K (c, some (3, 27))) $$ HK
  ihave #HIrsS28 := (recInv m K (c, some (0, 28))) $$ HK
  ihave #HIagR28 := (recInv m K (c, some (3, 28))) $$ HK
  ihave #HIrsS29 := (recInv m K (c, some (0, 29))) $$ HK
  ihave #HIagR29 := (recInv m K (c, some (3, 29))) $$ HK
  ihave #HIrsS30 := (recInv m K (c, some (0, 30))) $$ HK
  ihave #HIagR30 := (recInv m K (c, some (3, 30))) $$ HK
  sl_exec_parts
  -- every wait of this half is done: the assertion before the fifty-eighth part
  iapply (hk _)
  unfold MidX staging slotPts
  isplitr; · iexact HK
  isplitl [Hsrc]; · iexact Hsrc
  isplitl [HatS0_pay1 HatS1_pay1 HatS2_pay1 HatS3_pay1 HatS4_pay1 HatS5_pay1 HatS6_pay1 HatS7_pay1 HatS8_pay1 HatS9_pay1 HatS10_pay1 HatS11_pay1 HatS12_pay1 HatS13_pay1 HatS14_pay1 HatS15_pay1 HatS16_pay1 HatS17_pay1 HatS18_pay1 HatS19_pay1 HatS20_pay1 HatS21_pay1 HatS22_pay1 HatS23_pay1 HatS24_pay1 HatS25_pay1 HatS26_pay1 HatS27_pay1 HatS28_pay1 HatS29_pay1 HatS30_pay1]
  · iapply (pack31 _)
    isplitl [HatS0_pay1]; · iexact HatS0_pay1
    isplitl [HatS1_pay1]; · iexact HatS1_pay1
    isplitl [HatS2_pay1]; · iexact HatS2_pay1
    isplitl [HatS3_pay1]; · iexact HatS3_pay1
    isplitl [HatS4_pay1]; · iexact HatS4_pay1
    isplitl [HatS5_pay1]; · iexact HatS5_pay1
    isplitl [HatS6_pay1]; · iexact HatS6_pay1
    isplitl [HatS7_pay1]; · iexact HatS7_pay1
    isplitl [HatS8_pay1]; · iexact HatS8_pay1
    isplitl [HatS9_pay1]; · iexact HatS9_pay1
    isplitl [HatS10_pay1]; · iexact HatS10_pay1
    isplitl [HatS11_pay1]; · iexact HatS11_pay1
    isplitl [HatS12_pay1]; · iexact HatS12_pay1
    isplitl [HatS13_pay1]; · iexact HatS13_pay1
    isplitl [HatS14_pay1]; · iexact HatS14_pay1
    isplitl [HatS15_pay1]; · iexact HatS15_pay1
    isplitl [HatS16_pay1]; · iexact HatS16_pay1
    isplitl [HatS17_pay1]; · iexact HatS17_pay1
    isplitl [HatS18_pay1]; · iexact HatS18_pay1
    isplitl [HatS19_pay1]; · iexact HatS19_pay1
    isplitl [HatS20_pay1]; · iexact HatS20_pay1
    isplitl [HatS21_pay1]; · iexact HatS21_pay1
    isplitl [HatS22_pay1]; · iexact HatS22_pay1
    isplitl [HatS23_pay1]; · iexact HatS23_pay1
    isplitl [HatS24_pay1]; · iexact HatS24_pay1
    isplitl [HatS25_pay1]; · iexact HatS25_pay1
    isplitl [HatS26_pay1]; · iexact HatS26_pay1
    isplitl [HatS27_pay1]; · iexact HatS27_pay1
    isplitl [HatS28_pay1]; · iexact HatS28_pay1
    isplitl [HatS29_pay1]; · iexact HatS29_pay1
    iexact HatS30_pay1
  isplitl [Hrsall]; · iexact Hrsall
  isplitl [Hrest]; · iexact Hrest
  isplitl [HatG0_pay1 HatG1_pay1 HatG2_pay1 HatG3_pay1 HatG4_pay1 HatG5_pay1 HatG6_pay1 HatG7_pay1 HatG8_pay1 HatG9_pay1 HatG10_pay1 HatG11_pay1 HatG12_pay1 HatG13_pay1 HatG14_pay1 HatG15_pay1 HatG16_pay1 HatG17_pay1 HatG18_pay1 HatG19_pay1 HatG20_pay1 HatG21_pay1 HatG22_pay1 HatG23_pay1 HatG24_pay1 HatG25_pay1 HatG26_pay1 HatG27_pay1 HatG28_pay1 HatG29_pay1 HatG30_pay1]
  · iapply (pack31 _)
    isplitl [HatG0_pay1]; · iexact HatG0_pay1
    isplitl [HatG1_pay1]; · iexact HatG1_pay1
    isplitl [HatG2_pay1]; · iexact HatG2_pay1
    isplitl [HatG3_pay1]; · iexact HatG3_pay1
    isplitl [HatG4_pay1]; · iexact HatG4_pay1
    isplitl [HatG5_pay1]; · iexact HatG5_pay1
    isplitl [HatG6_pay1]; · iexact HatG6_pay1
    isplitl [HatG7_pay1]; · iexact HatG7_pay1
    isplitl [HatG8_pay1]; · iexact HatG8_pay1
    isplitl [HatG9_pay1]; · iexact HatG9_pay1
    isplitl [HatG10_pay1]; · iexact HatG10_pay1
    isplitl [HatG11_pay1]; · iexact HatG11_pay1
    isplitl [HatG12_pay1]; · iexact HatG12_pay1
    isplitl [HatG13_pay1]; · iexact HatG13_pay1
    isplitl [HatG14_pay1]; · iexact HatG14_pay1
    isplitl [HatG15_pay1]; · iexact HatG15_pay1
    isplitl [HatG16_pay1]; · iexact HatG16_pay1
    isplitl [HatG17_pay1]; · iexact HatG17_pay1
    isplitl [HatG18_pay1]; · iexact HatG18_pay1
    isplitl [HatG19_pay1]; · iexact HatG19_pay1
    isplitl [HatG20_pay1]; · iexact HatG20_pay1
    isplitl [HatG21_pay1]; · iexact HatG21_pay1
    isplitl [HatG22_pay1]; · iexact HatG22_pay1
    isplitl [HatG23_pay1]; · iexact HatG23_pay1
    isplitl [HatG24_pay1]; · iexact HatG24_pay1
    isplitl [HatG25_pay1]; · iexact HatG25_pay1
    isplitl [HatG26_pay1]; · iexact HatG26_pay1
    isplitl [HatG27_pay1]; · iexact HatG27_pay1
    isplitl [HatG28_pay1]; · iexact HatG28_pay1
    isplitl [HatG29_pay1]; · iexact HatG29_pay1
    iexact HatG30_pay1
  isplitl [Hs0 Hs1 Hs2 Hs3]
  · isplitl [Hs0]; · iexact Hs0
    isplitl [Hs1]; · iexact Hs1
    isplitl [Hs2] <;> iassumption
  isplitl [HO]; · iexact HO
  isplitl [HatS0 HatS1 HatS2 HatS3 HatS4 HatS5 HatS6 HatS7 HatS8 HatS9 HatS10 HatS11 HatS12 HatS13 HatS14 HatS15 HatS16 HatS17 HatS18 HatS19 HatS20 HatS21 HatS22 HatS23 HatS24 HatS25 HatS26 HatS27 HatS28 HatS29 HatS30]
  · iapply (pack31 _)
    isplitl [HatS0]; · iexact HatS0
    isplitl [HatS1]; · iexact HatS1
    isplitl [HatS2]; · iexact HatS2
    isplitl [HatS3]; · iexact HatS3
    isplitl [HatS4]; · iexact HatS4
    isplitl [HatS5]; · iexact HatS5
    isplitl [HatS6]; · iexact HatS6
    isplitl [HatS7]; · iexact HatS7
    isplitl [HatS8]; · iexact HatS8
    isplitl [HatS9]; · iexact HatS9
    isplitl [HatS10]; · iexact HatS10
    isplitl [HatS11]; · iexact HatS11
    isplitl [HatS12]; · iexact HatS12
    isplitl [HatS13]; · iexact HatS13
    isplitl [HatS14]; · iexact HatS14
    isplitl [HatS15]; · iexact HatS15
    isplitl [HatS16]; · iexact HatS16
    isplitl [HatS17]; · iexact HatS17
    isplitl [HatS18]; · iexact HatS18
    isplitl [HatS19]; · iexact HatS19
    isplitl [HatS20]; · iexact HatS20
    isplitl [HatS21]; · iexact HatS21
    isplitl [HatS22]; · iexact HatS22
    isplitl [HatS23]; · iexact HatS23
    isplitl [HatS24]; · iexact HatS24
    isplitl [HatS25]; · iexact HatS25
    isplitl [HatS26]; · iexact HatS26
    isplitl [HatS27]; · iexact HatS27
    isplitl [HatS28]; · iexact HatS28
    isplitl [HatS29]; · iexact HatS29
    iexact HatS30
  isplitl [HatR0 HatRs]
  · iapply (pack_erase0 _)
    isplitl [HatR0] <;> iassumption
  isplitl [HatA0 HatA1 HatA2 HatA3 HatA4 HatA5 HatA6 HatA7 HatA8 HatA9 HatA10 HatA11 HatA12 HatA13 HatA14 HatA15 HatA16 HatA17 HatA18 HatA19 HatA20 HatA21 HatA22 HatA23 HatA24 HatA25 HatA26 HatA27 HatA28 HatA29 HatA30]
  · iapply (pack31 _)
    isplitl [HatA0]; · iexact HatA0
    isplitl [HatA1]; · iexact HatA1
    isplitl [HatA2]; · iexact HatA2
    isplitl [HatA3]; · iexact HatA3
    isplitl [HatA4]; · iexact HatA4
    isplitl [HatA5]; · iexact HatA5
    isplitl [HatA6]; · iexact HatA6
    isplitl [HatA7]; · iexact HatA7
    isplitl [HatA8]; · iexact HatA8
    isplitl [HatA9]; · iexact HatA9
    isplitl [HatA10]; · iexact HatA10
    isplitl [HatA11]; · iexact HatA11
    isplitl [HatA12]; · iexact HatA12
    isplitl [HatA13]; · iexact HatA13
    isplitl [HatA14]; · iexact HatA14
    isplitl [HatA15]; · iexact HatA15
    isplitl [HatA16]; · iexact HatA16
    isplitl [HatA17]; · iexact HatA17
    isplitl [HatA18]; · iexact HatA18
    isplitl [HatA19]; · iexact HatA19
    isplitl [HatA20]; · iexact HatA20
    isplitl [HatA21]; · iexact HatA21
    isplitl [HatA22]; · iexact HatA22
    isplitl [HatA23]; · iexact HatA23
    isplitl [HatA24]; · iexact HatA24
    isplitl [HatA25]; · iexact HatA25
    isplitl [HatA26]; · iexact HatA26
    isplitl [HatA27]; · iexact HatA27
    isplitl [HatA28]; · iexact HatA28
    isplitl [HatA29]; · iexact HatA29
    iexact HatA30
  isplitl [HatG0 HatG1 HatG2 HatG3 HatG4 HatG5 HatG6 HatG7 HatG8 HatG9 HatG10 HatG11 HatG12 HatG13 HatG14 HatG15 HatG16 HatG17 HatG18 HatG19 HatG20 HatG21 HatG22 HatG23 HatG24 HatG25 HatG26 HatG27 HatG28 HatG29 HatG30]
  · iapply (pack31 _)
    isplitl [HatG0]; · iexact HatG0
    isplitl [HatG1]; · iexact HatG1
    isplitl [HatG2]; · iexact HatG2
    isplitl [HatG3]; · iexact HatG3
    isplitl [HatG4]; · iexact HatG4
    isplitl [HatG5]; · iexact HatG5
    isplitl [HatG6]; · iexact HatG6
    isplitl [HatG7]; · iexact HatG7
    isplitl [HatG8]; · iexact HatG8
    isplitl [HatG9]; · iexact HatG9
    isplitl [HatG10]; · iexact HatG10
    isplitl [HatG11]; · iexact HatG11
    isplitl [HatG12]; · iexact HatG12
    isplitl [HatG13]; · iexact HatG13
    isplitl [HatG14]; · iexact HatG14
    isplitl [HatG15]; · iexact HatG15
    isplitl [HatG16]; · iexact HatG16
    isplitl [HatG17]; · iexact HatG17
    isplitl [HatG18]; · iexact HatG18
    isplitl [HatG19]; · iexact HatG19
    isplitl [HatG20]; · iexact HatG20
    isplitl [HatG21]; · iexact HatG21
    isplitl [HatG22]; · iexact HatG22
    isplitl [HatG23]; · iexact HatG23
    isplitl [HatG24]; · iexact HatG24
    isplitl [HatG25]; · iexact HatG25
    isplitl [HatG26]; · iexact HatG26
    isplitl [HatG27]; · iexact HatG27
    isplitl [HatG28]; · iexact HatG28
    isplitl [HatG29]; · iexact HatG29
    iexact HatG30
  isplitl [HcA0 HcA1 HcA2 HcA3 HcA4 HcA5 HcA6 HcA7 HcA8 HcA9 HcA10 HcA11 HcA12 HcA13 HcA14 HcA15 HcA16 HcA17 HcA18 HcA19 HcA20 HcA21 HcA22 HcA23 HcA24 HcA25 HcA26 HcA27 HcA28 HcA29 HcA30]
  · iapply (pack31 _)
    isplitl [HcA0]; · iexact HcA0
    isplitl [HcA1]; · iexact HcA1
    isplitl [HcA2]; · iexact HcA2
    isplitl [HcA3]; · iexact HcA3
    isplitl [HcA4]; · iexact HcA4
    isplitl [HcA5]; · iexact HcA5
    isplitl [HcA6]; · iexact HcA6
    isplitl [HcA7]; · iexact HcA7
    isplitl [HcA8]; · iexact HcA8
    isplitl [HcA9]; · iexact HcA9
    isplitl [HcA10]; · iexact HcA10
    isplitl [HcA11]; · iexact HcA11
    isplitl [HcA12]; · iexact HcA12
    isplitl [HcA13]; · iexact HcA13
    isplitl [HcA14]; · iexact HcA14
    isplitl [HcA15]; · iexact HcA15
    isplitl [HcA16]; · iexact HcA16
    isplitl [HcA17]; · iexact HcA17
    isplitl [HcA18]; · iexact HcA18
    isplitl [HcA19]; · iexact HcA19
    isplitl [HcA20]; · iexact HcA20
    isplitl [HcA21]; · iexact HcA21
    isplitl [HcA22]; · iexact HcA22
    isplitl [HcA23]; · iexact HcA23
    isplitl [HcA24]; · iexact HcA24
    isplitl [HcA25]; · iexact HcA25
    isplitl [HcA26]; · iexact HcA26
    isplitl [HcA27]; · iexact HcA27
    isplitl [HcA28]; · iexact HcA28
    isplitl [HcA29]; · iexact HcA29
    iexact HcA30
  iexact Hlev

/-- info: 'Cert.KernelIdeal.BodyEarly.bodyEarly' depends on axioms: [propext, Classical.choice, Quot.sound] -/
#guard_msgs in #print axioms bodyEarly

end Cert.KernelIdeal.BodyEarly

end
-- ==== Proof.Around.lean ====
/-
A [32, 64, 256] buffer seen from one device of the ring: the slot at the device's own position, and the thirty-one
other slots, listed by the operation that addresses them — the slots at the positions of the devices the device's
operations address, or of the devices whose operations address it. Either list runs over every position but the
device's own exactly once, so the whole buffer's points-to is the own slot's and the thirty-one others'.
-/
import proofs.«900791_g7700000000000792_dist_gconv1d_cshard_i_b4_s512_c256_v7x_i32_bf16_1_alg».proof.Proof.Proto
import proofs.«900791_g7700000000000792_dist_gconv1d_cshard_i_b4_s512_c256_v7x_i32_bf16_1_alg».proof.Proof.Slots
import proofs.«900791_g7700000000000792_dist_gconv1d_cshard_i_b4_s512_c256_v7x_i32_bf16_1_alg».proof.Proof.Rot

noncomputable section

namespace Cert.KernelIdeal.Around

open Idealize.ShloMosaic Idealize.SL.Sem Cert.KernelIdeal Cert.KernelIdeal.Proto Cert.KernelIdeal.Slots
open Idealize.SL Idealize.SL.RA Idealize.SL.BI
open scoped Idealize.SL.BI
open Idealize.SL.BI.BIBase Idealize.SL.BI.Laws Idealize.SL.ProofMode

/- The two listings of the other positions, under this namespace's names as well. -/
export Cert.KernelIdeal.Rot (dv_inj nbSlot pbSlot nbSlot_apply pbSlot_apply nbSlot_ne pbSlot_ne erase_eq_map)

variable [Facts]
open Facts₀ Facts

variable {Ix : Type} [DecidableEq Ix] {Val : EltTy → Type} {Name : Type} [DecidableEq Name] {U : Type} [URA U] {Lvl : Type}
local notation "𝕄" => MT nD τ sig Ix Val Name U Lvl

/-- The whole buffer's points-to is the slot at `j`'s and those of thirty-one distinct other positions. -/
theorem around (M : Memref sig .tc .vmem S32x64x256 .bf16) (c : Dev nD) (j : Fin 32) (σ : Fin 31 ↪ Fin 32) (hne : ∀ r, σ r ≠ j)
    (q : PosShare TreeShare) (f : Buf Val (M.view.loc (c.tc : Thread nD τ))) :
    (M.view.loc (c.tc : Thread nD τ) ↦[M.view.set]{q} f : sProp 𝕄)
      = iprop((M.view.loc (c.tc : Thread nD τ) ↦[(slotM M j).view.set]{q} f)
          ∗ bigSep Finset.univ (fun r : Fin 31 => (M.view.loc (c.tc : Thread nD τ) ↦[(slotM M (σ r)).view.set]{q} f : sProp 𝕄))) := by
  rw [pointsTo_slots M c q f]
  exact Rot.bigSep_around j σ hne _

/-- The buffer on device `c`: its own slot, and the slots at the positions of the devices its operations address. -/
theorem around_nb (M : Memref sig .tc .vmem S32x64x256 .bf16) (c : Dev nD) (q : PosShare TreeShare)
    (f : Buf Val (M.view.loc (c.tc : Thread nD τ))) :
    (M.view.loc (c.tc : Thread nD τ) ↦[M.view.set]{q} f : sProp 𝕄)
      = iprop((M.view.loc (c.tc : Thread nD τ) ↦[(slotM M (dv c)).view.set]{q} f)
          ∗ bigSep Finset.univ (fun r : Fin 31 => (M.view.loc (c.tc : Thread nD τ) ↦[(slotM M (dv (nb c r))).view.set]{q} f : sProp 𝕄))) :=
  around M c (dv c) (nbSlot c) (nbSlot_ne c) q f

/-- The buffer on device `c`: its own slot, and the slots at the positions of the devices whose operations address it. -/
theorem around_pb (M : Memref sig .tc .vmem S32x64x256 .bf16) (c : Dev nD) (q : PosShare TreeShare)
    (f : Buf Val (M.view.loc (c.tc : Thread nD τ))) :
    (M.view.loc (c.tc : Thread nD τ) ↦[M.view.set]{q} f : sProp 𝕄)
      = iprop((M.view.loc (c.tc : Thread nD τ) ↦[(slotM M (dv c)).view.set]{q} f)
          ∗ bigSep Finset.univ (fun r : Fin 31 => (M.view.loc (c.tc : Thread nD τ) ↦[(slotM M (dv (pb c r))).view.set]{q} f : sProp 𝕄))) :=
  around M c (dv c) (pbSlot c) (pbSlot_ne c) q f

/-- info: 'Cert.KernelIdeal.Around.around_nb' depends on axioms: [propext, Classical.choice, Quot.sound] -/
#guard_msgs in #print axioms around_nb

/-- info: 'Cert.KernelIdeal.Around.around_pb' depends on axioms: [propext, Classical.choice, Quot.sound] -/
#guard_msgs in #print axioms around_pb

end Cert.KernelIdeal.Around

end
-- ==== Proof.Shares.lean ====
/-
The read shares of the all-gather buffer on one device. A device's own slot is read by its thirty-one outgoing
transfers at once, so its full share is cut into a remainder and thirty-one tokens; the same cut of every received
slot lets the whole buffer be held at the remainder share (for the device's own loads) with every token kept aside,
and, once the outgoing transfers have returned the own slot's tokens, be put back together at the full share.
-/
import proofs.«900791_g7700000000000792_dist_gconv1d_cshard_i_b4_s512_c256_v7x_i32_bf16_1_alg».proof.Proof.Around
import Idealize.ShloMosaic.Lib.Transfers

noncomputable section

namespace Cert.KernelIdeal.Shares

open Idealize.ShloMosaic Idealize.SL.Sem Cert.KernelIdeal Cert.KernelIdeal.Proto Cert.KernelIdeal.Slots Cert.KernelIdeal.Around
open Idealize.SL Idealize.SL.RA Idealize.SL.BI
open scoped Idealize.SL.BI
open Idealize.SL.BI.BIBase Idealize.SL.BI.Laws Idealize.SL.ProofMode

variable [Facts]
open Facts₀ Facts

variable {Ix : Type} [DecidableEq Ix] {Val : EltTy → Type} {Name : Type} [DecidableEq Name] {U : Type} [URA U] {Lvl : Type}
local notation "𝕄" => MT nD τ sig Ix Val Name U Lvl

/-- Every received slot's full share cut into its remainder and its tokens; the remainders, with the own slot's, make the
    whole buffer at the remainder share. -/
theorem ag_gather (c : Dev nD) (f : Buf Val (agB.view.loc (c.tc : Thread nD τ))) :
    iprop((agB.view.loc (c.tc : Thread nD τ) ↦[(slotM agB (dv c)).view.set]{shLast} f)
        ∗ bigSep Finset.univ (fun r : Fin 31 => (agB.view.loc (c.tc : Thread nD τ) ↦[(slotM agB (dv (pb c r))).view.set]{fullShare} f : sProp 𝕄)))
      ⊢ iprop((agB.view.loc (c.tc : Thread nD τ) ↦[agB.view.set]{shLast} f)
        ∗ bigSep Finset.univ (fun r : Fin 31 => bigSep Finset.univ (fun i : Fin 31 =>
            (agB.view.loc (c.tc : Thread nD τ) ↦[(slotM agB (dv (pb c r))).view.set]{sh i} f : sProp 𝕄)))) := by
  have hcut : bigSep Finset.univ (fun r : Fin 31 => (agB.view.loc (c.tc : Thread nD τ) ↦[(slotM agB (dv (pb c r))).view.set]{fullShare} f : sProp 𝕄))
      ⊢ iprop(bigSep Finset.univ (fun r : Fin 31 => (agB.view.loc (c.tc : Thread nD τ) ↦[(slotM agB (dv (pb c r))).view.set]{shLast} f : sProp 𝕄))
          ∗ bigSep Finset.univ (fun r : Fin 31 => bigSep Finset.univ (fun i : Fin 31 =>
              (agB.view.loc (c.tc : Thread nD τ) ↦[(slotM agB (dv (pb c r))).view.set]{sh i} f : sProp 𝕄)))) :=
    (bigSep_mono fun r _ => Transfers.pointsTo_toks_split fullShare 31).trans (Entails.of_eq (bigSep_sep _ _ _))
  rw [around_pb agB c shLast f]
  iintro ⟨Hown, Hr⟩
  ihave H := hcut $$ Hr
  icases H with ⟨Ha, Hb⟩
  isplitl [Hown Ha]
  · isplitl [Hown] <;> iassumption
  · iexact Hb

/-- The whole buffer at the remainder share, every received slot's tokens and the own slot's tokens: the whole buffer at
    the full share. -/
theorem ag_regather (c : Dev nD) (f : Buf Val (agB.view.loc (c.tc : Thread nD τ))) :
    iprop((agB.view.loc (c.tc : Thread nD τ) ↦[agB.view.set]{shLast} f)
        ∗ (bigSep Finset.univ (fun r : Fin 31 => bigSep Finset.univ (fun i : Fin 31 =>
            (agB.view.loc (c.tc : Thread nD τ) ↦[(slotM agB (dv (pb c r))).view.set]{sh i} f : sProp 𝕄))))
        ∗ bigSep Finset.univ (fun i : Fin 31 => (agB.view.loc (c.tc : Thread nD τ) ↦[(slotM agB (dv c)).view.set]{sh i} f : sProp 𝕄)))
      ⊢ (agB.view.loc (c.tc : Thread nD τ) ↦[agB.view.set]{fullShare} f : sProp 𝕄) := by
  have hjoin : iprop(bigSep Finset.univ (fun r : Fin 31 => (agB.view.loc (c.tc : Thread nD τ) ↦[(slotM agB (dv (pb c r))).view.set]{shLast} f : sProp 𝕄))
          ∗ bigSep Finset.univ (fun r : Fin 31 => bigSep Finset.univ (fun i : Fin 31 =>
              (agB.view.loc (c.tc : Thread nD τ) ↦[(slotM agB (dv (pb c r))).view.set]{sh i} f : sProp 𝕄))))
      ⊢ bigSep Finset.univ (fun r : Fin 31 => (agB.view.loc (c.tc : Thread nD τ) ↦[(slotM agB (dv (pb c r))).view.set]{fullShare} f : sProp 𝕄)) :=
    (Entails.of_eq (bigSep_sep _ _ _).symm).trans (bigSep_mono fun r _ => Transfers.pointsTo_toks_join fullShare 31)
  rw [around_pb agB c shLast f, around_pb agB c fullShare f]
  iintro ⟨⟨Hown, Ha⟩, Hb, Ht⟩
  isplitl [Hown Ht]
  · iapply (Transfers.pointsTo_toks_join fullShare 31)
    isplitl [Hown] <;> iassumption
  · iapply hjoin
    isplitl [Ha] <;> iassumption

/-- info: 'Cert.KernelIdeal.Shares.ag_gather' depends on axioms: [propext, Classical.choice, Quot.sound] -/
#guard_msgs in #print axioms ag_gather

/-- info: 'Cert.KernelIdeal.Shares.ag_regather' depends on axioms: [propext, Classical.choice, Quot.sound] -/
#guard_msgs in #print axioms ag_regather

end Cert.KernelIdeal.Shares

end
-- ==== Proof.EndB.lean ====
/-
The end of a device's body, as an entailment: the partial-product buffer rejoined from the device's own chunk and the
thirty-one chunks its reduce-scatter copies lent and returned, the receive buffer and the all-gather buffer whole, and
the device past round 0 of each of its 124 transfer cells. No later round of any cell has a duty, so the cells close
and their counters come out at zero: what the pipeline's last point asks for.
-/
import proofs.«900791_g7700000000000792_dist_gconv1d_cshard_i_b4_s512_c256_v7x_i32_bf16_1_alg».proof.Proof.CloseCells
import proofs.«900791_g7700000000000792_dist_gconv1d_cshard_i_b4_s512_c256_v7x_i32_bf16_1_alg».proof.Proof.Around

noncomputable section

namespace Cert.KernelIdeal.EndB

open Cert.KernelIdeal Cert.KernelIdeal.Gen Cert.KernelIdeal.Contents Cert.KernelIdeal.Proto Cert.KernelIdeal.Tables Cert.KernelIdeal.CloseCells
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem bigSep_fin4 {M : Type} [URA M] (Φ : Fin 4 → sProp M) : bigSep Finset.univ Φ = iprop(Φ 0 ∗ Φ 1 ∗ Φ 2 ∗ Φ 3) :=
  bigSep_univ_eq_bigSepL [0, 1, 2, 3] (by decide) (by decide) Φ

/-- The positions of the 124 transfer cells, pool by pool. -/
theorem positions_eq (c : Dev nD) :
    (bigSep Finset.univ (fun k : Fin 4 × Fin 31 => (atPos ER (kcell (c, some k)) 1 ∅ 0 : sProp 𝕄)))
      = iprop((bigSep Finset.univ fun r : Fin 31 => atPos ER (rsS c r) 1 ∅ 0) ∗ (bigSep Finset.univ fun r : Fin 31 => atPos ER (rsR c r) 1 ∅ 0)
          ∗ (bigSep Finset.univ fun r : Fin 31 => atPos ER (agS c r) 1 ∅ 0) ∗ (bigSep Finset.univ fun r : Fin 31 => atPos ER (agR c r) 1 ∅ 0)) := by
  rw [bigSep_univ_prod, bigSep_fin4]

/-- A whole scratch buffer at some contents. -/
theorem scr_intro (c : Dev nD) (b : Ref sig .tc) (f : Buf (Elt F) ((Memref.whole b : Memref sig .tc _ _ _).view.loc (c : Thread nD τ))) :
    (((Memref.whole b : Memref sig .tc _ _ _).view.loc (c : Thread nD τ)) ↦[(Memref.whole b : Memref sig .tc _ _ _).view.set]{fullShare} f : sProp 𝕄) ⊢ scr c b := by
  rw [View.set_whole]
  unfold scr
  iintro H
  iexists f
  iexact H

theorem endB (m : Mem F) (K : Dev nD × Option (Fin 4 × Fin 31) → ℕ) (c : Dev nD)
    (fr : Buf (Elt F) ((rsB : Memref sig .tc .vmem S32x64x256 .bf16).view.loc (c : Thread nD τ)))
    (fa : Buf (Elt F) ((agB : Memref sig .tc .vmem S32x64x256 .bf16).view.loc (c : Thread nD τ))) :
    iprop(records m K
      ∗ (((slotM srcB (dv c)).view.loc (c : Thread nD τ)) ↦[(slotM srcB (dv c)).view.set]{fullShare} P m c)
      ∗ (bigSep Finset.univ fun r : Fin 31 => (((slotM srcB (dv (nb c r))).view.loc (c : Thread nD τ)) ↦[(slotM srcB (dv (nb c r))).view.set]{fullShare} P m c))
      ∗ (((rsB : Memref sig .tc .vmem S32x64x256 .bf16).view.loc (c : Thread nD τ)) ↦[(rsB : Memref sig .tc .vmem S32x64x256 .bf16).view.set]{fullShare} fr)
      ∗ (((agB : Memref sig .tc .vmem S32x64x256 .bf16).view.loc (c : Thread nD τ)) ↦[(agB : Memref sig .tc .vmem S32x64x256 .bf16).view.set]{fullShare} fa)
      ∗ (bigSep Finset.univ fun r : Fin 31 => atPos ER (rsS c r) 1 ∅ 0) ∗ (bigSep Finset.univ fun r : Fin 31 => atPos ER (rsR c r) 1 ∅ 0)
      ∗ (bigSep Finset.univ fun r : Fin 31 => atPos ER (agS c r) 1 ∅ 0) ∗ (bigSep Finset.univ fun r : Fin 31 => atPos ER (agR c r) 1 ∅ 0))
    ⊢ (iprop(|={Set.univ}=> Φ₁ c) : sProp 𝕄) := by
  have hsrc := Around.around_nb (Ix := Unit) (Val := Elt F) (Name := ℕ) (U := UU) (Lvl := ℕ) srcB c fullShare (P m c)
  iintro ⟨#HK, Hown, Hpeers, Hrs, Hag, H1, H2, H3, H4⟩
  ihave Hsrc := (Entails.of_eq hsrc.symm) $$ [Hown Hpeers]
  · isplitl [Hown] <;> iassumption
  ihave Hpos := (Entails.of_eq (positions_eq (F := F) c).symm) $$ [H1 H2 H3 H4]
  · isplitl [H1]; · iexact H1
    isplitl [H2]; · iexact H2
    isplitl [H3] <;> iassumption
  imod (closeOwn m K c) $$ [Hpos] with Hz
  · isplitr; · iexact HK
    iexact Hpos
  imodintro
  unfold Φ₁
  isplitl [Hsrc]; · iapply (scr_intro (F := F) c cc0_scratch0 (P m c)); iexact Hsrc
  isplitl [Hrs]; · iapply (scr_intro (F := F) c cc0_scratch1 fr); iexact Hrs
  isplitl [Hag]; · iapply (scr_intro (F := F) c cc0_scratch2 fa); iexact Hag
  iexact Hz

/-- info: 'Cert.KernelIdeal.EndB.endB' depends on axioms: [propext, Classical.choice, Quot.sound] -/
#guard_msgs in #print axioms endB

end Cert.KernelIdeal.EndB

end
-- ==== Proof.BodyLate.lean ====
/-
The end of a device's body, from its fifty-eighth part: the all-gather buffer, every slot landed, is read whole and
stored, widened, as the result; the thirty-one waits for the all-gather's own copies to have left return the shares of
the device's own slot lent to them, so that the buffer is whole at the full share again; the device is then past the one
round of each of its 124 transfer cells, which close with their counters at zero.
-/
import proofs.«900791_g7700000000000792_dist_gconv1d_cshard_i_b4_s512_c256_v7x_i32_bf16_1_alg».proof.Proof.CutB
import proofs.«900791_g7700000000000792_dist_gconv1d_cshard_i_b4_s512_c256_v7x_i32_bf16_1_alg».proof.Proof.MidX
import proofs.«900791_g7700000000000792_dist_gconv1d_cshard_i_b4_s512_c256_v7x_i32_bf16_1_alg».proof.Proof.Tables
import proofs.«900791_g7700000000000792_dist_gconv1d_cshard_i_b4_s512_c256_v7x_i32_bf16_1_alg».proof.Proof.Levels
import proofs.«900791_g7700000000000792_dist_gconv1d_cshard_i_b4_s512_c256_v7x_i32_bf16_1_alg».proof.Proof.DevEqs
import proofs.«900791_g7700000000000792_dist_gconv1d_cshard_i_b4_s512_c256_v7x_i32_bf16_1_alg».proof.Proof.Slots
import proofs.«900791_g7700000000000792_dist_gconv1d_cshard_i_b4_s512_c256_v7x_i32_bf16_1_alg».proof.Proof.CloseCells
import proofs.«900791_g7700000000000792_dist_gconv1d_cshard_i_b4_s512_c256_v7x_i32_bf16_1_alg».proof.Proof.Shares
import proofs.«900791_g7700000000000792_dist_gconv1d_cshard_i_b4_s512_c256_v7x_i32_bf16_1_alg».proof.Proof.EndB
import Idealize.ShloMosaic.Lib.Tactic

set_option synthInstance.maxSize 4096

noncomputable section

namespace Cert.KernelIdeal.BodyLate

open Cert.KernelIdeal Cert.KernelIdeal.Gen Cert.KernelIdeal.Contents Cert.KernelIdeal.Proto Cert.KernelIdeal.Tables
open Cert.KernelIdeal.Cut Cert.KernelIdeal.CutB Cert.KernelIdeal.DevEqs Cert.KernelIdeal.Slots
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal.Mid Cert.KernelIdeal.Levels Cert.KernelIdeal.CloseCells

variable {F : FTy → Type} [FloatOps F]

local notation "𝕄" => MT nD τ sig Unit (Elt F) ℕ UU ℕ

/-- A conjunction over the thirty-one operations, written out. -/
theorem bigSep_fin31 {M : Type} [URA M] (Φ : Fin 31 → sProp M) :
    bigSep (Finset.univ : Finset (Fin 31)) Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30) :=
  bigSep_univ_eq_bigSepL [0, 1, 2, 3, 4, 5, 6, 7, 8, 9, 10, 11, 12, 13, 14, 15, 16, 17, 18, 19, 20, 21, 22, 23, 24, 25, 26, 27, 28, 29, 30] (by decide) (by decide) Φ

theorem zero3 : (![0, 0, 0] : Fin 3 → ℕ) = fun _ => 0 := by funext a; fin_cases a <;> rfl

/-- The result's staging buffer after the one store: the widened all-gather buffer, that is the result. -/
theorem stg3_after (m : Mem F) (c : Dev nD) (s : Buf (Elt F) ((c : Thread nD τ).loc cc0_stg3_0))
    (Lw : List (View.Piece (Elt F) cc0_stg3_0.ty.shape cc0_stg3_0.ty.elt))
    (hL : Lw = [⟨Rect.unit ![0, 0, 0] S4x512x256.size inb_S4x512x256_S4x512x256_0_0_0,
        k0_pay8 (View.readAt (Elt F) agB.view (Rect.unit ![0, 0, 0] S32x64x256.size inb_S32x64x256_S32x64x256_0_0_0).toLoadRect (agAll (P m)))⟩]) :
    ((((Memref.whole cc0_stg3_0 : Memref sig .tc .vmem S4x512x256 .f32).view.loc (c : Thread nD τ))
        ↦[(Memref.whole cc0_stg3_0 : Memref sig .tc .vmem S4x512x256 .f32).view.set]{fullShare}
          (Memref.whole cc0_stg3_0 : Memref sig .tc .vmem S4x512x256 .f32).view.writes (Elt F) s Lw) : sProp 𝕄)
      ⊢ (((c : Thread nD τ).loc cc0_stg3_0) ↦{fullShare} outAll (P m)) := by
  subst hL
  rw [View.set_whole, View.writes_singleton,
    show View.readAt (Elt F) agB.view (Rect.unit ![0, 0, 0] S32x64x256.size inb_S32x64x256_S32x64x256_0_0_0).toLoadRect (agAll (P m)) = agAll (P m)
      from Memref.readAt_unit_zero (Elt F) cc0_scratch2 zero3 _ _]
  exact Entails.of_eq (congrArg _ (Memref.write_access_unit_zero_univ (Elt F) cc0_stg3_0 zero3 _ s _))

set_option maxHeartbeats 6400000 in
theorem bodyLate (m : Mem F) (K : Dev nD × Option (Fin 4 × Fin 31) → ℕ) (c : Dev nD)
    (s : Buf (Elt F) ((c : Thread nD τ).loc cc0_stg3_0)) (W : Waits sig Unit) :
    MidX m K c s W ⊢ wp frame (wpE (defs₀ (F := F)) 𝒱₀ (c : Thread nD τ) none) Set.univ (tail58 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) srcB (Memref.isWhole_whole _) rsB (Memref.isWhole_whole _) agB (Memref.isWhole_whole _) cc0_scratch3 cc0_scratch4 cc0_scratch5 cc0_scratch6 c)
      (fun d => wp frame (wpE (defs₀ (F := F)) 𝒱₀ (c : Thread nD τ) none) Set.univ (tailC (Memref.whole cc0_stg0_0) (Memref.isWhole_whole _) (Memref.whole cc0_stg1_0) (Memref.isWhole_whole _) (Memref.whole cc0_stg2_0) (Memref.isWhole_whole _) (Memref.whole cc0_stg3_0) (Memref.isWhole_whole _) srcB (Memref.isWhole_whole _) rsB (Memref.isWhole_whole _) agB (Memref.isWhole_whole _) cc0_scratch3 cc0_scratch4 cc0_scratch5 cc0_scratch6 d) (fun _ => PostB m c)) := by
  unfold MidX staging slotPts
  iintro ⟨#HK, Hsrc, Hpeers, Hrs, Hown, Hland, ⟨Hs0, Hs1, Hs2, Hs3⟩, HO, HpS, HpR, HpA, HpG, HcA, #Hlev⟩
  ihave HpA' := (Entails.of_eq (bigSep_fin31 _)) $$ HpA
  icases HpA' with ⟨HatA0, HatA1, HatA2, HatA3, HatA4, HatA5, HatA6, HatA7, HatA8, HatA9, HatA10, HatA11, HatA12, HatA13, HatA14, HatA15, HatA16, HatA17, HatA18, HatA19, HatA20, HatA21, HatA22, HatA23, HatA24, HatA25, HatA26, HatA27, HatA28, HatA29, HatA30⟩
  ihave HcA' := (Entails.of_eq (bigSep_fin31 _)) $$ HcA
  icases HcA' with ⟨HcA0, HcA1, HcA2, HcA3, HcA4, HcA5, HcA6, HcA7, HcA8, HcA9, HcA10, HcA11, HcA12, HcA13, HcA14, HcA15, HcA16, HcA17, HcA18, HcA19, HcA20, HcA21, HcA22, HcA23, HcA24, HcA25, HcA26, HcA27, HcA28, HcA29, HcA30⟩
  ihave #HIagS0 := (recInv m K (c, some (2, 0))) $$ HK
  ihave #HIagS1 := (recInv m K (c, some (2, 1))) $$ HK
  ihave #HIagS2 := (recInv m K (c, some (2, 2))) $$ HK
  ihave #HIagS3 := (recInv m K (c, some (2, 3))) $$ HK
  ihave #HIagS4 := (recInv m K (c, some (2, 4))) $$ HK
  ihave #HIagS5 := (recInv m K (c, some (2, 5))) $$ HK
  ihave #HIagS6 := (recInv m K (c, some (2, 6))) $$ HK
  ihave #HIagS7 := (recInv m K (c, some (2, 7))) $$ HK
  ihave #HIagS8 := (recInv m K (c, some (2, 8))) $$ HK
  ihave #HIagS9 := (recInv m K (c, some (2, 9))) $$ HK
  ihave #HIagS10 := (recInv m K (c, some (2, 10))) $$ HK
  ihave #HIagS11 := (recInv m K (c, some (2, 11))) $$ HK
  ihave #HIagS12 := (recInv m K (c, some (2, 12))) $$ HK
  ihave #HIagS13 := (recInv m K (c, some (2, 13))) $$ HK
  ihave #HIagS14 := (recInv m K (c, some (2, 14))) $$ HK
  ihave #HIagS15 := (recInv m K (c, some (2, 15))) $$ HK
  ihave #HIagS16 := (recInv m K (c, some (2, 16))) $$ HK
  ihave #HIagS17 := (recInv m K (c, some (2, 17))) $$ HK
  ihave #HIagS18 := (recInv m K (c, some (2, 18))) $$ HK
  ihave #HIagS19 := (recInv m K (c, some (2, 19))) $$ HK
  ihave #HIagS20 := (recInv m K (c, some (2, 20))) $$ HK
  ihave #HIagS21 := (recInv m K (c, some (2, 21))) $$ HK
  ihave #HIagS22 := (recInv m K (c, some (2, 22))) $$ HK
  ihave #HIagS23 := (recInv m K (c, some (2, 23))) $$ HK
  ihave #HIagS24 := (recInv m K (c, some (2, 24))) $$ HK
  ihave #HIagS25 := (recInv m K (c, some (2, 25))) $$ HK
  ihave #HIagS26 := (recInv m K (c, some (2, 26))) $$ HK
  ihave #HIagS27 := (recInv m K (c, some (2, 27))) $$ HK
  ihave #HIagS28 := (recInv m K (c, some (2, 28))) $$ HK
  ihave #HIagS29 := (recInv m K (c, some (2, 29))) $$ HK
  ihave #HIagS30 := (recInv m K (c, some (2, 30))) $$ HK
  ihave Hg := (Shares.ag_gather (Ix := Unit) (Val := Elt F) (Name := ℕ) (U := UU) (Lvl := ℕ) c (agAll (P m))) $$ [Hown Hland]
  · isplitl [Hown] <;> iassumption
  icases Hg with ⟨Hag, Htoks⟩
  have hs3 : ((((c : Thread nD τ).loc cc0_stg3_0) ↦{fullShare} s : sProp 𝕄))
      = (((Memref.whole cc0_stg3_0 : Memref sig .tc .vmem S4x512x256 .f32).view.loc (c : Thread nD τ))
          ↦[(Memref.whole cc0_stg3_0 : Memref sig .tc .vmem S4x512x256 .f32).view.set]{fullShare} s) := by rw [View.set_whole]
  ihave Hs3' := (Entails.of_eq hs3) $$ Hs3
  unfold tail58
  sl_exec_parts
  -- the shares of the own slot lent to the thirty-one copies, back
  ihave Hpay := (Entails.of_eq (bigSep_fin31 (fun i : Fin 31 => ((agB.view.loc (c : Thread nD τ)) ↦[(slotM agB (dv c)).view.set]{sh i} agAll (P m) : sProp 𝕄))).symm) $$ [HatA0_pay1 HatA1_pay1 HatA2_pay1 HatA3_pay1 HatA4_pay1 HatA5_pay1 HatA6_pay1 HatA7_pay1 HatA8_pay1 HatA9_pay1 HatA10_pay1 HatA11_pay1 HatA12_pay1 HatA13_pay1 HatA14_pay1 HatA15_pay1 HatA16_pay1 HatA17_pay1 HatA18_pay1 HatA19_pay1 HatA20_pay1 HatA21_pay1 HatA22_pay1 HatA23_pay1 HatA24_pay1 HatA25_pay1 HatA26_pay1 HatA27_pay1 HatA28_pay1 HatA29_pay1 HatA30_pay1]
  ·
    isplitl [HatA0_pay1]; · iexact HatA0_pay1
    isplitl [HatA1_pay1]; · iexact HatA1_pay1
    isplitl [HatA2_pay1]; · iexact HatA2_pay1
    isplitl [HatA3_pay1]; · iexact HatA3_pay1
    isplitl [HatA4_pay1]; · iexact HatA4_pay1
    isplitl [HatA5_pay1]; · iexact HatA5_pay1
    isplitl [HatA6_pay1]; · iexact HatA6_pay1
    isplitl [HatA7_pay1]; · iexact HatA7_pay1
    isplitl [HatA8_pay1]; · iexact HatA8_pay1
    isplitl [HatA9_pay1]; · iexact HatA9_pay1
    isplitl [HatA10_pay1]; · iexact HatA10_pay1
    isplitl [HatA11_pay1]; · iexact HatA11_pay1
    isplitl [HatA12_pay1]; · iexact HatA12_pay1
    isplitl [HatA13_pay1]; · iexact HatA13_pay1
    isplitl [HatA14_pay1]; · iexact HatA14_pay1
    isplitl [HatA15_pay1]; · iexact HatA15_pay1
    isplitl [HatA16_pay1]; · iexact HatA16_pay1
    isplitl [HatA17_pay1]; · iexact HatA17_pay1
    isplitl [HatA18_pay1]; · iexact HatA18_pay1
    isplitl [HatA19_pay1]; · iexact HatA19_pay1
    isplitl [HatA20_pay1]; · iexact HatA20_pay1
    isplitl [HatA21_pay1]; · iexact HatA21_pay1
    isplitl [HatA22_pay1]; · iexact HatA22_pay1
    isplitl [HatA23_pay1]; · iexact HatA23_pay1
    isplitl [HatA24_pay1]; · iexact HatA24_pay1
    isplitl [HatA25_pay1]; · iexact HatA25_pay1
    isplitl [HatA26_pay1]; · iexact HatA26_pay1
    isplitl [HatA27_pay1]; · iexact HatA27_pay1
    isplitl [HatA28_pay1]; · iexact HatA28_pay1
    isplitl [HatA29_pay1]; · iexact HatA29_pay1
    iexact HatA30_pay1
  ihave Hagf := (Shares.ag_regather (Ix := Unit) (Val := Elt F) (Name := ℕ) (U := UU) (Lvl := ℕ) c (agAll (P m))) $$ [Hag Htoks Hpay]
  · isplitl [Hag]; · iexact Hag
    isplitl [Htoks] <;> iassumption
  ihave HpA1 := (Entails.of_eq (bigSep_fin31 (fun r : Fin 31 => (atPos ER (agS c r) 1 ∅ 0 : sProp 𝕄))).symm) $$ [HatA0 HatA1 HatA2 HatA3 HatA4 HatA5 HatA6 HatA7 HatA8 HatA9 HatA10 HatA11 HatA12 HatA13 HatA14 HatA15 HatA16 HatA17 HatA18 HatA19 HatA20 HatA21 HatA22 HatA23 HatA24 HatA25 HatA26 HatA27 HatA28 HatA29 HatA30]
  ·
    isplitl [HatA0]; · iexact HatA0
    isplitl [HatA1]; · iexact HatA1
    isplitl [HatA2]; · iexact HatA2
    isplitl [HatA3]; · iexact HatA3
    isplitl [HatA4]; · iexact HatA4
    isplitl [HatA5]; · iexact HatA5
    isplitl [HatA6]; · iexact HatA6
    isplitl [HatA7]; · iexact HatA7
    isplitl [HatA8]; · iexact HatA8
    isplitl [HatA9]; · iexact HatA9
    isplitl [HatA10]; · iexact HatA10
    isplitl [HatA11]; · iexact HatA11
    isplitl [HatA12]; · iexact HatA12
    isplitl [HatA13]; · iexact HatA13
    isplitl [HatA14]; · iexact HatA14
    isplitl [HatA15]; · iexact HatA15
    isplitl [HatA16]; · iexact HatA16
    isplitl [HatA17]; · iexact HatA17
    isplitl [HatA18]; · iexact HatA18
    isplitl [HatA19]; · iexact HatA19
    isplitl [HatA20]; · iexact HatA20
    isplitl [HatA21]; · iexact HatA21
    isplitl [HatA22]; · iexact HatA22
    isplitl [HatA23]; · iexact HatA23
    isplitl [HatA24]; · iexact HatA24
    isplitl [HatA25]; · iexact HatA25
    isplitl [HatA26]; · iexact HatA26
    isplitl [HatA27]; · iexact HatA27
    isplitl [HatA28]; · iexact HatA28
    isplitl [HatA29]; · iexact HatA29
    iexact HatA30
  ihave Hres := (stg3_after m c s (bodyLate.sl.Hs3'_1 m) rfl) $$ Hs3'
  imod (EndB.endB m K c (rsAll (P m) c) (agAll (P m))) $$ [Hsrc Hpeers Hrs Hagf HpS HpR HpA1 HpG] with HΦ
  · isplitr; · iexact HK
    isplitl [Hsrc]; · iexact Hsrc
    isplitl [Hpeers]; · iexact Hpeers
    isplitl [Hrs]; · iexact Hrs
    isplitl [Hagf]; · iexact Hagf
    isplitl [HpS]; · iexact HpS
    isplitl [HpR]; · iexact HpR
    isplitl [HpA1]; · iexact HpA1
    iexact HpG
  sl_step
  unfold PostB
  isplitl [HΦ]; · iexact HΦ
  isplitl [HO]; · iexists _; iexact HO
  isplitl [Hs0]; · iexact Hs0
  isplitl [Hs1]; · iexact Hs1
  isplitl [Hs2]; · iexact Hs2
  iexact Hres

/-- info: 'Cert.KernelIdeal.BodyLate.bodyLate' depends on axioms: [propext, Classical.choice, Quot.sound] -/
#guard_msgs in #print axioms bodyLate

end Cert.KernelIdeal.BodyLate

end
-- ==== Proof.BodyB.lean ====
/-
The body's second half at a symbolic device: its first twenty-nine parts (to the assertion before the result is stored)
continued by the rest (the store of the result, the all-gather's send waits, the cells closed).
-/
import proofs.«900791_g7700000000000792_dist_gconv1d_cshard_i_b4_s512_c256_v7x_i32_bf16_1_alg».proof.Proof.BodyEarly
import proofs.«900791_g7700000000000792_dist_gconv1d_cshard_i_b4_s512_c256_v7x_i32_bf16_1_alg».proof.Proof.BodyLate

set_option synthInstance.maxSize 4096

noncomputable section

namespace Cert.KernelIdeal.BodyB

open Cert.KernelIdeal Cert.KernelIdeal.Gen Cert.KernelIdeal.Contents Cert.KernelIdeal.Proto
open Cert.KernelIdeal.Cut Cert.KernelIdeal.CutB Cert.KernelIdeal.Mid
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- From the assertion between the halves, the rest of the body's first sixty parts and then its last four parts and
    closing waits run to the body's post. -/
theorem bodyB (m : Mem F) (K : Dev nD × Option (Fin 4 × Fin 31) → ℕ) (c : Dev nD) (v2 v544 : BitVec 32)
    (s : Buf (Elt F) ((c : Thread nD τ).loc cc0_stg3_0)) (W : Waits sig Unit) :
    Mid m K c s W
      ⊢ wp frame (wpE (defs₀ (F := F)) 𝒱₀ c none) Set.univ
          (tail65 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) srcB (Memref.isWhole_whole _) rsB (Memref.isWhole_whole _) agB (Memref.isWhole_whole _) cc0_scratch3 cc0_scratch4 cc0_scratch5 cc0_scratch6 c v2 v544)
          (fun d => wp frame (wpE (defs₀ (F := F)) 𝒱₀ c none) Set.univ
            (tailC (Memref.whole cc0_stg0_0) (Memref.isWhole_whole _) (Memref.whole cc0_stg1_0) (Memref.isWhole_whole _) (Memref.whole cc0_stg2_0) (Memref.isWhole_whole _) (Memref.whole cc0_stg3_0) (Memref.isWhole_whole _) srcB (Memref.isWhole_whole _) rsB (Memref.isWhole_whole _) agB (Memref.isWhole_whole _) cc0_scratch3 cc0_scratch4 cc0_scratch5 cc0_scratch6 d) (fun _ => PostB m c)) := by
  rw [tail65_eq]
  exact BodyEarly.bodyEarly m K c v2 v544 s W _ _ (fun W' => BodyLate.bodyLate m K c s W')

/-- info: 'Cert.KernelIdeal.BodyB.bodyB' depends on axioms: [propext, Classical.choice, Quot.sound] -/
#guard_msgs in #print axioms bodyB

end Cert.KernelIdeal.BodyB

end
-- ==== Proof.Body.lean ====
/-
The body obligation of a device, from the body's three stretches. The kernel's body is cut twice along its printed
sequence: the signals, the product, the barrier wait and the reduce-scatter's copies; the reduce-scatter's receive
waits; the sum, the all-gather and the closing waits. Each stretch is stepped in a module of its own between named
assertions; here they are composed, what the library's obligation hands the body is regrouped into the first
stretch's precondition, and what the last stretch leaves is read as what the obligation wants back.
-/
import proofs.«900791_g7700000000000792_dist_gconv1d_cshard_i_b4_s512_c256_v7x_i32_bf16_1_alg».proof.Proof.CutA
import proofs.«900791_g7700000000000792_dist_gconv1d_cshard_i_b4_s512_c256_v7x_i32_bf16_1_alg».proof.Proof.PreA
import proofs.«900791_g7700000000000792_dist_gconv1d_cshard_i_b4_s512_c256_v7x_i32_bf16_1_alg».proof.Proof.MidX
import proofs.«900791_g7700000000000792_dist_gconv1d_cshard_i_b4_s512_c256_v7x_i32_bf16_1_alg».proof.Proof.OpenPre
import proofs.«900791_g7700000000000792_dist_gconv1d_cshard_i_b4_s512_c256_v7x_i32_bf16_1_alg».proof.Proof.BodyA
import proofs.«900791_g7700000000000792_dist_gconv1d_cshard_i_b4_s512_c256_v7x_i32_bf16_1_alg».proof.Proof.BodyW
import proofs.«900791_g7700000000000792_dist_gconv1d_cshard_i_b4_s512_c256_v7x_i32_bf16_1_alg».proof.Proof.BodyB
import Idealize.ShloMosaic.Lib.Pipeline.Kit
import Idealize.ShloMosaic.Lib.Pipeline.FrameBody
import Idealize.ShloMosaic.Lib.Tactic

set_option synthInstance.maxSize 4096

noncomputable section

namespace Cert.KernelIdeal.Body

open Cert.KernelIdeal Cert.KernelIdeal.Gen Cert.KernelIdeal.Contents Cert.KernelIdeal.Proto Cert.KernelIdeal.Mid Cert.KernelIdeal.PreA
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The windows' staging buffers as the obligation hands them over -/

omit [FloatOps F] in
/-- A whole staging buffer held at contents `X`: the buffer's points-to at some contents equal to `X`. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- An argument window's staging buffer holds, when the body is handed it, the window's block: it was fetched at the point. -/
theorem before_in0 (m : Mem F) (c : Dev nD) (d) : (dats m 0 c).before 0 t0_0 d = iblk m c 0 t0_0 :=
  ((dats m 0 c).before_fetched 0 t0_0 (fetch0_0 t0_0) d).trans (by unfold Dat.fetched Dat.blockOf iblk; rfl)
theorem before_in1 (m : Mem F) (c : Dev nD) (d) : (dats m 0 c).before 1 t0_0 d = iblk m c 1 t0_0 :=
  ((dats m 0 c).before_fetched 1 t0_0 (fetch0_1 t0_0) d).trans (by unfold Dat.fetched Dat.blockOf iblk; rfl)
theorem before_in2 (m : Mem F) (c : Dev nD) (d) : (dats m 0 c).before 2 t0_0 d = iblk m c 2 t0_0 :=
  ((dats m 0 c).before_fetched 2 t0_0 (fetch0_2 t0_0) d).trans (by unfold Dat.fetched Dat.blockOf iblk; rfl)

/-- What the library's obligation hands the body at the one point. -/
def bodyPre' (m : Mem F) (c : Dev nD) : sProp 𝕄 :=
  iprop(Φ₀ m c ∗ (dats m 0 c).owesAt () t0_0.castSucc
    ∗ (∃ d, owns (Ix := Unit) (Name := ℕ) (U := UU) (Lvl := ℕ) (c : Thread nD τ) (Memref.whole cc0_stg0_0) fullShare ((dats m 0 c).before 0 t0_0 d))
    ∗ (∃ d, owns (Ix := Unit) (Name := ℕ) (U := UU) (Lvl := ℕ) (c : Thread nD τ) (Memref.whole cc0_stg1_0) fullShare ((dats m 0 c).before 1 t0_0 d))
    ∗ (∃ d, owns (Ix := Unit) (Name := ℕ) (U := UU) (Lvl := ℕ) (c : Thread nD τ) (Memref.whole cc0_stg2_0) fullShare ((dats m 0 c).before 2 t0_0 d))
    ∗ (∃ d, owns (Ix := Unit) (Name := ℕ) (U := UU) (Lvl := ℕ) (c : Thread nD τ) (Memref.whole cc0_stg3_0) fullShare ((dats m 0 c).before 3 t0_0 d)))

/-- What it wants back. -/
def bodyPost (m : Mem F) (c : Dev nD) : sProp 𝕄 :=
  iprop(Φ₁ c ∗ (dats m 0 c).owesAt () t0_0.succ
    ∗ owns (Ix := Unit) (Name := ℕ) (U := UU) (Lvl := ℕ) (c : Thread nD τ) (Memref.whole cc0_stg0_0) fullShare (iblk m c 0 t0_0)
    ∗ owns (Ix := Unit) (Name := ℕ) (U := UU) (Lvl := ℕ) (c : Thread nD τ) (Memref.whole cc0_stg1_0) fullShare (iblk m c 1 t0_0)
    ∗ owns (Ix := Unit) (Name := ℕ) (U := UU) (Lvl := ℕ) (c : Thread nD τ) (Memref.whole cc0_stg2_0) fullShare (iblk m c 2 t0_0)
    ∗ owns (Ix := Unit) (Name := ℕ) (U := UU) (Lvl := ℕ) (c : Thread nD τ) (Memref.whole cc0_stg3_0) fullShare (outAll (P m)))

/-- The obligation's holdings, opened: the invariant, what is owed under some recorded set, the four staging buffers. -/
theorem pre_open (m : Mem F) (c : Dev nD) :
    bodyPre' m c ⊢ iprop(∃ (W : Waits sig Unit) (s : Buf (Elt F) ((c : Thread nD τ).loc cc0_stg3_0)), Φ₀ m c ∗ owes c (O₀ c) W ∗ staging m c s) := by
  unfold bodyPre' staging
  simp only [owns_whole_eq, before_in0, before_in1, before_in2]
  iintro ⟨HΦ, ⟨%W, -, Ho⟩, ⟨%d0, %f0, %h0, H0⟩, ⟨%d1, %f1, %h1, H1⟩, ⟨%d2, %f2, %h2, H2⟩, ⟨%d3, %f3, -, H3⟩⟩
  subst h0; subst h1; subst h2
  iexists W; iexists f3
  isplitl [HΦ]; · iexact HΦ
  isplitl [Ho]; · iexact Ho
  isplitl [H0]; · iexact H0
  isplitl [H1]; · iexact H1
  isplitl [H2]; · iexact H2
  iexact H3

/-! ## The post -/

/-- What the second half leaves is what the obligation wants back: nothing owed, under whatever was recorded. -/
theorem post_close (m : Mem F) (c : Dev nD) : Mid.PostB m c ⊢ bodyPost m c := by
  unfold Mid.PostB bodyPost
  simp only [owns_whole_eq]
  iintro ⟨HΦ, ⟨%W', Ho⟩, H0, H1, H2, H3⟩
  isplitl [HΦ]; · iexact HΦ
  isplitl [Ho]
  · iexists W'
    isplitr
    · ipureintro; exact fun _ _ => Or.inl trivial
    · iexact Ho
  isplitl [H0]
  · iexists _; isplitr
    · ipureintro; rfl
    · iexact H0
  isplitl [H1]
  · iexists _; isplitr
    · ipureintro; rfl
    · iexact H1
  isplitl [H2]
  · iexists _; isplitr
    · ipureintro; rfl
    · iexact H2
  iexists _; isplitr
  · ipureintro; rfl
  · iexact H3

/-! ## The body, from its three stretches -/

set_option maxRecDepth 65536 in
/-- The body on device `c`: the signals, the product, the barrier wait and the reduce-scatter's copies; the receive waits;
    the sum, the all-gather and the closing waits. -/
theorem body_run (m : Mem F) (c : Dev nD) (s : Buf (Elt F) ((c : Thread nD τ).loc cc0_stg3_0)) (W : Waits sig Unit) :
    iprop(Φ₀ m c ∗ owes c (O₀ c) W ∗ staging m c s)
      ⊢ wp frame (wpE (defs₀ (F := F)) 𝒱₀ (c : Thread nD τ) none) Set.univ (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) srcB (Memref.isWhole_whole _) rsB (Memref.isWhole_whole _) agB (Memref.isWhole_whole _) cc0_scratch3 cc0_scratch4 cc0_scratch5 cc0_scratch6) (fun _ => Mid.PostB m c) := by
  refine (OpenPre.openPre m c s W).trans ?_
  iintro ⟨%K, %f0, %f1, %f2, H⟩
  rw [Cut.cc0_body_eq, wp_bind, CutA.k0_part65_eq, CutA.progA_eq]
  iapply (BodyA.sends m K c s W f0 f1 f2
    (fun d0 v2 w => CutA.progW (Memref.whole cc0_stg0_0) (Memref.isWhole_whole _) (Memref.whole cc0_stg1_0) (Memref.isWhole_whole _) (Memref.whole cc0_stg2_0) (Memref.isWhole_whole _) (Memref.whole cc0_stg3_0) (Memref.isWhole_whole _) srcB (Memref.isWhole_whole _) rsB (Memref.isWhole_whole _) agB (Memref.isWhole_whole _) cc0_scratch3 cc0_scratch4 cc0_scratch5 cc0_scratch6 d0 w (Cut.tail65 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) srcB (Memref.isWhole_whole _) rsB (Memref.isWhole_whole _) agB (Memref.isWhole_whole _) cc0_scratch3 cc0_scratch4 cc0_scratch5 cc0_scratch6 d0 v2 (w 30)))
    (fun d => wp frame (wpE (defs₀ (F := F)) 𝒱₀ (c : Thread nD τ) none) Set.univ (Cut.tailC (Memref.whole cc0_stg0_0) (Memref.isWhole_whole _) (Memref.whole cc0_stg1_0) (Memref.isWhole_whole _) (Memref.whole cc0_stg2_0) (Memref.isWhole_whole _) (Memref.whole cc0_stg3_0) (Memref.isWhole_whole _) srcB (Memref.isWhole_whole _) rsB (Memref.isWhole_whole _) agB (Memref.isWhole_whole _) cc0_scratch3 cc0_scratch4 cc0_scratch5 cc0_scratch6 d) (fun _ => Mid.PostB m c))
    (fun v2 w W' => BodyW.recvWaits m K c s W' (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _) srcB (Memref.isWhole_whole _)
      (Memref.isWhole_whole _) agB (Memref.isWhole_whole _) cc0_scratch3 cc0_scratch5 cc0_scratch6 w
      (Cut.tail65 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) srcB (Memref.isWhole_whole _) rsB (Memref.isWhole_whole _) agB (Memref.isWhole_whole _) cc0_scratch3 cc0_scratch4 cc0_scratch5 cc0_scratch6 c v2 (w 30)) _ (fun W'' => BodyB.bodyB m K c v2 (w 30) s W'')))
  iexact H

set_option maxRecDepth 65536 in
/-- The library's body obligation on device `c`. -/
theorem body_obligation (m : Mem F) (c : Dev nD) :
    BodyObligation (dats (F := F) m 0 c) (defs₀ (F := F)) 𝒱₀ () Set.univ := fun t => by
  rw [fin_N0 t]
  rw [bigSep_W0, bigSep_W0]
  show bodyPre' m c ⊢ wp frame (wpE (defs₀ (F := F)) 𝒱₀ (c : Thread nD τ) none) Set.univ (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) srcB (Memref.isWhole_whole _) rsB (Memref.isWhole_whole _) agB (Memref.isWhole_whole _) cc0_scratch3 cc0_scratch4 cc0_scratch5 cc0_scratch6) (fun _ => bodyPost m c)
  refine (pre_open m c).trans ?_
  iintro ⟨%W, %s, H⟩
  iapply (wp_mono frame (wpE (defs₀ (F := F)) 𝒱₀ (c : Thread nD τ) none) Set.univ fun _ => post_close m c)
  iapply (body_run m c s W)
  iexact H

/-- info: 'Cert.KernelIdeal.Body.pre_open' depends on axioms: [propext, Classical.choice, Quot.sound] -/
#guard_msgs in #print axioms pre_open

/-- info: 'Cert.KernelIdeal.Body.post_close' depends on axioms: [propext, Classical.choice, Quot.sound] -/
#guard_msgs in #print axioms post_close

/-- info: 'Cert.KernelIdeal.Body.body_obligation' depends on axioms: [propext, Classical.choice, Quot.sound] -/
#guard_msgs in #print axioms body_obligation

end Cert.KernelIdeal.Body

end
-- ==== Proof.LaunchGhost.lean ====
/-
The launch's ghost state for the thirty-two-device kernel: the launch element (the pipeline's copy of the rounds algebra
beside the protocol's), its protocol half funded into every cell's round state, reached-mark, owner's position and duty
tokens; every cell's invariant allocated for all devices under one update, from the devices' own semaphores and their
barrier semaphore at zero; and the duty tokens, minted by the cell they are owed to, dealt to the devices that pay
them: a barrier cell's duty r and an all-gather receive cell's go r + 1 places back around the ring, a reduce-scatter
receive cell's 31 - r places back, the send cells' stay with their owner.
-/
import proofs.«900791_g7700000000000792_dist_gconv1d_cshard_i_b4_s512_c256_v7x_i32_bf16_1_alg».proof.Proof.Proto

noncomputable section

namespace Cert.KernelIdeal.LaunchGhost

open Cert.KernelIdeal Cert.KernelIdeal.Gen Cert.KernelIdeal.Proto
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## Conjunctions over finite types, rearranged -/

section BigSep

variable {M : Type} [URA M]

/-- Dealing a doubly indexed family around: each column reindexed by its own permutation of the rows. -/
theorem bigSep_deal {α β : Type} [Fintype α] [Fintype β] (e : β → α ≃ α) (Φ : α → β → sProp M) :
    bigSep Finset.univ (fun a => bigSep Finset.univ (fun b => Φ a b))
      = bigSep Finset.univ (fun a => bigSep Finset.univ (fun b => Φ (e b a) b)) := by
  rw [bigSep_univ_comm, bigSep_congr (s := Finset.univ) (fun b _ => bigSep_univ_equiv (e b) (fun a => Φ a b)), bigSep_univ_comm]

/-- A conjunction over an optional index: the summand at no index, then the others. -/
theorem bigSep_univ_option {K : Type} [Fintype K] [DecidableEq K] (Φ : Option K → sProp M) :
    bigSep Finset.univ Φ = iprop(Φ none ∗ bigSep Finset.univ fun k : K => Φ (some k)) := by
  have h : (Finset.univ : Finset (Option K)) = insert none (Finset.univ.map Function.Embedding.some) := by
    ext x; cases x <;> simp
  rw [h, bigSep_insert (by simp), bigSep_map]
  rfl

theorem bigSep_fin4 (Φ : Fin 4 → sProp M) : bigSep Finset.univ Φ = iprop(Φ 0 ∗ Φ 1 ∗ Φ 2 ∗ Φ 3) :=
  bigSep_univ_eq_bigSepL [0, 1, 2, 3] (by decide) (by decide) Φ

end BigSep

/-! ## Cells of every device under one rounds algebra: funding, allocation, the names gathered -/

section Cells

variable {nD : Nat} {τ : Topo} {sig : RefSig} {Ix : Type} [DecidableEq Ix] {D : Type} [DecidableEq D]
variable {Val : EltTy → Type} {Name : Type} [DecidableEq Name] {U : Type} [URA U] {Lvl : Type}
variable (E : Emb (URounds (GSem nD τ sig) D) (MT nD τ sig Ix Val Name U Lvl)) (Rd : Schedule (GSem nD τ sig) D (MT nD τ sig Ix Val Name U Lvl))
variable {I : Type} [Fintype I] [DecidableEq I] (cell : Dev nD × I → GSem nD τ sig) (hcell : Function.Injective cell)

/-- A conjunction over the cells of every device, device by device. -/
theorem bigSep_cells (Φ : GSem nD τ sig → sProp (MT nD τ sig Ix Val Name U Lvl)) :
    bigSep (Finset.univ.map ⟨cell, hcell⟩) Φ = bigSep Finset.univ fun c : Dev nD => bigSep Finset.univ fun j : I => Φ (cell (c, j)) := by
  rw [bigSep_map, bigSep_univ_prod]; rfl

/-- The launch element of the cells of every device is, device by device and cell by cell, the round state at counter
    zero, the mark that round 0 is reached and the owner's position, beside the tokens. -/
theorem fund_cells (toks : Finset (GSem nD τ sig × ℕ × D)) :
    BI.own (E (initOf (Finset.univ.map ⟨cell, hcell⟩) toks))
      ⊢ iprop(|==> ((bigSep Finset.univ fun c : Dev nD => bigSep Finset.univ fun j : I => roundState E Rd (cell (c, j)) 0)
          ∗ (bigSep Finset.univ fun c : Dev nD => bigSep Finset.univ fun j : I => reached E (cell (c, j)) 0)
          ∗ (bigSep Finset.univ fun c : Dev nD => bigSep Finset.univ fun j : I => atPos E (cell (c, j)) 0 ∅ 0)
          ∗ bigSep toks fun x => dutyTok E x.1 x.2.1 x.2.2)) := by
  have h := Rounds.fund E Rd (Finset.univ.map ⟨cell, hcell⟩) toks
  rw [bigSep_cells cell hcell (fun g => roundState E Rd g 0), bigSep_cells cell hcell (fun g => reached E g 0),
    bigSep_cells cell hcell (fun g => atPos E g 0 ∅ 0)] at h
  exact h

/-- One device's cells' invariants, allocated from their counters at zero and their round states. -/
theorem alloc_cells [Preorder Lvl] [Infinite Name] [E.LandsIn (upEmb : UEmb _ (MT nD τ sig Ix Val Name U Lvl))]
    [∀ g r d, BI.Storable (upEmb : UEmb _ (MT nD τ sig Ix Val Name U Lvl)) (Rd.payload g r d)] (c : Dev nD) {Es : Set Name} :
    iprop((bigSep Finset.univ fun j : I => semVal (cell (c, j)) 0) ∗ bigSep Finset.univ fun j : I => roundState E Rd (cell (c, j)) 0)
      ⊢ |={Es}=> (bigSep Finset.univ fun j : I => iprop(∃ κ : Name, cellInv E Rd κ (cell (c, j))) : sProp (MT nD τ sig Ix Val Name U Lvl)) := by
  rw [← bigSep_sep']
  exact (bigSep_mono fun j _ => (Rounds.body_intro E Rd (cell (c, j))).trans inv_alloc).trans (bigSep_fupd _ _)

/-- The names of every device's cells' invariants, gathered into one function. -/
theorem names_gather [Preorder Lvl] [Infinite Name] :
    (bigSep Finset.univ fun c : Dev nD => bigSep Finset.univ fun j : I => iprop(∃ κ : Name, cellInv E Rd κ (cell (c, j))) : sProp (MT nD τ sig Ix Val Name U Lvl))
      ⊢ iprop(∃ K : Dev nD × I → Name, bigSep Finset.univ fun cj : Dev nD × I => cellInv E Rd (K cj) (cell cj)) := by
  rw [← bigSep_univ_prod (fun cj : Dev nD × I => iprop(∃ κ : Name, cellInv E Rd κ (cell cj)))]
  exact BI.bigSep_exists_pi Finset.univ (fun (cj : Dev nD × I) (κ : Name) => (cellInv E Rd κ (cell cj) : sProp (MT nD τ sig Ix Val Name U Lvl)))

end Cells

/-! ## This program's cells and tokens -/

variable {F : FTy → Type} [FloatOps F]

local notation "𝕄" => MT nD τ sig Unit (Elt F) ℕ UU ℕ
local notation "J" => Option (Fin 4 × Fin 31)

/-- The barrier semaphore is no transfer semaphore. -/
theorem reg_ne_osem (k : Fin 4 × Fin 31) : (SemLoc.reg barS : SemLoc sig) ≠ osem k := fun h => by cases h

/-- Distinct (pool, operation) pairs name distinct own semaphores. -/
theorem osem_inj : Function.Injective osem := fun k k' h => by
  obtain ⟨h1, h2⟩ := dsem_inj (SemLoc.dma.inj h)
  exact Prod.ext h1 h2

/-- The own semaphores are scoped, pairwise distinct, and none of them a staging semaphore. -/
theorem ownSemFacts : Pipeline.OwnSemFacts cfg0.spec osem := ⟨by decide, osem_inj, by decide⟩

/-- Every device's cells: its barrier cell and its 124 own ones. -/
def ringCells : Finset (GSem nD τ sig) := Finset.univ.map ⟨kcell, kcell_inj⟩

/-- The duty tokens as minted, by owner: a barrier cell's 31, and the one of each own cell. -/
abbrev tokOf (x : Dev nD × (Fin 31 ⊕ (Fin 4 × Fin 31))) : GSem nD τ sig × ℕ × Fin 31 := match x.2 with
  | .inl r => (bar x.1, 0, r)
  | .inr k => (kcell (x.1, some k), 0, 0)

theorem tokOf_injective : Function.Injective tokOf := by
  rintro ⟨c, x⟩ ⟨c', x'⟩ h
  have h1 : c = c' := by
    have := congrArg (fun t : GSem nD τ sig × ℕ × Fin 31 => t.1.1.1) h
    cases x <;> cases x' <;> exact this
  subst h1
  cases x with
  | inl r => cases x' with
    | inl r' =>
      have : r = r' := congrArg (fun t : GSem nD τ sig × ℕ × Fin 31 => t.2.2) h
      subst this; rfl
    | inr k' => exact absurd (congrArg (fun t : GSem nD τ sig × ℕ × Fin 31 => t.1.2) h) (reg_ne_osem k')
  | inr k => cases x' with
    | inl r' => exact absurd (congrArg (fun t : GSem nD τ sig × ℕ × Fin 31 => t.1.2) h).symm (reg_ne_osem k)
    | inr k' =>
      have : k = k' := osem_inj (congrArg (fun t : GSem nD τ sig × ℕ × Fin 31 => t.1.2) h)
      subst this; rfl

def ringToks : Finset (GSem nD τ sig × ℕ × Fin 31) := Finset.univ.map ⟨tokOf, tokOf_injective⟩

/-- The launch element: the pipeline's copy and the protocol's. -/
def u₀ : UU :=
  (initOf (Pipeline.cells cfgs cellOf_inj) (Pipeline.launchToks cfgs cellOf_inj), initOf ringCells ringToks)

/-- The duty tokens of device `c`'s own cells, as minted. -/
def toks (c : Dev nD) : sProp 𝕄 :=
  iprop((bigSep Finset.univ fun r : Fin 31 => dutyTok ER (bar c) 0 r) ∗ bigSep Finset.univ fun k : Fin 4 × Fin 31 => dutyTok ER (kcell (c, some k)) 0 0)

variable (m : Mem F)

/-- What the launch element deals device `c`. -/
def G (c : Dev nD) : sProp 𝕄 :=
  iprop((bigSep Finset.univ fun j : J => roundState ER (sched m) (kcell (c, j)) 0)
    ∗ (bigSep Finset.univ fun j : J => iprop(atPos ER (kcell (c, j)) 0 ∅ 0 ∗ reached ER (kcell (c, j)) 0)) ∗ toks (F := F) c)

/-- What the global step makes of it. -/
def G' (c : Dev nD) : sProp 𝕄 := iprop(∃ K, ghost m K c)

theorem fund_ring : BI.own (ER (initOf ringCells ringToks)) ⊢ (|==> bigSep Finset.univ (G m) : sProp 𝕄) := by
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum]; rfl
  unfold ringCells
  iintro HX
  imod (fund_cells ER (sched m) kcell kcell_inj ringToks) $$ HX with ⟨Hst, Hr, Hat, Htok⟩
  imodintro
  ihave Htok' := (Entails.of_eq hT) $$ Htok
  unfold G; simp only [bigSep_sep']
  isplitl [Hst]; · iexact Hst
  isplitl [Hat Hr]
  · isplitl [Hat] <;> iassumption
  iexact Htok'

/-- The theorem's `hu₀`: the launch element split between the pipeline and the protocol, the protocol's half funded. -/
theorem hu₀ : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  imod (fund_ring m) $$ HX with HG
  imodintro
  isplitl [HP] <;> iassumption

/-! ## The global step: every cell's invariant allocated, the tokens dealt to their payers -/

omit [FloatOps F] in
/-- The barrier semaphore is the launch's one unscoped semaphore. -/
theorem unscopedSems0_eq (c : Dev nD) : (unscopedSems0 c : sProp 𝕄) = semVal (bar c) 0 := by
  unfold unscopedSems0; rw [bigSep_eq_bigSepL_of_eq [SemLoc.reg barS] (by decide) (by decide)]; rfl

omit [FloatOps F] in
/-- A device's own semaphores and its barrier semaphore are its cells' counters. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun j : J => semVal (kcell (c, j)) 0 : sProp 𝕄) := by
  rw [unscopedSems0_eq, bigSep_univ_option]
  unfold Pipeline.ownSems0
  iintro ⟨HO, HB⟩
  isplitl [HB]; · iexact HB
  iexact HO

/-- One device's step: its cells' invariants from their counters and round states; positions, marks and tokens kept. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j : J => iprop(∃ κ : ℕ, cellInv ER (sched m) κ (kcell (c, j))))
          ∗ (bigSep Finset.univ fun j : J => iprop(atPos ER (kcell (c, j)) 0 ∅ 0 ∗ reached ER (kcell (c, j)) 0)) ∗ toks (F := F) c) := by
  unfold G
  iintro ⟨Hos, Hus, Hst, Hat, Htok⟩
  ihave Hv := (sems0_eq (F := F) c) $$ [Hos Hus]
  · isplitl [Hos] <;> iassumption
  imod (alloc_cells ER (sched m) kcell c (Es := Set.univ)) $$ [Hv Hst] with Hinv
  · isplitl [Hv] <;> iassumption
  imodintro
  isplitl [Hinv]; · iexact Hinv
  isplitl [Hat]; · iexact Hat
  iexact Htok

instance records_persistent (K : Dev nD × J → ℕ) : BI.Persistent (records m K) := by unfold records; infer_instance

theorem ghost_intro (K : Dev nD × J → ℕ) (c : Dev nD) : iprop(records m K ∗ linear (F := F) c) ⊢ G' m c := by
  unfold G' ghost
  iintro H
  iexists K
  iexact H

/-- Operation `r`'s forward neighbour, as a permutation of the mesh. -/
def nbE (r : Fin 31) : Dev nD ≃ Dev nD := ⟨fun c => nb c r, fun c => pb c r, fun c => pb_nb c r, fun c => nb_pb c r⟩
/-- Operations counted from the other end. -/
def revE : Fin 31 ≃ Fin 31 := ⟨rev, rev, rev_rev, rev_rev⟩

omit [FloatOps F] in
/-- The tokens dealt from the cells' owners to the duties' payers: the barrier cell's duty `r` and the all-gather receive cell
    `r` go to the device `r + 1` places back, the reduce-scatter receive cell `r` to the device `31 - r` places back; the send
    cells' stay. -/
theorem toks_around : (bigSep Finset.univ fun c : Dev nD => (toks c : sProp 𝕄)) ⊢ bigSep Finset.univ fun c : Dev nD => payToks c := by
  have hk (c : Dev nD) : (bigSep Finset.univ fun k : Fin 4 × Fin 31 => (dutyTok ER (kcell (c, some k)) 0 0 : sProp 𝕄))
      = iprop((bigSep Finset.univ fun r : Fin 31 => dutyTok ER (rsS c r) 0 0) ∗ (bigSep Finset.univ fun r : Fin 31 => dutyTok ER (rsR c r) 0 0)
          ∗ (bigSep Finset.univ fun r : Fin 31 => dutyTok ER (agS c r) 0 0) ∗ (bigSep Finset.univ fun r : Fin 31 => dutyTok ER (agR c r) 0 0)) := by
    rw [bigSep_univ_prod, bigSep_fin4]
  have hL : (bigSep Finset.univ fun c : Dev nD => (toks c : sProp 𝕄))
      = iprop((bigSep Finset.univ fun c : Dev nD => bigSep Finset.univ fun r : Fin 31 => dutyTok ER (bar c) 0 r)
          ∗ (bigSep Finset.univ fun c : Dev nD => bigSep Finset.univ fun r : Fin 31 => dutyTok ER (rsS c r) 0 0)
          ∗ (bigSep Finset.univ fun c : Dev nD => bigSep Finset.univ fun r : Fin 31 => dutyTok ER (rsR c r) 0 0)
          ∗ (bigSep Finset.univ fun c : Dev nD => bigSep Finset.univ fun r : Fin 31 => dutyTok ER (agS c r) 0 0)
          ∗ (bigSep Finset.univ fun c : Dev nD => bigSep Finset.univ fun r : Fin 31 => dutyTok ER (agR c r) 0 0)) := by
    unfold toks; simp only [hk, bigSep_sep']
  have hR : (bigSep Finset.univ fun c : Dev nD => (payToks c : sProp 𝕄))
      = iprop((bigSep Finset.univ fun c : Dev nD => bigSep Finset.univ fun r : Fin 31 => dutyTok ER (bar (nb c r)) 0 r)
          ∗ (bigSep Finset.univ fun c : Dev nD => bigSep Finset.univ fun r : Fin 31 => dutyTok ER (rsR (nb c r) (rev r)) 0 0)
          ∗ (bigSep Finset.univ fun c : Dev nD => bigSep Finset.univ fun r : Fin 31 => dutyTok ER (rsS c r) 0 0)
          ∗ (bigSep Finset.univ fun c : Dev nD => bigSep Finset.univ fun r : Fin 31 => dutyTok ER (agR (nb c r) r) 0 0)
          ∗ (bigSep Finset.univ fun c : Dev nD => bigSep Finset.univ fun r : Fin 31 => dutyTok ER (agS c r) 0 0)) := by
    unfold payToks; simp only [bigSep_sep']
  have hA := bigSep_deal (M := 𝕄) nbE (fun (c : Dev nD) (r : Fin 31) => dutyTok ER (bar c) 0 r)
  have hV := (bigSep_congr (s := Finset.univ) fun (c : Dev nD) _ => bigSep_univ_equiv revE (fun r : Fin 31 => (dutyTok ER (rsR c r) 0 0 : sProp 𝕄))).trans
    (bigSep_deal (M := 𝕄) nbE (fun (c : Dev nD) (r : Fin 31) => dutyTok ER (rsR c (rev r)) 0 0))
  have hW := bigSep_deal (M := 𝕄) nbE (fun (c : Dev nD) (r : Fin 31) => dutyTok ER (agR c r) 0 0)
  rw [hL, hR, hA, hV, hW]
  iintro ⟨H1, H2, H3, H4, H5⟩
  isplitl [H1]; · iexact H1
  isplitl [H3]; · iexact H3
  isplitl [H2]; · iexact H2
  isplitl [H5]; · iexact H5
  iexact H4

/-- Every device's invariants under one choice of names, the marks beside them; positions and dealt tokens to each device. -/
theorem regroup :
    (bigSep Finset.univ fun c : Dev nD => iprop((bigSep Finset.univ fun j : J => iprop(∃ κ : ℕ, cellInv ER (sched m) κ (kcell (c, j))))
          ∗ (bigSep Finset.univ fun j : J => iprop(atPos ER (kcell (c, j)) 0 ∅ 0 ∗ reached ER (kcell (c, j)) 0)) ∗ toks (F := F) c) : sProp 𝕄)
      ⊢ bigSep Finset.univ (G' m) := by
  have hl : (bigSep Finset.univ fun c : Dev nD => (linear c : sProp 𝕄))
      = iprop((bigSep Finset.univ fun c : Dev nD => bigSep Finset.univ fun j : J => atPos ER (kcell (c, j)) 0 ∅ 0) ∗ bigSep Finset.univ fun c : Dev nD => payToks c) := by
    unfold linear; exact bigSep_sep' _ _ _
  rw [bigSep_sep', bigSep_sep',
    bigSep_congr (s := Finset.univ) (fun (c : Dev nD) _ => bigSep_sep' Finset.univ (fun j : J => (atPos ER (kcell (c, j)) 0 ∅ 0 : sProp 𝕄)) (fun j => reached ER (kcell (c, j)) 0)),
    bigSep_sep', ← bigSep_univ_prod (fun ck : Dev nD × J => (reached ER (kcell ck) 0 : sProp 𝕄))]
  iintro ⟨HI, ⟨Hat, #HR⟩, Htok⟩
  ihave HK := (names_gather ER (sched m) kcell) $$ HI
  icases HK with ⟨%K, #HI⟩
  ihave Htk := (toks_around (F := F)) $$ Htok
  iapply (BI.bigSep_with_persistent (R := records m K) fun c _ => ghost_intro m K c)
  isplitr
  · unfold records; isplitl; · iexact HI
    iexact HR
  · rw [hl]
    isplitl [Hat]; · iexact Hat
    iexact Htk

/-- The theorem's `hglob`: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- info: 'Cert.KernelIdeal.LaunchGhost.hu₀' depends on axioms: [propext, Classical.choice, Quot.sound] -/
#guard_msgs in #print axioms hu₀

/-- info: 'Cert.KernelIdeal.LaunchGhost.glob' depends on axioms: [propext, Classical.choice, Quot.sound] -/
#guard_msgs in #print axioms glob

end Cert.KernelIdeal.LaunchGhost

end
-- ==== Proof.RunMain.lean ====
/-
The run of the whole program on the mesh of 32 devices: the launch applied to the body obligation and the ghost
state's set-up.
-/
import proofs.«900791_g7700000000000792_dist_gconv1d_cshard_i_b4_s512_c256_v7x_i32_bf16_1_alg».proof.Proof.Run
import proofs.«900791_g7700000000000792_dist_gconv1d_cshard_i_b4_s512_c256_v7x_i32_bf16_1_alg».proof.Proof.Body
import proofs.«900791_g7700000000000792_dist_gconv1d_cshard_i_b4_s512_c256_v7x_i32_bf16_1_alg».proof.Proof.LaunchGhost

noncomputable section

namespace Cert.KernelIdeal.Run

open Cert.KernelIdeal Cert.KernelIdeal.Gen Cert.KernelIdeal.Contents Cert.KernelIdeal.Proto Cert.KernelIdeal.LaunchCred
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- At the compiled mesh of 32 devices, for any float values, from any memory with zero counters: every weakly fair
    execution of @main — every device signalling the others on the barrier semaphore, the reduce-scatter and the all-gather
    made of remote copies — terminates without fault, and every final state has each device's result array at the
    gathered result, a function of all devices' argument arrays, and its argument arrays as launched. -/
theorem run_main (m : Mem F) (ρ : Dev nD → PrngReg) :
    θ_run defs (onTc (τ := τ) (main (F := F))) ⟨m, fun _ => 0, ρ⟩ (fun r => ∀ c : Dev nD,
      r.2.mem ((c.tc : Thread nD τ).loc main_v1) = outAll (PA m)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_of m ρ (Body.body_obligation m) LaunchGhost.ownSemFacts (LaunchGhost.G m) LaunchGhost.u₀ (LaunchGhost.hu₀ m) (LaunchGhost.glob m)

/-- info: 'Cert.KernelIdeal.Run.run_main' depends on axioms: [propext, Classical.choice, Quot.sound] -/
#guard_msgs in #print axioms run_main

end Cert.KernelIdeal.Run

end
-- ==== Proof.Contents_Bits.lean ====
/-
The contents the kernel's buffers hold at each stage, as pure functions of every device's three argument
blocks: a device's partial product over its own 256 channels, cut into 32 chunks of 64 rows; the
reduce-scatter's receive buffer once every slot has landed (slot j holds chunk d of device d + j's partial
product, slot 0 the device's own); the chunk a device contributes to the all-gather (the sum of its 32
slots); the all-gather buffer (slot j is device j's chunk, the same on every device); the result.
-/
import proofs.«900791_g7700000000000792_dist_gconv1d_cshard_i_b4_s512_c256_v7x_i32_bf16_1_alg».proof.Proof.Gen.Kernel.Skeleton
import Idealize.ShloMosaic.Lib.ValueIdx

noncomputable section

namespace Cert.Kernel.Contents

open Idealize.ShloMosaic Idealize.ShloMosaic.ValueIdx Cert.Kernel Cert.Kernel.Gen

variable {F : FTy → Type} [FloatOps F]

/-- Device `d + j` around the mesh of 32. -/
def rot (d : Dev nD) (j : Fin 32) : Dev nD := ⟨(d.val + j.val) % 32, Nat.mod_lt _ (by decide)⟩

/-- A device's partial product: its block of the input convolved and gated, times its 256 rows of the projection,
    as 32 chunks of 64 rows. -/
def part (x : Vec F S4x512x256 .f32) (k : Vec F S4x256 .f32) (w : Vec F S256x256 .f32) : Vec F S32x64x256 .bf16 :=
  k0_pay5 (k0_pay3 x k) (k0_pay4 x k) w

/-- The reduce-scatter's receive buffer on device `d` with every slot landed: slot `j` holds chunk `d` of device
    `d + j`'s partial product (slot 0 the device's own chunk `d`). -/
def rsAll (P : Dev nD → Vec F S32x64x256 .bf16) (d : Dev nD) : Vec F S32x64x256 .bf16 :=
  fun i => P (rot d (i 0)) (ix3 d (i 1) (i 2))

/-- The chunk device `d` contributes to the all-gather: the sum of its 32 received slots. -/
def acc (P : Dev nD → Vec F S32x64x256 .bf16) (d : Dev nD) : Vec F S1x64x256 .bf16 :=
  k0_pay7 (rsAll P d)

/-- The all-gather buffer with every slot landed, the same on every device: slot `j` is device `j`'s chunk. -/
def agAll (P : Dev nD → Vec F S32x64x256 .bf16) : Vec F S32x64x256 .bf16 :=
  fun i => acc P (i 0) (ix3 (0 : Fin 1) (i 1) (i 2))

/-- The result every device ends with. -/
def outAll (P : Dev nD → Vec F S32x64x256 .bf16) : Vec F S4x512x256 .f32 :=
  k0_pay8 (agAll P)

end Cert.Kernel.Contents

end
-- ==== Proof.Proto_Bits.lean ====
/-
The protocol of the thirty-two-device kernel, as data: the ring of devices; the semaphore cells (the
barrier cell and four pools of thirty-one transfer cells on every device); the three scratch buffers and
their sixty-four-row slots; the schedule of duties, one round on every cell; what every device owes at
launch; the level assignment; and the pipeline's proof data.

A device's operation number r (0 ≤ r < 31) addresses the device r + 1 places ahead of it around the ring.
The reduce-scatter's operation r sends chunk (c + r + 1) of the sender's partial product into slot 31 - r
of the receiver; the all-gather's operation r sends the sender's own chunk into the receiver's slot of the
sender's number.
-/
import proofs.«900791_g7700000000000792_dist_gconv1d_cshard_i_b4_s512_c256_v7x_i32_bf16_1_alg».proof.Proof.Contents_Bits
import proofs.«900791_g7700000000000792_dist_gconv1d_cshard_i_b4_s512_c256_v7x_i32_bf16_1_alg».proof.Proof.Gen.Kernel.Frame
import Idealize.ShloMosaic.Lib.Pipeline.Launch
import Idealize.ShloMosaic.Lib.Pipeline.Kit
import Idealize.ShloMosaic.Lib.Transfers
import Idealize.ShloMosaic.Lib.Tactic

noncomputable section

namespace Cert.Kernel.Proto

open Cert.Kernel Cert.Kernel.Gen Cert.Kernel.Contents
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy (duties `Unit`) and the protocol's (duties `Fin 31`) -/

abbrev UB : Type := URounds (GSem nD τ sig) (Fin 31)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- A memory: contents for every buffer of every thread. -/
abbrev Mem (F : FTy → Type) : Type := (ℓ : Loc nD τ sig) → Buf (Elt F) ℓ

/-! ## The ring -/

/-- Operation `r` seen from the receiving side: the sender's operation `rev r` addresses whoever addresses the
    sender with its operation `r`. -/
def rev (r : Fin 31) : Fin 31 := ⟨30 - r.val, by omega⟩
/-- The device operation `r` of device `c` addresses: `r + 1` places ahead. -/
def nb (c : Dev nD) (r : Fin 31) : Dev nD := ⟨(c.val + r.val + 1) % 32, Nat.mod_lt _ (by decide)⟩
/-- The device whose operation `r` addresses `c`: `r + 1` places behind. -/
def pb (c : Dev nD) (r : Fin 31) : Dev nD := ⟨(c.val + 31 - r.val) % 32, Nat.mod_lt _ (by decide)⟩

theorem rev_rev (r : Fin 31) : rev (rev r) = r := by
  apply Fin.ext; have h := r.isLt; simp only [rev]; omega
theorem pb_nb (c : Dev nD) (r : Fin 31) : pb (nb c r) r = c := by
  apply Fin.ext; have hc : c.val < 32 := c.isLt; have h := r.isLt; simp only [pb, nb]; omega
theorem nb_pb (c : Dev nD) (r : Fin 31) : nb (pb c r) r = c := by
  apply Fin.ext; have hc : c.val < 32 := c.isLt; have h := r.isLt; simp only [pb, nb]; omega
theorem pb_eq_nb_rev (c : Dev nD) (r : Fin 31) : pb c r = nb c (rev r) := by
  apply Fin.ext; have hc : c.val < 32 := c.isLt; have h := r.isLt; simp only [pb, nb, rev]; omega
theorem nb_rev_eq_pb (c : Dev nD) (r : Fin 31) : nb c (rev r) = pb c r := (pb_eq_nb_rev c r).symm
theorem nb_ne_self (c : Dev nD) (r : Fin 31) : nb c r ≠ c := by
  intro h; have hv := congrArg Fin.val h; have hc : c.val < 32 := c.isLt; have hr := r.isLt; simp only [nb] at hv; omega
theorem nb_inj_op (c : Dev nD) {r r' : Fin 31} (h : nb c r = nb c r') : r = r' := by
  apply Fin.ext; have hv := congrArg Fin.val h; have hc : c.val < 32 := c.isLt; have hr := r.isLt; have hr' := r'.isLt
  simp only [nb] at hv; omega
/-- The slot of operation `r`: `r + 1`. -/
def sl (r : Fin 31) : Fin 32 := ⟨r.val + 1, by omega⟩
/-- A device's number as a slot. -/
def dv (c : Dev nD) : Fin 32 := ⟨c.val, c.isLt⟩
theorem nb_eq_rot (c : Dev nD) (r : Fin 31) : nb c r = rot c (sl r) := by
  apply Fin.ext; simp only [nb, rot, sl]; rw [Nat.add_assoc]

/-! ## The cells -/

/-- The barrier semaphore of collective id 0, as the body spells it. -/
abbrev barS : Sem sig := (SemArray.scalar (sig.barrier 0 rfl) : Sems sig S_).sem

/-- Semaphore `r + 1` of pool `p`: the pools are the reduce-scatter's send (0) and receive (1) arrays and the
    all-gather's send (2) and receive (3) arrays, thirty-two consecutive DMA semaphores each from index 4. -/
abbrev dsem (p : Fin 4) (r : Fin 31) : DmaSem sig :=
  (⟨4 + 32 * p.val + (r.val + 1), by have hp := p.isLt; have hr := r.isLt; omega⟩ : Fin 132)

/-- A device's own transfer cells, pool by pool. -/
abbrev osem : Fin 4 × Fin 31 → SemLoc sig := fun k => .dma (dsem k.1 k.2)
/-- All of a device's cells: the barrier cell and its own. -/
abbrev csem : Option (Fin 4 × Fin 31) → SemLoc sig
  | none => .reg barS
  | some k => osem k
abbrev kcell (ck : Dev nD × Option (Fin 4 × Fin 31)) : GSem nD τ sig := ((ck.1 : Thread nD τ), csem ck.2)

abbrev bar (c : Dev nD) : GSem nD τ sig := kcell (c, none)
abbrev rsS (c : Dev nD) (r : Fin 31) : GSem nD τ sig := kcell (c, some (0, r))
abbrev rsR (c : Dev nD) (r : Fin 31) : GSem nD τ sig := kcell (c, some (1, r))
abbrev agS (c : Dev nD) (r : Fin 31) : GSem nD τ sig := kcell (c, some (2, r))
abbrev agR (c : Dev nD) (r : Fin 31) : GSem nD τ sig := kcell (c, some (3, r))

/-- A DMA semaphore's pool, index within the pool, and operation, read back off its number. -/
def poolOf (s : DmaSem sig) : ℕ := (s.val - 4) / 32
def ixOf (s : DmaSem sig) : ℕ := (s.val - 4) % 32
def opOf (s : DmaSem sig) : Fin 31 := ⟨(ixOf s - 1) % 31, Nat.mod_lt _ (by decide)⟩
/-- The semaphore is one of the protocol's: past the four staging semaphores and not the unused index 0 of its pool. -/
def IsOwn (s : DmaSem sig) : Prop := 4 ≤ s.val ∧ 1 ≤ ixOf s
instance (s : DmaSem sig) : Decidable (IsOwn s) := by unfold IsOwn; infer_instance

theorem poolOf_dsem (p : Fin 4) (r : Fin 31) : poolOf (dsem p r) = p.val := by
  have hp := p.isLt; have hr := r.isLt; simp only [poolOf, dsem]; omega
theorem ixOf_dsem (p : Fin 4) (r : Fin 31) : ixOf (dsem p r) = r.val + 1 := by
  have hp := p.isLt; have hr := r.isLt; simp only [ixOf, dsem]; omega
theorem opOf_dsem (p : Fin 4) (r : Fin 31) : opOf (dsem p r) = r := by
  apply Fin.ext; have hr := r.isLt; simp only [opOf, ixOf_dsem]; omega
theorem isOwn_dsem (p : Fin 4) (r : Fin 31) : IsOwn (dsem p r) := by
  refine ⟨?_, ?_⟩
  · simp only [dsem]; omega
  · rw [ixOf_dsem]; omega
theorem dsem_inj {p p' : Fin 4} {r r' : Fin 31} (h : dsem p r = dsem p' r') : p = p' ∧ r = r' := by
  have hv := congrArg Fin.val h
  have hp := p.isLt; have hp' := p'.isLt; have hr := r.isLt; have hr' := r'.isLt
  simp only [dsem] at hv
  exact ⟨Fin.ext (by omega), Fin.ext (by omega)⟩
theorem csem_inj : Function.Injective csem := by
  intro a b h
  cases a with
  | none => cases b with
    | none => rfl
    | some k => cases h
  | some k => cases b with
    | none => cases h
    | some k' =>
      have h' : dsem k.1 k.2 = dsem k'.1 k'.2 := SemLoc.dma.inj h
      obtain ⟨h1, h2⟩ := dsem_inj h'
      exact congrArg some (Prod.ext h1 h2)
theorem kcell_inj : Function.Injective kcell := by
  intro a b h
  have h1 : a.1 = b.1 := congrArg (fun g : GSem nD τ sig => g.1.1) h
  have h2 : csem a.2 = csem b.2 := congrArg (fun g : GSem nD τ sig => g.2) h
  exact Prod.ext h1 (csem_inj h2)

/-! ## The buffers and their slots -/

/-- The partial product (32 chunks), the reduce-scatter's receive slots, the all-gather's slots. -/
abbrev srcB : Memref sig .tc .vmem S32x64x256 .bf16 := Memref.whole cc0_scratch0
abbrev rsB : Memref sig .tc .vmem S32x64x256 .bf16 := Memref.whole cc0_scratch1
abbrev agB : Memref sig .tc .vmem S32x64x256 .bf16 := Memref.whole cc0_scratch2

theorem slot_inb (j : Fin 32) : ∀ a, (![j.val, 0, 0] : Fin 3 → Nat) a + S1x64x256.size a ≤ S32x64x256.size a := by
  revert j; decide

/-- Slot `j` of a 32-slot buffer, as the body addresses it: the slice at `[j, 0, 0]`, its unit axis dropped. -/
abbrev slotM (B : Memref sig .tc .vmem S32x64x256 .bf16) (j : Fin 32) : Memref sig .tc .vmem S64x256 .bf16 :=
  (B.slice (Rect.unit (s := S32x64x256) ![j.val, 0, 0] S1x64x256.size (slot_inb j)) (fun _ => rfl)).squeeze S64x256 squeezes_S1x64x256_S64x256

/-- The units a transfer into a slot credits. -/
abbrev N : ℕ := (slotM rsB 0).view.dmaCredit
theorem N_pos : 0 < N := View.dmaCredit_pos _ (by decide)
theorem dmaCredit_slot_rs (j : Fin 32) : (slotM rsB j).view.dmaCredit = N := rfl
theorem dmaCredit_slot_ag (j : Fin 32) : (slotM agB j).view.dmaCredit = N := rfl

/-- Slot `j` of buffer `B` on device `c` at share `q`, the buffer's contents being `f` there. -/
abbrev slotPts (B : Memref sig .tc .vmem S32x64x256 .bf16) (c : Dev nD) (j : Fin 32) (q : PosShare TreeShare)
    (f : Buf (Elt F) ((slotM B j).view.loc (c : Thread nD τ))) : sProp 𝕄 :=
  ((slotM B j).view.loc (c : Thread nD τ)) ↦[(slotM B j).view.set]{q} f

/-- The share of its all-gather slot a device lends operation `r`'s transfer, and the share it keeps. -/
abbrev sh (r : Fin 31) : PosShare TreeShare := Transfers.shareTok fullShare 31 r
abbrev shLast : PosShare TreeShare := Transfers.shareDrop fullShare 31

/-! ## Contents -/

/-- Device `c`'s partial product, from its three argument blocks as launched. -/
def P (m : Mem F) (c : Dev nD) : Vec F S32x64x256 .bf16 :=
  part (iblk m c 0 t0_0) (iblk m c 1 t0_0) (iblk m c 2 t0_0)

/-! ## The schedule -/

/-- Duty `r` of device `t`'s barrier cell, paid by `c = pb t r` with its signal `r`: what lets `t` write into `c` —
    `c`'s reduce-scatter slot `r + 1` and all-gather slot `t`, and that `c` has opened the two cells `t`'s transfers
    credit there. -/
def barPay (t : Dev nD) (r : Fin 31) : sProp 𝕄 :=
  iprop((∃ f, slotPts rsB (pb t r) (sl r) fullShare f) ∗ (∃ f, slotPts agB (pb t r) (dv t) fullShare f)
    ∗ reached ER (rsR (pb t r) r) 0 ∗ reached ER (agR (pb t r) (rev r)) 0)
/-- The chunk sent comes back to the sender. -/
def rsSPay (m : Mem F) (c : Dev nD) (r : Fin 31) : sProp 𝕄 := slotPts srcB c (dv (nb c r)) fullShare (P m c)
/-- Slot `r + 1` of `d` holds chunk `d` of `nb d r`'s partial product. -/
def rsRPay (m : Mem F) (d : Dev nD) (r : Fin 31) : sProp 𝕄 := slotPts rsB d (sl r) fullShare (rsAll (P m) d)
/-- The share of the device's own all-gather slot lent to operation `r` comes back. -/
def agSPay (m : Mem F) (c : Dev nD) (r : Fin 31) : sProp 𝕄 := slotPts agB c (dv c) (sh r) (agAll (P m))
/-- Slot `pb d r` of `d` holds that device's chunk. -/
def agRPay (m : Mem F) (d : Dev nD) (r : Fin 31) : sProp 𝕄 := slotPts agB d (dv (pb d r)) fullShare (agAll (P m))

/-- One round, round 0, on every cell of a TensorCore: the barrier cell has the 31 unit duties of the devices that
    signal it; each transfer cell of the protocol one duty, `0`, of a slot's credit. -/
def sched (m : Mem F) : Rounds.Schedule (GSem nD τ sig) (Fin 31) 𝕄 where
  duties g r := if r = 0 ∧ g.1.2 = .tc then
      (match g.2 with
        | .reg _ => Finset.univ
        | .dma s => if IsOwn s then {0} else ∅)
    else ∅
  unitless _ := False
  amount g _ _ := match g.2 with
    | .reg _ => 1
    | .dma _ => N
  payload g _ d := match g.2 with
    | .reg _ => barPay g.1.1 d
    | .dma s => match poolOf s with
      | 0 => rsSPay m g.1.1 (opOf s)
      | 1 => rsRPay m g.1.1 (opOf s)
      | 2 => agSPay m g.1.1 (opOf s)
      | _ => agRPay m g.1.1 (opOf s)
  amount_pos g _ _ _ := by
    split
    · exact Nat.one_pos
    · exact N_pos

instance sched_payload_storable (m : Mem F) (g : GSem nD τ sig) (r : ℕ) (d : Fin 31) :
    BI.Storable (upEmb : UEmb _ 𝕄) ((sched (F := F) m).payload g r d) := by
  dsimp only [sched]
  split
  · unfold barPay
    set_option synthInstance.maxHeartbeats 400000 in
    infer_instance
  · split
    · unfold rsSPay; infer_instance
    · unfold rsRPay; infer_instance
    · unfold agSPay; infer_instance
    · unfold agRPay; infer_instance

/-! ## What each device owes at launch; the levels -/

/-- The operation paid when `n + 1` are left: operations are paid in order 0, 1, …, 30, each peeling the LAST summand. -/
def opAt (n : ℕ) : Fin 31 := ⟨(30 - n) % 31, Nat.mod_lt _ (by decide)⟩

/-- The barrier units device `c` still owes with `n` signals left. -/
def owedSig (c : Dev nD) : ℕ → CellTallies nD τ sig Unit
  | 0 => 0
  | n + 1 => owedSig c n + tallyAt (bar (nb c (opAt n))) () 1
/-- The reduce-scatter receive credits it still owes with `n` transfers left. -/
def owedRs (c : Dev nD) : ℕ → CellTallies nD τ sig Unit
  | 0 => 0
  | n + 1 => owedRs c n + tallyAt (rsR (nb c (opAt n)) (rev (opAt n))) () N
/-- The all-gather receive credits it still owes with `n` transfers left. -/
def owedAg (c : Dev nD) : ℕ → CellTallies nD τ sig Unit
  | 0 => 0
  | n + 1 => owedAg c n + tallyAt (agR (nb c (opAt n)) (opAt n)) () N

theorem owedSig_succ (c : Dev nD) (n : ℕ) : owedSig c (n + 1) = owedSig c n + tallyAt (bar (nb c (opAt n))) () 1 := rfl
theorem owedRs_succ (c : Dev nD) (n : ℕ) : owedRs c (n + 1) = owedRs c n + tallyAt (rsR (nb c (opAt n)) (rev (opAt n))) () N := rfl
theorem owedAg_succ (c : Dev nD) (n : ℕ) : owedAg c (n + 1) = owedAg c n + tallyAt (agR (nb c (opAt n)) (opAt n)) () N := rfl

/-- What device `c` owes at launch, in the order it pays: the signals first (the last bracket), then the reduce-scatter's
    transfers, then the all-gather's. -/
def O₀ (c : Dev nD) : CellTallies nD τ sig Unit := owedAg c 31 + owedRs c 31 + owedSig c 31

def L (g : GSem nD τ sig) : Finset Unit := if g.1.2 = .tc then {()} else ∅
/-- Barrier cells at 1, reduce-scatter receive cells at 2, all-gather receive cells at 3, everything else (staging,
    send cells) at 0. -/
def lv (g : GSem nD τ sig) (_ : Unit) : ℕ := match g.2 with
  | .reg _ => 1
  | .dma s => if IsOwn s then (if poolOf s = 1 then 2 else if poolOf s = 3 then 3 else 0) else 0

/-! ## The pipeline's proof data -/

/-- Every cell's invariant, under the names `K` the launch allocated them at, and that every cell's round 0 is
    reached. Persistent. -/
def records (m : Mem F) (K : Dev nD × Option (Fin 4 × Fin 31) → ℕ) : sProp 𝕄 :=
  iprop((bigSep Finset.univ fun ck : Dev nD × Option (Fin 4 × Fin 31) => cellInv ER (sched m) (K ck) (kcell ck))
    ∗ bigSep Finset.univ fun ck : Dev nD × Option (Fin 4 × Fin 31) => reached ER (kcell ck) 0)

/-- The duty tokens device `c` pays with. -/
def payToks (c : Dev nD) : sProp 𝕄 :=
  bigSep Finset.univ fun r : Fin 31 =>
    iprop(dutyTok ER (bar (nb c r)) 0 r ∗ dutyTok ER (rsR (nb c r) (rev r)) 0 0 ∗ dutyTok ER (rsS c r) 0 0
      ∗ dutyTok ER (agR (nb c r) r) 0 0 ∗ dutyTok ER (agS c r) 0 0)

/-- Device `c`'s positions at round 0 of its 125 cells, and its tokens. -/
def linear (c : Dev nD) : sProp 𝕄 :=
  iprop((bigSep Finset.univ fun j : Option (Fin 4 × Fin 31) => atPos ER (kcell (c, j)) 0 ∅ 0) ∗ payToks c)

def ghost (m : Mem F) (K : Dev nD × Option (Fin 4 × Fin 31) → ℕ) (c : Dev nD) : sProp 𝕄 :=
  iprop(records m K ∗ linear c)

/-- What device `c`'s body starts from: the ghost state at some names, the credit tokens of the cells other devices
    pay (its barrier cell's 31 units, its 31 + 31 receive cells' credits) and the level facts. -/
def start (m : Mem F) (c : Dev nD) : sProp 𝕄 :=
  iprop((∃ K, ghost m K c) ∗ cred (tallyAt (bar c) () 31)
    ∗ (bigSep Finset.univ fun r : Fin 31 => cred (tallyAt (rsR c r) () N))
    ∗ (bigSep Finset.univ fun r : Fin 31 => cred (tallyAt (agR c r) () N))
    ∗ levAts L lv)

/-- A scratch buffer whole, at some contents. -/
def scr (c : Dev nD) (b : Ref sig .tc) : sProp 𝕄 :=
  iprop(∃ f : Buf (Elt F) ((c : Thread nD τ).loc b), ((c : Thread nD τ).loc b) ↦{fullShare} f)

def Φ₀ (m : Mem F) (c : Dev nD) : sProp 𝕄 :=
  iprop(start m c ∗ scr c cc0_scratch0 ∗ scr c cc0_scratch1 ∗ scr c cc0_scratch2)
/-- After the point: the three scratch buffers back, the 124 own cells at zero, closed (the barrier cell is the
    runtime's: nothing to hand back). -/
def Φ₁ (c : Dev nD) : sProp 𝕄 :=
  iprop(scr c cc0_scratch0 ∗ scr c cc0_scratch1 ∗ scr c cc0_scratch2
    ∗ bigSep Finset.univ fun k : Fin 4 × Fin 31 => semVal ((c : Thread nD τ), osem k) 0)

def dats (m : Mem F) (_ : Fin 1) (c : Dev nD) : Dat τ (Elt F) Unit ℕ UU ℕ cfg0 c where
  A w := m ((cfg0.win w).arr.view.loc (c : Thread nD τ))
  after w _ := match w with
    | ⟨0, _⟩ => iblk m c 0 t0_0
    | ⟨1, _⟩ => iblk m c 1 t0_0
    | ⟨2, _⟩ => iblk m c 2 t0_0
    | ⟨3, _⟩ => outAll (P m)
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

/-- info: 'Cert.Kernel.Proto.kcell_inj' depends on axioms: [propext, Classical.choice, Quot.sound] -/
#guard_msgs in #print axioms kcell_inj

end Cert.Kernel.Proto

end
-- ==== Proof.LaunchCred_Bits.lean ====
/-
What the launch deals each device, and the launch theorem's side conditions that speak only of the protocol's data.
Every device owes, at launch, one barrier unit and two receive credits to each of the 31 devices ahead of it; summed
over the payers, each device is dealt its barrier cell's 31 units and one credit on each of its 31 + 31 receive
cells. From these: how the launch's holdings become the region invariant at its first point, what the invariant at
the last point gives back, that the pipeline's own waits sit below everything a device owes, and the result
array's final contents.
-/
import proofs.«900791_g7700000000000792_dist_gconv1d_cshard_i_b4_s512_c256_v7x_i32_bf16_1_alg».proof.Proof.Proto_Bits
import proofs.«900791_g7700000000000792_dist_gconv1d_cshard_i_b4_s512_c256_v7x_i32_bf16_1_alg».proof.Proof.CredGen
import Idealize.ShloMosaic.Lib.Pipeline.Value

noncomputable section

namespace Cert.Kernel.LaunchCred

open Cert.Kernel Cert.Kernel.Gen Cert.Kernel.Contents Cert.Kernel.Proto
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## What is owed, as finite sums over the operations -/

/-- With `k + 1` operations left the one paid next is operation `30 - k`. -/
theorem opAt_val (k : Fin 31) : opAt k.val = rev k := by
  apply Fin.ext; have h := k.isLt; simp only [opAt, rev]; omega

/-- Reversal of the operations, as a bijection. -/
def revE : Fin 31 ≃ Fin 31 := ⟨rev, rev, rev_rev, rev_rev⟩

/-- A device owes one barrier unit to each of the 31 devices ahead of it. -/
theorem owedSig_eq (c : Dev nD) : owedSig c 31 = ∑ r : Fin 31, tallyAt (bar (nb c r)) () 1 := by
  rw [CredGen.rec_sum (owedSig c) (fun n => tallyAt (bar (nb c (opAt n))) () 1) rfl (owedSig_succ c) 31,
    Finset.sum_congr rfl fun (k : Fin 31) _ => show tallyAt (bar (nb c (opAt k.val))) () 1 = tallyAt (bar (nb c (revE k))) () 1 by rw [opAt_val k]; rfl]
  exact Equiv.sum_comp revE fun r => (tallyAt (bar (nb c r)) () 1 : CellTallies nD τ sig Unit)

/-- A device owes a slot's credit to receive cell `k` of the device its operation `30 - k` addresses. -/
theorem owedRs_eq (c : Dev nD) : owedRs c 31 = ∑ k : Fin 31, tallyAt (rsR (nb c (rev k)) k) () N := by
  rw [CredGen.rec_sum (owedRs c) (fun n => tallyAt (rsR (nb c (opAt n)) (rev (opAt n))) () N) rfl (owedRs_succ c) 31]
  exact Finset.sum_congr rfl fun (k : Fin 31) _ =>
    show tallyAt (rsR (nb c (opAt k.val)) (rev (opAt k.val))) () N = tallyAt (rsR (nb c (rev k)) k) () N by rw [opAt_val k, rev_rev]

/-- A device owes a slot's credit to all-gather receive cell `r` of the device its operation `r` addresses. -/
theorem owedAg_eq (c : Dev nD) : owedAg c 31 = ∑ r : Fin 31, tallyAt (agR (nb c r) r) () N := by
  rw [CredGen.rec_sum (owedAg c) (fun n => tallyAt (agR (nb c (opAt n)) (opAt n)) () N) rfl (owedAg_succ c) 31,
    Finset.sum_congr rfl fun (k : Fin 31) _ => show tallyAt (agR (nb c (opAt k.val)) (opAt k.val)) () N = tallyAt (agR (nb c (revE k)) (revE k)) () N by rw [opAt_val k]; rfl]
  exact Equiv.sum_comp revE fun r => (tallyAt (agR (nb c r) r) () N : CellTallies nD τ sig Unit)

/-! ## The launch credit -/

omit [FloatOps F] in
/-- The barrier cell's 31 units: one from each device behind. -/
theorem cred_sig (c : Dev nD) : (Pipeline.launchCred (fun d => owedSig d 31) c : sProp 𝕄) ⊢ cred (tallyAt (bar c) () 31) := by
  rw [show (fun d : Dev nD => owedSig d 31) = fun d => ∑ r : Fin 31, tallyAt (((nb d r).tc : Thread nD τ), SemLoc.reg barS) () 1 from
    funext fun d => owedSig_eq d]
  refine (CredGen.launchCred_rounds Finset.univ (fun _ : Fin 31 => SemLoc.reg barS) (fun r d => nb d r) (fun r c => pb c r)
    (fun r c => nb_pb c r) (fun r d => pb_nb d r) () (fun _ => 1) c).trans ?_
  rw [CredGen.cred_units, Finset.card_univ, Fintype.card_fin]

omit [FloatOps F] in
/-- One credit on every reduce-scatter receive cell. -/
theorem cred_rs (c : Dev nD) :
    (Pipeline.launchCred (fun d => owedRs d 31) c : sProp 𝕄) ⊢ bigSep Finset.univ fun r : Fin 31 => cred (tallyAt (rsR c r) () N) := by
  rw [show (fun d : Dev nD => owedRs d 31) = fun d => ∑ k : Fin 31, tallyAt (((nb d (rev k)).tc : Thread nD τ), SemLoc.dma (dsem 1 k)) () N from
    funext fun d => owedRs_eq d]
  exact CredGen.launchCred_rounds Finset.univ (fun k : Fin 31 => SemLoc.dma (dsem 1 k)) (fun k d => nb d (rev k)) (fun k c => pb c (rev k))
    (fun k c => nb_pb c (rev k)) (fun k d => pb_nb d (rev k)) () (fun _ => N) c

omit [FloatOps F] in
/-- One credit on every all-gather receive cell. -/
theorem cred_ag (c : Dev nD) :
    (Pipeline.launchCred (fun d => owedAg d 31) c : sProp 𝕄) ⊢ bigSep Finset.univ fun r : Fin 31 => cred (tallyAt (agR c r) () N) := by
  rw [show (fun d : Dev nD => owedAg d 31) = fun d => ∑ r : Fin 31, tallyAt (((nb d r).tc : Thread nD τ), SemLoc.dma (dsem 3 r)) () N from
    funext fun d => owedAg_eq d]
  exact CredGen.launchCred_rounds Finset.univ (fun r : Fin 31 => SemLoc.dma (dsem 3 r)) (fun r d => nb d r) (fun r c => pb c r)
    (fun r c => nb_pb c r) (fun r d => pb_nb d r) () (fun _ => N) c

omit [FloatOps F] in
/-- What the launch deals device `c`: its barrier cell's 31 units and a credit on each of its 62 receive cells. -/
theorem creds (c : Dev nD) :
    (Pipeline.launchCred O₀ c : sProp 𝕄) ⊢ iprop(cred (tallyAt (bar c) () 31)
      ∗ (bigSep Finset.univ fun r : Fin 31 => cred (tallyAt (rsR c r) () N))
      ∗ (bigSep Finset.univ fun r : Fin 31 => cred (tallyAt (agR c r) () N))) := by
  have h1 : (Pipeline.launchCred O₀ c : sProp 𝕄)
      = iprop(Pipeline.launchCred (fun d => owedAg d 31 + owedRs d 31) c ∗ Pipeline.launchCred (fun d => owedSig d 31) c) :=
    Pipeline.launchCred_add (fun d => owedAg d 31 + owedRs d 31) (fun d => owedSig d 31) c
  have h2 : (Pipeline.launchCred (fun d => owedAg d 31 + owedRs d 31) c : sProp 𝕄)
      = iprop(Pipeline.launchCred (fun d => owedAg d 31) c ∗ Pipeline.launchCred (fun d => owedRs d 31) c) :=
    Pipeline.launchCred_add (fun d => owedAg d 31) (fun d => owedRs d 31) c
  rw [h1, h2]
  iintro ⟨⟨Hag, Hrs⟩, Hsig⟩
  isplitl [Hsig]; · iapply (cred_sig (F := F) c); iexact Hsig
  isplitl [Hrs]; · iapply (cred_rs (F := F) c); iexact Hrs
  iapply (cred_ag (F := F) c); iexact Hag

/-! ## Where a device owes: only at barrier and receive cells of TensorCores, all above level 0 -/

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (bar c) () = 1 := rfl
theorem lv_rsR (c : Dev nD) (r : Fin 31) : lv (rsR c r) () = 2 := by
  show (if IsOwn (dsem 1 r) then (if poolOf (dsem 1 r) = 1 then 2 else if poolOf (dsem 1 r) = 3 then 3 else 0) else 0) = 2
  rw [if_pos (isOwn_dsem 1 r), poolOf_dsem]; rfl
theorem lv_agR (c : Dev nD) (r : Fin 31) : lv (agR c r) () = 3 := by
  show (if IsOwn (dsem 3 r) then (if poolOf (dsem 3 r) = 1 then 2 else if poolOf (dsem 3 r) = 3 then 3 else 0) else 0) = 3
  rw [if_pos (isOwn_dsem 3 r), poolOf_dsem]; rfl

/-- A cell a device owes to at launch is a barrier or a receive cell of some device. -/
theorem O₀_pos {c : Dev nD} {g : GSem nD τ sig} {u : Unit} (h : 0 < O₀ c g u) :
    (∃ d, g = bar d) ∨ (∃ d r, g = rsR d r) ∨ (∃ d r, g = agR d r) := by
  unfold O₀ at h
  rcases Pipeline.add_pos_cases h with h | h
  · rcases Pipeline.add_pos_cases h with h | h
    · rw [owedAg_eq] at h
      obtain ⟨r, -, hr⟩ := Pipeline.sum_pos_exists h
      exact Or.inr (Or.inr ⟨_, _, (Pipeline.tallyAt_pos hr).1⟩)
    · rw [owedRs_eq] at h
      obtain ⟨r, -, hr⟩ := Pipeline.sum_pos_exists h
      exact Or.inr (Or.inl ⟨_, _, (Pipeline.tallyAt_pos hr).1⟩)
  · rw [owedSig_eq] at h
    obtain ⟨r, -, hr⟩ := Pipeline.sum_pos_exists h
    exact Or.inl ⟨_, (Pipeline.tallyAt_pos hr).1⟩

/-- Everything owed at launch sits in the level table, above level 0. -/
theorem O₀_lv {c : Dev nD} {g : GSem nD τ sig} {u : Unit} (h : 0 < O₀ c g u) : u ∈ L g ∧ 0 < lv g u := by
  rcases O₀_pos h with ⟨d, rfl⟩ | ⟨d, r, rfl⟩ | ⟨d, r, rfl⟩
  · exact ⟨by rw [L_tc]; exact Finset.mem_singleton_self _, by rw [lv_bar]; decide⟩
  · exact ⟨by rw [L_tc]; exact Finset.mem_singleton_self _, by rw [lv_rsR]; decide⟩
  · exact ⟨by rw [L_tc]; exact Finset.mem_singleton_self _, by rw [lv_agR]; decide⟩

omit [FloatOps F] in
/-- The pipeline's staging cells sit at level 0: a device may wait on them whatever it owes of the protocol. -/
theorem mayWait_stage (c : Dev nD) (q : DmaSem sig) (hq : ¬ IsOwn q) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g i hg => ⟨(O₀_lv hg).1, ?_⟩
    have h0 : lv ((c : Thread nD τ), SemLoc.dma q) () = 0 := by
      show (if IsOwn q then _ else 0) = 0
      rw [if_neg hq]
    rw [h0]; exact (O₀_lv hg).2
  · rw [MayWait_zero]; iintro -; iempintro

/-- The pipeline's own waits, before and after the point. -/
theorem waits (m : Mem F) (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The launch theorem's side conditions on the region invariant -/

theorem share_eq (m : Mem F) (c : Dev nD) (w : Fin cfg0.W) : (dats m 0 c).share w = fullShare := by unfold Dat.share; split <;> rfl

/-- From what the launch hands a device to what its body starts from. -/
theorem start_intro (m : Mem F) (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ (∃ K, ghost m K c))
      ⊢ |={Set.univ}=> iprop(start m c ∗ emp) := by
  iintro ⟨-, Hlev, Hcr, -, HG⟩
  ihave Hc := (creds (F := F) c) $$ Hcr
  icases Hc with ⟨Hb, Hrs, Hag⟩
  imodintro
  unfold start
  isplitl
  · isplitl [HG]; · iexact HG
    isplitl [Hb]; · iexact Hb
    isplitl [Hrs]; · iexact Hrs
    isplitl [Hag]; · iexact Hag
    iexact Hlev
  · iempintro

/-- With the three scratch buffers, that is the region invariant at the first point. -/
theorem phi0_intro (m : Mem F) (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scr
  iintro ⟨Hs, -, H0, H1, H2⟩
  isplitl [Hs]; · iexact Hs
  isplitl [H0]; · iexact H0
  isplitl [H1]; · iexact H1
  iexact H2

/-- The invariant at the last point gives back the own semaphores at zero and the scratch buffers. -/
theorem phi1_exit (m : Mem F) (c : Dev nD) :
    (dats m 0 c).Φ (Fin.last cfg0.N)
      ⊢ iprop(emp ∗ Pipeline.ownSems0 (Ix := Unit) (Name := ℕ) (U := UU) (Lvl := ℕ) (Val := Elt F) (τ := τ) osem c ∗ Pipeline.scopedRest cfg0.spec c) := by
  rw [show (dats m 0 c).Φ (Fin.last cfg0.N) = Φ₁ c from rfl, scopedRest0_eq]
  unfold Φ₁ scr Pipeline.ownSems0
  iintro ⟨H0, H1, H2, Hs⟩
  isplitr; · iempintro
  isplitl [Hs]; · iexact Hs
  isplitl [H0]; · iexact H0
  isplitl [H1]; · iexact H1
  iexact H2

/-! ## The arrays after the run -/

/-- The result array ends holding what the body left in its staging buffer: the one point writes the whole array. -/
theorem arrAt_out {c : Dev nD} (dat : Dat τ (Elt F) Unit ℕ UU ℕ cfg0 c) : dat.arrAt 3 cfg0.N = dat.after 3 t0_0 := by
  rw [show cfg0.N = (t0_0 : Fin cfg0.N).val + 1 from rfl, dat.arrAt_succ 3 t0_0, if_pos (flush0_3 t0_0)]
  funext i
  have hemb : ((cfg0.win 3).blk t0_0).view.emb i = i := by
    funext a; apply Fin.ext
    rw [View.emb_slice, Function.Embedding.trans_apply]
    show 0 * _ + 1 * (i a).val = (i a).val
    omega
  have key := View.write_emb_of_mem (v := ((cfg0.win 3).blk t0_0).view) (dat.arrAt 3 ↑t0_0) (dat.flushed 3 t0_0) (M := Finset.univ) (x := i) (Finset.mem_univ _)
  rw [hemb] at key
  rw [key, cast_eq]

/-- Device `c`'s result array after the run: the gathered result. -/
theorem final_out (m : Mem F) (c : Dev nD) : (dats m 0 c).arrAt 3 cfg0.N = outAll (P m) := arrAt_out (dats m 0 c)

/-- Its argument arrays after the run: as launched. -/
theorem final_in0 (m : Mem F) (c : Dev nD) : (dats m 0 c).arrAt 0 cfg0.N = m ((c.tc : Thread nD τ).loc main_arg0) := (dats m 0 c).arrAt_in 0 rfl _
theorem final_in1 (m : Mem F) (c : Dev nD) : (dats m 0 c).arrAt 1 cfg0.N = m ((c.tc : Thread nD τ).loc main_arg1) := (dats m 0 c).arrAt_in 1 rfl _
theorem final_in2 (m : Mem F) (c : Dev nD) : (dats m 0 c).arrAt 2 cfg0.N = m ((c.tc : Thread nD τ).loc main_arg2) := (dats m 0 c).arrAt_in 2 rfl _

/-- info: 'Cert.Kernel.LaunchCred.creds' depends on axioms: [propext, Classical.choice, Quot.sound] -/
#guard_msgs in #print axioms creds

/-- info: 'Cert.Kernel.LaunchCred.waits' depends on axioms: [propext, Classical.choice, Quot.sound] -/
#guard_msgs in #print axioms waits

/-- info: 'Cert.Kernel.LaunchCred.start_intro' depends on axioms: [propext, Classical.choice, Quot.sound] -/
#guard_msgs in #print axioms start_intro

/-- info: 'Cert.Kernel.LaunchCred.phi0_intro' depends on axioms: [propext, Classical.choice, Quot.sound] -/
#guard_msgs in #print axioms phi0_intro

/-- info: 'Cert.Kernel.LaunchCred.phi1_exit' depends on axioms: [propext, Classical.choice, Quot.sound] -/
#guard_msgs in #print axioms phi1_exit

/-- info: 'Cert.Kernel.LaunchCred.final_out' depends on axioms: [propext, Classical.choice, Quot.sound] -/
#guard_msgs in #print axioms final_out

end Cert.Kernel.LaunchCred

end
-- ==== Proof.Run_Bits.lean ====
/-
The launch: from the body obligation of every device and the ghost state's set-up to the run of the whole program on
the mesh. The post names each device's result array as a function of all devices' argument arrays — the gathered
result — and says the argument arrays are unchanged.
-/
import proofs.«900791_g7700000000000792_dist_gconv1d_cshard_i_b4_s512_c256_v7x_i32_bf16_1_alg».proof.Proof.LaunchCred_Bits

noncomputable section

namespace Cert.Kernel.Run

open Cert.Kernel Cert.Kernel.Gen Cert.Kernel.Contents Cert.Kernel.Proto Cert.Kernel.LaunchCred
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The staged blocks are the argument arrays -/

/-- An input window's block at the one point, read off its array, is the array: the block is the whole array. -/
theorem iblk0_eq (m : Mem F) (c : Dev nD) : iblk m c 0 t0_0 = m ((c.tc : Thread nD τ).loc main_arg0) := by
  unfold iblk
  funext i
  have hemb : ((cfg0.win 0).blk t0_0).view.emb i = i := by
    funext a; apply Fin.ext
    rw [View.emb_slice, Function.Embedding.trans_apply]
    show 0 * _ + 1 * (i a).val = (i a).val
    omega
  rw [View.read_apply, hemb, cast_eq]
theorem iblk1_eq (m : Mem F) (c : Dev nD) : iblk m c 1 t0_0 = m ((c.tc : Thread nD τ).loc main_arg1) := by
  unfold iblk
  funext i
  have hemb : ((cfg0.win 1).blk t0_0).view.emb i = i := by
    funext a; apply Fin.ext
    rw [View.emb_slice, Function.Embedding.trans_apply]
    show 0 * _ + 1 * (i a).val = (i a).val
    omega
  rw [View.read_apply, hemb, cast_eq]
theorem iblk2_eq (m : Mem F) (c : Dev nD) : iblk m c 2 t0_0 = m ((c.tc : Thread nD τ).loc main_arg2) := by
  unfold iblk
  funext i
  have hemb : ((cfg0.win 2).blk t0_0).view.emb i = i := by
    funext a; apply Fin.ext
    rw [View.emb_slice, Function.Embedding.trans_apply]
    show 0 * _ + 1 * (i a).val = (i a).val
    omega
  rw [View.read_apply, hemb, cast_eq]

/-- A device's partial product, over its argument arrays as launched. -/
def PA (m : Mem F) (e : Dev nD) : Vec F S32x64x256 .bf16 :=
  part (m ((e.tc : Thread nD τ).loc main_arg0)) (m ((e.tc : Thread nD τ).loc main_arg1)) (m ((e.tc : Thread nD τ).loc main_arg2))

theorem P_eq (m : Mem F) : P m = PA m := by
  funext e
  unfold P PA
  rw [iblk0_eq m e, iblk1_eq m e, iblk2_eq m e]

/-! ## The run -/

/-- The post: every device's result array holds the gathered result, a function of all devices' argument arrays,
    and its three argument arrays are as launched. -/
def QC (m : Mem F) : PUnit × MemSt nD τ sig (Elt F) → Prop := fun r => ∀ c : Dev nD,
  r.2.mem ((c.tc : Thread nD τ).loc main_v1) = outAll (PA m)
  ∧ r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)

set_option maxRecDepth 65536 in
/-- The launch, from the body obligation and the ghost state's set-up: at the compiled mesh of 32 devices, from any memory
    with zero counters, every weakly fair execution of @main terminates without fault, and every final state has each
    device's result array at the gathered result and its argument arrays unchanged. -/
theorem run_of (m : Mem F) (ρ : Dev nD → PrngReg)
    (hbody : ∀ c, BodyObligation (dats m 0 c) (defs₀ (F := F)) 𝒱₀ () Set.univ)
    (ho : Pipeline.OwnSemFacts cfg0.spec osem)
    (G : Dev nD → sProp 𝕄) (u₀ : UU)
    (hu₀ : (ownU u₀ : sProp 𝕄)
      ⊢ |={Set.univ}=> iprop(BI.own (EP (F := F) (initOf (Pipeline.cells cfgs cellOf_inj) (Pipeline.launchToks cfgs cellOf_inj))) ∗ bigSep Finset.univ G))
    (hglob : (bigSep Finset.univ fun c => iprop(Pipeline.ownSems0 (Ix := Unit) (Name := ℕ) (U := UU) (Lvl := ℕ) (Val := Elt F) (τ := τ) osem c ∗ unscopedSems0 c ∗ G c) : sProp 𝕄)
      ⊢ |={Set.univ}=> bigSep Finset.univ fun c => iprop(∃ K, ghost m K c)) :
    θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ho (Pipeline.PreFacts.none _) EP defs₀ 𝒱₀ m ρ main
    (hmain := fun _ => rfl)
    (hbody := hbody) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G) (G' := fun c => iprop(∃ K, ghost m K c)) (u₀ := u₀)
    (hu₀ := hu₀)
    (hglob := hglob)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun s h c => ⟨((h c).1 3).trans ((final_out m c).trans (congrArg outAll (P_eq m))),
      ((h c).1 0).trans (final_in0 m c), ((h c).1 1).trans (final_in1 m c), ((h c).1 2).trans (final_in2 m c)⟩)

/-- info: 'Cert.Kernel.Run.P_eq' depends on axioms: [propext, Classical.choice, Quot.sound] -/
#guard_msgs in #print axioms P_eq

/-- info: 'Cert.Kernel.Run.run_of' depends on axioms: [propext, Classical.choice, Quot.sound] -/
#guard_msgs in #print axioms run_of

end Cert.Kernel.Run

end
-- ==== Proof.Cut_Bits.lean ====
/-
The kernel's body cut at one point of its printed sequence: the part of the first sixty parts' sequence from the
twenty-ninth part on (the last receive wait of the reduce-scatter, the sum of the received slots, the all-gather and the
waits that follow), and the body's last four parts with its two closing waits. Both are the printed text's own suffixes,
so the body is the first followed by the second by unfolding.
-/
import proofs.«900791_g7700000000000792_dist_gconv1d_cshard_i_b4_s512_c256_v7x_i32_bf16_1_alg».proof.Proof.Gen.Kernel.Skeleton

set_option synthInstance.maxSize 4096

noncomputable section

namespace Cert.Kernel.Cut

open Idealize.ShloMosaic Idealize.SL.Sem Cert.Kernel

variable {F : FTy → Type} [FloatOps F] [Facts]
open Facts₀ Facts

set_option maxRecDepth 774 in
/-- The sequence of the body's first sixty parts from the twenty-ninth on, over the three values the earlier parts
    leave for it: the device and two words. -/
def tail65 (arg0 : Memref sig .tc .vmem S4x512x256 .f32) (harg0 : arg0.IsWhole) (arg1 : Memref sig .tc .vmem S4x256 .f32) (harg1 : arg1.IsWhole) (arg2 : Memref sig .tc .vmem S256x256 .f32) (harg2 : arg2.IsWhole) (arg3 : Memref sig .tc .vmem S4x512x256 .f32) (harg3 : arg3.IsWhole) (arg4 : Memref sig .tc .vmem S32x64x256 .bf16) (harg4 : arg4.IsWhole) (arg5 : Memref sig .tc .vmem S32x64x256 .bf16) (harg5 : arg5.IsWhole) (arg6 : Memref sig .tc .vmem S32x64x256 .bf16) (harg6 : arg6.IsWhole) (arg7 : DmaSems sig S32) (arg8 : DmaSems sig S32) (arg9 : DmaSems sig S32) (arg10 : DmaSems sig S32) (d0 : Dev nD) (v2 : BitVec 32) (v544 : BitVec 32) :
    Prog (TpuEff nD τ sig (Elt F) Λ₀ .tc) (Dev nD) := do
  let ⟨v812, v824⟩ : Σ' (v812 : BitVec 32), BitVec 32 ← k0_part29 arg0 harg0 arg1 harg1 arg2 harg2 arg3 harg3 arg4 harg4 arg5 harg5 arg6 harg6 arg7 arg8 arg9 arg10 d0 v2 v544
  let ⟨v836, v848⟩ : Σ' (v836 : BitVec 32), BitVec 32 ← k0_part30 arg0 harg0 arg1 harg1 arg2 harg2 arg3 harg3 arg4 harg4 arg5 harg5 arg6 harg6 arg7 arg8 arg9 arg10 d0 v2 v824
  let ⟨v860, v872, v884, v885, c0_i32_833⟩ : Σ' (v860 : BitVec 32) (v872 : BitVec 32) (v884 : BitVec 32) (v885 : BitVec 32), BitVec 32 ← k0_part31 arg0 harg0 arg1 harg1 arg2 harg2 arg3 harg3 arg4 harg4 arg5 harg5 arg6 harg6 arg7 arg8 arg9 arg10 d0 v2
  let ⟨v896, v908⟩ : Σ' (v896 : BitVec 32), BitVec 32 ← k0_part32 arg0 harg0 arg1 harg1 arg2 harg2 arg3 harg3 arg4 harg4 arg5 harg5 arg6 harg6 arg7 arg8 arg9 arg10 d0 v2 v885 c0_i32_833
  let ⟨v920, v932, v944⟩ : Σ' (v920 : BitVec 32) (v932 : BitVec 32), BitVec 32 ← k0_part33 arg0 harg0 arg1 harg1 arg2 harg2 arg3 harg3 arg4 harg4 arg5 harg5 arg6 harg6 arg7 arg8 arg9 arg10 d0 v2
  let ⟨v956, v968, v980⟩ : Σ' (v956 : BitVec 32) (v968 : BitVec 32), BitVec 32 ← k0_part34 arg0 harg0 arg1 harg1 arg2 harg2 arg3 harg3 arg4 harg4 arg5 harg5 arg6 harg6 arg7 arg8 arg9 arg10 d0 v2
  let ⟨v992, v1004⟩ : Σ' (v992 : BitVec 32), BitVec 32 ← k0_part35 arg0 harg0 arg1 harg1 arg2 harg2 arg3 harg3 arg4 harg4 arg5 harg5 arg6 harg6 arg7 arg8 arg9 arg10 d0 v2 v980
  let ⟨v1016, v1028, v1040⟩ : Σ' (v1016 : BitVec 32) (v1028 : BitVec 32), BitVec 32 ← k0_part36 arg0 harg0 arg1 harg1 arg2 harg2 arg3 harg3 arg4 harg4 arg5 harg5 arg6 harg6 arg7 arg8 arg9 arg10 d0 v2
  let ⟨v1052, v1064, c23_i32_988⟩ : Σ' (v1052 : BitVec 32) (v1064 : BitVec 32), BitVec 32 ← k0_part37 arg0 harg0 arg1 harg1 arg2 harg2 arg3 harg3 arg4 harg4 arg5 harg5 arg6 harg6 arg7 arg8 arg9 arg10 d0 v2
  let ⟨v1076, v1088, v1100⟩ : Σ' (v1076 : BitVec 32) (v1088 : BitVec 32), BitVec 32 ← k0_part38 arg0 harg0 arg1 harg1 arg2 harg2 arg3 harg3 arg4 harg4 arg5 harg5 arg6 harg6 arg7 arg8 arg9 arg10 d0 v2 c23_i32_988
  let ⟨v1112, v1124, v1136⟩ : Σ' (v1112 : BitVec 32) (v1124 : BitVec 32), BitVec 32 ← k0_part39 arg0 harg0 arg1 harg1 arg2 harg2 arg3 harg3 arg4 harg4 arg5 harg5 arg6 harg6 arg7 arg8 arg9 arg10 d0 v2
  let ⟨v1148, v1160⟩ : Σ' (v1148 : BitVec 32), BitVec 32 ← k0_part40 arg0 harg0 arg1 harg1 arg2 harg2 arg3 harg3 arg4 harg4 arg5 harg5 arg6 harg6 arg7 arg8 arg9 arg10 d0 v2 v1136
  let v1172 : BitVec 32 ← k0_part41 arg0 harg0 arg1 harg1 arg2 harg2 arg3 harg3 arg4 harg4 arg5 harg5 arg6 harg6 arg7 arg8 arg9 arg10 d0 v2
  k0_part42 arg0 harg0 arg1 harg1 arg2 harg2 arg3 harg3 arg4 harg4 arg5 harg5 arg6 harg6 arg7 arg8 arg9 arg10 d0
  k0_part43 arg0 harg0 arg1 harg1 arg2 harg2 arg3 harg3 arg4 harg4 arg5 harg5 arg6 harg6 arg7 arg8 arg9 arg10 d0
  k0_part44 arg0 harg0 arg1 harg1 arg2 harg2 arg3 harg3 arg4 harg4 arg5 harg5 arg6 harg6 arg7 arg8 arg9 arg10 d0
  k0_part45 arg0 harg0 arg1 harg1 arg2 harg2 arg3 harg3 arg4 harg4 arg5 harg5 arg6 harg6 arg7 arg8 arg9 arg10 d0
  k0_part46 arg0 harg0 arg1 harg1 arg2 harg2 arg3 harg3 arg4 harg4 arg5 harg5 arg6 harg6 arg7 arg8 arg9 arg10 d0
  k0_part47 arg0 harg0 arg1 harg1 arg2 harg2 arg3 harg3 arg4 harg4 arg5 harg5 arg6 harg6 arg7 arg8 arg9 arg10 d0
  k0_part48 arg0 harg0 arg1 harg1 arg2 harg2 arg3 harg3 arg4 harg4 arg5 harg5 arg6 harg6 arg7 arg8 arg9 arg10 d0
  k0_part49 arg0 harg0 arg1 harg1 arg2 harg2 arg3 harg3 arg4 harg4 arg5 harg5 arg6 harg6 arg7 arg8 arg9 arg10 d0 v812 v824 v836
  k0_part50 arg0 harg0 arg1 harg1 arg2 harg2 arg3 harg3 arg4 harg4 arg5 harg5 arg6 harg6 arg7 arg8 arg9 arg10 d0 v848 v860 v872 v884
  k0_part51 arg0 harg0 arg1 harg1 arg2 harg2 arg3 harg3 arg4 harg4 arg5 harg5 arg6 harg6 arg7 arg8 arg9 arg10 d0 v896 v908 v920
  k0_part52 arg0 harg0 arg1 harg1 arg2 harg2 arg3 harg3 arg4 harg4 arg5 harg5 arg6 harg6 arg7 arg8 arg9 arg10 d0 v932 v944 v956 v968
  k0_part53 arg0 harg0 arg1 harg1 arg2 harg2 arg3 harg3 arg4 harg4 arg5 harg5 arg6 harg6 arg7 arg8 arg9 arg10 d0 v980 v992 v1004
  k0_part54 arg0 harg0 arg1 harg1 arg2 harg2 arg3 harg3 arg4 harg4 arg5 harg5 arg6 harg6 arg7 arg8 arg9 arg10 d0 v1016 v1028 v1040 v1052
  k0_part55 arg0 harg0 arg1 harg1 arg2 harg2 arg3 harg3 arg4 harg4 arg5 harg5 arg6 harg6 arg7 arg8 arg9 arg10 d0 v1064 v1076 v1088
  k0_part56 arg0 harg0 arg1 harg1 arg2 harg2 arg3 harg3 arg4 harg4 arg5 harg5 arg6 harg6 arg7 arg8 arg9 arg10 d0 v1100 v1112 v1124 v1136
  k0_part57 arg0 harg0 arg1 harg1 arg2 harg2 arg3 harg3 arg4 harg4 arg5 harg5 arg6 harg6 arg7 arg8 arg9 arg10 d0 v1148 v1160 v1172
  k0_part58 arg0 harg0 arg1 harg1 arg2 harg2 arg3 harg3 arg4 harg4 arg5 harg5 arg6 harg6 arg7 arg8 arg9 arg10 d0
  k0_part59 arg0 harg0 arg1 harg1 arg2 harg2 arg3 harg3 arg4 harg4 arg5 harg5 arg6 harg6 arg7 arg8 arg9 arg10 d0
  k0_part60 arg0 harg0 arg1 harg1 arg2 harg2 arg3 harg3 arg4 harg4 arg5 harg5 arg6 harg6 arg7 arg8 arg9 arg10 d0
  pure d0

set_option maxRecDepth 774 in
/-- What the body does after its first sixty parts: the last four parts and the two closing waits. -/
def tailC (arg0 : Memref sig .tc .vmem S4x512x256 .f32) (harg0 : arg0.IsWhole) (arg1 : Memref sig .tc .vmem S4x256 .f32) (harg1 : arg1.IsWhole) (arg2 : Memref sig .tc .vmem S256x256 .f32) (harg2 : arg2.IsWhole) (arg3 : Memref sig .tc .vmem S4x512x256 .f32) (harg3 : arg3.IsWhole) (arg4 : Memref sig .tc .vmem S32x64x256 .bf16) (harg4 : arg4.IsWhole) (arg5 : Memref sig .tc .vmem S32x64x256 .bf16) (harg5 : arg5.IsWhole) (arg6 : Memref sig .tc .vmem S32x64x256 .bf16) (harg6 : arg6.IsWhole) (arg7 : DmaSems sig S32) (arg8 : DmaSems sig S32) (arg9 : DmaSems sig S32) (arg10 : DmaSems sig S32) (d0 : Dev nD) :
    Prog (TpuEff nD τ sig (Elt F) Λ₀ .tc) PUnit := do
  k0_part61 arg0 harg0 arg1 harg1 arg2 harg2 arg3 harg3 arg4 harg4 arg5 harg5 arg6 harg6 arg7 arg8 arg9 arg10 d0
  k0_part62 arg0 harg0 arg1 harg1 arg2 harg2 arg3 harg3 arg4 harg4 arg5 harg5 arg6 harg6 arg7 arg8 arg9 arg10 d0
  k0_part63 arg0 harg0 arg1 harg1 arg2 harg2 arg3 harg3 arg4 harg4 arg5 harg5 arg6 harg6 arg7 arg8 arg9 arg10 d0
  k0_part64 arg0 harg0 arg1 harg1 arg2 harg2 arg3 harg3 arg4 harg4 arg5 harg5 arg6 harg6 arg7 arg8 arg9 arg10 d0
  let c0_i32_1786 : BitVec 32 := 0#32
  let c0_i32_1787 : BitVec 32 := 0#32
  let v1797 : Memref sig .tc .vmem S1x64x256 .bf16 := arg6.slice (Rect.unit (s := S32x64x256) (k0_off3 d0) S1x64x256.size (k0_off3_inb d0)) (fun _ => rfl)
  let v1798 : Memref sig .tc .vmem S64x256 .bf16 := v1797.squeeze S64x256 squeezes_S1x64x256_S64x256
  let c0_i32_1788 : BitVec 32 := 0#32
  let c0_i32_1789 : BitVec 32 := 0#32
  let v1799 : Memref sig .tc .vmem S1x64x256 .bf16 := arg6.slice (Rect.unit (s := S32x64x256) (k0_off3 d0) S1x64x256.size (k0_off3_inb d0)) (fun _ => rfl)
  let v1800 : Memref sig .tc .vmem S64x256 .bf16 := v1799.squeeze S64x256 squeezes_S1x64x256_S64x256
  let v1795 : DmaSems sig S1 := arg9.slice (Rect.unit (s := S32) ![30] S1.size inb_S32_S1_30)
  let v1796 : DmaSems sig S_ := v1795.squeeze S_ squeezes_S1_S_
  Prog.lift (.waitDma2 v1796.sem v1800 v1798 ((harg6.wordExact_slice rfl _ (k0_off3_wordsbf16 d0)).reshape _ _) ((harg6.wordExact_slice rfl _ (k0_off3_wordsbf16 d0)).reshape _ _))
  let c31_i32_1790 : BitVec 32 := 31#32
  let c31_i32_1791 : BitVec 32 := 31#32
  let c0_i32_1792 : BitVec 32 := 0#32
  let v1801 : DmaSems sig S1 := arg9.slice (Rect.unit (s := S32) ![31] S1.size inb_S32_S1_31)
  let v1802 : DmaSems sig S_ := v1801.squeeze S_ squeezes_S1_S_
  let c0_i32_1793 : BitVec 32 := 0#32
  let c0_i32_1794 : BitVec 32 := 0#32
  let v1803 : Memref sig .tc .vmem S1x64x256 .bf16 := arg6.slice (Rect.unit (s := S32x64x256) (k0_off3 d0) S1x64x256.size (k0_off3_inb d0)) (fun _ => rfl)
  let v1804 : Memref sig .tc .vmem S64x256 .bf16 := v1803.squeeze S64x256 squeezes_S1x64x256_S64x256
  let c0_i32_1795 : BitVec 32 := 0#32
  let c0_i32_1796 : BitVec 32 := 0#32
  let v1805 : Memref sig .tc .vmem S1x64x256 .bf16 := arg6.slice (Rect.unit (s := S32x64x256) (k0_off3 d0) S1x64x256.size (k0_off3_inb d0)) (fun _ => rfl)
  let v1806 : Memref sig .tc .vmem S64x256 .bf16 := v1805.squeeze S64x256 squeezes_S1x64x256_S64x256
  Prog.lift (.waitDma2 v1802.sem v1806 v1804 ((harg6.wordExact_slice rfl _ (k0_off3_wordsbf16 d0)).reshape _ _) ((harg6.wordExact_slice rfl _ (k0_off3_wordsbf16 d0)).reshape _ _))
  pure ⟨⟩

set_option maxRecDepth 4096 in
/-- The body is its first sixty parts followed by the rest. -/
theorem cc0_body_eq (arg0 : Memref sig .tc .vmem S4x512x256 .f32) (harg0 : arg0.IsWhole) (arg1 : Memref sig .tc .vmem S4x256 .f32) (harg1 : arg1.IsWhole) (arg2 : Memref sig .tc .vmem S256x256 .f32) (harg2 : arg2.IsWhole) (arg3 : Memref sig .tc .vmem S4x512x256 .f32) (harg3 : arg3.IsWhole) (arg4 : Memref sig .tc .vmem S32x64x256 .bf16) (harg4 : arg4.IsWhole) (arg5 : Memref sig .tc .vmem S32x64x256 .bf16) (harg5 : arg5.IsWhole) (arg6 : Memref sig .tc .vmem S32x64x256 .bf16) (harg6 : arg6.IsWhole) (arg7 : DmaSems sig S32) (arg8 : DmaSems sig S32) (arg9 : DmaSems sig S32) (arg10 : DmaSems sig S32) :
    cc0_body (F := F) arg0 harg0 arg1 harg1 arg2 harg2 arg3 harg3 arg4 harg4 arg5 harg5 arg6 harg6 arg7 arg8 arg9 arg10 = (k0_part65 arg0 harg0 arg1 harg1 arg2 harg2 arg3 harg3 arg4 harg4 arg5 harg5 arg6 harg6 arg7 arg8 arg9 arg10 >>= fun d0 => tailC arg0 harg0 arg1 harg1 arg2 harg2 arg3 harg3 arg4 harg4 arg5 harg5 arg6 harg6 arg7 arg8 arg9 arg10 d0) := rfl

end Cert.Kernel.Cut

end
-- ==== Proof.CutA_Bits.lean ====
/-
The sequence of the body's first twenty-eight parts cut once more, after the nineteenth: the signals, the product, the
barrier wait and the reduce-scatter's 31 copies first; then the thirty receive waits of parts twenty to twenty-eight. The
31 words the copies' parts compute (the devices they name, which the waits only pass along) travel as one vector.
-/
import proofs.«900791_g7700000000000792_dist_gconv1d_cshard_i_b4_s512_c256_v7x_i32_bf16_1_alg».proof.Proof.Cut_Bits

set_option synthInstance.maxSize 4096

noncomputable section

namespace Cert.Kernel.CutA

open Idealize.ShloMosaic Idealize.SL.Sem Cert.Kernel

variable {F : FTy → Type} [FloatOps F] [Facts]
open Facts₀ Facts

set_option maxRecDepth 4096 in
/-- Parts one to twenty-eight, then a continuation over the device and the two words the later parts read. -/
def progA {α : Type} (arg0 : Memref sig .tc .vmem S4x512x256 .f32) (harg0 : arg0.IsWhole) (arg1 : Memref sig .tc .vmem S4x256 .f32) (harg1 : arg1.IsWhole) (arg2 : Memref sig .tc .vmem S256x256 .f32) (harg2 : arg2.IsWhole) (arg3 : Memref sig .tc .vmem S4x512x256 .f32) (harg3 : arg3.IsWhole) (arg4 : Memref sig .tc .vmem S32x64x256 .bf16) (harg4 : arg4.IsWhole) (arg5 : Memref sig .tc .vmem S32x64x256 .bf16) (harg5 : arg5.IsWhole) (arg6 : Memref sig .tc .vmem S32x64x256 .bf16) (harg6 : arg6.IsWhole) (arg7 : DmaSems sig S32) (arg8 : DmaSems sig S32) (arg9 : DmaSems sig S32) (arg10 : DmaSems sig S32)
    (k : Dev nD → BitVec 32 → BitVec 32 → Prog (TpuEff nD τ sig (Elt F) Λ₀ .tc) α) : Prog (TpuEff nD τ sig (Elt F) Λ₀ .tc) α := do
  let ⟨d0, v2, v3, v24, c32_i32_20⟩ : Σ' (d0 : Dev nD) (v2 : BitVec 32) (v3 : Sems sig S_) (v24 : BitVec 32), BitVec 32 ← k0_part1 arg0 harg0 arg1 harg1 arg2 harg2 arg3 harg3 arg4 harg4 arg5 harg5 arg6 harg6 arg7 arg8 arg9 arg10
  let ⟨v48, c32_i32_44⟩ : Σ' (v48 : BitVec 32), BitVec 32 ← k0_part2 arg0 harg0 arg1 harg1 arg2 harg2 arg3 harg3 arg4 harg4 arg5 harg5 arg6 harg6 arg7 arg8 arg9 arg10 d0 v2 v3 v24 c32_i32_20
  let ⟨v72, c32_i32_68⟩ : Σ' (v72 : BitVec 32), BitVec 32 ← k0_part3 arg0 harg0 arg1 harg1 arg2 harg2 arg3 harg3 arg4 harg4 arg5 harg5 arg6 harg6 arg7 arg8 arg9 arg10 d0 v2 v3 v48 c32_i32_44
  let ⟨v96, c32_i32_92⟩ : Σ' (v96 : BitVec 32), BitVec 32 ← k0_part4 arg0 harg0 arg1 harg1 arg2 harg2 arg3 harg3 arg4 harg4 arg5 harg5 arg6 harg6 arg7 arg8 arg9 arg10 d0 v2 v3 v72 c32_i32_68
  let ⟨v120, c32_i32_116⟩ : Σ' (v120 : BitVec 32), BitVec 32 ← k0_part5 arg0 harg0 arg1 harg1 arg2 harg2 arg3 harg3 arg4 harg4 arg5 harg5 arg6 harg6 arg7 arg8 arg9 arg10 d0 v2 v3 v96 c32_i32_92
  let ⟨v154, v162⟩ : Σ' (v154 : FVec F S4x512x256 .f32), FVec F S4x512x256 .f32 ← k0_part6 arg0 harg0 arg1 harg1 arg2 harg2 arg3 harg3 arg4 harg4 arg5 harg5 arg6 harg6 arg7 arg8 arg9 arg10 d0 v2 v3 v120 c32_i32_116
  let v184 : BitVec 32 ← k0_part7 arg0 harg0 arg1 harg1 arg2 harg2 arg3 harg3 arg4 harg4 arg5 harg5 arg6 harg6 arg7 arg8 arg9 arg10 d0 v2 v3 v154 v162
  let ⟨v196, v208, v220⟩ : Σ' (v196 : BitVec 32) (v208 : BitVec 32), BitVec 32 ← k0_part8 arg0 harg0 arg1 harg1 arg2 harg2 arg3 harg3 arg4 harg4 arg5 harg5 arg6 harg6 arg7 arg8 arg9 arg10 d0 v2
  let ⟨v232, v244⟩ : Σ' (v232 : BitVec 32), BitVec 32 ← k0_part9 arg0 harg0 arg1 harg1 arg2 harg2 arg3 harg3 arg4 harg4 arg5 harg5 arg6 harg6 arg7 arg8 arg9 arg10 d0 v2
  let ⟨v256, v268, v280⟩ : Σ' (v256 : BitVec 32) (v268 : BitVec 32), BitVec 32 ← k0_part10 arg0 harg0 arg1 harg1 arg2 harg2 arg3 harg3 arg4 harg4 arg5 harg5 arg6 harg6 arg7 arg8 arg9 arg10 d0 v2
  let ⟨v292, v304⟩ : Σ' (v292 : BitVec 32), BitVec 32 ← k0_part11 arg0 harg0 arg1 harg1 arg2 harg2 arg3 harg3 arg4 harg4 arg5 harg5 arg6 harg6 arg7 arg8 arg9 arg10 d0 v2
  let ⟨v316, v328, v340⟩ : Σ' (v316 : BitVec 32) (v328 : BitVec 32), BitVec 32 ← k0_part12 arg0 harg0 arg1 harg1 arg2 harg2 arg3 harg3 arg4 harg4 arg5 harg5 arg6 harg6 arg7 arg8 arg9 arg10 d0 v2
  let ⟨v352, v364⟩ : Σ' (v352 : BitVec 32), BitVec 32 ← k0_part13 arg0 harg0 arg1 harg1 arg2 harg2 arg3 harg3 arg4 harg4 arg5 harg5 arg6 harg6 arg7 arg8 arg9 arg10 d0 v2
  let ⟨v376, v388, v400⟩ : Σ' (v376 : BitVec 32) (v388 : BitVec 32), BitVec 32 ← k0_part14 arg0 harg0 arg1 harg1 arg2 harg2 arg3 harg3 arg4 harg4 arg5 harg5 arg6 harg6 arg7 arg8 arg9 arg10 d0 v2
  let ⟨v412, v424⟩ : Σ' (v412 : BitVec 32), BitVec 32 ← k0_part15 arg0 harg0 arg1 harg1 arg2 harg2 arg3 harg3 arg4 harg4 arg5 harg5 arg6 harg6 arg7 arg8 arg9 arg10 d0 v2
  let ⟨v436, v448, v460⟩ : Σ' (v436 : BitVec 32) (v448 : BitVec 32), BitVec 32 ← k0_part16 arg0 harg0 arg1 harg1 arg2 harg2 arg3 harg3 arg4 harg4 arg5 harg5 arg6 harg6 arg7 arg8 arg9 arg10 d0 v2
  let ⟨v472, v484⟩ : Σ' (v472 : BitVec 32), BitVec 32 ← k0_part17 arg0 harg0 arg1 harg1 arg2 harg2 arg3 harg3 arg4 harg4 arg5 harg5 arg6 harg6 arg7 arg8 arg9 arg10 d0 v2
  let ⟨v496, v508, v520⟩ : Σ' (v496 : BitVec 32) (v508 : BitVec 32), BitVec 32 ← k0_part18 arg0 harg0 arg1 harg1 arg2 harg2 arg3 harg3 arg4 harg4 arg5 harg5 arg6 harg6 arg7 arg8 arg9 arg10 d0 v2
  let ⟨v532, v544⟩ : Σ' (v532 : BitVec 32), BitVec 32 ← k0_part19 arg0 harg0 arg1 harg1 arg2 harg2 arg3 harg3 arg4 harg4 arg5 harg5 arg6 harg6 arg7 arg8 arg9 arg10 d0 v2
  let ⟨v579, c0_i32_514⟩ : Σ' (v579 : BitVec 32), BitVec 32 ← k0_part20 arg0 harg0 arg1 harg1 arg2 harg2 arg3 harg3 arg4 harg4 arg5 harg5 arg6 harg6 arg7 arg8 arg9 arg10 d0 v184 v196 v208 v220
  k0_part21 arg0 harg0 arg1 harg1 arg2 harg2 arg3 harg3 arg4 harg4 arg5 harg5 arg6 harg6 arg7 arg8 arg9 arg10 d0 v232 v244 v256 v579 c0_i32_514
  k0_part22 arg0 harg0 arg1 harg1 arg2 harg2 arg3 harg3 arg4 harg4 arg5 harg5 arg6 harg6 arg7 arg8 arg9 arg10 d0 v268 v280 v292
  let ⟨v659, c0_i32_604⟩ : Σ' (v659 : BitVec 32), BitVec 32 ← k0_part23 arg0 harg0 arg1 harg1 arg2 harg2 arg3 harg3 arg4 harg4 arg5 harg5 arg6 harg6 arg7 arg8 arg9 arg10 d0 v304 v316 v328 v340
  k0_part24 arg0 harg0 arg1 harg1 arg2 harg2 arg3 harg3 arg4 harg4 arg5 harg5 arg6 harg6 arg7 arg8 arg9 arg10 d0 v352 v364 v376 v659 c0_i32_604
  k0_part25 arg0 harg0 arg1 harg1 arg2 harg2 arg3 harg3 arg4 harg4 arg5 harg5 arg6 harg6 arg7 arg8 arg9 arg10 d0 v388 v400 v412
  let ⟨v739, c0_i32_694⟩ : Σ' (v739 : BitVec 32), BitVec 32 ← k0_part26 arg0 harg0 arg1 harg1 arg2 harg2 arg3 harg3 arg4 harg4 arg5 harg5 arg6 harg6 arg7 arg8 arg9 arg10 d0 v424 v436 v448 v460
  k0_part27 arg0 harg0 arg1 harg1 arg2 harg2 arg3 harg3 arg4 harg4 arg5 harg5 arg6 harg6 arg7 arg8 arg9 arg10 d0 v472 v484 v496 v739 c0_i32_694
  k0_part28 arg0 harg0 arg1 harg1 arg2 harg2 arg3 harg3 arg4 harg4 arg5 harg5 arg6 harg6 arg7 arg8 arg9 arg10 d0 v508 v520 v532
  k d0 v2 v544

set_option maxRecDepth 4096 in
/-- Parts one to nineteen, then a continuation over the device, the word of its position and the copies' 31 words. -/
def progS {α : Type} (arg0 : Memref sig .tc .vmem S4x512x256 .f32) (harg0 : arg0.IsWhole) (arg1 : Memref sig .tc .vmem S4x256 .f32) (harg1 : arg1.IsWhole) (arg2 : Memref sig .tc .vmem S256x256 .f32) (harg2 : arg2.IsWhole) (arg3 : Memref sig .tc .vmem S4x512x256 .f32) (harg3 : arg3.IsWhole) (arg4 : Memref sig .tc .vmem S32x64x256 .bf16) (harg4 : arg4.IsWhole) (arg5 : Memref sig .tc .vmem S32x64x256 .bf16) (harg5 : arg5.IsWhole) (arg6 : Memref sig .tc .vmem S32x64x256 .bf16) (harg6 : arg6.IsWhole) (arg7 : DmaSems sig S32) (arg8 : DmaSems sig S32) (arg9 : DmaSems sig S32) (arg10 : DmaSems sig S32)
    (k : Dev nD → BitVec 32 → (Fin 31 → BitVec 32) → Prog (TpuEff nD τ sig (Elt F) Λ₀ .tc) α) : Prog (TpuEff nD τ sig (Elt F) Λ₀ .tc) α := do
  let ⟨d0, v2, v3, v24, c32_i32_20⟩ : Σ' (d0 : Dev nD) (v2 : BitVec 32) (v3 : Sems sig S_) (v24 : BitVec 32), BitVec 32 ← k0_part1 arg0 harg0 arg1 harg1 arg2 harg2 arg3 harg3 arg4 harg4 arg5 harg5 arg6 harg6 arg7 arg8 arg9 arg10
  let ⟨v48, c32_i32_44⟩ : Σ' (v48 : BitVec 32), BitVec 32 ← k0_part2 arg0 harg0 arg1 harg1 arg2 harg2 arg3 harg3 arg4 harg4 arg5 harg5 arg6 harg6 arg7 arg8 arg9 arg10 d0 v2 v3 v24 c32_i32_20
  let ⟨v72, c32_i32_68⟩ : Σ' (v72 : BitVec 32), BitVec 32 ← k0_part3 arg0 harg0 arg1 harg1 arg2 harg2 arg3 harg3 arg4 harg4 arg5 harg5 arg6 harg6 arg7 arg8 arg9 arg10 d0 v2 v3 v48 c32_i32_44
  let ⟨v96, c32_i32_92⟩ : Σ' (v96 : BitVec 32), BitVec 32 ← k0_part4 arg0 harg0 arg1 harg1 arg2 harg2 arg3 harg3 arg4 harg4 arg5 harg5 arg6 harg6 arg7 arg8 arg9 arg10 d0 v2 v3 v72 c32_i32_68
  let ⟨v120, c32_i32_116⟩ : Σ' (v120 : BitVec 32), BitVec 32 ← k0_part5 arg0 harg0 arg1 harg1 arg2 harg2 arg3 harg3 arg4 harg4 arg5 harg5 arg6 harg6 arg7 arg8 arg9 arg10 d0 v2 v3 v96 c32_i32_92
  let ⟨v154, v162⟩ : Σ' (v154 : FVec F S4x512x256 .f32), FVec F S4x512x256 .f32 ← k0_part6 arg0 harg0 arg1 harg1 arg2 harg2 arg3 harg3 arg4 harg4 arg5 harg5 arg6 harg6 arg7 arg8 arg9 arg10 d0 v2 v3 v120 c32_i32_116
  let v184 : BitVec 32 ← k0_part7 arg0 harg0 arg1 harg1 arg2 harg2 arg3 harg3 arg4 harg4 arg5 harg5 arg6 harg6 arg7 arg8 arg9 arg10 d0 v2 v3 v154 v162
  let ⟨v196, v208, v220⟩ : Σ' (v196 : BitVec 32) (v208 : BitVec 32), BitVec 32 ← k0_part8 arg0 harg0 arg1 harg1 arg2 harg2 arg3 harg3 arg4 harg4 arg5 harg5 arg6 harg6 arg7 arg8 arg9 arg10 d0 v2
  let ⟨v232, v244⟩ : Σ' (v232 : BitVec 32), BitVec 32 ← k0_part9 arg0 harg0 arg1 harg1 arg2 harg2 arg3 harg3 arg4 harg4 arg5 harg5 arg6 harg6 arg7 arg8 arg9 arg10 d0 v2
  let ⟨v256, v268, v280⟩ : Σ' (v256 : BitVec 32) (v268 : BitVec 32), BitVec 32 ← k0_part10 arg0 harg0 arg1 harg1 arg2 harg2 arg3 harg3 arg4 harg4 arg5 harg5 arg6 harg6 arg7 arg8 arg9 arg10 d0 v2
  let ⟨v292, v304⟩ : Σ' (v292 : BitVec 32), BitVec 32 ← k0_part11 arg0 harg0 arg1 harg1 arg2 harg2 arg3 harg3 arg4 harg4 arg5 harg5 arg6 harg6 arg7 arg8 arg9 arg10 d0 v2
  let ⟨v316, v328, v340⟩ : Σ' (v316 : BitVec 32) (v328 : BitVec 32), BitVec 32 ← k0_part12 arg0 harg0 arg1 harg1 arg2 harg2 arg3 harg3 arg4 harg4 arg5 harg5 arg6 harg6 arg7 arg8 arg9 arg10 d0 v2
  let ⟨v352, v364⟩ : Σ' (v352 : BitVec 32), BitVec 32 ← k0_part13 arg0 harg0 arg1 harg1 arg2 harg2 arg3 harg3 arg4 harg4 arg5 harg5 arg6 harg6 arg7 arg8 arg9 arg10 d0 v2
  let ⟨v376, v388, v400⟩ : Σ' (v376 : BitVec 32) (v388 : BitVec 32), BitVec 32 ← k0_part14 arg0 harg0 arg1 harg1 arg2 harg2 arg3 harg3 arg4 harg4 arg5 harg5 arg6 harg6 arg7 arg8 arg9 arg10 d0 v2
  let ⟨v412, v424⟩ : Σ' (v412 : BitVec 32), BitVec 32 ← k0_part15 arg0 harg0 arg1 harg1 arg2 harg2 arg3 harg3 arg4 harg4 arg5 harg5 arg6 harg6 arg7 arg8 arg9 arg10 d0 v2
  let ⟨v436, v448, v460⟩ : Σ' (v436 : BitVec 32) (v448 : BitVec 32), BitVec 32 ← k0_part16 arg0 harg0 arg1 harg1 arg2 harg2 arg3 harg3 arg4 harg4 arg5 harg5 arg6 harg6 arg7 arg8 arg9 arg10 d0 v2
  let ⟨v472, v484⟩ : Σ' (v472 : BitVec 32), BitVec 32 ← k0_part17 arg0 harg0 arg1 harg1 arg2 harg2 arg3 harg3 arg4 harg4 arg5 harg5 arg6 harg6 arg7 arg8 arg9 arg10 d0 v2
  let ⟨v496, v508, v520⟩ : Σ' (v496 : BitVec 32) (v508 : BitVec 32), BitVec 32 ← k0_part18 arg0 harg0 arg1 harg1 arg2 harg2 arg3 harg3 arg4 harg4 arg5 harg5 arg6 harg6 arg7 arg8 arg9 arg10 d0 v2
  let ⟨v532, v544⟩ : Σ' (v532 : BitVec 32), BitVec 32 ← k0_part19 arg0 harg0 arg1 harg1 arg2 harg2 arg3 harg3 arg4 harg4 arg5 harg5 arg6 harg6 arg7 arg8 arg9 arg10 d0 v2
  k d0 v2 ![v184, v196, v208, v220, v232, v244, v256, v268, v280, v292, v304, v316, v328, v340, v352, v364, v376, v388, v400, v412, v424, v436, v448, v460, v472, v484, v496, v508, v520, v532, v544]

set_option maxRecDepth 4096 in
/-- Parts twenty to twenty-eight (the receive waits but the last), then a continuation. -/
def progW {α : Type} (arg0 : Memref sig .tc .vmem S4x512x256 .f32) (harg0 : arg0.IsWhole) (arg1 : Memref sig .tc .vmem S4x256 .f32) (harg1 : arg1.IsWhole) (arg2 : Memref sig .tc .vmem S256x256 .f32) (harg2 : arg2.IsWhole) (arg3 : Memref sig .tc .vmem S4x512x256 .f32) (harg3 : arg3.IsWhole) (arg4 : Memref sig .tc .vmem S32x64x256 .bf16) (harg4 : arg4.IsWhole) (arg5 : Memref sig .tc .vmem S32x64x256 .bf16) (harg5 : arg5.IsWhole) (arg6 : Memref sig .tc .vmem S32x64x256 .bf16) (harg6 : arg6.IsWhole) (arg7 : DmaSems sig S32) (arg8 : DmaSems sig S32) (arg9 : DmaSems sig S32) (arg10 : DmaSems sig S32) (d0 : Dev nD) (w : Fin 31 → BitVec 32)
    (k : Prog (TpuEff nD τ sig (Elt F) Λ₀ .tc) α) : Prog (TpuEff nD τ sig (Elt F) Λ₀ .tc) α := do
  let ⟨v579, c0_i32_514⟩ : Σ' (v579 : BitVec 32), BitVec 32 ← k0_part20 arg0 harg0 arg1 harg1 arg2 harg2 arg3 harg3 arg4 harg4 arg5 harg5 arg6 harg6 arg7 arg8 arg9 arg10 d0 (w 0) (w 1) (w 2) (w 3)
  k0_part21 arg0 harg0 arg1 harg1 arg2 harg2 arg3 harg3 arg4 harg4 arg5 harg5 arg6 harg6 arg7 arg8 arg9 arg10 d0 (w 4) (w 5) (w 6) v579 c0_i32_514
  k0_part22 arg0 harg0 arg1 harg1 arg2 harg2 arg3 harg3 arg4 harg4 arg5 harg5 arg6 harg6 arg7 arg8 arg9 arg10 d0 (w 7) (w 8) (w 9)
  let ⟨v659, c0_i32_604⟩ : Σ' (v659 : BitVec 32), BitVec 32 ← k0_part23 arg0 harg0 arg1 harg1 arg2 harg2 arg3 harg3 arg4 harg4 arg5 harg5 arg6 harg6 arg7 arg8 arg9 arg10 d0 (w 10) (w 11) (w 12) (w 13)
  k0_part24 arg0 harg0 arg1 harg1 arg2 harg2 arg3 harg3 arg4 harg4 arg5 harg5 arg6 harg6 arg7 arg8 arg9 arg10 d0 (w 14) (w 15) (w 16) v659 c0_i32_604
  k0_part25 arg0 harg0 arg1 harg1 arg2 harg2 arg3 harg3 arg4 harg4 arg5 harg5 arg6 harg6 arg7 arg8 arg9 arg10 d0 (w 17) (w 18) (w 19)
  let ⟨v739, c0_i32_694⟩ : Σ' (v739 : BitVec 32), BitVec 32 ← k0_part26 arg0 harg0 arg1 harg1 arg2 harg2 arg3 harg3 arg4 harg4 arg5 harg5 arg6 harg6 arg7 arg8 arg9 arg10 d0 (w 20) (w 21) (w 22) (w 23)
  k0_part27 arg0 harg0 arg1 harg1 arg2 harg2 arg3 harg3 arg4 harg4 arg5 harg5 arg6 harg6 arg7 arg8 arg9 arg10 d0 (w 24) (w 25) (w 26) v739 c0_i32_694
  k0_part28 arg0 harg0 arg1 harg1 arg2 harg2 arg3 harg3 arg4 harg4 arg5 harg5 arg6 harg6 arg7 arg8 arg9 arg10 d0 (w 27) (w 28) (w 29)
  k

set_option maxRecDepth 65536 in
/-- The first sixty parts' sequence is the first twenty-eight followed by its own suffix from the twenty-ninth part on. -/
theorem k0_part65_eq (arg0 : Memref sig .tc .vmem S4x512x256 .f32) (harg0 : arg0.IsWhole) (arg1 : Memref sig .tc .vmem S4x256 .f32) (harg1 : arg1.IsWhole) (arg2 : Memref sig .tc .vmem S256x256 .f32) (harg2 : arg2.IsWhole) (arg3 : Memref sig .tc .vmem S4x512x256 .f32) (harg3 : arg3.IsWhole) (arg4 : Memref sig .tc .vmem S32x64x256 .bf16) (harg4 : arg4.IsWhole) (arg5 : Memref sig .tc .vmem S32x64x256 .bf16) (harg5 : arg5.IsWhole) (arg6 : Memref sig .tc .vmem S32x64x256 .bf16) (harg6 : arg6.IsWhole) (arg7 : DmaSems sig S32) (arg8 : DmaSems sig S32) (arg9 : DmaSems sig S32) (arg10 : DmaSems sig S32) :
    k0_part65 (F := F) arg0 harg0 arg1 harg1 arg2 harg2 arg3 harg3 arg4 harg4 arg5 harg5 arg6 harg6 arg7 arg8 arg9 arg10 = progA arg0 harg0 arg1 harg1 arg2 harg2 arg3 harg3 arg4 harg4 arg5 harg5 arg6 harg6 arg7 arg8 arg9 arg10 (fun d0 v2 v544 => Cut.tail65 arg0 harg0 arg1 harg1 arg2 harg2 arg3 harg3 arg4 harg4 arg5 harg5 arg6 harg6 arg7 arg8 arg9 arg10 d0 v2 v544) := rfl

set_option maxRecDepth 65536 in
/-- The first twenty-eight parts are the first nineteen followed by the next nine. -/
theorem progA_eq {α : Type} (arg0 : Memref sig .tc .vmem S4x512x256 .f32) (harg0 : arg0.IsWhole) (arg1 : Memref sig .tc .vmem S4x256 .f32) (harg1 : arg1.IsWhole) (arg2 : Memref sig .tc .vmem S256x256 .f32) (harg2 : arg2.IsWhole) (arg3 : Memref sig .tc .vmem S4x512x256 .f32) (harg3 : arg3.IsWhole) (arg4 : Memref sig .tc .vmem S32x64x256 .bf16) (harg4 : arg4.IsWhole) (arg5 : Memref sig .tc .vmem S32x64x256 .bf16) (harg5 : arg5.IsWhole) (arg6 : Memref sig .tc .vmem S32x64x256 .bf16) (harg6 : arg6.IsWhole) (arg7 : DmaSems sig S32) (arg8 : DmaSems sig S32) (arg9 : DmaSems sig S32) (arg10 : DmaSems sig S32) (k : Dev nD → BitVec 32 → BitVec 32 → Prog (TpuEff nD τ sig (Elt F) Λ₀ .tc) α) :
    progA arg0 harg0 arg1 harg1 arg2 harg2 arg3 harg3 arg4 harg4 arg5 harg5 arg6 harg6 arg7 arg8 arg9 arg10 k = progS arg0 harg0 arg1 harg1 arg2 harg2 arg3 harg3 arg4 harg4 arg5 harg5 arg6 harg6 arg7 arg8 arg9 arg10 (fun d0 v2 w => progW arg0 harg0 arg1 harg1 arg2 harg2 arg3 harg3 arg4 harg4 arg5 harg5 arg6 harg6 arg7 arg8 arg9 arg10 d0 w (k d0 v2 (w 30))) := rfl

end Cert.Kernel.CutA
-- ==== Proof.Mid_Bits.lean ====
/-
The assertion a device's thread holds between the two halves of the kernel's body — after the reduce-scatter's copies have
been issued and all but one of its receive slots have landed — and the same before any receive slot has landed. Both
share everything that is not about the receive side.
-/
import proofs.«900791_g7700000000000792_dist_gconv1d_cshard_i_b4_s512_c256_v7x_i32_bf16_1_alg».proof.Proof.Proto_Bits

noncomputable section

namespace Cert.Kernel.Mid

open Cert.Kernel Cert.Kernel.Gen Cert.Kernel.Contents Cert.Kernel.Proto
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The four staging buffers: the three argument blocks as fetched, the result's at contents `s`. -/
def staging (m : Mem F) (c : Dev nD) (s : Buf (Elt F) ((c : Thread nD τ).loc cc0_stg3_0)) : sProp 𝕄 :=
  iprop((((c : Thread nD τ).loc cc0_stg0_0) ↦{fullShare} iblk m c 0 t0_0)
    ∗ (((c : Thread nD τ).loc cc0_stg1_0) ↦{fullShare} iblk m c 1 t0_0)
    ∗ (((c : Thread nD τ).loc cc0_stg2_0) ↦{fullShare} iblk m c 2 t0_0)
    ∗ (((c : Thread nD τ).loc cc0_stg3_0) ↦{fullShare} s))

/-- Everything the thread holds at either point that is not about the reduce-scatter's receive side: the records of every
    cell; its own chunk of the partial product (the other 31 are lent to the copies in flight); its own all-gather slot and
    the 31 peers' slots its all-gather copies will land in; the staging buffers; the all-gather credits it still owes;
    its positions at round 0 of the cells it has not waited on and past the barrier's round; the departure credits of the
    31 reduce-scatter copies and the credits of its all-gather receive cells; the tokens its all-gather copies pay with;
    the levels. -/
def MidRest (m : Mem F) (K : Dev nD × Option (Fin 4 × Fin 31) → ℕ) (c : Dev nD)
    (s : Buf (Elt F) ((c : Thread nD τ).loc cc0_stg3_0)) (W : Waits sig Unit) : sProp 𝕄 :=
  iprop(records m K
    ∗ slotPts srcB c (dv c) fullShare (P m c)
    ∗ (∃ f, slotPts agB c (dv c) fullShare f)
    ∗ (bigSep Finset.univ fun r : Fin 31 => iprop(∃ f, slotPts agB (nb c r) (dv c) fullShare f))
    ∗ staging m c s
    ∗ owes c (owedAg c 31) W
    ∗ (bigSep Finset.univ fun r : Fin 31 => iprop(atPos ER (rsS c r) 0 ∅ 0 ∗ atPos ER (agS c r) 0 ∅ 0 ∗ atPos ER (agR c r) 0 ∅ 0))
    ∗ atPos ER (bar c) 1 ∅ 0
    ∗ (bigSep Finset.univ fun r : Fin 31 => cred (tallyAt (rsS c r) () N))
    ∗ (bigSep Finset.univ fun r : Fin 31 => cred (tallyAt (agR c r) () N))
    ∗ (bigSep Finset.univ fun r : Fin 31 => iprop(dutyTok ER (agS c r) 0 0 ∗ dutyTok ER (agR (nb c r) r) 0 0))
    ∗ levAts L lv)

/-- Between the halves: every receive slot but slot 1 has landed (slot 0 is the device's own chunk); slot 1's cell is
    still at round 0, with its credit. -/
def Mid (m : Mem F) (K : Dev nD × Option (Fin 4 × Fin 31) → ℕ) (c : Dev nD)
    (s : Buf (Elt F) ((c : Thread nD τ).loc cc0_stg3_0)) (W : Waits sig Unit) : sProp 𝕄 :=
  iprop(MidRest m K c s W
    ∗ (bigSep (Finset.univ.erase (1 : Fin 32)) fun j => slotPts rsB c j fullShare (rsAll (P m) c))
    ∗ (atPos ER (rsR c 0) 0 ∅ 0 ∗ bigSep (Finset.univ.erase (0 : Fin 31)) fun r => atPos ER (rsR c r) 1 ∅ 0)
    ∗ cred (tallyAt (rsR c 0) () N))

/-- Before any receive slot has landed: only slot 0 is held; every receive cell at round 0, with its credit. -/
def MidS (m : Mem F) (K : Dev nD × Option (Fin 4 × Fin 31) → ℕ) (c : Dev nD)
    (s : Buf (Elt F) ((c : Thread nD τ).loc cc0_stg3_0)) (W : Waits sig Unit) : sProp 𝕄 :=
  iprop(MidRest m K c s W
    ∗ slotPts rsB c 0 fullShare (rsAll (P m) c)
    ∗ (bigSep Finset.univ fun r : Fin 31 => atPos ER (rsR c r) 0 ∅ 0)
    ∗ (bigSep Finset.univ fun r : Fin 31 => cred (tallyAt (rsR c r) () N)))

end Cert.Kernel.Mid

end
-- ==== Proof.PreA_Bits.lean ====
/-
What a device's thread holds when the body starts, laid out for the run through its first nineteen parts: the families the
run takes one member at a time (the tokens, facts and slots of each of the 31 operations) as chains of 31, the families
it only carries along as they stand.
-/
import proofs.«900791_g7700000000000792_dist_gconv1d_cshard_i_b4_s512_c256_v7x_i32_bf16_1_alg».proof.Proof.Mid_Bits
import Idealize.ShloMosaic.Lib.Pipeline.Kit

noncomputable section

namespace Cert.Kernel.PreA

open Cert.Kernel Cert.Kernel.Gen Cert.Kernel.Contents Cert.Kernel.Proto Cert.Kernel.Mid
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A family over the 31 operations, one member after the other. -/
def chain31 (Φ : Fin 31 → sProp 𝕄) : sProp 𝕄 :=
  iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20
    ∗ Φ 21 ∗ Φ 22 ∗ Φ 23 ∗ Φ 24 ∗ Φ 25 ∗ Φ 26 ∗ Φ 27 ∗ Φ 28 ∗ Φ 29 ∗ Φ 30)

/-- It is the family's separating conjunction over all 31. -/
theorem chain31_eq (Φ : Fin 31 → sProp 𝕄) : bigSep Finset.univ Φ = chain31 Φ :=
  bigSep_univ_eq_bigSepL [0, 1, 2, 3, 4, 5, 6, 7, 8, 9, 10, 11, 12, 13, 14, 15, 16, 17, 18, 19, 20, 21, 22, 23, 24, 25, 26, 27, 28, 29, 30]
    (by decide) (by decide) Φ

/-- The persistent facts about the cells operation `r` of device `c` touches: the barrier cell of the neighbour it signals,
    its own send cell and the neighbour's receive cell its copy credits, each with its invariant and round 0 reached;
    and that round 0 of the two cells of `c` that the neighbour's copies credit is reached (the signal's payload says so). -/
def cellsOf (m : Mem F) (K : Dev nD × Option (Fin 4 × Fin 31) → ℕ) (c : Dev nD) (r : Fin 31) : sProp 𝕄 :=
  iprop(cellInv ER (sched m) (K (nb c r, none)) (bar (nb c r)) ∗ reached ER (bar (nb c r)) 0
    ∗ cellInv ER (sched m) (K (c, some (0, r))) (rsS c r) ∗ reached ER (rsS c r) 0
    ∗ cellInv ER (sched m) (K (nb c r, some (1, rev r))) (rsR (nb c r) (rev r)) ∗ reached ER (rsR (nb c r) (rev r)) 0
    ∗ reached ER (rsR c r) 0 ∗ reached ER (agR c (rev r)) 0)

/-- The thread's state at the start of the body. `f0 f1 f2` are what the three scratch buffers hold. The slots the signals
    hand over stand before the slot of the same buffer the thread keeps: the order in which they are taken. -/
def PreA (m : Mem F) (K : Dev nD × Option (Fin 4 × Fin 31) → ℕ) (c : Dev nD)
    (s : Buf (Elt F) ((c : Thread nD τ).loc cc0_stg3_0)) (W : Waits sig Unit)
    (f0 : Buf (Elt F) (srcB.view.loc (c : Thread nD τ))) (f1 : Buf (Elt F) (rsB.view.loc (c : Thread nD τ)))
    (f2 : Buf (Elt F) (agB.view.loc (c : Thread nD τ))) : sProp 𝕄 :=
  iprop(records m K ∗ levAts L lv
    ∗ cellInv ER (sched m) (K (c, none)) (bar c)
    ∗ chain31 (cellsOf m K c)
    ∗ chain31 (fun r => dutyTok ER (bar (nb c r)) 0 r)
    ∗ chain31 (fun r => iprop(dutyTok ER (rsS c r) 0 0 ∗ dutyTok ER (rsR (nb c r) (rev r)) 0 0))
    ∗ (bigSep Finset.univ fun r : Fin 31 => iprop(dutyTok ER (agS c r) 0 0 ∗ dutyTok ER (agR (nb c r) r) 0 0))
    ∗ atPos ER (bar c) 0 ∅ 0
    ∗ (bigSep Finset.univ fun r : Fin 31 => atPos ER (rsR c r) 0 ∅ 0)
    ∗ (bigSep Finset.univ fun r : Fin 31 => iprop(atPos ER (rsS c r) 0 ∅ 0 ∗ atPos ER (agS c r) 0 ∅ 0 ∗ atPos ER (agR c r) 0 ∅ 0))
    ∗ cred (tallyAt (bar c) () 31)
    ∗ (bigSep Finset.univ fun r : Fin 31 => cred (tallyAt (rsR c r) () N))
    ∗ (bigSep Finset.univ fun r : Fin 31 => cred (tallyAt (agR c r) () N))
    ∗ (srcB.view.loc (c : Thread nD τ) ↦{fullShare} f0)
    ∗ chain31 (fun r => slotPts rsB c (sl r) fullShare f1)
    ∗ slotPts rsB c 0 fullShare f1
    ∗ chain31 (fun r => slotPts agB c (dv (nb c r)) fullShare f2)
    ∗ slotPts agB c (dv c) fullShare f2
    ∗ owes c (O₀ c) W
    ∗ staging m c s)

end Cert.Kernel.PreA

end
-- ==== Proof.MidX_Bits.lean ====
/-
The assertion a device's thread holds before the body's fifty-eighth part — every all-gather copy issued, every send of the
reduce-scatter and every receive of the all-gather waited for — and what the body leaves.
-/
import proofs.«900791_g7700000000000792_dist_gconv1d_cshard_i_b4_s512_c256_v7x_i32_bf16_1_alg».proof.Proof.Mid_Bits

noncomputable section

namespace Cert.Kernel.Mid

open Cert.Kernel Cert.Kernel.Gen Cert.Kernel.Contents Cert.Kernel.Proto
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Before the result is stored: the partial product's 32 chunks are all back (the device's own, and the 31 the send waits
    returned); the receive buffer is whole; the all-gather buffer's own slot is held at the share kept from the 31 copies
    in flight and the 31 other slots have landed, all at the buffer's final contents; nothing is owed; the positions of
    the send cells of the all-gather are still at round 0, with the departure credits of the 31 copies; every other own
    transfer cell is past its round. -/
def MidX (m : Mem F) (K : Dev nD × Option (Fin 4 × Fin 31) → ℕ) (c : Dev nD)
    (s : Buf (Elt F) ((c : Thread nD τ).loc cc0_stg3_0)) (W : Waits sig Unit) : sProp 𝕄 :=
  iprop(records m K
    ∗ slotPts srcB c (dv c) fullShare (P m c)
    ∗ (bigSep Finset.univ fun r : Fin 31 => slotPts srcB c (dv (nb c r)) fullShare (P m c))
    ∗ (rsB.view.loc (c : Thread nD τ) ↦[rsB.view.set]{fullShare} rsAll (P m) c)
    ∗ slotPts agB c (dv c) shLast (agAll (P m))
    ∗ (bigSep Finset.univ fun r : Fin 31 => slotPts agB c (dv (pb c r)) fullShare (agAll (P m)))
    ∗ staging m c s
    ∗ owes c 0 W
    ∗ (bigSep Finset.univ fun r : Fin 31 => atPos ER (rsS c r) 1 ∅ 0)
    ∗ (bigSep Finset.univ fun r : Fin 31 => atPos ER (rsR c r) 1 ∅ 0)
    ∗ (bigSep Finset.univ fun r : Fin 31 => atPos ER (agS c r) 0 ∅ 0)
    ∗ (bigSep Finset.univ fun r : Fin 31 => atPos ER (agR c r) 1 ∅ 0)
    ∗ (bigSep Finset.univ fun r : Fin 31 => cred (tallyAt (agS c r) () N))
    ∗ levAts L lv)

/-- What the body leaves: the three scratch buffers whole and the 124 own cells closed at zero, nothing owed, the argument
    staging buffers unchanged and the result's at the all-gathered result. -/
def PostB (m : Mem F) (c : Dev nD) : sProp 𝕄 :=
  iprop(Φ₁ c ∗ (∃ W' : Waits sig Unit, owes c 0 W')
    ∗ (((c : Thread nD τ).loc cc0_stg0_0) ↦{fullShare} iblk m c 0 t0_0)
    ∗ (((c : Thread nD τ).loc cc0_stg1_0) ↦{fullShare} iblk m c 1 t0_0)
    ∗ (((c : Thread nD τ).loc cc0_stg2_0) ↦{fullShare} iblk m c 2 t0_0)
    ∗ (((c : Thread nD τ).loc cc0_stg3_0) ↦{fullShare} outAll (P m)))

end Cert.Kernel.Mid

end
-- ==== Proof.Slots_Bits.lean ====
/-
A [32, 64, 256] buffer as its 32 slots: the rectangle of slot j, the memref of slot j as the program names it (the unit
slice with its leading axis squeezed), and the whole buffer's points-to as the separating conjunction of its slots', at any
share and over any contents. A slice at an offset equal to ![j, 0, 0] has slot j's elements.
-/
import proofs.«900791_g7700000000000792_dist_gconv1d_cshard_i_b4_s512_c256_v7x_i32_bf16_1_alg».proof.Proof.Proto_Bits

noncomputable section

namespace Cert.Kernel.Slots

open Idealize.ShloMosaic Idealize.SL.Sem Cert.Kernel Cert.Kernel.Proto
open Idealize.SL Idealize.SL.RA Idealize.SL.BI
open scoped Idealize.SL.BI
open Idealize.SL.BI.BIBase Idealize.SL.BI.Laws Idealize.SL.ProofMode

variable [Facts]
open Facts₀ Facts

/-- The rectangle of slot j of a [32, 64, 256] buffer. -/
abbrev slotRect (j : Fin 32) : Rect S32x64x256 :=
  Rect.unit ![j.val, 0, 0] S1x64x256.size (slot_inb j)

theorem mem_slotRect {j : Fin 32} {i : S32x64x256.Idx} : i ∈ (slotRect j).set ↔ (i 0).val = j.val := by
  rw [Rect.mem_set_unit]
  constructor
  · intro h; have := h 0; simp [S1x64x256, Shape.size] at this; omega
  · intro h a; fin_cases a
    · simp [S1x64x256, Shape.size]; omega
    · simp [S1x64x256, S32x64x256, Shape.size]; exact (i 1).isLt
    · simp [S1x64x256, S32x64x256, Shape.size]; exact (i 2).isLt

theorem slotRect_disjoint {j j' : Fin 32} (h : j ≠ j') : Disjoint (slotRect j).set (slotRect j').set := by
  rw [Finset.disjoint_left]; intro i hi hi'
  rw [mem_slotRect] at hi hi'; exact h (Fin.ext (hi.symm.trans hi'))

theorem slotRect_cover : (Finset.univ : Finset S32x64x256.Idx) = Finset.univ.biUnion (fun j : Fin 32 => (slotRect j).set) := by
  ext i; simp only [Finset.mem_univ, Finset.mem_biUnion, true_and, true_iff]
  exact ⟨⟨(i 0).val, (i 0).isLt⟩, mem_slotRect.2 rfl⟩

variable {Ix : Type} [DecidableEq Ix] {Val : EltTy → Type} {Name : Type} [DecidableEq Name] {U : Type} [URA U] {Lvl : Type}
local notation "𝕄" => MT nD τ sig Ix Val Name U Lvl

theorem set_slotM (M : Memref sig .tc .vmem S32x64x256 .bf16) (j : Fin 32) :
    (slotM M j).view.set = M.view.setOn (slotRect j).set := by
  show ((M.view.slice (slotRect j)).reshape _ _).set = _
  rw [View.set_reshape, View.set_slice]; rfl

theorem pointsTo_slots (M : Memref sig .tc .vmem S32x64x256 .bf16) (c : Dev nD) (q : PosShare TreeShare) (f : Buf Val (M.view.loc (c.tc : Thread nD τ))) :
    (M.view.loc (c.tc : Thread nD τ) ↦[M.view.set]{q} f : sProp 𝕄)
      = bigSep Finset.univ (fun j : Fin 32 => (M.view.loc (c.tc : Thread nD τ) ↦[(slotM M j).view.set]{q} f : sProp 𝕄)) := by
  have hcov : M.view.set = Finset.univ.biUnion (fun j : Fin 32 => (slotM M j).view.set) := by
    ext i
    simp only [Finset.mem_biUnion, Finset.mem_univ, true_and]
    constructor
    · intro hi
      have hi' : i ∈ Finset.univ.map M.view.emb := hi
      obtain ⟨x, -, rfl⟩ := Finset.mem_map.1 hi'
      refine ⟨⟨(x 0).val, (x 0).isLt⟩, ?_⟩
      rw [set_slotM]; exact (M.view.mem_setOn).2 (mem_slotRect.2 rfl)
    · rintro ⟨j, hj⟩; rw [set_slotM] at hj; exact M.view.setOn_subset_set _ hj
  rw [hcov]
  refine pointsTo_biUnion Finset.univ _ ?_
  intro j _ j' _ h
  rw [set_slotM, set_slotM]
  exact (Finset.disjoint_map _).2 (slotRect_disjoint h)

/-- A unit slice at an offset that is ![j, 0, 0] has slot j's elements: as the squeezed memref of a transfer, -/
theorem set_sliceSq_eq_slot (M : Memref sig .tc .vmem S32x64x256 .bf16) {off : Fin 3 → ℕ}
    {inb : ∀ a, off a + S1x64x256.size a ≤ S32x64x256.size a} (j : Fin 32) (h : off = ![j.val, 0, 0]) :
    ((M.slice (Rect.unit (s := S32x64x256) off S1x64x256.size inb) (fun _ => rfl)).squeeze S64x256 squeezes_S1x64x256_S64x256).view.set
      = (slotM M j).view.set := by
  subst h; rfl

/-- and as the view a load or a store goes through. -/
theorem set_access_eq_slot (M : Memref sig .tc .vmem S32x64x256 .bf16) {off : Fin 3 → ℕ}
    {inb : ∀ a, off a + S1x64x256.size a ≤ S32x64x256.size a} (j : Fin 32) (h : off = ![j.val, 0, 0]) :
    (M.access (Rect.unit (s := S32x64x256) off S1x64x256.size inb)).set = (slotM M j).view.set := by
  subst h
  exact (View.set_reshape _ _).symm

/-- info: 'Cert.Kernel.Slots.pointsTo_slots' depends on axioms: [propext, Classical.choice, Quot.sound] -/
#guard_msgs in #print axioms pointsTo_slots

end Cert.Kernel.Slots

end
-- ==== Proof.Tables_Bits.lean ====
/-
The schedule's tables, cell kind by cell kind: the duties, amounts, expected units and payloads of round 0 of a
barrier cell and of each of the four kinds of transfer cell, the payloads of a whole round, and that no later round
has a duty. Each table equation has the table's entry on the left.
-/
import proofs.«900791_g7700000000000792_dist_gconv1d_cshard_i_b4_s512_c256_v7x_i32_bf16_1_alg».proof.Proof.Proto_Bits

noncomputable section

namespace Cert.Kernel.Tables

open Cert.Kernel Cert.Kernel.Gen Cert.Kernel.Contents Cert.Kernel.Proto
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The schedule at a cell given by its semaphore -/

theorem duties_reg (m : Mem F) (c : Dev nD) (s : Sem sig) : (sched (F := F) m).duties ((c : Thread nD τ), .reg s) 0 = Finset.univ := by
  dsimp only [sched]; exact if_pos ⟨rfl, rfl⟩
theorem duties_dma (m : Mem F) (c : Dev nD) (s : DmaSem sig) :
    (sched (F := F) m).duties ((c : Thread nD τ), .dma s) 0 = if IsOwn s then {0} else ∅ := by
  dsimp only [sched]; exact if_pos ⟨rfl, rfl⟩
theorem duties_later (m : Mem F) (g : GSem nD τ sig) (r : ℕ) (hr : 1 ≤ r) : (sched (F := F) m).duties g r = ∅ := by
  dsimp only [sched]; exact if_neg fun h => by omega
theorem payload_dma (m : Mem F) (c : Dev nD) (s : DmaSem sig) (k : ℕ) (d : Fin 31) :
    (sched (F := F) m).payload ((c : Thread nD τ), .dma s) k d
      = match poolOf s with
        | 0 => rsSPay m c (opOf s)
        | 1 => rsRPay m c (opOf s)
        | 2 => agSPay m c (opOf s)
        | _ => agRPay m c (opOf s) := rfl

/-! ## Duties -/

theorem univ31 : (Finset.univ : Finset (Fin 31)) = {0, 1, 2, 3, 4, 5, 6, 7, 8, 9, 10, 11, 12, 13, 14, 15, 16, 17, 18, 19, 20, 21, 22, 23, 24, 25, 26, 27, 28, 29, 30} := by decide

theorem duties_bar (m : Mem F) (c : Dev nD) : (sched (F := F) m).duties (bar c) 0 = Finset.univ := duties_reg m c barS
/-- The barrier cell's duties listed: the form in which a round's payloads unfold to a chain. -/
theorem duties_bar_lit (m : Mem F) (c : Dev nD) : (sched (F := F) m).duties (bar c) 0 = {0, 1, 2, 3, 4, 5, 6, 7, 8, 9, 10, 11, 12, 13, 14, 15, 16, 17, 18, 19, 20, 21, 22, 23, 24, 25, 26, 27, 28, 29, 30} :=
  (duties_bar m c).trans univ31
theorem duties_own (m : Mem F) (c : Dev nD) (p : Fin 4) (r : Fin 31) : (sched (F := F) m).duties (kcell (c, some (p, r))) 0 = {0} :=
  (duties_dma m c (dsem p r)).trans (if_pos (isOwn_dsem p r))
theorem duties_rsS (m : Mem F) (c : Dev nD) (r : Fin 31) : (sched (F := F) m).duties (rsS c r) 0 = {0} := duties_own m c 0 r
theorem duties_rsR (m : Mem F) (c : Dev nD) (r : Fin 31) : (sched (F := F) m).duties (rsR c r) 0 = {0} := duties_own m c 1 r
theorem duties_agS (m : Mem F) (c : Dev nD) (r : Fin 31) : (sched (F := F) m).duties (agS c r) 0 = {0} := duties_own m c 2 r
theorem duties_agR (m : Mem F) (c : Dev nD) (r : Fin 31) : (sched (F := F) m).duties (agR c r) 0 = {0} := duties_own m c 3 r

theorem mem_duties_bar (m : Mem F) (c : Dev nD) (r : Fin 31) : r ∈ (sched (F := F) m).duties (bar c) 0 := by
  rw [duties_bar]; exact Finset.mem_univ r
theorem mem_duties_own (m : Mem F) (c : Dev nD) (p : Fin 4) (r : Fin 31) : (0 : Fin 31) ∈ (sched (F := F) m).duties (kcell (c, some (p, r))) 0 := by
  rw [duties_own]; exact Finset.mem_singleton_self _

/-! ## Amounts and expected units -/

theorem amount_bar (m : Mem F) (c : Dev nD) (k : ℕ) (d : Fin 31) : (sched (F := F) m).amount (bar c) k d = 1 := rfl
theorem amount_own (m : Mem F) (c : Dev nD) (p : Fin 4) (r : Fin 31) (k : ℕ) (d : Fin 31) :
    (sched (F := F) m).amount (kcell (c, some (p, r))) k d = N := rfl
theorem amount_rsS (m : Mem F) (c : Dev nD) (r : Fin 31) (k : ℕ) (d : Fin 31) : (sched (F := F) m).amount (rsS c r) k d = N := rfl
theorem amount_rsR (m : Mem F) (c : Dev nD) (r : Fin 31) (k : ℕ) (d : Fin 31) : (sched (F := F) m).amount (rsR c r) k d = N := rfl
theorem amount_agS (m : Mem F) (c : Dev nD) (r : Fin 31) (k : ℕ) (d : Fin 31) : (sched (F := F) m).amount (agS c r) k d = N := rfl
theorem amount_agR (m : Mem F) (c : Dev nD) (r : Fin 31) (k : ℕ) (d : Fin 31) : (sched (F := F) m).amount (agR c r) k d = N := rfl

theorem expect_bar (m : Mem F) (c : Dev nD) : (sched (F := F) m).expect (bar c) 0 = 31 := by
  unfold Schedule.expect Schedule.amountOf
  rw [duties_bar, Finset.sum_congr rfl fun d _ => amount_bar m c 0 d, Finset.sum_const, Finset.card_univ, Fintype.card_fin, smul_eq_mul]
theorem expect_own (m : Mem F) (c : Dev nD) (p : Fin 4) (r : Fin 31) : (sched (F := F) m).expect (kcell (c, some (p, r))) 0 = N := by
  unfold Schedule.expect Schedule.amountOf; rw [duties_own, Finset.sum_singleton, amount_own]
theorem expect_rsS (m : Mem F) (c : Dev nD) (r : Fin 31) : (sched (F := F) m).expect (rsS c r) 0 = N := expect_own m c 0 r
theorem expect_rsR (m : Mem F) (c : Dev nD) (r : Fin 31) : (sched (F := F) m).expect (rsR c r) 0 = N := expect_own m c 1 r
theorem expect_agS (m : Mem F) (c : Dev nD) (r : Fin 31) : (sched (F := F) m).expect (agS c r) 0 = N := expect_own m c 2 r
theorem expect_agR (m : Mem F) (c : Dev nD) (r : Fin 31) : (sched (F := F) m).expect (agR c r) 0 = N := expect_own m c 3 r

/-! ## Payloads, each spelt as the assertion itself -/

/-- Duty `r` of `t`'s barrier cell: the two slots of `pb t r` that `t`'s transfers land in, and that `pb t r` has opened
    the two cells they credit. -/
theorem payload_bar (m : Mem F) (t : Dev nD) (k : ℕ) (r : Fin 31) :
    (sched (F := F) m).payload (bar t) k r
      = iprop((∃ f, ((slotM rsB (sl r)).view.loc ((pb t r : Dev nD) : Thread nD τ)) ↦[(slotM rsB (sl r)).view.set]{fullShare} f)
          ∗ (∃ f, ((slotM agB (dv t)).view.loc ((pb t r : Dev nD) : Thread nD τ)) ↦[(slotM agB (dv t)).view.set]{fullShare} f)
          ∗ reached ER (rsR (pb t r) r) 0 ∗ reached ER (agR (pb t r) (rev r)) 0) := rfl

theorem payload_rsS (m : Mem F) (c : Dev nD) (r : Fin 31) (k : ℕ) (d : Fin 31) :
    (sched (F := F) m).payload (rsS c r) k d
      = (((slotM srcB (dv (nb c r))).view.loc (c : Thread nD τ)) ↦[(slotM srcB (dv (nb c r))).view.set]{fullShare} (P m c) : sProp 𝕄) := by
  rw [show rsS c r = ((c : Thread nD τ), SemLoc.dma (dsem 0 r)) from rfl, payload_dma, poolOf_dsem, opOf_dsem]; rfl
theorem payload_rsR (m : Mem F) (c : Dev nD) (r : Fin 31) (k : ℕ) (d : Fin 31) :
    (sched (F := F) m).payload (rsR c r) k d
      = (((slotM rsB (sl r)).view.loc (c : Thread nD τ)) ↦[(slotM rsB (sl r)).view.set]{fullShare} (rsAll (P m) c) : sProp 𝕄) := by
  rw [show rsR c r = ((c : Thread nD τ), SemLoc.dma (dsem 1 r)) from rfl, payload_dma, poolOf_dsem, opOf_dsem]; rfl
theorem payload_agS (m : Mem F) (c : Dev nD) (r : Fin 31) (k : ℕ) (d : Fin 31) :
    (sched (F := F) m).payload (agS c r) k d
      = (((slotM agB (dv c)).view.loc (c : Thread nD τ)) ↦[(slotM agB (dv c)).view.set]{sh r} (agAll (P m)) : sProp 𝕄) := by
  rw [show agS c r = ((c : Thread nD τ), SemLoc.dma (dsem 2 r)) from rfl, payload_dma, poolOf_dsem, opOf_dsem]; rfl
theorem payload_agR (m : Mem F) (c : Dev nD) (r : Fin 31) (k : ℕ) (d : Fin 31) :
    (sched (F := F) m).payload (agR c r) k d
      = (((slotM agB (dv (pb c r))).view.loc (c : Thread nD τ)) ↦[(slotM agB (dv (pb c r))).view.set]{fullShare} (agAll (P m)) : sProp 𝕄) := by
  rw [show agR c r = ((c : Thread nD τ), SemLoc.dma (dsem 3 r)) from rfl, payload_dma, poolOf_dsem, opOf_dsem]; rfl

/-! ## Payloads at the cells a device pays, the payer named

The duties device `c` pays on other devices' cells, with whatever the general equations spell through the payer of the
cell's device resolved to `c` itself. -/

/-- Duty `r` of the barrier cell of `nb c r`, which `c` pays: `c`'s own two slots and cells. -/
theorem payload_bar_nb (m : Mem F) (c : Dev nD) (k : ℕ) (r : Fin 31) :
    (sched (F := F) m).payload (bar (nb c r)) k r
      = iprop((∃ f, ((slotM rsB (sl r)).view.loc ((c : Dev nD) : Thread nD τ)) ↦[(slotM rsB (sl r)).view.set]{fullShare} f)
          ∗ (∃ f, ((slotM agB (dv (nb c r))).view.loc ((c : Dev nD) : Thread nD τ)) ↦[(slotM agB (dv (nb c r))).view.set]{fullShare} f)
          ∗ reached ER (rsR c r) 0 ∗ reached ER (agR c (rev r)) 0) := by
  rw [payload_bar]
  have h := pb_nb c r
  generalize pb (nb c r) r = x at h
  subst h
  rfl

/-- The duty of cell `r` of the all-gather's receive pool on `nb c r`, which `c` pays: slot `c` there. -/
theorem payload_agR_nb (m : Mem F) (c : Dev nD) (r : Fin 31) (k : ℕ) (d : Fin 31) :
    (sched (F := F) m).payload (agR (nb c r) r) k d
      = (((slotM agB (dv c)).view.loc ((nb c r : Dev nD) : Thread nD τ)) ↦[(slotM agB (dv c)).view.set]{fullShare} (agAll (P m)) : sProp 𝕄) := by
  rw [payload_agR]
  have h := pb_nb c r
  generalize pb (nb c r) r = x at h
  subst h
  rfl

/-! ## A whole round's payloads -/

theorem rest_bar (m : Mem F) (c : Dev nD) :
    bigSep ((sched (F := F) m).duties (bar c) 0 \ ∅) (fun d => (sched (F := F) m).payload (bar c) 0 d)
      = bigSep Finset.univ (fun r : Fin 31 => barPay (F := F) c r) := by
  rw [Finset.sdiff_empty, duties_bar]; rfl
theorem rest_rsS (m : Mem F) (c : Dev nD) (r : Fin 31) :
    bigSep ((sched (F := F) m).duties (rsS c r) 0 \ ∅) (fun d => (sched (F := F) m).payload (rsS c r) 0 d) = rsSPay m c r := by
  rw [Finset.sdiff_empty, duties_rsS, bigSep_singleton, payload_rsS]; rfl
theorem rest_rsR (m : Mem F) (c : Dev nD) (r : Fin 31) :
    bigSep ((sched (F := F) m).duties (rsR c r) 0 \ ∅) (fun d => (sched (F := F) m).payload (rsR c r) 0 d) = rsRPay m c r := by
  rw [Finset.sdiff_empty, duties_rsR, bigSep_singleton, payload_rsR]; rfl
theorem rest_agS (m : Mem F) (c : Dev nD) (r : Fin 31) :
    bigSep ((sched (F := F) m).duties (agS c r) 0 \ ∅) (fun d => (sched (F := F) m).payload (agS c r) 0 d) = agSPay m c r := by
  rw [Finset.sdiff_empty, duties_agS, bigSep_singleton, payload_agS]; rfl
theorem rest_agR (m : Mem F) (c : Dev nD) (r : Fin 31) :
    bigSep ((sched (F := F) m).duties (agR c r) 0 \ ∅) (fun d => (sched (F := F) m).payload (agR c r) 0 d) = agRPay m c r := by
  rw [Finset.sdiff_empty, duties_agR, bigSep_singleton, payload_agR]; rfl

/-! ## The tables as the executor's rewrites -/

attribute [sl_rounds] duties_bar_lit duties_rsS duties_rsR duties_agS duties_agR
  amount_bar amount_rsS amount_rsR amount_agS amount_agR
  expect_bar expect_rsS expect_rsR expect_agS expect_agR
  payload_bar payload_rsS payload_rsR payload_agS payload_agR

/- The two equations that name the payer are tried before the general ones they are instances of. -/
open Lean Meta in
run_meta do
  for n in [``payload_bar_nb, ``payload_agR_nb] do
    addSimpTheorem Idealize.ShloMosaic.Tactic.Exec.slRoundsExt n (post := true) (inv := false) AttributeKind.global 2000

/-- info: 'Cert.Kernel.Tables.rest_bar' depends on axioms: [propext, Classical.choice, Quot.sound] -/
#guard_msgs in #print axioms rest_bar

end Cert.Kernel.Tables

end
-- ==== Proof.CloseCells_Bits.lean ====
/-
Closing a device's own cells. Every cell's invariant and reached round are read off the launch's records; a
device that has consumed round 0 of each of its 124 transfer cells, no later round having a duty, closes them all and
takes their counters out at zero.
-/
import proofs.«900791_g7700000000000792_dist_gconv1d_cshard_i_b4_s512_c256_v7x_i32_bf16_1_alg».proof.Proof.Tables_Bits

noncomputable section

namespace Cert.Kernel.CloseCells

open Cert.Kernel Cert.Kernel.Gen Cert.Kernel.Contents Cert.Kernel.Proto Cert.Kernel.Tables
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

instance records_persistent (m : Mem F) (K : Dev nD × Option (Fin 4 × Fin 31) → ℕ) : BI.Persistent (records (F := F) m K) := by
  unfold records; infer_instance

/-- One cell's invariant out of the records. -/
theorem recInv (m : Mem F) (K : Dev nD × Option (Fin 4 × Fin 31) → ℕ) (ck : Dev nD × Option (Fin 4 × Fin 31)) :
    (records (F := F) m K : sProp 𝕄) ⊢ cellInv ER (sched m) (K ck) (kcell ck) := by
  have h : (bigSep Finset.univ (fun ck : Dev nD × Option (Fin 4 × Fin 31) => (cellInv ER (sched (F := F) m) (K ck) (kcell ck) : sProp 𝕄)))
      ⊢ cellInv ER (sched (F := F) m) (K ck) (kcell ck) := BI.bigSep_elim (Finset.mem_univ ck)
  unfold records
  iintro ⟨H, -⟩
  iapply h; iexact H

/-- That one cell's round 0 is reached, out of the records. -/
theorem recReached (m : Mem F) (K : Dev nD × Option (Fin 4 × Fin 31) → ℕ) (ck : Dev nD × Option (Fin 4 × Fin 31)) :
    (records (F := F) m K : sProp 𝕄) ⊢ reached ER (kcell ck) 0 := by
  have h : (bigSep Finset.univ (fun ck : Dev nD × Option (Fin 4 × Fin 31) => (reached ER (kcell ck) 0 : sProp 𝕄)))
      ⊢ reached ER (kcell ck) 0 := BI.bigSep_elim (Finset.mem_univ ck)
  unfold records
  iintro ⟨-, H⟩
  iapply h; iexact H

/-- One own cell closed: its round 0 consumed, no later round has a duty. -/
theorem closeOne (m : Mem F) (K : Dev nD × Option (Fin 4 × Fin 31) → ℕ) (c : Dev nD) (k : Fin 4 × Fin 31) :
    iprop(records (F := F) m K ∗ atPos ER (kcell (c, some k)) 1 ∅ 0)
      ⊢ (iprop(|={Set.univ}=> semVal ((c : Thread nD τ), osem k) 0) : sProp 𝕄) :=
  (sep_mono_left (recInv m K (c, some k))).trans
    (Rounds.cell_close ER (sched m) (Set.mem_univ _) (fun h => h) (R := 1) (fun r hr => duties_later m _ r hr))

/-- All 124 own cells closed. -/
theorem closeOwn (m : Mem F) (K : Dev nD × Option (Fin 4 × Fin 31) → ℕ) (c : Dev nD) :
    iprop(records (F := F) m K ∗ bigSep Finset.univ (fun k : Fin 4 × Fin 31 => atPos ER (kcell (c, some k)) 1 ∅ 0))
      ⊢ (iprop(|={Set.univ}=> bigSep Finset.univ (fun k : Fin 4 × Fin 31 => semVal ((c : Thread nD τ), osem k) 0)) : sProp 𝕄) := by
  refine (sep_mono_left (BI.bigSep_of_persistent (Finset.univ : Finset (Fin 4 × Fin 31)) (records (F := F) m K))).trans ?_
  rw [← BI.bigSep_sep']
  exact (BI.bigSep_mono fun k _ => closeOne m K c k).trans (BI.bigSep_fupd _ _)

/-- info: 'Cert.Kernel.CloseCells.closeOwn' depends on axioms: [propext, Classical.choice, Quot.sound] -/
#guard_msgs in #print axioms closeOwn

end Cert.Kernel.CloseCells

end
-- ==== Proof.OpenPre_Bits.lean ====
/-
From what the launch hands a device's thread to the layout its run starts from. Purely structural: the records are
persistent and are read once per cell the run touches; the positions over all of a device's cells are split by kind of
cell; the tokens a device pays with are split by kind of duty; each of the two slotted scratch buffers is cut into its 32
slots, one named and the other 31 indexed by the operation that uses them.
-/
import proofs.«900791_g7700000000000792_dist_gconv1d_cshard_i_b4_s512_c256_v7x_i32_bf16_1_alg».proof.Proof.PreA_Bits
import proofs.«900791_g7700000000000792_dist_gconv1d_cshard_i_b4_s512_c256_v7x_i32_bf16_1_alg».proof.Proof.Slots_Bits
import proofs.«900791_g7700000000000792_dist_gconv1d_cshard_i_b4_s512_c256_v7x_i32_bf16_1_alg».proof.Proof.CloseCells_Bits

noncomputable section

namespace Cert.Kernel.OpenPre

open Cert.Kernel Cert.Kernel.Gen Cert.Kernel.Contents Cert.Kernel.Proto Cert.Kernel.Mid
open Cert.Kernel.PreA Cert.Kernel.CloseCells
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The 32 slots: one named, 31 by operation -/

theorem sl_injOn : Set.InjOn sl (Finset.univ : Finset (Fin 31)) := fun a _ b _ h =>
  Fin.ext (by have hv := congrArg Fin.val h; simp only [sl] at hv; omega)

theorem erase_zero_eq_image_sl : (Finset.univ.erase (0 : Fin 32)) = Finset.univ.image sl := by
  ext j
  simp only [Finset.mem_erase, Finset.mem_univ, and_true, Finset.mem_image, true_and]
  constructor
  · intro hne
    have hj : j.val ≠ 0 := fun h => hne (Fin.ext h)
    exact ⟨⟨j.val - 1, by have := j.isLt; omega⟩, Fin.ext (by simp only [sl]; omega)⟩
  · rintro ⟨r, rfl⟩ h
    have hv := congrArg Fin.val h
    simp only [sl] at hv
    exact absurd hv (by simp)

/-- Slot 0 and the slots `r + 1`. -/
theorem bigSep_slots_sl (Φ : Fin 32 → sProp 𝕄) :
    bigSep Finset.univ Φ = iprop(Φ 0 ∗ bigSep Finset.univ (fun r : Fin 31 => Φ (sl r))) := by
  rw [bigSep_univ_at Φ 0, erase_zero_eq_image_sl, bigSep_image_of_injOn sl_injOn]

theorem dvnb_injOn (c : Dev nD) : Set.InjOn (fun r : Fin 31 => dv (nb c r)) (Finset.univ : Finset (Fin 31)) := fun a _ b _ h =>
  nb_inj_op c (Fin.ext (by have hv := congrArg Fin.val h; simpa only [dv] using hv))

theorem erase_dv_eq_image_nb (c : Dev nD) : (Finset.univ.erase (dv c)) = Finset.univ.image (fun r : Fin 31 => dv (nb c r)) := by
  ext j
  simp only [Finset.mem_erase, Finset.mem_univ, and_true, Finset.mem_image, true_and]
  have hc : c.val < 32 := c.isLt
  have hj := j.isLt
  constructor
  · intro hne
    have hjc : j.val ≠ c.val := fun h => hne (Fin.ext h)
    refine ⟨⟨(j.val + 31 - c.val) % 32, by omega⟩, Fin.ext ?_⟩
    simp only [dv, nb]; omega
  · rintro ⟨r, rfl⟩ h
    have hv := congrArg Fin.val h
    have hr := r.isLt
    simp only [dv, nb] at hv
    omega

/-- The device's own slot and the slots of the devices its operations address. -/
theorem bigSep_slots_nb (c : Dev nD) (Φ : Fin 32 → sProp 𝕄) :
    bigSep Finset.univ Φ = iprop(Φ (dv c) ∗ bigSep Finset.univ (fun r : Fin 31 => Φ (dv (nb c r)))) := by
  rw [bigSep_univ_at Φ (dv c), erase_dv_eq_image_nb, bigSep_image_of_injOn (dvnb_injOn c)]

/-! ## A device's cells, by kind -/

theorem erase_none_eq_map_some : (Finset.univ.erase (none : Option (Fin 4 × Fin 31))) = Finset.univ.map Function.Embedding.some := by
  ext x
  cases x with
  | none => simp
  | some k => simp

/-- The barrier cell, then the four pools. -/
theorem bigSep_cells (Φ : Option (Fin 4 × Fin 31) → sProp 𝕄) :
    bigSep Finset.univ Φ = iprop(Φ none ∗ (bigSep Finset.univ fun r : Fin 31 => Φ (some (0, r))) ∗ (bigSep Finset.univ fun r : Fin 31 => Φ (some (1, r)))
      ∗ (bigSep Finset.univ fun r : Fin 31 => Φ (some (2, r))) ∗ (bigSep Finset.univ fun r : Fin 31 => Φ (some (3, r)))) := by
  rw [bigSep_univ_at Φ none, erase_none_eq_map_some, bigSep_map, bigSep_univ_prod,
    bigSep_univ_eq_bigSepL [(0 : Fin 4), (1 : Fin 4), (2 : Fin 4), (3 : Fin 4)] (by decide) (by decide)]
  rfl

theorem bigSep_sep3 (A B C : Fin 31 → sProp 𝕄) :
    bigSep Finset.univ (fun r => iprop(A r ∗ B r ∗ C r)) = iprop(bigSep Finset.univ A ∗ bigSep Finset.univ B ∗ bigSep Finset.univ C) := by
  rw [bigSep_sep', bigSep_sep']

theorem bigSep_sep5 (A B C D E : Fin 31 → sProp 𝕄) :
    bigSep Finset.univ (fun r => iprop(A r ∗ B r ∗ C r ∗ D r ∗ E r))
      = iprop(bigSep Finset.univ A ∗ bigSep Finset.univ B ∗ bigSep Finset.univ C ∗ bigSep Finset.univ D ∗ bigSep Finset.univ E) := by
  rw [bigSep_sep', bigSep_sep', bigSep_sep', bigSep_sep']

/-! ## The facts about the cells an operation touches, off the records -/

instance cellsOf_persistent (m : Mem F) (K : Dev nD × Option (Fin 4 × Fin 31) → ℕ) (c : Dev nD) (r : Fin 31) :
    BI.Persistent (cellsOf (F := F) m K c r) := by unfold cellsOf; infer_instance

theorem recCells (m : Mem F) (K : Dev nD × Option (Fin 4 × Fin 31) → ℕ) (c : Dev nD) (r : Fin 31) :
    (records (F := F) m K : sProp 𝕄) ⊢ cellsOf m K c r := by
  unfold cellsOf
  iintro #H
  isplitr; · iapply (recInv m K (nb c r, none)); iexact H
  isplitr; · iapply (recReached m K (nb c r, none)); iexact H
  isplitr; · iapply (recInv m K (c, some (0, r))); iexact H
  isplitr; · iapply (recReached m K (c, some (0, r))); iexact H
  isplitr; · iapply (recInv m K (nb c r, some (1, rev r))); iexact H
  isplitr; · iapply (recReached m K (nb c r, some (1, rev r))); iexact H
  isplitr; · iapply (recReached m K (c, some (1, r))); iexact H
  iapply (recReached m K (c, some (3, rev r))); iexact H

theorem recCellsAll (m : Mem F) (K : Dev nD × Option (Fin 4 × Fin 31) → ℕ) (c : Dev nD) :
    (records (F := F) m K : sProp 𝕄) ⊢ chain31 (cellsOf m K c) := by
  rw [← chain31_eq]
  exact bigSep_intro_persistent fun r _ => recCells m K c r

/-! ## A scratch buffer as its slots -/

/-- A whole 32-slot buffer at contents `f`, as its 32 slots. -/
theorem whole_slots (B : Memref sig .tc .vmem S32x64x256 .bf16) (hB : B.view.set = Finset.univ) (c : Dev nD) (f : Buf (Elt F) (B.view.loc (c : Thread nD τ))) :
    ((B.view.loc (c : Thread nD τ)) ↦{fullShare} f : sProp 𝕄) = bigSep Finset.univ (fun j : Fin 32 => slotPts B c j fullShare f) := by
  have h := Slots.pointsTo_slots (Ix := Unit) (Val := Elt F) (Name := ℕ) (U := UU) (Lvl := ℕ) B c fullShare f
  rw [hB] at h
  exact h

/-! ## Joining families -/

theorem toChain (A : Fin 31 → sProp 𝕄) : bigSep Finset.univ A ⊢ chain31 A := Entails.of_eq (chain31_eq A)
theorem join2 (A B : Fin 31 → sProp 𝕄) :
    iprop(bigSep Finset.univ A ∗ bigSep Finset.univ B) ⊢ bigSep Finset.univ (fun r => iprop(A r ∗ B r)) :=
  Entails.of_eq (bigSep_sep' _ A B).symm
theorem join2c (A B : Fin 31 → sProp 𝕄) :
    iprop(bigSep Finset.univ A ∗ bigSep Finset.univ B) ⊢ chain31 (fun r => iprop(A r ∗ B r)) :=
  (join2 A B).trans (toChain _)
theorem join3 (A B C : Fin 31 → sProp 𝕄) :
    iprop(bigSep Finset.univ A ∗ bigSep Finset.univ B ∗ bigSep Finset.univ C) ⊢ bigSep Finset.univ (fun r => iprop(A r ∗ B r ∗ C r)) :=
  Entails.of_eq (bigSep_sep3 A B C).symm

/-! ## The layout -/

/-- What the launch hands device `c`'s thread, what it owes, and the staging buffers: laid out for the run. -/
theorem openPre (m : Mem F) (c : Dev nD) (s : Buf (Elt F) ((c : Thread nD τ).loc cc0_stg3_0)) (W : Waits sig Unit) :
    iprop(Φ₀ (F := F) m c ∗ owes (c : Thread nD τ) (O₀ c) W ∗ staging m c s)
      ⊢ (iprop(∃ K f0 f1 f2, PreA (F := F) m K c s W f0 f1 f2) : sProp 𝕄) := by
  unfold Φ₀ start ghost linear payToks scr
  iintro ⟨⟨⟨⟨%K, #Hrec, Hpos, Htok⟩, Hcb, Hcr, Hca, #Hlev⟩, ⟨%f0, H0⟩, ⟨%f1, H1⟩, ⟨%f2, H2⟩⟩, HO, Hst⟩
  ihave Hpos' := (Entails.of_eq (bigSep_cells fun j : Option (Fin 4 × Fin 31) => (atPos ER (kcell (c, j)) 0 ∅ 0 : sProp 𝕄))) $$ Hpos
  icases Hpos' with ⟨Hpb, Hp0, Hp1, Hp2, Hp3⟩
  ihave Htok' := (Entails.of_eq (bigSep_sep5 (fun r : Fin 31 => (dutyTok ER (bar (nb c r)) 0 r : sProp 𝕄))
    (fun r : Fin 31 => (dutyTok ER (rsR (nb c r) (rev r)) 0 0 : sProp 𝕄)) (fun r : Fin 31 => (dutyTok ER (rsS c r) 0 0 : sProp 𝕄))
    (fun r : Fin 31 => (dutyTok ER (agR (nb c r) r) 0 0 : sProp 𝕄)) (fun r : Fin 31 => (dutyTok ER (agS c r) 0 0 : sProp 𝕄)))) $$ Htok
  icases Htok' with ⟨Ht1, Ht2, Ht3, Ht4, Ht5⟩
  ihave H1a := (Entails.of_eq (whole_slots rsB (View.set_whole _) c f1)) $$ H1
  ihave H1b := (Entails.of_eq (bigSep_slots_sl fun j : Fin 32 => slotPts (F := F) rsB c j fullShare f1)) $$ H1a
  icases H1b with ⟨H10, H1r⟩
  ihave H2a := (Entails.of_eq (whole_slots agB (View.set_whole _) c f2)) $$ H2
  ihave H2b := (Entails.of_eq (bigSep_slots_nb c fun j : Fin 32 => slotPts (F := F) agB c j fullShare f2)) $$ H2a
  icases H2b with ⟨H2c, H2r⟩
  iexists K, f0, f1, f2
  unfold PreA
  isplitr; · iexact Hrec
  isplitr; · iexact Hlev
  isplitr; · iapply (recInv m K (c, none)); iexact Hrec
  isplitr; · iapply (recCellsAll m K c); iexact Hrec
  isplitl [Ht1]; · iapply (toChain _); iexact Ht1
  isplitl [Ht3 Ht2]
  · iapply (join2c (fun r : Fin 31 => (dutyTok ER (rsS c r) 0 0 : sProp 𝕄)) (fun r : Fin 31 => (dutyTok ER (rsR (nb c r) (rev r)) 0 0 : sProp 𝕄)))
    isplitl [Ht3]; · iexact Ht3
    iexact Ht2
  isplitl [Ht5 Ht4]
  · iapply (join2 (fun r : Fin 31 => (dutyTok ER (agS c r) 0 0 : sProp 𝕄)) (fun r : Fin 31 => (dutyTok ER (agR (nb c r) r) 0 0 : sProp 𝕄)))
    isplitl [Ht5]; · iexact Ht5
    iexact Ht4
  isplitl [Hpb]; · iexact Hpb
  isplitl [Hp1]; · iexact Hp1
  isplitl [Hp0 Hp2 Hp3]
  · iapply (join3 (fun r : Fin 31 => (atPos ER (rsS c r) 0 ∅ 0 : sProp 𝕄)) (fun r : Fin 31 => (atPos ER (agS c r) 0 ∅ 0 : sProp 𝕄))
      (fun r : Fin 31 => (atPos ER (agR c r) 0 ∅ 0 : sProp 𝕄)))
    isplitl [Hp0]; · iexact Hp0
    isplitl [Hp2]; · iexact Hp2
    iexact Hp3
  isplitl [Hcb]; · iexact Hcb
  isplitl [Hcr]; · iexact Hcr
  isplitl [Hca]; · iexact Hca
  isplitl [H0]; · iexact H0
  isplitl [H1r]; · iapply (toChain _); iexact H1r
  isplitl [H10]; · iexact H10
  isplitl [H2r]; · iapply (toChain _); iexact H2r
  isplitl [H2c]; · iexact H2c
  isplitl [HO]; · iexact HO
  iexact Hst

/-- info: 'Cert.Kernel.OpenPre.openPre' depends on axioms: [propext, Classical.choice, Quot.sound] -/
#guard_msgs in #print axioms openPre

end Cert.Kernel.OpenPre

end
-- ==== Proof.DevEqs_Bits.lean ====
/-
The devices and slots the body's unrolled chains name, in closed form. Each of the body's 93 device chains adds
((N - 1) mod 31) + 1 to the device's own position modulo 32: it is the forward neighbour at that distance. Each of the
31 source slices of the reduce-scatter's copies is the slot at that neighbour's position, and the all-gather's source
slice is the slot at the device's own position.
-/
import proofs.«900791_g7700000000000792_dist_gconv1d_cshard_i_b4_s512_c256_v7x_i32_bf16_1_alg».proof.Proof.Proto_Bits

namespace Cert.Kernel.DevEqs

open Idealize.ShloMosaic Cert.Kernel Cert.Kernel.Gen Cert.Kernel.Proto

open Lean Elab Command in
/-- Declares, for N = 1 … 93, the equation between the device the N-th chain names and the forward neighbour it is. -/
elab "declare_dev_eqs" : command => do
  for N in [1:94] do
    let r := (N - 1) % 31
    let nm := mkIdent (Name.mkSimple s!"dev{N}_eq")
    let dv := mkIdent (Name.mkSimple s!"k0_dev{N}")
    let lt := mkIdent (Name.mkSimple s!"k0_dev{N}_lt")
    let eq := mkIdent (Name.mkSimple s!"k0_dev{N}_eq")
    let rlit := Syntax.mkNumLit (toString r)
    elabCommand (← `(command| @[sl_canon] theorem $nm (c : Dev nD) : (⟨$dv c, $lt c⟩ : Dev nD) = nb c ⟨$rlit, by decide⟩ := Fin.ext ($eq c)))

declare_dev_eqs

/-- The source slice of the reduce-scatter's copy `r` is the slot at the position of the neighbour it goes to. -/
theorem slot_off2 (B : Memref sig .tc .vmem S32x64x256 .bf16) (c : Dev nD) (r : Fin 31)
    (h : ∀ a, (k0_off2 c (BitVec.ofNat 32 (1 + r.val))) a + S1x64x256.size a ≤ S32x64x256.size a)
    (hs : ∀ a, (Rect.unit (s := S32x64x256) (k0_off2 c (BitVec.ofNat 32 (1 + r.val))) S1x64x256.size h).stride a = 1) :
    (B.slice (Rect.unit (s := S32x64x256) (k0_off2 c (BitVec.ofNat 32 (1 + r.val))) S1x64x256.size h) hs).squeeze S64x256 squeezes_S1x64x256_S64x256
      = slotM B (dv (nb c r)) := by
  have e : k0_off2 c (BitVec.ofNat 32 (1 + r.val)) = ![(dv (nb c r)).val, 0, 0] := k0_off2_eq c r
  exact congrArg (fun m => Memref.squeeze m S64x256 squeezes_S1x64x256_S64x256) (Memref.slice_unit_congr B e h (slot_inb _) hs (fun _ => rfl))

/-- The all-gather's source slice is the slot at the device's own position. -/
theorem slot_off3 (B : Memref sig .tc .vmem S32x64x256 .bf16) (c : Dev nD)
    (h : ∀ a, (k0_off3 c) a + S1x64x256.size a ≤ S32x64x256.size a)
    (hs : ∀ a, (Rect.unit (s := S32x64x256) (k0_off3 c) S1x64x256.size h).stride a = 1) :
    (B.slice (Rect.unit (s := S32x64x256) (k0_off3 c) S1x64x256.size h) hs).squeeze S64x256 squeezes_S1x64x256_S64x256
      = slotM B (dv c) := by
  have e : k0_off3 c = ![(dv c).val, 0, 0] := k0_off3_eq c
  exact congrArg (fun m => Memref.squeeze m S64x256 squeezes_S1x64x256_S64x256) (Memref.slice_unit_congr B e h (slot_inb _) hs (fun _ => rfl))

attribute [sl_canon] slot_off3

open Lean Elab Command in
/-- Declares, for r = 0 … 30, `slot_off2` at the literal word r + 1 the body passes the chain. -/
elab "declare_slot_eqs" : command => do
  for r in [0:31] do
    let nm := mkIdent (Name.mkSimple s!"srcSlot{r}_eq")
    let rlit := Syntax.mkNumLit (toString r)
    let wlit := Syntax.mkNumLit (toString (r + 1))
    elabCommand (← `(command| @[sl_canon] theorem $nm (B : Memref sig .tc .vmem S32x64x256 .bf16) (c : Dev nD)
        (h : ∀ a, (k0_off2 c (BitVec.ofNat 32 $wlit)) a + S1x64x256.size a ≤ S32x64x256.size a)
        (hs : ∀ a, (Rect.unit (s := S32x64x256) (k0_off2 c (BitVec.ofNat 32 $wlit)) S1x64x256.size h).stride a = 1) :
        (B.slice (Rect.unit (s := S32x64x256) (k0_off2 c (BitVec.ofNat 32 $wlit)) S1x64x256.size h) hs).squeeze S64x256 squeezes_S1x64x256_S64x256
          = slotM B (dv (nb c ⟨$rlit, by decide⟩)) := slot_off2 B c ⟨$rlit, by decide⟩ h hs))

declare_slot_eqs

/-- info: 'Cert.Kernel.DevEqs.srcSlot30_eq' depends on axioms: [propext, Classical.choice, Quot.sound] -/
#guard_msgs in #print axioms srcSlot30_eq

end Cert.Kernel.DevEqs
-- ==== Proof.Levels_Bits.lean ====
/-
The deadlock argument of the thirty-two-device kernel: the level of every cell, that everything a device
owes lies at the level its kind has (barrier units at 1, reduce-scatter receive credits at 2, all-gather
receive credits at 3), and from these the evidence each wait of the body presents: a wait is allowed
at a cell whose level is below everything the waiting device still owes. Staging and send cells sit at
level 0, below every unit owed; the barrier wait comes when only receive credits are owed; a
reduce-scatter receive wait when only all-gather credits are; every later wait when nothing is.
-/
import proofs.«900791_g7700000000000792_dist_gconv1d_cshard_i_b4_s512_c256_v7x_i32_bf16_1_alg».proof.Proof.Proto_Bits
import Idealize.ShloMosaic.Lib.Pipeline.Launch

noncomputable section

namespace Cert.Kernel.Levels

open Cert.Kernel Cert.Kernel.Gen Cert.Kernel.Contents Cert.Kernel.Proto
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Which cells have a level, and which -/

/-- Every cell of a TensorCore thread has a level at its one index. -/
theorem L_tc (c : Dev nD) (sm : SemLoc sig) : L ((c : Thread nD τ), sm) = {()} := if_pos rfl
theorem mem_L_tc (c : Dev nD) (sm : SemLoc sig) (u : Unit) : u ∈ L ((c : Thread nD τ), sm) := by
  rw [L_tc]; exact Finset.mem_singleton.mpr rfl

/-- A regular semaphore's cell — the barrier cell is the only one — sits at level 1. -/
theorem lv_reg (t : Thread nD τ) (s : Sem sig) (u : Unit) : lv (t, .reg s) u = 1 := rfl
theorem lv_bar (c : Dev nD) (u : Unit) : lv (bar c) u = 1 := rfl

/-- A transfer cell of the protocol sits at the level of its pool: receive pools at 2 and 3, send pools at 0. -/
theorem lv_own (t : Thread nD τ) (p : Fin 4) (r : Fin 31) (u : Unit) :
    lv (t, .dma (dsem p r)) u = if p.val = 1 then 2 else if p.val = 3 then 3 else 0 := by
  dsimp only [lv]
  rw [if_pos (isOwn_dsem p r), poolOf_dsem]
theorem lv_rsS (c : Dev nD) (r : Fin 31) (u : Unit) : lv (rsS c r) u = 0 := lv_own _ 0 r u
theorem lv_rsR (c : Dev nD) (r : Fin 31) (u : Unit) : lv (rsR c r) u = 2 := lv_own _ 1 r u
theorem lv_agS (c : Dev nD) (r : Fin 31) (u : Unit) : lv (agS c r) u = 0 := lv_own _ 2 r u
theorem lv_agR (c : Dev nD) (r : Fin 31) (u : Unit) : lv (agR c r) u = 3 := lv_own _ 3 r u

/-- The four staging cells, and any transfer cell outside the protocol's, sit at level 0. -/
theorem lv_not_own (t : Thread nD τ) (q : DmaSem sig) (hq : ¬IsOwn q) (u : Unit) : lv (t, .dma q) u = 0 := by
  dsimp only [lv]
  rw [if_neg hq]
theorem lv_stage (t : Thread nD τ) (q : DmaSem sig) (hq : q.val < 4) (u : Unit) : lv (t, .dma q) u = 0 :=
  lv_not_own t q (fun h => by have := h.1; omega) u

/-! ## Everything owed lies above a level -/

/-- Every unit of `O` is owed at a cell that has a level, above `b`. -/
def Above (b : ℕ) (O : CellTallies nD τ sig Unit) : Prop :=
  ∀ (g : GSem nD τ sig) (u : Unit), 0 < O g u → u ∈ L g ∧ b < lv g u

theorem Above.zero (b : ℕ) : Above b (0 : CellTallies nD τ sig Unit) := fun g u h => by
  rw [Pi.zero_apply, Finsupp.zero_apply] at h; exact absurd h (Nat.lt_irrefl 0)

theorem Above.add {b : ℕ} {O₁ O₂ : CellTallies nD τ sig Unit} (h₁ : Above b O₁) (h₂ : Above b O₂) : Above b (O₁ + O₂) :=
  fun g u h => (Pipeline.add_pos_cases h).elim (h₁ g u) (h₂ g u)

theorem Above.mono {b b' : ℕ} {O : CellTallies nD τ sig Unit} (hb : b' ≤ b) (h : Above b O) : Above b' O :=
  fun g u hg => ⟨(h g u hg).1, Nat.lt_of_le_of_lt hb (h g u hg).2⟩

/-- Units at one cell of a TensorCore thread. -/
theorem Above.tallyAt {b : ℕ} (c : Dev nD) (sm : SemLoc sig) (k : ℕ) (hb : b < lv ((c : Thread nD τ), sm) ()) :
    Above b (tallyAt ((c : Thread nD τ), sm) () k) := fun g u h => by
  obtain ⟨rfl, rfl⟩ := Pipeline.tallyAt_pos h
  exact ⟨mem_L_tc c sm (), hb⟩

/-- The barrier units a device owes are above level 0. -/
theorem above_owedSig (c : Dev nD) (n : ℕ) : Above 0 (owedSig c n) := by
  induction n with
  | zero => exact Above.zero 0
  | succ n ih =>
    rw [owedSig_succ]
    exact ih.add (Above.tallyAt (nb c (opAt n)) _ 1 (by rw [lv_reg]; decide))

/-- The reduce-scatter receive credits it owes are above level 1. -/
theorem above_owedRs (c : Dev nD) (n : ℕ) : Above 1 (owedRs c n) := by
  induction n with
  | zero => exact Above.zero 1
  | succ n ih =>
    rw [owedRs_succ]
    exact ih.add (Above.tallyAt (nb c (opAt n)) _ N (by rw [lv_rsR (nb c (opAt n)) (rev (opAt n)) ()]; decide))

/-- The all-gather receive credits it owes are above level 2. -/
theorem above_owedAg (c : Dev nD) (n : ℕ) : Above 2 (owedAg c n) := by
  induction n with
  | zero => exact Above.zero 2
  | succ n ih =>
    rw [owedAg_succ]
    exact ih.add (Above.tallyAt (nb c (opAt n)) _ N (by rw [lv_agR (nb c (opAt n)) (opAt n) ()]; decide))

/-- What a device owes at launch is above level 0. -/
theorem above_O₀ (c : Dev nD) : Above 0 (O₀ c) :=
  (((above_owedAg c 31).mono (by decide)).add ((above_owedRs c 31).mono (by decide))).add (above_owedSig c 31)

/-- Once the signals are sent, what is left is above level 1 … -/
theorem above_afterSig (c : Dev nD) (a b : ℕ) : Above 1 (owedAg c a + owedRs c b) :=
  ((above_owedAg c a).mono (by decide)).add (above_owedRs c b)

/-! ## The waits -/

/-- A wait on a cell at or below level `b`, by a device all of whose owed units are above `b`. -/
theorem mayWait_of_above (c : Dev nD) (s : SemLoc sig) (b : ℕ) (hs : lv ((c : Thread nD τ), s) () ≤ b)
    {O : CellTallies nD τ sig Unit} (hO : Above b O) :
    (levAts L lv : sProp 𝕄) ⊢ MayWait (c : Thread nD τ) s () O :=
  MayOwe.of_cut (L := L) (lev := lv) b
    (fun p hp => by rw [Finset.mem_singleton.mp hp]; exact mem_L_tc c s ())
    (fun g u hg => (hO g u hg).1)
    (fun p hp => by rw [Finset.mem_singleton.mp hp]; exact hs)
    (fun g u hg => (hO g u hg).2)

/-- A device that owes nothing may wait anywhere. -/
theorem mayWait_zero (c : Dev nD) (s : SemLoc sig) :
    (levAts L lv : sProp 𝕄) ⊢ MayWait (c : Thread nD τ) s () 0 := by
  rw [MayWait_zero]; iintro -; iempintro

/-- A staging cell's wait, before the point (everything still owed) or after it (nothing owed). -/
theorem mayWait_stage (c : Dev nD) (q : DmaSem sig) (hq : q.val < 4) (O : CellTallies nD τ sig Unit) (hO : O = O₀ c ∨ O = 0) :
    (levAts L lv : sProp 𝕄) ⊢ MayWait (c : Thread nD τ) (.dma q) () O := by
  rcases hO with rfl | rfl
  · exact mayWait_of_above c _ 0 (Nat.le_of_eq (lv_stage _ q hq ())) (above_O₀ c)
  · exact mayWait_zero c _

/-- The staging cells' waits, for every window, buffer and point. -/
theorem waits (m : Mem F) (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-- The barrier wait: the signals are sent, only receive credits are owed. -/
theorem mayWait_bar (c : Dev nD) (a b : ℕ) :
    (levAts L lv : sProp 𝕄) ⊢ MayWait (c : Thread nD τ) (.reg barS) () (owedAg c a + owedRs c b) :=
  mayWait_of_above c _ 1 (Nat.le_of_eq (lv_reg _ _ ())) (above_afterSig c a b)

/-- The same with the exhausted signals' bracket still standing in the sum. -/
theorem mayWait_bar' (c : Dev nD) (a b : ℕ) :
    (levAts L lv : sProp 𝕄) ⊢ MayWait (c : Thread nD τ) (.reg barS) () (owedAg c a + owedRs c b + owedSig c 0) :=
  mayWait_of_above c _ 1 (Nat.le_of_eq (lv_reg _ _ ())) ((above_afterSig c a b).add (Above.zero 1))

/-- A reduce-scatter receive wait: the reduce-scatter's transfers are sent, only all-gather credits are owed. -/
theorem mayWait_rsR (c : Dev nD) (r : Fin 31) (a : ℕ) :
    (levAts L lv : sProp 𝕄) ⊢ MayWait (c : Thread nD τ) (osem (1, r)) () (owedAg c a) :=
  mayWait_of_above c _ 2 (Nat.le_of_eq (lv_own _ 1 r ())) (above_owedAg c a)

/-- The same with the exhausted brackets still standing in the sum. -/
theorem mayWait_rsR' (c : Dev nD) (r : Fin 31) (a : ℕ) :
    (levAts L lv : sProp 𝕄) ⊢ MayWait (c : Thread nD τ) (osem (1, r)) () (owedAg c a + owedRs c 0) :=
  mayWait_of_above c _ 2 (Nat.le_of_eq (lv_own _ 1 r ())) ((above_owedAg c a).add (Above.zero 2))
theorem mayWait_rsR'' (c : Dev nD) (r : Fin 31) (a : ℕ) :
    (levAts L lv : sProp 𝕄) ⊢ MayWait (c : Thread nD τ) (osem (1, r)) () (owedAg c a + owedRs c 0 + owedSig c 0) :=
  mayWait_of_above c _ 2 (Nat.le_of_eq (lv_own _ 1 r ())) (((above_owedAg c a).add (Above.zero 2)).add (Above.zero 2))

/-- The barrier wait as the body meets it: all thirty-one transfers of each kind still owed. -/
theorem mayWait_bar31 (c : Dev nD) :
    (levAts L lv : sProp 𝕄) ⊢ MayWait (c : Thread nD τ) (.reg barS) () (owedAg c 31 + owedRs c 31) :=
  mayWait_bar c 31 31

/-- A reduce-scatter receive wait as the body meets it, the cell spelt by its semaphore's number. -/
theorem mayWait_rsR31 (c : Dev nD) (r : Fin 31) :
    (levAts L lv : sProp 𝕄) ⊢ MayWait (c : Thread nD τ) (.dma (dsem 1 r)) () (owedAg c 31) :=
  mayWait_rsR c r 31

/-- info: 'Cert.Kernel.Levels.waits' depends on axioms: [propext, Classical.choice, Quot.sound] -/
#guard_msgs in #print axioms waits

/-- info: 'Cert.Kernel.Levels.mayWait_bar' depends on axioms: [propext, Classical.choice, Quot.sound] -/
#guard_msgs in #print axioms mayWait_bar

/-- info: 'Cert.Kernel.Levels.mayWait_rsR' depends on axioms: [propext, Classical.choice, Quot.sound] -/
#guard_msgs in #print axioms mayWait_rsR

end Cert.Kernel.Levels

end
-- ==== Proof.Landing_Bits.lean ====
/-
What a transfer into a slot leaves there. Slot `j` of a 32-slot buffer is the unit rectangle at [j, 0, 0] with its
unit axis dropped, so its view places (row, column) at element (j, row, column) of the buffer. A transfer from slot
`s` of a buffer holding `fs` into slot `j` therefore leaves, on slot `j`, the contents `(j, row, column) ↦
fs (s, row, column)`. The reduce-scatter's operation `r` of device `c` lands chunk `c + r + 1` of `c`'s partial
product in slot `31 - r` of device `c + r + 1`, which is where the receive buffer of that device, every slot landed,
holds it (`(c + r + 1) + (31 - r) = c` around the mesh of 32). The all-gather's lands the sender's own slot in the
same slot of the receiver.
-/
import proofs.«900791_g7700000000000792_dist_gconv1d_cshard_i_b4_s512_c256_v7x_i32_bf16_1_alg».proof.Proof.Proto_Bits
import Idealize.ShloMosaic.Lib.Pipeline.Value
import Idealize.ShloMosaic.Lib.ValueIdx

noncomputable section

namespace Cert.Kernel.Landing

open Cert.Kernel Cert.Kernel.Gen Cert.Kernel.Contents Cert.Kernel.Proto
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Where a slot's view places its indices -/

/-- [64, 256] read as [1, 64, 256]: (row, column) is (0, row, column). -/
theorem unsqueeze_apply (r : Fin 64) (n : Fin 256) :
    Shape.reshapeEquiv (s := S1x64x256) (s' := S64x256) squeezes_S1x64x256_S64x256.numel_eq (ix2 r n)
      = ix3 (0 : Fin 1) r n :=
  Shape.reshapeEquiv_eq_of_rowMajor _ (by
    show ((⟨3, ![1, 64, 256]⟩ : Shape).rowMajor (ix3 (0 : Fin 1) r n)).val
      = ((⟨2, ![64, 256]⟩ : Shape).rowMajor (ix2 r n)).val
    rw [Shape.rowMajor_val_three, Shape.rowMajor_val_two]
    show (0 * 64 + r.val) * 256 + n.val = r.val * 256 + n.val
    omega)

/-- Slot `j`'s rectangle places (0, row, column) at (j, row, column). -/
theorem slotRect_emb (j : Fin 32) (r : Fin 64) (n : Fin 256) :
    (Rect.unit (s := S32x64x256) ![j.val, 0, 0] S1x64x256.size (slot_inb j)).emb (ix3 (0 : Fin 1) r n) = ix3 j r n := by
  funext a
  apply Fin.ext
  match a with
  | ⟨0, _⟩ => show j.val + 1 * 0 = j.val; omega
  | ⟨1, _⟩ => show 0 + 1 * r.val = r.val; omega
  | ⟨2, _⟩ => show 0 + 1 * n.val = n.val; omega

/-- Slot `j`'s view places (row, column) at element (j, row, column) of the buffer's view. -/
theorem emb_slot (B : Memref sig .tc .vmem S32x64x256 .bf16) (j : Fin 32) (r : Fin 64) (n : Fin 256) :
    (slotM B j).view.emb (ix2 r n) = B.view.emb (ix3 j r n) := by
  show B.view.emb ((Rect.unit (s := S32x64x256) ![j.val, 0, 0] S1x64x256.size (slot_inb j)).emb
      (Shape.reshapeEquiv (s := S1x64x256) (s' := S64x256) squeezes_S1x64x256_S64x256.numel_eq (ix2 r n))) = _
  rw [unsqueeze_apply, slotRect_emb]

/-- Every element under a slot's view is the image of a (row, column). -/
theorem exists_rc_of_mem (B : Memref sig .tc .vmem S32x64x256 .bf16) (j : Fin 32) {i : (slotM B j).view.ty.Idx}
    (hi : i ∈ (slotM B j).view.set) : ∃ (r : Fin 64) (n : Fin 256), (slotM B j).view.emb (ix2 r n) = i := by
  obtain ⟨y, rfl⟩ := View.exists_emb_of_mem_set _ hi
  exact ⟨y 0, y 1, congrArg _ (eq_ix2 y).symm⟩

/-- Around the mesh: `(c + r + 1) + (31 - r) = c`. -/
theorem rot_nb_sl_rev (c : Dev nD) (r : Fin 31) : rot (nb c r) (sl (rev r)) = c := by
  apply Fin.ext
  have hc : c.val < 32 := c.isLt
  have hr := r.isLt
  show ((c.val + r.val + 1) % 32 + (30 - r.val + 1)) % 32 = c.val
  omega

/-! ## What a transfer leaves on a slot -/

/-- A transfer into slot `j` from the same slot of a buffer holding `fs` leaves `fs` on the slot. -/
theorem write_read_same (B : Memref sig .tc .vmem S32x64x256 .bf16) (j : Fin 32)
    (fd fs : (slotM B j).view.ty.Contents (Elt F)) (i : (slotM B j).view.ty.Idx) (hi : i ∈ (slotM B j).view.set) :
    (slotM B j).view.write (Elt F) fd ((slotM B j).view.read (Elt F) fs) Finset.univ i = fs i := by
  obtain ⟨y, rfl⟩ := View.exists_emb_of_mem_set _ hi
  rw [View.write_emb_of_mem _ _ (Finset.mem_univ y), View.read_apply, cast_cast, cast_eq]

/-- The reduce-scatter's operation `r` of device `c`, landed on device `c + r + 1`: the slot holds what that device's
    receive buffer, every slot landed, holds there. -/
theorem rs_landed_apply (m : Mem F) (c : Dev nD) (r : Fin 31) (fd : (slotM rsB (sl (rev r))).view.ty.Contents (Elt F))
    (i : (slotM rsB (sl (rev r))).view.ty.Idx) (hi : i ∈ (slotM rsB (sl (rev r))).view.set) :
    (slotM rsB (sl (rev r))).view.write (Elt F) fd ((slotM srcB (dv (nb c r))).view.read (Elt F) (P m c)) Finset.univ i
      = rsAll (P m) (nb c r) i := by
  obtain ⟨ro, n, rfl⟩ := exists_rc_of_mem rsB (sl (rev r)) hi
  rw [View.write_emb_of_mem _ _ (Finset.mem_univ _), View.read_apply, cast_cast, cast_eq, emb_slot, emb_slot]
  show P m c (ix3 (dv (nb c r)) ro n) = P m (rot (nb c r) (sl (rev r))) (ix3 (nb c r) ro n)
  rw [rot_nb_sl_rev]
  rfl

theorem rs_landed (m : Mem F) (c : Dev nD) (r : Fin 31) (fd : (slotM rsB (sl (rev r))).view.ty.Contents (Elt F)) :
    ((slotM rsB (sl (rev r))).view.loc ((nb c r : Dev nD) : Thread nD τ) ↦[(slotM rsB (sl (rev r))).view.set]{fullShare}
        ((slotM rsB (sl (rev r))).view.write (Elt F) fd ((slotM srcB (dv (nb c r))).view.read (Elt F) (P m c))
          Finset.univ) : sProp 𝕄)
      ⊢ rsRPay m (nb c r) (rev r) := by
  unfold rsRPay
  exact Entails.of_eq (pointsTo_congr fun i hi => rs_landed_apply m c r fd i hi)

/-- The all-gather's operation `r` of device `c`, landed on device `c + r + 1`: slot `c` there holds device `c`'s chunk. -/
theorem ag_landed (m : Mem F) (c : Dev nD) (r : Fin 31) (fd : (slotM agB (dv c)).view.ty.Contents (Elt F)) :
    ((slotM agB (dv c)).view.loc ((nb c r : Dev nD) : Thread nD τ) ↦[(slotM agB (dv c)).view.set]{fullShare}
        ((slotM agB (dv c)).view.write (Elt F) fd ((slotM agB (dv c)).view.read (Elt F) (agAll (P m))) Finset.univ) :
          sProp 𝕄)
      ⊢ agRPay m (nb c r) r := by
  unfold agRPay
  rw [pb_nb]
  exact Entails.of_eq (pointsTo_congr fun i hi => write_read_same agB (dv c) fd (agAll (P m)) i hi)

/-- info: 'Cert.Kernel.Landing.rs_landed' depends on axioms: [propext, Classical.choice, Quot.sound] -/
#guard_msgs in #print axioms rs_landed

/-- info: 'Cert.Kernel.Landing.ag_landed' depends on axioms: [propext, Classical.choice, Quot.sound] -/
#guard_msgs in #print axioms ag_landed

end Cert.Kernel.Landing

end
-- ==== Proof.RsSend_Bits.lean ====
/-
The reduce-scatter's send, as one step of a device's program: operation `r` of device `c` copies chunk `c + r + 1` of its
partial product into slot `31 - r` of device `c + r + 1`. The step pays the one duty of the sender's send cell (the chunk
comes back to the sender once it has been read) and the one duty of the receiver's receive cell (the slot, holding what the
receiver's buffer holds there once every slot has landed), takes the receive cell's credit off what the sender owes, and
hands the sender the send cell's credit.
-/
import proofs.«900791_g7700000000000792_dist_gconv1d_cshard_i_b4_s512_c256_v7x_i32_bf16_1_alg».proof.Proof.Proto_Bits
import proofs.«900791_g7700000000000792_dist_gconv1d_cshard_i_b4_s512_c256_v7x_i32_bf16_1_alg».proof.Proof.Tables_Bits
import proofs.«900791_g7700000000000792_dist_gconv1d_cshard_i_b4_s512_c256_v7x_i32_bf16_1_alg».proof.Proof.Landing_Bits
import Idealize.ShloMosaic.Lib.Rounds

noncomputable section

namespace Cert.Kernel.RsSend

open Cert.Kernel Cert.Kernel.Gen Cert.Kernel.Contents Cert.Kernel.Proto
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The chunk sent makes the send cell's payload: it is that payload. -/
theorem pay_rsS (m : Mem F) (c : Dev nD) (r : Fin 31) :
    (((slotM srcB (dv (nb c r))).view.loc (c : Thread nD τ)) ↦[(slotM srcB (dv (nb c r))).view.set]{fullShare} (P m c) : sProp 𝕄)
      ⊢ (sched (F := F) m).payload (rsS c r) 0 0 :=
  Entails.of_eq (Tables.payload_rsS m c r 0 0).symm

/-- The slot as the transfer leaves it makes the receive cell's payload. -/
theorem pay_rsR (m : Mem F) (c : Dev nD) (r : Fin 31)
    (fd : Buf (Elt F) ((slotM rsB (sl (rev r))).view.loc ((nb c r : Dev nD) : Thread nD τ))) :
    (((slotM rsB (sl (rev r))).view.loc ((nb c r : Dev nD) : Thread nD τ)) ↦[(slotM rsB (sl (rev r))).view.set]{fullShare}
        ((slotM rsB (sl (rev r))).view.write (Elt F) fd ((slotM srcB (dv (nb c r))).view.read (Elt F) (P m c)) Finset.univ) : sProp 𝕄)
      ⊢ (sched (F := F) m).payload (rsR (nb c r) (rev r)) 0 0 :=
  (Landing.rs_landed m c r fd).trans (Entails.of_eq (Tables.payload_rsR m (nb c r) (rev r) 0 0).symm)

/-- The send step. -/
theorem rs_send (m : Mem F) (c : Dev nD) (r : Fin 31)
    (fd : Buf (Elt F) ((slotM rsB (sl (rev r))).view.loc ((nb c r : Dev nD) : Thread nD τ)))
    {α : Type} (k : PUnit → Prog (TpuEff nD τ sig (Elt F) Λ₀ .tc) α) (Q : α → sProp 𝕄)
    (O : CellTallies nD τ sig Unit) (W : Waits sig Unit) (κ₁ κ₂ : ℕ)
    (hsc : (slotM rsB (sl (rev r))).view.ref.isScScratch = false)
    (hsrc : (slotM srcB (dv (nb c r))).view.WordExact) (hdst : (slotM rsB (sl (rev r))).view.WordExact)
    (hsem : DmaTarget.Typed .vmem (SemLoc.dma (dsem 1 (rev r)))
      (.remote ((nb c r : Dev nD) : Thread nD τ) (slotM rsB (sl (rev r))) (SemLoc.dma (dsem 0 r)) hsc)) :
    iprop(cellInv ER (sched (F := F) m) κ₁ (rsS c r) ∗ cellInv ER (sched (F := F) m) κ₂ (rsR (nb c r) (rev r))
        ∗ slotPts (F := F) srcB c (dv (nb c r)) fullShare (P m c) ∗ slotPts (F := F) rsB (nb c r) (sl (rev r)) fullShare fd
        ∗ owes (c : Thread nD τ) (O + tallyAt (rsR (nb c r) (rev r)) () N) W
        ∗ dutyTok ER (rsS c r) 0 (0 : Fin 31) ∗ reached ER (rsS c r) 0
        ∗ dutyTok ER (rsR (nb c r) (rev r)) 0 (0 : Fin 31) ∗ reached ER (rsR (nb c r) (rev r)) 0)
      ⊢ iprop(((cred (tallyAt (rsS c r) () N) ∗ owes (c : Thread nD τ) O W)
            -∗ wp frame (wpE defs₀ 𝒱₀ (c : Thread nD τ) none) Set.univ (k ⟨⟩) Q)
          -∗ wp frame (wpE defs₀ 𝒱₀ (c : Thread nD τ) none) Set.univ
              (.op (.enqueueDma (slotM srcB (dv (nb c r)))
                (.remote ((nb c r : Dev nD) : Thread nD τ) (slotM rsB (sl (rev r))) (SemLoc.dma (dsem 0 r)) hsc)
                (SemLoc.dma (dsem 1 (rev r))) hsrc hdst hsem) k) Q) :=
  Rounds.wp_send_pointsTo 𝒱₀ ER (sched (F := F) m) (c : Thread nD τ) none
    (c' := ((nb c r : Dev nD) : Thread nD τ)) (src := slotM srcB (dv (nb c r))) (dst := slotM rsB (sl (rev r)))
    (sS := SemLoc.dma (dsem 0 r)) (sem := SemLoc.dma (dsem 1 (rev r)))
    (q := fullShare) (fs := P m c) (fd := fd) (r₁ := 0) (r₂ := 0) (d₁ := (0 : Fin 31)) (d₂ := (0 : Fin 31)) (κ₁ := κ₁) (κ₂ := κ₂)
    (Tables.mem_duties_own m c 0 r) (Tables.mem_duties_own m (nb c r) 1 (rev r)) () () N (dmaCredit_slot_rs (sl (rev r)))
    (Tables.amount_rsS m c r 0 0) (Tables.amount_rsR m (nb c r) (rev r) 0 0) O rfl
    (pay_rsS m c r) (pay_rsR m c r fd)

/-- info: 'Cert.Kernel.RsSend.rs_send' depends on axioms: [propext, Classical.choice, Quot.sound] -/
#guard_msgs in #print axioms rs_send

end Cert.Kernel.RsSend

end
-- ==== Proof.Steps_Bits.lean ====
/-
The two steps a device takes once per operation before it waits: the barrier signal to the neighbour the operation
addresses, and the reduce-scatter's transfer to it. Each is stated once at a symbolic operation, with what the device
owes counted down by the operation's number, and in the curried form in which one line applies it.
-/
import proofs.«900791_g7700000000000792_dist_gconv1d_cshard_i_b4_s512_c256_v7x_i32_bf16_1_alg».proof.Proof.PreA_Bits
import proofs.«900791_g7700000000000792_dist_gconv1d_cshard_i_b4_s512_c256_v7x_i32_bf16_1_alg».proof.Proof.Tables_Bits
import proofs.«900791_g7700000000000792_dist_gconv1d_cshard_i_b4_s512_c256_v7x_i32_bf16_1_alg».proof.Proof.RsSend_Bits

set_option synthInstance.maxSize 4096

noncomputable section

namespace Cert.Kernel.Steps

open Cert.Kernel Cert.Kernel.Gen Cert.Kernel.Contents Cert.Kernel.Proto Cert.Kernel.Tables
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What is owed, counted down -/

/-- With `30 - r` operations left after it, the operation being paid is `r`. -/
theorem opAt_sub (r : Fin 31) : opAt (30 - r.val) = r := Fin.ext (by have := r.isLt; simp only [opAt]; omega)

/-- Before signal `r` the device owes the barrier unit of the neighbour the signal goes to, on top of what it owes after. -/
theorem owed_sig (c : Dev nD) (r : Fin 31) :
    owedAg c 31 + owedRs c 31 + owedSig c (31 - r.val)
      = (owedAg c 31 + owedRs c 31 + owedSig c (30 - r.val)) + tallyAt (bar (nb c r)) () 1 := by
  have h : 31 - r.val = (30 - r.val) + 1 := by have := r.isLt; omega
  rw [h, owedSig_succ, opAt_sub, ← add_assoc]

/-- Before transfer `r` of the reduce-scatter the device owes the receive credit of the cell the transfer credits, on top of
    what it owes after. -/
theorem owed_rs (c : Dev nD) (r : Fin 31) :
    owedAg c 31 + owedRs c (31 - r.val)
      = (owedAg c 31 + owedRs c (30 - r.val)) + tallyAt (rsR (nb c r) (rev r)) () N := by
  have h : 31 - r.val = (30 - r.val) + 1 := by have := r.isLt; omega
  rw [h, owedRs_succ, opAt_sub, ← add_assoc]

/-- With no signal left the signals' bracket is nothing. -/
theorem owes_sig0 (c : Dev nD) (A : CellTallies nD τ sig Unit) (W : Waits sig Unit) :
    (owes (c : Thread nD τ) (A + owedSig c 0) W : sProp 𝕄) ⊢ owes (c : Thread nD τ) A W :=
  Entails.of_eq (by rw [show owedSig c 0 = 0 from rfl, add_zero])
/-- With no transfer of the reduce-scatter left its bracket is nothing. -/
theorem owes_rs0 (c : Dev nD) (A : CellTallies nD τ sig Unit) (W : Waits sig Unit) :
    (owes (c : Thread nD τ) (A + owedRs c 0) W : sProp 𝕄) ⊢ owes (c : Thread nD τ) A W :=
  Entails.of_eq (by rw [show owedRs c 0 = 0 from rfl, add_zero])

/-! ## The barrier signal -/

/-- One barrier signal, operation `r`: the device pays duty `r` of its neighbour's barrier cell with the two slots of its
    own that the neighbour's copies will land in, and owes one unit less. -/
theorem sig_step (m : Mem F) (c : Dev nD) (r : Fin 31) (κ : ℕ)
    (f : Buf (Elt F) ((slotM rsB (sl r)).view.loc (c : Thread nD τ))) (g : Buf (Elt F) ((slotM agB (dv (nb c r))).view.loc (c : Thread nD τ)))
    {α : Type} (k : PUnit → Prog (TpuEff nD τ sig (Elt F) Λ₀ .tc) α) (Q : α → sProp 𝕄)
    (O : CellTallies nD τ sig Unit) (W : Waits sig Unit) :
    iprop(cellInv ER (sched (F := F) m) κ (bar (nb c r)) ∗ owes (c : Thread nD τ) (O + tallyAt (bar (nb c r)) () 1) W
        ∗ dutyTok ER (bar (nb c r)) 0 r
        ∗ slotPts (F := F) rsB c (sl r) fullShare f ∗ slotPts (F := F) agB c (dv (nb c r)) fullShare g
        ∗ reached ER (rsR c r) 0 ∗ reached ER (agR c (rev r)) 0
        ∗ reached ER (bar (nb c r)) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal ((nb c r : Dev nD) : Thread nD τ) barS 1) k) Q) := by
  iintro ⟨#HI, HO, Htok, Hs, Hg, #Hr1, #Hr2, #Hr⟩
  iapply (Rounds.wp_signal 𝒱₀ ER (sched (F := F) m) (c : Thread nD τ) none (dst := ((nb c r : Dev nD) : Thread nD τ)) (sem := barS) (r := 0) (d := r) (k' := 1)
    (mem_duties_bar m (nb c r) r) (amount_bar m (nb c r) 0 r) () O rfl) $$ [HO Htok Hs Hg]
  isplitr; · iexact HI
  isplitl [HO]; · iexact HO
  isplitl [Htok]; · iexact Htok
  isplitl [Hs Hg]
  · rw [payload_bar_nb]
    isplitl [Hs]; · iexists f; iexact Hs
    isplitl [Hg]; · iexists g; iexact Hg
    isplitr; · iexact Hr1
    iexact Hr2
  iexact Hr

/-- The same, curried, with what is owed counted down by the operation's number. -/
theorem sig_step' (m : Mem F) (c : Dev nD) (r : Fin 31) (κ : ℕ)
    (f : Buf (Elt F) ((slotM rsB (sl r)).view.loc (c : Thread nD τ))) (g : Buf (Elt F) ((slotM agB (dv (nb c r))).view.loc (c : Thread nD τ)))
    {α : Type} (k : PUnit → Prog (TpuEff nD τ sig (Elt F) Λ₀ .tc) α) (Q : α → sProp 𝕄) (W : Waits sig Unit) :
    ⊢ (iprop(cellInv ER (sched (F := F) m) κ (bar (nb c r))
        -∗ owes (c : Thread nD τ) (owedAg c 31 + owedRs c 31 + owedSig c (31 - r.val)) W
        -∗ dutyTok ER (bar (nb c r)) 0 r
        -∗ slotPts (F := F) rsB c (sl r) fullShare f -∗ slotPts (F := F) agB c (dv (nb c r)) fullShare g
        -∗ reached ER (rsR c r) 0 -∗ reached ER (agR c (rev r)) 0 -∗ reached ER (bar (nb c r)) 0
        -∗ (owes (c : Thread nD τ) (owedAg c 31 + owedRs c 31 + owedSig c (30 - r.val)) W -∗ wp frame (wpE (defs₀ (F := F)) 𝒱₀ (c : Thread nD τ) none) Set.univ (k ⟨⟩) Q)
        -∗ wp frame (wpE (defs₀ (F := F)) 𝒱₀ (c : Thread nD τ) none) Set.univ (.op (.semSignal ((nb c r : Dev nD) : Thread nD τ) barS 1) k) Q) : sProp 𝕄) := by
  rw [owed_sig c r]
  iintro HI HO Htok Hs Hg Hr1 Hr2 Hr Hk
  iapply (sig_step m c r κ f g k Q (owedAg c 31 + owedRs c 31 + owedSig c (30 - r.val)) W) $$ [HI HO Htok Hs Hg Hr1 Hr2 Hr] [Hk]
  · isplitl [HI]; · iexact HI
    isplitl [HO]; · iexact HO
    isplitl [Htok]; · iexact Htok
    isplitl [Hs]; · iexact Hs
    isplitl [Hg]; · iexact Hg
    isplitl [Hr1]; · iexact Hr1
    isplitl [Hr2]; · iexact Hr2
    iexact Hr
  · iexact Hk

/-! ## The reduce-scatter's transfer -/

/-- Transfer `r` of the reduce-scatter, curried, with what is owed counted down by the operation's number; the slot of the
    neighbour it lands in is held at whatever it contains. -/
theorem rs_send' (m : Mem F) (c : Dev nD) (r : Fin 31)
    {α : Type} (k : PUnit → Prog (TpuEff nD τ sig (Elt F) Λ₀ .tc) α) (Q : α → sProp 𝕄) (W : Waits sig Unit) (κ₁ κ₂ : ℕ)
    (hsc : (slotM rsB (sl (rev r))).view.ref.isScScratch = false)
    (hsrc : (slotM srcB (dv (nb c r))).view.WordExact) (hdst : (slotM rsB (sl (rev r))).view.WordExact)
    (hsem : DmaTarget.Typed .vmem (SemLoc.dma (dsem 1 (rev r)))
      (.remote ((nb c r : Dev nD) : Thread nD τ) (slotM rsB (sl (rev r))) (SemLoc.dma (dsem 0 r)) hsc)) :
    ⊢ (iprop(cellInv ER (sched (F := F) m) κ₁ (rsS c r) -∗ cellInv ER (sched (F := F) m) κ₂ (rsR (nb c r) (rev r))
        -∗ slotPts (F := F) srcB c (dv (nb c r)) fullShare (P m c)
        -∗ (∃ fd, slotPts (F := F) rsB (nb c r) (sl (rev r)) fullShare fd)
        -∗ owes (c : Thread nD τ) (owedAg c 31 + owedRs c (31 - r.val)) W
        -∗ dutyTok ER (rsS c r) 0 (0 : Fin 31) -∗ reached ER (rsS c r) 0
        -∗ dutyTok ER (rsR (nb c r) (rev r)) 0 (0 : Fin 31) -∗ reached ER (rsR (nb c r) (rev r)) 0
        -∗ ((cred (tallyAt (rsS c r) () N) ∗ owes (c : Thread nD τ) (owedAg c 31 + owedRs c (30 - r.val)) W) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (slotM srcB (dv (nb c r)))
              (.remote ((nb c r : Dev nD) : Thread nD τ) (slotM rsB (sl (rev r))) (SemLoc.dma (dsem 0 r)) hsc)
              (SemLoc.dma (dsem 1 (rev r))) hsrc hdst hsem) k) Q) : sProp 𝕄) := by
  rw [owed_rs c r]
  iintro I1 I2 Hsrc ⟨%fd, Hdst⟩ HO T1 R1 T2 R2 Hk
  iapply (RsSend.rs_send m c r fd k Q (owedAg c 31 + owedRs c (30 - r.val)) W κ₁ κ₂ hsc hsrc hdst hsem) $$ [I1 I2 Hsrc Hdst HO T1 R1 T2 R2] [Hk]
  · isplitl [I1]; · iexact I1
    isplitl [I2]; · iexact I2
    isplitl [Hsrc]; · iexact Hsrc
    isplitl [Hdst]; · iexact Hdst
    isplitl [HO]; · iexact HO
    isplitl [T1]; · iexact T1
    isplitl [R1]; · iexact R1
    isplitl [T2]; · iexact T2
    iexact R2
  · iexact Hk

/-- info: 'Cert.Kernel.Steps.sig_step'' depends on axioms: [propext, Classical.choice, Quot.sound] -/
#guard_msgs in #print axioms sig_step'

/-- info: 'Cert.Kernel.Steps.rs_send'' depends on axioms: [propext, Classical.choice, Quot.sound] -/
#guard_msgs in #print axioms rs_send'

end Cert.Kernel.Steps

end
-- ==== Proof.BarWait_Bits.lean ====
/-
The barrier wait. A device waits for the 31 units the other devices signalled; it consumes round 0 of its barrier cell
whole and takes the 31 payloads: of each device it will write into, the reduce-scatter slot and the all-gather slot its two
transfers land in. The payload of duty r comes from the device r + 1 places behind, which is the device the waiter's
operation 30 - r addresses: the payloads are re-indexed by the waiter's own operations.
-/
import proofs.«900791_g7700000000000792_dist_gconv1d_cshard_i_b4_s512_c256_v7x_i32_bf16_1_alg».proof.Proof.Tables_Bits
import proofs.«900791_g7700000000000792_dist_gconv1d_cshard_i_b4_s512_c256_v7x_i32_bf16_1_alg».proof.Proof.Levels_Bits
import proofs.«900791_g7700000000000792_dist_gconv1d_cshard_i_b4_s512_c256_v7x_i32_bf16_1_alg».proof.Proof.PreA_Bits

noncomputable section

namespace Cert.Kernel.BarWait

open Cert.Kernel Cert.Kernel.Gen Cert.Kernel.Contents Cert.Kernel.Proto Cert.Kernel.Tables
open Cert.Kernel.Levels Cert.Kernel.PreA
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The device whose operation `30 - r` addresses `c` is the device `c`'s operation `r` addresses. -/
theorem pb_rev (c : Dev nD) (r : Fin 31) : pb c (rev r) = nb c r := by rw [pb_eq_nb_rev, rev_rev]

/-- A family over the operations may be read in the opposite order. -/
theorem bigSep_rev (Φ : Fin 31 → sProp 𝕄) : bigSep Finset.univ Φ = bigSep Finset.univ (fun r => Φ (rev r)) :=
  bigSep_univ_equiv ⟨rev, rev, rev_rev, rev_rev⟩ Φ

theorem fam_rs (c : Dev nD) :
    (fun r : Fin 31 => (iprop(∃ f, slotPts (F := F) rsB (pb c (rev r)) (sl (rev r)) fullShare f) : sProp 𝕄))
      = fun r : Fin 31 => iprop(∃ f, slotPts (F := F) rsB (nb c r) (sl (rev r)) fullShare f) := by
  funext r; rw [pb_rev]

theorem fam_ag (c : Dev nD) :
    (fun r : Fin 31 => (iprop(∃ f, slotPts (F := F) agB (pb c (rev r)) (dv c) fullShare f) : sProp 𝕄))
      = fun r : Fin 31 => iprop(∃ f, slotPts (F := F) agB (nb c r) (dv c) fullShare f) := by
  funext r; rw [pb_rev]

/-- The 31 payloads of the barrier round, by the waiter's own operations: the slot of `nb c r` its reduce-scatter
    transfer `r` lands in, and the slot of `nb c r` its all-gather transfer lands in. -/
theorem barPay_split (c : Dev nD) :
    bigSep Finset.univ (fun r : Fin 31 => barPay (F := F) c r)
      ⊢ (iprop(chain31 (fun r : Fin 31 => iprop(∃ f, slotPts (F := F) rsB (nb c r) (sl (rev r)) fullShare f))
          ∗ bigSep Finset.univ (fun r : Fin 31 => iprop(∃ f, slotPts (F := F) agB (nb c r) (dv c) fullShare f))) : sProp 𝕄) := by
  unfold barPay
  rw [bigSep_sep', bigSep_sep', bigSep_sep']
  iintro ⟨HA, HB, -, -⟩
  isplitl [HA]
  · rw [← chain31_eq, ← fam_rs c]
    iapply (Entails.of_eq (bigSep_rev (fun r : Fin 31 => (iprop(∃ f, slotPts (F := F) rsB (pb c r) (sl r) fullShare f) : sProp 𝕄))))
    iexact HA
  · rw [← fam_ag c]
    iapply (Entails.of_eq (bigSep_rev (fun r : Fin 31 => (iprop(∃ f, slotPts (F := F) agB (pb c r) (dv c) fullShare f) : sProp 𝕄))))
    iexact HB

/-- The barrier wait of 31 units, while the device still owes all its transfers' receive credits. -/
theorem bar_wait (m : Mem F) (c : Dev nD) (κ : ℕ) (W : Waits sig Unit) {α : Type}
    (k : PUnit → Prog (TpuEff nD τ sig (Elt F) Λ₀ .tc) α) (Q : α → sProp 𝕄) :
    iprop(cellInv ER (sched (F := F) m) κ (bar c) ∗ cred (tallyAt (bar c) () 31)
        ∗ owes (c : Thread nD τ) (owedAg c 31 + owedRs c 31) W ∗ levAts L lv ∗ atPos ER (bar c) 0 ∅ 0)
      ⊢ (iprop(((owes (c : Thread nD τ) (owedAg c 31 + owedRs c 31) (insert (SemLoc.reg barS, ()) W)
              ∗ atPos ER (bar c) 1 ∅ 0 ∗ reached ER (bar c) 1
              ∗ chain31 (fun r : Fin 31 => iprop(∃ f, slotPts (F := F) rsB (nb c r) (sl (rev r)) fullShare f))
              ∗ bigSep Finset.univ (fun r : Fin 31 => iprop(∃ f, slotPts (F := F) agB (nb c r) (dv c) fullShare f)))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 31) k) Q) : sProp 𝕄) := by
  iintro ⟨#HI, Hc, HO, #Hlev, Hat⟩ Hk
  iapply (Rounds.wp_wait_rest_token 𝒱₀ ER (sched (F := F) m) (c : Thread nD τ) none (wpE_semWait_eq 𝒱₀ (c : Thread nD τ) none Set.univ)
    (Set.mem_univ κ) () ((Nat.zero_add 31).trans (expect_bar m c).symm)) $$ [Hc HO Hat]
  · isplitr; · iexact HI
    isplitl [Hc]; · iexact Hc
    isplitl [HO]; · iexact HO
    isplitr; · iapply (mayWait_bar31 c); iexact Hlev
    iexact Hat
  iintro ⟨HO, Hat, Hr, Hpay⟩
  iapply Hk
  isplitl [HO]; · iexact HO
  isplitl [Hat]; · iexact Hat
  isplitl [Hr]; · iexact Hr
  iapply (barPay_split c)
  iapply (Entails.of_eq (rest_bar m c))
  iexact Hpay

/-- The same with the amount as the program spells it, a word's value equal to 31. -/
theorem bar_wait_of_eq (m : Mem F) (c : Dev nD) (κ : ℕ) (W : Waits sig Unit) {α : Type}
    (k : PUnit → Prog (TpuEff nD τ sig (Elt F) Λ₀ .tc) α) (Q : α → sProp 𝕄) (n : ℕ) (hn : n = 31) :
    iprop(cellInv ER (sched (F := F) m) κ (bar c) ∗ cred (tallyAt (bar c) () 31)
        ∗ owes (c : Thread nD τ) (owedAg c 31 + owedRs c 31) W ∗ levAts L lv ∗ atPos ER (bar c) 0 ∅ 0)
      ⊢ (iprop(((owes (c : Thread nD τ) (owedAg c 31 + owedRs c 31) (insert (SemLoc.reg barS, ()) W)
              ∗ atPos ER (bar c) 1 ∅ 0 ∗ reached ER (bar c) 1
              ∗ chain31 (fun r : Fin 31 => iprop(∃ f, slotPts (F := F) rsB (nb c r) (sl (rev r)) fullShare f))
              ∗ bigSep Finset.univ (fun r : Fin 31 => iprop(∃ f, slotPts (F := F) agB (nb c r) (dv c) fullShare f)))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS n) k) Q) : sProp 𝕄) := by
  subst hn; exact bar_wait m c κ W k Q

/-- info: 'Cert.Kernel.BarWait.bar_wait' depends on axioms: [propext, Classical.choice, Quot.sound] -/
#guard_msgs in #print axioms bar_wait

end Cert.Kernel.BarWait

end
-- ==== Proof.Rot_Bits.lean ====
/-
The thirty-two positions of the ring seen from one device: the device's own position, and the thirty-one others,
listed by the operation that addresses them. The others are the positions of the devices the device's operations
address, or of the devices whose operations address it; and, for the slots of a receive buffer, slot 0 and the
slots of the thirty-one operations. Each listing runs over every position but the first-named exactly once, so a
separating conjunction over all thirty-two positions is that position's conjunct and the thirty-one others'.
-/
import proofs.«900791_g7700000000000792_dist_gconv1d_cshard_i_b4_s512_c256_v7x_i32_bf16_1_alg».proof.Proof.Proto_Bits

noncomputable section

namespace Cert.Kernel.Rot

open Idealize.ShloMosaic Cert.Kernel Cert.Kernel.Proto
open Idealize.SL Idealize.SL.RA Idealize.SL.BI
open scoped Idealize.SL.BI
open Idealize.SL.BI.BIBase Idealize.SL.BI.Laws Idealize.SL.ProofMode

/-! ## The listings of the other positions -/

theorem dv_inj {c c' : Dev nD} (h : dv c = dv c') : c = c' := Fin.ext (congrArg Fin.val h)

/-- The positions of the devices that device `c`'s operations address. -/
def nbSlot (c : Dev nD) : Fin 31 ↪ Fin 32 :=
  ⟨fun r => dv (nb c r), fun r r' h => nb_inj_op c (dv_inj h)⟩
/-- The positions of the devices whose operations address device `c`. -/
def pbSlot (c : Dev nD) : Fin 31 ↪ Fin 32 :=
  ⟨fun r => dv (pb c r), fun r r' h => by
    have h' : nb c (rev r) = nb c (rev r') := by rw [nb_rev_eq_pb, nb_rev_eq_pb]; exact dv_inj h
    have := congrArg rev (nb_inj_op c h')
    rwa [rev_rev, rev_rev] at this⟩
/-- The slots of the thirty-one operations: every slot but slot 0. -/
def slSlot : Fin 31 ↪ Fin 32 :=
  ⟨sl, fun r r' h => Fin.ext (by have := congrArg Fin.val h; simp only [sl] at this; omega)⟩

theorem nbSlot_apply (c : Dev nD) (r : Fin 31) : nbSlot c r = dv (nb c r) := rfl
theorem pbSlot_apply (c : Dev nD) (r : Fin 31) : pbSlot c r = dv (pb c r) := rfl
theorem slSlot_apply (r : Fin 31) : slSlot r = sl r := rfl

theorem nbSlot_ne (c : Dev nD) (r : Fin 31) : nbSlot c r ≠ dv c := fun h => nb_ne_self c r (dv_inj h)
theorem pbSlot_ne (c : Dev nD) (r : Fin 31) : pbSlot c r ≠ dv c := fun h => by
  have h' : pb c r = c := dv_inj h
  rw [pb_eq_nb_rev] at h'
  exact nb_ne_self c (rev r) h'
theorem slSlot_ne (r : Fin 31) : slSlot r ≠ (0 : Fin 32) := fun h => by
  have := congrArg Fin.val h; simp only [slSlot_apply, sl] at this; omega

/-- Thirty-one distinct positions, none of them `j`, are all the positions but `j`. -/
theorem erase_eq_map (j : Fin 32) (σ : Fin 31 ↪ Fin 32) (hne : ∀ r, σ r ≠ j) :
    (Finset.univ : Finset (Fin 32)).erase j = Finset.univ.map σ := by
  symm
  apply Finset.eq_of_subset_of_card_le
  · intro i hi
    obtain ⟨r, -, rfl⟩ := Finset.mem_map.mp hi
    exact Finset.mem_erase.mpr ⟨hne r, Finset.mem_univ _⟩
  · rw [Finset.card_map, Finset.card_erase_of_mem (Finset.mem_univ _), Finset.card_univ, Finset.card_univ,
      Fintype.card_fin, Fintype.card_fin]

/-! ## A conjunction over the thirty-two positions, from one of them -/

variable {M : Type} [URA M]

/-- The conjunct at `j` and those at thirty-one distinct other positions. -/
theorem bigSep_around (j : Fin 32) (σ : Fin 31 ↪ Fin 32) (hne : ∀ r, σ r ≠ j) (Φ : Fin 32 → sProp M) :
    bigSep Finset.univ Φ = iprop(Φ j ∗ bigSep Finset.univ (fun r : Fin 31 => Φ (σ r))) := by
  rw [bigSep_univ_split j, erase_eq_map j σ hne, bigSep_map]
  rfl

/-- From device `c`: its own position, and the positions of the devices its operations address. -/
theorem bigSep_rot (c : Dev nD) (Φ : Fin 32 → sProp M) :
    bigSep Finset.univ Φ = iprop(Φ (dv c) ∗ bigSep Finset.univ (fun r : Fin 31 => Φ (dv (nb c r)))) :=
  bigSep_around (dv c) (nbSlot c) (nbSlot_ne c) Φ

/-- From device `c`: its own position, and the positions of the devices whose operations address it. -/
theorem bigSep_pb (c : Dev nD) (Φ : Fin 32 → sProp M) :
    bigSep Finset.univ Φ = iprop(Φ (dv c) ∗ bigSep Finset.univ (fun r : Fin 31 => Φ (dv (pb c r)))) :=
  bigSep_around (dv c) (pbSlot c) (pbSlot_ne c) Φ

/-- Slot 0 and the slots of the thirty-one operations. -/
theorem bigSep_sl (Φ : Fin 32 → sProp M) :
    bigSep Finset.univ Φ = iprop(Φ 0 ∗ bigSep Finset.univ (fun r : Fin 31 => Φ (sl r))) :=
  bigSep_around 0 slSlot slSlot_ne Φ

/-- info: 'Cert.Kernel.Rot.bigSep_rot' depends on axioms: [propext, Classical.choice, Quot.sound] -/
#guard_msgs in #print axioms bigSep_rot

/-- info: 'Cert.Kernel.Rot.bigSep_pb' depends on axioms: [propext, Classical.choice, Quot.sound] -/
#guard_msgs in #print axioms bigSep_pb

/-- info: 'Cert.Kernel.Rot.bigSep_sl' depends on axioms: [propext, Classical.choice, Quot.sound] -/
#guard_msgs in #print axioms bigSep_sl

end Cert.Kernel.Rot

end
-- ==== Proof.SrcSplit_Bits.lean ====
/-
The partial-product buffer before the reduce-scatter's sends: held whole, it is the slot at the device's own position
and the thirty-one slots at the positions of the devices its operations address, one after the other in the order the
operations take them.
-/
import proofs.«900791_g7700000000000792_dist_gconv1d_cshard_i_b4_s512_c256_v7x_i32_bf16_1_alg».proof.Proof.PreA_Bits
import proofs.«900791_g7700000000000792_dist_gconv1d_cshard_i_b4_s512_c256_v7x_i32_bf16_1_alg».proof.Proof.Slots_Bits
import proofs.«900791_g7700000000000792_dist_gconv1d_cshard_i_b4_s512_c256_v7x_i32_bf16_1_alg».proof.Proof.Rot_Bits

noncomputable section

namespace Cert.Kernel.SrcSplit

open Cert.Kernel Cert.Kernel.Gen Cert.Kernel.Contents Cert.Kernel.Proto
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The whole buffer is its own slot and the slots of the devices its operations address, in the operations' order. -/
theorem src_split (c : Dev nD) (f : Buf (Elt F) (srcB.view.loc (c : Thread nD τ))) :
    (srcB.view.loc (c : Thread nD τ) ↦{fullShare} f : sProp 𝕄)
      ⊢ iprop(slotPts srcB c (dv c) fullShare f ∗ PreA.chain31 (fun r => slotPts srcB c (dv (nb c r)) fullShare f)) := by
  have e : (srcB.view.loc (c : Thread nD τ) ↦{fullShare} f : sProp 𝕄)
      = (srcB.view.loc (c : Thread nD τ) ↦[srcB.view.set]{fullShare} f) := by
    rw [show srcB.view.set = Finset.univ from View.set_whole _]
  rw [e, Slots.pointsTo_slots srcB c fullShare f, Rot.bigSep_rot c, PreA.chain31_eq]

/-- info: 'Cert.Kernel.SrcSplit.src_split' depends on axioms: [propext, Classical.choice, Quot.sound] -/
#guard_msgs in #print axioms src_split

end Cert.Kernel.SrcSplit

end
-- ==== Proof.Stores_Bits.lean ====
/-
What the body's two stores before the barrier wait leave. The first writes the device's partial product over the whole
of its buffer, through the rectangle of the buffer's own extents at zero offsets: the buffer then holds that vector. The
second copies the device's own chunk (slot `c` of the partial product, loaded as [1, 64, 256] and stored back through two
shape casts that change nothing) into slot 0 of the reduce-scatter's receive buffer: slot 0 then holds chunk `c` of the
device's own partial product, which is what the receive buffer with every slot landed holds there (`c + 0 = c`).
-/
import proofs.«900791_g7700000000000792_dist_gconv1d_cshard_i_b4_s512_c256_v7x_i32_bf16_1_alg».proof.Proof.Proto_Bits
import proofs.«900791_g7700000000000792_dist_gconv1d_cshard_i_b4_s512_c256_v7x_i32_bf16_1_alg».proof.Proof.Landing_Bits
import Idealize.ShloMosaic.Lib.Pipeline.Value
import Idealize.ShloMosaic.Lib.ValueIdx

noncomputable section

namespace Cert.Kernel.Stores

open Cert.Kernel Cert.Kernel.Gen Cert.Kernel.Contents Cert.Kernel.Proto Cert.Kernel.Landing
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Accesses at zero offsets -/

theorem zeros3 : (![0, 0, 0] : Fin 3 → Nat) = fun _ => 0 := by
  funext a
  match a with
  | ⟨0, _⟩ => rfl
  | ⟨1, _⟩ => rfl
  | ⟨2, _⟩ => rfl

theorem zeros2 : (![0, 0] : Fin 2 → Nat) = fun _ => 0 := by
  funext a
  match a with
  | ⟨0, _⟩ => rfl
  | ⟨1, _⟩ => rfl

/-- A load of the whole input staging buffer reads its contents; likewise the taps' and the projection's. -/
theorem load_stg0 (f : cc0_stg0_0.ty.Contents (Elt F)) :
    (Memref.whole cc0_stg0_0).view.readAt (Elt F)
      (Rect.unit (s := S4x512x256) ![0, 0, 0] S4x512x256.size inb_S4x512x256_S4x512x256_0_0_0).toLoadRect f = f :=
  Memref.readAt_unit_zero (Elt F) cc0_stg0_0 zeros3 _ f
theorem load_stg1 (f : cc0_stg1_0.ty.Contents (Elt F)) :
    (Memref.whole cc0_stg1_0).view.readAt (Elt F)
      (Rect.unit (s := S4x256) ![0, 0] S4x256.size inb_S4x256_S4x256_0_0).toLoadRect f = f :=
  Memref.readAt_unit_zero (Elt F) cc0_stg1_0 zeros2 _ f
theorem load_stg2 (f : cc0_stg2_0.ty.Contents (Elt F)) :
    (Memref.whole cc0_stg2_0).view.readAt (Elt F)
      (Rect.unit (s := S256x256) ![0, 0] S256x256.size inb_S256x256_S256x256_0_0).toLoadRect f = f :=
  Memref.readAt_unit_zero (Elt F) cc0_stg2_0 zeros2 _ f

/-- A store over the whole of the partial product's buffer leaves the vector stored, whatever was there. -/
theorem store_src (f0 v : cc0_scratch0.ty.Contents (Elt F)) :
    (srcB.access (Rect.unit (s := S32x64x256) ![0, 0, 0] S32x64x256.size inb_S32x64x256_S32x64x256_0_0_0)).write (Elt F) f0 v
      Finset.univ = v :=
  Memref.write_access_unit_zero_univ (Elt F) cc0_scratch0 zeros3 _ f0 v

/-- The first store, of the product computed from the three staged blocks: the buffer holds the device's partial product. -/
theorem src_stored (m : Mem F) (c : Dev nD) (f0 : cc0_scratch0.ty.Contents (Elt F)) :
    (srcB.view.loc (c : Thread nD τ) ↦{fullShare}
        ((srcB.access (Rect.unit (s := S32x64x256) ![0, 0, 0] S32x64x256.size inb_S32x64x256_S32x64x256_0_0_0)).write (Elt F) f0
          (k0_pay5 (k0_pay3 (iblk m c 0 t0_0) (iblk m c 1 t0_0)) (k0_pay4 (iblk m c 0 t0_0) (iblk m c 1 t0_0)) (iblk m c 2 t0_0))
          Finset.univ) : sProp 𝕄)
      ⊢ srcB.view.loc (c : Thread nD τ) ↦{fullShare} P m c := by
  rw [store_src]
  exact .rfl

/-! ## The device's own chunk into slot 0 -/

/-- The two shape casts between the load and the store change nothing: [1, 64, 256] → [64, 256] → [1, 64, 256]. -/
theorem pay6_apply (v : Vec F S1x64x256 .bf16) (r : Fin 64) (n : Fin 256) :
    k0_pay6 v (ix3 (0 : Fin 1) r n) = v (ix3 (0 : Fin 1) r n) := by
  unfold k0_pay6
  refine (shapeCast_apply _ _ (ix3 (0 : Fin 1) r n) (ix2 r n) ?_).trans ?_
  · show ((⟨2, ![64, 256]⟩ : Shape).rowMajor (ix2 r n)).val = ((⟨3, ![1, 64, 256]⟩ : Shape).rowMajor (ix3 (0 : Fin 1) r n)).val
    rw [Shape.rowMajor_val_three, Shape.rowMajor_val_two]
    show r.val * 256 + n.val = (0 * 64 + r.val) * 256 + n.val
    omega
  · refine shapeCast_apply _ _ (ix2 r n) (ix3 (0 : Fin 1) r n) ?_
    show ((⟨3, ![1, 64, 256]⟩ : Shape).rowMajor (ix3 (0 : Fin 1) r n)).val = ((⟨2, ![64, 256]⟩ : Shape).rowMajor (ix2 r n)).val
    rw [Shape.rowMajor_val_three, Shape.rowMajor_val_two]
    show (0 * 64 + r.val) * 256 + n.val = r.val * 256 + n.val
    omega

/-- The load of slot `c` of the partial product's buffer, at (0, row, column): element (c, row, column). -/
theorem load_own_apply (c : Dev nD) (f : cc0_scratch0.ty.Contents (Elt F)) (r : Fin 64) (n : Fin 256) :
    srcB.view.readAt (Elt F) (Rect.unit (s := S32x64x256) (k0_off1 c) S1x64x256.size (k0_off1_inb c)).toLoadRect f
        (ix3 (0 : Fin 1) r n) = f (ix3 c r n) := by
  show f ((Rect.unit (s := S32x64x256) (k0_off1 c) S1x64x256.size (k0_off1_inb c)).idx (ix3 (0 : Fin 1) r n)) = _
  congr 1
  funext a
  apply Fin.ext
  show k0_off1 c a + 1 * (ix3 (0 : Fin 1) r n a).val = (ix3 c r n a).val
  rw [k0_off1_eq]
  match a with
  | ⟨0, _⟩ => show c.val + 1 * 0 = c.val; omega
  | ⟨1, _⟩ => show 0 + 1 * r.val = r.val; omega
  | ⟨2, _⟩ => show 0 + 1 * n.val = n.val; omega

/-- Slot 0's view and the store's access at [0, 0, 0] place (row, column) at the same element. -/
theorem access0_emb (r : Fin 64) (n : Fin 256) :
    (rsB.access (Rect.unit (s := S32x64x256) ![0, 0, 0] S1x64x256.size inb_S32x64x256_S1x64x256_0_0_0)).emb (ix3 (0 : Fin 1) r n)
      = (slotM rsB 0).view.emb (ix2 r n) := by
  rw [emb_slot]
  exact slotRect_emb 0 r n

/-- The second store: on slot 0 it leaves what the receive buffer, every slot landed, holds there. -/
theorem rs0_store_apply (m : Mem F) (c : Dev nD) (f1 : cc0_scratch1.ty.Contents (Elt F)) (i : (slotM rsB 0).view.ty.Idx)
    (hi : i ∈ (slotM rsB 0).view.set) :
    (rsB.access (Rect.unit (s := S32x64x256) ![0, 0, 0] S1x64x256.size inb_S32x64x256_S1x64x256_0_0_0)).write (Elt F) f1
        (k0_pay6 (srcB.view.readAt (Elt F) (Rect.unit (s := S32x64x256) (k0_off1 c) S1x64x256.size (k0_off1_inb c)).toLoadRect
          (P m c))) Finset.univ i
      = rsAll (P m) c i := by
  obtain ⟨r, n, rfl⟩ := exists_rc_of_mem rsB 0 hi
  rw [← access0_emb, View.write_emb_of_mem _ _ (Finset.mem_univ _), pay6_apply, load_own_apply, access0_emb, emb_slot]
  show P m c (ix3 c r n) = P m (rot c 0) (ix3 c r n)
  have h0 : rot c (0 : Fin 32) = c := Fin.ext (by show (c.val + 0) % 32 = c.val; have hc : c.val < 32 := c.isLt; omega)
  rw [h0]

theorem rs0_stored (m : Mem F) (c : Dev nD) (f1 : cc0_scratch1.ty.Contents (Elt F)) :
    (slotPts rsB c 0 fullShare
        ((rsB.access (Rect.unit (s := S32x64x256) ![0, 0, 0] S1x64x256.size inb_S32x64x256_S1x64x256_0_0_0)).write (Elt F) f1
          (k0_pay6 (srcB.view.readAt (Elt F) (Rect.unit (s := S32x64x256) (k0_off1 c) S1x64x256.size (k0_off1_inb c)).toLoadRect
            (P m c))) Finset.univ) : sProp 𝕄)
      ⊢ slotPts rsB c 0 fullShare (rsAll (P m) c) :=
  Entails.of_eq (pointsTo_congr fun i hi => rs0_store_apply m c f1 i hi)

/-! ## The first store as the run lists it -/

/-- One listed store over the whole buffer leaves the vector stored, whatever the base contents. -/
theorem writes_whole (f0 : cc0_scratch0.ty.Contents (Elt F)) (v : Vec F S32x64x256 .bf16) :
    srcB.view.writes (Elt F) f0
      [⟨Rect.unit (s := S32x64x256) ![0, 0, 0] S32x64x256.size inb_S32x64x256_S32x64x256_0_0_0, v⟩] = v :=
  (View.writes_singleton _ _ _ _).trans (store_src f0 v)

/-- The partial product's buffer after the first store, as listed: the product of what the three whole loads of the
    staging buffers read is the device's partial product. -/
theorem src_listed_eq (m : Mem F) (c : Dev nD) (f0 : cc0_scratch0.ty.Contents (Elt F)) :
    srcB.view.writes (Elt F) f0
      [⟨Rect.unit (s := S32x64x256) ![0, 0, 0] S32x64x256.size inb_S32x64x256_S32x64x256_0_0_0,
        k0_pay5
          (k0_pay3
            ((Memref.whole cc0_stg0_0).view.readAt (Elt F)
              (Rect.unit (s := S4x512x256) ![0, 0, 0] S4x512x256.size inb_S4x512x256_S4x512x256_0_0_0).toLoadRect (iblk m c 0 t0_0))
            ((Memref.whole cc0_stg1_0).view.readAt (Elt F)
              (Rect.unit (s := S4x256) ![0, 0] S4x256.size inb_S4x256_S4x256_0_0).toLoadRect (iblk m c 1 t0_0)))
          (k0_pay4
            ((Memref.whole cc0_stg0_0).view.readAt (Elt F)
              (Rect.unit (s := S4x512x256) ![0, 0, 0] S4x512x256.size inb_S4x512x256_S4x512x256_0_0_0).toLoadRect (iblk m c 0 t0_0))
            ((Memref.whole cc0_stg1_0).view.readAt (Elt F)
              (Rect.unit (s := S4x256) ![0, 0] S4x256.size inb_S4x256_S4x256_0_0).toLoadRect (iblk m c 1 t0_0)))
          ((Memref.whole cc0_stg2_0).view.readAt (Elt F)
            (Rect.unit (s := S256x256) ![0, 0] S256x256.size inb_S256x256_S256x256_0_0).toLoadRect (iblk m c 2 t0_0))⟩]
      = P m c := by
  rw [writes_whole, load_stg0, load_stg1, load_stg2]
  rfl

/-- info: 'Cert.Kernel.Stores.src_stored' depends on axioms: [propext, Classical.choice, Quot.sound] -/
#guard_msgs in #print axioms src_stored

/-- info: 'Cert.Kernel.Stores.rs0_stored' depends on axioms: [propext, Classical.choice, Quot.sound] -/
#guard_msgs in #print axioms rs0_stored

/-- info: 'Cert.Kernel.Stores.src_listed_eq' depends on axioms: [propext, Classical.choice, Quot.sound] -/
#guard_msgs in #print axioms src_listed_eq

end Cert.Kernel.Stores

end
-- ==== Proof.CutS_Bits.lean ====
/-
The sequence of the body's first nineteen parts cut once more, after the seventh: the signals, the product, the barrier
wait and the reduce-scatter's first copy first; then the reduce-scatter's other thirty copies, parts eight to nineteen.
The first copy's word travels to the second stretch, which hands the 31 words on as one vector.
-/
import proofs.«900791_g7700000000000792_dist_gconv1d_cshard_i_b4_s512_c256_v7x_i32_bf16_1_alg».proof.Proof.CutA_Bits

set_option synthInstance.maxSize 4096

noncomputable section

namespace Cert.Kernel.CutS

open Idealize.ShloMosaic Idealize.SL.Sem Cert.Kernel

variable {F : FTy → Type} [FloatOps F] [Facts]
open Facts₀ Facts

set_option maxRecDepth 4096 in
/-- Parts one to seven, then a continuation over the device, the word of its position and the first copy's word. -/
def progS7 {α : Type} (arg0 : Memref sig .tc .vmem S4x512x256 .f32) (harg0 : arg0.IsWhole) (arg1 : Memref sig .tc .vmem S4x256 .f32) (harg1 : arg1.IsWhole) (arg2 : Memref sig .tc .vmem S256x256 .f32) (harg2 : arg2.IsWhole) (arg3 : Memref sig .tc .vmem S4x512x256 .f32) (harg3 : arg3.IsWhole) (arg4 : Memref sig .tc .vmem S32x64x256 .bf16) (harg4 : arg4.IsWhole) (arg5 : Memref sig .tc .vmem S32x64x256 .bf16) (harg5 : arg5.IsWhole) (arg6 : Memref sig .tc .vmem S32x64x256 .bf16) (harg6 : arg6.IsWhole) (arg7 : DmaSems sig S32) (arg8 : DmaSems sig S32) (arg9 : DmaSems sig S32) (arg10 : DmaSems sig S32)
    (k : Dev nD → BitVec 32 → BitVec 32 → Prog (TpuEff nD τ sig (Elt F) Λ₀ .tc) α) : Prog (TpuEff nD τ sig (Elt F) Λ₀ .tc) α := do
  let ⟨d0, v2, v3, v24, c32_i32_20⟩ : Σ' (d0 : Dev nD) (v2 : BitVec 32) (v3 : Sems sig S_) (v24 : BitVec 32), BitVec 32 ← k0_part1 arg0 harg0 arg1 harg1 arg2 harg2 arg3 harg3 arg4 harg4 arg5 harg5 arg6 harg6 arg7 arg8 arg9 arg10
  let ⟨v48, c32_i32_44⟩ : Σ' (v48 : BitVec 32), BitVec 32 ← k0_part2 arg0 harg0 arg1 harg1 arg2 harg2 arg3 harg3 arg4 harg4 arg5 harg5 arg6 harg6 arg7 arg8 arg9 arg10 d0 v2 v3 v24 c32_i32_20
  let ⟨v72, c32_i32_68⟩ : Σ' (v72 : BitVec 32), BitVec 32 ← k0_part3 arg0 harg0 arg1 harg1 arg2 harg2 arg3 harg3 arg4 harg4 arg5 harg5 arg6 harg6 arg7 arg8 arg9 arg10 d0 v2 v3 v48 c32_i32_44
  let ⟨v96, c32_i32_92⟩ : Σ' (v96 : BitVec 32), BitVec 32 ← k0_part4 arg0 harg0 arg1 harg1 arg2 harg2 arg3 harg3 arg4 harg4 arg5 harg5 arg6 harg6 arg7 arg8 arg9 arg10 d0 v2 v3 v72 c32_i32_68
  let ⟨v120, c32_i32_116⟩ : Σ' (v120 : BitVec 32), BitVec 32 ← k0_part5 arg0 harg0 arg1 harg1 arg2 harg2 arg3 harg3 arg4 harg4 arg5 harg5 arg6 harg6 arg7 arg8 arg9 arg10 d0 v2 v3 v96 c32_i32_92
  let ⟨v154, v162⟩ : Σ' (v154 : FVec F S4x512x256 .f32), FVec F S4x512x256 .f32 ← k0_part6 arg0 harg0 arg1 harg1 arg2 harg2 arg3 harg3 arg4 harg4 arg5 harg5 arg6 harg6 arg7 arg8 arg9 arg10 d0 v2 v3 v120 c32_i32_116
  let v184 : BitVec 32 ← k0_part7 arg0 harg0 arg1 harg1 arg2 harg2 arg3 harg3 arg4 harg4 arg5 harg5 arg6 harg6 arg7 arg8 arg9 arg10 d0 v2 v3 v154 v162
  k d0 v2 v184

set_option maxRecDepth 4096 in
/-- Parts eight to nineteen, then a continuation over the device, the word of its position and the copies' 31 words. -/
def progSends {α : Type} (arg0 : Memref sig .tc .vmem S4x512x256 .f32) (harg0 : arg0.IsWhole) (arg1 : Memref sig .tc .vmem S4x256 .f32) (harg1 : arg1.IsWhole) (arg2 : Memref sig .tc .vmem S256x256 .f32) (harg2 : arg2.IsWhole) (arg3 : Memref sig .tc .vmem S4x512x256 .f32) (harg3 : arg3.IsWhole) (arg4 : Memref sig .tc .vmem S32x64x256 .bf16) (harg4 : arg4.IsWhole) (arg5 : Memref sig .tc .vmem S32x64x256 .bf16) (harg5 : arg5.IsWhole) (arg6 : Memref sig .tc .vmem S32x64x256 .bf16) (harg6 : arg6.IsWhole) (arg7 : DmaSems sig S32) (arg8 : DmaSems sig S32) (arg9 : DmaSems sig S32) (arg10 : DmaSems sig S32) (d0 : Dev nD) (v2 v184 : BitVec 32)
    (k : Dev nD → BitVec 32 → (Fin 31 → BitVec 32) → Prog (TpuEff nD τ sig (Elt F) Λ₀ .tc) α) : Prog (TpuEff nD τ sig (Elt F) Λ₀ .tc) α := do
  let ⟨v196, v208, v220⟩ : Σ' (v196 : BitVec 32) (v208 : BitVec 32), BitVec 32 ← k0_part8 arg0 harg0 arg1 harg1 arg2 harg2 arg3 harg3 arg4 harg4 arg5 harg5 arg6 harg6 arg7 arg8 arg9 arg10 d0 v2
  let ⟨v232, v244⟩ : Σ' (v232 : BitVec 32), BitVec 32 ← k0_part9 arg0 harg0 arg1 harg1 arg2 harg2 arg3 harg3 arg4 harg4 arg5 harg5 arg6 harg6 arg7 arg8 arg9 arg10 d0 v2
  let ⟨v256, v268, v280⟩ : Σ' (v256 : BitVec 32) (v268 : BitVec 32), BitVec 32 ← k0_part10 arg0 harg0 arg1 harg1 arg2 harg2 arg3 harg3 arg4 harg4 arg5 harg5 arg6 harg6 arg7 arg8 arg9 arg10 d0 v2
  let ⟨v292, v304⟩ : Σ' (v292 : BitVec 32), BitVec 32 ← k0_part11 arg0 harg0 arg1 harg1 arg2 harg2 arg3 harg3 arg4 harg4 arg5 harg5 arg6 harg6 arg7 arg8 arg9 arg10 d0 v2
  let ⟨v316, v328, v340⟩ : Σ' (v316 : BitVec 32) (v328 : BitVec 32), BitVec 32 ← k0_part12 arg0 harg0 arg1 harg1 arg2 harg2 arg3 harg3 arg4 harg4 arg5 harg5 arg6 harg6 arg7 arg8 arg9 arg10 d0 v2
  let ⟨v352, v364⟩ : Σ' (v352 : BitVec 32), BitVec 32 ← k0_part13 arg0 harg0 arg1 harg1 arg2 harg2 arg3 harg3 arg4 harg4 arg5 harg5 arg6 harg6 arg7 arg8 arg9 arg10 d0 v2
  let ⟨v376, v388, v400⟩ : Σ' (v376 : BitVec 32) (v388 : BitVec 32), BitVec 32 ← k0_part14 arg0 harg0 arg1 harg1 arg2 harg2 arg3 harg3 arg4 harg4 arg5 harg5 arg6 harg6 arg7 arg8 arg9 arg10 d0 v2
  let ⟨v412, v424⟩ : Σ' (v412 : BitVec 32), BitVec 32 ← k0_part15 arg0 harg0 arg1 harg1 arg2 harg2 arg3 harg3 arg4 harg4 arg5 harg5 arg6 harg6 arg7 arg8 arg9 arg10 d0 v2
  let ⟨v436, v448, v460⟩ : Σ' (v436 : BitVec 32) (v448 : BitVec 32), BitVec 32 ← k0_part16 arg0 harg0 arg1 harg1 arg2 harg2 arg3 harg3 arg4 harg4 arg5 harg5 arg6 harg6 arg7 arg8 arg9 arg10 d0 v2
  let ⟨v472, v484⟩ : Σ' (v472 : BitVec 32), BitVec 32 ← k0_part17 arg0 harg0 arg1 harg1 arg2 harg2 arg3 harg3 arg4 harg4 arg5 harg5 arg6 harg6 arg7 arg8 arg9 arg10 d0 v2
  let ⟨v496, v508, v520⟩ : Σ' (v496 : BitVec 32) (v508 : BitVec 32), BitVec 32 ← k0_part18 arg0 harg0 arg1 harg1 arg2 harg2 arg3 harg3 arg4 harg4 arg5 harg5 arg6 harg6 arg7 arg8 arg9 arg10 d0 v2
  let ⟨v532, v544⟩ : Σ' (v532 : BitVec 32), BitVec 32 ← k0_part19 arg0 harg0 arg1 harg1 arg2 harg2 arg3 harg3 arg4 harg4 arg5 harg5 arg6 harg6 arg7 arg8 arg9 arg10 d0 v2
  k d0 v2 ![v184, v196, v208, v220, v232, v244, v256, v268, v280, v292, v304, v316, v328, v340, v352, v364, v376, v388, v400, v412, v424, v436, v448, v460, v472, v484, v496, v508, v520, v532, v544]

set_option maxRecDepth 65536 in
/-- The first nineteen parts are the first seven followed by the next twelve. -/
theorem progS_eq {α : Type} (arg0 : Memref sig .tc .vmem S4x512x256 .f32) (harg0 : arg0.IsWhole) (arg1 : Memref sig .tc .vmem S4x256 .f32) (harg1 : arg1.IsWhole) (arg2 : Memref sig .tc .vmem S256x256 .f32) (harg2 : arg2.IsWhole) (arg3 : Memref sig .tc .vmem S4x512x256 .f32) (harg3 : arg3.IsWhole) (arg4 : Memref sig .tc .vmem S32x64x256 .bf16) (harg4 : arg4.IsWhole) (arg5 : Memref sig .tc .vmem S32x64x256 .bf16) (harg5 : arg5.IsWhole) (arg6 : Memref sig .tc .vmem S32x64x256 .bf16) (harg6 : arg6.IsWhole) (arg7 : DmaSems sig S32) (arg8 : DmaSems sig S32) (arg9 : DmaSems sig S32) (arg10 : DmaSems sig S32) (k : Dev nD → BitVec 32 → (Fin 31 → BitVec 32) → Prog (TpuEff nD τ sig (Elt F) Λ₀ .tc) α) :
    CutA.progS arg0 harg0 arg1 harg1 arg2 harg2 arg3 harg3 arg4 harg4 arg5 harg5 arg6 harg6 arg7 arg8 arg9 arg10 k = progS7 arg0 harg0 arg1 harg1 arg2 harg2 arg3 harg3 arg4 harg4 arg5 harg5 arg6 harg6 arg7 arg8 arg9 arg10 (fun d0 v2 v184 => progSends arg0 harg0 arg1 harg1 arg2 harg2 arg3 harg3 arg4 harg4 arg5 harg5 arg6 harg6 arg7 arg8 arg9 arg10 d0 v2 v184 k) := rfl

end Cert.Kernel.CutS
-- ==== Proof.PostA_Bits.lean ====
/-
What a device's thread holds after its last reduce-scatter transfer is issued, put together as the assertion the
second stretch of the body starts from: everything that is not about the reduce-scatter's receive side, slot 0 of
the receive buffer at the device's own chunk, and every receive cell at round 0 with its credit.
-/
import proofs.«900791_g7700000000000792_dist_gconv1d_cshard_i_b4_s512_c256_v7x_i32_bf16_1_alg».proof.Proof.PreA_Bits
import proofs.«900791_g7700000000000792_dist_gconv1d_cshard_i_b4_s512_c256_v7x_i32_bf16_1_alg».proof.Proof.Mid_Bits

noncomputable section

namespace Cert.Kernel.PostA

open Cert.Kernel Cert.Kernel.Gen Cert.Kernel.Contents Cert.Kernel.Proto Cert.Kernel.Mid
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The pieces held after the last transfer of the reduce-scatter make up the assertion before any receive slot has landed. -/
theorem toMidS (m : Mem F) (K : Dev nD × Option (Fin 4 × Fin 31) → ℕ) (c : Dev nD)
    (s : Buf (Elt F) ((c : Thread nD τ).loc cc0_stg3_0)) (W : Waits sig Unit)
    (f2 : Buf (Elt F) (agB.view.loc (c : Thread nD τ))) :
    iprop(records m K ∗ levAts L lv
        ∗ slotPts srcB c (dv c) fullShare (P m c)
        ∗ slotPts agB c (dv c) fullShare f2
        ∗ (bigSep Finset.univ fun r : Fin 31 => iprop(∃ f, slotPts agB (nb c r) (dv c) fullShare f))
        ∗ Mid.staging m c s
        ∗ owes c (owedAg c 31) W
        ∗ (bigSep Finset.univ fun r : Fin 31 => iprop(atPos ER (rsS c r) 0 ∅ 0 ∗ atPos ER (agS c r) 0 ∅ 0 ∗ atPos ER (agR c r) 0 ∅ 0))
        ∗ atPos ER (bar c) 1 ∅ 0
        ∗ PreA.chain31 (fun r => cred (tallyAt (rsS c r) () N))
        ∗ (bigSep Finset.univ fun r : Fin 31 => cred (tallyAt (agR c r) () N))
        ∗ (bigSep Finset.univ fun r : Fin 31 => iprop(dutyTok ER (agS c r) 0 0 ∗ dutyTok ER (agR (nb c r) r) 0 0))
        ∗ slotPts rsB c 0 fullShare (rsAll (P m) c)
        ∗ (bigSep Finset.univ fun r : Fin 31 => atPos ER (rsR c r) 0 ∅ 0)
        ∗ (bigSep Finset.univ fun r : Fin 31 => cred (tallyAt (rsR c r) () N)))
      ⊢ (Mid.MidS m K c s W : sProp 𝕄) := by
  unfold MidS MidRest
  rw [← PreA.chain31_eq]
  iintro ⟨H1, H2, H3, H4, H5, H6, H7, H8, H9, H10, H11, H12, H13, H14, H15⟩
  isplitl [H1 H2 H3 H4 H5 H6 H7 H8 H9 H10 H11 H12]
  · isplitl [H1]; · iexact H1
    isplitl [H3]; · iexact H3
    isplitl [H4]; · iexists f2; iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H2
  · isplitl [H13]; · iexact H13
    isplitl [H14]; · iexact H14
    iexact H15

/-- info: 'Cert.Kernel.PostA.toMidS' depends on axioms: [propext, Classical.choice, Quot.sound] -/
#guard_msgs in #print axioms toMidS

end Cert.Kernel.PostA

end
-- ==== Proof.BodyW_Bits.lean ====
/-
The reduce-scatter's first thirty receive waits (parts twenty to twenty-eight of the body's printed sequence). A device
waits on its receive cells 30, 29, …, 1 in turn; each cell has one round of one duty, a slot's credit, paid by the
device whose copy lands in that slot, so each wait is for the rest of the cell's round and hands back the slot at the
landed contents. Before the waits the device holds only its own slot 0 of the receive buffer and is at round 0 of every
receive cell with the cell's credit; after them it holds every slot but slot 1 and is past the round of every receive
cell but cell 0. What it owes (the all-gather's credits, all above the receive cells' level) does not change.
-/
import proofs.«900791_g7700000000000792_dist_gconv1d_cshard_i_b4_s512_c256_v7x_i32_bf16_1_alg».proof.Proof.CutA_Bits
import proofs.«900791_g7700000000000792_dist_gconv1d_cshard_i_b4_s512_c256_v7x_i32_bf16_1_alg».proof.Proof.Mid_Bits
import proofs.«900791_g7700000000000792_dist_gconv1d_cshard_i_b4_s512_c256_v7x_i32_bf16_1_alg».proof.Proof.Tables_Bits
import proofs.«900791_g7700000000000792_dist_gconv1d_cshard_i_b4_s512_c256_v7x_i32_bf16_1_alg».proof.Proof.Levels_Bits
import Idealize.ShloMosaic.Lib.Tactic

set_option synthInstance.maxSize 4096

noncomputable section
namespace Cert.Kernel.BodyW

open Cert.Kernel Cert.Kernel.Gen Cert.Kernel.CutA Cert.Kernel.Contents Cert.Kernel.Proto Cert.Kernel.Tables Cert.Kernel.Levels Cert.Kernel.Mid
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig Unit (Elt F) ℕ UU ℕ

/-! ## One wait -/

/-- `bigSep_insert`, stated with the proof mode's `∗`. -/
theorem bigSep_insert' {M : Type} [URA M] {I : Type} [DecidableEq I] {s : Finset I} {i : I} (hi : i ∉ s) (Φ : I → sProp M) :
    bigSep (insert i s) Φ = iprop(Φ i ∗ bigSep s Φ) := bigSep_insert hi

/-- One receive wait of the reduce-scatter: the owner of cell `r` of the receive pool, at the start of the cell's one
    round, waits for a slot's credit and comes back with the slot at the landed contents. -/
theorem recv_wait (m : Mem F) (c : Dev nD) (r : Fin 31) (κ : ℕ) (W : Waits sig Unit) {α : Type}
    {sp' : Space} {s' : Shape} {e' : EltTy} (src : Memref sig .tc sp' s' e') (dst : Memref sig .tc .vmem S64x256 .bf16)
    (hsrc : src.view.WordExact) (hdst : dst.view.WordExact) (hd : dst.view.dmaCredit = N)
    (k : PUnit → Prog (TpuEff nD τ sig (Elt F) Λ₀ .tc) α) (Q : α → sProp 𝕄) :
    iprop(cellInv ER (sched m) κ (rsR c r) ∗ cred (tallyAt (rsR c r) () N) ∗ owes (c : Thread nD τ) (owedAg c 31) W
        ∗ levAts L lv ∗ atPos ER (rsR c r) 0 ∅ 0)
      ⊢ iprop(((owes (c : Thread nD τ) (owedAg c 31) (insert (SemLoc.dma (dsem 1 r), ()) W) ∗ atPos ER (rsR c r) 1 ∅ 0 ∗ reached ER (rsR c r) 1
              ∗ rsRPay m c r)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (dsem 1 r) src dst hsrc hdst) k) Q) := by
  iintro ⟨#HI, Hc, HO, #Hlev, Hat⟩ Hk
  have hMW : ∀ r : Fin 31, (levAts L lv : sProp 𝕄) ⊢ MayWait (c : Thread nD τ) (osem (1, r)) () (owedAg c 31) := fun r => mayWait_rsR c r 31
  sl_exec
  iapply Hk
  isplitl [HO]; · iexact HO
  isplitl [Hat]; · iexact Hat
  isplitl [Hat_reached]; · iexact Hat_reached
  unfold rsRPay
  iexact Hat_pay1

/-! ## The waits one after another -/

/-- The thread's holdings with the receive cells `S` waited: those cells past their round with their slots landed, the
    others at round 0 with their credits. -/
def WSt (m : Mem F) (K : Dev nD × Option (Fin 4 × Fin 31) → ℕ) (c : Dev nD)
    (s : Buf (Elt F) ((c : Thread nD τ).loc cc0_stg3_0)) (W : Waits sig Unit) (S : Finset (Fin 31)) : sProp 𝕄 :=
  iprop(MidRest m K c s W
    ∗ slotPts rsB c 0 fullShare (rsAll (P m) c)
    ∗ (bigSep S fun r => iprop(atPos ER (rsR c r) 1 ∅ 0 ∗ rsRPay m c r))
    ∗ (bigSep (Finset.univ \ S) fun r => iprop(atPos ER (rsR c r) 0 ∅ 0 ∗ cred (tallyAt (rsR c r) () N))))

theorem sdiff_insert_split {r : Fin 31} {S : Finset (Fin 31)} (hr : r ∉ S) :
    Finset.univ \ S = insert r (Finset.univ \ insert r S) := by
  ext x
  simp only [Finset.mem_sdiff, Finset.mem_univ, true_and, Finset.mem_insert, not_or]
  constructor
  · intro h
    by_cases hx : x = r
    · exact Or.inl hx
    · exact Or.inr ⟨hx, h⟩
  · rintro (rfl | ⟨_, h⟩)
    · exact hr
    · exact h

theorem not_mem_sdiff_insert (r : Fin 31) (S : Finset (Fin 31)) : r ∉ Finset.univ \ insert r S := by
  simp only [Finset.mem_sdiff, Finset.mem_univ, true_and, Finset.mem_insert, true_or, not_true_eq_false, not_false_eq_true]

/-- The wait on receive cell `r`, not yet waited: afterwards it is among the waited ones. -/
theorem step (m : Mem F) (K : Dev nD × Option (Fin 4 × Fin 31) → ℕ) (c : Dev nD)
    (s : Buf (Elt F) ((c : Thread nD τ).loc cc0_stg3_0)) (W : Waits sig Unit) (r : Fin 31) (S : Finset (Fin 31)) (hr : r ∉ S) {α : Type}
    {sp' : Space} {s' : Shape} {e' : EltTy} (src : Memref sig .tc sp' s' e') (dst : Memref sig .tc .vmem S64x256 .bf16)
    (hsrc : src.view.WordExact) (hdst : dst.view.WordExact) (sem : DmaSem sig) (hsem : sem = dsem 1 r) (hd : dst.view.dmaCredit = N)
    (k : PUnit → Prog (TpuEff nD τ sig (Elt F) Λ₀ .tc) α) (Q : α → sProp 𝕄)
    (hk : WSt m K c s (insert (SemLoc.dma (dsem 1 r), ()) W) (insert r S) ⊢ wp frame (wpE (defs₀ (F := F)) 𝒱₀ (c : Thread nD τ) none) Set.univ (k ⟨⟩) Q) :
    WSt m K c s W S ⊢ wp frame (wpE (defs₀ (F := F)) 𝒱₀ (c : Thread nD τ) none) Set.univ (.op (.waitDma2 sem src dst hsrc hdst) k) Q := by
  subst hsem
  have hk' := hk
  unfold WSt MidRest records at hk'
  rw [bigSep_insert' hr] at hk'
  unfold WSt MidRest records
  rw [sdiff_insert_split hr, bigSep_insert' (not_mem_sdiff_insert r S)]
  have hI : (bigSep Finset.univ fun ck : Dev nD × Option (Fin 4 × Fin 31) => (cellInv ER (sched m) (K ck) (kcell ck) : sProp 𝕄))
      ⊢ cellInv ER (sched m) (K (c, some (1, r))) (rsR c r) := bigSep_elim (Finset.mem_univ _)
  iintro ⟨⟨⟨#HI, #HR⟩, Hsrc, Hag, Hags, Hstg, HO, Hpos, Hbar, Hcs, Hca, Htok, #Hlev⟩, H0, HS, ⟨Hat, Hc⟩, Hrest⟩
  iapply (recv_wait m c r (K (c, some (1, r))) W src dst hsrc hdst hd k Q) $$ [Hc HO Hat]
  · isplitr
    · iapply hI; iexact HI
    isplitl [Hc]; · iexact Hc
    isplitl [HO]; · iexact HO
    isplitr; · iexact Hlev
    iexact Hat
  iintro ⟨HO, Hat, -, Hp⟩
  iapply hk'
  isplitl [Hsrc Hag Hags Hstg HO Hpos Hbar Hcs Hca Htok]
  · isplitr
    · isplitr; · iexact HI
      iexact HR
    isplitl [Hsrc]; · iexact Hsrc
    isplitl [Hag]; · iexact Hag
    isplitl [Hags]; · iexact Hags
    isplitl [Hstg]; · iexact Hstg
    isplitl [HO]; · iexact HO
    isplitl [Hpos]; · iexact Hpos
    isplitl [Hbar]; · iexact Hbar
    isplitl [Hcs]; · iexact Hcs
    isplitl [Hca]; · iexact Hca
    isplitl [Htok]; · iexact Htok
    iexact Hlev
  isplitl [H0]; · iexact H0
  isplitl [Hat Hp HS]
  · isplitl [Hat Hp]
    · isplitl [Hat] <;> iassumption
    iexact HS
  iexact Hrest

/-- Before any wait. -/
theorem start_eq (m : Mem F) (K : Dev nD × Option (Fin 4 × Fin 31) → ℕ) (c : Dev nD)
    (s : Buf (Elt F) ((c : Thread nD τ).loc cc0_stg3_0)) (W : Waits sig Unit) : MidS m K c s W ⊢ WSt m K c s W ∅ := by
  unfold MidS WSt
  rw [Finset.sdiff_empty, bigSep_empty, bigSep_sep']
  iintro ⟨HM, H0, Hat, Hc⟩
  isplitl [HM]; · iexact HM
  isplitl [H0]; · iexact H0
  isplitr; · iempintro
  isplitl [Hat] <;> iassumption

theorem sl_injective : Function.Injective sl := fun a b h => Fin.ext (by have := congrArg Fin.val h; simp only [sl] at this; omega)

/-- After the thirty waits: every receive cell but cell 0 is past its round, its slot landed. -/
theorem finish (m : Mem F) (K : Dev nD × Option (Fin 4 × Fin 31) → ℕ) (c : Dev nD)
    (s : Buf (Elt F) ((c : Thread nD τ).loc cc0_stg3_0)) (W : Waits sig Unit) :
    WSt m K c s W (Finset.univ.erase 0) ⊢ Mid.Mid m K c s W := by
  have h1 : (Finset.univ : Finset (Fin 31)) \ Finset.univ.erase 0 = {0} := by decide
  have h2 : (Finset.univ.erase (1 : Fin 32)) = insert 0 ((Finset.univ.erase (0 : Fin 31)).map ⟨sl, sl_injective⟩) := by decide
  have h3 : (0 : Fin 32) ∉ (Finset.univ.erase (0 : Fin 31)).map ⟨sl, sl_injective⟩ := by decide
  unfold WSt Mid.Mid
  rw [h1, bigSep_singleton, bigSep_sep', h2, bigSep_insert' h3, bigSep_map]
  iintro ⟨HM, H0, ⟨Hat1, Hp⟩, Hat0, Hc0⟩
  isplitl [HM]; · iexact HM
  isplitl [H0 Hp]
  · isplitl [H0]; · iexact H0
    iexact Hp
  isplitl [Hat0 Hat1]
  · isplitl [Hat0] <;> iassumption
  iexact Hc0

set_option maxRecDepth 8192 in
set_option maxHeartbeats 1000000 in
/-- The thirty receive waits of parts twenty to twenty-eight: from every receive cell at round 0 to all but cell 0 past
    their round, their slots landed. -/
theorem recvWaits (m : Mem F) (K : Dev nD × Option (Fin 4 × Fin 31) → ℕ) (c : Dev nD)
    (s : Buf (Elt F) ((c : Thread nD τ).loc cc0_stg3_0)) (W : Waits sig Unit)
    (arg0 : Memref sig .tc .vmem S4x512x256 .f32) (harg0 : arg0.IsWhole) (arg1 : Memref sig .tc .vmem S4x256 .f32) (harg1 : arg1.IsWhole) (arg2 : Memref sig .tc .vmem S256x256 .f32) (harg2 : arg2.IsWhole) (arg3 : Memref sig .tc .vmem S4x512x256 .f32) (harg3 : arg3.IsWhole) (arg4 : Memref sig .tc .vmem S32x64x256 .bf16) (harg4 : arg4.IsWhole) (harg5 : (rsB : Memref sig .tc .vmem S32x64x256 .bf16).IsWhole) (arg6 : Memref sig .tc .vmem S32x64x256 .bf16) (harg6 : arg6.IsWhole) (arg7 : DmaSems sig S32) (arg9 : DmaSems sig S32) (arg10 : DmaSems sig S32)
    (w : Fin 31 → BitVec 32) {α : Type} (kont : Prog (TpuEff nD τ sig (Elt F) Λ₀ .tc) α) (Q : α → sProp 𝕄)
    (hk : ∀ W' : Waits sig Unit, Mid.Mid m K c s W' ⊢ wp frame (wpE (defs₀ (F := F)) 𝒱₀ (c : Thread nD τ) none) Set.univ kont Q) :
    MidS m K c s W ⊢ wp frame (wpE (defs₀ (F := F)) 𝒱₀ (c : Thread nD τ) none) Set.univ
      (progW arg0 harg0 arg1 harg1 arg2 harg2 arg3 harg3 arg4 harg4 rsB harg5 arg6 harg6 arg7 cc0_scratch4 arg9 arg10 c w kont) Q := by
  refine (start_eq m K c s W).trans ?_
  refine step m K c s _ ⟨30, by decide⟩ _ (by decide) _ _ _ _ _ (by rfl) (by rfl) _ Q ?_
  refine step m K c s _ ⟨29, by decide⟩ _ (by decide) _ _ _ _ _ (by rfl) (by rfl) _ Q ?_
  refine step m K c s _ ⟨28, by decide⟩ _ (by decide) _ _ _ _ _ (by rfl) (by rfl) _ Q ?_
  refine step m K c s _ ⟨27, by decide⟩ _ (by decide) _ _ _ _ _ (by rfl) (by rfl) _ Q ?_
  refine step m K c s _ ⟨26, by decide⟩ _ (by decide) _ _ _ _ _ (by rfl) (by rfl) _ Q ?_
  refine step m K c s _ ⟨25, by decide⟩ _ (by decide) _ _ _ _ _ (by rfl) (by rfl) _ Q ?_
  refine step m K c s _ ⟨24, by decide⟩ _ (by decide) _ _ _ _ _ (by rfl) (by rfl) _ Q ?_
  refine step m K c s _ ⟨23, by decide⟩ _ (by decide) _ _ _ _ _ (by rfl) (by rfl) _ Q ?_
  refine step m K c s _ ⟨22, by decide⟩ _ (by decide) _ _ _ _ _ (by rfl) (by rfl) _ Q ?_
  refine step m K c s _ ⟨21, by decide⟩ _ (by decide) _ _ _ _ _ (by rfl) (by rfl) _ Q ?_
  refine step m K c s _ ⟨20, by decide⟩ _ (by decide) _ _ _ _ _ (by rfl) (by rfl) _ Q ?_
  refine step m K c s _ ⟨19, by decide⟩ _ (by decide) _ _ _ _ _ (by rfl) (by rfl) _ Q ?_
  refine step m K c s _ ⟨18, by decide⟩ _ (by decide) _ _ _ _ _ (by rfl) (by rfl) _ Q ?_
  refine step m K c s _ ⟨17, by decide⟩ _ (by decide) _ _ _ _ _ (by rfl) (by rfl) _ Q ?_
  refine step m K c s _ ⟨16, by decide⟩ _ (by decide) _ _ _ _ _ (by rfl) (by rfl) _ Q ?_
  refine step m K c s _ ⟨15, by decide⟩ _ (by decide) _ _ _ _ _ (by rfl) (by rfl) _ Q ?_
  refine step m K c s _ ⟨14, by decide⟩ _ (by decide) _ _ _ _ _ (by rfl) (by rfl) _ Q ?_
  refine step m K c s _ ⟨13, by decide⟩ _ (by decide) _ _ _ _ _ (by rfl) (by rfl) _ Q ?_
  refine step m K c s _ ⟨12, by decide⟩ _ (by decide) _ _ _ _ _ (by rfl) (by rfl) _ Q ?_
  refine step m K c s _ ⟨11, by decide⟩ _ (by decide) _ _ _ _ _ (by rfl) (by rfl) _ Q ?_
  refine step m K c s _ ⟨10, by decide⟩ _ (by decide) _ _ _ _ _ (by rfl) (by rfl) _ Q ?_
  refine step m K c s _ ⟨9, by decide⟩ _ (by decide) _ _ _ _ _ (by rfl) (by rfl) _ Q ?_
  refine step m K c s _ ⟨8, by decide⟩ _ (by decide) _ _ _ _ _ (by rfl) (by rfl) _ Q ?_
  refine step m K c s _ ⟨7, by decide⟩ _ (by decide) _ _ _ _ _ (by rfl) (by rfl) _ Q ?_
  refine step m K c s _ ⟨6, by decide⟩ _ (by decide) _ _ _ _ _ (by rfl) (by rfl) _ Q ?_
  refine step m K c s _ ⟨5, by decide⟩ _ (by decide) _ _ _ _ _ (by rfl) (by rfl) _ Q ?_
  refine step m K c s _ ⟨4, by decide⟩ _ (by decide) _ _ _ _ _ (by rfl) (by rfl) _ Q ?_
  refine step m K c s _ ⟨3, by decide⟩ _ (by decide) _ _ _ _ _ (by rfl) (by rfl) _ Q ?_
  refine step m K c s _ ⟨2, by decide⟩ _ (by decide) _ _ _ _ _ (by rfl) (by rfl) _ Q ?_
  refine step m K c s _ ⟨1, by decide⟩ _ (by decide) _ _ _ _ _ (by rfl) (by rfl) _ Q ?_
  refine (Entails.of_eq (congrArg (WSt m K c s _) (show _ = Finset.univ.erase (0 : Fin 31) from by decide))).trans ?_
  exact (finish m K c s _).trans (hk _)

/-- info: 'Cert.Kernel.BodyW.recvWaits' depends on axioms: [propext, Classical.choice, Quot.sound] -/
#guard_msgs in #print axioms recvWaits

end Cert.Kernel.BodyW
end
-- ==== Proof.BodySends_Bits.lean ====
/-
The reduce-scatter's transfers one after another. With the transfers of the operations in S issued, a device's thread
holds: the credit each of them left on its send cell; for every other operation the chunk it will send, the slot of the
neighbour it will land in, and the two tokens it pays with; what it owes, the receive credits of the transfers not yet
issued among it; and everything the transfers do not touch. One transfer moves its operation into S. When all are
issued this is the assertion the receive waits start from.
-/
import proofs.«900791_g7700000000000792_dist_gconv1d_cshard_i_b4_s512_c256_v7x_i32_bf16_1_alg».proof.Proof.CutS_Bits
import proofs.«900791_g7700000000000792_dist_gconv1d_cshard_i_b4_s512_c256_v7x_i32_bf16_1_alg».proof.Proof.Steps_Bits
import proofs.«900791_g7700000000000792_dist_gconv1d_cshard_i_b4_s512_c256_v7x_i32_bf16_1_alg».proof.Proof.PostA_Bits
import proofs.«900791_g7700000000000792_dist_gconv1d_cshard_i_b4_s512_c256_v7x_i32_bf16_1_alg».proof.Proof.DevEqs_Bits
import proofs.«900791_g7700000000000792_dist_gconv1d_cshard_i_b4_s512_c256_v7x_i32_bf16_1_alg».proof.Proof.BodyW_Bits

set_option synthInstance.maxSize 4096

noncomputable section

namespace Cert.Kernel.BodySends

open Cert.Kernel Cert.Kernel.Gen Cert.Kernel.Contents Cert.Kernel.Proto Cert.Kernel.Mid Cert.Kernel.PreA
open Cert.Kernel.DevEqs Cert.Kernel.Tables
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- What the transfers do not touch. -/
def Carry (m : Mem F) (c : Dev nD) (s : Buf (Elt F) ((c : Thread nD τ).loc cc0_stg3_0))
    (f2 : Buf (Elt F) (agB.view.loc (c : Thread nD τ))) : sProp 𝕄 :=
  iprop(levAts L lv
    ∗ slotPts srcB c (dv c) fullShare (P m c)
    ∗ slotPts agB c (dv c) fullShare f2
    ∗ (bigSep Finset.univ fun r : Fin 31 => iprop(∃ f, slotPts agB (nb c r) (dv c) fullShare f))
    ∗ Mid.staging m c s
    ∗ (bigSep Finset.univ fun r : Fin 31 => iprop(atPos ER (rsS c r) 0 ∅ 0 ∗ atPos ER (agS c r) 0 ∅ 0 ∗ atPos ER (agR c r) 0 ∅ 0))
    ∗ atPos ER (bar c) 1 ∅ 0
    ∗ (bigSep Finset.univ fun r : Fin 31 => cred (tallyAt (agR c r) () N))
    ∗ (bigSep Finset.univ fun r : Fin 31 => iprop(dutyTok ER (agS c r) 0 0 ∗ dutyTok ER (agR (nb c r) r) 0 0))
    ∗ slotPts rsB c 0 fullShare (rsAll (P m) c)
    ∗ (bigSep Finset.univ fun r : Fin 31 => atPos ER (rsR c r) 0 ∅ 0)
    ∗ (bigSep Finset.univ fun r : Fin 31 => cred (tallyAt (rsR c r) () N)))

/-- What transfer `r` takes: the chunk it sends, the neighbour's slot it lands in, and the two tokens it pays with. -/
def sendRes (m : Mem F) (c : Dev nD) (r : Fin 31) : sProp 𝕄 :=
  iprop(slotPts srcB c (dv (nb c r)) fullShare (P m c)
    ∗ (∃ fd, slotPts rsB (nb c r) (sl (rev r)) fullShare fd)
    ∗ dutyTok ER (rsS c r) 0 (0 : Fin 31) ∗ dutyTok ER (rsR (nb c r) (rev r)) 0 (0 : Fin 31))

/-- The thread's holdings with the transfers of the operations in `S` issued and `n` receive credits still owed. -/
def SSt (m : Mem F) (K : Dev nD × Option (Fin 4 × Fin 31) → ℕ) (c : Dev nD)
    (s : Buf (Elt F) ((c : Thread nD τ).loc cc0_stg3_0)) (W : Waits sig Unit)
    (f2 : Buf (Elt F) (agB.view.loc (c : Thread nD τ))) (S : Finset (Fin 31)) (n : ℕ) : sProp 𝕄 :=
  iprop(records m K ∗ Carry m c s f2
    ∗ owes (c : Thread nD τ) (owedAg c 31 + owedRs c n) W
    ∗ (bigSep S fun r => cred (tallyAt (rsS c r) () N))
    ∗ (bigSep (Finset.univ \ S) fun r => sendRes m c r))

/-- One transfer: operation `r`, not yet issued, with `n` left after it; the rest of the program is run from the holdings
    with `r` issued. -/
theorem step' (m : Mem F) (K : Dev nD × Option (Fin 4 × Fin 31) → ℕ) (c : Dev nD)
    (s : Buf (Elt F) ((c : Thread nD τ).loc cc0_stg3_0)) (W : Waits sig Unit)
    (f2 : Buf (Elt F) (agB.view.loc (c : Thread nD τ))) (r : Fin 31) (n : ℕ) (hn : n + r.val = 30)
    (S : Finset (Fin 31)) (hr : r ∉ S) {α : Type}
    (t : Dev nD) (ht : t = nb c r)
    (src dst : Memref sig .tc .vmem S64x256 .bf16) (hsrcE : src = slotM srcB (dv (nb c r))) (hdstE : dst = slotM rsB (sl (rev r)))
    (sS sR : DmaSem sig) (hS : sS = dsem 0 r) (hR : sR = dsem 1 (rev r))
    (hsc : dst.view.ref.isScScratch = false) (hsrc : src.view.WordExact) (hdst : dst.view.WordExact)
    (hsem : DmaTarget.Typed .vmem (SemLoc.dma sR) (.remote ((t : Dev nD) : Thread nD τ) dst (SemLoc.dma sS) hsc))
    (k : PUnit → Prog (TpuEff nD τ sig (Elt F) Λ₀ .tc) α) (Q : α → sProp 𝕄) :
    ⊢ (iprop(SSt m K c s W f2 S (n + 1)
        -∗ (SSt m K c s W f2 (insert r S) n -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma src (.remote ((t : Dev nD) : Thread nD τ) dst (SemLoc.dma sS) hsc) (SemLoc.dma sR) hsrc hdst hsem) k) Q) : sProp 𝕄) := by
  subst ht hsrcE hdstE hS hR
  have h1 : 31 - r.val = n + 1 := by omega
  have h2 : 30 - r.val = n := by omega
  have hs := Steps.rs_send' m c r k Q W (K (c, some (0, r))) (K (nb c r, some (1, rev r))) hsc hsrc hdst hsem
  rw [h1, h2] at hs
  unfold SSt records
  rw [BodyW.bigSep_insert' hr, BodyW.sdiff_insert_split hr, BodyW.bigSep_insert' (BodyW.not_mem_sdiff_insert r S)]
  have hI1 : (bigSep Finset.univ fun ck : Dev nD × Option (Fin 4 × Fin 31) => (cellInv ER (sched m) (K ck) (kcell ck) : sProp 𝕄))
      ⊢ cellInv ER (sched m) (K (c, some (0, r))) (rsS c r) := bigSep_elim (Finset.mem_univ _)
  have hI2 : (bigSep Finset.univ fun ck : Dev nD × Option (Fin 4 × Fin 31) => (cellInv ER (sched m) (K ck) (kcell ck) : sProp 𝕄))
      ⊢ cellInv ER (sched m) (K (nb c r, some (1, rev r))) (rsR (nb c r) (rev r)) := bigSep_elim (Finset.mem_univ _)
  have hR1 : (bigSep Finset.univ fun ck : Dev nD × Option (Fin 4 × Fin 31) => (reached ER (kcell ck) 0 : sProp 𝕄))
      ⊢ reached ER (rsS c r) 0 := bigSep_elim (Finset.mem_univ (c, some (0, r)))
  have hR2 : (bigSep Finset.univ fun ck : Dev nD × Option (Fin 4 × Fin 31) => (reached ER (kcell ck) 0 : sProp 𝕄))
      ⊢ reached ER (rsR (nb c r) (rev r)) 0 := bigSep_elim (Finset.mem_univ (nb c r, some (1, rev r)))
  unfold sendRes
  iintro ⟨⟨#HI, #HR⟩, HC, HO, Hcr, ⟨X, D, T1, T2⟩, Hrest⟩ Hk
  ihave I1 := hI1 $$ HI
  ihave I2 := hI2 $$ HI
  ihave R1 := hR1 $$ HR
  ihave R2 := hR2 $$ HR
  iapply hs $$ I1 I2 X D HO T1 R1 T2 R2
  iintro ⟨Hc, HO⟩
  iapply Hk
  isplitr
  · isplitr; · iexact HI
    iexact HR
  isplitl [HC]; · iexact HC
  isplitl [HO]; · iexact HO
  isplitl [Hc Hcr]
  · isplitl [Hc]; · iexact Hc
    iexact Hcr
  iexact Hrest

/-- The same with the rest of the program's run given outright. -/
theorem step (m : Mem F) (K : Dev nD × Option (Fin 4 × Fin 31) → ℕ) (c : Dev nD)
    (s : Buf (Elt F) ((c : Thread nD τ).loc cc0_stg3_0)) (W : Waits sig Unit)
    (f2 : Buf (Elt F) (agB.view.loc (c : Thread nD τ))) (r : Fin 31) (n : ℕ) (hn : n + r.val = 30)
    (S : Finset (Fin 31)) (hr : r ∉ S) {α : Type}
    (t : Dev nD) (ht : t = nb c r)
    (src dst : Memref sig .tc .vmem S64x256 .bf16) (hsrcE : src = slotM srcB (dv (nb c r))) (hdstE : dst = slotM rsB (sl (rev r)))
    (sS sR : DmaSem sig) (hS : sS = dsem 0 r) (hR : sR = dsem 1 (rev r))
    (hsc : dst.view.ref.isScScratch = false) (hsrc : src.view.WordExact) (hdst : dst.view.WordExact)
    (hsem : DmaTarget.Typed .vmem (SemLoc.dma sR) (.remote ((t : Dev nD) : Thread nD τ) dst (SemLoc.dma sS) hsc))
    (k : PUnit → Prog (TpuEff nD τ sig (Elt F) Λ₀ .tc) α) (Q : α → sProp 𝕄)
    (hk : SSt m K c s W f2 (insert r S) n ⊢ wp frame (wpE (defs₀ (F := F)) 𝒱₀ (c : Thread nD τ) none) Set.univ (k ⟨⟩) Q) :
    SSt m K c s W f2 S (n + 1) ⊢ wp frame (wpE (defs₀ (F := F)) 𝒱₀ (c : Thread nD τ) none) Set.univ
      (.op (.enqueueDma src (.remote ((t : Dev nD) : Thread nD τ) dst (SemLoc.dma sS) hsc) (SemLoc.dma sR) hsrc hdst hsem) k) Q := by
  iintro HS
  iapply (step' m K c s W f2 r n hn S hr t ht src dst hsrcE hdstE sS sR hS hR hsc hsrc hdst hsem k Q) $$ HS
  iintro HS'
  iapply hk
  iexact HS'

/-- With every transfer issued: the assertion before any receive slot has landed. -/
theorem finish (m : Mem F) (K : Dev nD × Option (Fin 4 × Fin 31) → ℕ) (c : Dev nD)
    (s : Buf (Elt F) ((c : Thread nD τ).loc cc0_stg3_0)) (W : Waits sig Unit)
    (f2 : Buf (Elt F) (agB.view.loc (c : Thread nD τ))) :
    SSt m K c s W f2 Finset.univ 0 ⊢ Mid.MidS m K c s W := by
  refine BIBase.Entails.trans ?_ (PostA.toMidS m K c s W f2)
  unfold SSt Carry
  rw [Finset.sdiff_self, bigSep_empty, ← PreA.chain31_eq]
  iintro ⟨Hrec, ⟨Hlev, H3, H4, H5, H6, H8, H9, H11, H12, H13, H14, H15⟩, HO, Hcr, -⟩
  ihave HO := (Steps.owes_rs0 c (owedAg c 31) W) $$ HO
  isplitl [Hrec]; · iexact Hrec
  isplitl [Hlev]; · iexact Hlev
  isplitl [H3]; · iexact H3
  isplitl [H4]; · iexact H4
  isplitl [H5]; · iexact H5
  isplitl [H6]; · iexact H6
  isplitl [HO]; · iexact HO
  isplitl [H8]; · iexact H8
  isplitl [H9]; · iexact H9
  isplitl [Hcr]; · iexact Hcr
  isplitl [H11]; · iexact H11
  isplitl [H12]; · iexact H12
  isplitl [H13]; · iexact H13
  isplitl [H14]; · iexact H14
  iexact H15

/-- The pieces held before the first transfer, the families of the 31 operations as chains, make up the holdings with no
    transfer issued. -/
theorem pack (m : Mem F) (K : Dev nD × Option (Fin 4 × Fin 31) → ℕ) (c : Dev nD)
    (s : Buf (Elt F) ((c : Thread nD τ).loc cc0_stg3_0)) (W : Waits sig Unit)
    (f2 : Buf (Elt F) (agB.view.loc (c : Thread nD τ))) :
    iprop(records m K ∗ levAts L lv
        ∗ slotPts srcB c (dv c) fullShare (P m c)
        ∗ PreA.chain31 (fun r => slotPts srcB c (dv (nb c r)) fullShare (P m c))
        ∗ PreA.chain31 (fun r => iprop(∃ f, slotPts rsB (nb c r) (sl (rev r)) fullShare f))
        ∗ PreA.chain31 (fun r => iprop(dutyTok ER (rsS c r) 0 (0 : Fin 31) ∗ dutyTok ER (rsR (nb c r) (rev r)) 0 (0 : Fin 31)))
        ∗ slotPts agB c (dv c) fullShare f2
        ∗ (bigSep Finset.univ fun r : Fin 31 => iprop(∃ f, slotPts agB (nb c r) (dv c) fullShare f))
        ∗ Mid.staging m c s
        ∗ owes (c : Thread nD τ) (owedAg c 31 + owedRs c 31) W
        ∗ (bigSep Finset.univ fun r : Fin 31 => iprop(atPos ER (rsS c r) 0 ∅ 0 ∗ atPos ER (agS c r) 0 ∅ 0 ∗ atPos ER (agR c r) 0 ∅ 0))
        ∗ atPos ER (bar c) 1 ∅ 0
        ∗ (bigSep Finset.univ fun r : Fin 31 => cred (tallyAt (agR c r) () N))
        ∗ (bigSep Finset.univ fun r : Fin 31 => iprop(dutyTok ER (agS c r) 0 0 ∗ dutyTok ER (agR (nb c r) r) 0 0))
        ∗ slotPts rsB c 0 fullShare (rsAll (P m) c)
        ∗ (bigSep Finset.univ fun r : Fin 31 => atPos ER (rsR c r) 0 ∅ 0)
        ∗ (bigSep Finset.univ fun r : Fin 31 => cred (tallyAt (rsR c r) () N)))
      ⊢ (SSt m K c s W f2 ∅ 31 : sProp 𝕄) := by
  have hsr : iprop((bigSep Finset.univ fun r : Fin 31 => (slotPts srcB c (dv (nb c r)) fullShare (P m c) : sProp 𝕄))
        ∗ (bigSep Finset.univ fun r : Fin 31 => (iprop(∃ f, slotPts rsB (nb c r) (sl (rev r)) fullShare f) : sProp 𝕄))
        ∗ (bigSep Finset.univ fun r : Fin 31 => (iprop(dutyTok ER (rsS c r) 0 (0 : Fin 31) ∗ dutyTok ER (rsR (nb c r) (rev r)) 0 (0 : Fin 31)) : sProp 𝕄)))
      ⊢ bigSep Finset.univ (fun r : Fin 31 => sendRes m c r) := by
    unfold sendRes
    simp only [bigSep_sep']
    exact BIBase.Entails.rfl
  unfold SSt Carry
  rw [Finset.sdiff_empty, bigSep_empty, ← PreA.chain31_eq, ← PreA.chain31_eq, ← PreA.chain31_eq]
  iintro ⟨H1, H2, H3, HX, HD, HT, H7, H8, H9, HO, H11, H12, H13, H14, H15, H16, H17⟩
  isplitl [H1]; · iexact H1
  isplitl [H2 H3 H7 H8 H9 H11 H12 H13 H14 H15 H16 H17]
  · isplitl [H2]; · iexact H2
    isplitl [H3]; · iexact H3
    isplitl [H7]; · iexact H7
    isplitl [H8]; · iexact H8
    isplitl [H9]; · iexact H9
    isplitl [H11]; · iexact H11
    isplitl [H12]; · iexact H12
    isplitl [H13]; · iexact H13
    isplitl [H14]; · iexact H14
    isplitl [H15]; · iexact H15
    isplitl [H16]; · iexact H16
    iexact H17
  isplitl [HO]; · iexact HO
  isplitr; · iempintro
  iapply hsr
  isplitl [HX]; · iexact HX
  isplitl [HD]; · iexact HD
  iexact HT

set_option maxRecDepth 8192 in
set_option maxHeartbeats 4000000 in
/-- The reduce-scatter's transfers of operations 1 to 30, parts eight to nineteen: from the first transfer issued to all of
    them, which is the assertion the receive waits start from. -/
theorem sends (m : Mem F) (K : Dev nD × Option (Fin 4 × Fin 31) → ℕ) (c : Dev nD)
    (s : Buf (Elt F) ((c : Thread nD τ).loc cc0_stg3_0)) (W : Waits sig Unit)
    (f2 : Buf (Elt F) (agB.view.loc (c : Thread nD τ))) (v2 v184 : BitVec 32) {α : Type}
    (kont : Dev nD → BitVec 32 → (Fin 31 → BitVec 32) → Prog (TpuEff nD τ sig (Elt F) Λ₀ .tc) α) (Q : α → sProp 𝕄)
    (hk : ∀ w : Fin 31 → BitVec 32, Mid.MidS m K c s W ⊢ wp frame (wpE (defs₀ (F := F)) 𝒱₀ (c : Thread nD τ) none) Set.univ (kont c v2 w) Q) :
    SSt m K c s W f2 {0} 30 ⊢ wp frame (wpE (defs₀ (F := F)) 𝒱₀ (c : Thread nD τ) none) Set.univ
      (CutS.progSends (Memref.whole cc0_stg0_0) (Memref.isWhole_whole _) (Memref.whole cc0_stg1_0) (Memref.isWhole_whole _) (Memref.whole cc0_stg2_0) (Memref.isWhole_whole _) (Memref.whole cc0_stg3_0) (Memref.isWhole_whole _) srcB (Memref.isWhole_whole _) rsB (Memref.isWhole_whole _) agB (Memref.isWhole_whole _) cc0_scratch3 cc0_scratch4 cc0_scratch5 cc0_scratch6 c v2 v184 kont) Q := by
  refine step m K c s W f2 ⟨1, by decide⟩ 29 rfl _ (by decide) _ (dev33_eq c) _ _ (srcSlot1_eq srcB c _ _) (by rfl) _ _ (by rfl) (by rfl) _ _ _ _ _ Q ?_
  refine step m K c s W f2 ⟨2, by decide⟩ 28 rfl _ (by decide) _ (dev34_eq c) _ _ (srcSlot2_eq srcB c _ _) (by rfl) _ _ (by rfl) (by rfl) _ _ _ _ _ Q ?_
  refine step m K c s W f2 ⟨3, by decide⟩ 27 rfl _ (by decide) _ (dev35_eq c) _ _ (srcSlot3_eq srcB c _ _) (by rfl) _ _ (by rfl) (by rfl) _ _ _ _ _ Q ?_
  refine step m K c s W f2 ⟨4, by decide⟩ 26 rfl _ (by decide) _ (dev36_eq c) _ _ (srcSlot4_eq srcB c _ _) (by rfl) _ _ (by rfl) (by rfl) _ _ _ _ _ Q ?_
  refine step m K c s W f2 ⟨5, by decide⟩ 25 rfl _ (by decide) _ (dev37_eq c) _ _ (srcSlot5_eq srcB c _ _) (by rfl) _ _ (by rfl) (by rfl) _ _ _ _ _ Q ?_
  refine step m K c s W f2 ⟨6, by decide⟩ 24 rfl _ (by decide) _ (dev38_eq c) _ _ (srcSlot6_eq srcB c _ _) (by rfl) _ _ (by rfl) (by rfl) _ _ _ _ _ Q ?_
  refine step m K c s W f2 ⟨7, by decide⟩ 23 rfl _ (by decide) _ (dev39_eq c) _ _ (srcSlot7_eq srcB c _ _) (by rfl) _ _ (by rfl) (by rfl) _ _ _ _ _ Q ?_
  refine step m K c s W f2 ⟨8, by decide⟩ 22 rfl _ (by decide) _ (dev40_eq c) _ _ (srcSlot8_eq srcB c _ _) (by rfl) _ _ (by rfl) (by rfl) _ _ _ _ _ Q ?_
  refine step m K c s W f2 ⟨9, by decide⟩ 21 rfl _ (by decide) _ (dev41_eq c) _ _ (srcSlot9_eq srcB c _ _) (by rfl) _ _ (by rfl) (by rfl) _ _ _ _ _ Q ?_
  refine step m K c s W f2 ⟨10, by decide⟩ 20 rfl _ (by decide) _ (dev42_eq c) _ _ (srcSlot10_eq srcB c _ _) (by rfl) _ _ (by rfl) (by rfl) _ _ _ _ _ Q ?_
  refine step m K c s W f2 ⟨11, by decide⟩ 19 rfl _ (by decide) _ (dev43_eq c) _ _ (srcSlot11_eq srcB c _ _) (by rfl) _ _ (by rfl) (by rfl) _ _ _ _ _ Q ?_
  refine step m K c s W f2 ⟨12, by decide⟩ 18 rfl _ (by decide) _ (dev44_eq c) _ _ (srcSlot12_eq srcB c _ _) (by rfl) _ _ (by rfl) (by rfl) _ _ _ _ _ Q ?_
  refine step m K c s W f2 ⟨13, by decide⟩ 17 rfl _ (by decide) _ (dev45_eq c) _ _ (srcSlot13_eq srcB c _ _) (by rfl) _ _ (by rfl) (by rfl) _ _ _ _ _ Q ?_
  refine step m K c s W f2 ⟨14, by decide⟩ 16 rfl _ (by decide) _ (dev46_eq c) _ _ (srcSlot14_eq srcB c _ _) (by rfl) _ _ (by rfl) (by rfl) _ _ _ _ _ Q ?_
  refine step m K c s W f2 ⟨15, by decide⟩ 15 rfl _ (by decide) _ (dev47_eq c) _ _ (srcSlot15_eq srcB c _ _) (by rfl) _ _ (by rfl) (by rfl) _ _ _ _ _ Q ?_
  refine step m K c s W f2 ⟨16, by decide⟩ 14 rfl _ (by decide) _ (dev48_eq c) _ _ (srcSlot16_eq srcB c _ _) (by rfl) _ _ (by rfl) (by rfl) _ _ _ _ _ Q ?_
  refine step m K c s W f2 ⟨17, by decide⟩ 13 rfl _ (by decide) _ (dev49_eq c) _ _ (srcSlot17_eq srcB c _ _) (by rfl) _ _ (by rfl) (by rfl) _ _ _ _ _ Q ?_
  refine step m K c s W f2 ⟨18, by decide⟩ 12 rfl _ (by decide) _ (dev50_eq c) _ _ (srcSlot18_eq srcB c _ _) (by rfl) _ _ (by rfl) (by rfl) _ _ _ _ _ Q ?_
  refine step m K c s W f2 ⟨19, by decide⟩ 11 rfl _ (by decide) _ (dev51_eq c) _ _ (srcSlot19_eq srcB c _ _) (by rfl) _ _ (by rfl) (by rfl) _ _ _ _ _ Q ?_
  refine step m K c s W f2 ⟨20, by decide⟩ 10 rfl _ (by decide) _ (dev52_eq c) _ _ (srcSlot20_eq srcB c _ _) (by rfl) _ _ (by rfl) (by rfl) _ _ _ _ _ Q ?_
  refine step m K c s W f2 ⟨21, by decide⟩ 9 rfl _ (by decide) _ (dev53_eq c) _ _ (srcSlot21_eq srcB c _ _) (by rfl) _ _ (by rfl) (by rfl) _ _ _ _ _ Q ?_
  refine step m K c s W f2 ⟨22, by decide⟩ 8 rfl _ (by decide) _ (dev54_eq c) _ _ (srcSlot22_eq srcB c _ _) (by rfl) _ _ (by rfl) (by rfl) _ _ _ _ _ Q ?_
  refine step m K c s W f2 ⟨23, by decide⟩ 7 rfl _ (by decide) _ (dev55_eq c) _ _ (srcSlot23_eq srcB c _ _) (by rfl) _ _ (by rfl) (by rfl) _ _ _ _ _ Q ?_
  refine step m K c s W f2 ⟨24, by decide⟩ 6 rfl _ (by decide) _ (dev56_eq c) _ _ (srcSlot24_eq srcB c _ _) (by rfl) _ _ (by rfl) (by rfl) _ _ _ _ _ Q ?_
  refine step m K c s W f2 ⟨25, by decide⟩ 5 rfl _ (by decide) _ (dev57_eq c) _ _ (srcSlot25_eq srcB c _ _) (by rfl) _ _ (by rfl) (by rfl) _ _ _ _ _ Q ?_
  refine step m K c s W f2 ⟨26, by decide⟩ 4 rfl _ (by decide) _ (dev58_eq c) _ _ (srcSlot26_eq srcB c _ _) (by rfl) _ _ (by rfl) (by rfl) _ _ _ _ _ Q ?_
  refine step m K c s W f2 ⟨27, by decide⟩ 3 rfl _ (by decide) _ (dev59_eq c) _ _ (srcSlot27_eq srcB c _ _) (by rfl) _ _ (by rfl) (by rfl) _ _ _ _ _ Q ?_
  refine step m K c s W f2 ⟨28, by decide⟩ 2 rfl _ (by decide) _ (dev60_eq c) _ _ (srcSlot28_eq srcB c _ _) (by rfl) _ _ (by rfl) (by rfl) _ _ _ _ _ Q ?_
  refine step m K c s W f2 ⟨29, by decide⟩ 1 rfl _ (by decide) _ (dev61_eq c) _ _ (srcSlot29_eq srcB c _ _) (by rfl) _ _ (by rfl) (by rfl) _ _ _ _ _ Q ?_
  refine step m K c s W f2 ⟨30, by decide⟩ 0 rfl _ (by decide) _ (dev62_eq c) _ _ (srcSlot30_eq srcB c _ _) (by rfl) _ _ (by rfl) (by rfl) _ _ _ _ _ Q ?_
  refine (Entails.of_eq (congrArg (fun S => SSt m K c s W f2 S 0) (show _ = (Finset.univ : Finset (Fin 31)) from by decide))).trans ?_
  exact (finish m K c s W f2).trans (hk _)

/-- info: 'Cert.Kernel.BodySends.sends' depends on axioms: [propext, Classical.choice, Quot.sound] -/
#guard_msgs in #print axioms sends

/-- info: 'Cert.Kernel.BodySends.pack' depends on axioms: [propext, Classical.choice, Quot.sound] -/
#guard_msgs in #print axioms pack

/-- info: 'Cert.Kernel.BodySends.step'' depends on axioms: [propext, Classical.choice, Quot.sound] -/
#guard_msgs in #print axioms step'

end Cert.Kernel.BodySends

end
-- ==== Proof.BodyA_Bits.lean ====
/-
One thread's body at a symbolic device `c`, from its start to the point where the reduce-scatter's 31 copies have been
issued. In order: the device signals the barrier cell of each of its 31 forward neighbours, paying each signal's duty
with the two slots of its own that the neighbour's copies will land in (slot `r + 1` of its receive buffer and the
neighbour's slot of its all-gather buffer); it loads its three argument blocks, stores its partial product `P m c` whole,
and copies its own chunk into slot 0 of its receive buffer, which then holds `rsAll (P m) c` there; it waits for the 31
units of its own barrier cell and receives, from each neighbour, the slot of that neighbour its copy will write; its
partial product is cut into its own chunk and the 31 chunks by neighbour; the first copy goes to the next device, and
the thirty that remain run from one packed state. What is owed shrinks by one unit a signal and one slot's credit a copy.
The precondition is `PreA`; the continuation is entered at `MidS`.
-/
import proofs.«900791_g7700000000000792_dist_gconv1d_cshard_i_b4_s512_c256_v7x_i32_bf16_1_alg».proof.Proof.PreA_Bits
import proofs.«900791_g7700000000000792_dist_gconv1d_cshard_i_b4_s512_c256_v7x_i32_bf16_1_alg».proof.Proof.CutA_Bits
import proofs.«900791_g7700000000000792_dist_gconv1d_cshard_i_b4_s512_c256_v7x_i32_bf16_1_alg».proof.Proof.DevEqs_Bits
import proofs.«900791_g7700000000000792_dist_gconv1d_cshard_i_b4_s512_c256_v7x_i32_bf16_1_alg».proof.Proof.Tables_Bits
import proofs.«900791_g7700000000000792_dist_gconv1d_cshard_i_b4_s512_c256_v7x_i32_bf16_1_alg».proof.Proof.Levels_Bits
import proofs.«900791_g7700000000000792_dist_gconv1d_cshard_i_b4_s512_c256_v7x_i32_bf16_1_alg».proof.Proof.Landing_Bits
import proofs.«900791_g7700000000000792_dist_gconv1d_cshard_i_b4_s512_c256_v7x_i32_bf16_1_alg».proof.Proof.Steps_Bits
import proofs.«900791_g7700000000000792_dist_gconv1d_cshard_i_b4_s512_c256_v7x_i32_bf16_1_alg».proof.Proof.BarWait_Bits
import proofs.«900791_g7700000000000792_dist_gconv1d_cshard_i_b4_s512_c256_v7x_i32_bf16_1_alg».proof.Proof.SrcSplit_Bits
import proofs.«900791_g7700000000000792_dist_gconv1d_cshard_i_b4_s512_c256_v7x_i32_bf16_1_alg».proof.Proof.Stores_Bits
import proofs.«900791_g7700000000000792_dist_gconv1d_cshard_i_b4_s512_c256_v7x_i32_bf16_1_alg».proof.Proof.Slots_Bits
import proofs.«900791_g7700000000000792_dist_gconv1d_cshard_i_b4_s512_c256_v7x_i32_bf16_1_alg».proof.Proof.BodySends_Bits

set_option synthInstance.maxSize 4096

noncomputable section

namespace Cert.Kernel.BodyA

open Cert.Kernel Cert.Kernel.Gen Cert.Kernel.Contents Cert.Kernel.Proto Cert.Kernel.Mid Cert.Kernel.PreA
open Cert.Kernel.DevEqs Cert.Kernel.Tables Cert.Kernel.Levels
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig Unit (Elt F) ℕ UU ℕ

/-- `Steps.sig_step'` with what is still owed counted by a numeral: `n` signals are left after operation `r`. -/
theorem sigN (m : Mem F) (c : Dev nD) (r : Fin 31) (n : ℕ) (hn : n + r.val = 30) (κ : ℕ)
    (f : Buf (Elt F) ((slotM rsB (sl r)).view.loc (c : Thread nD τ))) (g : Buf (Elt F) ((slotM agB (dv (nb c r))).view.loc (c : Thread nD τ)))
    {α : Type} (k : PUnit → Prog (TpuEff nD τ sig (Elt F) Λ₀ .tc) α) (Q : α → sProp 𝕄) (W : Waits sig Unit) :
    ⊢ (iprop(cellInv ER (sched (F := F) m) κ (bar (nb c r)) -∗ owes (c : Thread nD τ) (owedAg c 31 + owedRs c 31 + owedSig c (n + 1)) W
        -∗ dutyTok ER (bar (nb c r)) 0 r -∗ slotPts (F := F) rsB c (sl r) fullShare f -∗ slotPts (F := F) agB c (dv (nb c r)) fullShare g
        -∗ reached ER (rsR c r) 0 -∗ reached ER (agR c (rev r)) 0 -∗ reached ER (bar (nb c r)) 0
        -∗ (owes (c : Thread nD τ) (owedAg c 31 + owedRs c 31 + owedSig c n) W -∗ wp frame (wpE (defs₀ (F := F)) 𝒱₀ (c : Thread nD τ) none) Set.univ (k ⟨⟩) Q)
        -∗ wp frame (wpE (defs₀ (F := F)) 𝒱₀ (c : Thread nD τ) none) Set.univ (.op (.semSignal ((nb c r : Dev nD) : Thread nD τ) barS 1) k) Q) : sProp 𝕄) := by
  have h1 : 31 - r.val = n + 1 := by omega
  have h2 : 30 - r.val = n := by omega
  have h := Steps.sig_step' m c r κ f g k Q W
  rw [h1, h2] at h
  exact h

set_option maxHeartbeats 16000000 in
/-- The body's first nineteen parts at device `c`: from `PreA` they run to the continuation, which is entered at `MidS`
    (every copy of the reduce-scatter issued, no receive slot yet waited for) with the device itself, the word of its
    position and the 31 words the copies' parts compute. -/
theorem sends (m : Mem F) (K : Dev nD × Option (Fin 4 × Fin 31) → ℕ) (c : Dev nD)
    (s : Buf (Elt F) ((c : Thread nD τ).loc cc0_stg3_0)) (W : Waits sig Unit)
    (f0 : Buf (Elt F) (srcB.view.loc (c : Thread nD τ))) (f1 : Buf (Elt F) (rsB.view.loc (c : Thread nD τ)))
    (f2 : Buf (Elt F) (agB.view.loc (c : Thread nD τ))) {α : Type}
    (kont : Dev nD → BitVec 32 → (Fin 31 → BitVec 32) → Prog (TpuEff nD τ sig (Elt F) Λ₀ .tc) α) (Q : α → sProp 𝕄)
    (hk : ∀ (v2 : BitVec 32) (w : Fin 31 → BitVec 32) (W' : Waits sig Unit),
      MidS m K c s W' ⊢ wp frame (wpE (defs₀ (F := F)) 𝒱₀ (c : Thread nD τ) none) Set.univ (kont c v2 w) Q) :
    PreA m K c s W f0 f1 f2 ⊢ wp frame (wpE (defs₀ (F := F)) 𝒱₀ (c : Thread nD τ) none) Set.univ
      (CutA.progS (Memref.whole cc0_stg0_0) (Memref.isWhole_whole _) (Memref.whole cc0_stg1_0) (Memref.isWhole_whole _) (Memref.whole cc0_stg2_0) (Memref.isWhole_whole _) (Memref.whole cc0_stg3_0) (Memref.isWhole_whole _) srcB (Memref.isWhole_whole _) rsB (Memref.isWhole_whole _) agB (Memref.isWhole_whole _) cc0_scratch3 cc0_scratch4 cc0_scratch5 cc0_scratch6 kont) Q := by
  unfold PreA chain31 cellsOf staging O₀
  beta_reduce
  iintro ⟨HK, #Hlev, #IBc,
    ⟨⟨#IB0, #RB0, #IS0, #RS0, #IR0, #RR0, #Qr0, #Qa0⟩, ⟨#IB1, #RB1, #IS1, #RS1, #IR1, #RR1, #Qr1, #Qa1⟩, ⟨#IB2, #RB2, #IS2, #RS2, #IR2, #RR2, #Qr2, #Qa2⟩,
     ⟨#IB3, #RB3, #IS3, #RS3, #IR3, #RR3, #Qr3, #Qa3⟩, ⟨#IB4, #RB4, #IS4, #RS4, #IR4, #RR4, #Qr4, #Qa4⟩, ⟨#IB5, #RB5, #IS5, #RS5, #IR5, #RR5, #Qr5, #Qa5⟩,
     ⟨#IB6, #RB6, #IS6, #RS6, #IR6, #RR6, #Qr6, #Qa6⟩, ⟨#IB7, #RB7, #IS7, #RS7, #IR7, #RR7, #Qr7, #Qa7⟩, ⟨#IB8, #RB8, #IS8, #RS8, #IR8, #RR8, #Qr8, #Qa8⟩,
     ⟨#IB9, #RB9, #IS9, #RS9, #IR9, #RR9, #Qr9, #Qa9⟩, ⟨#IB10, #RB10, #IS10, #RS10, #IR10, #RR10, #Qr10, #Qa10⟩, ⟨#IB11, #RB11, #IS11, #RS11, #IR11, #RR11, #Qr11, #Qa11⟩,
     ⟨#IB12, #RB12, #IS12, #RS12, #IR12, #RR12, #Qr12, #Qa12⟩, ⟨#IB13, #RB13, #IS13, #RS13, #IR13, #RR13, #Qr13, #Qa13⟩, ⟨#IB14, #RB14, #IS14, #RS14, #IR14, #RR14, #Qr14, #Qa14⟩,
     ⟨#IB15, #RB15, #IS15, #RS15, #IR15, #RR15, #Qr15, #Qa15⟩, ⟨#IB16, #RB16, #IS16, #RS16, #IR16, #RR16, #Qr16, #Qa16⟩, ⟨#IB17, #RB17, #IS17, #RS17, #IR17, #RR17, #Qr17, #Qa17⟩,
     ⟨#IB18, #RB18, #IS18, #RS18, #IR18, #RR18, #Qr18, #Qa18⟩, ⟨#IB19, #RB19, #IS19, #RS19, #IR19, #RR19, #Qr19, #Qa19⟩, ⟨#IB20, #RB20, #IS20, #RS20, #IR20, #RR20, #Qr20, #Qa20⟩,
     ⟨#IB21, #RB21, #IS21, #RS21, #IR21, #RR21, #Qr21, #Qa21⟩, ⟨#IB22, #RB22, #IS22, #RS22, #IR22, #RR22, #Qr22, #Qa22⟩, ⟨#IB23, #RB23, #IS23, #RS23, #IR23, #RR23, #Qr23, #Qa23⟩,
     ⟨#IB24, #RB24, #IS24, #RS24, #IR24, #RR24, #Qr24, #Qa24⟩, ⟨#IB25, #RB25, #IS25, #RS25, #IR25, #RR25, #Qr25, #Qa25⟩, ⟨#IB26, #RB26, #IS26, #RS26, #IR26, #RR26, #Qr26, #Qa26⟩,
     ⟨#IB27, #RB27, #IS27, #RS27, #IR27, #RR27, #Qr27, #Qa27⟩, ⟨#IB28, #RB28, #IS28, #RS28, #IR28, #RR28, #Qr28, #Qa28⟩, ⟨#IB29, #RB29, #IS29, #RS29, #IR29, #RR29, #Qr29, #Qa29⟩,
     ⟨#IB30, #RB30, #IS30, #RS30, #IR30, #RR30, #Qr30, #Qa30⟩⟩,
    ⟨TB0, TB1, TB2, TB3, TB4, TB5, TB6, TB7, TB8, TB9, TB10, TB11, TB12, TB13, TB14, TB15, TB16, TB17, TB18, TB19, TB20, TB21, TB22, TB23, TB24, TB25, TB26, TB27, TB28, TB29, TB30⟩,
    Htoks,
    Hagt, Hpbar, HprsR, Hprest, Hcbar, HcrsR, HcagR, Hsrc,
    ⟨S0, S1, S2, S3, S4, S5, S6, S7, S8, S9, S10, S11, S12, S13, S14, S15, S16, S17, S18, S19, S20, S21, S22, S23, S24, S25, S26, S27, S28, S29, S30⟩,
    Hrs0,
    ⟨G0, G1, G2, G3, G4, G5, G6, G7, G8, G9, G10, G11, G12, G13, G14, G15, G16, G17, G18, G19, G20, G21, G22, G23, G24, G25, G26, G27, G28, G29, G30⟩,
    Hagc,
    HO, Hst0, Hst1, Hst2, Hst3⟩
  ihave Hst0 := (show ((((c : Thread nD τ).loc cc0_stg0_0) ↦{fullShare} iblk m c 0 t0_0 : sProp 𝕄)) ⊢ ((Memref.whole cc0_stg0_0).view.loc (c : Thread nD τ) ↦{fullShare} iblk m c 0 t0_0) from BIBase.Entails.rfl) $$ Hst0
  ihave Hst1 := (show ((((c : Thread nD τ).loc cc0_stg1_0) ↦{fullShare} iblk m c 1 t0_0 : sProp 𝕄)) ⊢ ((Memref.whole cc0_stg1_0).view.loc (c : Thread nD τ) ↦{fullShare} iblk m c 1 t0_0) from BIBase.Entails.rfl) $$ Hst1
  ihave Hst2 := (show ((((c : Thread nD τ).loc cc0_stg2_0) ↦{fullShare} iblk m c 2 t0_0 : sProp 𝕄)) ⊢ ((Memref.whole cc0_stg2_0).view.loc (c : Thread nD τ) ↦{fullShare} iblk m c 2 t0_0) from BIBase.Entails.rfl) $$ Hst2
  ihave Hst3 := (show ((((c : Thread nD τ).loc cc0_stg3_0) ↦{fullShare} s : sProp 𝕄)) ⊢ ((Memref.whole cc0_stg3_0).view.loc (c : Thread nD τ) ↦{fullShare} s) from BIBase.Entails.rfl) $$ Hst3
  unfold CutA.progS
  sl_exec_parts
  iapply (sigN m c 0 30 rfl _ _ _ _ _ _) $$ IB0 HO TB0 S0 G0 Qr0 Qa0 RB0
  iintro HO
  sl_exec_parts
  iapply (sigN m c 1 29 rfl _ _ _ _ _ _) $$ IB1 HO TB1 S1 G1 Qr1 Qa1 RB1
  iintro HO
  sl_exec_parts
  iapply (sigN m c 2 28 rfl _ _ _ _ _ _) $$ IB2 HO TB2 S2 G2 Qr2 Qa2 RB2
  iintro HO
  sl_exec_parts
  iapply (sigN m c 3 27 rfl _ _ _ _ _ _) $$ IB3 HO TB3 S3 G3 Qr3 Qa3 RB3
  iintro HO
  sl_exec_parts
  iapply (sigN m c 4 26 rfl _ _ _ _ _ _) $$ IB4 HO TB4 S4 G4 Qr4 Qa4 RB4
  iintro HO
  sl_exec_parts
  iapply (sigN m c 5 25 rfl _ _ _ _ _ _) $$ IB5 HO TB5 S5 G5 Qr5 Qa5 RB5
  iintro HO
  sl_exec_parts
  iapply (sigN m c 6 24 rfl _ _ _ _ _ _) $$ IB6 HO TB6 S6 G6 Qr6 Qa6 RB6
  iintro HO
  sl_exec_parts
  iapply (sigN m c 7 23 rfl _ _ _ _ _ _) $$ IB7 HO TB7 S7 G7 Qr7 Qa7 RB7
  iintro HO
  sl_exec_parts
  iapply (sigN m c 8 22 rfl _ _ _ _ _ _) $$ IB8 HO TB8 S8 G8 Qr8 Qa8 RB8
  iintro HO
  sl_exec_parts
  iapply (sigN m c 9 21 rfl _ _ _ _ _ _) $$ IB9 HO TB9 S9 G9 Qr9 Qa9 RB9
  iintro HO
  sl_exec_parts
  iapply (sigN m c 10 20 rfl _ _ _ _ _ _) $$ IB10 HO TB10 S10 G10 Qr10 Qa10 RB10
  iintro HO
  sl_exec_parts
  iapply (sigN m c 11 19 rfl _ _ _ _ _ _) $$ IB11 HO TB11 S11 G11 Qr11 Qa11 RB11
  iintro HO
  sl_exec_parts
  iapply (sigN m c 12 18 rfl _ _ _ _ _ _) $$ IB12 HO TB12 S12 G12 Qr12 Qa12 RB12
  iintro HO
  sl_exec_parts
  iapply (sigN m c 13 17 rfl _ _ _ _ _ _) $$ IB13 HO TB13 S13 G13 Qr13 Qa13 RB13
  iintro HO
  sl_exec_parts
  iapply (sigN m c 14 16 rfl _ _ _ _ _ _) $$ IB14 HO TB14 S14 G14 Qr14 Qa14 RB14
  iintro HO
  sl_exec_parts
  iapply (sigN m c 15 15 rfl _ _ _ _ _ _) $$ IB15 HO TB15 S15 G15 Qr15 Qa15 RB15
  iintro HO
  sl_exec_parts
  iapply (sigN m c 16 14 rfl _ _ _ _ _ _) $$ IB16 HO TB16 S16 G16 Qr16 Qa16 RB16
  iintro HO
  sl_exec_parts
  iapply (sigN m c 17 13 rfl _ _ _ _ _ _) $$ IB17 HO TB17 S17 G17 Qr17 Qa17 RB17
  iintro HO
  sl_exec_parts
  iapply (sigN m c 18 12 rfl _ _ _ _ _ _) $$ IB18 HO TB18 S18 G18 Qr18 Qa18 RB18
  iintro HO
  sl_exec_parts
  iapply (sigN m c 19 11 rfl _ _ _ _ _ _) $$ IB19 HO TB19 S19 G19 Qr19 Qa19 RB19
  iintro HO
  sl_exec_parts
  iapply (sigN m c 20 10 rfl _ _ _ _ _ _) $$ IB20 HO TB20 S20 G20 Qr20 Qa20 RB20
  iintro HO
  sl_exec_parts
  iapply (sigN m c 21 9 rfl _ _ _ _ _ _) $$ IB21 HO TB21 S21 G21 Qr21 Qa21 RB21
  iintro HO
  sl_exec_parts
  iapply (sigN m c 22 8 rfl _ _ _ _ _ _) $$ IB22 HO TB22 S22 G22 Qr22 Qa22 RB22
  iintro HO
  sl_exec_parts
  iapply (sigN m c 23 7 rfl _ _ _ _ _ _) $$ IB23 HO TB23 S23 G23 Qr23 Qa23 RB23
  iintro HO
  sl_exec_parts
  iapply (sigN m c 24 6 rfl _ _ _ _ _ _) $$ IB24 HO TB24 S24 G24 Qr24 Qa24 RB24
  iintro HO
  sl_exec_parts
  iapply (sigN m c 25 5 rfl _ _ _ _ _ _) $$ IB25 HO TB25 S25 G25 Qr25 Qa25 RB25
  iintro HO
  sl_exec_parts
  iapply (sigN m c 26 4 rfl _ _ _ _ _ _) $$ IB26 HO TB26 S26 G26 Qr26 Qa26 RB26
  iintro HO
  sl_exec_parts
  iapply (sigN m c 27 3 rfl _ _ _ _ _ _) $$ IB27 HO TB27 S27 G27 Qr27 Qa27 RB27
  iintro HO
  sl_exec_parts
  iapply (sigN m c 28 2 rfl _ _ _ _ _ _) $$ IB28 HO TB28 S28 G28 Qr28 Qa28 RB28
  iintro HO
  sl_exec_parts
  iapply (sigN m c 29 1 rfl _ _ _ _ _ _) $$ IB29 HO TB29 S29 G29 Qr29 Qa29 RB29
  iintro HO
  sl_exec_parts
  iapply (sigN m c 30 0 rfl _ _ _ _ _ _) $$ IB30 HO TB30 S30 G30 Qr30 Qa30 RB30
  iintro HO
  have hacc0 : (rsB.access (Rect.unit (s := S32x64x256) ![0, 0, 0] S1x64x256.size inb_S32x64x256_S1x64x256_0_0_0)).set ⊆ (slotM rsB 0).view.set :=
    (Slots.set_access_eq_slot rsB 0 rfl).le
  ihave Hrs0 := (show (slotPts (F := F) rsB c 0 fullShare f1 : sProp 𝕄) ⊢ ((slotM rsB 0).view.loc (c : Thread nD τ) ↦[(slotM rsB 0).view.set]{fullShare} f1) from BIBase.Entails.rfl) $$ Hrs0
  sl_exec_parts
  ihave HO := (Steps.owes_sig0 c _ _) $$ HO
  iapply (BarWait.bar_wait_of_eq m c _ _ _ _ _ (by decide)) $$ [Hcbar HO Hpbar]
  · isplitr; · iexact IBc
    isplitl [Hcbar]; · iexact Hcbar
    isplitl [HO]; · iexact HO
    isplitr; · iexact Hlev
    iexact Hpbar
  iintro ⟨HO, Hpbar, #Rbar1, Hd, Hagp⟩
  sl_exec_parts
  -- what the product's buffer holds is the device's partial product
  have hP : srcB.view.writes (Elt F) srcB.view.junk (sends.sl.Hsrc_1 m c) = P m c := by
    unfold sends.sl.Hsrc_1 sends.sl.r sends.sl.r_1
    exact Stores.src_listed_eq m c _
  unfold sends.sl.Hrs0_w1
  rw [hP]
  ihave Hrs0 := (Stores.rs0_stored m c f1) $$ Hrs0
  ihave Hsl := (SrcSplit.src_split c (P m c)) $$ Hsrc
  icases Hsl with ⟨Hown, Hxs⟩
  -- everything the copies' part needs, as the one state it runs from
  ihave HS := (BodySends.pack m K c s _ f2) $$ [HK Hown Hxs Hd Htoks Hagc Hagp Hst0 Hst1 Hst2 Hst3 HO Hprest Hpbar HcagR Hagt Hrs0 HprsR HcrsR]
  · isplitl [HK]; · iexact HK
    isplitr; · iexact Hlev
    isplitl [Hown]; · iexact Hown
    isplitl [Hxs]; · iexact Hxs
    isplitl [Hd]; · iexact Hd
    isplitl [Htoks]
    · unfold chain31
      beta_reduce
      iexact Htoks
    isplitl [Hagc]; · iexact Hagc
    isplitl [Hagp]; · iexact Hagp
    isplitl [Hst0 Hst1 Hst2 Hst3]
    · unfold staging
      isplitl [Hst0]; · iexact Hst0
      isplitl [Hst1]; · iexact Hst1
      isplitl [Hst2]; · iexact Hst2
      iexact Hst3
    isplitl [HO]; · iexact HO
    isplitl [Hprest]; · iexact Hprest
    isplitl [Hpbar]; · iexact Hpbar
    isplitl [HcagR]; · iexact HcagR
    isplitl [Hagt]; · iexact Hagt
    isplitl [Hrs0]; · iexact Hrs0
    isplitl [HprsR]; · iexact HprsR
    iexact HcrsR
  -- the first copy: to the next device, named by its chain
  iapply (BodySends.step' m K c s _ f2 ⟨0, by decide⟩ 30 rfl ∅ (by decide) _ (dev32_eq c) _ _ (by rfl) (by rfl) _ _ (by rfl) (by rfl) _ _ _ _ _ _) $$ HS
  iintro HS
  -- the copy's part returns its word; the thirty copies that remain run from the packed state
  iapply (le_wp_ret _ _ _ _ _)
  have hS0 : ∀ h : 0 < 31, (BodySends.SSt m K c s (insert (SemLoc.reg barS, ()) W) f2 (insert (⟨0, h⟩ : Fin 31) ∅) 30 : sProp 𝕄)
      ⊢ BodySends.SSt m K c s (insert (SemLoc.reg barS, ()) W) f2 {0} 30 := fun _ => BIBase.Entails.rfl
  ihave HS := (hS0 _) $$ HS
  iapply (BodySends.sends m K c s _ f2 _ _ kont Q (fun w => hk _ w _)) $$ HS

/-- info: 'Cert.Kernel.BodyA.sends' depends on axioms: [propext, Classical.choice, Quot.sound] -/
#guard_msgs in #print axioms sends

end Cert.Kernel.BodyA
-- ==== Proof.ValB_Bits.lean ====
/-
What the body's store of a device's contribution leaves in the all-gather buffer. The contribution of device c
is the sum of its thirty-two received slots; the body stores it through the unit slice of the all-gather buffer
at the device's own position. On the elements of that slot the buffer then holds the all-gather's final contents:
there the final contents are, by definition, the contribution of the device whose number the slot has.
-/
import proofs.«900791_g7700000000000792_dist_gconv1d_cshard_i_b4_s512_c256_v7x_i32_bf16_1_alg».proof.Proof.Proto_Bits
import proofs.«900791_g7700000000000792_dist_gconv1d_cshard_i_b4_s512_c256_v7x_i32_bf16_1_alg».proof.Proof.Slots_Bits
import Idealize.ShloMosaic.Lib.Pipeline.Value

noncomputable section

namespace Cert.Kernel.ValB

open Cert.Kernel Cert.Kernel.Gen Cert.Kernel.Contents Cert.Kernel.Proto Cert.Kernel.Slots
open Idealize.ShloMosaic Idealize.ShloMosaic.ValueIdx
open Idealize.ShloMosaic.TcCoe

variable {F : FTy → Type} [FloatOps F]

/-- On the slot of device `c`'s number the all-gather buffer's final contents are `c`'s contribution: the sum of
    its thirty-two received slots. -/
theorem agAll_slot (Q : Dev nD → Vec F S32x64x256 .bf16) (c : Dev nD) (i : S32x64x256.Idx) (hi : (i 0).val = c.val) :
    agAll Q i = k0_pay7 (rsAll Q c) (ix3 (0 : Fin 1) (i 1) (i 2)) := by
  have e : i 0 = c := Fin.ext hi
  unfold agAll acc
  rw [e]

/-- The view the body stores its contribution through: the unit slice of the all-gather buffer at the device's own slot. -/
abbrev agStV (c : Dev nD) : View sig .tc .vmem S1x64x256 .bf16 :=
  agB.access (Rect.unit (s := S32x64x256) (k0_off1 c) S1x64x256.size (k0_off1_inb c))

/-- After the body stores device `c`'s contribution through that view, into whatever the buffer held, the buffer agrees
    on slot `c` with the all-gather's final contents. -/
theorem agStore_eq (m : Mem F) (c : Dev nD) (f0 : Buf (Elt F) (agB.view.loc (c : Thread nD τ))) :
    ∀ i ∈ (slotM agB (dv c)).view.set,
      (agStV c).write (Elt F) f0 (k0_pay7 (rsAll (P m) c)) Finset.univ i = agAll (P m) i := by
  intro i hi
  have hi' : i ∈ (agStV c).set := by
    rw [set_access_eq_slot agB (dv c) (k0_off1_eq c)]; exact hi
  obtain ⟨y, rfl⟩ := View.exists_emb_of_mem_set (agStV c) hi'
  rw [View.write_emb_of_mem _ _ (Finset.mem_univ y)]
  have hy0 : (y 0).val < 1 := (y 0).isLt
  have e0 : (((agStV c).emb y) 0 : ℕ) = c.val := by
    show (k0_off1 c) 0 + 1 * (y 0).val = c.val
    rw [k0_off1_eq c]
    show c.val + 1 * (y 0).val = c.val
    omega
  have e1 : ((agStV c).emb y) 1 = y 1 := Fin.ext (by
    show (k0_off1 c) 1 + 1 * (y 1).val = (y 1).val
    rw [k0_off1_eq c]
    show 0 + 1 * (y 1).val = (y 1).val
    omega)
  have e2 : ((agStV c).emb y) 2 = y 2 := Fin.ext (by
    show (k0_off1 c) 2 + 1 * (y 2).val = (y 2).val
    rw [k0_off1_eq c]
    show 0 + 1 * (y 2).val = (y 2).val
    omega)
  have ey : ix3 (0 : Fin 1) (y 1) (y 2) = y := by
    funext a
    match a with
    | ⟨0, _⟩ => exact Fin.ext (by show 0 = (y 0).val; omega)
    | ⟨1, _⟩ => rfl
    | ⟨2, _⟩ => rfl
  rw [agAll_slot (P m) c _ e0, e1, e2]
  exact (cast_eq _ _).trans (congrArg (k0_pay7 (rsAll (P m) c)) ey).symm

/-- info: 'Cert.Kernel.ValB.agStore_eq' depends on axioms: [propext, Classical.choice, Quot.sound] -/
#guard_msgs in #print axioms agStore_eq

end Cert.Kernel.ValB

end
-- ==== Proof.AgSend_Bits.lean ====
/-
The all-gather's send step. Device `c`'s operation `r` copies its own slot of the all-gather buffer into the same slot
of device `c + r + 1`. The thread lends the transfer share `sh r` of its slot, which is the send cell's payload and comes
back at the send wait; it owns the destination slot outright (from the barrier's payloads), and the landed contents are
the receive cell's payload. The thread owed the receive cell's units and no longer does.
-/
import proofs.«900791_g7700000000000792_dist_gconv1d_cshard_i_b4_s512_c256_v7x_i32_bf16_1_alg».proof.Proof.Tables_Bits
import proofs.«900791_g7700000000000792_dist_gconv1d_cshard_i_b4_s512_c256_v7x_i32_bf16_1_alg».proof.Proof.Landing_Bits

noncomputable section

namespace Cert.Kernel.AgSend

open Cert.Kernel Cert.Kernel.Gen Cert.Kernel.Contents Cert.Kernel.Proto Cert.Kernel.Tables
open Cert.Kernel.Landing
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- One cell's invariant, out of the records of all of them. -/
theorem inv_of_records (m : Mem F) (K : Dev nD × Option (Fin 4 × Fin 31) → ℕ) (ck : Dev nD × Option (Fin 4 × Fin 31)) :
    (records (F := F) m K : sProp 𝕄) ⊢ cellInv ER (sched m) (K ck) (kcell ck) := by
  unfold records
  exact (BI.sep_and.trans BI.and_elimL).trans (BI.bigSep_elim (Finset.mem_univ ck))

/-- That one cell's round 0 is reached, out of the records. -/
theorem reached_of_records (m : Mem F) (K : Dev nD × Option (Fin 4 × Fin 31) → ℕ) (ck : Dev nD × Option (Fin 4 × Fin 31)) :
    (records (F := F) m K : sProp 𝕄) ⊢ reached ER (kcell ck) 0 := by
  unfold records
  exact (BI.sep_and.trans BI.and_elimR).trans (BI.bigSep_elim (Finset.mem_univ ck))

instance records_persistent' (m : Mem F) (K : Dev nD × Option (Fin 4 × Fin 31) → ℕ) :
    BI.Persistent (records (F := F) m K) := by
  unfold records; infer_instance

/-- The share lent is the send cell's payload. -/
theorem pay_agS (m : Mem F) (c : Dev nD) (r : Fin 31) :
    (((slotM agB (dv c)).view.loc (c : Thread nD τ)) ↦[(slotM agB (dv c)).view.set]{sh r} (agAll (P m)) : sProp 𝕄)
      ⊢ (sched (F := F) m).payload (agS c r) 0 0 :=
  Entails.of_eq (payload_agS m c r 0 0).symm

/-- The landed slot is the receive cell's payload. -/
theorem pay_agR (m : Mem F) (c : Dev nD) (r : Fin 31) (fd : (slotM agB (dv c)).view.ty.Contents (Elt F)) :
    (((slotM agB (dv c)).view.loc ((nb c r : Dev nD) : Thread nD τ)) ↦[(slotM agB (dv c)).view.set]{fullShare}
        ((slotM agB (dv c)).view.write (Elt F) fd ((slotM agB (dv c)).view.read (Elt F) (agAll (P m))) Finset.univ) : sProp 𝕄)
      ⊢ (sched (F := F) m).payload (agR (nb c r) r) 0 0 := by
  rw [payload_agR_nb]
  exact Entails.of_eq (pointsTo_congr fun i hi => write_read_same agB (dv c) fd (agAll (P m)) i hi)

theorem agSend (m : Mem F) (K : Dev nD × Option (Fin 4 × Fin 31) → ℕ) (c : Dev nD) (r : Fin 31)
    (fd : (slotM agB (dv c)).view.ty.Contents (Elt F)) (O : CellTallies nD τ sig Unit) (W : Waits sig Unit)
    {hsc : (slotM agB (dv c)).view.ref.isScScratch = false}
    {hsrc : (slotM agB (dv c)).view.WordExact} {hdst : (slotM agB (dv c)).view.WordExact}
    {hsem : DmaTarget.Typed .vmem (.dma (dsem 3 r))
      (.remote ((nb c r : Dev nD) : Thread nD τ) (slotM agB (dv c)) (.dma (dsem 2 r)) hsc)}
    {α : Type} {k : PUnit → Prog (TpuEff nD τ sig (Elt F) Λ₀ ((c : Thread nD τ)).2) α} {Q : α → sProp 𝕄} :
    iprop(records m K
        ∗ (((slotM agB (dv c)).view.loc (c : Thread nD τ)) ↦[(slotM agB (dv c)).view.set]{sh r} (agAll (P m)))
        ∗ (((slotM agB (dv c)).view.loc ((nb c r : Dev nD) : Thread nD τ)) ↦[(slotM agB (dv c)).view.set]{fullShare} fd)
        ∗ owes (c : Thread nD τ) (O + tallyAt (agR (nb c r) r) () N) W
        ∗ dutyTok ER (agS c r) 0 0 ∗ dutyTok ER (agR (nb c r) r) 0 0)
      ⊢ iprop(((cred (tallyAt (agS c r) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM agB (dv c))
                (.remote ((nb c r : Dev nD) : Thread nD τ) (slotM agB (dv c)) (.dma (dsem 2 r)) hsc) (.dma (dsem 3 r))
                hsrc hdst hsem) k) Q) := by
  iintro ⟨#HK, Hsrc, Hdst, HO, Ht1, Ht2⟩
  ihave #HI1 := (inv_of_records m K (c, some (2, r))) $$ HK
  ihave #HI2 := (inv_of_records m K (nb c r, some (3, r))) $$ HK
  ihave #HR1 := (reached_of_records m K (c, some (2, r))) $$ HK
  ihave #HR2 := (reached_of_records m K (nb c r, some (3, r))) $$ HK
  iapply (Rounds.wp_send_pointsTo 𝒱₀ ER (sched m) (c : Thread nD τ) none
    (mem_duties_own m c 2 r) (mem_duties_own m (nb c r) 3 r) () () N (dmaCredit_slot_ag (dv c))
    (amount_agS m c r 0 0) (amount_agR m (nb c r) r 0 0) O rfl (pay_agS m c r) (pay_agR m c r fd))
  isplitl []; · iexact HI1
  isplitl []; · iexact HI2
  isplitl [Hsrc]; · iexact Hsrc
  isplitl [Hdst]; · iexact Hdst
  isplitl [HO]; · iexact HO
  isplitl [Ht1]; · iexact Ht1
  isplitl []; · iexact HR1
  isplitl [Ht2]; · iexact Ht2
  iexact HR2

/-- info: 'Cert.Kernel.AgSend.agSend' depends on axioms: [propext, Classical.choice, Quot.sound] -/
#guard_msgs in #print axioms agSend

end Cert.Kernel.AgSend

end
-- ==== Proof.CutB_Bits.lean ====
/-
The second half of the body's first sixty parts cut once more: from the twenty-ninth part through the fifty-seventh (the
last receive wait of the reduce-scatter, the sum, the all-gather's copies, the reduce-scatter's send waits and the
all-gather's receive waits) followed by a continuation; and the last three (the result's store and the first of the
all-gather's send waits) with the return. The half is the first continued by the second, by unfolding.
-/
import proofs.«900791_g7700000000000792_dist_gconv1d_cshard_i_b4_s512_c256_v7x_i32_bf16_1_alg».proof.Proof.Cut_Bits

set_option synthInstance.maxSize 4096

noncomputable section

namespace Cert.Kernel.CutB

open Idealize.ShloMosaic Idealize.SL.Sem Cert.Kernel Cert.Kernel.Cut

variable {F : FTy → Type} [FloatOps F] [Facts]
open Facts₀ Facts

set_option maxRecDepth 774 in
/-- Parts twenty-nine through fifty-seven, then a continuation. -/
def progM {α : Type} (arg0 : Memref sig .tc .vmem S4x512x256 .f32) (harg0 : arg0.IsWhole) (arg1 : Memref sig .tc .vmem S4x256 .f32) (harg1 : arg1.IsWhole) (arg2 : Memref sig .tc .vmem S256x256 .f32) (harg2 : arg2.IsWhole) (arg3 : Memref sig .tc .vmem S4x512x256 .f32) (harg3 : arg3.IsWhole) (arg4 : Memref sig .tc .vmem S32x64x256 .bf16) (harg4 : arg4.IsWhole) (arg5 : Memref sig .tc .vmem S32x64x256 .bf16) (harg5 : arg5.IsWhole) (arg6 : Memref sig .tc .vmem S32x64x256 .bf16) (harg6 : arg6.IsWhole) (arg7 : DmaSems sig S32) (arg8 : DmaSems sig S32) (arg9 : DmaSems sig S32) (arg10 : DmaSems sig S32) (d0 : Dev nD) (v2 : BitVec 32) (v544 : BitVec 32)
    (kont : Prog (TpuEff nD τ sig (Elt F) Λ₀ .tc) α) :
    Prog (TpuEff nD τ sig (Elt F) Λ₀ .tc) α := do
  let ⟨v812, v824⟩ : Σ' (v812 : BitVec 32), BitVec 32 ← k0_part29 arg0 harg0 arg1 harg1 arg2 harg2 arg3 harg3 arg4 harg4 arg5 harg5 arg6 harg6 arg7 arg8 arg9 arg10 d0 v2 v544
  let ⟨v836, v848⟩ : Σ' (v836 : BitVec 32), BitVec 32 ← k0_part30 arg0 harg0 arg1 harg1 arg2 harg2 arg3 harg3 arg4 harg4 arg5 harg5 arg6 harg6 arg7 arg8 arg9 arg10 d0 v2 v824
  let ⟨v860, v872, v884, v885, c0_i32_833⟩ : Σ' (v860 : BitVec 32) (v872 : BitVec 32) (v884 : BitVec 32) (v885 : BitVec 32), BitVec 32 ← k0_part31 arg0 harg0 arg1 harg1 arg2 harg2 arg3 harg3 arg4 harg4 arg5 harg5 arg6 harg6 arg7 arg8 arg9 arg10 d0 v2
  let ⟨v896, v908⟩ : Σ' (v896 : BitVec 32), BitVec 32 ← k0_part32 arg0 harg0 arg1 harg1 arg2 harg2 arg3 harg3 arg4 harg4 arg5 harg5 arg6 harg6 arg7 arg8 arg9 arg10 d0 v2 v885 c0_i32_833
  let ⟨v920, v932, v944⟩ : Σ' (v920 : BitVec 32) (v932 : BitVec 32), BitVec 32 ← k0_part33 arg0 harg0 arg1 harg1 arg2 harg2 arg3 harg3 arg4 harg4 arg5 harg5 arg6 harg6 arg7 arg8 arg9 arg10 d0 v2
  let ⟨v956, v968, v980⟩ : Σ' (v956 : BitVec 32) (v968 : BitVec 32), BitVec 32 ← k0_part34 arg0 harg0 arg1 harg1 arg2 harg2 arg3 harg3 arg4 harg4 arg5 harg5 arg6 harg6 arg7 arg8 arg9 arg10 d0 v2
  let ⟨v992, v1004⟩ : Σ' (v992 : BitVec 32), BitVec 32 ← k0_part35 arg0 harg0 arg1 harg1 arg2 harg2 arg3 harg3 arg4 harg4 arg5 harg5 arg6 harg6 arg7 arg8 arg9 arg10 d0 v2 v980
  let ⟨v1016, v1028, v1040⟩ : Σ' (v1016 : BitVec 32) (v1028 : BitVec 32), BitVec 32 ← k0_part36 arg0 harg0 arg1 harg1 arg2 harg2 arg3 harg3 arg4 harg4 arg5 harg5 arg6 harg6 arg7 arg8 arg9 arg10 d0 v2
  let ⟨v1052, v1064, c23_i32_988⟩ : Σ' (v1052 : BitVec 32) (v1064 : BitVec 32), BitVec 32 ← k0_part37 arg0 harg0 arg1 harg1 arg2 harg2 arg3 harg3 arg4 harg4 arg5 harg5 arg6 harg6 arg7 arg8 arg9 arg10 d0 v2
  let ⟨v1076, v1088, v1100⟩ : Σ' (v1076 : BitVec 32) (v1088 : BitVec 32), BitVec 32 ← k0_part38 arg0 harg0 arg1 harg1 arg2 harg2 arg3 harg3 arg4 harg4 arg5 harg5 arg6 harg6 arg7 arg8 arg9 arg10 d0 v2 c23_i32_988
  let ⟨v1112, v1124, v1136⟩ : Σ' (v1112 : BitVec 32) (v1124 : BitVec 32), BitVec 32 ← k0_part39 arg0 harg0 arg1 harg1 arg2 harg2 arg3 harg3 arg4 harg4 arg5 harg5 arg6 harg6 arg7 arg8 arg9 arg10 d0 v2
  let ⟨v1148, v1160⟩ : Σ' (v1148 : BitVec 32), BitVec 32 ← k0_part40 arg0 harg0 arg1 harg1 arg2 harg2 arg3 harg3 arg4 harg4 arg5 harg5 arg6 harg6 arg7 arg8 arg9 arg10 d0 v2 v1136
  let v1172 : BitVec 32 ← k0_part41 arg0 harg0 arg1 harg1 arg2 harg2 arg3 harg3 arg4 harg4 arg5 harg5 arg6 harg6 arg7 arg8 arg9 arg10 d0 v2
  k0_part42 arg0 harg0 arg1 harg1 arg2 harg2 arg3 harg3 arg4 harg4 arg5 harg5 arg6 harg6 arg7 arg8 arg9 arg10 d0
  k0_part43 arg0 harg0 arg1 harg1 arg2 harg2 arg3 harg3 arg4 harg4 arg5 harg5 arg6 harg6 arg7 arg8 arg9 arg10 d0
  k0_part44 arg0 harg0 arg1 harg1 arg2 harg2 arg3 harg3 arg4 harg4 arg5 harg5 arg6 harg6 arg7 arg8 arg9 arg10 d0
  k0_part45 arg0 harg0 arg1 harg1 arg2 harg2 arg3 harg3 arg4 harg4 arg5 harg5 arg6 harg6 arg7 arg8 arg9 arg10 d0
  k0_part46 arg0 harg0 arg1 harg1 arg2 harg2 arg3 harg3 arg4 harg4 arg5 harg5 arg6 harg6 arg7 arg8 arg9 arg10 d0
  k0_part47 arg0 harg0 arg1 harg1 arg2 harg2 arg3 harg3 arg4 harg4 arg5 harg5 arg6 harg6 arg7 arg8 arg9 arg10 d0
  k0_part48 arg0 harg0 arg1 harg1 arg2 harg2 arg3 harg3 arg4 harg4 arg5 harg5 arg6 harg6 arg7 arg8 arg9 arg10 d0
  k0_part49 arg0 harg0 arg1 harg1 arg2 harg2 arg3 harg3 arg4 harg4 arg5 harg5 arg6 harg6 arg7 arg8 arg9 arg10 d0 v812 v824 v836
  k0_part50 arg0 harg0 arg1 harg1 arg2 harg2 arg3 harg3 arg4 harg4 arg5 harg5 arg6 harg6 arg7 arg8 arg9 arg10 d0 v848 v860 v872 v884
  k0_part51 arg0 harg0 arg1 harg1 arg2 harg2 arg3 harg3 arg4 harg4 arg5 harg5 arg6 harg6 arg7 arg8 arg9 arg10 d0 v896 v908 v920
  k0_part52 arg0 harg0 arg1 harg1 arg2 harg2 arg3 harg3 arg4 harg4 arg5 harg5 arg6 harg6 arg7 arg8 arg9 arg10 d0 v932 v944 v956 v968
  k0_part53 arg0 harg0 arg1 harg1 arg2 harg2 arg3 harg3 arg4 harg4 arg5 harg5 arg6 harg6 arg7 arg8 arg9 arg10 d0 v980 v992 v1004
  k0_part54 arg0 harg0 arg1 harg1 arg2 harg2 arg3 harg3 arg4 harg4 arg5 harg5 arg6 harg6 arg7 arg8 arg9 arg10 d0 v1016 v1028 v1040 v1052
  k0_part55 arg0 harg0 arg1 harg1 arg2 harg2 arg3 harg3 arg4 harg4 arg5 harg5 arg6 harg6 arg7 arg8 arg9 arg10 d0 v1064 v1076 v1088
  k0_part56 arg0 harg0 arg1 harg1 arg2 harg2 arg3 harg3 arg4 harg4 arg5 harg5 arg6 harg6 arg7 arg8 arg9 arg10 d0 v1100 v1112 v1124 v1136
  k0_part57 arg0 harg0 arg1 harg1 arg2 harg2 arg3 harg3 arg4 harg4 arg5 harg5 arg6 harg6 arg7 arg8 arg9 arg10 d0 v1148 v1160 v1172
  kont

set_option maxRecDepth 774 in
/-- Parts fifty-eight through sixty and the return. -/
def tail58 (arg0 : Memref sig .tc .vmem S4x512x256 .f32) (harg0 : arg0.IsWhole) (arg1 : Memref sig .tc .vmem S4x256 .f32) (harg1 : arg1.IsWhole) (arg2 : Memref sig .tc .vmem S256x256 .f32) (harg2 : arg2.IsWhole) (arg3 : Memref sig .tc .vmem S4x512x256 .f32) (harg3 : arg3.IsWhole) (arg4 : Memref sig .tc .vmem S32x64x256 .bf16) (harg4 : arg4.IsWhole) (arg5 : Memref sig .tc .vmem S32x64x256 .bf16) (harg5 : arg5.IsWhole) (arg6 : Memref sig .tc .vmem S32x64x256 .bf16) (harg6 : arg6.IsWhole) (arg7 : DmaSems sig S32) (arg8 : DmaSems sig S32) (arg9 : DmaSems sig S32) (arg10 : DmaSems sig S32) (d0 : Dev nD) :
    Prog (TpuEff nD τ sig (Elt F) Λ₀ .tc) (Dev nD) := do
  k0_part58 arg0 harg0 arg1 harg1 arg2 harg2 arg3 harg3 arg4 harg4 arg5 harg5 arg6 harg6 arg7 arg8 arg9 arg10 d0
  k0_part59 arg0 harg0 arg1 harg1 arg2 harg2 arg3 harg3 arg4 harg4 arg5 harg5 arg6 harg6 arg7 arg8 arg9 arg10 d0
  k0_part60 arg0 harg0 arg1 harg1 arg2 harg2 arg3 harg3 arg4 harg4 arg5 harg5 arg6 harg6 arg7 arg8 arg9 arg10 d0
  pure d0

set_option maxRecDepth 4096 in
/-- The half is its first twenty-nine parts continued by its last three. -/
theorem tail65_eq (arg0 : Memref sig .tc .vmem S4x512x256 .f32) (harg0 : arg0.IsWhole) (arg1 : Memref sig .tc .vmem S4x256 .f32) (harg1 : arg1.IsWhole) (arg2 : Memref sig .tc .vmem S256x256 .f32) (harg2 : arg2.IsWhole) (arg3 : Memref sig .tc .vmem S4x512x256 .f32) (harg3 : arg3.IsWhole) (arg4 : Memref sig .tc .vmem S32x64x256 .bf16) (harg4 : arg4.IsWhole) (arg5 : Memref sig .tc .vmem S32x64x256 .bf16) (harg5 : arg5.IsWhole) (arg6 : Memref sig .tc .vmem S32x64x256 .bf16) (harg6 : arg6.IsWhole) (arg7 : DmaSems sig S32) (arg8 : DmaSems sig S32) (arg9 : DmaSems sig S32) (arg10 : DmaSems sig S32) (d0 : Dev nD) (v2 : BitVec 32) (v544 : BitVec 32) :
    tail65 (F := F) arg0 harg0 arg1 harg1 arg2 harg2 arg3 harg3 arg4 harg4 arg5 harg5 arg6 harg6 arg7 arg8 arg9 arg10 d0 v2 v544 = progM arg0 harg0 arg1 harg1 arg2 harg2 arg3 harg3 arg4 harg4 arg5 harg5 arg6 harg6 arg7 arg8 arg9 arg10 d0 v2 v544 (tail58 arg0 harg0 arg1 harg1 arg2 harg2 arg3 harg3 arg4 harg4 arg5 harg5 arg6 harg6 arg7 arg8 arg9 arg10 d0) := rfl

end Cert.Kernel.CutB

end
-- ==== Proof.BodyEarly_Bits.lean ====
/-
The body's second half up to its fifty-eighth part, at a symbolic device: from the assertion between the halves — the
reduce-scatter's copies issued, all but one of its receive slots landed — through the last receive wait, the sum of the 32
received slots, the store of the device's own all-gather slot, the 31 all-gather copies (each the library's send rule for a
slot the receiver handed over at the barrier, the source share one of 31 tokens of the own slot), the 31 send waits of the
reduce-scatter and the 31 receive waits of the all-gather, to the assertion before the result is stored; the rest of the
body is a continuation.
-/
import proofs.«900791_g7700000000000792_dist_gconv1d_cshard_i_b4_s512_c256_v7x_i32_bf16_1_alg».proof.Proof.Cut_Bits
import proofs.«900791_g7700000000000792_dist_gconv1d_cshard_i_b4_s512_c256_v7x_i32_bf16_1_alg».proof.Proof.Tables_Bits
import proofs.«900791_g7700000000000792_dist_gconv1d_cshard_i_b4_s512_c256_v7x_i32_bf16_1_alg».proof.Proof.DevEqs_Bits
import proofs.«900791_g7700000000000792_dist_gconv1d_cshard_i_b4_s512_c256_v7x_i32_bf16_1_alg».proof.Proof.Slots_Bits
import proofs.«900791_g7700000000000792_dist_gconv1d_cshard_i_b4_s512_c256_v7x_i32_bf16_1_alg».proof.Proof.Mid_Bits
import proofs.«900791_g7700000000000792_dist_gconv1d_cshard_i_b4_s512_c256_v7x_i32_bf16_1_alg».proof.Proof.Levels_Bits
import proofs.«900791_g7700000000000792_dist_gconv1d_cshard_i_b4_s512_c256_v7x_i32_bf16_1_alg».proof.Proof.Landing_Bits
import proofs.«900791_g7700000000000792_dist_gconv1d_cshard_i_b4_s512_c256_v7x_i32_bf16_1_alg».proof.Proof.ValB_Bits
import proofs.«900791_g7700000000000792_dist_gconv1d_cshard_i_b4_s512_c256_v7x_i32_bf16_1_alg».proof.Proof.CloseCells_Bits
import proofs.«900791_g7700000000000792_dist_gconv1d_cshard_i_b4_s512_c256_v7x_i32_bf16_1_alg».proof.Proof.AgSend_Bits
import proofs.«900791_g7700000000000792_dist_gconv1d_cshard_i_b4_s512_c256_v7x_i32_bf16_1_alg».proof.Proof.CutB_Bits
import proofs.«900791_g7700000000000792_dist_gconv1d_cshard_i_b4_s512_c256_v7x_i32_bf16_1_alg».proof.Proof.MidX_Bits
import proofs.«900791_g7700000000000792_dist_gconv1d_cshard_i_b4_s512_c256_v7x_i32_bf16_1_alg».proof.Proof.Fin31

set_option synthInstance.maxSize 4096

noncomputable section

namespace Cert.Kernel.BodyEarly

open Cert.Kernel Cert.Kernel.Gen Cert.Kernel.Contents Cert.Kernel.Proto Cert.Kernel.Tables
open Cert.Kernel.Cut Cert.Kernel.DevEqs Cert.Kernel.Slots
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Kernel.Mid Cert.Kernel.Levels Cert.Kernel.Landing Cert.Kernel.ValB Cert.Kernel.CloseCells Cert.Kernel.AgSend
open Cert.Kernel.CutB Cert.Fin31

variable {F : FTy → Type} [FloatOps F]

local notation "𝕄" => MT nD τ sig Unit (Elt F) ℕ UU ℕ

theorem zero3 : (![0, 0, 0] : Fin 3 → ℕ) = fun _ => 0 := by funext a; fin_cases a <;> rfl

/-- The device's own all-gather slot after the store of its chunk: the slot of the all-gather buffer's final contents. -/
theorem own_after_store (m : Mem F) (c : Dev nD) (f0 : Buf (Elt F) (agB.view.loc (c : Thread nD τ))) :
    ((slotM agB (dv c)).view.loc (c : Thread nD τ) ↦[(slotM agB (dv c)).view.set]{fullShare}
        ((agB.access (Rect.unit (s := S32x64x256) (k0_off1 c) S1x64x256.size (k0_off1_inb c))).write (Elt F) f0
          (k0_pay7 (View.readAt (Elt F) rsB.view (Rect.unit (s := S32x64x256) ![0, 0, 0] S32x64x256.size inb_S32x64x256_S32x64x256_0_0_0).toLoadRect (rsAll (P m) c)))
          Finset.univ) : sProp 𝕄)
      ⊢ ((slotM agB (dv c)).view.loc (c : Thread nD τ) ↦[(slotM agB (dv c)).view.set]{fullShare} agAll (P m)) := by
  rw [show View.readAt (Elt F) rsB.view (Rect.unit (s := S32x64x256) ![0, 0, 0] S32x64x256.size inb_S32x64x256_S32x64x256_0_0_0).toLoadRect (rsAll (P m) c) = rsAll (P m) c
    from Memref.readAt_unit_zero (Elt F) cc0_scratch1 zero3 _ _]
  exact Entails.of_eq (pointsTo_congr (agStore_eq m c f0))

/-- The same, the stored contents under a name. -/
theorem own_after_store' (m : Mem F) (c : Dev nD) (f0 g : Buf (Elt F) (agB.view.loc (c : Thread nD τ)))
    (hg : g = (agB.access (Rect.unit (s := S32x64x256) (k0_off1 c) S1x64x256.size (k0_off1_inb c))).write (Elt F) f0
          (k0_pay7 (View.readAt (Elt F) rsB.view (Rect.unit (s := S32x64x256) ![0, 0, 0] S32x64x256.size inb_S32x64x256_S32x64x256_0_0_0).toLoadRect (rsAll (P m) c)))
          Finset.univ) :
    ((slotM agB (dv c)).view.loc (c : Thread nD τ) ↦[(slotM agB (dv c)).view.set]{fullShare} g : sProp 𝕄)
      ⊢ ((slotM agB (dv c)).view.loc (c : Thread nD τ) ↦[(slotM agB (dv c)).view.set]{fullShare} agAll (P m)) := by
  subst hg; exact own_after_store m c f0

/-- The receive buffer whole from its slots. -/
theorem rs_join (c : Dev nD) (f : Buf (Elt F) (rsB.view.loc (c : Thread nD τ))) :
    iprop((bigSep (Finset.univ.erase (1 : Fin 32)) fun j => slotPts (F := F) rsB c j fullShare f) ∗ slotPts rsB c 1 fullShare f)
      ⊢ (rsB.view.loc (c : Thread nD τ) ↦[rsB.view.set]{fullShare} f : sProp 𝕄) := by
  rw [pointsTo_slots rsB c fullShare f, bigSep_univ_split (1 : Fin 32)]
  exact sep_comm.1

/-- The positions of the 31 receive cells from the first one's and the others'. -/
theorem pack_erase0 {M : Type} [URA M] (Φ : Fin 31 → sProp M) :
    iprop(Φ 0 ∗ bigSep (Finset.univ.erase (0 : Fin 31)) Φ) ⊢ bigSep (Finset.univ : Finset (Fin 31)) Φ :=
  Entails.of_eq (bigSep_univ_split (0 : Fin 31)).symm

set_option maxHeartbeats 12800000 in
theorem bodyEarly (m : Mem F) (K : Dev nD × Option (Fin 4 × Fin 31) → ℕ) (c : Dev nD) (v2 v544 : BitVec 32)
    (s : Buf (Elt F) ((c : Thread nD τ).loc cc0_stg3_0)) (W : Waits sig Unit) {α : Type}
    (kont : Prog (TpuEff nD τ sig (Elt F) Λ₀ .tc) α) (Q : α → sProp 𝕄)
    (hk : ∀ W' : Waits sig Unit, MidX m K c s W' ⊢ wp frame (wpE (defs₀ (F := F)) 𝒱₀ c none) Set.univ kont Q) :
    Mid m K c s W
      ⊢ wp frame (wpE (defs₀ (F := F)) 𝒱₀ c none) Set.univ (progM (Memref.whole cc0_stg0_0) (Memref.isWhole_whole _) (Memref.whole cc0_stg1_0) (Memref.isWhole_whole _) (Memref.whole cc0_stg2_0) (Memref.isWhole_whole _) (Memref.whole cc0_stg3_0) (Memref.isWhole_whole _) srcB (Memref.isWhole_whole _) rsB (Memref.isWhole_whole _) agB (Memref.isWhole_whole _) cc0_scratch3 cc0_scratch4 cc0_scratch5 cc0_scratch6 c v2 v544 kont) Q := by
  unfold Mid MidRest staging slotPts
  iintro ⟨⟨#HK, Hsrc, ⟨%fown, Hown⟩, Hpeers, ⟨Hs0, Hs1, Hs2, Hs3⟩, HO, Hpos, HatBar, HcrS, HcrR, Htok, #Hlev⟩, Hrs, ⟨HatR0, HatRs⟩, HcrR0⟩
  ihave Hpeers' := (Entails.of_eq (bigSep_fin31 _)) $$ Hpeers
  icases Hpeers' with ⟨⟨%fd0, Hd0⟩, ⟨%fd1, Hd1⟩, ⟨%fd2, Hd2⟩, ⟨%fd3, Hd3⟩, ⟨%fd4, Hd4⟩, ⟨%fd5, Hd5⟩, ⟨%fd6, Hd6⟩, ⟨%fd7, Hd7⟩, ⟨%fd8, Hd8⟩, ⟨%fd9, Hd9⟩, ⟨%fd10, Hd10⟩, ⟨%fd11, Hd11⟩, ⟨%fd12, Hd12⟩, ⟨%fd13, Hd13⟩, ⟨%fd14, Hd14⟩, ⟨%fd15, Hd15⟩, ⟨%fd16, Hd16⟩, ⟨%fd17, Hd17⟩, ⟨%fd18, Hd18⟩, ⟨%fd19, Hd19⟩, ⟨%fd20, Hd20⟩, ⟨%fd21, Hd21⟩, ⟨%fd22, Hd22⟩, ⟨%fd23, Hd23⟩, ⟨%fd24, Hd24⟩, ⟨%fd25, Hd25⟩, ⟨%fd26, Hd26⟩, ⟨%fd27, Hd27⟩, ⟨%fd28, Hd28⟩, ⟨%fd29, Hd29⟩, ⟨%fd30, Hd30⟩⟩
  ihave Hpos' := (Entails.of_eq (bigSep_fin31 _)) $$ Hpos
  icases Hpos' with ⟨⟨HatS0, HatA0, HatG0⟩, ⟨HatS1, HatA1, HatG1⟩, ⟨HatS2, HatA2, HatG2⟩, ⟨HatS3, HatA3, HatG3⟩, ⟨HatS4, HatA4, HatG4⟩, ⟨HatS5, HatA5, HatG5⟩, ⟨HatS6, HatA6, HatG6⟩, ⟨HatS7, HatA7, HatG7⟩, ⟨HatS8, HatA8, HatG8⟩, ⟨HatS9, HatA9, HatG9⟩, ⟨HatS10, HatA10, HatG10⟩, ⟨HatS11, HatA11, HatG11⟩, ⟨HatS12, HatA12, HatG12⟩, ⟨HatS13, HatA13, HatG13⟩, ⟨HatS14, HatA14, HatG14⟩, ⟨HatS15, HatA15, HatG15⟩, ⟨HatS16, HatA16, HatG16⟩, ⟨HatS17, HatA17, HatG17⟩, ⟨HatS18, HatA18, HatG18⟩, ⟨HatS19, HatA19, HatG19⟩, ⟨HatS20, HatA20, HatG20⟩, ⟨HatS21, HatA21, HatG21⟩, ⟨HatS22, HatA22, HatG22⟩, ⟨HatS23, HatA23, HatG23⟩, ⟨HatS24, HatA24, HatG24⟩, ⟨HatS25, HatA25, HatG25⟩, ⟨HatS26, HatA26, HatG26⟩, ⟨HatS27, HatA27, HatG27⟩, ⟨HatS28, HatA28, HatG28⟩, ⟨HatS29, HatA29, HatG29⟩, ⟨HatS30, HatA30, HatG30⟩⟩
  ihave HcrS' := (Entails.of_eq (bigSep_fin31 _)) $$ HcrS
  icases HcrS' with ⟨HcS0, HcS1, HcS2, HcS3, HcS4, HcS5, HcS6, HcS7, HcS8, HcS9, HcS10, HcS11, HcS12, HcS13, HcS14, HcS15, HcS16, HcS17, HcS18, HcS19, HcS20, HcS21, HcS22, HcS23, HcS24, HcS25, HcS26, HcS27, HcS28, HcS29, HcS30⟩
  ihave HcrR' := (Entails.of_eq (bigSep_fin31 _)) $$ HcrR
  icases HcrR' with ⟨HcG0, HcG1, HcG2, HcG3, HcG4, HcG5, HcG6, HcG7, HcG8, HcG9, HcG10, HcG11, HcG12, HcG13, HcG14, HcG15, HcG16, HcG17, HcG18, HcG19, HcG20, HcG21, HcG22, HcG23, HcG24, HcG25, HcG26, HcG27, HcG28, HcG29, HcG30⟩
  ihave Htok' := (Entails.of_eq (bigSep_fin31 _)) $$ Htok
  icases Htok' with ⟨⟨HtA0, HtG0⟩, ⟨HtA1, HtG1⟩, ⟨HtA2, HtG2⟩, ⟨HtA3, HtG3⟩, ⟨HtA4, HtG4⟩, ⟨HtA5, HtG5⟩, ⟨HtA6, HtG6⟩, ⟨HtA7, HtG7⟩, ⟨HtA8, HtG8⟩, ⟨HtA9, HtG9⟩, ⟨HtA10, HtG10⟩, ⟨HtA11, HtG11⟩, ⟨HtA12, HtG12⟩, ⟨HtA13, HtG13⟩, ⟨HtA14, HtG14⟩, ⟨HtA15, HtG15⟩, ⟨HtA16, HtG16⟩, ⟨HtA17, HtG17⟩, ⟨HtA18, HtG18⟩, ⟨HtA19, HtG19⟩, ⟨HtA20, HtG20⟩, ⟨HtA21, HtG21⟩, ⟨HtA22, HtG22⟩, ⟨HtA23, HtG23⟩, ⟨HtA24, HtG24⟩, ⟨HtA25, HtG25⟩, ⟨HtA26, HtG26⟩, ⟨HtA27, HtG27⟩, ⟨HtA28, HtG28⟩, ⟨HtA29, HtG29⟩, ⟨HtA30, HtG30⟩⟩
  ihave #HIrsR0 := (recInv m K (c, some (1, 0))) $$ HK
  ihave #HIagS0 := (recInv m K (c, some (2, 0))) $$ HK
  ihave #HIagP0 := (recInv m K (nb c 0, some (3, 0))) $$ HK
  ihave #HIagS1 := (recInv m K (c, some (2, 1))) $$ HK
  ihave #HIagP1 := (recInv m K (nb c 1, some (3, 1))) $$ HK
  ihave #HIagS2 := (recInv m K (c, some (2, 2))) $$ HK
  ihave #HIagP2 := (recInv m K (nb c 2, some (3, 2))) $$ HK
  ihave #HIagS3 := (recInv m K (c, some (2, 3))) $$ HK
  ihave #HIagP3 := (recInv m K (nb c 3, some (3, 3))) $$ HK
  ihave #HIagS4 := (recInv m K (c, some (2, 4))) $$ HK
  ihave #HIagP4 := (recInv m K (nb c 4, some (3, 4))) $$ HK
  ihave #HIagS5 := (recInv m K (c, some (2, 5))) $$ HK
  ihave #HIagP5 := (recInv m K (nb c 5, some (3, 5))) $$ HK
  ihave #HIagS6 := (recInv m K (c, some (2, 6))) $$ HK
  ihave #HIagP6 := (recInv m K (nb c 6, some (3, 6))) $$ HK
  ihave #HIagS7 := (recInv m K (c, some (2, 7))) $$ HK
  ihave #HIagP7 := (recInv m K (nb c 7, some (3, 7))) $$ HK
  ihave #HIagS8 := (recInv m K (c, some (2, 8))) $$ HK
  ihave #HIagP8 := (recInv m K (nb c 8, some (3, 8))) $$ HK
  ihave #HIagS9 := (recInv m K (c, some (2, 9))) $$ HK
  ihave #HIagP9 := (recInv m K (nb c 9, some (3, 9))) $$ HK
  ihave #HIagS10 := (recInv m K (c, some (2, 10))) $$ HK
  ihave #HIagP10 := (recInv m K (nb c 10, some (3, 10))) $$ HK
  ihave #HIagS11 := (recInv m K (c, some (2, 11))) $$ HK
  ihave #HIagP11 := (recInv m K (nb c 11, some (3, 11))) $$ HK
  ihave #HIagS12 := (recInv m K (c, some (2, 12))) $$ HK
  ihave #HIagP12 := (recInv m K (nb c 12, some (3, 12))) $$ HK
  ihave #HIagS13 := (recInv m K (c, some (2, 13))) $$ HK
  ihave #HIagP13 := (recInv m K (nb c 13, some (3, 13))) $$ HK
  ihave #HIagS14 := (recInv m K (c, some (2, 14))) $$ HK
  ihave #HIagP14 := (recInv m K (nb c 14, some (3, 14))) $$ HK
  ihave #HIagS15 := (recInv m K (c, some (2, 15))) $$ HK
  ihave #HIagP15 := (recInv m K (nb c 15, some (3, 15))) $$ HK
  ihave #HIagS16 := (recInv m K (c, some (2, 16))) $$ HK
  ihave #HIagP16 := (recInv m K (nb c 16, some (3, 16))) $$ HK
  ihave #HIagS17 := (recInv m K (c, some (2, 17))) $$ HK
  ihave #HIagP17 := (recInv m K (nb c 17, some (3, 17))) $$ HK
  ihave #HIagS18 := (recInv m K (c, some (2, 18))) $$ HK
  ihave #HIagP18 := (recInv m K (nb c 18, some (3, 18))) $$ HK
  ihave #HIagS19 := (recInv m K (c, some (2, 19))) $$ HK
  ihave #HIagP19 := (recInv m K (nb c 19, some (3, 19))) $$ HK
  ihave #HIagS20 := (recInv m K (c, some (2, 20))) $$ HK
  ihave #HIagP20 := (recInv m K (nb c 20, some (3, 20))) $$ HK
  ihave #HIagS21 := (recInv m K (c, some (2, 21))) $$ HK
  ihave #HIagP21 := (recInv m K (nb c 21, some (3, 21))) $$ HK
  ihave #HIagS22 := (recInv m K (c, some (2, 22))) $$ HK
  ihave #HIagP22 := (recInv m K (nb c 22, some (3, 22))) $$ HK
  ihave #HIagS23 := (recInv m K (c, some (2, 23))) $$ HK
  ihave #HIagP23 := (recInv m K (nb c 23, some (3, 23))) $$ HK
  ihave #HIagS24 := (recInv m K (c, some (2, 24))) $$ HK
  ihave #HIagP24 := (recInv m K (nb c 24, some (3, 24))) $$ HK
  ihave #HIagS25 := (recInv m K (c, some (2, 25))) $$ HK
  ihave #HIagP25 := (recInv m K (nb c 25, some (3, 25))) $$ HK
  ihave #HIagS26 := (recInv m K (c, some (2, 26))) $$ HK
  ihave #HIagP26 := (recInv m K (nb c 26, some (3, 26))) $$ HK
  ihave #HIagS27 := (recInv m K (c, some (2, 27))) $$ HK
  ihave #HIagP27 := (recInv m K (nb c 27, some (3, 27))) $$ HK
  ihave #HIagS28 := (recInv m K (c, some (2, 28))) $$ HK
  ihave #HIagP28 := (recInv m K (nb c 28, some (3, 28))) $$ HK
  ihave #HIagS29 := (recInv m K (c, some (2, 29))) $$ HK
  ihave #HIagP29 := (recInv m K (nb c 29, some (3, 29))) $$ HK
  ihave #HIagS30 := (recInv m K (c, some (2, 30))) $$ HK
  ihave #HIagP30 := (recInv m K (nb c 30, some (3, 30))) $$ HK
  have hmw := mayWait_rsR31 (F := F) c 0
  unfold progM
  sl_exec_parts
  ihave Hrsall := (rs_join c (rsAll (P m) c)) $$ [Hrs HatR0_pay1]
  · isplitl [Hrs]; · iexact Hrs
    iexact HatR0_pay1
  have hinc : (agB.access (Rect.unit (s := S32x64x256) (k0_off1 c) S1x64x256.size (k0_off1_inb c))).set ⊆ (slotM agB (dv c)).view.set :=
    (set_access_eq_slot agB (dv c) (k0_off1_eq c)).subset
  have hincS : (agB.access (Rect.unit (s := S32x64x256) (k0_off1 c) S1x64x256.size (k0_off1_inb c))).setOn Finset.univ ⊆ (slotM agB (dv c)).view.set := hinc
  have hdev0 : (⟨k0_dev63 c, k0_dev63_lt c⟩ : Dev nD) = nb c 0 := dev63_eq c
  sl_exec_parts
  -- the own slot at the all-gather buffer's final contents, its share cut in 31 tokens and a rest
  ihave Hown2 := (own_after_store' m c fown (bodyEarly.sl.Hown_w1 m c fown) rfl) $$ Hown
  ihave Hsp := (Transfers.pointsTo_toks_split fullShare 31) $$ Hown2
  icases Hsp with ⟨Hrest, Htoks⟩
  ihave Htoks' := (Entails.of_eq (bigSep_fin31 _)) $$ Htoks
  icases Htoks' with ⟨Hag0, Hag1, Hag2, Hag3, Hag4, Hag5, Hag6, Hag7, Hag8, Hag9, Hag10, Hag11, Hag12, Hag13, Hag14, Hag15, Hag16, Hag17, Hag18, Hag19, Hag20, Hag21, Hag22, Hag23, Hag24, Hag25, Hag26, Hag27, Hag28, Hag29, Hag30⟩
  iapply (agSend m K c 0 fd0 (owedAg c 30) _) $$ [Hag0 Hd0 HO HtA0 HtG0]
  · isplitr; · iexact HK
    isplitl [Hag0]; · iexact Hag0
    isplitl [Hd0]; · iexact Hd0
    isplitl [HO]; · iexact HO
    isplitl [HtA0] <;> iassumption
  iintro ⟨HcA0, HO⟩
  clear hdev0
  have hdev1 : (⟨k0_dev64 c, k0_dev64_lt c⟩ : Dev nD) = nb c 1 := dev64_eq c
  sl_exec_parts
  iapply (agSend m K c 1 fd1 (owedAg c 29) _) $$ [Hag1 Hd1 HO HtA1 HtG1]
  · isplitr; · iexact HK
    isplitl [Hag1]; · iexact Hag1
    isplitl [Hd1]; · iexact Hd1
    isplitl [HO]; · iexact HO
    isplitl [HtA1] <;> iassumption
  iintro ⟨HcA1, HO⟩
  clear hdev1
  have hdev2 : (⟨k0_dev65 c, k0_dev65_lt c⟩ : Dev nD) = nb c 2 := dev65_eq c
  sl_exec_parts
  iapply (agSend m K c 2 fd2 (owedAg c 28) _) $$ [Hag2 Hd2 HO HtA2 HtG2]
  · isplitr; · iexact HK
    isplitl [Hag2]; · iexact Hag2
    isplitl [Hd2]; · iexact Hd2
    isplitl [HO]; · iexact HO
    isplitl [HtA2] <;> iassumption
  iintro ⟨HcA2, HO⟩
  clear hdev2
  have hdev3 : (⟨k0_dev66 c, k0_dev66_lt c⟩ : Dev nD) = nb c 3 := dev66_eq c
  sl_exec_parts
  iapply (agSend m K c 3 fd3 (owedAg c 27) _) $$ [Hag3 Hd3 HO HtA3 HtG3]
  · isplitr; · iexact HK
    isplitl [Hag3]; · iexact Hag3
    isplitl [Hd3]; · iexact Hd3
    isplitl [HO]; · iexact HO
    isplitl [HtA3] <;> iassumption
  iintro ⟨HcA3, HO⟩
  clear hdev3
  have hdev4 : (⟨k0_dev67 c, k0_dev67_lt c⟩ : Dev nD) = nb c 4 := dev67_eq c
  sl_exec_parts
  iapply (agSend m K c 4 fd4 (owedAg c 26) _) $$ [Hag4 Hd4 HO HtA4 HtG4]
  · isplitr; · iexact HK
    isplitl [Hag4]; · iexact Hag4
    isplitl [Hd4]; · iexact Hd4
    isplitl [HO]; · iexact HO
    isplitl [HtA4] <;> iassumption
  iintro ⟨HcA4, HO⟩
  clear hdev4
  have hdev5 : (⟨k0_dev68 c, k0_dev68_lt c⟩ : Dev nD) = nb c 5 := dev68_eq c
  sl_exec_parts
  iapply (agSend m K c 5 fd5 (owedAg c 25) _) $$ [Hag5 Hd5 HO HtA5 HtG5]
  · isplitr; · iexact HK
    isplitl [Hag5]; · iexact Hag5
    isplitl [Hd5]; · iexact Hd5
    isplitl [HO]; · iexact HO
    isplitl [HtA5] <;> iassumption
  iintro ⟨HcA5, HO⟩
  clear hdev5
  have hdev6 : (⟨k0_dev69 c, k0_dev69_lt c⟩ : Dev nD) = nb c 6 := dev69_eq c
  sl_exec_parts
  iapply (agSend m K c 6 fd6 (owedAg c 24) _) $$ [Hag6 Hd6 HO HtA6 HtG6]
  · isplitr; · iexact HK
    isplitl [Hag6]; · iexact Hag6
    isplitl [Hd6]; · iexact Hd6
    isplitl [HO]; · iexact HO
    isplitl [HtA6] <;> iassumption
  iintro ⟨HcA6, HO⟩
  clear hdev6
  have hdev7 : (⟨k0_dev70 c, k0_dev70_lt c⟩ : Dev nD) = nb c 7 := dev70_eq c
  sl_exec_parts
  iapply (agSend m K c 7 fd7 (owedAg c 23) _) $$ [Hag7 Hd7 HO HtA7 HtG7]
  · isplitr; · iexact HK
    isplitl [Hag7]; · iexact Hag7
    isplitl [Hd7]; · iexact Hd7
    isplitl [HO]; · iexact HO
    isplitl [HtA7] <;> iassumption
  iintro ⟨HcA7, HO⟩
  clear hdev7
  have hdev8 : (⟨k0_dev71 c, k0_dev71_lt c⟩ : Dev nD) = nb c 8 := dev71_eq c
  sl_exec_parts
  iapply (agSend m K c 8 fd8 (owedAg c 22) _) $$ [Hag8 Hd8 HO HtA8 HtG8]
  · isplitr; · iexact HK
    isplitl [Hag8]; · iexact Hag8
    isplitl [Hd8]; · iexact Hd8
    isplitl [HO]; · iexact HO
    isplitl [HtA8] <;> iassumption
  iintro ⟨HcA8, HO⟩
  clear hdev8
  have hdev9 : (⟨k0_dev72 c, k0_dev72_lt c⟩ : Dev nD) = nb c 9 := dev72_eq c
  sl_exec_parts
  iapply (agSend m K c 9 fd9 (owedAg c 21) _) $$ [Hag9 Hd9 HO HtA9 HtG9]
  · isplitr; · iexact HK
    isplitl [Hag9]; · iexact Hag9
    isplitl [Hd9]; · iexact Hd9
    isplitl [HO]; · iexact HO
    isplitl [HtA9] <;> iassumption
  iintro ⟨HcA9, HO⟩
  clear hdev9
  have hdev10 : (⟨k0_dev73 c, k0_dev73_lt c⟩ : Dev nD) = nb c 10 := dev73_eq c
  sl_exec_parts
  iapply (agSend m K c 10 fd10 (owedAg c 20) _) $$ [Hag10 Hd10 HO HtA10 HtG10]
  · isplitr; · iexact HK
    isplitl [Hag10]; · iexact Hag10
    isplitl [Hd10]; · iexact Hd10
    isplitl [HO]; · iexact HO
    isplitl [HtA10] <;> iassumption
  iintro ⟨HcA10, HO⟩
  clear hdev10
  have hdev11 : (⟨k0_dev74 c, k0_dev74_lt c⟩ : Dev nD) = nb c 11 := dev74_eq c
  sl_exec_parts
  iapply (agSend m K c 11 fd11 (owedAg c 19) _) $$ [Hag11 Hd11 HO HtA11 HtG11]
  · isplitr; · iexact HK
    isplitl [Hag11]; · iexact Hag11
    isplitl [Hd11]; · iexact Hd11
    isplitl [HO]; · iexact HO
    isplitl [HtA11] <;> iassumption
  iintro ⟨HcA11, HO⟩
  clear hdev11
  have hdev12 : (⟨k0_dev75 c, k0_dev75_lt c⟩ : Dev nD) = nb c 12 := dev75_eq c
  sl_exec_parts
  iapply (agSend m K c 12 fd12 (owedAg c 18) _) $$ [Hag12 Hd12 HO HtA12 HtG12]
  · isplitr; · iexact HK
    isplitl [Hag12]; · iexact Hag12
    isplitl [Hd12]; · iexact Hd12
    isplitl [HO]; · iexact HO
    isplitl [HtA12] <;> iassumption
  iintro ⟨HcA12, HO⟩
  clear hdev12
  have hdev13 : (⟨k0_dev76 c, k0_dev76_lt c⟩ : Dev nD) = nb c 13 := dev76_eq c
  sl_exec_parts
  iapply (agSend m K c 13 fd13 (owedAg c 17) _) $$ [Hag13 Hd13 HO HtA13 HtG13]
  · isplitr; · iexact HK
    isplitl [Hag13]; · iexact Hag13
    isplitl [Hd13]; · iexact Hd13
    isplitl [HO]; · iexact HO
    isplitl [HtA13] <;> iassumption
  iintro ⟨HcA13, HO⟩
  clear hdev13
  have hdev14 : (⟨k0_dev77 c, k0_dev77_lt c⟩ : Dev nD) = nb c 14 := dev77_eq c
  sl_exec_parts
  iapply (agSend m K c 14 fd14 (owedAg c 16) _) $$ [Hag14 Hd14 HO HtA14 HtG14]
  · isplitr; · iexact HK
    isplitl [Hag14]; · iexact Hag14
    isplitl [Hd14]; · iexact Hd14
    isplitl [HO]; · iexact HO
    isplitl [HtA14] <;> iassumption
  iintro ⟨HcA14, HO⟩
  clear hdev14
  have hdev15 : (⟨k0_dev78 c, k0_dev78_lt c⟩ : Dev nD) = nb c 15 := dev78_eq c
  sl_exec_parts
  iapply (agSend m K c 15 fd15 (owedAg c 15) _) $$ [Hag15 Hd15 HO HtA15 HtG15]
  · isplitr; · iexact HK
    isplitl [Hag15]; · iexact Hag15
    isplitl [Hd15]; · iexact Hd15
    isplitl [HO]; · iexact HO
    isplitl [HtA15] <;> iassumption
  iintro ⟨HcA15, HO⟩
  clear hdev15
  have hdev16 : (⟨k0_dev79 c, k0_dev79_lt c⟩ : Dev nD) = nb c 16 := dev79_eq c
  sl_exec_parts
  iapply (agSend m K c 16 fd16 (owedAg c 14) _) $$ [Hag16 Hd16 HO HtA16 HtG16]
  · isplitr; · iexact HK
    isplitl [Hag16]; · iexact Hag16
    isplitl [Hd16]; · iexact Hd16
    isplitl [HO]; · iexact HO
    isplitl [HtA16] <;> iassumption
  iintro ⟨HcA16, HO⟩
  clear hdev16
  have hdev17 : (⟨k0_dev80 c, k0_dev80_lt c⟩ : Dev nD) = nb c 17 := dev80_eq c
  sl_exec_parts
  iapply (agSend m K c 17 fd17 (owedAg c 13) _) $$ [Hag17 Hd17 HO HtA17 HtG17]
  · isplitr; · iexact HK
    isplitl [Hag17]; · iexact Hag17
    isplitl [Hd17]; · iexact Hd17
    isplitl [HO]; · iexact HO
    isplitl [HtA17] <;> iassumption
  iintro ⟨HcA17, HO⟩
  clear hdev17
  have hdev18 : (⟨k0_dev81 c, k0_dev81_lt c⟩ : Dev nD) = nb c 18 := dev81_eq c
  sl_exec_parts
  iapply (agSend m K c 18 fd18 (owedAg c 12) _) $$ [Hag18 Hd18 HO HtA18 HtG18]
  · isplitr; · iexact HK
    isplitl [Hag18]; · iexact Hag18
    isplitl [Hd18]; · iexact Hd18
    isplitl [HO]; · iexact HO
    isplitl [HtA18] <;> iassumption
  iintro ⟨HcA18, HO⟩
  clear hdev18
  have hdev19 : (⟨k0_dev82 c, k0_dev82_lt c⟩ : Dev nD) = nb c 19 := dev82_eq c
  sl_exec_parts
  iapply (agSend m K c 19 fd19 (owedAg c 11) _) $$ [Hag19 Hd19 HO HtA19 HtG19]
  · isplitr; · iexact HK
    isplitl [Hag19]; · iexact Hag19
    isplitl [Hd19]; · iexact Hd19
    isplitl [HO]; · iexact HO
    isplitl [HtA19] <;> iassumption
  iintro ⟨HcA19, HO⟩
  clear hdev19
  have hdev20 : (⟨k0_dev83 c, k0_dev83_lt c⟩ : Dev nD) = nb c 20 := dev83_eq c
  sl_exec_parts
  iapply (agSend m K c 20 fd20 (owedAg c 10) _) $$ [Hag20 Hd20 HO HtA20 HtG20]
  · isplitr; · iexact HK
    isplitl [Hag20]; · iexact Hag20
    isplitl [Hd20]; · iexact Hd20
    isplitl [HO]; · iexact HO
    isplitl [HtA20] <;> iassumption
  iintro ⟨HcA20, HO⟩
  clear hdev20
  have hdev21 : (⟨k0_dev84 c, k0_dev84_lt c⟩ : Dev nD) = nb c 21 := dev84_eq c
  sl_exec_parts
  iapply (agSend m K c 21 fd21 (owedAg c 9) _) $$ [Hag21 Hd21 HO HtA21 HtG21]
  · isplitr; · iexact HK
    isplitl [Hag21]; · iexact Hag21
    isplitl [Hd21]; · iexact Hd21
    isplitl [HO]; · iexact HO
    isplitl [HtA21] <;> iassumption
  iintro ⟨HcA21, HO⟩
  clear hdev21
  have hdev22 : (⟨k0_dev85 c, k0_dev85_lt c⟩ : Dev nD) = nb c 22 := dev85_eq c
  sl_exec_parts
  iapply (agSend m K c 22 fd22 (owedAg c 8) _) $$ [Hag22 Hd22 HO HtA22 HtG22]
  · isplitr; · iexact HK
    isplitl [Hag22]; · iexact Hag22
    isplitl [Hd22]; · iexact Hd22
    isplitl [HO]; · iexact HO
    isplitl [HtA22] <;> iassumption
  iintro ⟨HcA22, HO⟩
  clear hdev22
  have hdev23 : (⟨k0_dev86 c, k0_dev86_lt c⟩ : Dev nD) = nb c 23 := dev86_eq c
  sl_exec_parts
  iapply (agSend m K c 23 fd23 (owedAg c 7) _) $$ [Hag23 Hd23 HO HtA23 HtG23]
  · isplitr; · iexact HK
    isplitl [Hag23]; · iexact Hag23
    isplitl [Hd23]; · iexact Hd23
    isplitl [HO]; · iexact HO
    isplitl [HtA23] <;> iassumption
  iintro ⟨HcA23, HO⟩
  clear hdev23
  have hdev24 : (⟨k0_dev87 c, k0_dev87_lt c⟩ : Dev nD) = nb c 24 := dev87_eq c
  sl_exec_parts
  iapply (agSend m K c 24 fd24 (owedAg c 6) _) $$ [Hag24 Hd24 HO HtA24 HtG24]
  · isplitr; · iexact HK
    isplitl [Hag24]; · iexact Hag24
    isplitl [Hd24]; · iexact Hd24
    isplitl [HO]; · iexact HO
    isplitl [HtA24] <;> iassumption
  iintro ⟨HcA24, HO⟩
  clear hdev24
  have hdev25 : (⟨k0_dev88 c, k0_dev88_lt c⟩ : Dev nD) = nb c 25 := dev88_eq c
  sl_exec_parts
  iapply (agSend m K c 25 fd25 (owedAg c 5) _) $$ [Hag25 Hd25 HO HtA25 HtG25]
  · isplitr; · iexact HK
    isplitl [Hag25]; · iexact Hag25
    isplitl [Hd25]; · iexact Hd25
    isplitl [HO]; · iexact HO
    isplitl [HtA25] <;> iassumption
  iintro ⟨HcA25, HO⟩
  clear hdev25
  have hdev26 : (⟨k0_dev89 c, k0_dev89_lt c⟩ : Dev nD) = nb c 26 := dev89_eq c
  sl_exec_parts
  iapply (agSend m K c 26 fd26 (owedAg c 4) _) $$ [Hag26 Hd26 HO HtA26 HtG26]
  · isplitr; · iexact HK
    isplitl [Hag26]; · iexact Hag26
    isplitl [Hd26]; · iexact Hd26
    isplitl [HO]; · iexact HO
    isplitl [HtA26] <;> iassumption
  iintro ⟨HcA26, HO⟩
  clear hdev26
  have hdev27 : (⟨k0_dev90 c, k0_dev90_lt c⟩ : Dev nD) = nb c 27 := dev90_eq c
  sl_exec_parts
  iapply (agSend m K c 27 fd27 (owedAg c 3) _) $$ [Hag27 Hd27 HO HtA27 HtG27]
  · isplitr; · iexact HK
    isplitl [Hag27]; · iexact Hag27
    isplitl [Hd27]; · iexact Hd27
    isplitl [HO]; · iexact HO
    isplitl [HtA27] <;> iassumption
  iintro ⟨HcA27, HO⟩
  clear hdev27
  have hdev28 : (⟨k0_dev91 c, k0_dev91_lt c⟩ : Dev nD) = nb c 28 := dev91_eq c
  sl_exec_parts
  iapply (agSend m K c 28 fd28 (owedAg c 2) _) $$ [Hag28 Hd28 HO HtA28 HtG28]
  · isplitr; · iexact HK
    isplitl [Hag28]; · iexact Hag28
    isplitl [Hd28]; · iexact Hd28
    isplitl [HO]; · iexact HO
    isplitl [HtA28] <;> iassumption
  iintro ⟨HcA28, HO⟩
  clear hdev28
  have hdev29 : (⟨k0_dev92 c, k0_dev92_lt c⟩ : Dev nD) = nb c 29 := dev92_eq c
  sl_exec_parts
  iapply (agSend m K c 29 fd29 (owedAg c 1) _) $$ [Hag29 Hd29 HO HtA29 HtG29]
  · isplitr; · iexact HK
    isplitl [Hag29]; · iexact Hag29
    isplitl [Hd29]; · iexact Hd29
    isplitl [HO]; · iexact HO
    isplitl [HtA29] <;> iassumption
  iintro ⟨HcA29, HO⟩
  clear hdev29
  have hdev30 : (⟨k0_dev93 c, k0_dev93_lt c⟩ : Dev nD) = nb c 30 := dev93_eq c
  sl_exec_parts
  iapply (agSend m K c 30 fd30 0 _) $$ [Hag30 Hd30 HO HtA30 HtG30]
  · isplitr; · iexact HK
    isplitl [Hag30]; · iexact Hag30
    isplitl [Hd30]; · iexact Hd30
    isplitl [HO]; · iexact HO
    isplitl [HtA30] <;> iassumption
  iintro ⟨HcA30, HO⟩
  clear hdev30
  ihave #HIrsS0 := (recInv m K (c, some (0, 0))) $$ HK
  ihave #HIagR0 := (recInv m K (c, some (3, 0))) $$ HK
  ihave #HIrsS1 := (recInv m K (c, some (0, 1))) $$ HK
  ihave #HIagR1 := (recInv m K (c, some (3, 1))) $$ HK
  ihave #HIrsS2 := (recInv m K (c, some (0, 2))) $$ HK
  ihave #HIagR2 := (recInv m K (c, some (3, 2))) $$ HK
  ihave #HIrsS3 := (recInv m K (c, some (0, 3))) $$ HK
  ihave #HIagR3 := (recInv m K (c, some (3, 3))) $$ HK
  ihave #HIrsS4 := (recInv m K (c, some (0, 4))) $$ HK
  ihave #HIagR4 := (recInv m K (c, some (3, 4))) $$ HK
  ihave #HIrsS5 := (recInv m K (c, some (0, 5))) $$ HK
  ihave #HIagR5 := (recInv m K (c, some (3, 5))) $$ HK
  ihave #HIrsS6 := (recInv m K (c, some (0, 6))) $$ HK
  ihave #HIagR6 := (recInv m K (c, some (3, 6))) $$ HK
  ihave #HIrsS7 := (recInv m K (c, some (0, 7))) $$ HK
  ihave #HIagR7 := (recInv m K (c, some (3, 7))) $$ HK
  ihave #HIrsS8 := (recInv m K (c, some (0, 8))) $$ HK
  ihave #HIagR8 := (recInv m K (c, some (3, 8))) $$ HK
  ihave #HIrsS9 := (recInv m K (c, some (0, 9))) $$ HK
  ihave #HIagR9 := (recInv m K (c, some (3, 9))) $$ HK
  ihave #HIrsS10 := (recInv m K (c, some (0, 10))) $$ HK
  ihave #HIagR10 := (recInv m K (c, some (3, 10))) $$ HK
  ihave #HIrsS11 := (recInv m K (c, some (0, 11))) $$ HK
  ihave #HIagR11 := (recInv m K (c, some (3, 11))) $$ HK
  ihave #HIrsS12 := (recInv m K (c, some (0, 12))) $$ HK
  ihave #HIagR12 := (recInv m K (c, some (3, 12))) $$ HK
  ihave #HIrsS13 := (recInv m K (c, some (0, 13))) $$ HK
  ihave #HIagR13 := (recInv m K (c, some (3, 13))) $$ HK
  ihave #HIrsS14 := (recInv m K (c, some (0, 14))) $$ HK
  ihave #HIagR14 := (recInv m K (c, some (3, 14))) $$ HK
  ihave #HIrsS15 := (recInv m K (c, some (0, 15))) $$ HK
  ihave #HIagR15 := (recInv m K (c, some (3, 15))) $$ HK
  ihave #HIrsS16 := (recInv m K (c, some (0, 16))) $$ HK
  ihave #HIagR16 := (recInv m K (c, some (3, 16))) $$ HK
  ihave #HIrsS17 := (recInv m K (c, some (0, 17))) $$ HK
  ihave #HIagR17 := (recInv m K (c, some (3, 17))) $$ HK
  ihave #HIrsS18 := (recInv m K (c, some (0, 18))) $$ HK
  ihave #HIagR18 := (recInv m K (c, some (3, 18))) $$ HK
  ihave #HIrsS19 := (recInv m K (c, some (0, 19))) $$ HK
  ihave #HIagR19 := (recInv m K (c, some (3, 19))) $$ HK
  ihave #HIrsS20 := (recInv m K (c, some (0, 20))) $$ HK
  ihave #HIagR20 := (recInv m K (c, some (3, 20))) $$ HK
  ihave #HIrsS21 := (recInv m K (c, some (0, 21))) $$ HK
  ihave #HIagR21 := (recInv m K (c, some (3, 21))) $$ HK
  ihave #HIrsS22 := (recInv m K (c, some (0, 22))) $$ HK
  ihave #HIagR22 := (recInv m K (c, some (3, 22))) $$ HK
  ihave #HIrsS23 := (recInv m K (c, some (0, 23))) $$ HK
  ihave #HIagR23 := (recInv m K (c, some (3, 23))) $$ HK
  ihave #HIrsS24 := (recInv m K (c, some (0, 24))) $$ HK
  ihave #HIagR24 := (recInv m K (c, some (3, 24))) $$ HK
  ihave #HIrsS25 := (recInv m K (c, some (0, 25))) $$ HK
  ihave #HIagR25 := (recInv m K (c, some (3, 25))) $$ HK
  ihave #HIrsS26 := (recInv m K (c, some (0, 26))) $$ HK
  ihave #HIagR26 := (recInv m K (c, some (3, 26))) $$ HK
  ihave #HIrsS27 := (recInv m K (c, some (0, 27))) $$ HK
  ihave #HIagR27 := (recInv m K (c, some (3, 27))) $$ HK
  ihave #HIrsS28 := (recInv m K (c, some (0, 28))) $$ HK
  ihave #HIagR28 := (recInv m K (c, some (3, 28))) $$ HK
  ihave #HIrsS29 := (recInv m K (c, some (0, 29))) $$ HK
  ihave #HIagR29 := (recInv m K (c, some (3, 29))) $$ HK
  ihave #HIrsS30 := (recInv m K (c, some (0, 30))) $$ HK
  ihave #HIagR30 := (recInv m K (c, some (3, 30))) $$ HK
  sl_exec_parts
  -- every wait of this half is done: the assertion before the fifty-eighth part
  iapply (hk _)
  unfold MidX staging slotPts
  isplitr; · iexact HK
  isplitl [Hsrc]; · iexact Hsrc
  isplitl [HatS0_pay1 HatS1_pay1 HatS2_pay1 HatS3_pay1 HatS4_pay1 HatS5_pay1 HatS6_pay1 HatS7_pay1 HatS8_pay1 HatS9_pay1 HatS10_pay1 HatS11_pay1 HatS12_pay1 HatS13_pay1 HatS14_pay1 HatS15_pay1 HatS16_pay1 HatS17_pay1 HatS18_pay1 HatS19_pay1 HatS20_pay1 HatS21_pay1 HatS22_pay1 HatS23_pay1 HatS24_pay1 HatS25_pay1 HatS26_pay1 HatS27_pay1 HatS28_pay1 HatS29_pay1 HatS30_pay1]
  · iapply (pack31 _)
    isplitl [HatS0_pay1]; · iexact HatS0_pay1
    isplitl [HatS1_pay1]; · iexact HatS1_pay1
    isplitl [HatS2_pay1]; · iexact HatS2_pay1
    isplitl [HatS3_pay1]; · iexact HatS3_pay1
    isplitl [HatS4_pay1]; · iexact HatS4_pay1
    isplitl [HatS5_pay1]; · iexact HatS5_pay1
    isplitl [HatS6_pay1]; · iexact HatS6_pay1
    isplitl [HatS7_pay1]; · iexact HatS7_pay1
    isplitl [HatS8_pay1]; · iexact HatS8_pay1
    isplitl [HatS9_pay1]; · iexact HatS9_pay1
    isplitl [HatS10_pay1]; · iexact HatS10_pay1
    isplitl [HatS11_pay1]; · iexact HatS11_pay1
    isplitl [HatS12_pay1]; · iexact HatS12_pay1
    isplitl [HatS13_pay1]; · iexact HatS13_pay1
    isplitl [HatS14_pay1]; · iexact HatS14_pay1
    isplitl [HatS15_pay1]; · iexact HatS15_pay1
    isplitl [HatS16_pay1]; · iexact HatS16_pay1
    isplitl [HatS17_pay1]; · iexact HatS17_pay1
    isplitl [HatS18_pay1]; · iexact HatS18_pay1
    isplitl [HatS19_pay1]; · iexact HatS19_pay1
    isplitl [HatS20_pay1]; · iexact HatS20_pay1
    isplitl [HatS21_pay1]; · iexact HatS21_pay1
    isplitl [HatS22_pay1]; · iexact HatS22_pay1
    isplitl [HatS23_pay1]; · iexact HatS23_pay1
    isplitl [HatS24_pay1]; · iexact HatS24_pay1
    isplitl [HatS25_pay1]; · iexact HatS25_pay1
    isplitl [HatS26_pay1]; · iexact HatS26_pay1
    isplitl [HatS27_pay1]; · iexact HatS27_pay1
    isplitl [HatS28_pay1]; · iexact HatS28_pay1
    isplitl [HatS29_pay1]; · iexact HatS29_pay1
    iexact HatS30_pay1
  isplitl [Hrsall]; · iexact Hrsall
  isplitl [Hrest]; · iexact Hrest
  isplitl [HatG0_pay1 HatG1_pay1 HatG2_pay1 HatG3_pay1 HatG4_pay1 HatG5_pay1 HatG6_pay1 HatG7_pay1 HatG8_pay1 HatG9_pay1 HatG10_pay1 HatG11_pay1 HatG12_pay1 HatG13_pay1 HatG14_pay1 HatG15_pay1 HatG16_pay1 HatG17_pay1 HatG18_pay1 HatG19_pay1 HatG20_pay1 HatG21_pay1 HatG22_pay1 HatG23_pay1 HatG24_pay1 HatG25_pay1 HatG26_pay1 HatG27_pay1 HatG28_pay1 HatG29_pay1 HatG30_pay1]
  · iapply (pack31 _)
    isplitl [HatG0_pay1]; · iexact HatG0_pay1
    isplitl [HatG1_pay1]; · iexact HatG1_pay1
    isplitl [HatG2_pay1]; · iexact HatG2_pay1
    isplitl [HatG3_pay1]; · iexact HatG3_pay1
    isplitl [HatG4_pay1]; · iexact HatG4_pay1
    isplitl [HatG5_pay1]; · iexact HatG5_pay1
    isplitl [HatG6_pay1]; · iexact HatG6_pay1
    isplitl [HatG7_pay1]; · iexact HatG7_pay1
    isplitl [HatG8_pay1]; · iexact HatG8_pay1
    isplitl [HatG9_pay1]; · iexact HatG9_pay1
    isplitl [HatG10_pay1]; · iexact HatG10_pay1
    isplitl [HatG11_pay1]; · iexact HatG11_pay1
    isplitl [HatG12_pay1]; · iexact HatG12_pay1
    isplitl [HatG13_pay1]; · iexact HatG13_pay1
    isplitl [HatG14_pay1]; · iexact HatG14_pay1
    isplitl [HatG15_pay1]; · iexact HatG15_pay1
    isplitl [HatG16_pay1]; · iexact HatG16_pay1
    isplitl [HatG17_pay1]; · iexact HatG17_pay1
    isplitl [HatG18_pay1]; · iexact HatG18_pay1
    isplitl [HatG19_pay1]; · iexact HatG19_pay1
    isplitl [HatG20_pay1]; · iexact HatG20_pay1
    isplitl [HatG21_pay1]; · iexact HatG21_pay1
    isplitl [HatG22_pay1]; · iexact HatG22_pay1
    isplitl [HatG23_pay1]; · iexact HatG23_pay1
    isplitl [HatG24_pay1]; · iexact HatG24_pay1
    isplitl [HatG25_pay1]; · iexact HatG25_pay1
    isplitl [HatG26_pay1]; · iexact HatG26_pay1
    isplitl [HatG27_pay1]; · iexact HatG27_pay1
    isplitl [HatG28_pay1]; · iexact HatG28_pay1
    isplitl [HatG29_pay1]; · iexact HatG29_pay1
    iexact HatG30_pay1
  isplitl [Hs0 Hs1 Hs2 Hs3]
  · isplitl [Hs0]; · iexact Hs0
    isplitl [Hs1]; · iexact Hs1
    isplitl [Hs2] <;> iassumption
  isplitl [HO]; · iexact HO
  isplitl [HatS0 HatS1 HatS2 HatS3 HatS4 HatS5 HatS6 HatS7 HatS8 HatS9 HatS10 HatS11 HatS12 HatS13 HatS14 HatS15 HatS16 HatS17 HatS18 HatS19 HatS20 HatS21 HatS22 HatS23 HatS24 HatS25 HatS26 HatS27 HatS28 HatS29 HatS30]
  · iapply (pack31 _)
    isplitl [HatS0]; · iexact HatS0
    isplitl [HatS1]; · iexact HatS1
    isplitl [HatS2]; · iexact HatS2
    isplitl [HatS3]; · iexact HatS3
    isplitl [HatS4]; · iexact HatS4
    isplitl [HatS5]; · iexact HatS5
    isplitl [HatS6]; · iexact HatS6
    isplitl [HatS7]; · iexact HatS7
    isplitl [HatS8]; · iexact HatS8
    isplitl [HatS9]; · iexact HatS9
    isplitl [HatS10]; · iexact HatS10
    isplitl [HatS11]; · iexact HatS11
    isplitl [HatS12]; · iexact HatS12
    isplitl [HatS13]; · iexact HatS13
    isplitl [HatS14]; · iexact HatS14
    isplitl [HatS15]; · iexact HatS15
    isplitl [HatS16]; · iexact HatS16
    isplitl [HatS17]; · iexact HatS17
    isplitl [HatS18]; · iexact HatS18
    isplitl [HatS19]; · iexact HatS19
    isplitl [HatS20]; · iexact HatS20
    isplitl [HatS21]; · iexact HatS21
    isplitl [HatS22]; · iexact HatS22
    isplitl [HatS23]; · iexact HatS23
    isplitl [HatS24]; · iexact HatS24
    isplitl [HatS25]; · iexact HatS25
    isplitl [HatS26]; · iexact HatS26
    isplitl [HatS27]; · iexact HatS27
    isplitl [HatS28]; · iexact HatS28
    isplitl [HatS29]; · iexact HatS29
    iexact HatS30
  isplitl [HatR0 HatRs]
  · iapply (pack_erase0 _)
    isplitl [HatR0] <;> iassumption
  isplitl [HatA0 HatA1 HatA2 HatA3 HatA4 HatA5 HatA6 HatA7 HatA8 HatA9 HatA10 HatA11 HatA12 HatA13 HatA14 HatA15 HatA16 HatA17 HatA18 HatA19 HatA20 HatA21 HatA22 HatA23 HatA24 HatA25 HatA26 HatA27 HatA28 HatA29 HatA30]
  · iapply (pack31 _)
    isplitl [HatA0]; · iexact HatA0
    isplitl [HatA1]; · iexact HatA1
    isplitl [HatA2]; · iexact HatA2
    isplitl [HatA3]; · iexact HatA3
    isplitl [HatA4]; · iexact HatA4
    isplitl [HatA5]; · iexact HatA5
    isplitl [HatA6]; · iexact HatA6
    isplitl [HatA7]; · iexact HatA7
    isplitl [HatA8]; · iexact HatA8
    isplitl [HatA9]; · iexact HatA9
    isplitl [HatA10]; · iexact HatA10
    isplitl [HatA11]; · iexact HatA11
    isplitl [HatA12]; · iexact HatA12
    isplitl [HatA13]; · iexact HatA13
    isplitl [HatA14]; · iexact HatA14
    isplitl [HatA15]; · iexact HatA15
    isplitl [HatA16]; · iexact HatA16
    isplitl [HatA17]; · iexact HatA17
    isplitl [HatA18]; · iexact HatA18
    isplitl [HatA19]; · iexact HatA19
    isplitl [HatA20]; · iexact HatA20
    isplitl [HatA21]; · iexact HatA21
    isplitl [HatA22]; · iexact HatA22
    isplitl [HatA23]; · iexact HatA23
    isplitl [HatA24]; · iexact HatA24
    isplitl [HatA25]; · iexact HatA25
    isplitl [HatA26]; · iexact HatA26
    isplitl [HatA27]; · iexact HatA27
    isplitl [HatA28]; · iexact HatA28
    isplitl [HatA29]; · iexact HatA29
    iexact HatA30
  isplitl [HatG0 HatG1 HatG2 HatG3 HatG4 HatG5 HatG6 HatG7 HatG8 HatG9 HatG10 HatG11 HatG12 HatG13 HatG14 HatG15 HatG16 HatG17 HatG18 HatG19 HatG20 HatG21 HatG22 HatG23 HatG24 HatG25 HatG26 HatG27 HatG28 HatG29 HatG30]
  · iapply (pack31 _)
    isplitl [HatG0]; · iexact HatG0
    isplitl [HatG1]; · iexact HatG1
    isplitl [HatG2]; · iexact HatG2
    isplitl [HatG3]; · iexact HatG3
    isplitl [HatG4]; · iexact HatG4
    isplitl [HatG5]; · iexact HatG5
    isplitl [HatG6]; · iexact HatG6
    isplitl [HatG7]; · iexact HatG7
    isplitl [HatG8]; · iexact HatG8
    isplitl [HatG9]; · iexact HatG9
    isplitl [HatG10]; · iexact HatG10
    isplitl [HatG11]; · iexact HatG11
    isplitl [HatG12]; · iexact HatG12
    isplitl [HatG13]; · iexact HatG13
    isplitl [HatG14]; · iexact HatG14
    isplitl [HatG15]; · iexact HatG15
    isplitl [HatG16]; · iexact HatG16
    isplitl [HatG17]; · iexact HatG17
    isplitl [HatG18]; · iexact HatG18
    isplitl [HatG19]; · iexact HatG19
    isplitl [HatG20]; · iexact HatG20
    isplitl [HatG21]; · iexact HatG21
    isplitl [HatG22]; · iexact HatG22
    isplitl [HatG23]; · iexact HatG23
    isplitl [HatG24]; · iexact HatG24
    isplitl [HatG25]; · iexact HatG25
    isplitl [HatG26]; · iexact HatG26
    isplitl [HatG27]; · iexact HatG27
    isplitl [HatG28]; · iexact HatG28
    isplitl [HatG29]; · iexact HatG29
    iexact HatG30
  isplitl [HcA0 HcA1 HcA2 HcA3 HcA4 HcA5 HcA6 HcA7 HcA8 HcA9 HcA10 HcA11 HcA12 HcA13 HcA14 HcA15 HcA16 HcA17 HcA18 HcA19 HcA20 HcA21 HcA22 HcA23 HcA24 HcA25 HcA26 HcA27 HcA28 HcA29 HcA30]
  · iapply (pack31 _)
    isplitl [HcA0]; · iexact HcA0
    isplitl [HcA1]; · iexact HcA1
    isplitl [HcA2]; · iexact HcA2
    isplitl [HcA3]; · iexact HcA3
    isplitl [HcA4]; · iexact HcA4
    isplitl [HcA5]; · iexact HcA5
    isplitl [HcA6]; · iexact HcA6
    isplitl [HcA7]; · iexact HcA7
    isplitl [HcA8]; · iexact HcA8
    isplitl [HcA9]; · iexact HcA9
    isplitl [HcA10]; · iexact HcA10
    isplitl [HcA11]; · iexact HcA11
    isplitl [HcA12]; · iexact HcA12
    isplitl [HcA13]; · iexact HcA13
    isplitl [HcA14]; · iexact HcA14
    isplitl [HcA15]; · iexact HcA15
    isplitl [HcA16]; · iexact HcA16
    isplitl [HcA17]; · iexact HcA17
    isplitl [HcA18]; · iexact HcA18
    isplitl [HcA19]; · iexact HcA19
    isplitl [HcA20]; · iexact HcA20
    isplitl [HcA21]; · iexact HcA21
    isplitl [HcA22]; · iexact HcA22
    isplitl [HcA23]; · iexact HcA23
    isplitl [HcA24]; · iexact HcA24
    isplitl [HcA25]; · iexact HcA25
    isplitl [HcA26]; · iexact HcA26
    isplitl [HcA27]; · iexact HcA27
    isplitl [HcA28]; · iexact HcA28
    isplitl [HcA29]; · iexact HcA29
    iexact HcA30
  iexact Hlev

/-- info: 'Cert.Kernel.BodyEarly.bodyEarly' depends on axioms: [propext, Classical.choice, Quot.sound] -/
#guard_msgs in #print axioms bodyEarly

end Cert.Kernel.BodyEarly

end
-- ==== Proof.Around_Bits.lean ====
/-
A [32, 64, 256] buffer seen from one device of the ring: the slot at the device's own position, and the thirty-one
other slots, listed by the operation that addresses them — the slots at the positions of the devices the device's
operations address, or of the devices whose operations address it. Either list runs over every position but the
device's own exactly once, so the whole buffer's points-to is the own slot's and the thirty-one others'.
-/
import proofs.«900791_g7700000000000792_dist_gconv1d_cshard_i_b4_s512_c256_v7x_i32_bf16_1_alg».proof.Proof.Proto_Bits
import proofs.«900791_g7700000000000792_dist_gconv1d_cshard_i_b4_s512_c256_v7x_i32_bf16_1_alg».proof.Proof.Slots_Bits
import proofs.«900791_g7700000000000792_dist_gconv1d_cshard_i_b4_s512_c256_v7x_i32_bf16_1_alg».proof.Proof.Rot_Bits

noncomputable section

namespace Cert.Kernel.Around

open Idealize.ShloMosaic Idealize.SL.Sem Cert.Kernel Cert.Kernel.Proto Cert.Kernel.Slots
open Idealize.SL Idealize.SL.RA Idealize.SL.BI
open scoped Idealize.SL.BI
open Idealize.SL.BI.BIBase Idealize.SL.BI.Laws Idealize.SL.ProofMode

/- The two listings of the other positions, under this namespace's names as well. -/
export Cert.Kernel.Rot (dv_inj nbSlot pbSlot nbSlot_apply pbSlot_apply nbSlot_ne pbSlot_ne erase_eq_map)

variable [Facts]
open Facts₀ Facts

variable {Ix : Type} [DecidableEq Ix] {Val : EltTy → Type} {Name : Type} [DecidableEq Name] {U : Type} [URA U] {Lvl : Type}
local notation "𝕄" => MT nD τ sig Ix Val Name U Lvl

/-- The whole buffer's points-to is the slot at `j`'s and those of thirty-one distinct other positions. -/
theorem around (M : Memref sig .tc .vmem S32x64x256 .bf16) (c : Dev nD) (j : Fin 32) (σ : Fin 31 ↪ Fin 32) (hne : ∀ r, σ r ≠ j)
    (q : PosShare TreeShare) (f : Buf Val (M.view.loc (c.tc : Thread nD τ))) :
    (M.view.loc (c.tc : Thread nD τ) ↦[M.view.set]{q} f : sProp 𝕄)
      = iprop((M.view.loc (c.tc : Thread nD τ) ↦[(slotM M j).view.set]{q} f)
          ∗ bigSep Finset.univ (fun r : Fin 31 => (M.view.loc (c.tc : Thread nD τ) ↦[(slotM M (σ r)).view.set]{q} f : sProp 𝕄))) := by
  rw [pointsTo_slots M c q f]
  exact Rot.bigSep_around j σ hne _

/-- The buffer on device `c`: its own slot, and the slots at the positions of the devices its operations address. -/
theorem around_nb (M : Memref sig .tc .vmem S32x64x256 .bf16) (c : Dev nD) (q : PosShare TreeShare)
    (f : Buf Val (M.view.loc (c.tc : Thread nD τ))) :
    (M.view.loc (c.tc : Thread nD τ) ↦[M.view.set]{q} f : sProp 𝕄)
      = iprop((M.view.loc (c.tc : Thread nD τ) ↦[(slotM M (dv c)).view.set]{q} f)
          ∗ bigSep Finset.univ (fun r : Fin 31 => (M.view.loc (c.tc : Thread nD τ) ↦[(slotM M (dv (nb c r))).view.set]{q} f : sProp 𝕄))) :=
  around M c (dv c) (nbSlot c) (nbSlot_ne c) q f

/-- The buffer on device `c`: its own slot, and the slots at the positions of the devices whose operations address it. -/
theorem around_pb (M : Memref sig .tc .vmem S32x64x256 .bf16) (c : Dev nD) (q : PosShare TreeShare)
    (f : Buf Val (M.view.loc (c.tc : Thread nD τ))) :
    (M.view.loc (c.tc : Thread nD τ) ↦[M.view.set]{q} f : sProp 𝕄)
      = iprop((M.view.loc (c.tc : Thread nD τ) ↦[(slotM M (dv c)).view.set]{q} f)
          ∗ bigSep Finset.univ (fun r : Fin 31 => (M.view.loc (c.tc : Thread nD τ) ↦[(slotM M (dv (pb c r))).view.set]{q} f : sProp 𝕄))) :=
  around M c (dv c) (pbSlot c) (pbSlot_ne c) q f

/-- info: 'Cert.Kernel.Around.around_nb' depends on axioms: [propext, Classical.choice, Quot.sound] -/
#guard_msgs in #print axioms around_nb

/-- info: 'Cert.Kernel.Around.around_pb' depends on axioms: [propext, Classical.choice, Quot.sound] -/
#guard_msgs in #print axioms around_pb

end Cert.Kernel.Around

end
-- ==== Proof.Shares_Bits.lean ====
/-
The read shares of the all-gather buffer on one device. A device's own slot is read by its thirty-one outgoing
transfers at once, so its full share is cut into a remainder and thirty-one tokens; the same cut of every received
slot lets the whole buffer be held at the remainder share (for the device's own loads) with every token kept aside,
and, once the outgoing transfers have returned the own slot's tokens, be put back together at the full share.
-/
import proofs.«900791_g7700000000000792_dist_gconv1d_cshard_i_b4_s512_c256_v7x_i32_bf16_1_alg».proof.Proof.Around_Bits
import Idealize.ShloMosaic.Lib.Transfers

noncomputable section

namespace Cert.Kernel.Shares

open Idealize.ShloMosaic Idealize.SL.Sem Cert.Kernel Cert.Kernel.Proto Cert.Kernel.Slots Cert.Kernel.Around
open Idealize.SL Idealize.SL.RA Idealize.SL.BI
open scoped Idealize.SL.BI
open Idealize.SL.BI.BIBase Idealize.SL.BI.Laws Idealize.SL.ProofMode

variable [Facts]
open Facts₀ Facts

variable {Ix : Type} [DecidableEq Ix] {Val : EltTy → Type} {Name : Type} [DecidableEq Name] {U : Type} [URA U] {Lvl : Type}
local notation "𝕄" => MT nD τ sig Ix Val Name U Lvl

/-- Every received slot's full share cut into its remainder and its tokens; the remainders, with the own slot's, make the
    whole buffer at the remainder share. -/
theorem ag_gather (c : Dev nD) (f : Buf Val (agB.view.loc (c.tc : Thread nD τ))) :
    iprop((agB.view.loc (c.tc : Thread nD τ) ↦[(slotM agB (dv c)).view.set]{shLast} f)
        ∗ bigSep Finset.univ (fun r : Fin 31 => (agB.view.loc (c.tc : Thread nD τ) ↦[(slotM agB (dv (pb c r))).view.set]{fullShare} f : sProp 𝕄)))
      ⊢ iprop((agB.view.loc (c.tc : Thread nD τ) ↦[agB.view.set]{shLast} f)
        ∗ bigSep Finset.univ (fun r : Fin 31 => bigSep Finset.univ (fun i : Fin 31 =>
            (agB.view.loc (c.tc : Thread nD τ) ↦[(slotM agB (dv (pb c r))).view.set]{sh i} f : sProp 𝕄)))) := by
  have hcut : bigSep Finset.univ (fun r : Fin 31 => (agB.view.loc (c.tc : Thread nD τ) ↦[(slotM agB (dv (pb c r))).view.set]{fullShare} f : sProp 𝕄))
      ⊢ iprop(bigSep Finset.univ (fun r : Fin 31 => (agB.view.loc (c.tc : Thread nD τ) ↦[(slotM agB (dv (pb c r))).view.set]{shLast} f : sProp 𝕄))
          ∗ bigSep Finset.univ (fun r : Fin 31 => bigSep Finset.univ (fun i : Fin 31 =>
              (agB.view.loc (c.tc : Thread nD τ) ↦[(slotM agB (dv (pb c r))).view.set]{sh i} f : sProp 𝕄)))) :=
    (bigSep_mono fun r _ => Transfers.pointsTo_toks_split fullShare 31).trans (Entails.of_eq (bigSep_sep _ _ _))
  rw [around_pb agB c shLast f]
  iintro ⟨Hown, Hr⟩
  ihave H := hcut $$ Hr
  icases H with ⟨Ha, Hb⟩
  isplitl [Hown Ha]
  · isplitl [Hown] <;> iassumption
  · iexact Hb

/-- The whole buffer at the remainder share, every received slot's tokens and the own slot's tokens: the whole buffer at
    the full share. -/
theorem ag_regather (c : Dev nD) (f : Buf Val (agB.view.loc (c.tc : Thread nD τ))) :
    iprop((agB.view.loc (c.tc : Thread nD τ) ↦[agB.view.set]{shLast} f)
        ∗ (bigSep Finset.univ (fun r : Fin 31 => bigSep Finset.univ (fun i : Fin 31 =>
            (agB.view.loc (c.tc : Thread nD τ) ↦[(slotM agB (dv (pb c r))).view.set]{sh i} f : sProp 𝕄))))
        ∗ bigSep Finset.univ (fun i : Fin 31 => (agB.view.loc (c.tc : Thread nD τ) ↦[(slotM agB (dv c)).view.set]{sh i} f : sProp 𝕄)))
      ⊢ (agB.view.loc (c.tc : Thread nD τ) ↦[agB.view.set]{fullShare} f : sProp 𝕄) := by
  have hjoin : iprop(bigSep Finset.univ (fun r : Fin 31 => (agB.view.loc (c.tc : Thread nD τ) ↦[(slotM agB (dv (pb c r))).view.set]{shLast} f : sProp 𝕄))
          ∗ bigSep Finset.univ (fun r : Fin 31 => bigSep Finset.univ (fun i : Fin 31 =>
              (agB.view.loc (c.tc : Thread nD τ) ↦[(slotM agB (dv (pb c r))).view.set]{sh i} f : sProp 𝕄))))
      ⊢ bigSep Finset.univ (fun r : Fin 31 => (agB.view.loc (c.tc : Thread nD τ) ↦[(slotM agB (dv (pb c r))).view.set]{fullShare} f : sProp 𝕄)) :=
    (Entails.of_eq (bigSep_sep _ _ _).symm).trans (bigSep_mono fun r _ => Transfers.pointsTo_toks_join fullShare 31)
  rw [around_pb agB c shLast f, around_pb agB c fullShare f]
  iintro ⟨⟨Hown, Ha⟩, Hb, Ht⟩
  isplitl [Hown Ht]
  · iapply (Transfers.pointsTo_toks_join fullShare 31)
    isplitl [Hown] <;> iassumption
  · iapply hjoin
    isplitl [Ha] <;> iassumption

/-- info: 'Cert.Kernel.Shares.ag_gather' depends on axioms: [propext, Classical.choice, Quot.sound] -/
#guard_msgs in #print axioms ag_gather

/-- info: 'Cert.Kernel.Shares.ag_regather' depends on axioms: [propext, Classical.choice, Quot.sound] -/
#guard_msgs in #print axioms ag_regather

end Cert.Kernel.Shares

end
-- ==== Proof.EndB_Bits.lean ====
/-
The end of a device's body, as an entailment: the partial-product buffer rejoined from the device's own chunk and the
thirty-one chunks its reduce-scatter copies lent and returned, the receive buffer and the all-gather buffer whole, and
the device past round 0 of each of its 124 transfer cells. No later round of any cell has a duty, so the cells close
and their counters come out at zero: what the pipeline's last point asks for.
-/
import proofs.«900791_g7700000000000792_dist_gconv1d_cshard_i_b4_s512_c256_v7x_i32_bf16_1_alg».proof.Proof.CloseCells_Bits
import proofs.«900791_g7700000000000792_dist_gconv1d_cshard_i_b4_s512_c256_v7x_i32_bf16_1_alg».proof.Proof.Around_Bits

noncomputable section

namespace Cert.Kernel.EndB

open Cert.Kernel Cert.Kernel.Gen Cert.Kernel.Contents Cert.Kernel.Proto Cert.Kernel.Tables Cert.Kernel.CloseCells
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem bigSep_fin4 {M : Type} [URA M] (Φ : Fin 4 → sProp M) : bigSep Finset.univ Φ = iprop(Φ 0 ∗ Φ 1 ∗ Φ 2 ∗ Φ 3) :=
  bigSep_univ_eq_bigSepL [0, 1, 2, 3] (by decide) (by decide) Φ

/-- The positions of the 124 transfer cells, pool by pool. -/
theorem positions_eq (c : Dev nD) :
    (bigSep Finset.univ (fun k : Fin 4 × Fin 31 => (atPos ER (kcell (c, some k)) 1 ∅ 0 : sProp 𝕄)))
      = iprop((bigSep Finset.univ fun r : Fin 31 => atPos ER (rsS c r) 1 ∅ 0) ∗ (bigSep Finset.univ fun r : Fin 31 => atPos ER (rsR c r) 1 ∅ 0)
          ∗ (bigSep Finset.univ fun r : Fin 31 => atPos ER (agS c r) 1 ∅ 0) ∗ (bigSep Finset.univ fun r : Fin 31 => atPos ER (agR c r) 1 ∅ 0)) := by
  rw [bigSep_univ_prod, bigSep_fin4]

/-- A whole scratch buffer at some contents. -/
theorem scr_intro (c : Dev nD) (b : Ref sig .tc) (f : Buf (Elt F) ((Memref.whole b : Memref sig .tc _ _ _).view.loc (c : Thread nD τ))) :
    (((Memref.whole b : Memref sig .tc _ _ _).view.loc (c : Thread nD τ)) ↦[(Memref.whole b : Memref sig .tc _ _ _).view.set]{fullShare} f : sProp 𝕄) ⊢ scr c b := by
  rw [View.set_whole]
  unfold scr
  iintro H
  iexists f
  iexact H

theorem endB (m : Mem F) (K : Dev nD × Option (Fin 4 × Fin 31) → ℕ) (c : Dev nD)
    (fr : Buf (Elt F) ((rsB : Memref sig .tc .vmem S32x64x256 .bf16).view.loc (c : Thread nD τ)))
    (fa : Buf (Elt F) ((agB : Memref sig .tc .vmem S32x64x256 .bf16).view.loc (c : Thread nD τ))) :
    iprop(records m K
      ∗ (((slotM srcB (dv c)).view.loc (c : Thread nD τ)) ↦[(slotM srcB (dv c)).view.set]{fullShare} P m c)
      ∗ (bigSep Finset.univ fun r : Fin 31 => (((slotM srcB (dv (nb c r))).view.loc (c : Thread nD τ)) ↦[(slotM srcB (dv (nb c r))).view.set]{fullShare} P m c))
      ∗ (((rsB : Memref sig .tc .vmem S32x64x256 .bf16).view.loc (c : Thread nD τ)) ↦[(rsB : Memref sig .tc .vmem S32x64x256 .bf16).view.set]{fullShare} fr)
      ∗ (((agB : Memref sig .tc .vmem S32x64x256 .bf16).view.loc (c : Thread nD τ)) ↦[(agB : Memref sig .tc .vmem S32x64x256 .bf16).view.set]{fullShare} fa)
      ∗ (bigSep Finset.univ fun r : Fin 31 => atPos ER (rsS c r) 1 ∅ 0) ∗ (bigSep Finset.univ fun r : Fin 31 => atPos ER (rsR c r) 1 ∅ 0)
      ∗ (bigSep Finset.univ fun r : Fin 31 => atPos ER (agS c r) 1 ∅ 0) ∗ (bigSep Finset.univ fun r : Fin 31 => atPos ER (agR c r) 1 ∅ 0))
    ⊢ (iprop(|={Set.univ}=> Φ₁ c) : sProp 𝕄) := by
  have hsrc := Around.around_nb (Ix := Unit) (Val := Elt F) (Name := ℕ) (U := UU) (Lvl := ℕ) srcB c fullShare (P m c)
  iintro ⟨#HK, Hown, Hpeers, Hrs, Hag, H1, H2, H3, H4⟩
  ihave Hsrc := (Entails.of_eq hsrc.symm) $$ [Hown Hpeers]
  · isplitl [Hown] <;> iassumption
  ihave Hpos := (Entails.of_eq (positions_eq (F := F) c).symm) $$ [H1 H2 H3 H4]
  · isplitl [H1]; · iexact H1
    isplitl [H2]; · iexact H2
    isplitl [H3] <;> iassumption
  imod (closeOwn m K c) $$ [Hpos] with Hz
  · isplitr; · iexact HK
    iexact Hpos
  imodintro
  unfold Φ₁
  isplitl [Hsrc]; · iapply (scr_intro (F := F) c cc0_scratch0 (P m c)); iexact Hsrc
  isplitl [Hrs]; · iapply (scr_intro (F := F) c cc0_scratch1 fr); iexact Hrs
  isplitl [Hag]; · iapply (scr_intro (F := F) c cc0_scratch2 fa); iexact Hag
  iexact Hz

/-- info: 'Cert.Kernel.EndB.endB' depends on axioms: [propext, Classical.choice, Quot.sound] -/
#guard_msgs in #print axioms endB

end Cert.Kernel.EndB

end
-- ==== Proof.BodyLate_Bits.lean ====
/-
The end of a device's body, from its fifty-eighth part: the all-gather buffer, every slot landed, is read whole and
stored, widened, as the result; the thirty-one waits for the all-gather's own copies to have left return the shares of
the device's own slot lent to them, so that the buffer is whole at the full share again; the device is then past the one
round of each of its 124 transfer cells, which close with their counters at zero.
-/
import proofs.«900791_g7700000000000792_dist_gconv1d_cshard_i_b4_s512_c256_v7x_i32_bf16_1_alg».proof.Proof.CutB_Bits
import proofs.«900791_g7700000000000792_dist_gconv1d_cshard_i_b4_s512_c256_v7x_i32_bf16_1_alg».proof.Proof.MidX_Bits
import proofs.«900791_g7700000000000792_dist_gconv1d_cshard_i_b4_s512_c256_v7x_i32_bf16_1_alg».proof.Proof.Tables_Bits
import proofs.«900791_g7700000000000792_dist_gconv1d_cshard_i_b4_s512_c256_v7x_i32_bf16_1_alg».proof.Proof.Levels_Bits
import proofs.«900791_g7700000000000792_dist_gconv1d_cshard_i_b4_s512_c256_v7x_i32_bf16_1_alg».proof.Proof.DevEqs_Bits
import proofs.«900791_g7700000000000792_dist_gconv1d_cshard_i_b4_s512_c256_v7x_i32_bf16_1_alg».proof.Proof.Slots_Bits
import proofs.«900791_g7700000000000792_dist_gconv1d_cshard_i_b4_s512_c256_v7x_i32_bf16_1_alg».proof.Proof.CloseCells_Bits
import proofs.«900791_g7700000000000792_dist_gconv1d_cshard_i_b4_s512_c256_v7x_i32_bf16_1_alg».proof.Proof.Shares_Bits
import proofs.«900791_g7700000000000792_dist_gconv1d_cshard_i_b4_s512_c256_v7x_i32_bf16_1_alg».proof.Proof.EndB_Bits
import Idealize.ShloMosaic.Lib.Tactic

set_option synthInstance.maxSize 4096

noncomputable section

namespace Cert.Kernel.BodyLate

open Cert.Kernel Cert.Kernel.Gen Cert.Kernel.Contents Cert.Kernel.Proto Cert.Kernel.Tables
open Cert.Kernel.Cut Cert.Kernel.CutB Cert.Kernel.DevEqs Cert.Kernel.Slots
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Kernel.Mid Cert.Kernel.Levels Cert.Kernel.CloseCells

variable {F : FTy → Type} [FloatOps F]

local notation "𝕄" => MT nD τ sig Unit (Elt F) ℕ UU ℕ

/-- A conjunction over the thirty-one operations, written out. -/
theorem bigSep_fin31 {M : Type} [URA M] (Φ : Fin 31 → sProp M) :
    bigSep (Finset.univ : Finset (Fin 31)) Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30) :=
  bigSep_univ_eq_bigSepL [0, 1, 2, 3, 4, 5, 6, 7, 8, 9, 10, 11, 12, 13, 14, 15, 16, 17, 18, 19, 20, 21, 22, 23, 24, 25, 26, 27, 28, 29, 30] (by decide) (by decide) Φ

theorem zero3 : (![0, 0, 0] : Fin 3 → ℕ) = fun _ => 0 := by funext a; fin_cases a <;> rfl

/-- The result's staging buffer after the one store: the widened all-gather buffer, that is the result. -/
theorem stg3_after (m : Mem F) (c : Dev nD) (s : Buf (Elt F) ((c : Thread nD τ).loc cc0_stg3_0))
    (Lw : List (View.Piece (Elt F) cc0_stg3_0.ty.shape cc0_stg3_0.ty.elt))
    (hL : Lw = [⟨Rect.unit ![0, 0, 0] S4x512x256.size inb_S4x512x256_S4x512x256_0_0_0,
        k0_pay8 (View.readAt (Elt F) agB.view (Rect.unit ![0, 0, 0] S32x64x256.size inb_S32x64x256_S32x64x256_0_0_0).toLoadRect (agAll (P m)))⟩]) :
    ((((Memref.whole cc0_stg3_0 : Memref sig .tc .vmem S4x512x256 .f32).view.loc (c : Thread nD τ))
        ↦[(Memref.whole cc0_stg3_0 : Memref sig .tc .vmem S4x512x256 .f32).view.set]{fullShare}
          (Memref.whole cc0_stg3_0 : Memref sig .tc .vmem S4x512x256 .f32).view.writes (Elt F) s Lw) : sProp 𝕄)
      ⊢ (((c : Thread nD τ).loc cc0_stg3_0) ↦{fullShare} outAll (P m)) := by
  subst hL
  rw [View.set_whole, View.writes_singleton,
    show View.readAt (Elt F) agB.view (Rect.unit ![0, 0, 0] S32x64x256.size inb_S32x64x256_S32x64x256_0_0_0).toLoadRect (agAll (P m)) = agAll (P m)
      from Memref.readAt_unit_zero (Elt F) cc0_scratch2 zero3 _ _]
  exact Entails.of_eq (congrArg _ (Memref.write_access_unit_zero_univ (Elt F) cc0_stg3_0 zero3 _ s _))

set_option maxHeartbeats 6400000 in
theorem bodyLate (m : Mem F) (K : Dev nD × Option (Fin 4 × Fin 31) → ℕ) (c : Dev nD)
    (s : Buf (Elt F) ((c : Thread nD τ).loc cc0_stg3_0)) (W : Waits sig Unit) :
    MidX m K c s W ⊢ wp frame (wpE (defs₀ (F := F)) 𝒱₀ (c : Thread nD τ) none) Set.univ (tail58 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) srcB (Memref.isWhole_whole _) rsB (Memref.isWhole_whole _) agB (Memref.isWhole_whole _) cc0_scratch3 cc0_scratch4 cc0_scratch5 cc0_scratch6 c)
      (fun d => wp frame (wpE (defs₀ (F := F)) 𝒱₀ (c : Thread nD τ) none) Set.univ (tailC (Memref.whole cc0_stg0_0) (Memref.isWhole_whole _) (Memref.whole cc0_stg1_0) (Memref.isWhole_whole _) (Memref.whole cc0_stg2_0) (Memref.isWhole_whole _) (Memref.whole cc0_stg3_0) (Memref.isWhole_whole _) srcB (Memref.isWhole_whole _) rsB (Memref.isWhole_whole _) agB (Memref.isWhole_whole _) cc0_scratch3 cc0_scratch4 cc0_scratch5 cc0_scratch6 d) (fun _ => PostB m c)) := by
  unfold MidX staging slotPts
  iintro ⟨#HK, Hsrc, Hpeers, Hrs, Hown, Hland, ⟨Hs0, Hs1, Hs2, Hs3⟩, HO, HpS, HpR, HpA, HpG, HcA, #Hlev⟩
  ihave HpA' := (Entails.of_eq (bigSep_fin31 _)) $$ HpA
  icases HpA' with ⟨HatA0, HatA1, HatA2, HatA3, HatA4, HatA5, HatA6, HatA7, HatA8, HatA9, HatA10, HatA11, HatA12, HatA13, HatA14, HatA15, HatA16, HatA17, HatA18, HatA19, HatA20, HatA21, HatA22, HatA23, HatA24, HatA25, HatA26, HatA27, HatA28, HatA29, HatA30⟩
  ihave HcA' := (Entails.of_eq (bigSep_fin31 _)) $$ HcA
  icases HcA' with ⟨HcA0, HcA1, HcA2, HcA3, HcA4, HcA5, HcA6, HcA7, HcA8, HcA9, HcA10, HcA11, HcA12, HcA13, HcA14, HcA15, HcA16, HcA17, HcA18, HcA19, HcA20, HcA21, HcA22, HcA23, HcA24, HcA25, HcA26, HcA27, HcA28, HcA29, HcA30⟩
  ihave #HIagS0 := (recInv m K (c, some (2, 0))) $$ HK
  ihave #HIagS1 := (recInv m K (c, some (2, 1))) $$ HK
  ihave #HIagS2 := (recInv m K (c, some (2, 2))) $$ HK
  ihave #HIagS3 := (recInv m K (c, some (2, 3))) $$ HK
  ihave #HIagS4 := (recInv m K (c, some (2, 4))) $$ HK
  ihave #HIagS5 := (recInv m K (c, some (2, 5))) $$ HK
  ihave #HIagS6 := (recInv m K (c, some (2, 6))) $$ HK
  ihave #HIagS7 := (recInv m K (c, some (2, 7))) $$ HK
  ihave #HIagS8 := (recInv m K (c, some (2, 8))) $$ HK
  ihave #HIagS9 := (recInv m K (c, some (2, 9))) $$ HK
  ihave #HIagS10 := (recInv m K (c, some (2, 10))) $$ HK
  ihave #HIagS11 := (recInv m K (c, some (2, 11))) $$ HK
  ihave #HIagS12 := (recInv m K (c, some (2, 12))) $$ HK
  ihave #HIagS13 := (recInv m K (c, some (2, 13))) $$ HK
  ihave #HIagS14 := (recInv m K (c, some (2, 14))) $$ HK
  ihave #HIagS15 := (recInv m K (c, some (2, 15))) $$ HK
  ihave #HIagS16 := (recInv m K (c, some (2, 16))) $$ HK
  ihave #HIagS17 := (recInv m K (c, some (2, 17))) $$ HK
  ihave #HIagS18 := (recInv m K (c, some (2, 18))) $$ HK
  ihave #HIagS19 := (recInv m K (c, some (2, 19))) $$ HK
  ihave #HIagS20 := (recInv m K (c, some (2, 20))) $$ HK
  ihave #HIagS21 := (recInv m K (c, some (2, 21))) $$ HK
  ihave #HIagS22 := (recInv m K (c, some (2, 22))) $$ HK
  ihave #HIagS23 := (recInv m K (c, some (2, 23))) $$ HK
  ihave #HIagS24 := (recInv m K (c, some (2, 24))) $$ HK
  ihave #HIagS25 := (recInv m K (c, some (2, 25))) $$ HK
  ihave #HIagS26 := (recInv m K (c, some (2, 26))) $$ HK
  ihave #HIagS27 := (recInv m K (c, some (2, 27))) $$ HK
  ihave #HIagS28 := (recInv m K (c, some (2, 28))) $$ HK
  ihave #HIagS29 := (recInv m K (c, some (2, 29))) $$ HK
  ihave #HIagS30 := (recInv m K (c, some (2, 30))) $$ HK
  ihave Hg := (Shares.ag_gather (Ix := Unit) (Val := Elt F) (Name := ℕ) (U := UU) (Lvl := ℕ) c (agAll (P m))) $$ [Hown Hland]
  · isplitl [Hown] <;> iassumption
  icases Hg with ⟨Hag, Htoks⟩
  have hs3 : ((((c : Thread nD τ).loc cc0_stg3_0) ↦{fullShare} s : sProp 𝕄))
      = (((Memref.whole cc0_stg3_0 : Memref sig .tc .vmem S4x512x256 .f32).view.loc (c : Thread nD τ))
          ↦[(Memref.whole cc0_stg3_0 : Memref sig .tc .vmem S4x512x256 .f32).view.set]{fullShare} s) := by rw [View.set_whole]
  ihave Hs3' := (Entails.of_eq hs3) $$ Hs3
  unfold tail58
  sl_exec_parts
  -- the shares of the own slot lent to the thirty-one copies, back
  ihave Hpay := (Entails.of_eq (bigSep_fin31 (fun i : Fin 31 => ((agB.view.loc (c : Thread nD τ)) ↦[(slotM agB (dv c)).view.set]{sh i} agAll (P m) : sProp 𝕄))).symm) $$ [HatA0_pay1 HatA1_pay1 HatA2_pay1 HatA3_pay1 HatA4_pay1 HatA5_pay1 HatA6_pay1 HatA7_pay1 HatA8_pay1 HatA9_pay1 HatA10_pay1 HatA11_pay1 HatA12_pay1 HatA13_pay1 HatA14_pay1 HatA15_pay1 HatA16_pay1 HatA17_pay1 HatA18_pay1 HatA19_pay1 HatA20_pay1 HatA21_pay1 HatA22_pay1 HatA23_pay1 HatA24_pay1 HatA25_pay1 HatA26_pay1 HatA27_pay1 HatA28_pay1 HatA29_pay1 HatA30_pay1]
  ·
    isplitl [HatA0_pay1]; · iexact HatA0_pay1
    isplitl [HatA1_pay1]; · iexact HatA1_pay1
    isplitl [HatA2_pay1]; · iexact HatA2_pay1
    isplitl [HatA3_pay1]; · iexact HatA3_pay1
    isplitl [HatA4_pay1]; · iexact HatA4_pay1
    isplitl [HatA5_pay1]; · iexact HatA5_pay1
    isplitl [HatA6_pay1]; · iexact HatA6_pay1
    isplitl [HatA7_pay1]; · iexact HatA7_pay1
    isplitl [HatA8_pay1]; · iexact HatA8_pay1
    isplitl [HatA9_pay1]; · iexact HatA9_pay1
    isplitl [HatA10_pay1]; · iexact HatA10_pay1
    isplitl [HatA11_pay1]; · iexact HatA11_pay1
    isplitl [HatA12_pay1]; · iexact HatA12_pay1
    isplitl [HatA13_pay1]; · iexact HatA13_pay1
    isplitl [HatA14_pay1]; · iexact HatA14_pay1
    isplitl [HatA15_pay1]; · iexact HatA15_pay1
    isplitl [HatA16_pay1]; · iexact HatA16_pay1
    isplitl [HatA17_pay1]; · iexact HatA17_pay1
    isplitl [HatA18_pay1]; · iexact HatA18_pay1
    isplitl [HatA19_pay1]; · iexact HatA19_pay1
    isplitl [HatA20_pay1]; · iexact HatA20_pay1
    isplitl [HatA21_pay1]; · iexact HatA21_pay1
    isplitl [HatA22_pay1]; · iexact HatA22_pay1
    isplitl [HatA23_pay1]; · iexact HatA23_pay1
    isplitl [HatA24_pay1]; · iexact HatA24_pay1
    isplitl [HatA25_pay1]; · iexact HatA25_pay1
    isplitl [HatA26_pay1]; · iexact HatA26_pay1
    isplitl [HatA27_pay1]; · iexact HatA27_pay1
    isplitl [HatA28_pay1]; · iexact HatA28_pay1
    isplitl [HatA29_pay1]; · iexact HatA29_pay1
    iexact HatA30_pay1
  ihave Hagf := (Shares.ag_regather (Ix := Unit) (Val := Elt F) (Name := ℕ) (U := UU) (Lvl := ℕ) c (agAll (P m))) $$ [Hag Htoks Hpay]
  · isplitl [Hag]; · iexact Hag
    isplitl [Htoks] <;> iassumption
  ihave HpA1 := (Entails.of_eq (bigSep_fin31 (fun r : Fin 31 => (atPos ER (agS c r) 1 ∅ 0 : sProp 𝕄))).symm) $$ [HatA0 HatA1 HatA2 HatA3 HatA4 HatA5 HatA6 HatA7 HatA8 HatA9 HatA10 HatA11 HatA12 HatA13 HatA14 HatA15 HatA16 HatA17 HatA18 HatA19 HatA20 HatA21 HatA22 HatA23 HatA24 HatA25 HatA26 HatA27 HatA28 HatA29 HatA30]
  ·
    isplitl [HatA0]; · iexact HatA0
    isplitl [HatA1]; · iexact HatA1
    isplitl [HatA2]; · iexact HatA2
    isplitl [HatA3]; · iexact HatA3
    isplitl [HatA4]; · iexact HatA4
    isplitl [HatA5]; · iexact HatA5
    isplitl [HatA6]; · iexact HatA6
    isplitl [HatA7]; · iexact HatA7
    isplitl [HatA8]; · iexact HatA8
    isplitl [HatA9]; · iexact HatA9
    isplitl [HatA10]; · iexact HatA10
    isplitl [HatA11]; · iexact HatA11
    isplitl [HatA12]; · iexact HatA12
    isplitl [HatA13]; · iexact HatA13
    isplitl [HatA14]; · iexact HatA14
    isplitl [HatA15]; · iexact HatA15
    isplitl [HatA16]; · iexact HatA16
    isplitl [HatA17]; · iexact HatA17
    isplitl [HatA18]; · iexact HatA18
    isplitl [HatA19]; · iexact HatA19
    isplitl [HatA20]; · iexact HatA20
    isplitl [HatA21]; · iexact HatA21
    isplitl [HatA22]; · iexact HatA22
    isplitl [HatA23]; · iexact HatA23
    isplitl [HatA24]; · iexact HatA24
    isplitl [HatA25]; · iexact HatA25
    isplitl [HatA26]; · iexact HatA26
    isplitl [HatA27]; · iexact HatA27
    isplitl [HatA28]; · iexact HatA28
    isplitl [HatA29]; · iexact HatA29
    iexact HatA30
  ihave Hres := (stg3_after m c s (bodyLate.sl.Hs3'_1 m) rfl) $$ Hs3'
  imod (EndB.endB m K c (rsAll (P m) c) (agAll (P m))) $$ [Hsrc Hpeers Hrs Hagf HpS HpR HpA1 HpG] with HΦ
  · isplitr; · iexact HK
    isplitl [Hsrc]; · iexact Hsrc
    isplitl [Hpeers]; · iexact Hpeers
    isplitl [Hrs]; · iexact Hrs
    isplitl [Hagf]; · iexact Hagf
    isplitl [HpS]; · iexact HpS
    isplitl [HpR]; · iexact HpR
    isplitl [HpA1]; · iexact HpA1
    iexact HpG
  sl_step
  unfold PostB
  isplitl [HΦ]; · iexact HΦ
  isplitl [HO]; · iexists _; iexact HO
  isplitl [Hs0]; · iexact Hs0
  isplitl [Hs1]; · iexact Hs1
  isplitl [Hs2]; · iexact Hs2
  iexact Hres

/-- info: 'Cert.Kernel.BodyLate.bodyLate' depends on axioms: [propext, Classical.choice, Quot.sound] -/
#guard_msgs in #print axioms bodyLate

end Cert.Kernel.BodyLate

end
-- ==== Proof.BodyB_Bits.lean ====
/-
The body's second half at a symbolic device: its first twenty-nine parts (to the assertion before the result is stored)
continued by the rest (the store of the result, the all-gather's send waits, the cells closed).
-/
import proofs.«900791_g7700000000000792_dist_gconv1d_cshard_i_b4_s512_c256_v7x_i32_bf16_1_alg».proof.Proof.BodyEarly_Bits
import proofs.«900791_g7700000000000792_dist_gconv1d_cshard_i_b4_s512_c256_v7x_i32_bf16_1_alg».proof.Proof.BodyLate_Bits

set_option synthInstance.maxSize 4096

noncomputable section

namespace Cert.Kernel.BodyB

open Cert.Kernel Cert.Kernel.Gen Cert.Kernel.Contents Cert.Kernel.Proto
open Cert.Kernel.Cut Cert.Kernel.CutB Cert.Kernel.Mid
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- From the assertion between the halves, the rest of the body's first sixty parts and then its last four parts and
    closing waits run to the body's post. -/
theorem bodyB (m : Mem F) (K : Dev nD × Option (Fin 4 × Fin 31) → ℕ) (c : Dev nD) (v2 v544 : BitVec 32)
    (s : Buf (Elt F) ((c : Thread nD τ).loc cc0_stg3_0)) (W : Waits sig Unit) :
    Mid m K c s W
      ⊢ wp frame (wpE (defs₀ (F := F)) 𝒱₀ c none) Set.univ
          (tail65 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) srcB (Memref.isWhole_whole _) rsB (Memref.isWhole_whole _) agB (Memref.isWhole_whole _) cc0_scratch3 cc0_scratch4 cc0_scratch5 cc0_scratch6 c v2 v544)
          (fun d => wp frame (wpE (defs₀ (F := F)) 𝒱₀ c none) Set.univ
            (tailC (Memref.whole cc0_stg0_0) (Memref.isWhole_whole _) (Memref.whole cc0_stg1_0) (Memref.isWhole_whole _) (Memref.whole cc0_stg2_0) (Memref.isWhole_whole _) (Memref.whole cc0_stg3_0) (Memref.isWhole_whole _) srcB (Memref.isWhole_whole _) rsB (Memref.isWhole_whole _) agB (Memref.isWhole_whole _) cc0_scratch3 cc0_scratch4 cc0_scratch5 cc0_scratch6 d) (fun _ => PostB m c)) := by
  rw [tail65_eq]
  exact BodyEarly.bodyEarly m K c v2 v544 s W _ _ (fun W' => BodyLate.bodyLate m K c s W')

/-- info: 'Cert.Kernel.BodyB.bodyB' depends on axioms: [propext, Classical.choice, Quot.sound] -/
#guard_msgs in #print axioms bodyB

end Cert.Kernel.BodyB

end
-- ==== Proof.Body_Bits.lean ====
/-
The body obligation of a device, from the body's three stretches. The kernel's body is cut twice along its printed
sequence: the signals, the product, the barrier wait and the reduce-scatter's copies; the reduce-scatter's receive
waits; the sum, the all-gather and the closing waits. Each stretch is stepped in a module of its own between named
assertions; here they are composed, what the library's obligation hands the body is regrouped into the first
stretch's precondition, and what the last stretch leaves is read as what the obligation wants back.
-/
import proofs.«900791_g7700000000000792_dist_gconv1d_cshard_i_b4_s512_c256_v7x_i32_bf16_1_alg».proof.Proof.CutA_Bits
import proofs.«900791_g7700000000000792_dist_gconv1d_cshard_i_b4_s512_c256_v7x_i32_bf16_1_alg».proof.Proof.PreA_Bits
import proofs.«900791_g7700000000000792_dist_gconv1d_cshard_i_b4_s512_c256_v7x_i32_bf16_1_alg».proof.Proof.MidX_Bits
import proofs.«900791_g7700000000000792_dist_gconv1d_cshard_i_b4_s512_c256_v7x_i32_bf16_1_alg».proof.Proof.OpenPre_Bits
import proofs.«900791_g7700000000000792_dist_gconv1d_cshard_i_b4_s512_c256_v7x_i32_bf16_1_alg».proof.Proof.BodyA_Bits
import proofs.«900791_g7700000000000792_dist_gconv1d_cshard_i_b4_s512_c256_v7x_i32_bf16_1_alg».proof.Proof.BodyW_Bits
import proofs.«900791_g7700000000000792_dist_gconv1d_cshard_i_b4_s512_c256_v7x_i32_bf16_1_alg».proof.Proof.BodyB_Bits
import Idealize.ShloMosaic.Lib.Pipeline.Kit
import Idealize.ShloMosaic.Lib.Pipeline.FrameBody
import Idealize.ShloMosaic.Lib.Tactic

set_option synthInstance.maxSize 4096

noncomputable section

namespace Cert.Kernel.Body

open Cert.Kernel Cert.Kernel.Gen Cert.Kernel.Contents Cert.Kernel.Proto Cert.Kernel.Mid Cert.Kernel.PreA
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The windows' staging buffers as the obligation hands them over -/

omit [FloatOps F] in
/-- A whole staging buffer held at contents `X`: the buffer's points-to at some contents equal to `X`. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- An argument window's staging buffer holds, when the body is handed it, the window's block: it was fetched at the point. -/
theorem before_in0 (m : Mem F) (c : Dev nD) (d) : (dats m 0 c).before 0 t0_0 d = iblk m c 0 t0_0 :=
  ((dats m 0 c).before_fetched 0 t0_0 (fetch0_0 t0_0) d).trans (by unfold Dat.fetched Dat.blockOf iblk; rfl)
theorem before_in1 (m : Mem F) (c : Dev nD) (d) : (dats m 0 c).before 1 t0_0 d = iblk m c 1 t0_0 :=
  ((dats m 0 c).before_fetched 1 t0_0 (fetch0_1 t0_0) d).trans (by unfold Dat.fetched Dat.blockOf iblk; rfl)
theorem before_in2 (m : Mem F) (c : Dev nD) (d) : (dats m 0 c).before 2 t0_0 d = iblk m c 2 t0_0 :=
  ((dats m 0 c).before_fetched 2 t0_0 (fetch0_2 t0_0) d).trans (by unfold Dat.fetched Dat.blockOf iblk; rfl)

/-- What the library's obligation hands the body at the one point. -/
def bodyPre' (m : Mem F) (c : Dev nD) : sProp 𝕄 :=
  iprop(Φ₀ m c ∗ (dats m 0 c).owesAt () t0_0.castSucc
    ∗ (∃ d, owns (Ix := Unit) (Name := ℕ) (U := UU) (Lvl := ℕ) (c : Thread nD τ) (Memref.whole cc0_stg0_0) fullShare ((dats m 0 c).before 0 t0_0 d))
    ∗ (∃ d, owns (Ix := Unit) (Name := ℕ) (U := UU) (Lvl := ℕ) (c : Thread nD τ) (Memref.whole cc0_stg1_0) fullShare ((dats m 0 c).before 1 t0_0 d))
    ∗ (∃ d, owns (Ix := Unit) (Name := ℕ) (U := UU) (Lvl := ℕ) (c : Thread nD τ) (Memref.whole cc0_stg2_0) fullShare ((dats m 0 c).before 2 t0_0 d))
    ∗ (∃ d, owns (Ix := Unit) (Name := ℕ) (U := UU) (Lvl := ℕ) (c : Thread nD τ) (Memref.whole cc0_stg3_0) fullShare ((dats m 0 c).before 3 t0_0 d)))

/-- What it wants back. -/
def bodyPost (m : Mem F) (c : Dev nD) : sProp 𝕄 :=
  iprop(Φ₁ c ∗ (dats m 0 c).owesAt () t0_0.succ
    ∗ owns (Ix := Unit) (Name := ℕ) (U := UU) (Lvl := ℕ) (c : Thread nD τ) (Memref.whole cc0_stg0_0) fullShare (iblk m c 0 t0_0)
    ∗ owns (Ix := Unit) (Name := ℕ) (U := UU) (Lvl := ℕ) (c : Thread nD τ) (Memref.whole cc0_stg1_0) fullShare (iblk m c 1 t0_0)
    ∗ owns (Ix := Unit) (Name := ℕ) (U := UU) (Lvl := ℕ) (c : Thread nD τ) (Memref.whole cc0_stg2_0) fullShare (iblk m c 2 t0_0)
    ∗ owns (Ix := Unit) (Name := ℕ) (U := UU) (Lvl := ℕ) (c : Thread nD τ) (Memref.whole cc0_stg3_0) fullShare (outAll (P m)))

/-- The obligation's holdings, opened: the invariant, what is owed under some recorded set, the four staging buffers. -/
theorem pre_open (m : Mem F) (c : Dev nD) :
    bodyPre' m c ⊢ iprop(∃ (W : Waits sig Unit) (s : Buf (Elt F) ((c : Thread nD τ).loc cc0_stg3_0)), Φ₀ m c ∗ owes c (O₀ c) W ∗ staging m c s) := by
  unfold bodyPre' staging
  simp only [owns_whole_eq, before_in0, before_in1, before_in2]
  iintro ⟨HΦ, ⟨%W, -, Ho⟩, ⟨%d0, %f0, %h0, H0⟩, ⟨%d1, %f1, %h1, H1⟩, ⟨%d2, %f2, %h2, H2⟩, ⟨%d3, %f3, -, H3⟩⟩
  subst h0; subst h1; subst h2
  iexists W; iexists f3
  isplitl [HΦ]; · iexact HΦ
  isplitl [Ho]; · iexact Ho
  isplitl [H0]; · iexact H0
  isplitl [H1]; · iexact H1
  isplitl [H2]; · iexact H2
  iexact H3

/-! ## The post -/

/-- What the second half leaves is what the obligation wants back: nothing owed, under whatever was recorded. -/
theorem post_close (m : Mem F) (c : Dev nD) : Mid.PostB m c ⊢ bodyPost m c := by
  unfold Mid.PostB bodyPost
  simp only [owns_whole_eq]
  iintro ⟨HΦ, ⟨%W', Ho⟩, H0, H1, H2, H3⟩
  isplitl [HΦ]; · iexact HΦ
  isplitl [Ho]
  · iexists W'
    isplitr
    · ipureintro; exact fun _ _ => Or.inl trivial
    · iexact Ho
  isplitl [H0]
  · iexists _; isplitr
    · ipureintro; rfl
    · iexact H0
  isplitl [H1]
  · iexists _; isplitr
    · ipureintro; rfl
    · iexact H1
  isplitl [H2]
  · iexists _; isplitr
    · ipureintro; rfl
    · iexact H2
  iexists _; isplitr
  · ipureintro; rfl
  · iexact H3

/-! ## The body, from its three stretches -/

set_option maxRecDepth 65536 in
/-- The body on device `c`: the signals, the product, the barrier wait and the reduce-scatter's copies; the receive waits;
    the sum, the all-gather and the closing waits. -/
theorem body_run (m : Mem F) (c : Dev nD) (s : Buf (Elt F) ((c : Thread nD τ).loc cc0_stg3_0)) (W : Waits sig Unit) :
    iprop(Φ₀ m c ∗ owes c (O₀ c) W ∗ staging m c s)
      ⊢ wp frame (wpE (defs₀ (F := F)) 𝒱₀ (c : Thread nD τ) none) Set.univ (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) srcB (Memref.isWhole_whole _) rsB (Memref.isWhole_whole _) agB (Memref.isWhole_whole _) cc0_scratch3 cc0_scratch4 cc0_scratch5 cc0_scratch6) (fun _ => Mid.PostB m c) := by
  refine (OpenPre.openPre m c s W).trans ?_
  iintro ⟨%K, %f0, %f1, %f2, H⟩
  rw [Cut.cc0_body_eq, wp_bind, CutA.k0_part65_eq, CutA.progA_eq]
  iapply (BodyA.sends m K c s W f0 f1 f2
    (fun d0 v2 w => CutA.progW (Memref.whole cc0_stg0_0) (Memref.isWhole_whole _) (Memref.whole cc0_stg1_0) (Memref.isWhole_whole _) (Memref.whole cc0_stg2_0) (Memref.isWhole_whole _) (Memref.whole cc0_stg3_0) (Memref.isWhole_whole _) srcB (Memref.isWhole_whole _) rsB (Memref.isWhole_whole _) agB (Memref.isWhole_whole _) cc0_scratch3 cc0_scratch4 cc0_scratch5 cc0_scratch6 d0 w (Cut.tail65 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) srcB (Memref.isWhole_whole _) rsB (Memref.isWhole_whole _) agB (Memref.isWhole_whole _) cc0_scratch3 cc0_scratch4 cc0_scratch5 cc0_scratch6 d0 v2 (w 30)))
    (fun d => wp frame (wpE (defs₀ (F := F)) 𝒱₀ (c : Thread nD τ) none) Set.univ (Cut.tailC (Memref.whole cc0_stg0_0) (Memref.isWhole_whole _) (Memref.whole cc0_stg1_0) (Memref.isWhole_whole _) (Memref.whole cc0_stg2_0) (Memref.isWhole_whole _) (Memref.whole cc0_stg3_0) (Memref.isWhole_whole _) srcB (Memref.isWhole_whole _) rsB (Memref.isWhole_whole _) agB (Memref.isWhole_whole _) cc0_scratch3 cc0_scratch4 cc0_scratch5 cc0_scratch6 d) (fun _ => Mid.PostB m c))
    (fun v2 w W' => BodyW.recvWaits m K c s W' (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _) srcB (Memref.isWhole_whole _)
      (Memref.isWhole_whole _) agB (Memref.isWhole_whole _) cc0_scratch3 cc0_scratch5 cc0_scratch6 w
      (Cut.tail65 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) srcB (Memref.isWhole_whole _) rsB (Memref.isWhole_whole _) agB (Memref.isWhole_whole _) cc0_scratch3 cc0_scratch4 cc0_scratch5 cc0_scratch6 c v2 (w 30)) _ (fun W'' => BodyB.bodyB m K c v2 (w 30) s W'')))
  iexact H

set_option maxRecDepth 65536 in
/-- The library's body obligation on device `c`. -/
theorem body_obligation (m : Mem F) (c : Dev nD) :
    BodyObligation (dats (F := F) m 0 c) (defs₀ (F := F)) 𝒱₀ () Set.univ := fun t => by
  rw [fin_N0 t]
  rw [bigSep_W0, bigSep_W0]
  show bodyPre' m c ⊢ wp frame (wpE (defs₀ (F := F)) 𝒱₀ (c : Thread nD τ) none) Set.univ (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) srcB (Memref.isWhole_whole _) rsB (Memref.isWhole_whole _) agB (Memref.isWhole_whole _) cc0_scratch3 cc0_scratch4 cc0_scratch5 cc0_scratch6) (fun _ => bodyPost m c)
  refine (pre_open m c).trans ?_
  iintro ⟨%W, %s, H⟩
  iapply (wp_mono frame (wpE (defs₀ (F := F)) 𝒱₀ (c : Thread nD τ) none) Set.univ fun _ => post_close m c)
  iapply (body_run m c s W)
  iexact H

/-- info: 'Cert.Kernel.Body.pre_open' depends on axioms: [propext, Classical.choice, Quot.sound] -/
#guard_msgs in #print axioms pre_open

/-- info: 'Cert.Kernel.Body.post_close' depends on axioms: [propext, Classical.choice, Quot.sound] -/
#guard_msgs in #print axioms post_close

/-- info: 'Cert.Kernel.Body.body_obligation' depends on axioms: [propext, Classical.choice, Quot.sound] -/
#guard_msgs in #print axioms body_obligation

end Cert.Kernel.Body

end
-- ==== Proof.LaunchGhost_Bits.lean ====
/-
The launch's ghost state for the thirty-two-device kernel: the launch element (the pipeline's copy of the rounds algebra
beside the protocol's), its protocol half funded into every cell's round state, reached-mark, owner's position and duty
tokens; every cell's invariant allocated for all devices under one update, from the devices' own semaphores and their
barrier semaphore at zero; and the duty tokens, minted by the cell they are owed to, dealt to the devices that pay
them: a barrier cell's duty r and an all-gather receive cell's go r + 1 places back around the ring, a reduce-scatter
receive cell's 31 - r places back, the send cells' stay with their owner.
-/
import proofs.«900791_g7700000000000792_dist_gconv1d_cshard_i_b4_s512_c256_v7x_i32_bf16_1_alg».proof.Proof.Proto_Bits

noncomputable section

namespace Cert.Kernel.LaunchGhost

open Cert.Kernel Cert.Kernel.Gen Cert.Kernel.Proto
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## Conjunctions over finite types, rearranged -/

section BigSep

variable {M : Type} [URA M]

/-- Dealing a doubly indexed family around: each column reindexed by its own permutation of the rows. -/
theorem bigSep_deal {α β : Type} [Fintype α] [Fintype β] (e : β → α ≃ α) (Φ : α → β → sProp M) :
    bigSep Finset.univ (fun a => bigSep Finset.univ (fun b => Φ a b))
      = bigSep Finset.univ (fun a => bigSep Finset.univ (fun b => Φ (e b a) b)) := by
  rw [bigSep_univ_comm, bigSep_congr (s := Finset.univ) (fun b _ => bigSep_univ_equiv (e b) (fun a => Φ a b)), bigSep_univ_comm]

/-- A conjunction over an optional index: the summand at no index, then the others. -/
theorem bigSep_univ_option {K : Type} [Fintype K] [DecidableEq K] (Φ : Option K → sProp M) :
    bigSep Finset.univ Φ = iprop(Φ none ∗ bigSep Finset.univ fun k : K => Φ (some k)) := by
  have h : (Finset.univ : Finset (Option K)) = insert none (Finset.univ.map Function.Embedding.some) := by
    ext x; cases x <;> simp
  rw [h, bigSep_insert (by simp), bigSep_map]
  rfl

theorem bigSep_fin4 (Φ : Fin 4 → sProp M) : bigSep Finset.univ Φ = iprop(Φ 0 ∗ Φ 1 ∗ Φ 2 ∗ Φ 3) :=
  bigSep_univ_eq_bigSepL [0, 1, 2, 3] (by decide) (by decide) Φ

end BigSep

/-! ## Cells of every device under one rounds algebra: funding, allocation, the names gathered -/

section Cells

variable {nD : Nat} {τ : Topo} {sig : RefSig} {Ix : Type} [DecidableEq Ix] {D : Type} [DecidableEq D]
variable {Val : EltTy → Type} {Name : Type} [DecidableEq Name] {U : Type} [URA U] {Lvl : Type}
variable (E : Emb (URounds (GSem nD τ sig) D) (MT nD τ sig Ix Val Name U Lvl)) (Rd : Schedule (GSem nD τ sig) D (MT nD τ sig Ix Val Name U Lvl))
variable {I : Type} [Fintype I] [DecidableEq I] (cell : Dev nD × I → GSem nD τ sig) (hcell : Function.Injective cell)

/-- A conjunction over the cells of every device, device by device. -/
theorem bigSep_cells (Φ : GSem nD τ sig → sProp (MT nD τ sig Ix Val Name U Lvl)) :
    bigSep (Finset.univ.map ⟨cell, hcell⟩) Φ = bigSep Finset.univ fun c : Dev nD => bigSep Finset.univ fun j : I => Φ (cell (c, j)) := by
  rw [bigSep_map, bigSep_univ_prod]; rfl

/-- The launch element of the cells of every device is, device by device and cell by cell, the round state at counter
    zero, the mark that round 0 is reached and the owner's position, beside the tokens. -/
theorem fund_cells (toks : Finset (GSem nD τ sig × ℕ × D)) :
    BI.own (E (initOf (Finset.univ.map ⟨cell, hcell⟩) toks))
      ⊢ iprop(|==> ((bigSep Finset.univ fun c : Dev nD => bigSep Finset.univ fun j : I => roundState E Rd (cell (c, j)) 0)
          ∗ (bigSep Finset.univ fun c : Dev nD => bigSep Finset.univ fun j : I => reached E (cell (c, j)) 0)
          ∗ (bigSep Finset.univ fun c : Dev nD => bigSep Finset.univ fun j : I => atPos E (cell (c, j)) 0 ∅ 0)
          ∗ bigSep toks fun x => dutyTok E x.1 x.2.1 x.2.2)) := by
  have h := Rounds.fund E Rd (Finset.univ.map ⟨cell, hcell⟩) toks
  rw [bigSep_cells cell hcell (fun g => roundState E Rd g 0), bigSep_cells cell hcell (fun g => reached E g 0),
    bigSep_cells cell hcell (fun g => atPos E g 0 ∅ 0)] at h
  exact h

/-- One device's cells' invariants, allocated from their counters at zero and their round states. -/
theorem alloc_cells [Preorder Lvl] [Infinite Name] [E.LandsIn (upEmb : UEmb _ (MT nD τ sig Ix Val Name U Lvl))]
    [∀ g r d, BI.Storable (upEmb : UEmb _ (MT nD τ sig Ix Val Name U Lvl)) (Rd.payload g r d)] (c : Dev nD) {Es : Set Name} :
    iprop((bigSep Finset.univ fun j : I => semVal (cell (c, j)) 0) ∗ bigSep Finset.univ fun j : I => roundState E Rd (cell (c, j)) 0)
      ⊢ |={Es}=> (bigSep Finset.univ fun j : I => iprop(∃ κ : Name, cellInv E Rd κ (cell (c, j))) : sProp (MT nD τ sig Ix Val Name U Lvl)) := by
  rw [← bigSep_sep']
  exact (bigSep_mono fun j _ => (Rounds.body_intro E Rd (cell (c, j))).trans inv_alloc).trans (bigSep_fupd _ _)

/-- The names of every device's cells' invariants, gathered into one function. -/
theorem names_gather [Preorder Lvl] [Infinite Name] :
    (bigSep Finset.univ fun c : Dev nD => bigSep Finset.univ fun j : I => iprop(∃ κ : Name, cellInv E Rd κ (cell (c, j))) : sProp (MT nD τ sig Ix Val Name U Lvl))
      ⊢ iprop(∃ K : Dev nD × I → Name, bigSep Finset.univ fun cj : Dev nD × I => cellInv E Rd (K cj) (cell cj)) := by
  rw [← bigSep_univ_prod (fun cj : Dev nD × I => iprop(∃ κ : Name, cellInv E Rd κ (cell cj)))]
  exact BI.bigSep_exists_pi Finset.univ (fun (cj : Dev nD × I) (κ : Name) => (cellInv E Rd κ (cell cj) : sProp (MT nD τ sig Ix Val Name U Lvl)))

end Cells

/-! ## This program's cells and tokens -/

variable {F : FTy → Type} [FloatOps F]

local notation "𝕄" => MT nD τ sig Unit (Elt F) ℕ UU ℕ
local notation "J" => Option (Fin 4 × Fin 31)

/-- The barrier semaphore is no transfer semaphore. -/
theorem reg_ne_osem (k : Fin 4 × Fin 31) : (SemLoc.reg barS : SemLoc sig) ≠ osem k := fun h => by cases h

/-- Distinct (pool, operation) pairs name distinct own semaphores. -/
theorem osem_inj : Function.Injective osem := fun k k' h => by
  obtain ⟨h1, h2⟩ := dsem_inj (SemLoc.dma.inj h)
  exact Prod.ext h1 h2

/-- The own semaphores are scoped, pairwise distinct, and none of them a staging semaphore. -/
theorem ownSemFacts : Pipeline.OwnSemFacts cfg0.spec osem := ⟨by decide, osem_inj, by decide⟩

/-- Every device's cells: its barrier cell and its 124 own ones. -/
def ringCells : Finset (GSem nD τ sig) := Finset.univ.map ⟨kcell, kcell_inj⟩

/-- The duty tokens as minted, by owner: a barrier cell's 31, and the one of each own cell. -/
abbrev tokOf (x : Dev nD × (Fin 31 ⊕ (Fin 4 × Fin 31))) : GSem nD τ sig × ℕ × Fin 31 := match x.2 with
  | .inl r => (bar x.1, 0, r)
  | .inr k => (kcell (x.1, some k), 0, 0)

theorem tokOf_injective : Function.Injective tokOf := by
  rintro ⟨c, x⟩ ⟨c', x'⟩ h
  have h1 : c = c' := by
    have := congrArg (fun t : GSem nD τ sig × ℕ × Fin 31 => t.1.1.1) h
    cases x <;> cases x' <;> exact this
  subst h1
  cases x with
  | inl r => cases x' with
    | inl r' =>
      have : r = r' := congrArg (fun t : GSem nD τ sig × ℕ × Fin 31 => t.2.2) h
      subst this; rfl
    | inr k' => exact absurd (congrArg (fun t : GSem nD τ sig × ℕ × Fin 31 => t.1.2) h) (reg_ne_osem k')
  | inr k => cases x' with
    | inl r' => exact absurd (congrArg (fun t : GSem nD τ sig × ℕ × Fin 31 => t.1.2) h).symm (reg_ne_osem k)
    | inr k' =>
      have : k = k' := osem_inj (congrArg (fun t : GSem nD τ sig × ℕ × Fin 31 => t.1.2) h)
      subst this; rfl

def ringToks : Finset (GSem nD τ sig × ℕ × Fin 31) := Finset.univ.map ⟨tokOf, tokOf_injective⟩

/-- The launch element: the pipeline's copy and the protocol's. -/
def u₀ : UU :=
  (initOf (Pipeline.cells cfgs cellOf_inj) (Pipeline.launchToks cfgs cellOf_inj), initOf ringCells ringToks)

/-- The duty tokens of device `c`'s own cells, as minted. -/
def toks (c : Dev nD) : sProp 𝕄 :=
  iprop((bigSep Finset.univ fun r : Fin 31 => dutyTok ER (bar c) 0 r) ∗ bigSep Finset.univ fun k : Fin 4 × Fin 31 => dutyTok ER (kcell (c, some k)) 0 0)

variable (m : Mem F)

/-- What the launch element deals device `c`. -/
def G (c : Dev nD) : sProp 𝕄 :=
  iprop((bigSep Finset.univ fun j : J => roundState ER (sched m) (kcell (c, j)) 0)
    ∗ (bigSep Finset.univ fun j : J => iprop(atPos ER (kcell (c, j)) 0 ∅ 0 ∗ reached ER (kcell (c, j)) 0)) ∗ toks (F := F) c)

/-- What the global step makes of it. -/
def G' (c : Dev nD) : sProp 𝕄 := iprop(∃ K, ghost m K c)

theorem fund_ring : BI.own (ER (initOf ringCells ringToks)) ⊢ (|==> bigSep Finset.univ (G m) : sProp 𝕄) := by
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum]; rfl
  unfold ringCells
  iintro HX
  imod (fund_cells ER (sched m) kcell kcell_inj ringToks) $$ HX with ⟨Hst, Hr, Hat, Htok⟩
  imodintro
  ihave Htok' := (Entails.of_eq hT) $$ Htok
  unfold G; simp only [bigSep_sep']
  isplitl [Hst]; · iexact Hst
  isplitl [Hat Hr]
  · isplitl [Hat] <;> iassumption
  iexact Htok'

/-- The theorem's `hu₀`: the launch element split between the pipeline and the protocol, the protocol's half funded. -/
theorem hu₀ : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  imod (fund_ring m) $$ HX with HG
  imodintro
  isplitl [HP] <;> iassumption

/-! ## The global step: every cell's invariant allocated, the tokens dealt to their payers -/

omit [FloatOps F] in
/-- The barrier semaphore is the launch's one unscoped semaphore. -/
theorem unscopedSems0_eq (c : Dev nD) : (unscopedSems0 c : sProp 𝕄) = semVal (bar c) 0 := by
  unfold unscopedSems0; rw [bigSep_eq_bigSepL_of_eq [SemLoc.reg barS] (by decide) (by decide)]; rfl

omit [FloatOps F] in
/-- A device's own semaphores and its barrier semaphore are its cells' counters. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun j : J => semVal (kcell (c, j)) 0 : sProp 𝕄) := by
  rw [unscopedSems0_eq, bigSep_univ_option]
  unfold Pipeline.ownSems0
  iintro ⟨HO, HB⟩
  isplitl [HB]; · iexact HB
  iexact HO

/-- One device's step: its cells' invariants from their counters and round states; positions, marks and tokens kept. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j : J => iprop(∃ κ : ℕ, cellInv ER (sched m) κ (kcell (c, j))))
          ∗ (bigSep Finset.univ fun j : J => iprop(atPos ER (kcell (c, j)) 0 ∅ 0 ∗ reached ER (kcell (c, j)) 0)) ∗ toks (F := F) c) := by
  unfold G
  iintro ⟨Hos, Hus, Hst, Hat, Htok⟩
  ihave Hv := (sems0_eq (F := F) c) $$ [Hos Hus]
  · isplitl [Hos] <;> iassumption
  imod (alloc_cells ER (sched m) kcell c (Es := Set.univ)) $$ [Hv Hst] with Hinv
  · isplitl [Hv] <;> iassumption
  imodintro
  isplitl [Hinv]; · iexact Hinv
  isplitl [Hat]; · iexact Hat
  iexact Htok

instance records_persistent (K : Dev nD × J → ℕ) : BI.Persistent (records m K) := by unfold records; infer_instance

theorem ghost_intro (K : Dev nD × J → ℕ) (c : Dev nD) : iprop(records m K ∗ linear (F := F) c) ⊢ G' m c := by
  unfold G' ghost
  iintro H
  iexists K
  iexact H

/-- Operation `r`'s forward neighbour, as a permutation of the mesh. -/
def nbE (r : Fin 31) : Dev nD ≃ Dev nD := ⟨fun c => nb c r, fun c => pb c r, fun c => pb_nb c r, fun c => nb_pb c r⟩
/-- Operations counted from the other end. -/
def revE : Fin 31 ≃ Fin 31 := ⟨rev, rev, rev_rev, rev_rev⟩

omit [FloatOps F] in
/-- The tokens dealt from the cells' owners to the duties' payers: the barrier cell's duty `r` and the all-gather receive cell
    `r` go to the device `r + 1` places back, the reduce-scatter receive cell `r` to the device `31 - r` places back; the send
    cells' stay. -/
theorem toks_around : (bigSep Finset.univ fun c : Dev nD => (toks c : sProp 𝕄)) ⊢ bigSep Finset.univ fun c : Dev nD => payToks c := by
  have hk (c : Dev nD) : (bigSep Finset.univ fun k : Fin 4 × Fin 31 => (dutyTok ER (kcell (c, some k)) 0 0 : sProp 𝕄))
      = iprop((bigSep Finset.univ fun r : Fin 31 => dutyTok ER (rsS c r) 0 0) ∗ (bigSep Finset.univ fun r : Fin 31 => dutyTok ER (rsR c r) 0 0)
          ∗ (bigSep Finset.univ fun r : Fin 31 => dutyTok ER (agS c r) 0 0) ∗ (bigSep Finset.univ fun r : Fin 31 => dutyTok ER (agR c r) 0 0)) := by
    rw [bigSep_univ_prod, bigSep_fin4]
  have hL : (bigSep Finset.univ fun c : Dev nD => (toks c : sProp 𝕄))
      = iprop((bigSep Finset.univ fun c : Dev nD => bigSep Finset.univ fun r : Fin 31 => dutyTok ER (bar c) 0 r)
          ∗ (bigSep Finset.univ fun c : Dev nD => bigSep Finset.univ fun r : Fin 31 => dutyTok ER (rsS c r) 0 0)
          ∗ (bigSep Finset.univ fun c : Dev nD => bigSep Finset.univ fun r : Fin 31 => dutyTok ER (rsR c r) 0 0)
          ∗ (bigSep Finset.univ fun c : Dev nD => bigSep Finset.univ fun r : Fin 31 => dutyTok ER (agS c r) 0 0)
          ∗ (bigSep Finset.univ fun c : Dev nD => bigSep Finset.univ fun r : Fin 31 => dutyTok ER (agR c r) 0 0)) := by
    unfold toks; simp only [hk, bigSep_sep']
  have hR : (bigSep Finset.univ fun c : Dev nD => (payToks c : sProp 𝕄))
      = iprop((bigSep Finset.univ fun c : Dev nD => bigSep Finset.univ fun r : Fin 31 => dutyTok ER (bar (nb c r)) 0 r)
          ∗ (bigSep Finset.univ fun c : Dev nD => bigSep Finset.univ fun r : Fin 31 => dutyTok ER (rsR (nb c r) (rev r)) 0 0)
          ∗ (bigSep Finset.univ fun c : Dev nD => bigSep Finset.univ fun r : Fin 31 => dutyTok ER (rsS c r) 0 0)
          ∗ (bigSep Finset.univ fun c : Dev nD => bigSep Finset.univ fun r : Fin 31 => dutyTok ER (agR (nb c r) r) 0 0)
          ∗ (bigSep Finset.univ fun c : Dev nD => bigSep Finset.univ fun r : Fin 31 => dutyTok ER (agS c r) 0 0)) := by
    unfold payToks; simp only [bigSep_sep']
  have hA := bigSep_deal (M := 𝕄) nbE (fun (c : Dev nD) (r : Fin 31) => dutyTok ER (bar c) 0 r)
  have hV := (bigSep_congr (s := Finset.univ) fun (c : Dev nD) _ => bigSep_univ_equiv revE (fun r : Fin 31 => (dutyTok ER (rsR c r) 0 0 : sProp 𝕄))).trans
    (bigSep_deal (M := 𝕄) nbE (fun (c : Dev nD) (r : Fin 31) => dutyTok ER (rsR c (rev r)) 0 0))
  have hW := bigSep_deal (M := 𝕄) nbE (fun (c : Dev nD) (r : Fin 31) => dutyTok ER (agR c r) 0 0)
  rw [hL, hR, hA, hV, hW]
  iintro ⟨H1, H2, H3, H4, H5⟩
  isplitl [H1]; · iexact H1
  isplitl [H3]; · iexact H3
  isplitl [H2]; · iexact H2
  isplitl [H5]; · iexact H5
  iexact H4

/-- Every device's invariants under one choice of names, the marks beside them; positions and dealt tokens to each device. -/
theorem regroup :
    (bigSep Finset.univ fun c : Dev nD => iprop((bigSep Finset.univ fun j : J => iprop(∃ κ : ℕ, cellInv ER (sched m) κ (kcell (c, j))))
          ∗ (bigSep Finset.univ fun j : J => iprop(atPos ER (kcell (c, j)) 0 ∅ 0 ∗ reached ER (kcell (c, j)) 0)) ∗ toks (F := F) c) : sProp 𝕄)
      ⊢ bigSep Finset.univ (G' m) := by
  have hl : (bigSep Finset.univ fun c : Dev nD => (linear c : sProp 𝕄))
      = iprop((bigSep Finset.univ fun c : Dev nD => bigSep Finset.univ fun j : J => atPos ER (kcell (c, j)) 0 ∅ 0) ∗ bigSep Finset.univ fun c : Dev nD => payToks c) := by
    unfold linear; exact bigSep_sep' _ _ _
  rw [bigSep_sep', bigSep_sep',
    bigSep_congr (s := Finset.univ) (fun (c : Dev nD) _ => bigSep_sep' Finset.univ (fun j : J => (atPos ER (kcell (c, j)) 0 ∅ 0 : sProp 𝕄)) (fun j => reached ER (kcell (c, j)) 0)),
    bigSep_sep', ← bigSep_univ_prod (fun ck : Dev nD × J => (reached ER (kcell ck) 0 : sProp 𝕄))]
  iintro ⟨HI, ⟨Hat, #HR⟩, Htok⟩
  ihave HK := (names_gather ER (sched m) kcell) $$ HI
  icases HK with ⟨%K, #HI⟩
  ihave Htk := (toks_around (F := F)) $$ Htok
  iapply (BI.bigSep_with_persistent (R := records m K) fun c _ => ghost_intro m K c)
  isplitr
  · unfold records; isplitl; · iexact HI
    iexact HR
  · rw [hl]
    isplitl [Hat]; · iexact Hat
    iexact Htk

/-- The theorem's `hglob`: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- info: 'Cert.Kernel.LaunchGhost.hu₀' depends on axioms: [propext, Classical.choice, Quot.sound] -/
#guard_msgs in #print axioms hu₀

/-- info: 'Cert.Kernel.LaunchGhost.glob' depends on axioms: [propext, Classical.choice, Quot.sound] -/
#guard_msgs in #print axioms glob

end Cert.Kernel.LaunchGhost

end
-- ==== Proof.RunMain_Bits.lean ====
/-
The run of the whole program on the mesh of 32 devices: the launch applied to the body obligation and the ghost
state's set-up.
-/
import proofs.«900791_g7700000000000792_dist_gconv1d_cshard_i_b4_s512_c256_v7x_i32_bf16_1_alg».proof.Proof.Run_Bits
import proofs.«900791_g7700000000000792_dist_gconv1d_cshard_i_b4_s512_c256_v7x_i32_bf16_1_alg».proof.Proof.Body_Bits
import proofs.«900791_g7700000000000792_dist_gconv1d_cshard_i_b4_s512_c256_v7x_i32_bf16_1_alg».proof.Proof.LaunchGhost_Bits

noncomputable section

namespace Cert.Kernel.Run

open Cert.Kernel Cert.Kernel.Gen Cert.Kernel.Contents Cert.Kernel.Proto Cert.Kernel.LaunchCred
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- At the compiled mesh of 32 devices, for any float values, from any memory with zero counters: every weakly fair
    execution of @main — every device signalling the others on the barrier semaphore, the reduce-scatter and the all-gather
    made of remote copies — terminates without fault, and every final state has each device's result array at the
    gathered result, a function of all devices' argument arrays, and its argument arrays as launched. -/
theorem run_main (m : Mem F) (ρ : Dev nD → PrngReg) :
    θ_run defs (onTc (τ := τ) (main (F := F))) ⟨m, fun _ => 0, ρ⟩ (fun r => ∀ c : Dev nD,
      r.2.mem ((c.tc : Thread nD τ).loc main_v1) = outAll (PA m)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_of m ρ (Body.body_obligation m) LaunchGhost.ownSemFacts (LaunchGhost.G m) LaunchGhost.u₀ (LaunchGhost.hu₀ m) (LaunchGhost.glob m)

/-- info: 'Cert.Kernel.Run.run_main' depends on axioms: [propext, Classical.choice, Quot.sound] -/
#guard_msgs in #print axioms run_main

end Cert.Kernel.Run

end
-- ==== Proof.Spec.lean ====
/-
The specification both programs are compared with, over the WHOLE argument arrays and the extended
reals: a causal four-tap convolution along the sequence axis, per channel; the gate
o / (1 + e^(-o)); and the projection of the 8192 channels onto 256 outputs.
-/
import Idealize.ShloMosaic.PureOps.Ideal
import Idealize.ShloMosaic.Lib.ValueIdx

noncomputable section

namespace Cert.Spec

open Idealize.ShloMosaic Idealize.ShloMosaic.ValueIdx

/-- The whole arrays' shapes: input [4, 512, 8192], taps [4, 8192], projection [8192, 256], result [4, 512, 256]. -/
abbrev SX : Shape := ⟨3, ![4, 512, 8192]⟩
abbrev SK : Shape := ⟨2, ![4, 8192]⟩
abbrev SW : Shape := ⟨2, ![8192, 256]⟩
abbrev SO : Shape := ⟨3, ![4, 512, 256]⟩

/-- Tap `t` of the causal window ending at position `s`: the input at position `s + t - 3`, zero before the start. -/
def tap (X : SX.Idx → EReal) (b : Fin 4) (s : Fin 512) (t : Fin 4) (ch : Fin 8192) : EReal :=
  if h : 3 ≤ s.val + t.val then X (ix3 b (⟨s.val + t.val - 3, by omega⟩ : Fin 512) ch) else 0

/-- The convolution: the four taps weighted by the channel's four coefficients. -/
def conv (X : SX.Idx → EReal) (K : SK.Idx → EReal) (b : Fin 4) (s : Fin 512) (ch : Fin 8192) : EReal :=
  ∑ t : Fin 4, tap X b s t ch * K (ix2 t ch)

/-- The gate: o / (1 + e^(-o)). -/
def act (X : SX.Idx → EReal) (K : SK.Idx → EReal) (b : Fin 4) (s : Fin 512) (ch : Fin 8192) : EReal :=
  Ideal.div (conv X K b s ch) (1 + Ideal.exp (-(conv X K b s ch)))

/-- The result: the gated convolution projected along the channels. -/
def out (X : SX.Idx → EReal) (K : SK.Idx → EReal) (W : SW.Idx → EReal) : SO.Idx → EReal :=
  fun i => ∑ ch : Fin 8192, act X K (i 0) (i 1) ch * W (ix2 ch (i 2))

end Cert.Spec

end
-- ==== Proof.RefValue.lean ====
/-
The reference's result, index by index. The reference pads the input with three zero rows in front of the
sequence axis, adds the four shifted windows of the padded array, each weighted by its row of coefficients
stretched over batch and position, into a zero array, gates the sum o as o / (1 + e^(-o)) and contracts the
channels against the projection matrix. Read one operation at a time, at an index, that is the specification
function `Cert.Spec.out` of the three whole argument arrays; so the reference's run ends with its result
array holding `Cert.Spec.out` of its arguments, the arguments unchanged, and in particular it runs.
-/
import proofs.«900791_g7700000000000792_dist_gconv1d_cshard_i_b4_s512_c256_v7x_i32_bf16_1_alg».proof.Defs
import proofs.«900791_g7700000000000792_dist_gconv1d_cshard_i_b4_s512_c256_v7x_i32_bf16_1_alg».proof.Proof.Gen.ReferenceIdeal
import proofs.«900791_g7700000000000792_dist_gconv1d_cshard_i_b4_s512_c256_v7x_i32_bf16_1_alg».proof.Proof.Gen.Pre_finite_inputs_ReferenceIdeal
import proofs.«900791_g7700000000000792_dist_gconv1d_cshard_i_b4_s512_c256_v7x_i32_bf16_1_alg».proof.Proof.Gen.ReferenceIdeal.Run
import proofs.«900791_g7700000000000792_dist_gconv1d_cshard_i_b4_s512_c256_v7x_i32_bf16_1_alg».proof.Proof.Gen.ReferenceIdeal.Read
import proofs.«900791_g7700000000000792_dist_gconv1d_cshard_i_b4_s512_c256_v7x_i32_bf16_1_alg».proof.Proof.Spec
import Idealize.ShloMosaic.PureOps.Ideal
import Idealize.ShloMosaic.PureOps.Ideal.Laws
import Idealize.ShloMosaic.Lib.ValueIdx
import Idealize.ShloMosaic.Lib.Pipeline.Value

noncomputable section

namespace Cert.RefValue

open Idealize.ShloMosaic Idealize.ShloMosaic.ValueIdx Idealize.ShloMosaic.TcCoe Idealize.SL.Sem
open Cert.ReferenceIdeal Cert.ReferenceIdeal.Read

/-! ## The layout operations of one tap, at an index -/

/-- The input with three zero rows put in front of the sequence axis, read through the window that starts
    `o` rows in (`o` at most three): the input `3 - o` rows back, and zero before the start. -/
theorem pad_slice (X : S4x512x8192.Idx → EReal) (o : Nat) (ho : o ≤ 3)
    (hb : S_.BroadcastsInDim S4x3x8192 (![] : Fin 0 → Fin S4x3x8192.rank))
    (hc : Shape.Concatenates [S4x3x8192, S4x512x8192] S4x515x8192 1)
    (hs : S4x515x8192.Slices ![0, o, 0] S4x512x8192) (j : S4x512x8192.Idx) :
    extractStridedSlice S4x512x8192 ![0, o, 0]
        (concatenate S4x515x8192 1 [⟨S4x3x8192, broadcastInDim S4x3x8192 ![] hb (constant (F := Ideal) S_ .f32 0x00000000#32)⟩,
          ⟨S4x512x8192, X⟩] hc) hs j
      = if h : 3 ≤ (j 1).val + o then
          X (ix3 (j 0) (⟨(j 1).val + o - 3, by have := (j 1).isLt; simp at this; omega⟩ : Fin 512) (j 2))
        else 0 := by
  have h1 : (j 1).val < 512 := (j 1).isLt
  refine (extractStridedSlice_apply _ _ hs j (ix3 (j 0) (⟨(j 1).val + o, by omega⟩ : Fin 515) (j 2)) ?_).trans ?_
  · intro a
    match a with
    | ⟨0, _⟩ => show (j 0).val = 0 + (j 0).val; omega
    | ⟨1, _⟩ => show (j 1).val + o = o + (j 1).val; omega
    | ⟨2, _⟩ => show (j 2).val = 0 + (j 2).val; omega
  · by_cases h : 3 ≤ (j 1).val + o
    · rw [dif_pos h]
      refine concatenate_pair_apply_right 1 _ X hc _ rfl rfl _ ?_ ?_
      · intro b hb'
        match b with
        | ⟨0, _⟩ => rfl
        | ⟨1, _⟩ => exact absurd rfl hb'
        | ⟨2, _⟩ => rfl
      · show (j 1).val + o - 3 + 3 = (j 1).val + o; omega
    · rw [dif_neg h]
      refine (concatenate_pair_apply_left 1 _ X hc _ rfl (ix3 (j 0) (⟨(j 1).val + o, by omega⟩ : Fin 3) (j 2)) ?_).trans ?_
      · intro b
        match b with
        | ⟨0, _⟩ => rfl
        | ⟨1, _⟩ => rfl
        | ⟨2, _⟩ => rfl
      · show Ideal.ofBits .f32 0x00000000#32 = 0
        exact Ideal.ofBits_zero_f32

/-- Row `t` of the coefficients, flattened and stretched over batch and position, read at an index: the
    coefficient of tap `t` for the index's channel. -/
theorem coeff_bcast (K : S4x8192.Idx → EReal) (t : Nat) (ht : t < 4)
    (hs : S4x8192.Slices ![t, 0] S1x8192) (hsc : S1x8192.ShapeCasts S8192)
    (hb1 : S8192.BroadcastsInDim S1x1x8192 (![2] : Fin 1 → Fin S1x1x8192.rank))
    (hb2 : S1x1x8192.BroadcastsInDim S4x512x8192 (![0, 1, 2] : Fin 3 → Fin S4x512x8192.rank)) (j : S4x512x8192.Idx) :
    broadcastInDim S4x512x8192 ![0, 1, 2] hb2
        (broadcastInDim S1x1x8192 ![2] hb1 (shapeCast S8192 (extractStridedSlice S1x8192 ![t, 0] K hs) hsc)) j
      = K (ix2 (⟨t, ht⟩ : Fin 4) (j 2)) := by
  have h2 : (j 2).val < 8192 := (j 2).isLt
  refine (broadcastInDim_apply _ hb2 _ j (ix3 (0 : Fin 1) (0 : Fin 1) (j 2)) ?_).trans ?_
  · intro a
    match a with
    | ⟨0, _⟩ => rfl
    | ⟨1, _⟩ => rfl
    | ⟨2, _⟩ => rfl
  refine (broadcastInDim_apply _ hb1 _ _ (ix1 (j 2)) ?_).trans ?_
  · intro a
    match a with
    | ⟨0, _⟩ => rfl
  refine (shapeCast_apply _ hsc _ (ix2 (0 : Fin 1) (j 2)) ?_).trans ?_
  · rw [Shape.rowMajor_val_two, Shape.rowMajor_val_one]
    show 0 * 8192 + (j 2).val = (j 2).val
    omega
  refine extractStridedSlice_apply _ _ hs _ _ ?_
  intro a
  match a with
  | ⟨0, _⟩ => show t = t + 0; omega
  | ⟨1, _⟩ => show (j 2).val = 0 + (j 2).val; omega

/-- The word of `1.0` denotes the extended real `1`. -/
theorem ofBits_one : Ideal.ofBits .f32 0x3F800000#32 = 1 := by
  simp [Ideal.ofBits, Ideal.ieee, -EReal.coe_mul]; norm_num

/-! ## The four weighted windows -/

/-- The first product: tap 0 of the window, times its coefficient. -/
theorem prod0 (X : S4x512x8192.Idx → EReal) (K : S4x8192.Idx → EReal) (j : S4x512x8192.Idx) :
    val_main_v8 (F := Ideal) X K j = Cert.Spec.tap X (j 0) (j 1) 0 (j 2) * K (ix2 (0 : Fin 4) (j 2)) := by
  rw [val_main_v8_apply, Ideal.mulf_def]
  congr 1
  · unfold val_main_v3 val_main_v1 val_main_v0 val_main_cst
    exact pad_slice X 0 (by omega) _ _ _ j
  · unfold val_main_v7 val_main_v6 val_main_v5 val_main_v4
    exact coeff_bcast K 0 (by omega) _ _ _ _ j

/-- The second product: tap 1, times its coefficient. -/
theorem prod1 (X : S4x512x8192.Idx → EReal) (K : S4x8192.Idx → EReal) (j : S4x512x8192.Idx) :
    val_main_v15 (F := Ideal) X K j = Cert.Spec.tap X (j 0) (j 1) 1 (j 2) * K (ix2 (1 : Fin 4) (j 2)) := by
  rw [val_main_v15_apply, Ideal.mulf_def]
  congr 1
  · unfold val_main_v10 val_main_v1 val_main_v0 val_main_cst
    exact pad_slice X 1 (by omega) _ _ _ j
  · unfold val_main_v14 val_main_v13 val_main_v12 val_main_v11
    exact coeff_bcast K 1 (by omega) _ _ _ _ j

/-- The third product: tap 2, times its coefficient. -/
theorem prod2 (X : S4x512x8192.Idx → EReal) (K : S4x8192.Idx → EReal) (j : S4x512x8192.Idx) :
    val_main_v22 (F := Ideal) X K j = Cert.Spec.tap X (j 0) (j 1) 2 (j 2) * K (ix2 (2 : Fin 4) (j 2)) := by
  rw [val_main_v22_apply, Ideal.mulf_def]
  congr 1
  · unfold val_main_v17 val_main_v1 val_main_v0 val_main_cst
    exact pad_slice X 2 (by omega) _ _ _ j
  · unfold val_main_v21 val_main_v20 val_main_v19 val_main_v18
    exact coeff_bcast K 2 (by omega) _ _ _ _ j

/-- The fourth product: tap 3, the current position, times its coefficient. -/
theorem prod3 (X : S4x512x8192.Idx → EReal) (K : S4x8192.Idx → EReal) (j : S4x512x8192.Idx) :
    val_main_v29 (F := Ideal) X K j = Cert.Spec.tap X (j 0) (j 1) 3 (j 2) * K (ix2 (3 : Fin 4) (j 2)) := by
  rw [val_main_v29_apply, Ideal.mulf_def]
  congr 1
  · unfold val_main_v24 val_main_v1 val_main_v0 val_main_cst
    exact pad_slice X 3 (by omega) _ _ _ j
  · unfold val_main_v28 val_main_v27 val_main_v26 val_main_v25
    exact coeff_bcast K 3 (by omega) _ _ _ _ j

/-! ## The convolution, the gate, the projection -/

/-- The zero array the sum starts from. -/
theorem zeros_apply (j : S4x512x8192.Idx) : val_main_v2 (F := Ideal) j = 0 := by
  rw [val_main_v2_apply, val_main_cst_0_apply, Ideal.ofBits_def, Ideal.ofBits_zero_f32]

/-- The four products added in order into the zero array: the convolution. -/
theorem conv_apply (X : S4x512x8192.Idx → EReal) (K : S4x8192.Idx → EReal) (j : S4x512x8192.Idx) :
    val_main_v30 (F := Ideal) X K j = Cert.Spec.conv X K (j 0) (j 1) (j 2) := by
  rw [val_main_v30_apply, val_main_v23_apply, val_main_v16_apply, val_main_v9_apply]
  simp only [Ideal.addf_def]
  rw [zeros_apply, zero_add, prod0, prod1, prod2, prod3]
  unfold Cert.Spec.conv
  rw [Fin.sum_univ_four]

/-- The gate of the convolution: o / (1 + e^(-o)). -/
theorem act_apply (X : S4x512x8192.Idx → EReal) (K : S4x8192.Idx → EReal) (j : S4x512x8192.Idx) :
    val_main_v35 (F := Ideal) X K j = Cert.Spec.act X K (j 0) (j 1) (j 2) := by
  rw [val_main_v35_apply, val_main_v34_apply, val_main_v33_apply, val_main_cst_1_apply, val_main_v32_apply,
    val_main_v31_apply, conv_apply]
  simp only [Ideal.hostDivf_def, Ideal.addf_def, Ideal.hostUnary_exp_def, Ideal.hostNegf_def, Ideal.negf_def,
    Ideal.ofBits_def, ofBits_one]
  rfl

/-- The reference's result is the specification function of its three arguments. -/
theorem ref_out (X : S4x512x8192.Idx → EReal) (K : S4x8192.Idx → EReal) (W : S8192x256.Idx → EReal) :
    val_main_v36 (F := Ideal) X K W = Cert.Spec.out X K W := by
  funext i
  rw [val_main_v36_apply]
  unfold Cert.Spec.out
  refine Finset.sum_congr rfl fun k _ => ?_
  rw [act_apply]
  have er : ridx_main_v36 i k = ix2 k (i 2) := funext fun a => Fin.ext (by
    match a with
    | ⟨0, _⟩ => rfl
    | ⟨1, _⟩ => rfl)
  rw [er]
  rfl

/-! ## The run and the frame -/

/-- Every weakly fair execution of the reference terminates with its result array at the specification
    function of its three argument arrays, the arguments unchanged. -/
theorem ref_run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
      r.2.mem (((0 : Dev Cert.ReferenceIdeal.nD).tc : Thread Cert.ReferenceIdeal.nD Cert.ReferenceIdeal.τ).loc Cert.ReferenceIdeal.main_v36)
          = Cert.Spec.out (m' (((0 : Dev Cert.ReferenceIdeal.nD).tc : Thread Cert.ReferenceIdeal.nD Cert.ReferenceIdeal.τ).loc Cert.ReferenceIdeal.main_arg0))
              (m' (((0 : Dev Cert.ReferenceIdeal.nD).tc : Thread Cert.ReferenceIdeal.nD Cert.ReferenceIdeal.τ).loc Cert.ReferenceIdeal.main_arg1))
              (m' (((0 : Dev Cert.ReferenceIdeal.nD).tc : Thread Cert.ReferenceIdeal.nD Cert.ReferenceIdeal.τ).loc Cert.ReferenceIdeal.main_arg2))
      ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
      ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
      ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)) :=
  (θ_run Cert.ReferenceIdeal.defs _ _).mono
    (fun _ h => ⟨((h 0).1.trans (val_main_v36_eq m' 0)).trans (ref_out _ _ _), (h 0).2⟩)
    (Cert.ReferenceIdeal.Value.run (F := Ideal) m' g')

/-- The reference runs and leaves its arguments unchanged: its run with the result dropped. -/
theorem ref_frame : Cert.frame_ReferenceIdeal := fun m ρ _ =>
  (θ_run Cert.ReferenceIdeal.defs _ _).mono (fun _ h c => (h c).2) (Cert.ReferenceIdeal.Value.run (F := Ideal) m ρ)

/-- info: 'Cert.RefValue.ref_run' depends on axioms: [propext, Classical.choice, Quot.sound] -/
#guard_msgs in #print axioms ref_run

/-- info: 'Cert.RefValue.ref_frame' depends on axioms: [propext, Classical.choice, Quot.sound] -/
#guard_msgs in #print axioms ref_frame

end Cert.RefValue

end
-- ==== Proof.KOps.lean ====
/-
The kernel's non-pointwise vector operations, each read at one index given by its coordinates, over the
literal shapes of this kernel and at the extended reals. A device's block of the input is [4, 512, 256]
(batch, position, channel), its coefficients [4, 256] (tap, channel), its rows of the projection [256, 256].
Rows of the partial product are numbered 512 * batch + position and cut into 32 chunks of 64.
-/
import Idealize.ShloMosaic.PureOps.Ideal.Laws
import Idealize.ShloMosaic.Lib.ValueLayout
import Idealize.ShloMosaic.Lib.IdealHost

noncomputable section

namespace Cert.KOps

open Idealize.ShloMosaic Idealize.ShloMosaic.ValueIdx

/-! ## The convolution's two layout chains -/

/-- Row `t` of the coefficients, cut out, flattened, given two unit axes and spread over the block: at
    (batch, position, channel) it is the coefficient of tap `t` on that channel. -/
theorem coeff_apply {α : Type} (t : Nat) (ht : t < 4) (kv : (⟨2, ![4, 256]⟩ : Shape).Idx → α)
    (h1 : (⟨2, ![4, 256]⟩ : Shape).Slices ![t, 0] ⟨2, ![1, 256]⟩)
    (h2 : (⟨2, ![1, 256]⟩ : Shape).ShapeCasts ⟨1, ![256]⟩)
    (h3 : (⟨1, ![256]⟩ : Shape).ShapeCasts ⟨3, ![1, 1, 256]⟩)
    (h4 : (⟨3, ![1, 1, 256]⟩ : Shape).Broadcasts ⟨3, ![4, 512, 256]⟩)
    (b : Fin 4) (s : Fin 512) (q : Fin 256) :
    broadcastTo ⟨3, ![4, 512, 256]⟩
        (shapeCast ⟨3, ![1, 1, 256]⟩ (shapeCast ⟨1, ![256]⟩ (extractStridedSlice ⟨2, ![1, 256]⟩ ![t, 0] kv h1) h2) h3) h4
        (ix3 b s q)
      = kv (ix2 (⟨t, ht⟩ : Fin 4) q) := by
  refine (broadcastTo_apply _ h4 (ix3 b s q) (ix3 (0 : Fin 1) (0 : Fin 1) q) fun a => ?_).trans ?_
  · match a with
    | ⟨0, _⟩ => rfl
    | ⟨1, _⟩ => rfl
    | ⟨2, _⟩ => rfl
  · refine (shapeCast_apply _ h3 (ix3 (0 : Fin 1) (0 : Fin 1) q) (ix1 q) ?_).trans ?_
    · rw [Shape.rowMajor_val_one, Shape.rowMajor_val_three]
      show q.val = (0 * 1 + 0) * 256 + q.val
      omega
    · refine (shapeCast_1a_a_apply _ h2 q).trans ?_
      exact slice2_axis0_apply t kv h1 (0 : Fin 1) q ⟨t, ht⟩ (by simp)

/-- The block moved `j` positions later along the sequence, `j` rows of `z` in front: the first `n` positions of
    the block behind `j` rows of the splat `z`. At position `s` it is the block at `s - j`, and `z` where `s < j`. -/
theorem shift_apply {α : Type} (j n : Nat) (hjn : j + n = 512) (z : α) (x : (⟨3, ![4, 512, 256]⟩ : Shape).Idx → α)
    (hs : (⟨3, ![4, 512, 256]⟩ : Shape).Slices ![0, 0, 0] ⟨3, ![4, n, 256]⟩)
    (hc : Shape.Concatenates [⟨3, ![4, j, 256]⟩, ⟨3, ![4, n, 256]⟩] (⟨3, ![4, 512, 256]⟩ : Shape) 1)
    (b : Fin 4) (s : Fin 512) (q : Fin 256) :
    concatenate (⟨3, ![4, 512, 256]⟩ : Shape) 1
        [⟨⟨3, ![4, j, 256]⟩, broadcast ⟨3, ![4, j, 256]⟩ z⟩,
         ⟨⟨3, ![4, n, 256]⟩, extractStridedSlice ⟨3, ![4, n, 256]⟩ ![0, 0, 0] x hs⟩] hc (ix3 b s q)
      = if h : j ≤ s.val then x (ix3 b (⟨s.val - j, by omega⟩ : Fin 512) q) else z := by
  by_cases h : j ≤ s.val
  · rw [dif_pos h]
    have hsn : s.val - j < n := by have := s.isLt; omega
    refine Eq.trans (concatenate_pair_apply_right (t := ⟨3, ![4, 512, 256]⟩) (s₁ := ⟨3, ![4, j, 256]⟩) (s₂ := ⟨3, ![4, n, 256]⟩)
      (1 : Fin 3) (broadcast ⟨3, ![4, j, 256]⟩ z) (extractStridedSlice ⟨3, ![4, n, 256]⟩ ![0, 0, 0] x hs) hc (ix3 b s q)
      (rfl : (3 : Nat) = 3) (rfl : (3 : Nat) = 3)
      (ix3 b (⟨s.val - j, hsn⟩ : Fin n) q) (fun a ha => ?_) ?_) ?_
    · match a with
      | ⟨0, _⟩ => rfl
      | ⟨1, _⟩ => exact absurd rfl ha
      | ⟨2, _⟩ => rfl
    · show s.val - j + j = s.val
      omega
    · exact slice3_axis1_apply 0 x hs b ⟨s.val - j, hsn⟩ q ⟨s.val - j, by omega⟩ (by simp)
  · rw [dif_neg h]
    have hsj : s.val < j := by omega
    exact concatenate_pair_apply_left (t := ⟨3, ![4, 512, 256]⟩) (s₁ := ⟨3, ![4, j, 256]⟩) (s₂ := ⟨3, ![4, n, 256]⟩)
      (1 : Fin 3) (broadcast ⟨3, ![4, j, 256]⟩ z) (extractStridedSlice ⟨3, ![4, n, 256]⟩ ![0, 0, 0] x hs) hc (ix3 b s q)
      (rfl : (3 : Nat) = 3) (ix3 b (⟨s.val, hsj⟩ : Fin j) q) (fun a => by
      match a with
      | ⟨0, _⟩ => rfl
      | ⟨1, _⟩ => rfl
      | ⟨2, _⟩ => rfl)

/-- The block `j` positions earlier along the sequence, zero before the start. -/
def shifted (x : (⟨3, ![4, 512, 256]⟩ : Shape).Idx → EReal) (j : Nat) (b : Fin 4) (s : Fin 512) (q : Fin 256) : EReal :=
  if h : j ≤ s.val then x (ix3 b (⟨s.val - j, by omega⟩ : Fin 512) q) else 0

/-- The causal four-tap convolution of a device's block, in the order the kernel adds its terms up: the position itself
    weighted by coefficient 3, then three, two and one positions earlier weighted by coefficients 0, 1 and 2. -/
def bconv (x : (⟨3, ![4, 512, 256]⟩ : Shape).Idx → EReal) (k : (⟨2, ![4, 256]⟩ : Shape).Idx → EReal)
    (b : Fin 4) (s : Fin 512) (q : Fin 256) : EReal :=
  ((x (ix3 b s q) * k (ix2 (⟨3, by decide⟩ : Fin 4) q) + shifted x 3 b s q * k (ix2 (⟨0, by decide⟩ : Fin 4) q))
      + shifted x 2 b s q * k (ix2 (⟨1, by decide⟩ : Fin 4) q))
    + shifted x 1 b s q * k (ix2 (⟨2, by decide⟩ : Fin 4) q)

/-! ## The three changes of row numbering -/

/-- [4, 512, 256] read as [2048, 256]: row `512 b + s`. -/
theorem rows_apply {α : Type} (v : (⟨3, ![4, 512, 256]⟩ : Shape).Idx → α)
    (h : (⟨3, ![4, 512, 256]⟩ : Shape).ShapeCasts ⟨2, ![2048, 256]⟩)
    (R : Fin 2048) (q : Fin 256) (b : Fin 4) (s : Fin 512) (hR : R.val = b.val * 512 + s.val) :
    shapeCast ⟨2, ![2048, 256]⟩ v h (ix2 R q) = v (ix3 b s q) :=
  shapeCast_apply v h _ _ (by
    rw [Shape.rowMajor_val_three, Shape.rowMajor_val_two]
    show (b.val * 512 + s.val) * 256 + q.val = R.val * 256 + q.val
    rw [hR])

/-- [2048, 256] read as [32, 64, 256]: chunk `j`, row `r` of it is row `64 j + r`. -/
theorem chunks_apply {α : Type} (v : (⟨2, ![2048, 256]⟩ : Shape).Idx → α)
    (h : (⟨2, ![2048, 256]⟩ : Shape).ShapeCasts ⟨3, ![32, 64, 256]⟩)
    (j : Fin 32) (r : Fin 64) (n : Fin 256) (R : Fin 2048) (hR : R.val = j.val * 64 + r.val) :
    shapeCast ⟨3, ![32, 64, 256]⟩ v h (ix3 j r n) = v (ix2 R n) :=
  shapeCast_apply v h _ _ (by
    rw [Shape.rowMajor_val_three, Shape.rowMajor_val_two]
    show R.val * 256 + n.val = (j.val * 64 + r.val) * 256 + n.val
    rw [hR])

/-- [32, 64, 256] read as [4, 512, 256]: (batch, position) is chunk `j`, row `r` with `64 j + r = 512 b + s`. -/
theorem gathered_apply {α : Type} (v : (⟨3, ![32, 64, 256]⟩ : Shape).Idx → α)
    (h : (⟨3, ![32, 64, 256]⟩ : Shape).ShapeCasts ⟨3, ![4, 512, 256]⟩)
    (b : Fin 4) (s : Fin 512) (n : Fin 256) (j : Fin 32) (r : Fin 64) (hR : j.val * 64 + r.val = b.val * 512 + s.val) :
    shapeCast ⟨3, ![4, 512, 256]⟩ v h (ix3 b s n) = v (ix3 j r n) :=
  shapeCast_apply v h _ _ (by
    rw [Shape.rowMajor_val_three, Shape.rowMajor_val_three]
    show (j.val * 64 + r.val) * 256 + n.val = (b.val * 512 + s.val) * 256 + n.val
    rw [hR])

/-! ## The product and the sum over the slots -/

/-- The dimension numbers of the block product: rows by channels times channels by columns. -/
def dot (wf : DotDims.WF (⟨2, ![2048, 256]⟩ : Shape) (⟨2, ![256, 256]⟩ : Shape) (⟨2, ![2048, 256]⟩ : Shape) [1] [0] [0] [1] [] []) :
    DotDims (⟨2, ![2048, 256]⟩ : Shape) (⟨2, ![256, 256]⟩ : Shape) (⟨2, ![2048, 256]⟩ : Shape) where
  lhsContracting := [1]
  rhsContracting := [0]
  lhsNonContracting := [0]
  rhsNonContracting := [1]
  lhsBatch := []
  rhsBatch := []
  wf := wf

/-- The block product into a zero accumulator, at (row, column): the sum over the 256 channels of the block. -/
theorem product_apply {φ₁ φ₂ : FTy}
    (wf : DotDims.WF (⟨2, ![2048, 256]⟩ : Shape) (⟨2, ![256, 256]⟩ : Shape) (⟨2, ![2048, 256]⟩ : Shape) [1] [0] [0] [1] [] [])
    (l : FVec Ideal ⟨2, ![2048, 256]⟩ φ₁) (r : FVec Ideal ⟨2, ![256, 256]⟩ φ₂) (R : Fin 2048) (n : Fin 256) :
    FloatOps.matmul (F := Ideal) (dot wf) none l r (constant ⟨2, ![2048, 256]⟩ .f32 0x00000000#32) (ix2 R n)
      = ∑ q : Fin 256, l (ix2 R q) * r (ix2 q n) := by
  rw [Ideal.matmul_constant_zero_apply]
  refine (Equiv.sum_comp (contrEquiv1 (dot wf) 256 rfl rfl).symm _).symm.trans ?_
  refine Finset.sum_congr rfl fun q _ => ?_
  have hq := contrEquiv1_symm_val (dot wf) 256 rfl rfl q
  have el : (dot wf).lhsIdx (ix2 R n) ((contrEquiv1 (dot wf) 256 rfl rfl).symm q) = ix2 R q := by
    funext a
    match a with
    | ⟨0, _⟩ => rfl
    | ⟨1, _⟩ => exact Fin.ext hq
  have er : (dot wf).rhsIdx (ix2 R n) ((contrEquiv1 (dot wf) 256 rfl rfl).symm q) = ix2 q n := by
    funext a
    match a with
    | ⟨0, _⟩ => exact Fin.ext hq
    | ⟨1, _⟩ => rfl
  rw [el, er]

/-- The sum over the 32 slots of the receive buffer, at (row, column) of the chunk. -/
theorem slots_apply (src : FVec Ideal ⟨3, ![32, 64, 256]⟩ .f32)
    (h : (⟨3, ![32, 64, 256]⟩ : Shape).Reduces [0] ⟨2, ![64, 256]⟩) (hφ : FKind.Formats .f32)
    (hacc : (0x00000000#32 : BitVec 32) = FKind.add.neutral .f32 hφ) (r : Fin 64) (n : Fin 256) :
    multiReduction .add [0] ⟨2, ![64, 256]⟩ src 0x00000000#32 h hφ hacc (ix2 r n) = ∑ e : Fin 32, src (ix3 e r n) := by
  rw [Ideal.multiReduction_add_single]
  refine Finset.sum_congr rfl fun e _ => congrArg src ?_
  funext a
  match a with
  | ⟨0, _⟩ => rfl
  | ⟨1, _⟩ => rfl
  | ⟨2, _⟩ => rfl

/-! ## The gate -/

/-- `1 + e^(-o)` is never zero, at the two infinities either. -/
theorem one_add_exp_neg_ne_zero (o : EReal) : 1 + Ideal.exp (-o) ≠ 0 := by
  have hpos : ∀ y : EReal, 0 ≤ Ideal.exp y := fun y => by
    induction y using EReal.rec with
    | bot => exact le_of_eq Ideal.exp_bot.symm
    | top => rw [Ideal.exp_top]; exact le_top
    | coe r => rw [Ideal.exp_coe]; exact EReal.coe_nonneg.mpr (Real.exp_pos r).le
  have h1 : (1 : EReal) ≤ 1 + Ideal.exp (-o) := le_add_of_nonneg_right (hpos _)
  exact (lt_of_lt_of_le zero_lt_one h1).ne'

/-- `o` times the logistic function of `o` is `o / (1 + e^(-o))`, on every extended real. -/
theorem gate_eq (o : EReal) : o * Ideal.logistic o = Ideal.div o (1 + Ideal.exp (-o)) := by
  unfold Ideal.logistic
  exact Ideal.mul_one_div (one_add_exp_neg_ne_zero o)

/-- info: 'Cert.KOps.product_apply' depends on axioms: [propext, Classical.choice, Quot.sound] -/
#guard_msgs in #print axioms product_apply
/-- info: 'Cert.KOps.gate_eq' depends on axioms: [propext, Classical.choice, Quot.sound] -/
#guard_msgs in #print axioms gate_eq

end Cert.KOps

end
-- ==== Proof.KPay.lean ====
/-
A device's partial product read at one index. The body's arithmetic is three pure terms: the first three terms of the
convolution, its fourth term, and the gate followed by the product with the device's 256 rows of the projection. Read at
chunk `j`, row `r`, column `n`, with `64 j + r = 512 b + s`, the partial product is the sum over the device's 256 channels
of the gated convolution at (batch `b`, position `s`, channel) times the projection at (channel, `n`). Changes of float format
are the identity on the extended reals.
-/
import proofs.«900791_g7700000000000792_dist_gconv1d_cshard_i_b4_s512_c256_v7x_i32_bf16_1_alg».proof.Proof.Contents
import proofs.«900791_g7700000000000792_dist_gconv1d_cshard_i_b4_s512_c256_v7x_i32_bf16_1_alg».proof.Proof.KOps

noncomputable section

namespace Cert.KPay

open Idealize.ShloMosaic Idealize.ShloMosaic.ValueIdx Cert.KernelIdeal Cert.KernelIdeal.Gen Cert.KernelIdeal.Contents Cert.KOps

/-- The zero word the kernel pads the shifted blocks with is the extended real zero. -/
theorem pad_zero : (Scalar.ofBits (F := Ideal) .f32 0x00000000#32 : Ideal .f32) = (0 : EReal) :=
  Ideal.ofBits_zero_f32

/-- The first three terms of the convolution at (batch, position, channel). -/
theorem pay3_apply (x : Vec Ideal S4x512x256 .f32) (k : Vec Ideal S4x256 .f32) (b : Fin 4) (s : Fin 512) (q : Fin 256) :
    k0_pay3 (F := Ideal) x k (ix3 b s q)
      = (x (ix3 b s q) * k (ix2 (⟨3, by decide⟩ : Fin 4) q) + shifted x 3 b s q * k (ix2 (⟨0, by decide⟩ : Fin 4) q))
          + shifted x 2 b s q * k (ix2 (⟨1, by decide⟩ : Fin 4) q) := by
  unfold k0_pay3 k0_pay1 k0_pay2
  simp only [addf_apply, mulf_apply, shapeCast_self]
  rw [coeff_apply 3 (by decide), coeff_apply 0 (by decide), coeff_apply 1 (by decide),
    shift_apply 3 509 rfl, shift_apply 2 510 rfl]
  unfold shifted
  simp only [pad_zero]

/-- The fourth term of the convolution at (batch, position, channel). -/
theorem pay4_apply (x : Vec Ideal S4x512x256 .f32) (k : Vec Ideal S4x256 .f32) (b : Fin 4) (s : Fin 512) (q : Fin 256) :
    k0_pay4 (F := Ideal) x k (ix3 b s q) = shifted x 1 b s q * k (ix2 (⟨2, by decide⟩ : Fin 4) q) := by
  unfold k0_pay4 k0_pay1 k0_pay2
  simp only [mulf_apply, shapeCast_self]
  rw [coeff_apply 2 (by decide), shift_apply 1 511 rfl]
  unfold shifted
  simp only [pad_zero]

/-- The two payloads added are the block convolution. -/
theorem conv_apply (x : Vec Ideal S4x512x256 .f32) (k : Vec Ideal S4x256 .f32) (b : Fin 4) (s : Fin 512) (q : Fin 256) :
    addf (k0_pay3 (F := Ideal) x k) (k0_pay4 (F := Ideal) x k) (ix3 b s q) = bconv x k b s q := by
  rw [addf_apply, pay3_apply, pay4_apply]
  rfl

/-- The partial product at chunk `j`, row `r`, column `n`, where `64 j + r = 512 b + s`: the sum over the device's 256
    channels of the gated convolution at (batch `b`, position `s`, channel) times the projection at (channel, `n`). -/
theorem part_apply (x : Vec Ideal S4x512x256 .f32) (k : Vec Ideal S4x256 .f32) (w : Vec Ideal S256x256 .f32)
    (j : Fin 32) (r : Fin 64) (n : Fin 256) (b : Fin 4) (s : Fin 512) (hR : j.val * 64 + r.val = b.val * 512 + s.val) :
    part (F := Ideal) x k w (ix3 j r n)
      = ∑ q : Fin 256, (bconv x k b s q * Ideal.logistic (bconv x k b s q)) * w (ix2 q n) := by
  have hRlt : b.val * 512 + s.val < 2048 := by omega
  unfold part k0_pay5
  simp only [shapeCast_self]
  refine Eq.trans (chunks_apply _ _ j r n ⟨b.val * 512 + s.val, hRlt⟩ hR.symm) ?_
  refine Eq.trans (truncf_apply _ _ _) ?_
  refine Eq.trans (product_apply _ _ _ ⟨b.val * 512 + s.val, hRlt⟩ n) ?_
  refine Finset.sum_congr rfl fun q _ => ?_
  refine congrArg₂ (· * ·) ?_ rfl
  refine Eq.trans (rows_apply _ _ ⟨b.val * 512 + s.val, hRlt⟩ q b s rfl) ?_
  show addf (k0_pay3 (F := Ideal) x k) (k0_pay4 (F := Ideal) x k) (ix3 b s q)
      * Ideal.logistic (addf (k0_pay3 (F := Ideal) x k) (k0_pay4 (F := Ideal) x k) (ix3 b s q)) = _
  rw [conv_apply]

/-- info: 'Cert.KPay.part_apply' depends on axioms: [propext, Classical.choice, Quot.sound] -/
#guard_msgs in #print axioms part_apply

end Cert.KPay

end
-- ==== Proof.KSum.lean ====
/-
The two collectives' values. On device `d` the reduce-scatter's receive buffer holds, in slot `j`, chunk `d` of
device `d + j`'s partial product; the device's contribution to the all-gather is the sum of its 32 slots, which is
chunk `d` of the sum of all 32 partial products (`j ↦ d + j` runs over the mesh once). The all-gather buffer holds
device `j`'s contribution in slot `j`, and the result is that buffer read as [4, 512, 256]: row `512 b + s` of the
result is row `r` of chunk `j` where `64 j + r = 512 b + s`.
-/
import proofs.«900791_g7700000000000792_dist_gconv1d_cshard_i_b4_s512_c256_v7x_i32_bf16_1_alg».proof.Proof.Contents
import Idealize.ShloMosaic.PureOps.Ideal.Laws
import Idealize.ShloMosaic.Lib.Pipeline.Value
import Idealize.ShloMosaic.Lib.ValueIdx
import Mathlib.Algebra.BigOperators.Group.Finset.Basic

noncomputable section

namespace Cert.KSum

open Idealize.ShloMosaic Idealize.ShloMosaic.ValueIdx Cert.KernelIdeal Cert.KernelIdeal.Gen Cert.KernelIdeal.Contents

/-- Device `d + j` around the mesh is the sum in `Fin 32`. -/
theorem rot_eq_add (d : Dev nD) (j : Fin 32) : rot d j = d + j := rfl

/-- As `j` runs over the 32 slots, `d + j` runs over the 32 devices once. -/
theorem sum_rot (d : Dev nD) (f : Dev nD → EReal) : ∑ j : Fin 32, f (rot d j) = ∑ e : Dev nD, f e :=
  Equiv.sum_comp (Equiv.addLeft d) f

/-- A device's contribution to the all-gather, at row `r` and column `n`: the sum over the mesh of chunk `d` of every
    device's partial product there. -/
theorem acc_apply (P : Dev nD → Vec Ideal S32x64x256 .bf16) (d : Dev nD) (r : Fin 64) (n : Fin 256) :
    (acc (F := Ideal) P d (ix3 (0 : Fin 1) r n) : EReal) = ∑ e : Dev nD, (P e (ix3 d r n) : EReal) := by
  rw [← sum_rot d fun e => (P e (ix3 d r n) : EReal)]
  unfold acc k0_pay7
  refine (shapeCast_apply _ _ (ix3 (0 : Fin 1) r n) (ix2 r n) ?_).trans ?_
  · rw [Shape.rowMajor_val_two, Shape.rowMajor_val_three]
    show r.val * 256 + n.val = (0 * 64 + r.val) * 256 + n.val
    omega
  · refine (Ideal.multiReduction_add_single (extf .f32 (rsAll P d) bitsLt_bf16_f32) 0x00000000#32
      reduces_S32x64x256_S64x256 (.inl rfl) rfl (ix2 r n)).trans ?_
    refine Finset.sum_congr rfl fun e _ => ?_
    show rsAll P d (reduces_S32x64x256_S64x256.lift (ix2 r n) e) = P (rot d e) (ix3 d r n)
    unfold rsAll
    rfl

/-- The all-gather buffer at slot `j`, row `r`, column `n` is device `j`'s contribution there. -/
theorem agAll_apply (P : Dev nD → Vec Ideal S32x64x256 .bf16) (j : Fin 32) (r : Fin 64) (n : Fin 256) :
    (agAll (F := Ideal) P (ix3 j r n) : EReal) = ∑ e : Dev nD, (P e (ix3 j r n) : EReal) := by
  refine Eq.trans ?_ (acc_apply P j r n)
  unfold agAll
  rfl

/-- The result at (batch `b`, position `s`, column `n`): with `64 j + r = 512 b + s`, the sum over the mesh of row `r`
    of chunk `j` of every device's partial product. -/
theorem outAll_apply (P : Dev nD → Vec Ideal S32x64x256 .bf16) (b : Fin 4) (s : Fin 512) (n : Fin 256) (j : Fin 32)
    (r : Fin 64) (hR : j.val * 64 + r.val = b.val * 512 + s.val) :
    outAll (F := Ideal) P (ix3 b s n) = ∑ e : Fin 32, P e (ix3 j r n) := by
  unfold outAll k0_pay8
  refine (shapeCast_apply _ _ (ix3 b s n) (ix3 j r n) ?_).trans ?_
  · rw [Shape.rowMajor_val_three, Shape.rowMajor_val_three]
    show (j.val * 64 + r.val) * 256 + n.val = (b.val * 512 + s.val) * 256 + n.val
    rw [hR]
  · exact agAll_apply P j r n

/-- info: 'Cert.KSum.outAll_apply' depends on axioms: [propext, Classical.choice, Quot.sound] -/
#guard_msgs in #print axioms outAll_apply

end Cert.KSum

end
-- ==== Proof.KJoin.lean ====
/-
From the devices' blocks to the whole arrays. Device `c` holds channels `256 c … 256 c + 255` of the input and of the
coefficients, and those rows of the projection; channel `q` of its block is channel `256 c + q` of the whole. The kernel's
block convolution there is the specification's convolution at that channel (the same four products, added in another order),
the gate is the same function, and the sum over the 32 devices of the sums over their 256 channels is the sum over all 8192
channels: every channel is `256 c + q` for exactly one pair.
-/
import Mathlib.Algebra.BigOperators.Fin
import Idealize.ShloMosaic.Lib.Layout
import proofs.«900791_g7700000000000792_dist_gconv1d_cshard_i_b4_s512_c256_v7x_i32_bf16_1_alg».proof.Proof.Spec
import proofs.«900791_g7700000000000792_dist_gconv1d_cshard_i_b4_s512_c256_v7x_i32_bf16_1_alg».proof.Proof.KOps

noncomputable section

namespace Cert.KJoin

open Idealize.ShloMosaic Idealize.ShloMosaic.ValueIdx Cert.Spec Cert.KOps

/-- Channel `q` of device `c`'s block, as a channel of the whole arrays. -/
def chan (c : Fin 32) (q : Fin 256) : Fin 8192 := ⟨c.val * 256 + q.val, by omega⟩

/-- Every channel is `256 c + q` for exactly one device `c` and one `q` below 256. -/
def chanEquiv : Fin 32 × Fin 256 ≃ Fin 8192 where
  toFun p := chan p.1 p.2
  invFun ch := (⟨ch.val / 256, by omega⟩, ⟨ch.val % 256, by omega⟩)
  left_inv p := by
    obtain ⟨c, q⟩ := p
    refine Prod.ext (Fin.ext ?_) (Fin.ext ?_)
    · show (c.val * 256 + q.val) / 256 = c.val
      omega
    · show (c.val * 256 + q.val) % 256 = q.val
      omega
  right_inv ch := Fin.ext (by
    show ch.val / 256 * 256 + ch.val % 256 = ch.val
    omega)

/-! ## A device's blocks read at an index -/

theorem blockX_apply (X : SX.Idx → EReal) (c : Fin 32) (h : Layout.Tiles ⟨3, ![4, 512, 256]⟩ ⟨3, ![4, 512, 8192]⟩ 2 32)
    (b : Fin 4) (s : Fin 512) (q : Fin 256) :
    Layout.block ⟨3, ![4, 512, 256]⟩ ⟨3, ![4, 512, 8192]⟩ 2 32 c X h (ix3 b s q) = X (ix3 b s (chan c q)) := by
  show X (h.idx c (ix3 b s q)) = _
  refine congrArg X (funext fun a => ?_)
  match a with
  | ⟨0, _⟩ => exact Fin.ext rfl
  | ⟨1, _⟩ => exact Fin.ext rfl
  | ⟨2, _⟩ => exact Fin.ext rfl

theorem blockK_apply (K : SK.Idx → EReal) (c : Fin 32) (h : Layout.Tiles ⟨2, ![4, 256]⟩ ⟨2, ![4, 8192]⟩ 1 32)
    (t : Fin 4) (q : Fin 256) :
    Layout.block ⟨2, ![4, 256]⟩ ⟨2, ![4, 8192]⟩ 1 32 c K h (ix2 t q) = K (ix2 t (chan c q)) := by
  show K (h.idx c (ix2 t q)) = _
  refine congrArg K (funext fun a => ?_)
  match a with
  | ⟨0, _⟩ => exact Fin.ext rfl
  | ⟨1, _⟩ => exact Fin.ext rfl

theorem blockW_apply (W : SW.Idx → EReal) (c : Fin 32) (h : Layout.Tiles ⟨2, ![256, 256]⟩ ⟨2, ![8192, 256]⟩ 0 32)
    (q : Fin 256) (n : Fin 256) :
    Layout.block ⟨2, ![256, 256]⟩ ⟨2, ![8192, 256]⟩ 0 32 c W h (ix2 q n) = W (ix2 (chan c q) n) := by
  show W (h.idx c (ix2 q n)) = _
  refine congrArg W (funext fun a => ?_)
  match a with
  | ⟨0, _⟩ => exact Fin.ext rfl
  | ⟨1, _⟩ => exact Fin.ext rfl

/-! ## The convolution -/

/-- Tap `t` of the window ending at `s` is the input `j = 3 - t` positions earlier, zero before the start. -/
theorem tap_eq (X : SX.Idx → EReal) (b : Fin 4) (s : Fin 512) (t : Fin 4) (ch : Fin 8192) (j : Nat) (hj : j + t.val = 3) :
    tap X b s t ch = if h : j ≤ s.val then X (ix3 b (⟨s.val - j, by omega⟩ : Fin 512) ch) else 0 := by
  unfold tap
  by_cases h : 3 ≤ s.val + t.val
  · rw [dif_pos h, dif_pos (show j ≤ s.val by omega)]
    exact congrArg (fun z : Fin 512 => X (ix3 b z ch)) (Fin.ext (by show s.val + t.val - 3 = s.val - j; omega))
  · rw [dif_neg h, dif_neg (show ¬ j ≤ s.val by omega)]

/-- The device's block `j` positions earlier is tap `3 - j` of the whole input at the device's channel. -/
theorem shifted_block (X : SX.Idx → EReal) (c : Fin 32) (h : Layout.Tiles ⟨3, ![4, 512, 256]⟩ ⟨3, ![4, 512, 8192]⟩ 2 32)
    (j : Nat) (t : Fin 4) (hj : j + t.val = 3) (b : Fin 4) (s : Fin 512) (q : Fin 256) :
    shifted (Layout.block ⟨3, ![4, 512, 256]⟩ ⟨3, ![4, 512, 8192]⟩ 2 32 c X h) j b s q = tap X b s t (chan c q) := by
  rw [tap_eq X b s t (chan c q) j hj]
  unfold shifted
  by_cases hs : j ≤ s.val
  · rw [dif_pos hs, dif_pos hs]
    exact blockX_apply X c h b _ q
  · rw [dif_neg hs, dif_neg hs]

/-- The position itself is tap 3. -/
theorem here_block (X : SX.Idx → EReal) (c : Fin 32) (h : Layout.Tiles ⟨3, ![4, 512, 256]⟩ ⟨3, ![4, 512, 8192]⟩ 2 32)
    (b : Fin 4) (s : Fin 512) (q : Fin 256) :
    Layout.block ⟨3, ![4, 512, 256]⟩ ⟨3, ![4, 512, 8192]⟩ 2 32 c X h (ix3 b s q) = tap X b s (⟨3, by decide⟩ : Fin 4) (chan c q) := by
  rw [tap_eq X b s ⟨3, by decide⟩ (chan c q) 0 rfl, dif_pos (Nat.zero_le _), blockX_apply]
  exact congrArg (fun z : Fin 512 => X (ix3 b z (chan c q))) (Fin.ext (Nat.sub_zero _).symm)

/-- The specification's convolution with its four products in the order the kernel adds them up. -/
theorem conv_eq (X : SX.Idx → EReal) (K : SK.Idx → EReal) (b : Fin 4) (s : Fin 512) (ch : Fin 8192) :
    conv X K b s ch
      = ((tap X b s (⟨3, by decide⟩ : Fin 4) ch * K (ix2 (⟨3, by decide⟩ : Fin 4) ch)
            + tap X b s (⟨0, by decide⟩ : Fin 4) ch * K (ix2 (⟨0, by decide⟩ : Fin 4) ch))
          + tap X b s (⟨1, by decide⟩ : Fin 4) ch * K (ix2 (⟨1, by decide⟩ : Fin 4) ch))
        + tap X b s (⟨2, by decide⟩ : Fin 4) ch * K (ix2 (⟨2, by decide⟩ : Fin 4) ch) := by
  unfold conv
  rw [Fin.sum_univ_four]
  have hac : ∀ a0 a1 a2 a3 : EReal, a0 + a1 + a2 + a3 = ((a3 + a0) + a1) + a2 := fun a0 a1 a2 a3 => by
    rw [add_comm a3 a0, add_assoc a0 a3 a1, add_comm a3 a1, ← add_assoc a0 a1 a3, add_assoc (a0 + a1) a3 a2, add_comm a3 a2,
      ← add_assoc (a0 + a1) a2 a3]
  exact hac _ _ _ _

/-- The kernel's block convolution on device `c` is the specification's convolution at the device's channel. -/
theorem bconv_block (X : SX.Idx → EReal) (K : SK.Idx → EReal) (c : Fin 32)
    (hX : Layout.Tiles ⟨3, ![4, 512, 256]⟩ ⟨3, ![4, 512, 8192]⟩ 2 32) (hK : Layout.Tiles ⟨2, ![4, 256]⟩ ⟨2, ![4, 8192]⟩ 1 32)
    (b : Fin 4) (s : Fin 512) (q : Fin 256) :
    bconv (Layout.block ⟨3, ![4, 512, 256]⟩ ⟨3, ![4, 512, 8192]⟩ 2 32 c X hX) (Layout.block ⟨2, ![4, 256]⟩ ⟨2, ![4, 8192]⟩ 1 32 c K hK) b s q
      = conv X K b s (chan c q) := by
  rw [conv_eq]
  unfold bconv
  exact congrArg₂ (· + ·)
    (congrArg₂ (· + ·)
      (congrArg₂ (· + ·)
        (congrArg₂ (· * ·) (here_block X c hX b s q) (blockK_apply K c hK _ q))
        (congrArg₂ (· * ·) (shifted_block X c hX 3 ⟨0, by decide⟩ rfl b s q) (blockK_apply K c hK _ q)))
      (congrArg₂ (· * ·) (shifted_block X c hX 2 ⟨1, by decide⟩ rfl b s q) (blockK_apply K c hK _ q)))
    (congrArg₂ (· * ·) (shifted_block X c hX 1 ⟨2, by decide⟩ rfl b s q) (blockK_apply K c hK _ q))

/-! ## The sum over devices and channels -/

/-- The devices' channel sums of the gated block convolution times their rows of the projection add up to the
    specification's result at (batch, position, column). -/
theorem channels_sum (X : SX.Idx → EReal) (K : SK.Idx → EReal) (W : SW.Idx → EReal)
    (hX : Layout.Tiles ⟨3, ![4, 512, 256]⟩ ⟨3, ![4, 512, 8192]⟩ 2 32) (hK : Layout.Tiles ⟨2, ![4, 256]⟩ ⟨2, ![4, 8192]⟩ 1 32)
    (hW : Layout.Tiles ⟨2, ![256, 256]⟩ ⟨2, ![8192, 256]⟩ 0 32) (b : Fin 4) (s : Fin 512) (n : Fin 256) :
    ∑ c : Fin 32, ∑ q : Fin 256,
        (bconv (Layout.block ⟨3, ![4, 512, 256]⟩ ⟨3, ![4, 512, 8192]⟩ 2 32 c X hX) (Layout.block ⟨2, ![4, 256]⟩ ⟨2, ![4, 8192]⟩ 1 32 c K hK) b s q
          * Ideal.logistic (bconv (Layout.block ⟨3, ![4, 512, 256]⟩ ⟨3, ![4, 512, 8192]⟩ 2 32 c X hX)
              (Layout.block ⟨2, ![4, 256]⟩ ⟨2, ![4, 8192]⟩ 1 32 c K hK) b s q))
          * Layout.block ⟨2, ![256, 256]⟩ ⟨2, ![8192, 256]⟩ 0 32 c W hW (ix2 q n)
      = out X K W (ix3 b s n) := by
  show _ = ∑ ch : Fin 8192, act X K b s ch * W (ix2 ch n)
  rw [← Equiv.sum_comp chanEquiv, Fintype.sum_prod_type]
  refine Finset.sum_congr rfl fun c _ => Finset.sum_congr rfl fun q _ => ?_
  show _ = act X K b s (chan c q) * W (ix2 (chan c q) n)
  rw [bconv_block, blockW_apply, gate_eq]
  rfl

/-- info: 'Cert.KJoin.channels_sum' depends on axioms: [propext, Classical.choice, Quot.sound] -/
#guard_msgs in #print axioms channels_sum

end Cert.KJoin

end
-- ==== Proof.KVal.lean ====
/-
The result the kernel leaves on every device, as a function of all the devices' argument blocks, is the specification's
result of the whole arrays. At (batch `b`, position `s`, column `n`) the result is row `r` of slot `j` of the gathered
buffer, `64 j + r = 512 b + s`: the sum over the devices of their partial products there; each partial product is the sum
over the device's 256 channels of the gated convolution times the projection; device `c`'s blocks are channels
`256 c … 256 c + 255` of the whole arrays; so the double sum runs over all 8192 channels once. Nothing here needs the inputs
to be finite: the gate `o · logistic o = o / (1 + e^(-o))` and the regrouping of sums hold on all extended reals.
-/
import Idealize.ShloMosaic.Lib.Layout
import proofs.«900791_g7700000000000792_dist_gconv1d_cshard_i_b4_s512_c256_v7x_i32_bf16_1_alg».proof.Proof.Spec
import proofs.«900791_g7700000000000792_dist_gconv1d_cshard_i_b4_s512_c256_v7x_i32_bf16_1_alg».proof.Proof.Contents
import proofs.«900791_g7700000000000792_dist_gconv1d_cshard_i_b4_s512_c256_v7x_i32_bf16_1_alg».proof.Proof.KPay
import proofs.«900791_g7700000000000792_dist_gconv1d_cshard_i_b4_s512_c256_v7x_i32_bf16_1_alg».proof.Proof.KSum
import proofs.«900791_g7700000000000792_dist_gconv1d_cshard_i_b4_s512_c256_v7x_i32_bf16_1_alg».proof.Proof.KJoin

noncomputable section

namespace Cert.KVal

open Idealize.ShloMosaic Idealize.ShloMosaic.ValueIdx Cert.KernelIdeal Cert.KernelIdeal.Gen

theorem outAll_eq (X : Cert.Spec.SX.Idx → EReal) (K : Cert.Spec.SK.Idx → EReal) (W : Cert.Spec.SW.Idx → EReal)
    (x : Dev nD → Vec Ideal S4x512x256 .f32) (k : Dev nD → Vec Ideal S4x256 .f32) (w : Dev nD → Vec Ideal S256x256 .f32)
    (hx : ∀ c, x c = Layout.block ⟨3, ![4, 512, 256]⟩ ⟨3, ![4, 512, 8192]⟩ 2 32 c X)
    (hk : ∀ c, k c = Layout.block ⟨2, ![4, 256]⟩ ⟨2, ![4, 8192]⟩ 1 32 c K)
    (hw : ∀ c, w c = Layout.block ⟨2, ![256, 256]⟩ ⟨2, ![8192, 256]⟩ 0 32 c W)
    (hfx : ∀ c i, ∃ r : ℝ, x c i = (r : EReal)) (hfk : ∀ c i, ∃ r : ℝ, k c i = (r : EReal)) :
    Cert.KernelIdeal.Contents.outAll (F := Ideal) (fun c => Cert.KernelIdeal.Contents.part (x c) (k c) (w c))
      = Cert.Spec.out X K W := by
  funext i
  obtain ⟨b, s, n, rfl⟩ : ∃ (b : Fin 4) (s : Fin 512) (n : Fin 256), i = ix3 b s n := ⟨i 0, i 1, i 2, eq_ix3 i⟩
  have hj : (b.val * 512 + s.val) / 64 < 32 := by omega
  have hr : (b.val * 512 + s.val) % 64 < 64 := Nat.mod_lt _ (by decide)
  have hR : (⟨(b.val * 512 + s.val) / 64, hj⟩ : Fin 32).val * 64 + (⟨(b.val * 512 + s.val) % 64, hr⟩ : Fin 64).val
      = b.val * 512 + s.val := Nat.div_add_mod' _ _
  rw [Cert.KSum.outAll_apply _ b s n ⟨(b.val * 512 + s.val) / 64, hj⟩ ⟨(b.val * 512 + s.val) % 64, hr⟩ hR,
    ← Cert.KJoin.channels_sum X K W (by decide) (by decide) (by decide) b s n]
  refine Finset.sum_congr rfl fun c _ => ?_
  show Contents.part (x c) (k c) (w c) (ix3 (⟨(b.val * 512 + s.val) / 64, hj⟩ : Fin 32) (⟨(b.val * 512 + s.val) % 64, hr⟩ : Fin 64) n) = _
  rw [Cert.KPay.part_apply (x c) (k c) (w c) ⟨(b.val * 512 + s.val) / 64, hj⟩ ⟨(b.val * 512 + s.val) % 64, hr⟩ n b s hR,
    hx c, hk c, hw c]

/-- info: 'Cert.KVal.outAll_eq' depends on axioms: [propext, Classical.choice, Quot.sound] -/
#guard_msgs in #print axioms outAll_eq

end Cert.KVal

end
-- ==== Proof.Finite.lean ====
/-
Finiteness of the kernel's inputs. The precondition of the idealized kernel says, on every device, that the printed
predicate `finite_inputs` of that device's three argument blocks is all ones. The predicate is the conjunction of
three `jnp.all(|a| < +∞)`; each `all` is a reduction by `and` into one index, so it gives the comparison at every
entry, and an extended real whose magnitude `max a (-a)` is below `⊤` is neither `⊥` nor `⊤`: it is a real.
-/
import proofs.«900791_g7700000000000792_dist_gconv1d_cshard_i_b4_s512_c256_v7x_i32_bf16_1_alg».proof.Defs
import Idealize.ShloMosaic.PureOps.Ideal
import Idealize.ShloMosaic.Lib.ReduceAll
import Idealize.ShloMosaic.Lib.ValueIdx

namespace Cert.Finite

open Idealize.ShloMosaic Idealize.SL.Sem Cert.Pre_finite_inputs_Kernel

/-- The f32 word `0x7F800000` is `+∞`. -/
theorem ofBits_inf_f32 : Ideal.ofBits .f32 0x7F800000#32 = ⊤ := by simp [Ideal.ofBits, Ideal.ieee]

/-- An extended real whose magnitude is below `+∞` is a real: at `⊥` and at `⊤` the magnitude `max x (-x)` is `⊤`. -/
theorem real_of_abs_lt_inf (x : EReal)
    (h : Ideal.cmp .olt (max x (-x)) (Ideal.ofBits .f32 0x7F800000#32) = 1#1) : ∃ r : ℝ, x = (r : EReal) := by
  rw [ofBits_inf_f32] at h
  induction x using EReal.rec with
  | bot => simp [Ideal.cmp] at h
  | coe r => exact ⟨r, rfl⟩
  | top => simp [Ideal.cmp] at h

/-- The rank-0 shape has one index. -/
instance : Subsingleton S_.Idx := ⟨fun a b => funext fun d => d.elim0⟩

/-- The printed predicate, all ones, says that every entry of its three arguments is a real. -/
theorem real_of_fn [hF : Cert.Pre_finite_inputs_Kernel.Facts] (x : FVec Ideal S4x512x256 .f32)
    (k : FVec Ideal S4x256 .f32) (w : FVec Ideal S256x256 .f32) (h : fn (F := Ideal) x k w = fun _ => 1#1) :
    (∀ i, ∃ r : ℝ, x i = (r : EReal)) ∧ (∀ i, ∃ r : ℝ, k i = (r : EReal)) ∧ (∀ i, ∃ r : ℝ, w i = (r : EReal)) := by
  have h0 := congrFun h ValueIdx.ix0
  dsimp only [fn] at h0
  obtain ⟨h01, h2⟩ := IntOp.andi_eq_one.1 h0
  obtain ⟨h0', h1⟩ := IntOp.andi_eq_one.1 h01
  refine ⟨fun i => ?_, fun i => ?_, fun i => ?_⟩
  · exact real_of_abs_lt_inf (x i) (Host.reduce_andi_all _ _ _ _ _ h0' i)
  · exact real_of_abs_lt_inf (k i) (Host.reduce_andi_all _ _ _ _ _ h1 i)
  · exact real_of_abs_lt_inf (w i) (Host.reduce_andi_all _ _ _ _ _ h2 i)

/-- Under the kernel's precondition every entry of every device's input block and of its block of taps is a real. -/
theorem real_of_pre [hPre_finite_inputs_Kernel : Cert.Pre_finite_inputs_Kernel.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ,
          m ((c.tc : Thread Cert.KernelIdeal.nD Cert.KernelIdeal.τ).loc Cert.KernelIdeal.main_arg1) i = (r : EReal)) := by
  obtain ⟨hx, hk, _⟩ := real_of_fn _ _ _ (h c)
  exact ⟨hx, hk⟩

/-- The same of every device's block of the projection. -/
theorem real_of_pre_w [hPre_finite_inputs_Kernel : Cert.Pre_finite_inputs_Kernel.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg2) i = (r : EReal) :=
  (real_of_fn _ _ _ (h c)).2.2

/-- info: 'Cert.Finite.real_of_pre' depends on axioms: [propext, Classical.choice, Quot.sound] -/
#guard_msgs in #print axioms real_of_pre

end Cert.Finite
-- ==== Proof.Assemble.lean ====
/-
The certificate's five conjuncts from the kernel's run at the two float instances. The run names every device's result as
the gathered result, a function of all devices' argument arrays, and leaves the arguments unchanged. Each kernel frame is
that run with the value dropped. Over the extended reals, with every device's arrays the blocks of the reference's whole
arrays, the gathered result is the specification's result of the whole arrays, which is what the reference's run leaves in its
result array; so the two programs end with equal results, their arguments unchanged.
-/
import proofs.«900791_g7700000000000792_dist_gconv1d_cshard_i_b4_s512_c256_v7x_i32_bf16_1_alg».proof.Defs
import proofs.«900791_g7700000000000792_dist_gconv1d_cshard_i_b4_s512_c256_v7x_i32_bf16_1_alg».proof.Proof.Gen.Kernel
import proofs.«900791_g7700000000000792_dist_gconv1d_cshard_i_b4_s512_c256_v7x_i32_bf16_1_alg».proof.Proof.Gen.KernelIdeal
import proofs.«900791_g7700000000000792_dist_gconv1d_cshard_i_b4_s512_c256_v7x_i32_bf16_1_alg».proof.Proof.Gen.ReferenceIdeal
import proofs.«900791_g7700000000000792_dist_gconv1d_cshard_i_b4_s512_c256_v7x_i32_bf16_1_alg».proof.Proof.Gen.Pre_finite_inputs_Kernel
import proofs.«900791_g7700000000000792_dist_gconv1d_cshard_i_b4_s512_c256_v7x_i32_bf16_1_alg».proof.Proof.Gen.Pre_finite_inputs_ReferenceIdeal
import proofs.«900791_g7700000000000792_dist_gconv1d_cshard_i_b4_s512_c256_v7x_i32_bf16_1_alg».proof.Proof.Run
import proofs.«900791_g7700000000000792_dist_gconv1d_cshard_i_b4_s512_c256_v7x_i32_bf16_1_alg».proof.Proof.Run_Bits
import proofs.«900791_g7700000000000792_dist_gconv1d_cshard_i_b4_s512_c256_v7x_i32_bf16_1_alg».proof.Proof.RefValue
import proofs.«900791_g7700000000000792_dist_gconv1d_cshard_i_b4_s512_c256_v7x_i32_bf16_1_alg».proof.Proof.KVal
import proofs.«900791_g7700000000000792_dist_gconv1d_cshard_i_b4_s512_c256_v7x_i32_bf16_1_alg».proof.Proof.Finite

noncomputable section

namespace Cert.Assemble

open Idealize.ShloMosaic Idealize.SL.Sem

/-- The gathered result of the devices' argument arrays is the specification's result of the whole arrays of which they are
    the blocks. -/
theorem gathered_eq [hPre : Cert.Pre_finite_inputs_Kernel.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m ((c.tc : Thread Cert.KernelIdeal.nD Cert.KernelIdeal.τ).loc Cert.KernelIdeal.main_arg0) = Layout.block ⟨3, ![4, 512, 256]⟩ ⟨3, ![4, 512, 8192]⟩ 2 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4, 256]⟩ ⟨2, ![4, 8192]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 256]⟩ ⟨2, ![8192, 256]⟩ 0 32 c (m' (((0 : Dev Cert.ReferenceIdeal.nD).tc : Thread Cert.ReferenceIdeal.nD Cert.ReferenceIdeal.τ).loc Cert.ReferenceIdeal.main_arg2))) :
    Cert.KernelIdeal.Contents.outAll (F := Ideal) (Cert.KernelIdeal.Run.PA m)
      = Cert.Spec.out (m' (((0 : Dev Cert.ReferenceIdeal.nD).tc : Thread Cert.ReferenceIdeal.nD Cert.ReferenceIdeal.τ).loc Cert.ReferenceIdeal.main_arg0))
          (m' (((0 : Dev Cert.ReferenceIdeal.nD).tc : Thread Cert.ReferenceIdeal.nD Cert.ReferenceIdeal.τ).loc Cert.ReferenceIdeal.main_arg1))
          (m' (((0 : Dev Cert.ReferenceIdeal.nD).tc : Thread Cert.ReferenceIdeal.nD Cert.ReferenceIdeal.τ).loc Cert.ReferenceIdeal.main_arg2)) :=
  Cert.KVal.outAll_eq _ _ _
    (fun c => m ((c.tc : Thread Cert.KernelIdeal.nD Cert.KernelIdeal.τ).loc Cert.KernelIdeal.main_arg0))
    (fun c => m ((c.tc : Thread Cert.KernelIdeal.nD Cert.KernelIdeal.τ).loc Cert.KernelIdeal.main_arg1))
    (fun c => m ((c.tc : Thread Cert.KernelIdeal.nD Cert.KernelIdeal.τ).loc Cert.KernelIdeal.main_arg2))
    (fun c => (hagree c).1) (fun c => (hagree c).2.1) (fun c => (hagree c).2.2)
    (fun c => (Cert.Finite.real_of_pre m hpre c).1) (fun c => (Cert.Finite.real_of_pre m hpre c).2)

/-- The claim, from the kernel's run at the extended reals and at the words. -/
theorem claim_of
    (hI : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩
        (Cert.KernelIdeal.Run.QC (F := Ideal) m))
    (hB : ∀ (m : (ℓ : Loc Cert.Kernel.nD Cert.Kernel.τ Cert.Kernel.sig) → Buf (Elt Bits) ℓ) (ρ : Dev Cert.Kernel.nD → PrngReg),
      θ_run (Cert.Kernel.defs (F := Bits)) (onTc (τ := Cert.Kernel.τ) (Cert.Kernel.main (F := Bits))) ⟨m, fun _ => 0, ρ⟩
        (Cert.Kernel.Run.QC (F := Bits) m)) :
    Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    fun m ρ _ => (θ_run (Cert.Kernel.defs (F := Bits)) _ _).mono (fun _ h c => (h c).2) (hB m ρ),
    fun m ρ _ => (θ_run (Cert.KernelIdeal.defs (F := Ideal)) _ _).mono (fun _ h c => (h c).2) (hI m ρ),
    Cert.RefValue.ref_frame,
    trivial,
    fun m ρ m' ρ' hpre hagree =>
      ⟨Cert.Spec.out (m' (((0 : Dev Cert.ReferenceIdeal.nD).tc : Thread Cert.ReferenceIdeal.nD Cert.ReferenceIdeal.τ).loc Cert.ReferenceIdeal.main_arg0))
          (m' (((0 : Dev Cert.ReferenceIdeal.nD).tc : Thread Cert.ReferenceIdeal.nD Cert.ReferenceIdeal.τ).loc Cert.ReferenceIdeal.main_arg1))
          (m' (((0 : Dev Cert.ReferenceIdeal.nD).tc : Thread Cert.ReferenceIdeal.nD Cert.ReferenceIdeal.τ).loc Cert.ReferenceIdeal.main_arg2)),
        (θ_run (Cert.KernelIdeal.defs (F := Ideal)) _ _).mono
          (fun _ h c => ⟨(h c).1.trans (gathered_eq m m' hpre hagree), (h c).2⟩) (hI m ρ),
        Cert.RefValue.ref_run m' ρ'⟩⟩

/-- info: 'Cert.Assemble.claim_of' depends on axioms: [propext, Classical.choice, Quot.sound] -/
#guard_msgs in #print axioms claim_of

end Cert.Assemble

end
-- ==== Proof.lean ====
/-
The certificate's five conjuncts assembled. Each device computes, over its own 256 channels, the causal
four-tap convolution, the gate and the projection; the reduce-scatter sums the 32 partial products chunk by
chunk, the all-gather re-assembles the 32 chunks on every device. The run of the kernel (at either float
instance) names each device's result as that function of every device's argument blocks and leaves the
arguments unchanged: the two kernel frames are that run with the value dropped. Over the extended reals the
function is the reference's: tpu.logistic is 1 / (1 + e^(-o)), o · (1 / (1 + e^(-o))) = o / (1 + e^(-o)),
the channel sum over 8192 splits over the 32 blocks of 256, and the chunks tile the 2048 rows.
-/
import proofs.«900791_g7700000000000792_dist_gconv1d_cshard_i_b4_s512_c256_v7x_i32_bf16_1_alg».proof.Defs
import proofs.«900791_g7700000000000792_dist_gconv1d_cshard_i_b4_s512_c256_v7x_i32_bf16_1_alg».proof.Proof.Gen.Kernel
import proofs.«900791_g7700000000000792_dist_gconv1d_cshard_i_b4_s512_c256_v7x_i32_bf16_1_alg».proof.Proof.Gen.Kernel.Skeleton
import proofs.«900791_g7700000000000792_dist_gconv1d_cshard_i_b4_s512_c256_v7x_i32_bf16_1_alg».proof.Proof.Gen.Kernel.Launch
import proofs.«900791_g7700000000000792_dist_gconv1d_cshard_i_b4_s512_c256_v7x_i32_bf16_1_alg».proof.Proof.Gen.Kernel.Points
import proofs.«900791_g7700000000000792_dist_gconv1d_cshard_i_b4_s512_c256_v7x_i32_bf16_1_alg».proof.Proof.Gen.Kernel.Frame
import proofs.«900791_g7700000000000792_dist_gconv1d_cshard_i_b4_s512_c256_v7x_i32_bf16_1_alg».proof.Proof.Gen.KernelIdeal
import proofs.«900791_g7700000000000792_dist_gconv1d_cshard_i_b4_s512_c256_v7x_i32_bf16_1_alg».proof.Proof.Gen.KernelIdeal.Skeleton
import proofs.«900791_g7700000000000792_dist_gconv1d_cshard_i_b4_s512_c256_v7x_i32_bf16_1_alg».proof.Proof.Gen.KernelIdeal.Launch
import proofs.«900791_g7700000000000792_dist_gconv1d_cshard_i_b4_s512_c256_v7x_i32_bf16_1_alg».proof.Proof.Gen.KernelIdeal.Points
import proofs.«900791_g7700000000000792_dist_gconv1d_cshard_i_b4_s512_c256_v7x_i32_bf16_1_alg».proof.Proof.Gen.KernelIdeal.Frame
import proofs.«900791_g7700000000000792_dist_gconv1d_cshard_i_b4_s512_c256_v7x_i32_bf16_1_alg».proof.Proof.Gen.ReferenceIdeal
import proofs.«900791_g7700000000000792_dist_gconv1d_cshard_i_b4_s512_c256_v7x_i32_bf16_1_alg».proof.Proof.Gen.Pre_finite_inputs_Kernel
import proofs.«900791_g7700000000000792_dist_gconv1d_cshard_i_b4_s512_c256_v7x_i32_bf16_1_alg».proof.Proof.Gen.Pre_finite_inputs_ReferenceIdeal
import proofs.«900791_g7700000000000792_dist_gconv1d_cshard_i_b4_s512_c256_v7x_i32_bf16_1_alg».proof.Proof.RunMain
import proofs.«900791_g7700000000000792_dist_gconv1d_cshard_i_b4_s512_c256_v7x_i32_bf16_1_alg».proof.Proof.RunMain_Bits
import proofs.«900791_g7700000000000792_dist_gconv1d_cshard_i_b4_s512_c256_v7x_i32_bf16_1_alg».proof.Proof.Assemble
import Idealize.ShloMosaic.Adequacy
import Idealize.ShloMosaic.Init

noncomputable section

namespace Cert.Proof

open Idealize.ShloMosaic Idealize.SL.Sem

theorem claim : Cert.Claim :=
  Cert.Assemble.claim_of (fun m ρ => Cert.KernelIdeal.Run.run_main (F := Ideal) m ρ) (fun m ρ => Cert.Kernel.Run.run_main (F := Bits) m ρ)

end Cert.Proof

end
